-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S128x128 : Shape := ⟨2, ![128, 128]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S640000 32) (main_v13 : IVec S_ 1) (main_v15 : IVec S640000 1) (main_c_5 : IVec S_ 32) : IVec S_ 1 :=
  let main_v16 : IVec S640000 32 := broadcastInDim S640000 ![] bcast_S_S640000 main_c_5
  let main_v17 : IVec S640000 1 := cmpi .slt main_arg1 main_v16
  let main_v18 : IVec S640000 1 := andi main_v15 main_v17
  let main_c_6 : IVec S_ 1 := constantI S_ 1 1#1
  let main_v19 : IVec S_ 1 := (fun x v => Host.reduce IntOp.andi x v reducesTo_S640000_S_d0 h_S_) main_v18 main_c_6
  let main_v20 : IVec S_ 1 := andi main_v13 main_v19
  main_v20

def fn {F : FTy → Type} [FloatOps F] (main_arg0 : FVec F S50000x128 .f32) (main_arg1 : IVec S640000 32) (main_arg2 : IVec S640000 32) (main_arg3 : FVec F S128x128 .f32) (main_arg4 : FVec F S1x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x128 .f32 := Host.absf main_arg4
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_c_4 : IVec S_ 32 := constantI S_ 32 0#32
  let main_v14 : IVec S640000 32 := broadcastInDim S640000 ![] bcast_S_S640000 main_c_4
  let main_v15 : IVec S640000 1 := cmpi .sge main_arg1 main_v14
  let main_c_5 : IVec S_ 32 := constantI S_ 32 50000#32
  fn_part1 (F := F) main_arg1 main_v13 main_v15 main_c_5
-- ==== Kernel.lean ====
abbrev S50000x128 : Shape := ⟨2, ![50000, 128]⟩
abbrev S640000 : Shape := ⟨1, ![640000]⟩
abbrev S128x128 : Shape := ⟨2, ![128, 128]⟩
abbrev S1x128 : Shape := ⟨2, ![1, 128]⟩
abbrev S50000x1x128 : Shape := ⟨3, ![50000, 1, 128]⟩
abbrev S64000 : Shape := ⟨1, ![64000]⟩
abbrev S64000x1x128 : Shape := ⟨3, ![64000, 1, 128]⟩
abbrev S16x1x128 : Shape := ⟨3, ![16, 1, 128]⟩
abbrev S16 : Shape := ⟨1, ![16]⟩
abbrev S1 : Shape := ⟨1, ![1]⟩
abbrev S_ : Shape := ⟨0, ![]⟩
abbrev S1x1x128 : Shape := ⟨3, ![1, 1, 128]⟩
abbrev S640000x1x128 : Shape := ⟨3, ![640000, 1, 128]⟩
abbrev S640000x128 : Shape := ⟨2, ![640000, 128]⟩
abbrev S640000x1 : Shape := ⟨2, ![640000, 1]⟩
abbrev S2000x128 : Shape := ⟨2, ![2000, 128]⟩

abbrev nBuf : Space → Nat
  | .hbm => 23
  | .vmem => 36
  | .smem => 10
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S1x128, .f32⟩
  | .hbm, ⟨5, _⟩ => ⟨S50000x1x128, .f32⟩
  | .hbm, ⟨6, _⟩ => ⟨S64000x1x128, .f32⟩
  | .hbm, ⟨7, _⟩ => ⟨S64000x1x128, .f32⟩
  | .hbm, ⟨8, _⟩ => ⟨S64000x1x128, .f32⟩
  | .hbm, ⟨9, _⟩ => ⟨S64000x1x128, .f32⟩
  | .hbm, ⟨10, _⟩ => ⟨S64000x1x128, .f32⟩
  | .hbm, ⟨11, _⟩ => ⟨S64000x1x128, .f32⟩
  | .hbm, ⟨12, _⟩ => ⟨S64000x1x128, .f32⟩
  | .hbm, ⟨13, _⟩ => ⟨S64000x1x128, .f32⟩
  | .hbm, ⟨14, _⟩ => ⟨S64000x1x128, .f32⟩
  | .hbm, ⟨15, _⟩ => ⟨S64000x1x128, .f32⟩
  | .hbm, ⟨16, _⟩ => ⟨S640000x1x128, .f32⟩
  | .hbm, ⟨17, _⟩ => ⟨S640000x128, .f32⟩
  | .hbm, ⟨18, _⟩ => ⟨S_, .f32⟩
  | .hbm, ⟨19, _⟩ => ⟨S50000x128, .f32⟩
  | .hbm, ⟨20, _⟩ => ⟨S640000x1, .i32⟩
  | .hbm, ⟨21, _⟩ => ⟨S50000x128, .f32⟩
  | .hbm, ⟨22, _⟩ => ⟨S50000x128, .f32⟩
  | .local _ .vmem, ⟨0, _⟩ => ⟨S16x1x128, .f32⟩
  | .local _ .vmem, ⟨1, _⟩ => ⟨S16x1x128, .f32⟩
  | .local _ .vmem, ⟨2, _⟩ => ⟨S16x1x128, .f32⟩
  | .local _ .vmem, ⟨3, _⟩ => ⟨S16x1x128, .f32⟩
  | .local _ .vmem, ⟨4, _⟩ => ⟨S16x1x128, .f32⟩
  | .local _ .vmem, ⟨5, _⟩ => ⟨S16x1x128, .f32⟩
  | .local _ .vmem, ⟨6, _⟩ => ⟨S16x1x128, .f32⟩
  | .local _ .vmem, ⟨7, _⟩ => ⟨S16x1x128, .f32⟩
  | .local _ .vmem, ⟨8, _⟩ => ⟨S16x1x128, .f32⟩
  | .local _ .vmem, ⟨9, _⟩ => ⟨S16x1x128, .f32⟩
  | .local _ .vmem, ⟨10, _⟩ => ⟨S16x1x128, .f32⟩
  | .local _ .vmem, ⟨11, _⟩ => ⟨S16x1x128, .f32⟩
  | .local _ .vmem, ⟨12, _⟩ => ⟨S16x1x128, .f32⟩
  | .local _ .vmem, ⟨13, _⟩ => ⟨S16x1x128, .f32⟩
  | .local _ .vmem, ⟨14, _⟩ => ⟨S16x1x128, .f32⟩
  | .local _ .vmem, ⟨15, _⟩ => ⟨S16x1x128, .f32⟩
  | .local _ .vmem, ⟨16, _⟩ => ⟨S16x1x128, .f32⟩
  | .local _ .vmem, ⟨17, _⟩ => ⟨S16x1x128, .f32⟩
  | .local _ .vmem, ⟨18, _⟩ => ⟨S16x1x128, .f32⟩
  | .local _ .vmem, ⟨19, _⟩ => ⟨S16x1x128, .f32⟩
  | .local _ .vmem, ⟨20, _⟩ => ⟨S16x1x128, .f32⟩
  | .local _ .vmem, ⟨21, _⟩ => ⟨S16x1x128, .f32⟩
  | .local _ .vmem, ⟨22, _⟩ => ⟨S16x1x128, .f32⟩
  | .local _ .vmem, ⟨23, _⟩ => ⟨S16x1x128, .f32⟩
  | .local _ .vmem, ⟨24, _⟩ => ⟨S16x1x128, .f32⟩
  | .local _ .vmem, ⟨25, _⟩ => ⟨S16x1x128, .f32⟩
  | .local _ .vmem, ⟨26, _⟩ => ⟨S16x1x128, .f32⟩
  | .local _ .vmem, ⟨27, _⟩ => ⟨S16x1x128, .f32⟩
  | .local _ .vmem, ⟨28, _⟩ => ⟨S16x1x128, .f32⟩
  | .local _ .vmem, ⟨29, _⟩ => ⟨S16x1x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .smem, ⟨0, _⟩ => ⟨S64000, .i32⟩
  | .local _ .smem, ⟨1, _⟩ => ⟨S64000, .i32⟩
  | .local _ .smem, ⟨2, _⟩ => ⟨S64000, .i32⟩
  | .local _ .smem, ⟨3, _⟩ => ⟨S64000, .i32⟩
  | .local _ .smem, ⟨4, _⟩ => ⟨S64000, .i32⟩
  | .local _ .smem, ⟨5, _⟩ => ⟨S64000, .i32⟩
  | .local _ .smem, ⟨6, _⟩ => ⟨S64000, .i32⟩
  | .local _ .smem, ⟨7, _⟩ => ⟨S64000, .i32⟩
  | .local _ .smem, ⟨8, _⟩ => ⟨S64000, .i32⟩
  | .local _ .smem, ⟨9, _⟩ => ⟨S64000, .i32⟩
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 186 → Bool
  | ⟨i, _⟩ => dmaSemScopedAt i

abbrev sig : RefSig :=
  ofTc nBuf bufTy 0 186 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v2 : Ref sig .tc := ⟨.hbm, 6, rfl⟩
abbrev main_v4 : Ref sig .tc := ⟨.hbm, 7, rfl⟩
abbrev main_v6 : Ref sig .tc := ⟨.hbm, 8, rfl⟩
abbrev main_v8 : Ref sig .tc := ⟨.hbm, 9, rfl⟩
abbrev main_v10 : Ref sig .tc := ⟨.hbm, 10, rfl⟩
abbrev main_v12 : Ref sig .tc := ⟨.hbm, 11, rfl⟩
abbrev main_v14 : Ref sig .tc := ⟨.hbm, 12, rfl⟩
abbrev main_v16 : Ref sig .tc := ⟨.hbm, 13, rfl⟩
abbrev main_v18 : Ref sig .tc := ⟨.hbm, 14, rfl⟩
abbrev main_v20 : Ref sig .tc := ⟨.hbm, 15, rfl⟩
abbrev main_v21 : Ref sig .tc := ⟨.hbm, 16, rfl⟩
abbrev main_v22 : Ref sig .tc := ⟨.hbm, 17, rfl⟩
abbrev main_cst : Ref sig .tc := ⟨.hbm, 18, rfl⟩
abbrev main_v23 : Ref sig .tc := ⟨.hbm, 19, rfl⟩
abbrev main_v24 : Ref sig .tc := ⟨.hbm, 20, rfl⟩
abbrev main_v25 : Ref sig .tc := ⟨.hbm, 21, rfl⟩
abbrev main_v26 : Ref sig .tc := ⟨.hbm, 22, rfl⟩
abbrev main_v1 : Ref sig .tc := ⟨.smem, 0, rfl⟩
abbrev main_v3 : Ref sig .tc := ⟨.smem, 1, rfl⟩
abbrev main_v5 : Ref sig .tc := ⟨.smem, 2, rfl⟩
abbrev main_v7 : Ref sig .tc := ⟨.smem, 3, rfl⟩
abbrev main_v9 : Ref sig .tc := ⟨.smem, 4, rfl⟩
abbrev main_v11 : Ref sig .tc := ⟨.smem, 5, rfl⟩
abbrev main_v13 : Ref sig .tc := ⟨.smem, 6, rfl⟩
abbrev main_v15 : Ref sig .tc := ⟨.smem, 7, rfl⟩
abbrev main_v17 : Ref sig .tc := ⟨.smem, 8, rfl⟩
abbrev main_v19 : Ref sig .tc := ⟨.smem, 9, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_scratch0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_scratch0 : Ref sig .tc := ⟨.vmem, 8, rfl⟩
abbrev cc3_stg0_0 : Ref sig .tc := ⟨.vmem, 9, rfl⟩
abbrev cc3_stg0_1 : Ref sig .tc := ⟨.vmem, 10, rfl⟩
abbrev cc3_scratch0 : Ref sig .tc := ⟨.vmem, 11, rfl⟩
abbrev cc4_stg0_0 : Ref sig .tc := ⟨.vmem, 12, rfl⟩
abbrev cc4_stg0_1 : Ref sig .tc := ⟨.vmem, 13, rfl⟩
abbrev cc4_scratch0 : Ref sig .tc := ⟨.vmem, 14, rfl⟩
abbrev cc5_stg0_0 : Ref sig .tc := ⟨.vmem, 15, rfl⟩
abbrev cc5_stg0_1 : Ref sig .tc := ⟨.vmem, 16, rfl⟩
abbrev cc5_scratch0 : Ref sig .tc := ⟨.vmem, 17, rfl⟩
abbrev cc6_stg0_0 : Ref sig .tc := ⟨.vmem, 18, rfl⟩
abbrev cc6_stg0_1 : Ref sig .tc := ⟨.vmem, 19, rfl⟩
abbrev cc6_scratch0 : Ref sig .tc := ⟨.vmem, 20, rfl⟩
abbrev cc7_stg0_0 : Ref sig .tc := ⟨.vmem, 21, rfl⟩
abbrev cc7_stg0_1 : Ref sig .tc := ⟨.vmem, 22, rfl⟩
abbrev cc7_scratch0 : Ref sig .tc := ⟨.vmem, 23, rfl⟩
abbrev cc8_stg0_0 : Ref sig .tc := ⟨.vmem, 24, rfl⟩
abbrev cc8_stg0_1 : Ref sig .tc := ⟨.vmem, 25, rfl⟩
abbrev cc8_scratch0 : Ref sig .tc := ⟨.vmem, 26, rfl⟩
abbrev cc9_stg0_0 : Ref sig .tc := ⟨.vmem, 27, rfl⟩
abbrev cc9_stg0_1 : Ref sig .tc := ⟨.vmem, 28, rfl⟩
abbrev cc9_scratch0 : Ref sig .tc := ⟨.vmem, 29, rfl⟩
abbrev cc10_stg0_0 : Ref sig .tc := ⟨.vmem, 30, rfl⟩
abbrev cc10_stg0_1 : Ref sig .tc := ⟨.vmem, 31, rfl⟩
abbrev cc10_stg1_0 : Ref sig .tc := ⟨.vmem, 32, rfl⟩
abbrev cc10_stg2_0 : Ref sig .tc := ⟨.vmem, 33, rfl⟩
abbrev cc10_stg3_0 : Ref sig .tc := ⟨.vmem, 34, rfl⟩
abbrev cc10_stg3_1 : Ref sig .tc := ⟨.vmem, 35, rfl⟩
abbrev cc0_sem0_0 : DmaSem sig := 0
abbrev cc0_sem0_1 : DmaSem sig := 1
abbrev cc1_sem0_0 : DmaSem sig := 18
abbrev cc1_sem0_1 : DmaSem sig := 19
abbrev cc2_sem0_0 : DmaSem sig := 36
abbrev cc2_sem0_1 : DmaSem sig := 37
abbrev cc3_sem0_0 : DmaSem sig := 54
abbrev cc3_sem0_1 : DmaSem sig := 55
abbrev cc4_sem0_0 : DmaSem sig := 72
abbrev cc4_sem0_1 : DmaSem sig := 73
abbrev cc5_sem0_0 : DmaSem sig := 90
abbrev cc5_sem0_1 : DmaSem sig := 91
abbrev cc6_sem0_0 : DmaSem sig := 108
abbrev cc6_sem0_1 : DmaSem sig := 109
abbrev cc7_sem0_0 : DmaSem sig := 126
abbrev cc7_sem0_1 : DmaSem sig := 127
abbrev cc8_sem0_0 : DmaSem sig := 144
abbrev cc8_sem0_1 : DmaSem sig := 145
abbrev cc9_sem0_0 : DmaSem sig := 162
abbrev cc9_sem0_1 : DmaSem sig := 163
abbrev cc10_sem0_0 : DmaSem sig := 180
abbrev cc10_sem0_1 : DmaSem sig := 181
abbrev cc10_sem1_0 : DmaSem sig := 182
abbrev cc10_sem2_0 : DmaSem sig := 183
abbrev cc10_sem3_0 : DmaSem sig := 184
abbrev cc10_sem3_1 : DmaSem sig := 185

abbrev nD : Nat := 1
abbrev τ : Topo := Topo.v7x

variable {F : FTy → Type} [FloatOps F]

abbrev grid0 : Pipeline.Grid := ⟨1, ![4000], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![v3.toNat, 0, 0]

def k0_off3 (i : grid0.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k0_off4 (v12 : BitVec 32) : Fin 3 → Nat :=
  let c0_i32_10 : BitVec 32 := 0#32
  let c0_i32_11 : BitVec 32 := 0#32
  ![v12.toNat, 0, 0]

def k0_off5 (i : grid0.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k0_off6 (v21 : BitVec 32) : Fin 3 → Nat :=
  let c0_i32_16 : BitVec 32 := 0#32
  let c0_i32_17 : BitVec 32 := 0#32
  ![v21.toNat, 0, 0]

def k0_off7 (i : grid0.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k0_off8 (v30 : BitVec 32) : Fin 3 → Nat :=
  let c0_i32_22 : BitVec 32 := 0#32
  let c0_i32_23 : BitVec 32 := 0#32
  ![v30.toNat, 0, 0]

def k0_off9 (i : grid0.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k0_off10 (v39 : BitVec 32) : Fin 3 → Nat :=
  let c0_i32_28 : BitVec 32 := 0#32
  let c0_i32_29 : BitVec 32 := 0#32
  ![v39.toNat, 0, 0]

def k0_off11 (i : grid0.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k0_off12 (v48 : BitVec 32) : Fin 3 → Nat :=
  let c0_i32_34 : BitVec 32 := 0#32
  let c0_i32_35 : BitVec 32 := 0#32
  ![v48.toNat, 0, 0]

def k0_off13 (i : grid0.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k0_off14 (v57 : BitVec 32) : Fin 3 → Nat :=
  let c0_i32_40 : BitVec 32 := 0#32
  let c0_i32_41 : BitVec 32 := 0#32
  ![v57.toNat, 0, 0]

def k0_off15 (i : grid0.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k0_off16 (v66 : BitVec 32) : Fin 3 → Nat :=
  let c0_i32_46 : BitVec 32 := 0#32
  let c0_i32_47 : BitVec 32 := 0#32
  ![v66.toNat, 0, 0]

def k0_off17 (i : grid0.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k0_off18 (v75 : BitVec 32) : Fin 3 → Nat :=
  let c0_i32_52 : BitVec 32 := 0#32
  let c0_i32_53 : BitVec 32 := 0#32
  ![v75.toNat, 0, 0]

def k0_off19 (i : grid0.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k0_off20 (v84 : BitVec 32) : Fin 3 → Nat :=
  let c0_i32_58 : BitVec 32 := 0#32
  let c0_i32_59 : BitVec 32 := 0#32
  ![v84.toNat, 0, 0]

def k0_off21 (i : grid0.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k0_off22 (v93 : BitVec 32) : Fin 3 → Nat :=
  let c0_i32_64 : BitVec 32 := 0#32
  let c0_i32_65 : BitVec 32 := 0#32
  ![v93.toNat, 0, 0]

def k0_off23 (i : grid0.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k0_off24 (v102 : BitVec 32) : Fin 3 → Nat :=
  let c0_i32_70 : BitVec 32 := 0#32
  let c0_i32_71 : BitVec 32 := 0#32
  ![v102.toNat, 0, 0]

def k0_off25 (i : grid0.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k0_off26 (v111 : BitVec 32) : Fin 3 → Nat :=
  let c0_i32_76 : BitVec 32 := 0#32
  let c0_i32_77 : BitVec 32 := 0#32
  ![v111.toNat, 0, 0]

def k0_off27 (i : grid0.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k0_off28 (v120 : BitVec 32) : Fin 3 → Nat :=
  let c0_i32_82 : BitVec 32 := 0#32
  let c0_i32_83 : BitVec 32 := 0#32
  ![v120.toNat, 0, 0]

def k0_off29 (i : grid0.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k0_off30 (v129 : BitVec 32) : Fin 3 → Nat :=
  let c0_i32_88 : BitVec 32 := 0#32
  let c0_i32_89 : BitVec 32 := 0#32
  ![v129.toNat, 0, 0]

def k0_off31 (i : grid0.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k0_off32 (v138 : BitVec 32) : Fin 3 → Nat :=
  let c0_i32_94 : BitVec 32 := 0#32
  let c0_i32_95 : BitVec 32 := 0#32
  ![v138.toNat, 0, 0]

def k0_chk16 (v138 : BitVec 32) : Prop :=
  (∀ a, (k0_off32 v138) a + S1x1x128.size a ≤ S50000x1x128.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x1x128.size a ≤ S50000x1x128.size a := fun v138 k0_hw16 => k0_hw16

def k0_off33 (v3 : BitVec 32) : Fin 3 → Nat :=
  let c0_i32_100 : BitVec 32 := 0#32
  let c0_i32_101 : BitVec 32 := 0#32
  ![v3.toNat, 0, 0]

def k0_chk1 (v3 : BitVec 32) : Prop :=
  (∀ a, (k0_off2 v3) a + S1x1x128.size a ≤ S50000x1x128.size a) ∧
  (∀ a, (k0_off33 v3) a + S1x1x128.size a ≤ S50000x1x128.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x1x128.size a ≤ S50000x1x128.size a := fun v3 k0_hw1 => k0_hw1.1
theorem k0_off33_inb : ∀ (v3 : BitVec 32) (k0_hw1 : k0_chk1 v3), ∀ a, (k0_off33 v3) a + S1x1x128.size a ≤ S50000x1x128.size a := fun v3 k0_hw1 => k0_hw1.2

def k0_off34 (v12 : BitVec 32) : Fin 3 → Nat :=
  let c0_i32_106 : BitVec 32 := 0#32
  let c0_i32_107 : BitVec 32 := 0#32
  ![v12.toNat, 0, 0]

def k0_chk2 (v12 : BitVec 32) : Prop :=
  (∀ a, (k0_off4 v12) a + S1x1x128.size a ≤ S50000x1x128.size a) ∧
  (∀ a, (k0_off34 v12) a + S1x1x128.size a ≤ S50000x1x128.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1x128.size a ≤ S50000x1x128.size a := fun v12 k0_hw2 => k0_hw2.1
theorem k0_off34_inb : ∀ (v12 : BitVec 32) (k0_hw2 : k0_chk2 v12), ∀ a, (k0_off34 v12) a + S1x1x128.size a ≤ S50000x1x128.size a := fun v12 k0_hw2 => k0_hw2.2

def k0_off35 (v21 : BitVec 32) : Fin 3 → Nat :=
  let c0_i32_112 : BitVec 32 := 0#32
  let c0_i32_113 : BitVec 32 := 0#32
  ![v21.toNat, 0, 0]

def k0_chk3 (v21 : BitVec 32) : Prop :=
  (∀ a, (k0_off6 v21) a + S1x1x128.size a ≤ S50000x1x128.size a) ∧
  (∀ a, (k0_off35 v21) a + S1x1x128.size a ≤ S50000x1x128.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x1x128.size a ≤ S50000x1x128.size a := fun v21 k0_hw3 => k0_hw3.1
theorem k0_off35_inb : ∀ (v21 : BitVec 32) (k0_hw3 : k0_chk3 v21), ∀ a, (k0_off35 v21) a + S1x1x128.size a ≤ S50000x1x128.size a := fun v21 k0_hw3 => k0_hw3.2

def k0_off36 (v30 : BitVec 32) : Fin 3 → Nat :=
  let c0_i32_118 : BitVec 32 := 0#32
  let c0_i32_119 : BitVec 32 := 0#32
  ![v30.toNat, 0, 0]

def k0_chk4 (v30 : BitVec 32) : Prop :=
  (∀ a, (k0_off8 v30) a + S1x1x128.size a ≤ S50000x1x128.size a) ∧
  (∀ a, (k0_off36 v30) a + S1x1x128.size a ≤ S50000x1x128.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x1x128.size a ≤ S50000x1x128.size a := fun v30 k0_hw4 => k0_hw4.1
theorem k0_off36_inb : ∀ (v30 : BitVec 32) (k0_hw4 : k0_chk4 v30), ∀ a, (k0_off36 v30) a + S1x1x128.size a ≤ S50000x1x128.size a := fun v30 k0_hw4 => k0_hw4.2

def k0_off37 (v39 : BitVec 32) : Fin 3 → Nat :=
  let c0_i32_124 : BitVec 32 := 0#32
  let c0_i32_125 : BitVec 32 := 0#32
  ![v39.toNat, 0, 0]

def k0_chk5 (v39 : BitVec 32) : Prop :=
  (∀ a, (k0_off10 v39) a + S1x1x128.size a ≤ S50000x1x128.size a) ∧
  (∀ a, (k0_off37 v39) a + S1x1x128.size a ≤ S50000x1x128.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x1x128.size a ≤ S50000x1x128.size a := fun v39 k0_hw5 => k0_hw5.1
theorem k0_off37_inb : ∀ (v39 : BitVec 32) (k0_hw5 : k0_chk5 v39), ∀ a, (k0_off37 v39) a + S1x1x128.size a ≤ S50000x1x128.size a := fun v39 k0_hw5 => k0_hw5.2

def k0_off38 (v48 : BitVec 32) : Fin 3 → Nat :=
  let c0_i32_130 : BitVec 32 := 0#32
  let c0_i32_131 : BitVec 32 := 0#32
  ![v48.toNat, 0, 0]

def k0_chk6 (v48 : BitVec 32) : Prop :=
  (∀ a, (k0_off12 v48) a + S1x1x128.size a ≤ S50000x1x128.size a) ∧
  (∀ a, (k0_off38 v48) a + S1x1x128.size a ≤ S50000x1x128.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x1x128.size a ≤ S50000x1x128.size a := fun v48 k0_hw6 => k0_hw6.1
theorem k0_off38_inb : ∀ (v48 : BitVec 32) (k0_hw6 : k0_chk6 v48), ∀ a, (k0_off38 v48) a + S1x1x128.size a ≤ S50000x1x128.size a := fun v48 k0_hw6 => k0_hw6.2

def k0_off39 (v57 : BitVec 32) : Fin 3 → Nat :=
  let c0_i32_136 : BitVec 32 := 0#32
  let c0_i32_137 : BitVec 32 := 0#32
  ![v57.toNat, 0, 0]

def k0_chk7 (v57 : BitVec 32) : Prop :=
  (∀ a, (k0_off14 v57) a + S1x1x128.size a ≤ S50000x1x128.size a) ∧
  (∀ a, (k0_off39 v57) a + S1x1x128.size a ≤ S50000x1x128.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x1x128.size a ≤ S50000x1x128.size a := fun v57 k0_hw7 => k0_hw7.1
theorem k0_off39_inb : ∀ (v57 : BitVec 32) (k0_hw7 : k0_chk7 v57), ∀ a, (k0_off39 v57) a + S1x1x128.size a ≤ S50000x1x128.size a := fun v57 k0_hw7 => k0_hw7.2

def k0_off40 (v66 : BitVec 32) : Fin 3 → Nat :=
  let c0_i32_142 : BitVec 32 := 0#32
  let c0_i32_143 : BitVec 32 := 0#32
  ![v66.toNat, 0, 0]

def k0_chk8 (v66 : BitVec 32) : Prop :=
  (∀ a, (k0_off16 v66) a + S1x1x128.size a ≤ S50000x1x128.size a) ∧
  (∀ a, (k0_off40 v66) a + S1x1x128.size a ≤ S50000x1x128.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x1x128.size a ≤ S50000x1x128.size a := fun v66 k0_hw8 => k0_hw8.1
theorem k0_off40_inb : ∀ (v66 : BitVec 32) (k0_hw8 : k0_chk8 v66), ∀ a, (k0_off40 v66) a + S1x1x128.size a ≤ S50000x1x128.size a := fun v66 k0_hw8 => k0_hw8.2

def k0_off41 (v75 : BitVec 32) : Fin 3 → Nat :=
  let c0_i32_148 : BitVec 32 := 0#32
  let c0_i32_149 : BitVec 32 := 0#32
  ![v75.toNat, 0, 0]

def k0_chk9 (v75 : BitVec 32) : Prop :=
  (∀ a, (k0_off18 v75) a + S1x1x128.size a ≤ S50000x1x128.size a) ∧
  (∀ a, (k0_off41 v75) a + S1x1x128.size a ≤ S50000x1x128.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x1x128.size a ≤ S50000x1x128.size a := fun v75 k0_hw9 => k0_hw9.1
theorem k0_off41_inb : ∀ (v75 : BitVec 32) (k0_hw9 : k0_chk9 v75), ∀ a, (k0_off41 v75) a + S1x1x128.size a ≤ S50000x1x128.size a := fun v75 k0_hw9 => k0_hw9.2

def k0_off42 (v84 : BitVec 32) : Fin 3 → Nat :=
  let c0_i32_154 : BitVec 32 := 0#32
  let c0_i32_155 : BitVec 32 := 0#32
  ![v84.toNat, 0, 0]

def k0_chk10 (v84 : BitVec 32) : Prop :=
  (∀ a, (k0_off20 v84) a + S1x1x128.size a ≤ S50000x1x128.size a) ∧
  (∀ a, (k0_off42 v84) a + S1x1x128.size a ≤ S50000x1x128.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x1x128.size a ≤ S50000x1x128.size a := fun v84 k0_hw10 => k0_hw10.1
theorem k0_off42_inb : ∀ (v84 : BitVec 32) (k0_hw10 : k0_chk10 v84), ∀ a, (k0_off42 v84) a + S1x1x128.size a ≤ S50000x1x128.size a := fun v84 k0_hw10 => k0_hw10.2

def k0_off43 (v93 : BitVec 32) : Fin 3 → Nat :=
  let c0_i32_160 : BitVec 32 := 0#32
  let c0_i32_161 : BitVec 32 := 0#32
  ![v93.toNat, 0, 0]

def k0_chk11 (v93 : BitVec 32) : Prop :=
  (∀ a, (k0_off22 v93) a + S1x1x128.size a ≤ S50000x1x128.size a) ∧
  (∀ a, (k0_off43 v93) a + S1x1x128.size a ≤ S50000x1x128.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x1x128.size a ≤ S50000x1x128.size a := fun v93 k0_hw11 => k0_hw11.1
theorem k0_off43_inb : ∀ (v93 : BitVec 32) (k0_hw11 : k0_chk11 v93), ∀ a, (k0_off43 v93) a + S1x1x128.size a ≤ S50000x1x128.size a := fun v93 k0_hw11 => k0_hw11.2

def k0_off44 (v102 : BitVec 32) : Fin 3 → Nat :=
  let c0_i32_166 : BitVec 32 := 0#32
  let c0_i32_167 : BitVec 32 := 0#32
  ![v102.toNat, 0, 0]

def k0_chk12 (v102 : BitVec 32) : Prop :=
  (∀ a, (k0_off24 v102) a + S1x1x128.size a ≤ S50000x1x128.size a) ∧
  (∀ a, (k0_off44 v102) a + S1x1x128.size a ≤ S50000x1x128.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x1x128.size a ≤ S50000x1x128.size a := fun v102 k0_hw12 => k0_hw12.1
theorem k0_off44_inb : ∀ (v102 : BitVec 32) (k0_hw12 : k0_chk12 v102), ∀ a, (k0_off44 v102) a + S1x1x128.size a ≤ S50000x1x128.size a := fun v102 k0_hw12 => k0_hw12.2

def k0_off45 (v111 : BitVec 32) : Fin 3 → Nat :=
  let c0_i32_172 : BitVec 32 := 0#32
  let c0_i32_173 : BitVec 32 := 0#32
  ![v111.toNat, 0, 0]

def k0_chk13 (v111 : BitVec 32) : Prop :=
  (∀ a, (k0_off26 v111) a + S1x1x128.size a ≤ S50000x1x128.size a) ∧
  (∀ a, (k0_off45 v111) a + S1x1x128.size a ≤ S50000x1x128.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x1x128.size a ≤ S50000x1x128.size a := fun v111 k0_hw13 => k0_hw13.1
theorem k0_off45_inb : ∀ (v111 : BitVec 32) (k0_hw13 : k0_chk13 v111), ∀ a, (k0_off45 v111) a + S1x1x128.size a ≤ S50000x1x128.size a := fun v111 k0_hw13 => k0_hw13.2

def k0_off46 (v120 : BitVec 32) : Fin 3 → Nat :=
  let c0_i32_178 : BitVec 32 := 0#32
  let c0_i32_179 : BitVec 32 := 0#32
  ![v120.toNat, 0, 0]

def k0_chk14 (v120 : BitVec 32) : Prop :=
  (∀ a, (k0_off28 v120) a + S1x1x128.size a ≤ S50000x1x128.size a) ∧
  (∀ a, (k0_off46 v120) a + S1x1x128.size a ≤ S50000x1x128.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x1x128.size a ≤ S50000x1x128.size a := fun v120 k0_hw14 => k0_hw14.1
theorem k0_off46_inb : ∀ (v120 : BitVec 32) (k0_hw14 : k0_chk14 v120), ∀ a, (k0_off46 v120) a + S1x1x128.size a ≤ S50000x1x128.size a := fun v120 k0_hw14 => k0_hw14.2

def k0_off47 (v129 : BitVec 32) : Fin 3 → Nat :=
  let c0_i32_184 : BitVec 32 := 0#32
  let c0_i32_185 : BitVec 32 := 0#32
  ![v129.toNat, 0, 0]

def k0_chk15 (v129 : BitVec 32) : Prop :=
  (∀ a, (k0_off30 v129) a + S1x1x128.size a ≤ S50000x1x128.size a) ∧
  (∀ a, (k0_off47 v129) a + S1x1x128.size a ≤ S50000x1x128.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x1x128.size a ≤ S50000x1x128.size a := fun v129 k0_hw15 => k0_hw15.1
theorem k0_off47_inb : ∀ (v129 : BitVec 32) (k0_hw15 : k0_chk15 v129), ∀ a, (k0_off47 v129) a + S1x1x128.size a ≤ S50000x1x128.size a := fun v129 k0_hw15 => k0_hw15.2

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![4000], ![false]⟩

abbrev pre1 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k1_off2 (v3 : BitVec 32) : Fin 3 → Nat :=
  let c0_i32_4 : BitVec 32 := 0#32
  let c0_i32_5 : BitVec 32 := 0#32
  ![v3.toNat, 0, 0]

def k1_off3 (i : grid1.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k1_off4 (v12 : BitVec 32) : Fin 3 → Nat :=
  let c0_i32_10 : BitVec 32 := 0#32
  let c0_i32_11 : BitVec 32 := 0#32
  ![v12.toNat, 0, 0]

def k1_off5 (i : grid1.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k1_off6 (v21 : BitVec 32) : Fin 3 → Nat :=
  let c0_i32_16 : BitVec 32 := 0#32
  let c0_i32_17 : BitVec 32 := 0#32
  ![v21.toNat, 0, 0]

def k1_off7 (i : grid1.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k1_off8 (v30 : BitVec 32) : Fin 3 → Nat :=
  let c0_i32_22 : BitVec 32 := 0#32
  let c0_i32_23 : BitVec 32 := 0#32
  ![v30.toNat, 0, 0]

def k1_off9 (i : grid1.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k1_off10 (v39 : BitVec 32) : Fin 3 → Nat :=
  let c0_i32_28 : BitVec 32 := 0#32
  let c0_i32_29 : BitVec 32 := 0#32
  ![v39.toNat, 0, 0]

def k1_off11 (i : grid1.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k1_off12 (v48 : BitVec 32) : Fin 3 → Nat :=
  let c0_i32_34 : BitVec 32 := 0#32
  let c0_i32_35 : BitVec 32 := 0#32
  ![v48.toNat, 0, 0]

def k1_off13 (i : grid1.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k1_off14 (v57 : BitVec 32) : Fin 3 → Nat :=
  let c0_i32_40 : BitVec 32 := 0#32
  let c0_i32_41 : BitVec 32 := 0#32
  ![v57.toNat, 0, 0]

def k1_off15 (i : grid1.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k1_off16 (v66 : BitVec 32) : Fin 3 → Nat :=
  let c0_i32_46 : BitVec 32 := 0#32
  let c0_i32_47 : BitVec 32 := 0#32
  ![v66.toNat, 0, 0]

def k1_off17 (i : grid1.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k1_off18 (v75 : BitVec 32) : Fin 3 → Nat :=
  let c0_i32_52 : BitVec 32 := 0#32
  let c0_i32_53 : BitVec 32 := 0#32
  ![v75.toNat, 0, 0]

def k1_off19 (i : grid1.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k1_off20 (v84 : BitVec 32) : Fin 3 → Nat :=
  let c0_i32_58 : BitVec 32 := 0#32
  let c0_i32_59 : BitVec 32 := 0#32
  ![v84.toNat, 0, 0]

def k1_off21 (i : grid1.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k1_off22 (v93 : BitVec 32) : Fin 3 → Nat :=
  let c0_i32_64 : BitVec 32 := 0#32
  let c0_i32_65 : BitVec 32 := 0#32
  ![v93.toNat, 0, 0]

def k1_off23 (i : grid1.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k1_off24 (v102 : BitVec 32) : Fin 3 → Nat :=
  let c0_i32_70 : BitVec 32 := 0#32
  let c0_i32_71 : BitVec 32 := 0#32
  ![v102.toNat, 0, 0]

def k1_off25 (i : grid1.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k1_off26 (v111 : BitVec 32) : Fin 3 → Nat :=
  let c0_i32_76 : BitVec 32 := 0#32
  let c0_i32_77 : BitVec 32 := 0#32
  ![v111.toNat, 0, 0]

def k1_off27 (i : grid1.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k1_off28 (v120 : BitVec 32) : Fin 3 → Nat :=
  let c0_i32_82 : BitVec 32 := 0#32
  let c0_i32_83 : BitVec 32 := 0#32
  ![v120.toNat, 0, 0]

def k1_off29 (i : grid1.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k1_off30 (v129 : BitVec 32) : Fin 3 → Nat :=
  let c0_i32_88 : BitVec 32 := 0#32
  let c0_i32_89 : BitVec 32 := 0#32
  ![v129.toNat, 0, 0]

def k1_off31 (i : grid1.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k1_off32 (v138 : BitVec 32) : Fin 3 → Nat :=
  let c0_i32_94 : BitVec 32 := 0#32
  let c0_i32_95 : BitVec 32 := 0#32
  ![v138.toNat, 0, 0]

def k1_chk16 (v138 : BitVec 32) : Prop :=
  (∀ a, (k1_off32 v138) a + S1x1x128.size a ≤ S50000x1x128.size a)
instance k1_chk16.dec : ∀ (v138 : BitVec 32), Decidable (k1_chk16 v138) := fun v138 => decidable_of_iff' _ (Iff.of_eq (k1_chk16.eq_1 v138))
theorem k1_off32_inb : ∀ (v138 : BitVec 32) (k1_hw16 : k1_chk16 v138), ∀ a, (k1_off32 v138) a + S1x1x128.size a ≤ S50000x1x128.size a := fun v138 k1_hw16 => k1_hw16

def k1_off33 (v3 : BitVec 32) : Fin 3 → Nat :=
  let c0_i32_100 : BitVec 32 := 0#32
  let c0_i32_101 : BitVec 32 := 0#32
  ![v3.toNat, 0, 0]

def k1_chk1 (v3 : BitVec 32) : Prop :=
  (∀ a, (k1_off2 v3) a + S1x1x128.size a ≤ S50000x1x128.size a) ∧
  (∀ a, (k1_off33 v3) a + S1x1x128.size a ≤ S50000x1x128.size a)
instance k1_chk1.dec : ∀ (v3 : BitVec 32), Decidable (k1_chk1 v3) := fun v3 => decidable_of_iff' _ (Iff.of_eq (k1_chk1.eq_1 v3))
theorem k1_off2_inb : ∀ (v3 : BitVec 32) (k1_hw1 : k1_chk1 v3), ∀ a, (k1_off2 v3) a + S1x1x128.size a ≤ S50000x1x128.size a := fun v3 k1_hw1 => k1_hw1.1
theorem k1_off33_inb : ∀ (v3 : BitVec 32) (k1_hw1 : k1_chk1 v3), ∀ a, (k1_off33 v3) a + S1x1x128.size a ≤ S50000x1x128.size a := fun v3 k1_hw1 => k1_hw1.2

def k1_off34 (v12 : BitVec 32) : Fin 3 → Nat :=
  let c0_i32_106 : BitVec 32 := 0#32
  let c0_i32_107 : BitVec 32 := 0#32
  ![v12.toNat, 0, 0]

def k1_chk2 (v12 : BitVec 32) : Prop :=
  (∀ a, (k1_off4 v12) a + S1x1x128.size a ≤ S50000x1x128.size a) ∧
  (∀ a, (k1_off34 v12) a + S1x1x128.size a ≤ S50000x1x128.size a)
instance k1_chk2.dec : ∀ (v12 : BitVec 32), Decidable (k1_chk2 v12) := fun v12 => decidable_of_iff' _ (Iff.of_eq (k1_chk2.eq_1 v12))
theorem k1_off4_inb : ∀ (v12 : BitVec 32) (k1_hw2 : k1_chk2 v12), ∀ a, (k1_off4 v12) a + S1x1x128.size a ≤ S50000x1x128.size a := fun v12 k1_hw2 => k1_hw2.1
theorem k1_off34_inb : ∀ (v12 : BitVec 32) (k1_hw2 : k1_chk2 v12), ∀ a, (k1_off34 v12) a + S1x1x128.size a ≤ S50000x1x128.size a := fun v12 k1_hw2 => k1_hw2.2

def k1_off35 (v21 : BitVec 32) : Fin 3 → Nat :=
  let c0_i32_112 : BitVec 32 := 0#32
  let c0_i32_113 : BitVec 32 := 0#32
  ![v21.toNat, 0, 0]

def k1_chk3 (v21 : BitVec 32) : Prop :=
  (∀ a, (k1_off6 v21) a + S1x1x128.size a ≤ S50000x1x128.size a) ∧
  (∀ a, (k1_off35 v21) a + S1x1x128.size a ≤ S50000x1x128.size a)
instance k1_chk3.dec : ∀ (v21 : BitVec 32), Decidable (k1_chk3 v21) := fun v21 => decidable_of_iff' _ (Iff.of_eq (k1_chk3.eq_1 v21))
theorem k1_off6_inb : ∀ (v21 : BitVec 32) (k1_hw3 : k1_chk3 v21), ∀ a, (k1_off6 v21) a + S1x1x128.size a ≤ S50000x1x128.size a := fun v21 k1_hw3 => k1_hw3.1
theorem k1_off35_inb : ∀ (v21 : BitVec 32) (k1_hw3 : k1_chk3 v21), ∀ a, (k1_off35 v21) a + S1x1x128.size a ≤ S50000x1x128.size a := fun v21 k1_hw3 => k1_hw3.2

def k1_off36 (v30 : BitVec 32) : Fin 3 → Nat :=
  let c0_i32_118 : BitVec 32 := 0#32
  let c0_i32_119 : BitVec 32 := 0#32
  ![v30.toNat, 0, 0]

def k1_chk4 (v30 : BitVec 32) : Prop :=
  (∀ a, (k1_off8 v30) a + S1x1x128.size a ≤ S50000x1x128.size a) ∧
  (∀ a, (k1_off36 v30) a + S1x1x128.size a ≤ S50000x1x128.size a)
instance k1_chk4.dec : ∀ (v30 : BitVec 32), Decidable (k1_chk4 v30) := fun v30 => decidable_of_iff' _ (Iff.of_eq (k1_chk4.eq_1 v30))
theorem k1_off8_inb : ∀ (v30 : BitVec 32) (k1_hw4 : k1_chk4 v30), ∀ a, (k1_off8 v30) a + S1x1x128.size a ≤ S50000x1x128.size a := fun v30 k1_hw4 => k1_hw4.1
theorem k1_off36_inb : ∀ (v30 : BitVec 32) (k1_hw4 : k1_chk4 v30), ∀ a, (k1_off36 v30) a + S1x1x128.size a ≤ S50000x1x128.size a := fun v30 k1_hw4 => k1_hw4.2

def k1_off37 (v39 : BitVec 32) : Fin 3 → Nat :=
  let c0_i32_124 : BitVec 32 := 0#32
  let c0_i32_125 : BitVec 32 := 0#32
  ![v39.toNat, 0, 0]

def k1_chk5 (v39 : BitVec 32) : Prop :=
  (∀ a, (k1_off10 v39) a + S1x1x128.size a ≤ S50000x1x128.size a) ∧
  (∀ a, (k1_off37 v39) a + S1x1x128.size a ≤ S50000x1x128.size a)
instance k1_chk5.dec : ∀ (v39 : BitVec 32), Decidable (k1_chk5 v39) := fun v39 => decidable_of_iff' _ (Iff.of_eq (k1_chk5.eq_1 v39))
theorem k1_off10_inb : ∀ (v39 : BitVec 32) (k1_hw5 : k1_chk5 v39), ∀ a, (k1_off10 v39) a + S1x1x128.size a ≤ S50000x1x128.size a := fun v39 k1_hw5 => k1_hw5.1
theorem k1_off37_inb : ∀ (v39 : BitVec 32) (k1_hw5 : k1_chk5 v39), ∀ a, (k1_off37 v39) a + S1x1x128.size a ≤ S50000x1x128.size a := fun v39 k1_hw5 => k1_hw5.2

def k1_off38 (v48 : BitVec 32) : Fin 3 → Nat :=
  let c0_i32_130 : BitVec 32 := 0#32
  let c0_i32_131 : BitVec 32 := 0#32
  ![v48.toNat, 0, 0]

def k1_chk6 (v48 : BitVec 32) : Prop :=
  (∀ a, (k1_off12 v48) a + S1x1x128.size a ≤ S50000x1x128.size a) ∧
  (∀ a, (k1_off38 v48) a + S1x1x128.size a ≤ S50000x1x128.size a)
instance k1_chk6.dec : ∀ (v48 : BitVec 32), Decidable (k1_chk6 v48) := fun v48 => decidable_of_iff' _ (Iff.of_eq (k1_chk6.eq_1 v48))
theorem k1_off12_inb : ∀ (v48 : BitVec 32) (k1_hw6 : k1_chk6 v48), ∀ a, (k1_off12 v48) a + S1x1x128.size a ≤ S50000x1x128.size a := fun v48 k1_hw6 => k1_hw6.1
theorem k1_off38_inb : ∀ (v48 : BitVec 32) (k1_hw6 : k1_chk6 v48), ∀ a, (k1_off38 v48) a + S1x1x128.size a ≤ S50000x1x128.size a := fun v48 k1_hw6 => k1_hw6.2

def k1_off39 (v57 : BitVec 32) : Fin 3 → Nat :=
  let c0_i32_136 : BitVec 32 := 0#32
  let c0_i32_137 : BitVec 32 := 0#32
  ![v57.toNat, 0, 0]

def k1_chk7 (v57 : BitVec 32) : Prop :=
  (∀ a, (k1_off14 v57) a + S1x1x128.size a ≤ S50000x1x128.size a) ∧
  (∀ a, (k1_off39 v57) a + S1x1x128.size a ≤ S50000x1x128.size a)
instance k1_chk7.dec : ∀ (v57 : BitVec 32), Decidable (k1_chk7 v57) := fun v57 => decidable_of_iff' _ (Iff.of_eq (k1_chk7.eq_1 v57))
theorem k1_off14_inb : ∀ (v57 : BitVec 32) (k1_hw7 : k1_chk7 v57), ∀ a, (k1_off14 v57) a + S1x1x128.size a ≤ S50000x1x128.size a := fun v57 k1_hw7 => k1_hw7.1
theorem k1_off39_inb : ∀ (v57 : BitVec 32) (k1_hw7 : k1_chk7 v57), ∀ a, (k1_off39 v57) a + S1x1x128.size a ≤ S50000x1x128.size a := fun v57 k1_hw7 => k1_hw7.2

def k1_off40 (v66 : BitVec 32) : Fin 3 → Nat :=
  let c0_i32_142 : BitVec 32 := 0#32
  let c0_i32_143 : BitVec 32 := 0#32
  ![v66.toNat, 0, 0]

def k1_chk8 (v66 : BitVec 32) : Prop :=
  (∀ a, (k1_off16 v66) a + S1x1x128.size a ≤ S50000x1x128.size a) ∧
  (∀ a, (k1_off40 v66) a + S1x1x128.size a ≤ S50000x1x128.size a)
instance k1_chk8.dec : ∀ (v66 : BitVec 32), Decidable (k1_chk8 v66) := fun v66 => decidable_of_iff' _ (Iff.of_eq (k1_chk8.eq_1 v66))
theorem k1_off16_inb : ∀ (v66 : BitVec 32) (k1_hw8 : k1_chk8 v66), ∀ a, (k1_off16 v66) a + S1x1x128.size a ≤ S50000x1x128.size a := fun v66 k1_hw8 => k1_hw8.1
theorem k1_off40_inb : ∀ (v66 : BitVec 32) (k1_hw8 : k1_chk8 v66), ∀ a, (k1_off40 v66) a + S1x1x128.size a ≤ S50000x1x128.size a := fun v66 k1_hw8 => k1_hw8.2

def k1_off41 (v75 : BitVec 32) : Fin 3 → Nat :=
  let c0_i32_148 : BitVec 32 := 0#32
  let c0_i32_149 : BitVec 32 := 0#32
  ![v75.toNat, 0, 0]

def k1_chk9 (v75 : BitVec 32) : Prop :=
  (∀ a, (k1_off18 v75) a + S1x1x128.size a ≤ S50000x1x128.size a) ∧
  (∀ a, (k1_off41 v75) a + S1x1x128.size a ≤ S50000x1x128.size a)
instance k1_chk9.dec : ∀ (v75 : BitVec 32), Decidable (k1_chk9 v75) := fun v75 => decidable_of_iff' _ (Iff.of_eq (k1_chk9.eq_1 v75))
theorem k1_off18_inb : ∀ (v75 : BitVec 32) (k1_hw9 : k1_chk9 v75), ∀ a, (k1_off18 v75) a + S1x1x128.size a ≤ S50000x1x128.size a := fun v75 k1_hw9 => k1_hw9.1
theorem k1_off41_inb : ∀ (v75 : BitVec 32) (k1_hw9 : k1_chk9 v75), ∀ a, (k1_off41 v75) a + S1x1x128.size a ≤ S50000x1x128.size a := fun v75 k1_hw9 => k1_hw9.2

def k1_off42 (v84 : BitVec 32) : Fin 3 → Nat :=
  let c0_i32_154 : BitVec 32 := 0#32
  let c0_i32_155 : BitVec 32 := 0#32
  ![v84.toNat, 0, 0]

def k1_chk10 (v84 : BitVec 32) : Prop :=
  (∀ a, (k1_off20 v84) a + S1x1x128.size a ≤ S50000x1x128.size a) ∧
  (∀ a, (k1_off42 v84) a + S1x1x128.size a ≤ S50000x1x128.size a)
instance k1_chk10.dec : ∀ (v84 : BitVec 32), Decidable (k1_chk10 v84) := fun v84 => decidable_of_iff' _ (Iff.of_eq (k1_chk10.eq_1 v84))
theorem k1_off20_inb : ∀ (v84 : BitVec 32) (k1_hw10 : k1_chk10 v84), ∀ a, (k1_off20 v84) a + S1x1x128.size a ≤ S50000x1x128.size a := fun v84 k1_hw10 => k1_hw10.1
theorem k1_off42_inb : ∀ (v84 : BitVec 32) (k1_hw10 : k1_chk10 v84), ∀ a, (k1_off42 v84) a + S1x1x128.size a ≤ S50000x1x128.size a := fun v84 k1_hw10 => k1_hw10.2

def k1_off43 (v93 : BitVec 32) : Fin 3 → Nat :=
  let c0_i32_160 : BitVec 32 := 0#32
  let c0_i32_161 : BitVec 32 := 0#32
  ![v93.toNat, 0, 0]

def k1_chk11 (v93 : BitVec 32) : Prop :=
  (∀ a, (k1_off22 v93) a + S1x1x128.size a ≤ S50000x1x128.size a) ∧
  (∀ a, (k1_off43 v93) a + S1x1x128.size a ≤ S50000x1x128.size a)
instance k1_chk11.dec : ∀ (v93 : BitVec 32), Decidable (k1_chk11 v93) := fun v93 => decidable_of_iff' _ (Iff.of_eq (k1_chk11.eq_1 v93))
theorem k1_off22_inb : ∀ (v93 : BitVec 32) (k1_hw11 : k1_chk11 v93), ∀ a, (k1_off22 v93) a + S1x1x128.size a ≤ S50000x1x128.size a := fun v93 k1_hw11 => k1_hw11.1
theorem k1_off43_inb : ∀ (v93 : BitVec 32) (k1_hw11 : k1_chk11 v93), ∀ a, (k1_off43 v93) a + S1x1x128.size a ≤ S50000x1x128.size a := fun v93 k1_hw11 => k1_hw11.2

def k1_off44 (v102 : BitVec 32) : Fin 3 → Nat :=
  let c0_i32_166 : BitVec 32 := 0#32
  let c0_i32_167 : BitVec 32 := 0#32
  ![v102.toNat, 0, 0]

def k1_chk12 (v102 : BitVec 32) : Prop :=
  (∀ a, (k1_off24 v102) a + S1x1x128.size a ≤ S50000x1x128.size a) ∧
  (∀ a, (k1_off44 v102) a + S1x1x128.size a ≤ S50000x1x128.size a)
instance k1_chk12.dec : ∀ (v102 : BitVec 32), Decidable (k1_chk12 v102) := fun v102 => decidable_of_iff' _ (Iff.of_eq (k1_chk12.eq_1 v102))
theorem k1_off24_inb : ∀ (v102 : BitVec 32) (k1_hw12 : k1_chk12 v102), ∀ a, (k1_off24 v102) a + S1x1x128.size a ≤ S50000x1x128.size a := fun v102 k1_hw12 => k1_hw12.1
theorem k1_off44_inb : ∀ (v102 : BitVec 32) (k1_hw12 : k1_chk12 v102), ∀ a, (k1_off44 v102) a + S1x1x128.size a ≤ S50000x1x128.size a := fun v102 k1_hw12 => k1_hw12.2

def k1_off45 (v111 : BitVec 32) : Fin 3 → Nat :=
  let c0_i32_172 : BitVec 32 := 0#32
  let c0_i32_173 : BitVec 32 := 0#32
  ![v111.toNat, 0, 0]

def k1_chk13 (v111 : BitVec 32) : Prop :=
  (∀ a, (k1_off26 v111) a + S1x1x128.size a ≤ S50000x1x128.size a) ∧
  (∀ a, (k1_off45 v111) a + S1x1x128.size a ≤ S50000x1x128.size a)
instance k1_chk13.dec : ∀ (v111 : BitVec 32), Decidable (k1_chk13 v111) := fun v111 => decidable_of_iff' _ (Iff.of_eq (k1_chk13.eq_1 v111))
theorem k1_off26_inb : ∀ (v111 : BitVec 32) (k1_hw13 : k1_chk13 v111), ∀ a, (k1_off26 v111) a + S1x1x128.size a ≤ S50000x1x128.size a := fun v111 k1_hw13 => k1_hw13.1
theorem k1_off45_inb : ∀ (v111 : BitVec 32) (k1_hw13 : k1_chk13 v111), ∀ a, (k1_off45 v111) a + S1x1x128.size a ≤ S50000x1x128.size a := fun v111 k1_hw13 => k1_hw13.2

def k1_off46 (v120 : BitVec 32) : Fin 3 → Nat :=
  let c0_i32_178 : BitVec 32 := 0#32
  let c0_i32_179 : BitVec 32 := 0#32
  ![v120.toNat, 0, 0]

def k1_chk14 (v120 : BitVec 32) : Prop :=
  (∀ a, (k1_off28 v120) a + S1x1x128.size a ≤ S50000x1x128.size a) ∧
  (∀ a, (k1_off46 v120) a + S1x1x128.size a ≤ S50000x1x128.size a)
instance k1_chk14.dec : ∀ (v120 : BitVec 32), Decidable (k1_chk14 v120) := fun v120 => decidable_of_iff' _ (Iff.of_eq (k1_chk14.eq_1 v120))
theorem k1_off28_inb : ∀ (v120 : BitVec 32) (k1_hw14 : k1_chk14 v120), ∀ a, (k1_off28 v120) a + S1x1x128.size a ≤ S50000x1x128.size a := fun v120 k1_hw14 => k1_hw14.1
theorem k1_off46_inb : ∀ (v120 : BitVec 32) (k1_hw14 : k1_chk14 v120), ∀ a, (k1_off46 v120) a + S1x1x128.size a ≤ S50000x1x128.size a := fun v120 k1_hw14 => k1_hw14.2

def k1_off47 (v129 : BitVec 32) : Fin 3 → Nat :=
  let c0_i32_184 : BitVec 32 := 0#32
  let c0_i32_185 : BitVec 32 := 0#32
  ![v129.toNat, 0, 0]

def k1_chk15 (v129 : BitVec 32) : Prop :=
  (∀ a, (k1_off30 v129) a + S1x1x128.size a ≤ S50000x1x128.size a) ∧
  (∀ a, (k1_off47 v129) a + S1x1x128.size a ≤ S50000x1x128.size a)
instance k1_chk15.dec : ∀ (v129 : BitVec 32), Decidable (k1_chk15 v129) := fun v129 => decidable_of_iff' _ (Iff.of_eq (k1_chk15.eq_1 v129))
theorem k1_off30_inb : ∀ (v129 : BitVec 32) (k1_hw15 : k1_chk15 v129), ∀ a, (k1_off30 v129) a + S1x1x128.size a ≤ S50000x1x128.size a := fun v129 k1_hw15 => k1_hw15.1
theorem k1_off47_inb : ∀ (v129 : BitVec 32) (k1_hw15 : k1_chk15 v129), ∀ a, (k1_off47 v129) a + S1x1x128.size a ≤ S50000x1x128.size a := fun v129 k1_hw15 => k1_hw15.2

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x1x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev grid2 : Pipeline.Grid := ⟨1, ![4000], ![false]⟩

abbrev pre2 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k2_off2 (v3 : BitVec 32) : Fin 3 → Nat :=
  let c0_i32_4 : BitVec 32 := 0#32
  let c0_i32_5 : BitVec 32 := 0#32
  ![v3.toNat, 0, 0]

def k2_off3 (i : grid2.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k2_off4 (v12 : BitVec 32) : Fin 3 → Nat :=
  let c0_i32_10 : BitVec 32 := 0#32
  let c0_i32_11 : BitVec 32 := 0#32
  ![v12.toNat, 0, 0]

def k2_off5 (i : grid2.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k2_off6 (v21 : BitVec 32) : Fin 3 → Nat :=
  let c0_i32_16 : BitVec 32 := 0#32
  let c0_i32_17 : BitVec 32 := 0#32
  ![v21.toNat, 0, 0]

def k2_off7 (i : grid2.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k2_off8 (v30 : BitVec 32) : Fin 3 → Nat :=
  let c0_i32_22 : BitVec 32 := 0#32
  let c0_i32_23 : BitVec 32 := 0#32
  ![v30.toNat, 0, 0]

def k2_off9 (i : grid2.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k2_off10 (v39 : BitVec 32) : Fin 3 → Nat :=
  let c0_i32_28 : BitVec 32 := 0#32
  let c0_i32_29 : BitVec 32 := 0#32
  ![v39.toNat, 0, 0]

def k2_off11 (i : grid2.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k2_off12 (v48 : BitVec 32) : Fin 3 → Nat :=
  let c0_i32_34 : BitVec 32 := 0#32
  let c0_i32_35 : BitVec 32 := 0#32
  ![v48.toNat, 0, 0]

def k2_off13 (i : grid2.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k2_off14 (v57 : BitVec 32) : Fin 3 → Nat :=
  let c0_i32_40 : BitVec 32 := 0#32
  let c0_i32_41 : BitVec 32 := 0#32
  ![v57.toNat, 0, 0]

def k2_off15 (i : grid2.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k2_off16 (v66 : BitVec 32) : Fin 3 → Nat :=
  let c0_i32_46 : BitVec 32 := 0#32
  let c0_i32_47 : BitVec 32 := 0#32
  ![v66.toNat, 0, 0]

def k2_off17 (i : grid2.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k2_off18 (v75 : BitVec 32) : Fin 3 → Nat :=
  let c0_i32_52 : BitVec 32 := 0#32
  let c0_i32_53 : BitVec 32 := 0#32
  ![v75.toNat, 0, 0]

def k2_off19 (i : grid2.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k2_off20 (v84 : BitVec 32) : Fin 3 → Nat :=
  let c0_i32_58 : BitVec 32 := 0#32
  let c0_i32_59 : BitVec 32 := 0#32
  ![v84.toNat, 0, 0]

def k2_off21 (i : grid2.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k2_off22 (v93 : BitVec 32) : Fin 3 → Nat :=
  let c0_i32_64 : BitVec 32 := 0#32
  let c0_i32_65 : BitVec 32 := 0#32
  ![v93.toNat, 0, 0]

def k2_off23 (i : grid2.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k2_off24 (v102 : BitVec 32) : Fin 3 → Nat :=
  let c0_i32_70 : BitVec 32 := 0#32
  let c0_i32_71 : BitVec 32 := 0#32
  ![v102.toNat, 0, 0]

def k2_off25 (i : grid2.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k2_off26 (v111 : BitVec 32) : Fin 3 → Nat :=
  let c0_i32_76 : BitVec 32 := 0#32
  let c0_i32_77 : BitVec 32 := 0#32
  ![v111.toNat, 0, 0]

def k2_off27 (i : grid2.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k2_off28 (v120 : BitVec 32) : Fin 3 → Nat :=
  let c0_i32_82 : BitVec 32 := 0#32
  let c0_i32_83 : BitVec 32 := 0#32
  ![v120.toNat, 0, 0]

def k2_off29 (i : grid2.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k2_off30 (v129 : BitVec 32) : Fin 3 → Nat :=
  let c0_i32_88 : BitVec 32 := 0#32
  let c0_i32_89 : BitVec 32 := 0#32
  ![v129.toNat, 0, 0]

def k2_off31 (i : grid2.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k2_off32 (v138 : BitVec 32) : Fin 3 → Nat :=
  let c0_i32_94 : BitVec 32 := 0#32
  let c0_i32_95 : BitVec 32 := 0#32
  ![v138.toNat, 0, 0]

def k2_chk16 (v138 : BitVec 32) : Prop :=
  (∀ a, (k2_off32 v138) a + S1x1x128.size a ≤ S50000x1x128.size a)
instance k2_chk16.dec : ∀ (v138 : BitVec 32), Decidable (k2_chk16 v138) := fun v138 => decidable_of_iff' _ (Iff.of_eq (k2_chk16.eq_1 v138))
theorem k2_off32_inb : ∀ (v138 : BitVec 32) (k2_hw16 : k2_chk16 v138), ∀ a, (k2_off32 v138) a + S1x1x128.size a ≤ S50000x1x128.size a := fun v138 k2_hw16 => k2_hw16

def k2_off33 (v3 : BitVec 32) : Fin 3 → Nat :=
  let c0_i32_100 : BitVec 32 := 0#32
  let c0_i32_101 : BitVec 32 := 0#32
  ![v3.toNat, 0, 0]

def k2_chk1 (v3 : BitVec 32) : Prop :=
  (∀ a, (k2_off2 v3) a + S1x1x128.size a ≤ S50000x1x128.size a) ∧
  (∀ a, (k2_off33 v3) a + S1x1x128.size a ≤ S50000x1x128.size a)
instance k2_chk1.dec : ∀ (v3 : BitVec 32), Decidable (k2_chk1 v3) := fun v3 => decidable_of_iff' _ (Iff.of_eq (k2_chk1.eq_1 v3))
theorem k2_off2_inb : ∀ (v3 : BitVec 32) (k2_hw1 : k2_chk1 v3), ∀ a, (k2_off2 v3) a + S1x1x128.size a ≤ S50000x1x128.size a := fun v3 k2_hw1 => k2_hw1.1
theorem k2_off33_inb : ∀ (v3 : BitVec 32) (k2_hw1 : k2_chk1 v3), ∀ a, (k2_off33 v3) a + S1x1x128.size a ≤ S50000x1x128.size a := fun v3 k2_hw1 => k2_hw1.2

def k2_off34 (v12 : BitVec 32) : Fin 3 → Nat :=
  let c0_i32_106 : BitVec 32 := 0#32
  let c0_i32_107 : BitVec 32 := 0#32
  ![v12.toNat, 0, 0]

def k2_chk2 (v12 : BitVec 32) : Prop :=
  (∀ a, (k2_off4 v12) a + S1x1x128.size a ≤ S50000x1x128.size a) ∧
  (∀ a, (k2_off34 v12) a + S1x1x128.size a ≤ S50000x1x128.size a)
instance k2_chk2.dec : ∀ (v12 : BitVec 32), Decidable (k2_chk2 v12) := fun v12 => decidable_of_iff' _ (Iff.of_eq (k2_chk2.eq_1 v12))
theorem k2_off4_inb : ∀ (v12 : BitVec 32) (k2_hw2 : k2_chk2 v12), ∀ a, (k2_off4 v12) a + S1x1x128.size a ≤ S50000x1x128.size a := fun v12 k2_hw2 => k2_hw2.1
theorem k2_off34_inb : ∀ (v12 : BitVec 32) (k2_hw2 : k2_chk2 v12), ∀ a, (k2_off34 v12) a + S1x1x128.size a ≤ S50000x1x128.size a := fun v12 k2_hw2 => k2_hw2.2

def k2_off35 (v21 : BitVec 32) : Fin 3 → Nat :=
  let c0_i32_112 : BitVec 32 := 0#32
  let c0_i32_113 : BitVec 32 := 0#32
  ![v21.toNat, 0, 0]

def k2_chk3 (v21 : BitVec 32) : Prop :=
  (∀ a, (k2_off6 v21) a + S1x1x128.size a ≤ S50000x1x128.size a) ∧
  (∀ a, (k2_off35 v21) a + S1x1x128.size a ≤ S50000x1x128.size a)
instance k2_chk3.dec : ∀ (v21 : BitVec 32), Decidable (k2_chk3 v21) := fun v21 => decidable_of_iff' _ (Iff.of_eq (k2_chk3.eq_1 v21))
theorem k2_off6_inb : ∀ (v21 : BitVec 32) (k2_hw3 : k2_chk3 v21), ∀ a, (k2_off6 v21) a + S1x1x128.size a ≤ S50000x1x128.size a := fun v21 k2_hw3 => k2_hw3.1
theorem k2_off35_inb : ∀ (v21 : BitVec 32) (k2_hw3 : k2_chk3 v21), ∀ a, (k2_off35 v21) a + S1x1x128.size a ≤ S50000x1x128.size a := fun v21 k2_hw3 => k2_hw3.2

def k2_off36 (v30 : BitVec 32) : Fin 3 → Nat :=
  let c0_i32_118 : BitVec 32 := 0#32
  let c0_i32_119 : BitVec 32 := 0#32
  ![v30.toNat, 0, 0]

def k2_chk4 (v30 : BitVec 32) : Prop :=
  (∀ a, (k2_off8 v30) a + S1x1x128.size a ≤ S50000x1x128.size a) ∧
  (∀ a, (k2_off36 v30) a + S1x1x128.size a ≤ S50000x1x128.size a)
instance k2_chk4.dec : ∀ (v30 : BitVec 32), Decidable (k2_chk4 v30) := fun v30 => decidable_of_iff' _ (Iff.of_eq (k2_chk4.eq_1 v30))
theorem k2_off8_inb : ∀ (v30 : BitVec 32) (k2_hw4 : k2_chk4 v30), ∀ a, (k2_off8 v30) a + S1x1x128.size a ≤ S50000x1x128.size a := fun v30 k2_hw4 => k2_hw4.1
theorem k2_off36_inb : ∀ (v30 : BitVec 32) (k2_hw4 : k2_chk4 v30), ∀ a, (k2_off36 v30) a + S1x1x128.size a ≤ S50000x1x128.size a := fun v30 k2_hw4 => k2_hw4.2

def k2_off37 (v39 : BitVec 32) : Fin 3 → Nat :=
  let c0_i32_124 : BitVec 32 := 0#32
  let c0_i32_125 : BitVec 32 := 0#32
  ![v39.toNat, 0, 0]

def k2_chk5 (v39 : BitVec 32) : Prop :=
  (∀ a, (k2_off10 v39) a + S1x1x128.size a ≤ S50000x1x128.size a) ∧
  (∀ a, (k2_off37 v39) a + S1x1x128.size a ≤ S50000x1x128.size a)
instance k2_chk5.dec : ∀ (v39 : BitVec 32), Decidable (k2_chk5 v39) := fun v39 => decidable_of_iff' _ (Iff.of_eq (k2_chk5.eq_1 v39))
theorem k2_off10_inb : ∀ (v39 : BitVec 32) (k2_hw5 : k2_chk5 v39), ∀ a, (k2_off10 v39) a + S1x1x128.size a ≤ S50000x1x128.size a := fun v39 k2_hw5 => k2_hw5.1
theorem k2_off37_inb : ∀ (v39 : BitVec 32) (k2_hw5 : k2_chk5 v39), ∀ a, (k2_off37 v39) a + S1x1x128.size a ≤ S50000x1x128.size a := fun v39 k2_hw5 => k2_hw5.2

def k2_off38 (v48 : BitVec 32) : Fin 3 → Nat :=
  let c0_i32_130 : BitVec 32 := 0#32
  let c0_i32_131 : BitVec 32 := 0#32
  ![v48.toNat, 0, 0]

def k2_chk6 (v48 : BitVec 32) : Prop :=
  (∀ a, (k2_off12 v48) a + S1x1x128.size a ≤ S50000x1x128.size a) ∧
  (∀ a, (k2_off38 v48) a + S1x1x128.size a ≤ S50000x1x128.size a)
instance k2_chk6.dec : ∀ (v48 : BitVec 32), Decidable (k2_chk6 v48) := fun v48 => decidable_of_iff' _ (Iff.of_eq (k2_chk6.eq_1 v48))
theorem k2_off12_inb : ∀ (v48 : BitVec 32) (k2_hw6 : k2_chk6 v48), ∀ a, (k2_off12 v48) a + S1x1x128.size a ≤ S50000x1x128.size a := fun v48 k2_hw6 => k2_hw6.1
theorem k2_off38_inb : ∀ (v48 : BitVec 32) (k2_hw6 : k2_chk6 v48), ∀ a, (k2_off38 v48) a + S1x1x128.size a ≤ S50000x1x128.size a := fun v48 k2_hw6 => k2_hw6.2

def k2_off39 (v57 : BitVec 32) : Fin 3 → Nat :=
  let c0_i32_136 : BitVec 32 := 0#32
  let c0_i32_137 : BitVec 32 := 0#32
  ![v57.toNat, 0, 0]

def k2_chk7 (v57 : BitVec 32) : Prop :=
  (∀ a, (k2_off14 v57) a + S1x1x128.size a ≤ S50000x1x128.size a) ∧
  (∀ a, (k2_off39 v57) a + S1x1x128.size a ≤ S50000x1x128.size a)
instance k2_chk7.dec : ∀ (v57 : BitVec 32), Decidable (k2_chk7 v57) := fun v57 => decidable_of_iff' _ (Iff.of_eq (k2_chk7.eq_1 v57))
theorem k2_off14_inb : ∀ (v57 : BitVec 32) (k2_hw7 : k2_chk7 v57), ∀ a, (k2_off14 v57) a + S1x1x128.size a ≤ S50000x1x128.size a := fun v57 k2_hw7 => k2_hw7.1
theorem k2_off39_inb : ∀ (v57 : BitVec 32) (k2_hw7 : k2_chk7 v57), ∀ a, (k2_off39 v57) a + S1x1x128.size a ≤ S50000x1x128.size a := fun v57 k2_hw7 => k2_hw7.2

def k2_off40 (v66 : BitVec 32) : Fin 3 → Nat :=
  let c0_i32_142 : BitVec 32 := 0#32
  let c0_i32_143 : BitVec 32 := 0#32
  ![v66.toNat, 0, 0]

def k2_chk8 (v66 : BitVec 32) : Prop :=
  (∀ a, (k2_off16 v66) a + S1x1x128.size a ≤ S50000x1x128.size a) ∧
  (∀ a, (k2_off40 v66) a + S1x1x128.size a ≤ S50000x1x128.size a)
instance k2_chk8.dec : ∀ (v66 : BitVec 32), Decidable (k2_chk8 v66) := fun v66 => decidable_of_iff' _ (Iff.of_eq (k2_chk8.eq_1 v66))
theorem k2_off16_inb : ∀ (v66 : BitVec 32) (k2_hw8 : k2_chk8 v66), ∀ a, (k2_off16 v66) a + S1x1x128.size a ≤ S50000x1x128.size a := fun v66 k2_hw8 => k2_hw8.1
theorem k2_off40_inb : ∀ (v66 : BitVec 32) (k2_hw8 : k2_chk8 v66), ∀ a, (k2_off40 v66) a + S1x1x128.size a ≤ S50000x1x128.size a := fun v66 k2_hw8 => k2_hw8.2

def k2_off41 (v75 : BitVec 32) : Fin 3 → Nat :=
  let c0_i32_148 : BitVec 32 := 0#32
  let c0_i32_149 : BitVec 32 := 0#32
  ![v75.toNat, 0, 0]

def k2_chk9 (v75 : BitVec 32) : Prop :=
  (∀ a, (k2_off18 v75) a + S1x1x128.size a ≤ S50000x1x128.size a) ∧
  (∀ a, (k2_off41 v75) a + S1x1x128.size a ≤ S50000x1x128.size a)
instance k2_chk9.dec : ∀ (v75 : BitVec 32), Decidable (k2_chk9 v75) := fun v75 => decidable_of_iff' _ (Iff.of_eq (k2_chk9.eq_1 v75))
theorem k2_off18_inb : ∀ (v75 : BitVec 32) (k2_hw9 : k2_chk9 v75), ∀ a, (k2_off18 v75) a + S1x1x128.size a ≤ S50000x1x128.size a := fun v75 k2_hw9 => k2_hw9.1
theorem k2_off41_inb : ∀ (v75 : BitVec 32) (k2_hw9 : k2_chk9 v75), ∀ a, (k2_off41 v75) a + S1x1x128.size a ≤ S50000x1x128.size a := fun v75 k2_hw9 => k2_hw9.2

def k2_off42 (v84 : BitVec 32) : Fin 3 → Nat :=
  let c0_i32_154 : BitVec 32 := 0#32
  let c0_i32_155 : BitVec 32 := 0#32
  ![v84.toNat, 0, 0]

def k2_chk10 (v84 : BitVec 32) : Prop :=
  (∀ a, (k2_off20 v84) a + S1x1x128.size a ≤ S50000x1x128.size a) ∧
  (∀ a, (k2_off42 v84) a + S1x1x128.size a ≤ S50000x1x128.size a)
instance k2_chk10.dec : ∀ (v84 : BitVec 32), Decidable (k2_chk10 v84) := fun v84 => decidable_of_iff' _ (Iff.of_eq (k2_chk10.eq_1 v84))
theorem k2_off20_inb : ∀ (v84 : BitVec 32) (k2_hw10 : k2_chk10 v84), ∀ a, (k2_off20 v84) a + S1x1x128.size a ≤ S50000x1x128.size a := fun v84 k2_hw10 => k2_hw10.1
theorem k2_off42_inb : ∀ (v84 : BitVec 32) (k2_hw10 : k2_chk10 v84), ∀ a, (k2_off42 v84) a + S1x1x128.size a ≤ S50000x1x128.size a := fun v84 k2_hw10 => k2_hw10.2

def k2_off43 (v93 : BitVec 32) : Fin 3 → Nat :=
  let c0_i32_160 : BitVec 32 := 0#32
  let c0_i32_161 : BitVec 32 := 0#32
  ![v93.toNat, 0, 0]

def k2_chk11 (v93 : BitVec 32) : Prop :=
  (∀ a, (k2_off22 v93) a + S1x1x128.size a ≤ S50000x1x128.size a) ∧
  (∀ a, (k2_off43 v93) a + S1x1x128.size a ≤ S50000x1x128.size a)
instance k2_chk11.dec : ∀ (v93 : BitVec 32), Decidable (k2_chk11 v93) := fun v93 => decidable_of_iff' _ (Iff.of_eq (k2_chk11.eq_1 v93))
theorem k2_off22_inb : ∀ (v93 : BitVec 32) (k2_hw11 : k2_chk11 v93), ∀ a, (k2_off22 v93) a + S1x1x128.size a ≤ S50000x1x128.size a := fun v93 k2_hw11 => k2_hw11.1
theorem k2_off43_inb : ∀ (v93 : BitVec 32) (k2_hw11 : k2_chk11 v93), ∀ a, (k2_off43 v93) a + S1x1x128.size a ≤ S50000x1x128.size a := fun v93 k2_hw11 => k2_hw11.2

def k2_off44 (v102 : BitVec 32) : Fin 3 → Nat :=
  let c0_i32_166 : BitVec 32 := 0#32
  let c0_i32_167 : BitVec 32 := 0#32
  ![v102.toNat, 0, 0]

def k2_chk12 (v102 : BitVec 32) : Prop :=
  (∀ a, (k2_off24 v102) a + S1x1x128.size a ≤ S50000x1x128.size a) ∧
  (∀ a, (k2_off44 v102) a + S1x1x128.size a ≤ S50000x1x128.size a)
instance k2_chk12.dec : ∀ (v102 : BitVec 32), Decidable (k2_chk12 v102) := fun v102 => decidable_of_iff' _ (Iff.of_eq (k2_chk12.eq_1 v102))
theorem k2_off24_inb : ∀ (v102 : BitVec 32) (k2_hw12 : k2_chk12 v102), ∀ a, (k2_off24 v102) a + S1x1x128.size a ≤ S50000x1x128.size a := fun v102 k2_hw12 => k2_hw12.1
theorem k2_off44_inb : ∀ (v102 : BitVec 32) (k2_hw12 : k2_chk12 v102), ∀ a, (k2_off44 v102) a + S1x1x128.size a ≤ S50000x1x128.size a := fun v102 k2_hw12 => k2_hw12.2

def k2_off45 (v111 : BitVec 32) : Fin 3 → Nat :=
  let c0_i32_172 : BitVec 32 := 0#32
  let c0_i32_173 : BitVec 32 := 0#32
  ![v111.toNat, 0, 0]

def k2_chk13 (v111 : BitVec 32) : Prop :=
  (∀ a, (k2_off26 v111) a + S1x1x128.size a ≤ S50000x1x128.size a) ∧
  (∀ a, (k2_off45 v111) a + S1x1x128.size a ≤ S50000x1x128.size a)
instance k2_chk13.dec : ∀ (v111 : BitVec 32), Decidable (k2_chk13 v111) := fun v111 => decidable_of_iff' _ (Iff.of_eq (k2_chk13.eq_1 v111))
theorem k2_off26_inb : ∀ (v111 : BitVec 32) (k2_hw13 : k2_chk13 v111), ∀ a, (k2_off26 v111) a + S1x1x128.size a ≤ S50000x1x128.size a := fun v111 k2_hw13 => k2_hw13.1
theorem k2_off45_inb : ∀ (v111 : BitVec 32) (k2_hw13 : k2_chk13 v111), ∀ a, (k2_off45 v111) a + S1x1x128.size a ≤ S50000x1x128.size a := fun v111 k2_hw13 => k2_hw13.2

def k2_off46 (v120 : BitVec 32) : Fin 3 → Nat :=
  let c0_i32_178 : BitVec 32 := 0#32
  let c0_i32_179 : BitVec 32 := 0#32
  ![v120.toNat, 0, 0]

def k2_chk14 (v120 : BitVec 32) : Prop :=
  (∀ a, (k2_off28 v120) a + S1x1x128.size a ≤ S50000x1x128.size a) ∧
  (∀ a, (k2_off46 v120) a + S1x1x128.size a ≤ S50000x1x128.size a)
instance k2_chk14.dec : ∀ (v120 : BitVec 32), Decidable (k2_chk14 v120) := fun v120 => decidable_of_iff' _ (Iff.of_eq (k2_chk14.eq_1 v120))
theorem k2_off28_inb : ∀ (v120 : BitVec 32) (k2_hw14 : k2_chk14 v120), ∀ a, (k2_off28 v120) a + S1x1x128.size a ≤ S50000x1x128.size a := fun v120 k2_hw14 => k2_hw14.1
theorem k2_off46_inb : ∀ (v120 : BitVec 32) (k2_hw14 : k2_chk14 v120), ∀ a, (k2_off46 v120) a + S1x1x128.size a ≤ S50000x1x128.size a := fun v120 k2_hw14 => k2_hw14.2

def k2_off47 (v129 : BitVec 32) : Fin 3 → Nat :=
  let c0_i32_184 : BitVec 32 := 0#32
  let c0_i32_185 : BitVec 32 := 0#32
  ![v129.toNat, 0, 0]

def k2_chk15 (v129 : BitVec 32) : Prop :=
  (∀ a, (k2_off30 v129) a + S1x1x128.size a ≤ S50000x1x128.size a) ∧
  (∀ a, (k2_off47 v129) a + S1x1x128.size a ≤ S50000x1x128.size a)
instance k2_chk15.dec : ∀ (v129 : BitVec 32), Decidable (k2_chk15 v129) := fun v129 => decidable_of_iff' _ (Iff.of_eq (k2_chk15.eq_1 v129))
theorem k2_off30_inb : ∀ (v129 : BitVec 32) (k2_hw15 : k2_chk15 v129), ∀ a, (k2_off30 v129) a + S1x1x128.size a ≤ S50000x1x128.size a := fun v129 k2_hw15 => k2_hw15.1
theorem k2_off47_inb : ∀ (v129 : BitVec 32) (k2_hw15 : k2_chk15 v129), ∀ a, (k2_off47 v129) a + S1x1x128.size a ≤ S50000x1x128.size a := fun v129 k2_hw15 => k2_hw15.2

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S16x1x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev grid3 : Pipeline.Grid := ⟨1, ![4000], ![false]⟩

abbrev pre3 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k3_off2 (v3 : BitVec 32) : Fin 3 → Nat :=
  let c0_i32_4 : BitVec 32 := 0#32
  let c0_i32_5 : BitVec 32 := 0#32
  ![v3.toNat, 0, 0]

def k3_off3 (i : grid3.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k3_off4 (v12 : BitVec 32) : Fin 3 → Nat :=
  let c0_i32_10 : BitVec 32 := 0#32
  let c0_i32_11 : BitVec 32 := 0#32
  ![v12.toNat, 0, 0]

def k3_off5 (i : grid3.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k3_off6 (v21 : BitVec 32) : Fin 3 → Nat :=
  let c0_i32_16 : BitVec 32 := 0#32
  let c0_i32_17 : BitVec 32 := 0#32
  ![v21.toNat, 0, 0]

def k3_off7 (i : grid3.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k3_off8 (v30 : BitVec 32) : Fin 3 → Nat :=
  let c0_i32_22 : BitVec 32 := 0#32
  let c0_i32_23 : BitVec 32 := 0#32
  ![v30.toNat, 0, 0]

def k3_off9 (i : grid3.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k3_off10 (v39 : BitVec 32) : Fin 3 → Nat :=
  let c0_i32_28 : BitVec 32 := 0#32
  let c0_i32_29 : BitVec 32 := 0#32
  ![v39.toNat, 0, 0]

def k3_off11 (i : grid3.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k3_off12 (v48 : BitVec 32) : Fin 3 → Nat :=
  let c0_i32_34 : BitVec 32 := 0#32
  let c0_i32_35 : BitVec 32 := 0#32
  ![v48.toNat, 0, 0]

def k3_off13 (i : grid3.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k3_off14 (v57 : BitVec 32) : Fin 3 → Nat :=
  let c0_i32_40 : BitVec 32 := 0#32
  let c0_i32_41 : BitVec 32 := 0#32
  ![v57.toNat, 0, 0]

def k3_off15 (i : grid3.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k3_off16 (v66 : BitVec 32) : Fin 3 → Nat :=
  let c0_i32_46 : BitVec 32 := 0#32
  let c0_i32_47 : BitVec 32 := 0#32
  ![v66.toNat, 0, 0]

def k3_off17 (i : grid3.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k3_off18 (v75 : BitVec 32) : Fin 3 → Nat :=
  let c0_i32_52 : BitVec 32 := 0#32
  let c0_i32_53 : BitVec 32 := 0#32
  ![v75.toNat, 0, 0]

def k3_off19 (i : grid3.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k3_off20 (v84 : BitVec 32) : Fin 3 → Nat :=
  let c0_i32_58 : BitVec 32 := 0#32
  let c0_i32_59 : BitVec 32 := 0#32
  ![v84.toNat, 0, 0]

def k3_off21 (i : grid3.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k3_off22 (v93 : BitVec 32) : Fin 3 → Nat :=
  let c0_i32_64 : BitVec 32 := 0#32
  let c0_i32_65 : BitVec 32 := 0#32
  ![v93.toNat, 0, 0]

def k3_off23 (i : grid3.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k3_off24 (v102 : BitVec 32) : Fin 3 → Nat :=
  let c0_i32_70 : BitVec 32 := 0#32
  let c0_i32_71 : BitVec 32 := 0#32
  ![v102.toNat, 0, 0]

def k3_off25 (i : grid3.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k3_off26 (v111 : BitVec 32) : Fin 3 → Nat :=
  let c0_i32_76 : BitVec 32 := 0#32
  let c0_i32_77 : BitVec 32 := 0#32
  ![v111.toNat, 0, 0]

def k3_off27 (i : grid3.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k3_off28 (v120 : BitVec 32) : Fin 3 → Nat :=
  let c0_i32_82 : BitVec 32 := 0#32
  let c0_i32_83 : BitVec 32 := 0#32
  ![v120.toNat, 0, 0]

def k3_off29 (i : grid3.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k3_off30 (v129 : BitVec 32) : Fin 3 → Nat :=
  let c0_i32_88 : BitVec 32 := 0#32
  let c0_i32_89 : BitVec 32 := 0#32
  ![v129.toNat, 0, 0]

def k3_off31 (i : grid3.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k3_off32 (v138 : BitVec 32) : Fin 3 → Nat :=
  let c0_i32_94 : BitVec 32 := 0#32
  let c0_i32_95 : BitVec 32 := 0#32
  ![v138.toNat, 0, 0]

def k3_chk16 (v138 : BitVec 32) : Prop :=
  (∀ a, (k3_off32 v138) a + S1x1x128.size a ≤ S50000x1x128.size a)
instance k3_chk16.dec : ∀ (v138 : BitVec 32), Decidable (k3_chk16 v138) := fun v138 => decidable_of_iff' _ (Iff.of_eq (k3_chk16.eq_1 v138))
theorem k3_off32_inb : ∀ (v138 : BitVec 32) (k3_hw16 : k3_chk16 v138), ∀ a, (k3_off32 v138) a + S1x1x128.size a ≤ S50000x1x128.size a := fun v138 k3_hw16 => k3_hw16

def k3_off33 (v3 : BitVec 32) : Fin 3 → Nat :=
  let c0_i32_100 : BitVec 32 := 0#32
  let c0_i32_101 : BitVec 32 := 0#32
  ![v3.toNat, 0, 0]

def k3_chk1 (v3 : BitVec 32) : Prop :=
  (∀ a, (k3_off2 v3) a + S1x1x128.size a ≤ S50000x1x128.size a) ∧
  (∀ a, (k3_off33 v3) a + S1x1x128.size a ≤ S50000x1x128.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x1x128.size a ≤ S50000x1x128.size a := fun v3 k3_hw1 => k3_hw1.1
theorem k3_off33_inb : ∀ (v3 : BitVec 32) (k3_hw1 : k3_chk1 v3), ∀ a, (k3_off33 v3) a + S1x1x128.size a ≤ S50000x1x128.size a := fun v3 k3_hw1 => k3_hw1.2

def k3_off34 (v12 : BitVec 32) : Fin 3 → Nat :=
  let c0_i32_106 : BitVec 32 := 0#32
  let c0_i32_107 : BitVec 32 := 0#32
  ![v12.toNat, 0, 0]

def k3_chk2 (v12 : BitVec 32) : Prop :=
  (∀ a, (k3_off4 v12) a + S1x1x128.size a ≤ S50000x1x128.size a) ∧
  (∀ a, (k3_off34 v12) a + S1x1x128.size a ≤ S50000x1x128.size a)
instance k3_chk2.dec : ∀ (v12 : BitVec 32), Decidable (k3_chk2 v12) := fun v12 => decidable_of_iff' _ (Iff.of_eq (k3_chk2.eq_1 v12))
theorem k3_off4_inb : ∀ (v12 : BitVec 32) (k3_hw2 : k3_chk2 v12), ∀ a, (k3_off4 v12) a + S1x1x128.size a ≤ S50000x1x128.size a := fun v12 k3_hw2 => k3_hw2.1
theorem k3_off34_inb : ∀ (v12 : BitVec 32) (k3_hw2 : k3_chk2 v12), ∀ a, (k3_off34 v12) a + S1x1x128.size a ≤ S50000x1x128.size a := fun v12 k3_hw2 => k3_hw2.2

def k3_off35 (v21 : BitVec 32) : Fin 3 → Nat :=
  let c0_i32_112 : BitVec 32 := 0#32
  let c0_i32_113 : BitVec 32 := 0#32
  ![v21.toNat, 0, 0]

def k3_chk3 (v21 : BitVec 32) : Prop :=
  (∀ a, (k3_off6 v21) a + S1x1x128.size a ≤ S50000x1x128.size a) ∧
  (∀ a, (k3_off35 v21) a + S1x1x128.size a ≤ S50000x1x128.size a)
instance k3_chk3.dec : ∀ (v21 : BitVec 32), Decidable (k3_chk3 v21) := fun v21 => decidable_of_iff' _ (Iff.of_eq (k3_chk3.eq_1 v21))
theorem k3_off6_inb : ∀ (v21 : BitVec 32) (k3_hw3 : k3_chk3 v21), ∀ a, (k3_off6 v21) a + S1x1x128.size a ≤ S50000x1x128.size a := fun v21 k3_hw3 => k3_hw3.1
theorem k3_off35_inb : ∀ (v21 : BitVec 32) (k3_hw3 : k3_chk3 v21), ∀ a, (k3_off35 v21) a + S1x1x128.size a ≤ S50000x1x128.size a := fun v21 k3_hw3 => k3_hw3.2

def k3_off36 (v30 : BitVec 32) : Fin 3 → Nat :=
  let c0_i32_118 : BitVec 32 := 0#32
  let c0_i32_119 : BitVec 32 := 0#32
  ![v30.toNat, 0, 0]

def k3_chk4 (v30 : BitVec 32) : Prop :=
  (∀ a, (k3_off8 v30) a + S1x1x128.size a ≤ S50000x1x128.size a) ∧
  (∀ a, (k3_off36 v30) a + S1x1x128.size a ≤ S50000x1x128.size a)
instance k3_chk4.dec : ∀ (v30 : BitVec 32), Decidable (k3_chk4 v30) := fun v30 => decidable_of_iff' _ (Iff.of_eq (k3_chk4.eq_1 v30))
theorem k3_off8_inb : ∀ (v30 : BitVec 32) (k3_hw4 : k3_chk4 v30), ∀ a, (k3_off8 v30) a + S1x1x128.size a ≤ S50000x1x128.size a := fun v30 k3_hw4 => k3_hw4.1
theorem k3_off36_inb : ∀ (v30 : BitVec 32) (k3_hw4 : k3_chk4 v30), ∀ a, (k3_off36 v30) a + S1x1x128.size a ≤ S50000x1x128.size a := fun v30 k3_hw4 => k3_hw4.2

def k3_off37 (v39 : BitVec 32) : Fin 3 → Nat :=
  let c0_i32_124 : BitVec 32 := 0#32
  let c0_i32_125 : BitVec 32 := 0#32
  ![v39.toNat, 0, 0]

def k3_chk5 (v39 : BitVec 32) : Prop :=
  (∀ a, (k3_off10 v39) a + S1x1x128.size a ≤ S50000x1x128.size a) ∧
  (∀ a, (k3_off37 v39) a + S1x1x128.size a ≤ S50000x1x128.size a)
instance k3_chk5.dec : ∀ (v39 : BitVec 32), Decidable (k3_chk5 v39) := fun v39 => decidable_of_iff' _ (Iff.of_eq (k3_chk5.eq_1 v39))
theorem k3_off10_inb : ∀ (v39 : BitVec 32) (k3_hw5 : k3_chk5 v39), ∀ a, (k3_off10 v39) a + S1x1x128.size a ≤ S50000x1x128.size a := fun v39 k3_hw5 => k3_hw5.1
theorem k3_off37_inb : ∀ (v39 : BitVec 32) (k3_hw5 : k3_chk5 v39), ∀ a, (k3_off37 v39) a + S1x1x128.size a ≤ S50000x1x128.size a := fun v39 k3_hw5 => k3_hw5.2

def k3_off38 (v48 : BitVec 32) : Fin 3 → Nat :=
  let c0_i32_130 : BitVec 32 := 0#32
  let c0_i32_131 : BitVec 32 := 0#32
  ![v48.toNat, 0, 0]

def k3_chk6 (v48 : BitVec 32) : Prop :=
  (∀ a, (k3_off12 v48) a + S1x1x128.size a ≤ S50000x1x128.size a) ∧
  (∀ a, (k3_off38 v48) a + S1x1x128.size a ≤ S50000x1x128.size a)
instance k3_chk6.dec : ∀ (v48 : BitVec 32), Decidable (k3_chk6 v48) := fun v48 => decidable_of_iff' _ (Iff.of_eq (k3_chk6.eq_1 v48))
theorem k3_off12_inb : ∀ (v48 : BitVec 32) (k3_hw6 : k3_chk6 v48), ∀ a, (k3_off12 v48) a + S1x1x128.size a ≤ S50000x1x128.size a := fun v48 k3_hw6 => k3_hw6.1
theorem k3_off38_inb : ∀ (v48 : BitVec 32) (k3_hw6 : k3_chk6 v48), ∀ a, (k3_off38 v48) a + S1x1x128.size a ≤ S50000x1x128.size a := fun v48 k3_hw6 => k3_hw6.2

def k3_off39 (v57 : BitVec 32) : Fin 3 → Nat :=
  let c0_i32_136 : BitVec 32 := 0#32
  let c0_i32_137 : BitVec 32 := 0#32
  ![v57.toNat, 0, 0]

def k3_chk7 (v57 : BitVec 32) : Prop :=
  (∀ a, (k3_off14 v57) a + S1x1x128.size a ≤ S50000x1x128.size a) ∧
  (∀ a, (k3_off39 v57) a + S1x1x128.size a ≤ S50000x1x128.size a)
instance k3_chk7.dec : ∀ (v57 : BitVec 32), Decidable (k3_chk7 v57) := fun v57 => decidable_of_iff' _ (Iff.of_eq (k3_chk7.eq_1 v57))
theorem k3_off14_inb : ∀ (v57 : BitVec 32) (k3_hw7 : k3_chk7 v57), ∀ a, (k3_off14 v57) a + S1x1x128.size a ≤ S50000x1x128.size a := fun v57 k3_hw7 => k3_hw7.1
theorem k3_off39_inb : ∀ (v57 : BitVec 32) (k3_hw7 : k3_chk7 v57), ∀ a, (k3_off39 v57) a + S1x1x128.size a ≤ S50000x1x128.size a := fun v57 k3_hw7 => k3_hw7.2

def k3_off40 (v66 : BitVec 32) : Fin 3 → Nat :=
  let c0_i32_142 : BitVec 32 := 0#32
  let c0_i32_143 : BitVec 32 := 0#32
  ![v66.toNat, 0, 0]

def k3_chk8 (v66 : BitVec 32) : Prop :=
  (∀ a, (k3_off16 v66) a + S1x1x128.size a ≤ S50000x1x128.size a) ∧
  (∀ a, (k3_off40 v66) a + S1x1x128.size a ≤ S50000x1x128.size a)
instance k3_chk8.dec : ∀ (v66 : BitVec 32), Decidable (k3_chk8 v66) := fun v66 => decidable_of_iff' _ (Iff.of_eq (k3_chk8.eq_1 v66))
theorem k3_off16_inb : ∀ (v66 : BitVec 32) (k3_hw8 : k3_chk8 v66), ∀ a, (k3_off16 v66) a + S1x1x128.size a ≤ S50000x1x128.size a := fun v66 k3_hw8 => k3_hw8.1
theorem k3_off40_inb : ∀ (v66 : BitVec 32) (k3_hw8 : k3_chk8 v66), ∀ a, (k3_off40 v66) a + S1x1x128.size a ≤ S50000x1x128.size a := fun v66 k3_hw8 => k3_hw8.2

def k3_off41 (v75 : BitVec 32) : Fin 3 → Nat :=
  let c0_i32_148 : BitVec 32 := 0#32
  let c0_i32_149 : BitVec 32 := 0#32
  ![v75.toNat, 0, 0]

def k3_chk9 (v75 : BitVec 32) : Prop :=
  (∀ a, (k3_off18 v75) a + S1x1x128.size a ≤ S50000x1x128.size a) ∧
  (∀ a, (k3_off41 v75) a + S1x1x128.size a ≤ S50000x1x128.size a)
instance k3_chk9.dec : ∀ (v75 : BitVec 32), Decidable (k3_chk9 v75) := fun v75 => decidable_of_iff' _ (Iff.of_eq (k3_chk9.eq_1 v75))
theorem k3_off18_inb : ∀ (v75 : BitVec 32) (k3_hw9 : k3_chk9 v75), ∀ a, (k3_off18 v75) a + S1x1x128.size a ≤ S50000x1x128.size a := fun v75 k3_hw9 => k3_hw9.1
theorem k3_off41_inb : ∀ (v75 : BitVec 32) (k3_hw9 : k3_chk9 v75), ∀ a, (k3_off41 v75) a + S1x1x128.size a ≤ S50000x1x128.size a := fun v75 k3_hw9 => k3_hw9.2

def k3_off42 (v84 : BitVec 32) : Fin 3 → Nat :=
  let c0_i32_154 : BitVec 32 := 0#32
  let c0_i32_155 : BitVec 32 := 0#32
  ![v84.toNat, 0, 0]

def k3_chk10 (v84 : BitVec 32) : Prop :=
  (∀ a, (k3_off20 v84) a + S1x1x128.size a ≤ S50000x1x128.size a) ∧
  (∀ a, (k3_off42 v84) a + S1x1x128.size a ≤ S50000x1x128.size a)
instance k3_chk10.dec : ∀ (v84 : BitVec 32), Decidable (k3_chk10 v84) := fun v84 => decidable_of_iff' _ (Iff.of_eq (k3_chk10.eq_1 v84))
theorem k3_off20_inb : ∀ (v84 : BitVec 32) (k3_hw10 : k3_chk10 v84), ∀ a, (k3_off20 v84) a + S1x1x128.size a ≤ S50000x1x128.size a := fun v84 k3_hw10 => k3_hw10.1
theorem k3_off42_inb : ∀ (v84 : BitVec 32) (k3_hw10 : k3_chk10 v84), ∀ a, (k3_off42 v84) a + S1x1x128.size a ≤ S50000x1x128.size a := fun v84 k3_hw10 => k3_hw10.2

def k3_off43 (v93 : BitVec 32) : Fin 3 → Nat :=
  let c0_i32_160 : BitVec 32 := 0#32
  let c0_i32_161 : BitVec 32 := 0#32
  ![v93.toNat, 0, 0]

def k3_chk11 (v93 : BitVec 32) : Prop :=
  (∀ a, (k3_off22 v93) a + S1x1x128.size a ≤ S50000x1x128.size a) ∧
  (∀ a, (k3_off43 v93) a + S1x1x128.size a ≤ S50000x1x128.size a)
instance k3_chk11.dec : ∀ (v93 : BitVec 32), Decidable (k3_chk11 v93) := fun v93 => decidable_of_iff' _ (Iff.of_eq (k3_chk11.eq_1 v93))
theorem k3_off22_inb : ∀ (v93 : BitVec 32) (k3_hw11 : k3_chk11 v93), ∀ a, (k3_off22 v93) a + S1x1x128.size a ≤ S50000x1x128.size a := fun v93 k3_hw11 => k3_hw11.1
theorem k3_off43_inb : ∀ (v93 : BitVec 32) (k3_hw11 : k3_chk11 v93), ∀ a, (k3_off43 v93) a + S1x1x128.size a ≤ S50000x1x128.size a := fun v93 k3_hw11 => k3_hw11.2

def k3_off44 (v102 : BitVec 32) : Fin 3 → Nat :=
  let c0_i32_166 : BitVec 32 := 0#32
  let c0_i32_167 : BitVec 32 := 0#32
  ![v102.toNat, 0, 0]

def k3_chk12 (v102 : BitVec 32) : Prop :=
  (∀ a, (k3_off24 v102) a + S1x1x128.size a ≤ S50000x1x128.size a) ∧
  (∀ a, (k3_off44 v102) a + S1x1x128.size a ≤ S50000x1x128.size a)
instance k3_chk12.dec : ∀ (v102 : BitVec 32), Decidable (k3_chk12 v102) := fun v102 => decidable_of_iff' _ (Iff.of_eq (k3_chk12.eq_1 v102))
theorem k3_off24_inb : ∀ (v102 : BitVec 32) (k3_hw12 : k3_chk12 v102), ∀ a, (k3_off24 v102) a + S1x1x128.size a ≤ S50000x1x128.size a := fun v102 k3_hw12 => k3_hw12.1
theorem k3_off44_inb : ∀ (v102 : BitVec 32) (k3_hw12 : k3_chk12 v102), ∀ a, (k3_off44 v102) a + S1x1x128.size a ≤ S50000x1x128.size a := fun v102 k3_hw12 => k3_hw12.2

def k3_off45 (v111 : BitVec 32) : Fin 3 → Nat :=
  let c0_i32_172 : BitVec 32 := 0#32
  let c0_i32_173 : BitVec 32 := 0#32
  ![v111.toNat, 0, 0]

def k3_chk13 (v111 : BitVec 32) : Prop :=
  (∀ a, (k3_off26 v111) a + S1x1x128.size a ≤ S50000x1x128.size a) ∧
  (∀ a, (k3_off45 v111) a + S1x1x128.size a ≤ S50000x1x128.size a)
instance k3_chk13.dec : ∀ (v111 : BitVec 32), Decidable (k3_chk13 v111) := fun v111 => decidable_of_iff' _ (Iff.of_eq (k3_chk13.eq_1 v111))
theorem k3_off26_inb : ∀ (v111 : BitVec 32) (k3_hw13 : k3_chk13 v111), ∀ a, (k3_off26 v111) a + S1x1x128.size a ≤ S50000x1x128.size a := fun v111 k3_hw13 => k3_hw13.1
theorem k3_off45_inb : ∀ (v111 : BitVec 32) (k3_hw13 : k3_chk13 v111), ∀ a, (k3_off45 v111) a + S1x1x128.size a ≤ S50000x1x128.size a := fun v111 k3_hw13 => k3_hw13.2

def k3_off46 (v120 : BitVec 32) : Fin 3 → Nat :=
  let c0_i32_178 : BitVec 32 := 0#32
  let c0_i32_179 : BitVec 32 := 0#32
  ![v120.toNat, 0, 0]

def k3_chk14 (v120 : BitVec 32) : Prop :=
  (∀ a, (k3_off28 v120) a + S1x1x128.size a ≤ S50000x1x128.size a) ∧
  (∀ a, (k3_off46 v120) a + S1x1x128.size a ≤ S50000x1x128.size a)
instance k3_chk14.dec : ∀ (v120 : BitVec 32), Decidable (k3_chk14 v120) := fun v120 => decidable_of_iff' _ (Iff.of_eq (k3_chk14.eq_1 v120))
theorem k3_off28_inb : ∀ (v120 : BitVec 32) (k3_hw14 : k3_chk14 v120), ∀ a, (k3_off28 v120) a + S1x1x128.size a ≤ S50000x1x128.size a := fun v120 k3_hw14 => k3_hw14.1
theorem k3_off46_inb : ∀ (v120 : BitVec 32) (k3_hw14 : k3_chk14 v120), ∀ a, (k3_off46 v120) a + S1x1x128.size a ≤ S50000x1x128.size a := fun v120 k3_hw14 => k3_hw14.2

def k3_off47 (v129 : BitVec 32) : Fin 3 → Nat :=
  let c0_i32_184 : BitVec 32 := 0#32
  let c0_i32_185 : BitVec 32 := 0#32
  ![v129.toNat, 0, 0]

def k3_chk15 (v129 : BitVec 32) : Prop :=
  (∀ a, (k3_off30 v129) a + S1x1x128.size a ≤ S50000x1x128.size a) ∧
  (∀ a, (k3_off47 v129) a + S1x1x128.size a ≤ S50000x1x128.size a)
instance k3_chk15.dec : ∀ (v129 : BitVec 32), Decidable (k3_chk15 v129) := fun v129 => decidable_of_iff' _ (Iff.of_eq (k3_chk15.eq_1 v129))
theorem k3_off30_inb : ∀ (v129 : BitVec 32) (k3_hw15 : k3_chk15 v129), ∀ a, (k3_off30 v129) a + S1x1x128.size a ≤ S50000x1x128.size a := fun v129 k3_hw15 => k3_hw15.1
theorem k3_off47_inb : ∀ (v129 : BitVec 32) (k3_hw15 : k3_chk15 v129), ∀ a, (k3_off47 v129) a + S1x1x128.size a ≤ S50000x1x128.size a := fun v129 k3_hw15 => k3_hw15.2

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S16x1x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev grid4 : Pipeline.Grid := ⟨1, ![4000], ![false]⟩

abbrev pre4 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k4_off2 (v3 : BitVec 32) : Fin 3 → Nat :=
  let c0_i32_4 : BitVec 32 := 0#32
  let c0_i32_5 : BitVec 32 := 0#32
  ![v3.toNat, 0, 0]

def k4_off3 (i : grid4.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k4_off4 (v12 : BitVec 32) : Fin 3 → Nat :=
  let c0_i32_10 : BitVec 32 := 0#32
  let c0_i32_11 : BitVec 32 := 0#32
  ![v12.toNat, 0, 0]

def k4_off5 (i : grid4.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k4_off6 (v21 : BitVec 32) : Fin 3 → Nat :=
  let c0_i32_16 : BitVec 32 := 0#32
  let c0_i32_17 : BitVec 32 := 0#32
  ![v21.toNat, 0, 0]

def k4_off7 (i : grid4.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k4_off8 (v30 : BitVec 32) : Fin 3 → Nat :=
  let c0_i32_22 : BitVec 32 := 0#32
  let c0_i32_23 : BitVec 32 := 0#32
  ![v30.toNat, 0, 0]

def k4_off9 (i : grid4.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k4_off10 (v39 : BitVec 32) : Fin 3 → Nat :=
  let c0_i32_28 : BitVec 32 := 0#32
  let c0_i32_29 : BitVec 32 := 0#32
  ![v39.toNat, 0, 0]

def k4_off11 (i : grid4.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k4_off12 (v48 : BitVec 32) : Fin 3 → Nat :=
  let c0_i32_34 : BitVec 32 := 0#32
  let c0_i32_35 : BitVec 32 := 0#32
  ![v48.toNat, 0, 0]

def k4_off13 (i : grid4.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k4_off14 (v57 : BitVec 32) : Fin 3 → Nat :=
  let c0_i32_40 : BitVec 32 := 0#32
  let c0_i32_41 : BitVec 32 := 0#32
  ![v57.toNat, 0, 0]

def k4_off15 (i : grid4.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k4_off16 (v66 : BitVec 32) : Fin 3 → Nat :=
  let c0_i32_46 : BitVec 32 := 0#32
  let c0_i32_47 : BitVec 32 := 0#32
  ![v66.toNat, 0, 0]

def k4_off17 (i : grid4.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k4_off18 (v75 : BitVec 32) : Fin 3 → Nat :=
  let c0_i32_52 : BitVec 32 := 0#32
  let c0_i32_53 : BitVec 32 := 0#32
  ![v75.toNat, 0, 0]

def k4_off19 (i : grid4.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k4_off20 (v84 : BitVec 32) : Fin 3 → Nat :=
  let c0_i32_58 : BitVec 32 := 0#32
  let c0_i32_59 : BitVec 32 := 0#32
  ![v84.toNat, 0, 0]

def k4_off21 (i : grid4.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k4_off22 (v93 : BitVec 32) : Fin 3 → Nat :=
  let c0_i32_64 : BitVec 32 := 0#32
  let c0_i32_65 : BitVec 32 := 0#32
  ![v93.toNat, 0, 0]

def k4_off23 (i : grid4.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k4_off24 (v102 : BitVec 32) : Fin 3 → Nat :=
  let c0_i32_70 : BitVec 32 := 0#32
  let c0_i32_71 : BitVec 32 := 0#32
  ![v102.toNat, 0, 0]

def k4_off25 (i : grid4.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k4_off26 (v111 : BitVec 32) : Fin 3 → Nat :=
  let c0_i32_76 : BitVec 32 := 0#32
  let c0_i32_77 : BitVec 32 := 0#32
  ![v111.toNat, 0, 0]

def k4_off27 (i : grid4.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k4_off28 (v120 : BitVec 32) : Fin 3 → Nat :=
  let c0_i32_82 : BitVec 32 := 0#32
  let c0_i32_83 : BitVec 32 := 0#32
  ![v120.toNat, 0, 0]

def k4_off29 (i : grid4.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k4_off30 (v129 : BitVec 32) : Fin 3 → Nat :=
  let c0_i32_88 : BitVec 32 := 0#32
  let c0_i32_89 : BitVec 32 := 0#32
  ![v129.toNat, 0, 0]

def k4_off31 (i : grid4.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k4_off32 (v138 : BitVec 32) : Fin 3 → Nat :=
  let c0_i32_94 : BitVec 32 := 0#32
  let c0_i32_95 : BitVec 32 := 0#32
  ![v138.toNat, 0, 0]

def k4_chk16 (v138 : BitVec 32) : Prop :=
  (∀ a, (k4_off32 v138) a + S1x1x128.size a ≤ S50000x1x128.size a)
instance k4_chk16.dec : ∀ (v138 : BitVec 32), Decidable (k4_chk16 v138) := fun v138 => decidable_of_iff' _ (Iff.of_eq (k4_chk16.eq_1 v138))
theorem k4_off32_inb : ∀ (v138 : BitVec 32) (k4_hw16 : k4_chk16 v138), ∀ a, (k4_off32 v138) a + S1x1x128.size a ≤ S50000x1x128.size a := fun v138 k4_hw16 => k4_hw16

def k4_off33 (v3 : BitVec 32) : Fin 3 → Nat :=
  let c0_i32_100 : BitVec 32 := 0#32
  let c0_i32_101 : BitVec 32 := 0#32
  ![v3.toNat, 0, 0]

def k4_chk1 (v3 : BitVec 32) : Prop :=
  (∀ a, (k4_off2 v3) a + S1x1x128.size a ≤ S50000x1x128.size a) ∧
  (∀ a, (k4_off33 v3) a + S1x1x128.size a ≤ S50000x1x128.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x1x128.size a ≤ S50000x1x128.size a := fun v3 k4_hw1 => k4_hw1.1
theorem k4_off33_inb : ∀ (v3 : BitVec 32) (k4_hw1 : k4_chk1 v3), ∀ a, (k4_off33 v3) a + S1x1x128.size a ≤ S50000x1x128.size a := fun v3 k4_hw1 => k4_hw1.2

def k4_off34 (v12 : BitVec 32) : Fin 3 → Nat :=
  let c0_i32_106 : BitVec 32 := 0#32
  let c0_i32_107 : BitVec 32 := 0#32
  ![v12.toNat, 0, 0]

def k4_chk2 (v12 : BitVec 32) : Prop :=
  (∀ a, (k4_off4 v12) a + S1x1x128.size a ≤ S50000x1x128.size a) ∧
  (∀ a, (k4_off34 v12) a + S1x1x128.size a ≤ S50000x1x128.size a)
instance k4_chk2.dec : ∀ (v12 : BitVec 32), Decidable (k4_chk2 v12) := fun v12 => decidable_of_iff' _ (Iff.of_eq (k4_chk2.eq_1 v12))
theorem k4_off4_inb : ∀ (v12 : BitVec 32) (k4_hw2 : k4_chk2 v12), ∀ a, (k4_off4 v12) a + S1x1x128.size a ≤ S50000x1x128.size a := fun v12 k4_hw2 => k4_hw2.1
theorem k4_off34_inb : ∀ (v12 : BitVec 32) (k4_hw2 : k4_chk2 v12), ∀ a, (k4_off34 v12) a + S1x1x128.size a ≤ S50000x1x128.size a := fun v12 k4_hw2 => k4_hw2.2

def k4_off35 (v21 : BitVec 32) : Fin 3 → Nat :=
  let c0_i32_112 : BitVec 32 := 0#32
  let c0_i32_113 : BitVec 32 := 0#32
  ![v21.toNat, 0, 0]

def k4_chk3 (v21 : BitVec 32) : Prop :=
  (∀ a, (k4_off6 v21) a + S1x1x128.size a ≤ S50000x1x128.size a) ∧
  (∀ a, (k4_off35 v21) a + S1x1x128.size a ≤ S50000x1x128.size a)
instance k4_chk3.dec : ∀ (v21 : BitVec 32), Decidable (k4_chk3 v21) := fun v21 => decidable_of_iff' _ (Iff.of_eq (k4_chk3.eq_1 v21))
theorem k4_off6_inb : ∀ (v21 : BitVec 32) (k4_hw3 : k4_chk3 v21), ∀ a, (k4_off6 v21) a + S1x1x128.size a ≤ S50000x1x128.size a := fun v21 k4_hw3 => k4_hw3.1
theorem k4_off35_inb : ∀ (v21 : BitVec 32) (k4_hw3 : k4_chk3 v21), ∀ a, (k4_off35 v21) a + S1x1x128.size a ≤ S50000x1x128.size a := fun v21 k4_hw3 => k4_hw3.2

def k4_off36 (v30 : BitVec 32) : Fin 3 → Nat :=
  let c0_i32_118 : BitVec 32 := 0#32
  let c0_i32_119 : BitVec 32 := 0#32
  ![v30.toNat, 0, 0]

def k4_chk4 (v30 : BitVec 32) : Prop :=
  (∀ a, (k4_off8 v30) a + S1x1x128.size a ≤ S50000x1x128.size a) ∧
  (∀ a, (k4_off36 v30) a + S1x1x128.size a ≤ S50000x1x128.size a)
instance k4_chk4.dec : ∀ (v30 : BitVec 32), Decidable (k4_chk4 v30) := fun v30 => decidable_of_iff' _ (Iff.of_eq (k4_chk4.eq_1 v30))
theorem k4_off8_inb : ∀ (v30 : BitVec 32) (k4_hw4 : k4_chk4 v30), ∀ a, (k4_off8 v30) a + S1x1x128.size a ≤ S50000x1x128.size a := fun v30 k4_hw4 => k4_hw4.1
theorem k4_off36_inb : ∀ (v30 : BitVec 32) (k4_hw4 : k4_chk4 v30), ∀ a, (k4_off36 v30) a + S1x1x128.size a ≤ S50000x1x128.size a := fun v30 k4_hw4 => k4_hw4.2

def k4_off37 (v39 : BitVec 32) : Fin 3 → Nat :=
  let c0_i32_124 : BitVec 32 := 0#32
  let c0_i32_125 : BitVec 32 := 0#32
  ![v39.toNat, 0, 0]

def k4_chk5 (v39 : BitVec 32) : Prop :=
  (∀ a, (k4_off10 v39) a + S1x1x128.size a ≤ S50000x1x128.size a) ∧
  (∀ a, (k4_off37 v39) a + S1x1x128.size a ≤ S50000x1x128.size a)
instance k4_chk5.dec : ∀ (v39 : BitVec 32), Decidable (k4_chk5 v39) := fun v39 => decidable_of_iff' _ (Iff.of_eq (k4_chk5.eq_1 v39))
theorem k4_off10_inb : ∀ (v39 : BitVec 32) (k4_hw5 : k4_chk5 v39), ∀ a, (k4_off10 v39) a + S1x1x128.size a ≤ S50000x1x128.size a := fun v39 k4_hw5 => k4_hw5.1
theorem k4_off37_inb : ∀ (v39 : BitVec 32) (k4_hw5 : k4_chk5 v39), ∀ a, (k4_off37 v39) a + S1x1x128.size a ≤ S50000x1x128.size a := fun v39 k4_hw5 => k4_hw5.2

def k4_off38 (v48 : BitVec 32) : Fin 3 → Nat :=
  let c0_i32_130 : BitVec 32 := 0#32
  let c0_i32_131 : BitVec 32 := 0#32
  ![v48.toNat, 0, 0]

def k4_chk6 (v48 : BitVec 32) : Prop :=
  (∀ a, (k4_off12 v48) a + S1x1x128.size a ≤ S50000x1x128.size a) ∧
  (∀ a, (k4_off38 v48) a + S1x1x128.size a ≤ S50000x1x128.size a)
instance k4_chk6.dec : ∀ (v48 : BitVec 32), Decidable (k4_chk6 v48) := fun v48 => decidable_of_iff' _ (Iff.of_eq (k4_chk6.eq_1 v48))
theorem k4_off12_inb : ∀ (v48 : BitVec 32) (k4_hw6 : k4_chk6 v48), ∀ a, (k4_off12 v48) a + S1x1x128.size a ≤ S50000x1x128.size a := fun v48 k4_hw6 => k4_hw6.1
theorem k4_off38_inb : ∀ (v48 : BitVec 32) (k4_hw6 : k4_chk6 v48), ∀ a, (k4_off38 v48) a + S1x1x128.size a ≤ S50000x1x128.size a := fun v48 k4_hw6 => k4_hw6.2

def k4_off39 (v57 : BitVec 32) : Fin 3 → Nat :=
  let c0_i32_136 : BitVec 32 := 0#32
  let c0_i32_137 : BitVec 32 := 0#32
  ![v57.toNat, 0, 0]

def k4_chk7 (v57 : BitVec 32) : Prop :=
  (∀ a, (k4_off14 v57) a + S1x1x128.size a ≤ S50000x1x128.size a) ∧
  (∀ a, (k4_off39 v57) a + S1x1x128.size a ≤ S50000x1x128.size a)
instance k4_chk7.dec : ∀ (v57 : BitVec 32), Decidable (k4_chk7 v57) := fun v57 => decidable_of_iff' _ (Iff.of_eq (k4_chk7.eq_1 v57))
theorem k4_off14_inb : ∀ (v57 : BitVec 32) (k4_hw7 : k4_chk7 v57), ∀ a, (k4_off14 v57) a + S1x1x128.size a ≤ S50000x1x128.size a := fun v57 k4_hw7 => k4_hw7.1
theorem k4_off39_inb : ∀ (v57 : BitVec 32) (k4_hw7 : k4_chk7 v57), ∀ a, (k4_off39 v57) a + S1x1x128.size a ≤ S50000x1x128.size a := fun v57 k4_hw7 => k4_hw7.2

def k4_off40 (v66 : BitVec 32) : Fin 3 → Nat :=
  let c0_i32_142 : BitVec 32 := 0#32
  let c0_i32_143 : BitVec 32 := 0#32
  ![v66.toNat, 0, 0]

def k4_chk8 (v66 : BitVec 32) : Prop :=
  (∀ a, (k4_off16 v66) a + S1x1x128.size a ≤ S50000x1x128.size a) ∧
  (∀ a, (k4_off40 v66) a + S1x1x128.size a ≤ S50000x1x128.size a)
instance k4_chk8.dec : ∀ (v66 : BitVec 32), Decidable (k4_chk8 v66) := fun v66 => decidable_of_iff' _ (Iff.of_eq (k4_chk8.eq_1 v66))
theorem k4_off16_inb : ∀ (v66 : BitVec 32) (k4_hw8 : k4_chk8 v66), ∀ a, (k4_off16 v66) a + S1x1x128.size a ≤ S50000x1x128.size a := fun v66 k4_hw8 => k4_hw8.1
theorem k4_off40_inb : ∀ (v66 : BitVec 32) (k4_hw8 : k4_chk8 v66), ∀ a, (k4_off40 v66) a + S1x1x128.size a ≤ S50000x1x128.size a := fun v66 k4_hw8 => k4_hw8.2

def k4_off41 (v75 : BitVec 32) : Fin 3 → Nat :=
  let c0_i32_148 : BitVec 32 := 0#32
  let c0_i32_149 : BitVec 32 := 0#32
  ![v75.toNat, 0, 0]

def k4_chk9 (v75 : BitVec 32) : Prop :=
  (∀ a, (k4_off18 v75) a + S1x1x128.size a ≤ S50000x1x128.size a) ∧
  (∀ a, (k4_off41 v75) a + S1x1x128.size a ≤ S50000x1x128.size a)
instance k4_chk9.dec : ∀ (v75 : BitVec 32), Decidable (k4_chk9 v75) := fun v75 => decidable_of_iff' _ (Iff.of_eq (k4_chk9.eq_1 v75))
theorem k4_off18_inb : ∀ (v75 : BitVec 32) (k4_hw9 : k4_chk9 v75), ∀ a, (k4_off18 v75) a + S1x1x128.size a ≤ S50000x1x128.size a := fun v75 k4_hw9 => k4_hw9.1
theorem k4_off41_inb : ∀ (v75 : BitVec 32) (k4_hw9 : k4_chk9 v75), ∀ a, (k4_off41 v75) a + S1x1x128.size a ≤ S50000x1x128.size a := fun v75 k4_hw9 => k4_hw9.2

def k4_off42 (v84 : BitVec 32) : Fin 3 → Nat :=
  let c0_i32_154 : BitVec 32 := 0#32
  let c0_i32_155 : BitVec 32 := 0#32
  ![v84.toNat, 0, 0]

def k4_chk10 (v84 : BitVec 32) : Prop :=
  (∀ a, (k4_off20 v84) a + S1x1x128.size a ≤ S50000x1x128.size a) ∧
  (∀ a, (k4_off42 v84) a + S1x1x128.size a ≤ S50000x1x128.size a)
instance k4_chk10.dec : ∀ (v84 : BitVec 32), Decidable (k4_chk10 v84) := fun v84 => decidable_of_iff' _ (Iff.of_eq (k4_chk10.eq_1 v84))
theorem k4_off20_inb : ∀ (v84 : BitVec 32) (k4_hw10 : k4_chk10 v84), ∀ a, (k4_off20 v84) a + S1x1x128.size a ≤ S50000x1x128.size a := fun v84 k4_hw10 => k4_hw10.1
theorem k4_off42_inb : ∀ (v84 : BitVec 32) (k4_hw10 : k4_chk10 v84), ∀ a, (k4_off42 v84) a + S1x1x128.size a ≤ S50000x1x128.size a := fun v84 k4_hw10 => k4_hw10.2

def k4_off43 (v93 : BitVec 32) : Fin 3 → Nat :=
  let c0_i32_160 : BitVec 32 := 0#32
  let c0_i32_161 : BitVec 32 := 0#32
  ![v93.toNat, 0, 0]

def k4_chk11 (v93 : BitVec 32) : Prop :=
  (∀ a, (k4_off22 v93) a + S1x1x128.size a ≤ S50000x1x128.size a) ∧
  (∀ a, (k4_off43 v93) a + S1x1x128.size a ≤ S50000x1x128.size a)
instance k4_chk11.dec : ∀ (v93 : BitVec 32), Decidable (k4_chk11 v93) := fun v93 => decidable_of_iff' _ (Iff.of_eq (k4_chk11.eq_1 v93))
theorem k4_off22_inb : ∀ (v93 : BitVec 32) (k4_hw11 : k4_chk11 v93), ∀ a, (k4_off22 v93) a + S1x1x128.size a ≤ S50000x1x128.size a := fun v93 k4_hw11 => k4_hw11.1
theorem k4_off43_inb : ∀ (v93 : BitVec 32) (k4_hw11 : k4_chk11 v93), ∀ a, (k4_off43 v93) a + S1x1x128.size a ≤ S50000x1x128.size a := fun v93 k4_hw11 => k4_hw11.2

def k4_off44 (v102 : BitVec 32) : Fin 3 → Nat :=
  let c0_i32_166 : BitVec 32 := 0#32
  let c0_i32_167 : BitVec 32 := 0#32
  ![v102.toNat, 0, 0]

def k4_chk12 (v102 : BitVec 32) : Prop :=
  (∀ a, (k4_off24 v102) a + S1x1x128.size a ≤ S50000x1x128.size a) ∧
  (∀ a, (k4_off44 v102) a + S1x1x128.size a ≤ S50000x1x128.size a)
instance k4_chk12.dec : ∀ (v102 : BitVec 32), Decidable (k4_chk12 v102) := fun v102 => decidable_of_iff' _ (Iff.of_eq (k4_chk12.eq_1 v102))
theorem k4_off24_inb : ∀ (v102 : BitVec 32) (k4_hw12 : k4_chk12 v102), ∀ a, (k4_off24 v102) a + S1x1x128.size a ≤ S50000x1x128.size a := fun v102 k4_hw12 => k4_hw12.1
theorem k4_off44_inb : ∀ (v102 : BitVec 32) (k4_hw12 : k4_chk12 v102), ∀ a, (k4_off44 v102) a + S1x1x128.size a ≤ S50000x1x128.size a := fun v102 k4_hw12 => k4_hw12.2

def k4_off45 (v111 : BitVec 32) : Fin 3 → Nat :=
  let c0_i32_172 : BitVec 32 := 0#32
  let c0_i32_173 : BitVec 32 := 0#32
  ![v111.toNat, 0, 0]

def k4_chk13 (v111 : BitVec 32) : Prop :=
  (∀ a, (k4_off26 v111) a + S1x1x128.size a ≤ S50000x1x128.size a) ∧
  (∀ a, (k4_off45 v111) a + S1x1x128.size a ≤ S50000x1x128.size a)
instance k4_chk13.dec : ∀ (v111 : BitVec 32), Decidable (k4_chk13 v111) := fun v111 => decidable_of_iff' _ (Iff.of_eq (k4_chk13.eq_1 v111))
theorem k4_off26_inb : ∀ (v111 : BitVec 32) (k4_hw13 : k4_chk13 v111), ∀ a, (k4_off26 v111) a + S1x1x128.size a ≤ S50000x1x128.size a := fun v111 k4_hw13 => k4_hw13.1
theorem k4_off45_inb : ∀ (v111 : BitVec 32) (k4_hw13 : k4_chk13 v111), ∀ a, (k4_off45 v111) a + S1x1x128.size a ≤ S50000x1x128.size a := fun v111 k4_hw13 => k4_hw13.2

def k4_off46 (v120 : BitVec 32) : Fin 3 → Nat :=
  let c0_i32_178 : BitVec 32 := 0#32
  let c0_i32_179 : BitVec 32 := 0#32
  ![v120.toNat, 0, 0]

def k4_chk14 (v120 : BitVec 32) : Prop :=
  (∀ a, (k4_off28 v120) a + S1x1x128.size a ≤ S50000x1x128.size a) ∧
  (∀ a, (k4_off46 v120) a + S1x1x128.size a ≤ S50000x1x128.size a)
instance k4_chk14.dec : ∀ (v120 : BitVec 32), Decidable (k4_chk14 v120) := fun v120 => decidable_of_iff' _ (Iff.of_eq (k4_chk14.eq_1 v120))
theorem k4_off28_inb : ∀ (v120 : BitVec 32) (k4_hw14 : k4_chk14 v120), ∀ a, (k4_off28 v120) a + S1x1x128.size a ≤ S50000x1x128.size a := fun v120 k4_hw14 => k4_hw14.1
theorem k4_off46_inb : ∀ (v120 : BitVec 32) (k4_hw14 : k4_chk14 v120), ∀ a, (k4_off46 v120) a + S1x1x128.size a ≤ S50000x1x128.size a := fun v120 k4_hw14 => k4_hw14.2

def k4_off47 (v129 : BitVec 32) : Fin 3 → Nat :=
  let c0_i32_184 : BitVec 32 := 0#32
  let c0_i32_185 : BitVec 32 := 0#32
  ![v129.toNat, 0, 0]

def k4_chk15 (v129 : BitVec 32) : Prop :=
  (∀ a, (k4_off30 v129) a + S1x1x128.size a ≤ S50000x1x128.size a) ∧
  (∀ a, (k4_off47 v129) a + S1x1x128.size a ≤ S50000x1x128.size a)
instance k4_chk15.dec : ∀ (v129 : BitVec 32), Decidable (k4_chk15 v129) := fun v129 => decidable_of_iff' _ (Iff.of_eq (k4_chk15.eq_1 v129))
theorem k4_off30_inb : ∀ (v129 : BitVec 32) (k4_hw15 : k4_chk15 v129), ∀ a, (k4_off30 v129) a + S1x1x128.size a ≤ S50000x1x128.size a := fun v129 k4_hw15 => k4_hw15.1
theorem k4_off47_inb : ∀ (v129 : BitVec 32) (k4_hw15 : k4_chk15 v129), ∀ a, (k4_off47 v129) a + S1x1x128.size a ≤ S50000x1x128.size a := fun v129 k4_hw15 => k4_hw15.2

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S16x1x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev grid5 : Pipeline.Grid := ⟨1, ![4000], ![false]⟩

abbrev pre5 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k5_off2 (v3 : BitVec 32) : Fin 3 → Nat :=
  let c0_i32_4 : BitVec 32 := 0#32
  let c0_i32_5 : BitVec 32 := 0#32
  ![v3.toNat, 0, 0]

def k5_off3 (i : grid5.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k5_off4 (v12 : BitVec 32) : Fin 3 → Nat :=
  let c0_i32_10 : BitVec 32 := 0#32
  let c0_i32_11 : BitVec 32 := 0#32
  ![v12.toNat, 0, 0]

def k5_off5 (i : grid5.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k5_off6 (v21 : BitVec 32) : Fin 3 → Nat :=
  let c0_i32_16 : BitVec 32 := 0#32
  let c0_i32_17 : BitVec 32 := 0#32
  ![v21.toNat, 0, 0]

def k5_off7 (i : grid5.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k5_off8 (v30 : BitVec 32) : Fin 3 → Nat :=
  let c0_i32_22 : BitVec 32 := 0#32
  let c0_i32_23 : BitVec 32 := 0#32
  ![v30.toNat, 0, 0]

def k5_off9 (i : grid5.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k5_off10 (v39 : BitVec 32) : Fin 3 → Nat :=
  let c0_i32_28 : BitVec 32 := 0#32
  let c0_i32_29 : BitVec 32 := 0#32
  ![v39.toNat, 0, 0]

def k5_off11 (i : grid5.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k5_off12 (v48 : BitVec 32) : Fin 3 → Nat :=
  let c0_i32_34 : BitVec 32 := 0#32
  let c0_i32_35 : BitVec 32 := 0#32
  ![v48.toNat, 0, 0]

def k5_off13 (i : grid5.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k5_off14 (v57 : BitVec 32) : Fin 3 → Nat :=
  let c0_i32_40 : BitVec 32 := 0#32
  let c0_i32_41 : BitVec 32 := 0#32
  ![v57.toNat, 0, 0]

def k5_off15 (i : grid5.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k5_off16 (v66 : BitVec 32) : Fin 3 → Nat :=
  let c0_i32_46 : BitVec 32 := 0#32
  let c0_i32_47 : BitVec 32 := 0#32
  ![v66.toNat, 0, 0]

def k5_off17 (i : grid5.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k5_off18 (v75 : BitVec 32) : Fin 3 → Nat :=
  let c0_i32_52 : BitVec 32 := 0#32
  let c0_i32_53 : BitVec 32 := 0#32
  ![v75.toNat, 0, 0]

def k5_off19 (i : grid5.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k5_off20 (v84 : BitVec 32) : Fin 3 → Nat :=
  let c0_i32_58 : BitVec 32 := 0#32
  let c0_i32_59 : BitVec 32 := 0#32
  ![v84.toNat, 0, 0]

def k5_off21 (i : grid5.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k5_off22 (v93 : BitVec 32) : Fin 3 → Nat :=
  let c0_i32_64 : BitVec 32 := 0#32
  let c0_i32_65 : BitVec 32 := 0#32
  ![v93.toNat, 0, 0]

def k5_off23 (i : grid5.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k5_off24 (v102 : BitVec 32) : Fin 3 → Nat :=
  let c0_i32_70 : BitVec 32 := 0#32
  let c0_i32_71 : BitVec 32 := 0#32
  ![v102.toNat, 0, 0]

def k5_off25 (i : grid5.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k5_off26 (v111 : BitVec 32) : Fin 3 → Nat :=
  let c0_i32_76 : BitVec 32 := 0#32
  let c0_i32_77 : BitVec 32 := 0#32
  ![v111.toNat, 0, 0]

def k5_off27 (i : grid5.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k5_off28 (v120 : BitVec 32) : Fin 3 → Nat :=
  let c0_i32_82 : BitVec 32 := 0#32
  let c0_i32_83 : BitVec 32 := 0#32
  ![v120.toNat, 0, 0]

def k5_off29 (i : grid5.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k5_off30 (v129 : BitVec 32) : Fin 3 → Nat :=
  let c0_i32_88 : BitVec 32 := 0#32
  let c0_i32_89 : BitVec 32 := 0#32
  ![v129.toNat, 0, 0]

def k5_off31 (i : grid5.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k5_off32 (v138 : BitVec 32) : Fin 3 → Nat :=
  let c0_i32_94 : BitVec 32 := 0#32
  let c0_i32_95 : BitVec 32 := 0#32
  ![v138.toNat, 0, 0]

def k5_chk16 (v138 : BitVec 32) : Prop :=
  (∀ a, (k5_off32 v138) a + S1x1x128.size a ≤ S50000x1x128.size a)
instance k5_chk16.dec : ∀ (v138 : BitVec 32), Decidable (k5_chk16 v138) := fun v138 => decidable_of_iff' _ (Iff.of_eq (k5_chk16.eq_1 v138))
theorem k5_off32_inb : ∀ (v138 : BitVec 32) (k5_hw16 : k5_chk16 v138), ∀ a, (k5_off32 v138) a + S1x1x128.size a ≤ S50000x1x128.size a := fun v138 k5_hw16 => k5_hw16

def k5_off33 (v3 : BitVec 32) : Fin 3 → Nat :=
  let c0_i32_100 : BitVec 32 := 0#32
  let c0_i32_101 : BitVec 32 := 0#32
  ![v3.toNat, 0, 0]

def k5_chk1 (v3 : BitVec 32) : Prop :=
  (∀ a, (k5_off2 v3) a + S1x1x128.size a ≤ S50000x1x128.size a) ∧
  (∀ a, (k5_off33 v3) a + S1x1x128.size a ≤ S50000x1x128.size a)
instance k5_chk1.dec : ∀ (v3 : BitVec 32), Decidable (k5_chk1 v3) := fun v3 => decidable_of_iff' _ (Iff.of_eq (k5_chk1.eq_1 v3))
theorem k5_off2_inb : ∀ (v3 : BitVec 32) (k5_hw1 : k5_chk1 v3), ∀ a, (k5_off2 v3) a + S1x1x128.size a ≤ S50000x1x128.size a := fun v3 k5_hw1 => k5_hw1.1
theorem k5_off33_inb : ∀ (v3 : BitVec 32) (k5_hw1 : k5_chk1 v3), ∀ a, (k5_off33 v3) a + S1x1x128.size a ≤ S50000x1x128.size a := fun v3 k5_hw1 => k5_hw1.2

def k5_off34 (v12 : BitVec 32) : Fin 3 → Nat :=
  let c0_i32_106 : BitVec 32 := 0#32
  let c0_i32_107 : BitVec 32 := 0#32
  ![v12.toNat, 0, 0]

def k5_chk2 (v12 : BitVec 32) : Prop :=
  (∀ a, (k5_off4 v12) a + S1x1x128.size a ≤ S50000x1x128.size a) ∧
  (∀ a, (k5_off34 v12) a + S1x1x128.size a ≤ S50000x1x128.size a)
instance k5_chk2.dec : ∀ (v12 : BitVec 32), Decidable (k5_chk2 v12) := fun v12 => decidable_of_iff' _ (Iff.of_eq (k5_chk2.eq_1 v12))
theorem k5_off4_inb : ∀ (v12 : BitVec 32) (k5_hw2 : k5_chk2 v12), ∀ a, (k5_off4 v12) a + S1x1x128.size a ≤ S50000x1x128.size a := fun v12 k5_hw2 => k5_hw2.1
theorem k5_off34_inb : ∀ (v12 : BitVec 32) (k5_hw2 : k5_chk2 v12), ∀ a, (k5_off34 v12) a + S1x1x128.size a ≤ S50000x1x128.size a := fun v12 k5_hw2 => k5_hw2.2

def k5_off35 (v21 : BitVec 32) : Fin 3 → Nat :=
  let c0_i32_112 : BitVec 32 := 0#32
  let c0_i32_113 : BitVec 32 := 0#32
  ![v21.toNat, 0, 0]

def k5_chk3 (v21 : BitVec 32) : Prop :=
  (∀ a, (k5_off6 v21) a + S1x1x128.size a ≤ S50000x1x128.size a) ∧
  (∀ a, (k5_off35 v21) a + S1x1x128.size a ≤ S50000x1x128.size a)
instance k5_chk3.dec : ∀ (v21 : BitVec 32), Decidable (k5_chk3 v21) := fun v21 => decidable_of_iff' _ (Iff.of_eq (k5_chk3.eq_1 v21))
theorem k5_off6_inb : ∀ (v21 : BitVec 32) (k5_hw3 : k5_chk3 v21), ∀ a, (k5_off6 v21) a + S1x1x128.size a ≤ S50000x1x128.size a := fun v21 k5_hw3 => k5_hw3.1
theorem k5_off35_inb : ∀ (v21 : BitVec 32) (k5_hw3 : k5_chk3 v21), ∀ a, (k5_off35 v21) a + S1x1x128.size a ≤ S50000x1x128.size a := fun v21 k5_hw3 => k5_hw3.2

def k5_off36 (v30 : BitVec 32) : Fin 3 → Nat :=
  let c0_i32_118 : BitVec 32 := 0#32
  let c0_i32_119 : BitVec 32 := 0#32
  ![v30.toNat, 0, 0]

def k5_chk4 (v30 : BitVec 32) : Prop :=
  (∀ a, (k5_off8 v30) a + S1x1x128.size a ≤ S50000x1x128.size a) ∧
  (∀ a, (k5_off36 v30) a + S1x1x128.size a ≤ S50000x1x128.size a)
instance k5_chk4.dec : ∀ (v30 : BitVec 32), Decidable (k5_chk4 v30) := fun v30 => decidable_of_iff' _ (Iff.of_eq (k5_chk4.eq_1 v30))
theorem k5_off8_inb : ∀ (v30 : BitVec 32) (k5_hw4 : k5_chk4 v30), ∀ a, (k5_off8 v30) a + S1x1x128.size a ≤ S50000x1x128.size a := fun v30 k5_hw4 => k5_hw4.1
theorem k5_off36_inb : ∀ (v30 : BitVec 32) (k5_hw4 : k5_chk4 v30), ∀ a, (k5_off36 v30) a + S1x1x128.size a ≤ S50000x1x128.size a := fun v30 k5_hw4 => k5_hw4.2

def k5_off37 (v39 : BitVec 32) : Fin 3 → Nat :=
  let c0_i32_124 : BitVec 32 := 0#32
  let c0_i32_125 : BitVec 32 := 0#32
  ![v39.toNat, 0, 0]

def k5_chk5 (v39 : BitVec 32) : Prop :=
  (∀ a, (k5_off10 v39) a + S1x1x128.size a ≤ S50000x1x128.size a) ∧
  (∀ a, (k5_off37 v39) a + S1x1x128.size a ≤ S50000x1x128.size a)
instance k5_chk5.dec : ∀ (v39 : BitVec 32), Decidable (k5_chk5 v39) := fun v39 => decidable_of_iff' _ (Iff.of_eq (k5_chk5.eq_1 v39))
theorem k5_off10_inb : ∀ (v39 : BitVec 32) (k5_hw5 : k5_chk5 v39), ∀ a, (k5_off10 v39) a + S1x1x128.size a ≤ S50000x1x128.size a := fun v39 k5_hw5 => k5_hw5.1
theorem k5_off37_inb : ∀ (v39 : BitVec 32) (k5_hw5 : k5_chk5 v39), ∀ a, (k5_off37 v39) a + S1x1x128.size a ≤ S50000x1x128.size a := fun v39 k5_hw5 => k5_hw5.2

def k5_off38 (v48 : BitVec 32) : Fin 3 → Nat :=
  let c0_i32_130 : BitVec 32 := 0#32
  let c0_i32_131 : BitVec 32 := 0#32
  ![v48.toNat, 0, 0]

def k5_chk6 (v48 : BitVec 32) : Prop :=
  (∀ a, (k5_off12 v48) a + S1x1x128.size a ≤ S50000x1x128.size a) ∧
  (∀ a, (k5_off38 v48) a + S1x1x128.size a ≤ S50000x1x128.size a)
instance k5_chk6.dec : ∀ (v48 : BitVec 32), Decidable (k5_chk6 v48) := fun v48 => decidable_of_iff' _ (Iff.of_eq (k5_chk6.eq_1 v48))
theorem k5_off12_inb : ∀ (v48 : BitVec 32) (k5_hw6 : k5_chk6 v48), ∀ a, (k5_off12 v48) a + S1x1x128.size a ≤ S50000x1x128.size a := fun v48 k5_hw6 => k5_hw6.1
theorem k5_off38_inb : ∀ (v48 : BitVec 32) (k5_hw6 : k5_chk6 v48), ∀ a, (k5_off38 v48) a + S1x1x128.size a ≤ S50000x1x128.size a := fun v48 k5_hw6 => k5_hw6.2

def k5_off39 (v57 : BitVec 32) : Fin 3 → Nat :=
  let c0_i32_136 : BitVec 32 := 0#32
  let c0_i32_137 : BitVec 32 := 0#32
  ![v57.toNat, 0, 0]

def k5_chk7 (v57 : BitVec 32) : Prop :=
  (∀ a, (k5_off14 v57) a + S1x1x128.size a ≤ S50000x1x128.size a) ∧
  (∀ a, (k5_off39 v57) a + S1x1x128.size a ≤ S50000x1x128.size a)
instance k5_chk7.dec : ∀ (v57 : BitVec 32), Decidable (k5_chk7 v57) := fun v57 => decidable_of_iff' _ (Iff.of_eq (k5_chk7.eq_1 v57))
theorem k5_off14_inb : ∀ (v57 : BitVec 32) (k5_hw7 : k5_chk7 v57), ∀ a, (k5_off14 v57) a + S1x1x128.size a ≤ S50000x1x128.size a := fun v57 k5_hw7 => k5_hw7.1
theorem k5_off39_inb : ∀ (v57 : BitVec 32) (k5_hw7 : k5_chk7 v57), ∀ a, (k5_off39 v57) a + S1x1x128.size a ≤ S50000x1x128.size a := fun v57 k5_hw7 => k5_hw7.2

def k5_off40 (v66 : BitVec 32) : Fin 3 → Nat :=
  let c0_i32_142 : BitVec 32 := 0#32
  let c0_i32_143 : BitVec 32 := 0#32
  ![v66.toNat, 0, 0]

def k5_chk8 (v66 : BitVec 32) : Prop :=
  (∀ a, (k5_off16 v66) a + S1x1x128.size a ≤ S50000x1x128.size a) ∧
  (∀ a, (k5_off40 v66) a + S1x1x128.size a ≤ S50000x1x128.size a)
instance k5_chk8.dec : ∀ (v66 : BitVec 32), Decidable (k5_chk8 v66) := fun v66 => decidable_of_iff' _ (Iff.of_eq (k5_chk8.eq_1 v66))
theorem k5_off16_inb : ∀ (v66 : BitVec 32) (k5_hw8 : k5_chk8 v66), ∀ a, (k5_off16 v66) a + S1x1x128.size a ≤ S50000x1x128.size a := fun v66 k5_hw8 => k5_hw8.1
theorem k5_off40_inb : ∀ (v66 : BitVec 32) (k5_hw8 : k5_chk8 v66), ∀ a, (k5_off40 v66) a + S1x1x128.size a ≤ S50000x1x128.size a := fun v66 k5_hw8 => k5_hw8.2

def k5_off41 (v75 : BitVec 32) : Fin 3 → Nat :=
  let c0_i32_148 : BitVec 32 := 0#32
  let c0_i32_149 : BitVec 32 := 0#32
  ![v75.toNat, 0, 0]

def k5_chk9 (v75 : BitVec 32) : Prop :=
  (∀ a, (k5_off18 v75) a + S1x1x128.size a ≤ S50000x1x128.size a) ∧
  (∀ a, (k5_off41 v75) a + S1x1x128.size a ≤ S50000x1x128.size a)
instance k5_chk9.dec : ∀ (v75 : BitVec 32), Decidable (k5_chk9 v75) := fun v75 => decidable_of_iff' _ (Iff.of_eq (k5_chk9.eq_1 v75))
theorem k5_off18_inb : ∀ (v75 : BitVec 32) (k5_hw9 : k5_chk9 v75), ∀ a, (k5_off18 v75) a + S1x1x128.size a ≤ S50000x1x128.size a := fun v75 k5_hw9 => k5_hw9.1
theorem k5_off41_inb : ∀ (v75 : BitVec 32) (k5_hw9 : k5_chk9 v75), ∀ a, (k5_off41 v75) a + S1x1x128.size a ≤ S50000x1x128.size a := fun v75 k5_hw9 => k5_hw9.2

def k5_off42 (v84 : BitVec 32) : Fin 3 → Nat :=
  let c0_i32_154 : BitVec 32 := 0#32
  let c0_i32_155 : BitVec 32 := 0#32
  ![v84.toNat, 0, 0]

def k5_chk10 (v84 : BitVec 32) : Prop :=
  (∀ a, (k5_off20 v84) a + S1x1x128.size a ≤ S50000x1x128.size a) ∧
  (∀ a, (k5_off42 v84) a + S1x1x128.size a ≤ S50000x1x128.size a)
instance k5_chk10.dec : ∀ (v84 : BitVec 32), Decidable (k5_chk10 v84) := fun v84 => decidable_of_iff' _ (Iff.of_eq (k5_chk10.eq_1 v84))
theorem k5_off20_inb : ∀ (v84 : BitVec 32) (k5_hw10 : k5_chk10 v84), ∀ a, (k5_off20 v84) a + S1x1x128.size a ≤ S50000x1x128.size a := fun v84 k5_hw10 => k5_hw10.1
theorem k5_off42_inb : ∀ (v84 : BitVec 32) (k5_hw10 : k5_chk10 v84), ∀ a, (k5_off42 v84) a + S1x1x128.size a ≤ S50000x1x128.size a := fun v84 k5_hw10 => k5_hw10.2

def k5_off43 (v93 : BitVec 32) : Fin 3 → Nat :=
  let c0_i32_160 : BitVec 32 := 0#32
  let c0_i32_161 : BitVec 32 := 0#32
  ![v93.toNat, 0, 0]

def k5_chk11 (v93 : BitVec 32) : Prop :=
  (∀ a, (k5_off22 v93) a + S1x1x128.size a ≤ S50000x1x128.size a) ∧
  (∀ a, (k5_off43 v93) a + S1x1x128.size a ≤ S50000x1x128.size a)
instance k5_chk11.dec : ∀ (v93 : BitVec 32), Decidable (k5_chk11 v93) := fun v93 => decidable_of_iff' _ (Iff.of_eq (k5_chk11.eq_1 v93))
theorem k5_off22_inb : ∀ (v93 : BitVec 32) (k5_hw11 : k5_chk11 v93), ∀ a, (k5_off22 v93) a + S1x1x128.size a ≤ S50000x1x128.size a := fun v93 k5_hw11 => k5_hw11.1
theorem k5_off43_inb : ∀ (v93 : BitVec 32) (k5_hw11 : k5_chk11 v93), ∀ a, (k5_off43 v93) a + S1x1x128.size a ≤ S50000x1x128.size a := fun v93 k5_hw11 => k5_hw11.2

def k5_off44 (v102 : BitVec 32) : Fin 3 → Nat :=
  let c0_i32_166 : BitVec 32 := 0#32
  let c0_i32_167 : BitVec 32 := 0#32
  ![v102.toNat, 0, 0]

def k5_chk12 (v102 : BitVec 32) : Prop :=
  (∀ a, (k5_off24 v102) a + S1x1x128.size a ≤ S50000x1x128.size a) ∧
  (∀ a, (k5_off44 v102) a + S1x1x128.size a ≤ S50000x1x128.size a)
instance k5_chk12.dec : ∀ (v102 : BitVec 32), Decidable (k5_chk12 v102) := fun v102 => decidable_of_iff' _ (Iff.of_eq (k5_chk12.eq_1 v102))
theorem k5_off24_inb : ∀ (v102 : BitVec 32) (k5_hw12 : k5_chk12 v102), ∀ a, (k5_off24 v102) a + S1x1x128.size a ≤ S50000x1x128.size a := fun v102 k5_hw12 => k5_hw12.1
theorem k5_off44_inb : ∀ (v102 : BitVec 32) (k5_hw12 : k5_chk12 v102), ∀ a, (k5_off44 v102) a + S1x1x128.size a ≤ S50000x1x128.size a := fun v102 k5_hw12 => k5_hw12.2

def k5_off45 (v111 : BitVec 32) : Fin 3 → Nat :=
  let c0_i32_172 : BitVec 32 := 0#32
  let c0_i32_173 : BitVec 32 := 0#32
  ![v111.toNat, 0, 0]

def k5_chk13 (v111 : BitVec 32) : Prop :=
  (∀ a, (k5_off26 v111) a + S1x1x128.size a ≤ S50000x1x128.size a) ∧
  (∀ a, (k5_off45 v111) a + S1x1x128.size a ≤ S50000x1x128.size a)
instance k5_chk13.dec : ∀ (v111 : BitVec 32), Decidable (k5_chk13 v111) := fun v111 => decidable_of_iff' _ (Iff.of_eq (k5_chk13.eq_1 v111))
theorem k5_off26_inb : ∀ (v111 : BitVec 32) (k5_hw13 : k5_chk13 v111), ∀ a, (k5_off26 v111) a + S1x1x128.size a ≤ S50000x1x128.size a := fun v111 k5_hw13 => k5_hw13.1
theorem k5_off45_inb : ∀ (v111 : BitVec 32) (k5_hw13 : k5_chk13 v111), ∀ a, (k5_off45 v111) a + S1x1x128.size a ≤ S50000x1x128.size a := fun v111 k5_hw13 => k5_hw13.2

def k5_off46 (v120 : BitVec 32) : Fin 3 → Nat :=
  let c0_i32_178 : BitVec 32 := 0#32
  let c0_i32_179 : BitVec 32 := 0#32
  ![v120.toNat, 0, 0]

def k5_chk14 (v120 : BitVec 32) : Prop :=
  (∀ a, (k5_off28 v120) a + S1x1x128.size a ≤ S50000x1x128.size a) ∧
  (∀ a, (k5_off46 v120) a + S1x1x128.size a ≤ S50000x1x128.size a)
instance k5_chk14.dec : ∀ (v120 : BitVec 32), Decidable (k5_chk14 v120) := fun v120 => decidable_of_iff' _ (Iff.of_eq (k5_chk14.eq_1 v120))
theorem k5_off28_inb : ∀ (v120 : BitVec 32) (k5_hw14 : k5_chk14 v120), ∀ a, (k5_off28 v120) a + S1x1x128.size a ≤ S50000x1x128.size a := fun v120 k5_hw14 => k5_hw14.1
theorem k5_off46_inb : ∀ (v120 : BitVec 32) (k5_hw14 : k5_chk14 v120), ∀ a, (k5_off46 v120) a + S1x1x128.size a ≤ S50000x1x128.size a := fun v120 k5_hw14 => k5_hw14.2

def k5_off47 (v129 : BitVec 32) : Fin 3 → Nat :=
  let c0_i32_184 : BitVec 32 := 0#32
  let c0_i32_185 : BitVec 32 := 0#32
  ![v129.toNat, 0, 0]

def k5_chk15 (v129 : BitVec 32) : Prop :=
  (∀ a, (k5_off30 v129) a + S1x1x128.size a ≤ S50000x1x128.size a) ∧
  (∀ a, (k5_off47 v129) a + S1x1x128.size a ≤ S50000x1x128.size a)
instance k5_chk15.dec : ∀ (v129 : BitVec 32), Decidable (k5_chk15 v129) := fun v129 => decidable_of_iff' _ (Iff.of_eq (k5_chk15.eq_1 v129))
theorem k5_off30_inb : ∀ (v129 : BitVec 32) (k5_hw15 : k5_chk15 v129), ∀ a, (k5_off30 v129) a + S1x1x128.size a ≤ S50000x1x128.size a := fun v129 k5_hw15 => k5_hw15.1
theorem k5_off47_inb : ∀ (v129 : BitVec 32) (k5_hw15 : k5_chk15 v129), ∀ a, (k5_off47 v129) a + S1x1x128.size a ≤ S50000x1x128.size a := fun v129 k5_hw15 => k5_hw15.2

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S16x1x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev grid6 : Pipeline.Grid := ⟨1, ![4000], ![false]⟩

abbrev pre6 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k6_off1 (i : grid6.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k6_off2 (v3 : BitVec 32) : Fin 3 → Nat :=
  let c0_i32_4 : BitVec 32 := 0#32
  let c0_i32_5 : BitVec 32 := 0#32
  ![v3.toNat, 0, 0]

def k6_off3 (i : grid6.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k6_off4 (v12 : BitVec 32) : Fin 3 → Nat :=
  let c0_i32_10 : BitVec 32 := 0#32
  let c0_i32_11 : BitVec 32 := 0#32
  ![v12.toNat, 0, 0]

def k6_off5 (i : grid6.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k6_off6 (v21 : BitVec 32) : Fin 3 → Nat :=
  let c0_i32_16 : BitVec 32 := 0#32
  let c0_i32_17 : BitVec 32 := 0#32
  ![v21.toNat, 0, 0]

def k6_off7 (i : grid6.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k6_off8 (v30 : BitVec 32) : Fin 3 → Nat :=
  let c0_i32_22 : BitVec 32 := 0#32
  let c0_i32_23 : BitVec 32 := 0#32
  ![v30.toNat, 0, 0]

def k6_off9 (i : grid6.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k6_off10 (v39 : BitVec 32) : Fin 3 → Nat :=
  let c0_i32_28 : BitVec 32 := 0#32
  let c0_i32_29 : BitVec 32 := 0#32
  ![v39.toNat, 0, 0]

def k6_off11 (i : grid6.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k6_off12 (v48 : BitVec 32) : Fin 3 → Nat :=
  let c0_i32_34 : BitVec 32 := 0#32
  let c0_i32_35 : BitVec 32 := 0#32
  ![v48.toNat, 0, 0]

def k6_off13 (i : grid6.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k6_off14 (v57 : BitVec 32) : Fin 3 → Nat :=
  let c0_i32_40 : BitVec 32 := 0#32
  let c0_i32_41 : BitVec 32 := 0#32
  ![v57.toNat, 0, 0]

def k6_off15 (i : grid6.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k6_off16 (v66 : BitVec 32) : Fin 3 → Nat :=
  let c0_i32_46 : BitVec 32 := 0#32
  let c0_i32_47 : BitVec 32 := 0#32
  ![v66.toNat, 0, 0]

def k6_off17 (i : grid6.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k6_off18 (v75 : BitVec 32) : Fin 3 → Nat :=
  let c0_i32_52 : BitVec 32 := 0#32
  let c0_i32_53 : BitVec 32 := 0#32
  ![v75.toNat, 0, 0]

def k6_off19 (i : grid6.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k6_off20 (v84 : BitVec 32) : Fin 3 → Nat :=
  let c0_i32_58 : BitVec 32 := 0#32
  let c0_i32_59 : BitVec 32 := 0#32
  ![v84.toNat, 0, 0]

def k6_off21 (i : grid6.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k6_off22 (v93 : BitVec 32) : Fin 3 → Nat :=
  let c0_i32_64 : BitVec 32 := 0#32
  let c0_i32_65 : BitVec 32 := 0#32
  ![v93.toNat, 0, 0]

def k6_off23 (i : grid6.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k6_off24 (v102 : BitVec 32) : Fin 3 → Nat :=
  let c0_i32_70 : BitVec 32 := 0#32
  let c0_i32_71 : BitVec 32 := 0#32
  ![v102.toNat, 0, 0]

def k6_off25 (i : grid6.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k6_off26 (v111 : BitVec 32) : Fin 3 → Nat :=
  let c0_i32_76 : BitVec 32 := 0#32
  let c0_i32_77 : BitVec 32 := 0#32
  ![v111.toNat, 0, 0]

def k6_off27 (i : grid6.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k6_off28 (v120 : BitVec 32) : Fin 3 → Nat :=
  let c0_i32_82 : BitVec 32 := 0#32
  let c0_i32_83 : BitVec 32 := 0#32
  ![v120.toNat, 0, 0]

def k6_off29 (i : grid6.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k6_off30 (v129 : BitVec 32) : Fin 3 → Nat :=
  let c0_i32_88 : BitVec 32 := 0#32
  let c0_i32_89 : BitVec 32 := 0#32
  ![v129.toNat, 0, 0]

def k6_off31 (i : grid6.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k6_off32 (v138 : BitVec 32) : Fin 3 → Nat :=
  let c0_i32_94 : BitVec 32 := 0#32
  let c0_i32_95 : BitVec 32 := 0#32
  ![v138.toNat, 0, 0]

def k6_chk16 (v138 : BitVec 32) : Prop :=
  (∀ a, (k6_off32 v138) a + S1x1x128.size a ≤ S50000x1x128.size a)
instance k6_chk16.dec : ∀ (v138 : BitVec 32), Decidable (k6_chk16 v138) := fun v138 => decidable_of_iff' _ (Iff.of_eq (k6_chk16.eq_1 v138))
theorem k6_off32_inb : ∀ (v138 : BitVec 32) (k6_hw16 : k6_chk16 v138), ∀ a, (k6_off32 v138) a + S1x1x128.size a ≤ S50000x1x128.size a := fun v138 k6_hw16 => k6_hw16

def k6_off33 (v3 : BitVec 32) : Fin 3 → Nat :=
  let c0_i32_100 : BitVec 32 := 0#32
  let c0_i32_101 : BitVec 32 := 0#32
  ![v3.toNat, 0, 0]

def k6_chk1 (v3 : BitVec 32) : Prop :=
  (∀ a, (k6_off2 v3) a + S1x1x128.size a ≤ S50000x1x128.size a) ∧
  (∀ a, (k6_off33 v3) a + S1x1x128.size a ≤ S50000x1x128.size a)
instance k6_chk1.dec : ∀ (v3 : BitVec 32), Decidable (k6_chk1 v3) := fun v3 => decidable_of_iff' _ (Iff.of_eq (k6_chk1.eq_1 v3))
theorem k6_off2_inb : ∀ (v3 : BitVec 32) (k6_hw1 : k6_chk1 v3), ∀ a, (k6_off2 v3) a + S1x1x128.size a ≤ S50000x1x128.size a := fun v3 k6_hw1 => k6_hw1.1
theorem k6_off33_inb : ∀ (v3 : BitVec 32) (k6_hw1 : k6_chk1 v3), ∀ a, (k6_off33 v3) a + S1x1x128.size a ≤ S50000x1x128.size a := fun v3 k6_hw1 => k6_hw1.2

def k6_off34 (v12 : BitVec 32) : Fin 3 → Nat :=
  let c0_i32_106 : BitVec 32 := 0#32
  let c0_i32_107 : BitVec 32 := 0#32
  ![v12.toNat, 0, 0]

def k6_chk2 (v12 : BitVec 32) : Prop :=
  (∀ a, (k6_off4 v12) a + S1x1x128.size a ≤ S50000x1x128.size a) ∧
  (∀ a, (k6_off34 v12) a + S1x1x128.size a ≤ S50000x1x128.size a)
instance k6_chk2.dec : ∀ (v12 : BitVec 32), Decidable (k6_chk2 v12) := fun v12 => decidable_of_iff' _ (Iff.of_eq (k6_chk2.eq_1 v12))
theorem k6_off4_inb : ∀ (v12 : BitVec 32) (k6_hw2 : k6_chk2 v12), ∀ a, (k6_off4 v12) a + S1x1x128.size a ≤ S50000x1x128.size a := fun v12 k6_hw2 => k6_hw2.1
theorem k6_off34_inb : ∀ (v12 : BitVec 32) (k6_hw2 : k6_chk2 v12), ∀ a, (k6_off34 v12) a + S1x1x128.size a ≤ S50000x1x128.size a := fun v12 k6_hw2 => k6_hw2.2

def k6_off35 (v21 : BitVec 32) : Fin 3 → Nat :=
  let c0_i32_112 : BitVec 32 := 0#32
  let c0_i32_113 : BitVec 32 := 0#32
  ![v21.toNat, 0, 0]

def k6_chk3 (v21 : BitVec 32) : Prop :=
  (∀ a, (k6_off6 v21) a + S1x1x128.size a ≤ S50000x1x128.size a) ∧
  (∀ a, (k6_off35 v21) a + S1x1x128.size a ≤ S50000x1x128.size a)
instance k6_chk3.dec : ∀ (v21 : BitVec 32), Decidable (k6_chk3 v21) := fun v21 => decidable_of_iff' _ (Iff.of_eq (k6_chk3.eq_1 v21))
theorem k6_off6_inb : ∀ (v21 : BitVec 32) (k6_hw3 : k6_chk3 v21), ∀ a, (k6_off6 v21) a + S1x1x128.size a ≤ S50000x1x128.size a := fun v21 k6_hw3 => k6_hw3.1
theorem k6_off35_inb : ∀ (v21 : BitVec 32) (k6_hw3 : k6_chk3 v21), ∀ a, (k6_off35 v21) a + S1x1x128.size a ≤ S50000x1x128.size a := fun v21 k6_hw3 => k6_hw3.2

def k6_off36 (v30 : BitVec 32) : Fin 3 → Nat :=
  let c0_i32_118 : BitVec 32 := 0#32
  let c0_i32_119 : BitVec 32 := 0#32
  ![v30.toNat, 0, 0]

def k6_chk4 (v30 : BitVec 32) : Prop :=
  (∀ a, (k6_off8 v30) a + S1x1x128.size a ≤ S50000x1x128.size a) ∧
  (∀ a, (k6_off36 v30) a + S1x1x128.size a ≤ S50000x1x128.size a)
instance k6_chk4.dec : ∀ (v30 : BitVec 32), Decidable (k6_chk4 v30) := fun v30 => decidable_of_iff' _ (Iff.of_eq (k6_chk4.eq_1 v30))
theorem k6_off8_inb : ∀ (v30 : BitVec 32) (k6_hw4 : k6_chk4 v30), ∀ a, (k6_off8 v30) a + S1x1x128.size a ≤ S50000x1x128.size a := fun v30 k6_hw4 => k6_hw4.1
theorem k6_off36_inb : ∀ (v30 : BitVec 32) (k6_hw4 : k6_chk4 v30), ∀ a, (k6_off36 v30) a + S1x1x128.size a ≤ S50000x1x128.size a := fun v30 k6_hw4 => k6_hw4.2

def k6_off37 (v39 : BitVec 32) : Fin 3 → Nat :=
  let c0_i32_124 : BitVec 32 := 0#32
  let c0_i32_125 : BitVec 32 := 0#32
  ![v39.toNat, 0, 0]

def k6_chk5 (v39 : BitVec 32) : Prop :=
  (∀ a, (k6_off10 v39) a + S1x1x128.size a ≤ S50000x1x128.size a) ∧
  (∀ a, (k6_off37 v39) a + S1x1x128.size a ≤ S50000x1x128.size a)
instance k6_chk5.dec : ∀ (v39 : BitVec 32), Decidable (k6_chk5 v39) := fun v39 => decidable_of_iff' _ (Iff.of_eq (k6_chk5.eq_1 v39))
theorem k6_off10_inb : ∀ (v39 : BitVec 32) (k6_hw5 : k6_chk5 v39), ∀ a, (k6_off10 v39) a + S1x1x128.size a ≤ S50000x1x128.size a := fun v39 k6_hw5 => k6_hw5.1
theorem k6_off37_inb : ∀ (v39 : BitVec 32) (k6_hw5 : k6_chk5 v39), ∀ a, (k6_off37 v39) a + S1x1x128.size a ≤ S50000x1x128.size a := fun v39 k6_hw5 => k6_hw5.2

def k6_off38 (v48 : BitVec 32) : Fin 3 → Nat :=
  let c0_i32_130 : BitVec 32 := 0#32
  let c0_i32_131 : BitVec 32 := 0#32
  ![v48.toNat, 0, 0]

def k6_chk6 (v48 : BitVec 32) : Prop :=
  (∀ a, (k6_off12 v48) a + S1x1x128.size a ≤ S50000x1x128.size a) ∧
  (∀ a, (k6_off38 v48) a + S1x1x128.size a ≤ S50000x1x128.size a)
instance k6_chk6.dec : ∀ (v48 : BitVec 32), Decidable (k6_chk6 v48) := fun v48 => decidable_of_iff' _ (Iff.of_eq (k6_chk6.eq_1 v48))
theorem k6_off12_inb : ∀ (v48 : BitVec 32) (k6_hw6 : k6_chk6 v48), ∀ a, (k6_off12 v48) a + S1x1x128.size a ≤ S50000x1x128.size a := fun v48 k6_hw6 => k6_hw6.1
theorem k6_off38_inb : ∀ (v48 : BitVec 32) (k6_hw6 : k6_chk6 v48), ∀ a, (k6_off38 v48) a + S1x1x128.size a ≤ S50000x1x128.size a := fun v48 k6_hw6 => k6_hw6.2

def k6_off39 (v57 : BitVec 32) : Fin 3 → Nat :=
  let c0_i32_136 : BitVec 32 := 0#32
  let c0_i32_137 : BitVec 32 := 0#32
  ![v57.toNat, 0, 0]

def k6_chk7 (v57 : BitVec 32) : Prop :=
  (∀ a, (k6_off14 v57) a + S1x1x128.size a ≤ S50000x1x128.size a) ∧
  (∀ a, (k6_off39 v57) a + S1x1x128.size a ≤ S50000x1x128.size a)
instance k6_chk7.dec : ∀ (v57 : BitVec 32), Decidable (k6_chk7 v57) := fun v57 => decidable_of_iff' _ (Iff.of_eq (k6_chk7.eq_1 v57))
theorem k6_off14_inb : ∀ (v57 : BitVec 32) (k6_hw7 : k6_chk7 v57), ∀ a, (k6_off14 v57) a + S1x1x128.size a ≤ S50000x1x128.size a := fun v57 k6_hw7 => k6_hw7.1
theorem k6_off39_inb : ∀ (v57 : BitVec 32) (k6_hw7 : k6_chk7 v57), ∀ a, (k6_off39 v57) a + S1x1x128.size a ≤ S50000x1x128.size a := fun v57 k6_hw7 => k6_hw7.2

def k6_off40 (v66 : BitVec 32) : Fin 3 → Nat :=
  let c0_i32_142 : BitVec 32 := 0#32
  let c0_i32_143 : BitVec 32 := 0#32
  ![v66.toNat, 0, 0]

def k6_chk8 (v66 : BitVec 32) : Prop :=
  (∀ a, (k6_off16 v66) a + S1x1x128.size a ≤ S50000x1x128.size a) ∧
  (∀ a, (k6_off40 v66) a + S1x1x128.size a ≤ S50000x1x128.size a)
instance k6_chk8.dec : ∀ (v66 : BitVec 32), Decidable (k6_chk8 v66) := fun v66 => decidable_of_iff' _ (Iff.of_eq (k6_chk8.eq_1 v66))
theorem k6_off16_inb : ∀ (v66 : BitVec 32) (k6_hw8 : k6_chk8 v66), ∀ a, (k6_off16 v66) a + S1x1x128.size a ≤ S50000x1x128.size a := fun v66 k6_hw8 => k6_hw8.1
theorem k6_off40_inb : ∀ (v66 : BitVec 32) (k6_hw8 : k6_chk8 v66), ∀ a, (k6_off40 v66) a + S1x1x128.size a ≤ S50000x1x128.size a := fun v66 k6_hw8 => k6_hw8.2

def k6_off41 (v75 : BitVec 32) : Fin 3 → Nat :=
  let c0_i32_148 : BitVec 32 := 0#32
  let c0_i32_149 : BitVec 32 := 0#32
  ![v75.toNat, 0, 0]

def k6_chk9 (v75 : BitVec 32) : Prop :=
  (∀ a, (k6_off18 v75) a + S1x1x128.size a ≤ S50000x1x128.size a) ∧
  (∀ a, (k6_off41 v75) a + S1x1x128.size a ≤ S50000x1x128.size a)
instance k6_chk9.dec : ∀ (v75 : BitVec 32), Decidable (k6_chk9 v75) := fun v75 => decidable_of_iff' _ (Iff.of_eq (k6_chk9.eq_1 v75))
theorem k6_off18_inb : ∀ (v75 : BitVec 32) (k6_hw9 : k6_chk9 v75), ∀ a, (k6_off18 v75) a + S1x1x128.size a ≤ S50000x1x128.size a := fun v75 k6_hw9 => k6_hw9.1
theorem k6_off41_inb : ∀ (v75 : BitVec 32) (k6_hw9 : k6_chk9 v75), ∀ a, (k6_off41 v75) a + S1x1x128.size a ≤ S50000x1x128.size a := fun v75 k6_hw9 => k6_hw9.2

def k6_off42 (v84 : BitVec 32) : Fin 3 → Nat :=
  let c0_i32_154 : BitVec 32 := 0#32
  let c0_i32_155 : BitVec 32 := 0#32
  ![v84.toNat, 0, 0]

def k6_chk10 (v84 : BitVec 32) : Prop :=
  (∀ a, (k6_off20 v84) a + S1x1x128.size a ≤ S50000x1x128.size a) ∧
  (∀ a, (k6_off42 v84) a + S1x1x128.size a ≤ S50000x1x128.size a)
instance k6_chk10.dec : ∀ (v84 : BitVec 32), Decidable (k6_chk10 v84) := fun v84 => decidable_of_iff' _ (Iff.of_eq (k6_chk10.eq_1 v84))
theorem k6_off20_inb : ∀ (v84 : BitVec 32) (k6_hw10 : k6_chk10 v84), ∀ a, (k6_off20 v84) a + S1x1x128.size a ≤ S50000x1x128.size a := fun v84 k6_hw10 => k6_hw10.1
theorem k6_off42_inb : ∀ (v84 : BitVec 32) (k6_hw10 : k6_chk10 v84), ∀ a, (k6_off42 v84) a + S1x1x128.size a ≤ S50000x1x128.size a := fun v84 k6_hw10 => k6_hw10.2

def k6_off43 (v93 : BitVec 32) : Fin 3 → Nat :=
  let c0_i32_160 : BitVec 32 := 0#32
  let c0_i32_161 : BitVec 32 := 0#32
  ![v93.toNat, 0, 0]

def k6_chk11 (v93 : BitVec 32) : Prop :=
  (∀ a, (k6_off22 v93) a + S1x1x128.size a ≤ S50000x1x128.size a) ∧
  (∀ a, (k6_off43 v93) a + S1x1x128.size a ≤ S50000x1x128.size a)
instance k6_chk11.dec : ∀ (v93 : BitVec 32), Decidable (k6_chk11 v93) := fun v93 => decidable_of_iff' _ (Iff.of_eq (k6_chk11.eq_1 v93))
theorem k6_off22_inb : ∀ (v93 : BitVec 32) (k6_hw11 : k6_chk11 v93), ∀ a, (k6_off22 v93) a + S1x1x128.size a ≤ S50000x1x128.size a := fun v93 k6_hw11 => k6_hw11.1
theorem k6_off43_inb : ∀ (v93 : BitVec 32) (k6_hw11 : k6_chk11 v93), ∀ a, (k6_off43 v93) a + S1x1x128.size a ≤ S50000x1x128.size a := fun v93 k6_hw11 => k6_hw11.2

def k6_off44 (v102 : BitVec 32) : Fin 3 → Nat :=
  let c0_i32_166 : BitVec 32 := 0#32
  let c0_i32_167 : BitVec 32 := 0#32
  ![v102.toNat, 0, 0]

def k6_chk12 (v102 : BitVec 32) : Prop :=
  (∀ a, (k6_off24 v102) a + S1x1x128.size a ≤ S50000x1x128.size a) ∧
  (∀ a, (k6_off44 v102) a + S1x1x128.size a ≤ S50000x1x128.size a)
instance k6_chk12.dec : ∀ (v102 : BitVec 32), Decidable (k6_chk12 v102) := fun v102 => decidable_of_iff' _ (Iff.of_eq (k6_chk12.eq_1 v102))
theorem k6_off24_inb : ∀ (v102 : BitVec 32) (k6_hw12 : k6_chk12 v102), ∀ a, (k6_off24 v102) a + S1x1x128.size a ≤ S50000x1x128.size a := fun v102 k6_hw12 => k6_hw12.1
theorem k6_off44_inb : ∀ (v102 : BitVec 32) (k6_hw12 : k6_chk12 v102), ∀ a, (k6_off44 v102) a + S1x1x128.size a ≤ S50000x1x128.size a := fun v102 k6_hw12 => k6_hw12.2

def k6_off45 (v111 : BitVec 32) : Fin 3 → Nat :=
  let c0_i32_172 : BitVec 32 := 0#32
  let c0_i32_173 : BitVec 32 := 0#32
  ![v111.toNat, 0, 0]

def k6_chk13 (v111 : BitVec 32) : Prop :=
  (∀ a, (k6_off26 v111) a + S1x1x128.size a ≤ S50000x1x128.size a) ∧
  (∀ a, (k6_off45 v111) a + S1x1x128.size a ≤ S50000x1x128.size a)
instance k6_chk13.dec : ∀ (v111 : BitVec 32), Decidable (k6_chk13 v111) := fun v111 => decidable_of_iff' _ (Iff.of_eq (k6_chk13.eq_1 v111))
theorem k6_off26_inb : ∀ (v111 : BitVec 32) (k6_hw13 : k6_chk13 v111), ∀ a, (k6_off26 v111) a + S1x1x128.size a ≤ S50000x1x128.size a := fun v111 k6_hw13 => k6_hw13.1
theorem k6_off45_inb : ∀ (v111 : BitVec 32) (k6_hw13 : k6_chk13 v111), ∀ a, (k6_off45 v111) a + S1x1x128.size a ≤ S50000x1x128.size a := fun v111 k6_hw13 => k6_hw13.2

def k6_off46 (v120 : BitVec 32) : Fin 3 → Nat :=
  let c0_i32_178 : BitVec 32 := 0#32
  let c0_i32_179 : BitVec 32 := 0#32
  ![v120.toNat, 0, 0]

def k6_chk14 (v120 : BitVec 32) : Prop :=
  (∀ a, (k6_off28 v120) a + S1x1x128.size a ≤ S50000x1x128.size a) ∧
  (∀ a, (k6_off46 v120) a + S1x1x128.size a ≤ S50000x1x128.size a)
instance k6_chk14.dec : ∀ (v120 : BitVec 32), Decidable (k6_chk14 v120) := fun v120 => decidable_of_iff' _ (Iff.of_eq (k6_chk14.eq_1 v120))
theorem k6_off28_inb : ∀ (v120 : BitVec 32) (k6_hw14 : k6_chk14 v120), ∀ a, (k6_off28 v120) a + S1x1x128.size a ≤ S50000x1x128.size a := fun v120 k6_hw14 => k6_hw14.1
theorem k6_off46_inb : ∀ (v120 : BitVec 32) (k6_hw14 : k6_chk14 v120), ∀ a, (k6_off46 v120) a + S1x1x128.size a ≤ S50000x1x128.size a := fun v120 k6_hw14 => k6_hw14.2

def k6_off47 (v129 : BitVec 32) : Fin 3 → Nat :=
  let c0_i32_184 : BitVec 32 := 0#32
  let c0_i32_185 : BitVec 32 := 0#32
  ![v129.toNat, 0, 0]

def k6_chk15 (v129 : BitVec 32) : Prop :=
  (∀ a, (k6_off30 v129) a + S1x1x128.size a ≤ S50000x1x128.size a) ∧
  (∀ a, (k6_off47 v129) a + S1x1x128.size a ≤ S50000x1x128.size a)
instance k6_chk15.dec : ∀ (v129 : BitVec 32), Decidable (k6_chk15 v129) := fun v129 => decidable_of_iff' _ (Iff.of_eq (k6_chk15.eq_1 v129))
theorem k6_off30_inb : ∀ (v129 : BitVec 32) (k6_hw15 : k6_chk15 v129), ∀ a, (k6_off30 v129) a + S1x1x128.size a ≤ S50000x1x128.size a := fun v129 k6_hw15 => k6_hw15.1
theorem k6_off47_inb : ∀ (v129 : BitVec 32) (k6_hw15 : k6_chk15 v129), ∀ a, (k6_off47 v129) a + S1x1x128.size a ≤ S50000x1x128.size a := fun v129 k6_hw15 => k6_hw15.2

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S16x1x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev grid7 : Pipeline.Grid := ⟨1, ![4000], ![false]⟩

abbrev pre7 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k7_off1 (i : grid7.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k7_off2 (v3 : BitVec 32) : Fin 3 → Nat :=
  let c0_i32_4 : BitVec 32 := 0#32
  let c0_i32_5 : BitVec 32 := 0#32
  ![v3.toNat, 0, 0]

def k7_off3 (i : grid7.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k7_off4 (v12 : BitVec 32) : Fin 3 → Nat :=
  let c0_i32_10 : BitVec 32 := 0#32
  let c0_i32_11 : BitVec 32 := 0#32
  ![v12.toNat, 0, 0]

def k7_off5 (i : grid7.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k7_off6 (v21 : BitVec 32) : Fin 3 → Nat :=
  let c0_i32_16 : BitVec 32 := 0#32
  let c0_i32_17 : BitVec 32 := 0#32
  ![v21.toNat, 0, 0]

def k7_off7 (i : grid7.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k7_off8 (v30 : BitVec 32) : Fin 3 → Nat :=
  let c0_i32_22 : BitVec 32 := 0#32
  let c0_i32_23 : BitVec 32 := 0#32
  ![v30.toNat, 0, 0]

def k7_off9 (i : grid7.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k7_off10 (v39 : BitVec 32) : Fin 3 → Nat :=
  let c0_i32_28 : BitVec 32 := 0#32
  let c0_i32_29 : BitVec 32 := 0#32
  ![v39.toNat, 0, 0]

def k7_off11 (i : grid7.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k7_off12 (v48 : BitVec 32) : Fin 3 → Nat :=
  let c0_i32_34 : BitVec 32 := 0#32
  let c0_i32_35 : BitVec 32 := 0#32
  ![v48.toNat, 0, 0]

def k7_off13 (i : grid7.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k7_off14 (v57 : BitVec 32) : Fin 3 → Nat :=
  let c0_i32_40 : BitVec 32 := 0#32
  let c0_i32_41 : BitVec 32 := 0#32
  ![v57.toNat, 0, 0]

def k7_off15 (i : grid7.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k7_off16 (v66 : BitVec 32) : Fin 3 → Nat :=
  let c0_i32_46 : BitVec 32 := 0#32
  let c0_i32_47 : BitVec 32 := 0#32
  ![v66.toNat, 0, 0]

def k7_off17 (i : grid7.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k7_off18 (v75 : BitVec 32) : Fin 3 → Nat :=
  let c0_i32_52 : BitVec 32 := 0#32
  let c0_i32_53 : BitVec 32 := 0#32
  ![v75.toNat, 0, 0]

def k7_off19 (i : grid7.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k7_off20 (v84 : BitVec 32) : Fin 3 → Nat :=
  let c0_i32_58 : BitVec 32 := 0#32
  let c0_i32_59 : BitVec 32 := 0#32
  ![v84.toNat, 0, 0]

def k7_off21 (i : grid7.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k7_off22 (v93 : BitVec 32) : Fin 3 → Nat :=
  let c0_i32_64 : BitVec 32 := 0#32
  let c0_i32_65 : BitVec 32 := 0#32
  ![v93.toNat, 0, 0]

def k7_off23 (i : grid7.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k7_off24 (v102 : BitVec 32) : Fin 3 → Nat :=
  let c0_i32_70 : BitVec 32 := 0#32
  let c0_i32_71 : BitVec 32 := 0#32
  ![v102.toNat, 0, 0]

def k7_off25 (i : grid7.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k7_off26 (v111 : BitVec 32) : Fin 3 → Nat :=
  let c0_i32_76 : BitVec 32 := 0#32
  let c0_i32_77 : BitVec 32 := 0#32
  ![v111.toNat, 0, 0]

def k7_off27 (i : grid7.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k7_off28 (v120 : BitVec 32) : Fin 3 → Nat :=
  let c0_i32_82 : BitVec 32 := 0#32
  let c0_i32_83 : BitVec 32 := 0#32
  ![v120.toNat, 0, 0]

def k7_off29 (i : grid7.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k7_off30 (v129 : BitVec 32) : Fin 3 → Nat :=
  let c0_i32_88 : BitVec 32 := 0#32
  let c0_i32_89 : BitVec 32 := 0#32
  ![v129.toNat, 0, 0]

def k7_off31 (i : grid7.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k7_off32 (v138 : BitVec 32) : Fin 3 → Nat :=
  let c0_i32_94 : BitVec 32 := 0#32
  let c0_i32_95 : BitVec 32 := 0#32
  ![v138.toNat, 0, 0]

def k7_chk16 (v138 : BitVec 32) : Prop :=
  (∀ a, (k7_off32 v138) a + S1x1x128.size a ≤ S50000x1x128.size a)
instance k7_chk16.dec : ∀ (v138 : BitVec 32), Decidable (k7_chk16 v138) := fun v138 => decidable_of_iff' _ (Iff.of_eq (k7_chk16.eq_1 v138))
theorem k7_off32_inb : ∀ (v138 : BitVec 32) (k7_hw16 : k7_chk16 v138), ∀ a, (k7_off32 v138) a + S1x1x128.size a ≤ S50000x1x128.size a := fun v138 k7_hw16 => k7_hw16

def k7_off33 (v3 : BitVec 32) : Fin 3 → Nat :=
  let c0_i32_100 : BitVec 32 := 0#32
  let c0_i32_101 : BitVec 32 := 0#32
  ![v3.toNat, 0, 0]

def k7_chk1 (v3 : BitVec 32) : Prop :=
  (∀ a, (k7_off2 v3) a + S1x1x128.size a ≤ S50000x1x128.size a) ∧
  (∀ a, (k7_off33 v3) a + S1x1x128.size a ≤ S50000x1x128.size a)
instance k7_chk1.dec : ∀ (v3 : BitVec 32), Decidable (k7_chk1 v3) := fun v3 => decidable_of_iff' _ (Iff.of_eq (k7_chk1.eq_1 v3))
theorem k7_off2_inb : ∀ (v3 : BitVec 32) (k7_hw1 : k7_chk1 v3), ∀ a, (k7_off2 v3) a + S1x1x128.size a ≤ S50000x1x128.size a := fun v3 k7_hw1 => k7_hw1.1
theorem k7_off33_inb : ∀ (v3 : BitVec 32) (k7_hw1 : k7_chk1 v3), ∀ a, (k7_off33 v3) a + S1x1x128.size a ≤ S50000x1x128.size a := fun v3 k7_hw1 => k7_hw1.2

def k7_off34 (v12 : BitVec 32) : Fin 3 → Nat :=
  let c0_i32_106 : BitVec 32 := 0#32
  let c0_i32_107 : BitVec 32 := 0#32
  ![v12.toNat, 0, 0]

def k7_chk2 (v12 : BitVec 32) : Prop :=
  (∀ a, (k7_off4 v12) a + S1x1x128.size a ≤ S50000x1x128.size a) ∧
  (∀ a, (k7_off34 v12) a + S1x1x128.size a ≤ S50000x1x128.size a)
instance k7_chk2.dec : ∀ (v12 : BitVec 32), Decidable (k7_chk2 v12) := fun v12 => decidable_of_iff' _ (Iff.of_eq (k7_chk2.eq_1 v12))
theorem k7_off4_inb : ∀ (v12 : BitVec 32) (k7_hw2 : k7_chk2 v12), ∀ a, (k7_off4 v12) a + S1x1x128.size a ≤ S50000x1x128.size a := fun v12 k7_hw2 => k7_hw2.1
theorem k7_off34_inb : ∀ (v12 : BitVec 32) (k7_hw2 : k7_chk2 v12), ∀ a, (k7_off34 v12) a + S1x1x128.size a ≤ S50000x1x128.size a := fun v12 k7_hw2 => k7_hw2.2

def k7_off35 (v21 : BitVec 32) : Fin 3 → Nat :=
  let c0_i32_112 : BitVec 32 := 0#32
  let c0_i32_113 : BitVec 32 := 0#32
  ![v21.toNat, 0, 0]

def k7_chk3 (v21 : BitVec 32) : Prop :=
  (∀ a, (k7_off6 v21) a + S1x1x128.size a ≤ S50000x1x128.size a) ∧
  (∀ a, (k7_off35 v21) a + S1x1x128.size a ≤ S50000x1x128.size a)
instance k7_chk3.dec : ∀ (v21 : BitVec 32), Decidable (k7_chk3 v21) := fun v21 => decidable_of_iff' _ (Iff.of_eq (k7_chk3.eq_1 v21))
theorem k7_off6_inb : ∀ (v21 : BitVec 32) (k7_hw3 : k7_chk3 v21), ∀ a, (k7_off6 v21) a + S1x1x128.size a ≤ S50000x1x128.size a := fun v21 k7_hw3 => k7_hw3.1
theorem k7_off35_inb : ∀ (v21 : BitVec 32) (k7_hw3 : k7_chk3 v21), ∀ a, (k7_off35 v21) a + S1x1x128.size a ≤ S50000x1x128.size a := fun v21 k7_hw3 => k7_hw3.2

def k7_off36 (v30 : BitVec 32) : Fin 3 → Nat :=
  let c0_i32_118 : BitVec 32 := 0#32
  let c0_i32_119 : BitVec 32 := 0#32
  ![v30.toNat, 0, 0]

def k7_chk4 (v30 : BitVec 32) : Prop :=
  (∀ a, (k7_off8 v30) a + S1x1x128.size a ≤ S50000x1x128.size a) ∧
  (∀ a, (k7_off36 v30) a + S1x1x128.size a ≤ S50000x1x128.size a)
instance k7_chk4.dec : ∀ (v30 : BitVec 32), Decidable (k7_chk4 v30) := fun v30 => decidable_of_iff' _ (Iff.of_eq (k7_chk4.eq_1 v30))
theorem k7_off8_inb : ∀ (v30 : BitVec 32) (k7_hw4 : k7_chk4 v30), ∀ a, (k7_off8 v30) a + S1x1x128.size a ≤ S50000x1x128.size a := fun v30 k7_hw4 => k7_hw4.1
theorem k7_off36_inb : ∀ (v30 : BitVec 32) (k7_hw4 : k7_chk4 v30), ∀ a, (k7_off36 v30) a + S1x1x128.size a ≤ S50000x1x128.size a := fun v30 k7_hw4 => k7_hw4.2

def k7_off37 (v39 : BitVec 32) : Fin 3 → Nat :=
  let c0_i32_124 : BitVec 32 := 0#32
  let c0_i32_125 : BitVec 32 := 0#32
  ![v39.toNat, 0, 0]

def k7_chk5 (v39 : BitVec 32) : Prop :=
  (∀ a, (k7_off10 v39) a + S1x1x128.size a ≤ S50000x1x128.size a) ∧
  (∀ a, (k7_off37 v39) a + S1x1x128.size a ≤ S50000x1x128.size a)
instance k7_chk5.dec : ∀ (v39 : BitVec 32), Decidable (k7_chk5 v39) := fun v39 => decidable_of_iff' _ (Iff.of_eq (k7_chk5.eq_1 v39))
theorem k7_off10_inb : ∀ (v39 : BitVec 32) (k7_hw5 : k7_chk5 v39), ∀ a, (k7_off10 v39) a + S1x1x128.size a ≤ S50000x1x128.size a := fun v39 k7_hw5 => k7_hw5.1
theorem k7_off37_inb : ∀ (v39 : BitVec 32) (k7_hw5 : k7_chk5 v39), ∀ a, (k7_off37 v39) a + S1x1x128.size a ≤ S50000x1x128.size a := fun v39 k7_hw5 => k7_hw5.2

def k7_off38 (v48 : BitVec 32) : Fin 3 → Nat :=
  let c0_i32_130 : BitVec 32 := 0#32
  let c0_i32_131 : BitVec 32 := 0#32
  ![v48.toNat, 0, 0]

def k7_chk6 (v48 : BitVec 32) : Prop :=
  (∀ a, (k7_off12 v48) a + S1x1x128.size a ≤ S50000x1x128.size a) ∧
  (∀ a, (k7_off38 v48) a + S1x1x128.size a ≤ S50000x1x128.size a)
instance k7_chk6.dec : ∀ (v48 : BitVec 32), Decidable (k7_chk6 v48) := fun v48 => decidable_of_iff' _ (Iff.of_eq (k7_chk6.eq_1 v48))
theorem k7_off12_inb : ∀ (v48 : BitVec 32) (k7_hw6 : k7_chk6 v48), ∀ a, (k7_off12 v48) a + S1x1x128.size a ≤ S50000x1x128.size a := fun v48 k7_hw6 => k7_hw6.1
theorem k7_off38_inb : ∀ (v48 : BitVec 32) (k7_hw6 : k7_chk6 v48), ∀ a, (k7_off38 v48) a + S1x1x128.size a ≤ S50000x1x128.size a := fun v48 k7_hw6 => k7_hw6.2

def k7_off39 (v57 : BitVec 32) : Fin 3 → Nat :=
  let c0_i32_136 : BitVec 32 := 0#32
  let c0_i32_137 : BitVec 32 := 0#32
  ![v57.toNat, 0, 0]

def k7_chk7 (v57 : BitVec 32) : Prop :=
  (∀ a, (k7_off14 v57) a + S1x1x128.size a ≤ S50000x1x128.size a) ∧
  (∀ a, (k7_off39 v57) a + S1x1x128.size a ≤ S50000x1x128.size a)
instance k7_chk7.dec : ∀ (v57 : BitVec 32), Decidable (k7_chk7 v57) := fun v57 => decidable_of_iff' _ (Iff.of_eq (k7_chk7.eq_1 v57))
theorem k7_off14_inb : ∀ (v57 : BitVec 32) (k7_hw7 : k7_chk7 v57), ∀ a, (k7_off14 v57) a + S1x1x128.size a ≤ S50000x1x128.size a := fun v57 k7_hw7 => k7_hw7.1
theorem k7_off39_inb : ∀ (v57 : BitVec 32) (k7_hw7 : k7_chk7 v57), ∀ a, (k7_off39 v57) a + S1x1x128.size a ≤ S50000x1x128.size a := fun v57 k7_hw7 => k7_hw7.2

def k7_off40 (v66 : BitVec 32) : Fin 3 → Nat :=
  let c0_i32_142 : BitVec 32 := 0#32
  let c0_i32_143 : BitVec 32 := 0#32
  ![v66.toNat, 0, 0]

def k7_chk8 (v66 : BitVec 32) : Prop :=
  (∀ a, (k7_off16 v66) a + S1x1x128.size a ≤ S50000x1x128.size a) ∧
  (∀ a, (k7_off40 v66) a + S1x1x128.size a ≤ S50000x1x128.size a)
instance k7_chk8.dec : ∀ (v66 : BitVec 32), Decidable (k7_chk8 v66) := fun v66 => decidable_of_iff' _ (Iff.of_eq (k7_chk8.eq_1 v66))
theorem k7_off16_inb : ∀ (v66 : BitVec 32) (k7_hw8 : k7_chk8 v66), ∀ a, (k7_off16 v66) a + S1x1x128.size a ≤ S50000x1x128.size a := fun v66 k7_hw8 => k7_hw8.1
theorem k7_off40_inb : ∀ (v66 : BitVec 32) (k7_hw8 : k7_chk8 v66), ∀ a, (k7_off40 v66) a + S1x1x128.size a ≤ S50000x1x128.size a := fun v66 k7_hw8 => k7_hw8.2

def k7_off41 (v75 : BitVec 32) : Fin 3 → Nat :=
  let c0_i32_148 : BitVec 32 := 0#32
  let c0_i32_149 : BitVec 32 := 0#32
  ![v75.toNat, 0, 0]

def k7_chk9 (v75 : BitVec 32) : Prop :=
  (∀ a, (k7_off18 v75) a + S1x1x128.size a ≤ S50000x1x128.size a) ∧
  (∀ a, (k7_off41 v75) a + S1x1x128.size a ≤ S50000x1x128.size a)
instance k7_chk9.dec : ∀ (v75 : BitVec 32), Decidable (k7_chk9 v75) := fun v75 => decidable_of_iff' _ (Iff.of_eq (k7_chk9.eq_1 v75))
theorem k7_off18_inb : ∀ (v75 : BitVec 32) (k7_hw9 : k7_chk9 v75), ∀ a, (k7_off18 v75) a + S1x1x128.size a ≤ S50000x1x128.size a := fun v75 k7_hw9 => k7_hw9.1
theorem k7_off41_inb : ∀ (v75 : BitVec 32) (k7_hw9 : k7_chk9 v75), ∀ a, (k7_off41 v75) a + S1x1x128.size a ≤ S50000x1x128.size a := fun v75 k7_hw9 => k7_hw9.2

def k7_off42 (v84 : BitVec 32) : Fin 3 → Nat :=
  let c0_i32_154 : BitVec 32 := 0#32
  let c0_i32_155 : BitVec 32 := 0#32
  ![v84.toNat, 0, 0]

def k7_chk10 (v84 : BitVec 32) : Prop :=
  (∀ a, (k7_off20 v84) a + S1x1x128.size a ≤ S50000x1x128.size a) ∧
  (∀ a, (k7_off42 v84) a + S1x1x128.size a ≤ S50000x1x128.size a)
instance k7_chk10.dec : ∀ (v84 : BitVec 32), Decidable (k7_chk10 v84) := fun v84 => decidable_of_iff' _ (Iff.of_eq (k7_chk10.eq_1 v84))
theorem k7_off20_inb : ∀ (v84 : BitVec 32) (k7_hw10 : k7_chk10 v84), ∀ a, (k7_off20 v84) a + S1x1x128.size a ≤ S50000x1x128.size a := fun v84 k7_hw10 => k7_hw10.1
theorem k7_off42_inb : ∀ (v84 : BitVec 32) (k7_hw10 : k7_chk10 v84), ∀ a, (k7_off42 v84) a + S1x1x128.size a ≤ S50000x1x128.size a := fun v84 k7_hw10 => k7_hw10.2

def k7_off43 (v93 : BitVec 32) : Fin 3 → Nat :=
  let c0_i32_160 : BitVec 32 := 0#32
  let c0_i32_161 : BitVec 32 := 0#32
  ![v93.toNat, 0, 0]

def k7_chk11 (v93 : BitVec 32) : Prop :=
  (∀ a, (k7_off22 v93) a + S1x1x128.size a ≤ S50000x1x128.size a) ∧
  (∀ a, (k7_off43 v93) a + S1x1x128.size a ≤ S50000x1x128.size a)
instance k7_chk11.dec : ∀ (v93 : BitVec 32), Decidable (k7_chk11 v93) := fun v93 => decidable_of_iff' _ (Iff.of_eq (k7_chk11.eq_1 v93))
theorem k7_off22_inb : ∀ (v93 : BitVec 32) (k7_hw11 : k7_chk11 v93), ∀ a, (k7_off22 v93) a + S1x1x128.size a ≤ S50000x1x128.size a := fun v93 k7_hw11 => k7_hw11.1
theorem k7_off43_inb : ∀ (v93 : BitVec 32) (k7_hw11 : k7_chk11 v93), ∀ a, (k7_off43 v93) a + S1x1x128.size a ≤ S50000x1x128.size a := fun v93 k7_hw11 => k7_hw11.2

def k7_off44 (v102 : BitVec 32) : Fin 3 → Nat :=
  let c0_i32_166 : BitVec 32 := 0#32
  let c0_i32_167 : BitVec 32 := 0#32
  ![v102.toNat, 0, 0]

def k7_chk12 (v102 : BitVec 32) : Prop :=
  (∀ a, (k7_off24 v102) a + S1x1x128.size a ≤ S50000x1x128.size a) ∧
  (∀ a, (k7_off44 v102) a + S1x1x128.size a ≤ S50000x1x128.size a)
instance k7_chk12.dec : ∀ (v102 : BitVec 32), Decidable (k7_chk12 v102) := fun v102 => decidable_of_iff' _ (Iff.of_eq (k7_chk12.eq_1 v102))
theorem k7_off24_inb : ∀ (v102 : BitVec 32) (k7_hw12 : k7_chk12 v102), ∀ a, (k7_off24 v102) a + S1x1x128.size a ≤ S50000x1x128.size a := fun v102 k7_hw12 => k7_hw12.1
theorem k7_off44_inb : ∀ (v102 : BitVec 32) (k7_hw12 : k7_chk12 v102), ∀ a, (k7_off44 v102) a + S1x1x128.size a ≤ S50000x1x128.size a := fun v102 k7_hw12 => k7_hw12.2

def k7_off45 (v111 : BitVec 32) : Fin 3 → Nat :=
  let c0_i32_172 : BitVec 32 := 0#32
  let c0_i32_173 : BitVec 32 := 0#32
  ![v111.toNat, 0, 0]

def k7_chk13 (v111 : BitVec 32) : Prop :=
  (∀ a, (k7_off26 v111) a + S1x1x128.size a ≤ S50000x1x128.size a) ∧
  (∀ a, (k7_off45 v111) a + S1x1x128.size a ≤ S50000x1x128.size a)
instance k7_chk13.dec : ∀ (v111 : BitVec 32), Decidable (k7_chk13 v111) := fun v111 => decidable_of_iff' _ (Iff.of_eq (k7_chk13.eq_1 v111))
theorem k7_off26_inb : ∀ (v111 : BitVec 32) (k7_hw13 : k7_chk13 v111), ∀ a, (k7_off26 v111) a + S1x1x128.size a ≤ S50000x1x128.size a := fun v111 k7_hw13 => k7_hw13.1
theorem k7_off45_inb : ∀ (v111 : BitVec 32) (k7_hw13 : k7_chk13 v111), ∀ a, (k7_off45 v111) a + S1x1x128.size a ≤ S50000x1x128.size a := fun v111 k7_hw13 => k7_hw13.2

def k7_off46 (v120 : BitVec 32) : Fin 3 → Nat :=
  let c0_i32_178 : BitVec 32 := 0#32
  let c0_i32_179 : BitVec 32 := 0#32
  ![v120.toNat, 0, 0]

def k7_chk14 (v120 : BitVec 32) : Prop :=
  (∀ a, (k7_off28 v120) a + S1x1x128.size a ≤ S50000x1x128.size a) ∧
  (∀ a, (k7_off46 v120) a + S1x1x128.size a ≤ S50000x1x128.size a)
instance k7_chk14.dec : ∀ (v120 : BitVec 32), Decidable (k7_chk14 v120) := fun v120 => decidable_of_iff' _ (Iff.of_eq (k7_chk14.eq_1 v120))
theorem k7_off28_inb : ∀ (v120 : BitVec 32) (k7_hw14 : k7_chk14 v120), ∀ a, (k7_off28 v120) a + S1x1x128.size a ≤ S50000x1x128.size a := fun v120 k7_hw14 => k7_hw14.1
theorem k7_off46_inb : ∀ (v120 : BitVec 32) (k7_hw14 : k7_chk14 v120), ∀ a, (k7_off46 v120) a + S1x1x128.size a ≤ S50000x1x128.size a := fun v120 k7_hw14 => k7_hw14.2

def k7_off47 (v129 : BitVec 32) : Fin 3 → Nat :=
  let c0_i32_184 : BitVec 32 := 0#32
  let c0_i32_185 : BitVec 32 := 0#32
  ![v129.toNat, 0, 0]

def k7_chk15 (v129 : BitVec 32) : Prop :=
  (∀ a, (k7_off30 v129) a + S1x1x128.size a ≤ S50000x1x128.size a) ∧
  (∀ a, (k7_off47 v129) a + S1x1x128.size a ≤ S50000x1x128.size a)
instance k7_chk15.dec : ∀ (v129 : BitVec 32), Decidable (k7_chk15 v129) := fun v129 => decidable_of_iff' _ (Iff.of_eq (k7_chk15.eq_1 v129))
theorem k7_off30_inb : ∀ (v129 : BitVec 32) (k7_hw15 : k7_chk15 v129), ∀ a, (k7_off30 v129) a + S1x1x128.size a ≤ S50000x1x128.size a := fun v129 k7_hw15 => k7_hw15.1
theorem k7_off47_inb : ∀ (v129 : BitVec 32) (k7_hw15 : k7_chk15 v129), ∀ a, (k7_off47 v129) a + S1x1x128.size a ≤ S50000x1x128.size a := fun v129 k7_hw15 => k7_hw15.2

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S16x1x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev grid8 : Pipeline.Grid := ⟨1, ![4000], ![false]⟩

abbrev pre8 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k8_off1 (i : grid8.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k8_off2 (v3 : BitVec 32) : Fin 3 → Nat :=
  let c0_i32_4 : BitVec 32 := 0#32
  let c0_i32_5 : BitVec 32 := 0#32
  ![v3.toNat, 0, 0]

def k8_off3 (i : grid8.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k8_off4 (v12 : BitVec 32) : Fin 3 → Nat :=
  let c0_i32_10 : BitVec 32 := 0#32
  let c0_i32_11 : BitVec 32 := 0#32
  ![v12.toNat, 0, 0]

def k8_off5 (i : grid8.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k8_off6 (v21 : BitVec 32) : Fin 3 → Nat :=
  let c0_i32_16 : BitVec 32 := 0#32
  let c0_i32_17 : BitVec 32 := 0#32
  ![v21.toNat, 0, 0]

def k8_off7 (i : grid8.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k8_off8 (v30 : BitVec 32) : Fin 3 → Nat :=
  let c0_i32_22 : BitVec 32 := 0#32
  let c0_i32_23 : BitVec 32 := 0#32
  ![v30.toNat, 0, 0]

def k8_off9 (i : grid8.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k8_off10 (v39 : BitVec 32) : Fin 3 → Nat :=
  let c0_i32_28 : BitVec 32 := 0#32
  let c0_i32_29 : BitVec 32 := 0#32
  ![v39.toNat, 0, 0]

def k8_off11 (i : grid8.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k8_off12 (v48 : BitVec 32) : Fin 3 → Nat :=
  let c0_i32_34 : BitVec 32 := 0#32
  let c0_i32_35 : BitVec 32 := 0#32
  ![v48.toNat, 0, 0]

def k8_off13 (i : grid8.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k8_off14 (v57 : BitVec 32) : Fin 3 → Nat :=
  let c0_i32_40 : BitVec 32 := 0#32
  let c0_i32_41 : BitVec 32 := 0#32
  ![v57.toNat, 0, 0]

def k8_off15 (i : grid8.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k8_off16 (v66 : BitVec 32) : Fin 3 → Nat :=
  let c0_i32_46 : BitVec 32 := 0#32
  let c0_i32_47 : BitVec 32 := 0#32
  ![v66.toNat, 0, 0]

def k8_off17 (i : grid8.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k8_off18 (v75 : BitVec 32) : Fin 3 → Nat :=
  let c0_i32_52 : BitVec 32 := 0#32
  let c0_i32_53 : BitVec 32 := 0#32
  ![v75.toNat, 0, 0]

def k8_off19 (i : grid8.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k8_off20 (v84 : BitVec 32) : Fin 3 → Nat :=
  let c0_i32_58 : BitVec 32 := 0#32
  let c0_i32_59 : BitVec 32 := 0#32
  ![v84.toNat, 0, 0]

def k8_off21 (i : grid8.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k8_off22 (v93 : BitVec 32) : Fin 3 → Nat :=
  let c0_i32_64 : BitVec 32 := 0#32
  let c0_i32_65 : BitVec 32 := 0#32
  ![v93.toNat, 0, 0]

def k8_off23 (i : grid8.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k8_off24 (v102 : BitVec 32) : Fin 3 → Nat :=
  let c0_i32_70 : BitVec 32 := 0#32
  let c0_i32_71 : BitVec 32 := 0#32
  ![v102.toNat, 0, 0]

def k8_off25 (i : grid8.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k8_off26 (v111 : BitVec 32) : Fin 3 → Nat :=
  let c0_i32_76 : BitVec 32 := 0#32
  let c0_i32_77 : BitVec 32 := 0#32
  ![v111.toNat, 0, 0]

def k8_off27 (i : grid8.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k8_off28 (v120 : BitVec 32) : Fin 3 → Nat :=
  let c0_i32_82 : BitVec 32 := 0#32
  let c0_i32_83 : BitVec 32 := 0#32
  ![v120.toNat, 0, 0]

def k8_off29 (i : grid8.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k8_off30 (v129 : BitVec 32) : Fin 3 → Nat :=
  let c0_i32_88 : BitVec 32 := 0#32
  let c0_i32_89 : BitVec 32 := 0#32
  ![v129.toNat, 0, 0]

def k8_off31 (i : grid8.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k8_off32 (v138 : BitVec 32) : Fin 3 → Nat :=
  let c0_i32_94 : BitVec 32 := 0#32
  let c0_i32_95 : BitVec 32 := 0#32
  ![v138.toNat, 0, 0]

def k8_chk16 (v138 : BitVec 32) : Prop :=
  (∀ a, (k8_off32 v138) a + S1x1x128.size a ≤ S50000x1x128.size a)
instance k8_chk16.dec : ∀ (v138 : BitVec 32), Decidable (k8_chk16 v138) := fun v138 => decidable_of_iff' _ (Iff.of_eq (k8_chk16.eq_1 v138))
theorem k8_off32_inb : ∀ (v138 : BitVec 32) (k8_hw16 : k8_chk16 v138), ∀ a, (k8_off32 v138) a + S1x1x128.size a ≤ S50000x1x128.size a := fun v138 k8_hw16 => k8_hw16

def k8_off33 (v3 : BitVec 32) : Fin 3 → Nat :=
  let c0_i32_100 : BitVec 32 := 0#32
  let c0_i32_101 : BitVec 32 := 0#32
  ![v3.toNat, 0, 0]

def k8_chk1 (v3 : BitVec 32) : Prop :=
  (∀ a, (k8_off2 v3) a + S1x1x128.size a ≤ S50000x1x128.size a) ∧
  (∀ a, (k8_off33 v3) a + S1x1x128.size a ≤ S50000x1x128.size a)
instance k8_chk1.dec : ∀ (v3 : BitVec 32), Decidable (k8_chk1 v3) := fun v3 => decidable_of_iff' _ (Iff.of_eq (k8_chk1.eq_1 v3))
theorem k8_off2_inb : ∀ (v3 : BitVec 32) (k8_hw1 : k8_chk1 v3), ∀ a, (k8_off2 v3) a + S1x1x128.size a ≤ S50000x1x128.size a := fun v3 k8_hw1 => k8_hw1.1
theorem k8_off33_inb : ∀ (v3 : BitVec 32) (k8_hw1 : k8_chk1 v3), ∀ a, (k8_off33 v3) a + S1x1x128.size a ≤ S50000x1x128.size a := fun v3 k8_hw1 => k8_hw1.2

def k8_off34 (v12 : BitVec 32) : Fin 3 → Nat :=
  let c0_i32_106 : BitVec 32 := 0#32
  let c0_i32_107 : BitVec 32 := 0#32
  ![v12.toNat, 0, 0]

def k8_chk2 (v12 : BitVec 32) : Prop :=
  (∀ a, (k8_off4 v12) a + S1x1x128.size a ≤ S50000x1x128.size a) ∧
  (∀ a, (k8_off34 v12) a + S1x1x128.size a ≤ S50000x1x128.size a)
instance k8_chk2.dec : ∀ (v12 : BitVec 32), Decidable (k8_chk2 v12) := fun v12 => decidable_of_iff' _ (Iff.of_eq (k8_chk2.eq_1 v12))
theorem k8_off4_inb : ∀ (v12 : BitVec 32) (k8_hw2 : k8_chk2 v12), ∀ a, (k8_off4 v12) a + S1x1x128.size a ≤ S50000x1x128.size a := fun v12 k8_hw2 => k8_hw2.1
theorem k8_off34_inb : ∀ (v12 : BitVec 32) (k8_hw2 : k8_chk2 v12), ∀ a, (k8_off34 v12) a + S1x1x128.size a ≤ S50000x1x128.size a := fun v12 k8_hw2 => k8_hw2.2

def k8_off35 (v21 : BitVec 32) : Fin 3 → Nat :=
  let c0_i32_112 : BitVec 32 := 0#32
  let c0_i32_113 : BitVec 32 := 0#32
  ![v21.toNat, 0, 0]

def k8_chk3 (v21 : BitVec 32) : Prop :=
  (∀ a, (k8_off6 v21) a + S1x1x128.size a ≤ S50000x1x128.size a) ∧
  (∀ a, (k8_off35 v21) a + S1x1x128.size a ≤ S50000x1x128.size a)
instance k8_chk3.dec : ∀ (v21 : BitVec 32), Decidable (k8_chk3 v21) := fun v21 => decidable_of_iff' _ (Iff.of_eq (k8_chk3.eq_1 v21))
theorem k8_off6_inb : ∀ (v21 : BitVec 32) (k8_hw3 : k8_chk3 v21), ∀ a, (k8_off6 v21) a + S1x1x128.size a ≤ S50000x1x128.size a := fun v21 k8_hw3 => k8_hw3.1
theorem k8_off35_inb : ∀ (v21 : BitVec 32) (k8_hw3 : k8_chk3 v21), ∀ a, (k8_off35 v21) a + S1x1x128.size a ≤ S50000x1x128.size a := fun v21 k8_hw3 => k8_hw3.2

def k8_off36 (v30 : BitVec 32) : Fin 3 → Nat :=
  let c0_i32_118 : BitVec 32 := 0#32
  let c0_i32_119 : BitVec 32 := 0#32
  ![v30.toNat, 0, 0]

def k8_chk4 (v30 : BitVec 32) : Prop :=
  (∀ a, (k8_off8 v30) a + S1x1x128.size a ≤ S50000x1x128.size a) ∧
  (∀ a, (k8_off36 v30) a + S1x1x128.size a ≤ S50000x1x128.size a)
instance k8_chk4.dec : ∀ (v30 : BitVec 32), Decidable (k8_chk4 v30) := fun v30 => decidable_of_iff' _ (Iff.of_eq (k8_chk4.eq_1 v30))
theorem k8_off8_inb : ∀ (v30 : BitVec 32) (k8_hw4 : k8_chk4 v30), ∀ a, (k8_off8 v30) a + S1x1x128.size a ≤ S50000x1x128.size a := fun v30 k8_hw4 => k8_hw4.1
theorem k8_off36_inb : ∀ (v30 : BitVec 32) (k8_hw4 : k8_chk4 v30), ∀ a, (k8_off36 v30) a + S1x1x128.size a ≤ S50000x1x128.size a := fun v30 k8_hw4 => k8_hw4.2

def k8_off37 (v39 : BitVec 32) : Fin 3 → Nat :=
  let c0_i32_124 : BitVec 32 := 0#32
  let c0_i32_125 : BitVec 32 := 0#32
  ![v39.toNat, 0, 0]

def k8_chk5 (v39 : BitVec 32) : Prop :=
  (∀ a, (k8_off10 v39) a + S1x1x128.size a ≤ S50000x1x128.size a) ∧
  (∀ a, (k8_off37 v39) a + S1x1x128.size a ≤ S50000x1x128.size a)
instance k8_chk5.dec : ∀ (v39 : BitVec 32), Decidable (k8_chk5 v39) := fun v39 => decidable_of_iff' _ (Iff.of_eq (k8_chk5.eq_1 v39))
theorem k8_off10_inb : ∀ (v39 : BitVec 32) (k8_hw5 : k8_chk5 v39), ∀ a, (k8_off10 v39) a + S1x1x128.size a ≤ S50000x1x128.size a := fun v39 k8_hw5 => k8_hw5.1
theorem k8_off37_inb : ∀ (v39 : BitVec 32) (k8_hw5 : k8_chk5 v39), ∀ a, (k8_off37 v39) a + S1x1x128.size a ≤ S50000x1x128.size a := fun v39 k8_hw5 => k8_hw5.2

def k8_off38 (v48 : BitVec 32) : Fin 3 → Nat :=
  let c0_i32_130 : BitVec 32 := 0#32
  let c0_i32_131 : BitVec 32 := 0#32
  ![v48.toNat, 0, 0]

def k8_chk6 (v48 : BitVec 32) : Prop :=
  (∀ a, (k8_off12 v48) a + S1x1x128.size a ≤ S50000x1x128.size a) ∧
  (∀ a, (k8_off38 v48) a + S1x1x128.size a ≤ S50000x1x128.size a)
instance k8_chk6.dec : ∀ (v48 : BitVec 32), Decidable (k8_chk6 v48) := fun v48 => decidable_of_iff' _ (Iff.of_eq (k8_chk6.eq_1 v48))
theorem k8_off12_inb : ∀ (v48 : BitVec 32) (k8_hw6 : k8_chk6 v48), ∀ a, (k8_off12 v48) a + S1x1x128.size a ≤ S50000x1x128.size a := fun v48 k8_hw6 => k8_hw6.1
theorem k8_off38_inb : ∀ (v48 : BitVec 32) (k8_hw6 : k8_chk6 v48), ∀ a, (k8_off38 v48) a + S1x1x128.size a ≤ S50000x1x128.size a := fun v48 k8_hw6 => k8_hw6.2

def k8_off39 (v57 : BitVec 32) : Fin 3 → Nat :=
  let c0_i32_136 : BitVec 32 := 0#32
  let c0_i32_137 : BitVec 32 := 0#32
  ![v57.toNat, 0, 0]

def k8_chk7 (v57 : BitVec 32) : Prop :=
  (∀ a, (k8_off14 v57) a + S1x1x128.size a ≤ S50000x1x128.size a) ∧
  (∀ a, (k8_off39 v57) a + S1x1x128.size a ≤ S50000x1x128.size a)
instance k8_chk7.dec : ∀ (v57 : BitVec 32), Decidable (k8_chk7 v57) := fun v57 => decidable_of_iff' _ (Iff.of_eq (k8_chk7.eq_1 v57))
theorem k8_off14_inb : ∀ (v57 : BitVec 32) (k8_hw7 : k8_chk7 v57), ∀ a, (k8_off14 v57) a + S1x1x128.size a ≤ S50000x1x128.size a := fun v57 k8_hw7 => k8_hw7.1
theorem k8_off39_inb : ∀ (v57 : BitVec 32) (k8_hw7 : k8_chk7 v57), ∀ a, (k8_off39 v57) a + S1x1x128.size a ≤ S50000x1x128.size a := fun v57 k8_hw7 => k8_hw7.2

def k8_off40 (v66 : BitVec 32) : Fin 3 → Nat :=
  let c0_i32_142 : BitVec 32 := 0#32
  let c0_i32_143 : BitVec 32 := 0#32
  ![v66.toNat, 0, 0]

def k8_chk8 (v66 : BitVec 32) : Prop :=
  (∀ a, (k8_off16 v66) a + S1x1x128.size a ≤ S50000x1x128.size a) ∧
  (∀ a, (k8_off40 v66) a + S1x1x128.size a ≤ S50000x1x128.size a)
instance k8_chk8.dec : ∀ (v66 : BitVec 32), Decidable (k8_chk8 v66) := fun v66 => decidable_of_iff' _ (Iff.of_eq (k8_chk8.eq_1 v66))
theorem k8_off16_inb : ∀ (v66 : BitVec 32) (k8_hw8 : k8_chk8 v66), ∀ a, (k8_off16 v66) a + S1x1x128.size a ≤ S50000x1x128.size a := fun v66 k8_hw8 => k8_hw8.1
theorem k8_off40_inb : ∀ (v66 : BitVec 32) (k8_hw8 : k8_chk8 v66), ∀ a, (k8_off40 v66) a + S1x1x128.size a ≤ S50000x1x128.size a := fun v66 k8_hw8 => k8_hw8.2

def k8_off41 (v75 : BitVec 32) : Fin 3 → Nat :=
  let c0_i32_148 : BitVec 32 := 0#32
  let c0_i32_149 : BitVec 32 := 0#32
  ![v75.toNat, 0, 0]

def k8_chk9 (v75 : BitVec 32) : Prop :=
  (∀ a, (k8_off18 v75) a + S1x1x128.size a ≤ S50000x1x128.size a) ∧
  (∀ a, (k8_off41 v75) a + S1x1x128.size a ≤ S50000x1x128.size a)
instance k8_chk9.dec : ∀ (v75 : BitVec 32), Decidable (k8_chk9 v75) := fun v75 => decidable_of_iff' _ (Iff.of_eq (k8_chk9.eq_1 v75))
theorem k8_off18_inb : ∀ (v75 : BitVec 32) (k8_hw9 : k8_chk9 v75), ∀ a, (k8_off18 v75) a + S1x1x128.size a ≤ S50000x1x128.size a := fun v75 k8_hw9 => k8_hw9.1
theorem k8_off41_inb : ∀ (v75 : BitVec 32) (k8_hw9 : k8_chk9 v75), ∀ a, (k8_off41 v75) a + S1x1x128.size a ≤ S50000x1x128.size a := fun v75 k8_hw9 => k8_hw9.2

def k8_off42 (v84 : BitVec 32) : Fin 3 → Nat :=
  let c0_i32_154 : BitVec 32 := 0#32
  let c0_i32_155 : BitVec 32 := 0#32
  ![v84.toNat, 0, 0]

def k8_chk10 (v84 : BitVec 32) : Prop :=
  (∀ a, (k8_off20 v84) a + S1x1x128.size a ≤ S50000x1x128.size a) ∧
  (∀ a, (k8_off42 v84) a + S1x1x128.size a ≤ S50000x1x128.size a)
instance k8_chk10.dec : ∀ (v84 : BitVec 32), Decidable (k8_chk10 v84) := fun v84 => decidable_of_iff' _ (Iff.of_eq (k8_chk10.eq_1 v84))
theorem k8_off20_inb : ∀ (v84 : BitVec 32) (k8_hw10 : k8_chk10 v84), ∀ a, (k8_off20 v84) a + S1x1x128.size a ≤ S50000x1x128.size a := fun v84 k8_hw10 => k8_hw10.1
theorem k8_off42_inb : ∀ (v84 : BitVec 32) (k8_hw10 : k8_chk10 v84), ∀ a, (k8_off42 v84) a + S1x1x128.size a ≤ S50000x1x128.size a := fun v84 k8_hw10 => k8_hw10.2

def k8_off43 (v93 : BitVec 32) : Fin 3 → Nat :=
  let c0_i32_160 : BitVec 32 := 0#32
  let c0_i32_161 : BitVec 32 := 0#32
  ![v93.toNat, 0, 0]

def k8_chk11 (v93 : BitVec 32) : Prop :=
  (∀ a, (k8_off22 v93) a + S1x1x128.size a ≤ S50000x1x128.size a) ∧
  (∀ a, (k8_off43 v93) a + S1x1x128.size a ≤ S50000x1x128.size a)
instance k8_chk11.dec : ∀ (v93 : BitVec 32), Decidable (k8_chk11 v93) := fun v93 => decidable_of_iff' _ (Iff.of_eq (k8_chk11.eq_1 v93))
theorem k8_off22_inb : ∀ (v93 : BitVec 32) (k8_hw11 : k8_chk11 v93), ∀ a, (k8_off22 v93) a + S1x1x128.size a ≤ S50000x1x128.size a := fun v93 k8_hw11 => k8_hw11.1
theorem k8_off43_inb : ∀ (v93 : BitVec 32) (k8_hw11 : k8_chk11 v93), ∀ a, (k8_off43 v93) a + S1x1x128.size a ≤ S50000x1x128.size a := fun v93 k8_hw11 => k8_hw11.2

def k8_off44 (v102 : BitVec 32) : Fin 3 → Nat :=
  let c0_i32_166 : BitVec 32 := 0#32
  let c0_i32_167 : BitVec 32 := 0#32
  ![v102.toNat, 0, 0]

def k8_chk12 (v102 : BitVec 32) : Prop :=
  (∀ a, (k8_off24 v102) a + S1x1x128.size a ≤ S50000x1x128.size a) ∧
  (∀ a, (k8_off44 v102) a + S1x1x128.size a ≤ S50000x1x128.size a)
instance k8_chk12.dec : ∀ (v102 : BitVec 32), Decidable (k8_chk12 v102) := fun v102 => decidable_of_iff' _ (Iff.of_eq (k8_chk12.eq_1 v102))
theorem k8_off24_inb : ∀ (v102 : BitVec 32) (k8_hw12 : k8_chk12 v102), ∀ a, (k8_off24 v102) a + S1x1x128.size a ≤ S50000x1x128.size a := fun v102 k8_hw12 => k8_hw12.1
theorem k8_off44_inb : ∀ (v102 : BitVec 32) (k8_hw12 : k8_chk12 v102), ∀ a, (k8_off44 v102) a + S1x1x128.size a ≤ S50000x1x128.size a := fun v102 k8_hw12 => k8_hw12.2

def k8_off45 (v111 : BitVec 32) : Fin 3 → Nat :=
  let c0_i32_172 : BitVec 32 := 0#32
  let c0_i32_173 : BitVec 32 := 0#32
  ![v111.toNat, 0, 0]

def k8_chk13 (v111 : BitVec 32) : Prop :=
  (∀ a, (k8_off26 v111) a + S1x1x128.size a ≤ S50000x1x128.size a) ∧
  (∀ a, (k8_off45 v111) a + S1x1x128.size a ≤ S50000x1x128.size a)
instance k8_chk13.dec : ∀ (v111 : BitVec 32), Decidable (k8_chk13 v111) := fun v111 => decidable_of_iff' _ (Iff.of_eq (k8_chk13.eq_1 v111))
theorem k8_off26_inb : ∀ (v111 : BitVec 32) (k8_hw13 : k8_chk13 v111), ∀ a, (k8_off26 v111) a + S1x1x128.size a ≤ S50000x1x128.size a := fun v111 k8_hw13 => k8_hw13.1
theorem k8_off45_inb : ∀ (v111 : BitVec 32) (k8_hw13 : k8_chk13 v111), ∀ a, (k8_off45 v111) a + S1x1x128.size a ≤ S50000x1x128.size a := fun v111 k8_hw13 => k8_hw13.2

def k8_off46 (v120 : BitVec 32) : Fin 3 → Nat :=
  let c0_i32_178 : BitVec 32 := 0#32
  let c0_i32_179 : BitVec 32 := 0#32
  ![v120.toNat, 0, 0]

def k8_chk14 (v120 : BitVec 32) : Prop :=
  (∀ a, (k8_off28 v120) a + S1x1x128.size a ≤ S50000x1x128.size a) ∧
  (∀ a, (k8_off46 v120) a + S1x1x128.size a ≤ S50000x1x128.size a)
instance k8_chk14.dec : ∀ (v120 : BitVec 32), Decidable (k8_chk14 v120) := fun v120 => decidable_of_iff' _ (Iff.of_eq (k8_chk14.eq_1 v120))
theorem k8_off28_inb : ∀ (v120 : BitVec 32) (k8_hw14 : k8_chk14 v120), ∀ a, (k8_off28 v120) a + S1x1x128.size a ≤ S50000x1x128.size a := fun v120 k8_hw14 => k8_hw14.1
theorem k8_off46_inb : ∀ (v120 : BitVec 32) (k8_hw14 : k8_chk14 v120), ∀ a, (k8_off46 v120) a + S1x1x128.size a ≤ S50000x1x128.size a := fun v120 k8_hw14 => k8_hw14.2

def k8_off47 (v129 : BitVec 32) : Fin 3 → Nat :=
  let c0_i32_184 : BitVec 32 := 0#32
  let c0_i32_185 : BitVec 32 := 0#32
  ![v129.toNat, 0, 0]

def k8_chk15 (v129 : BitVec 32) : Prop :=
  (∀ a, (k8_off30 v129) a + S1x1x128.size a ≤ S50000x1x128.size a) ∧
  (∀ a, (k8_off47 v129) a + S1x1x128.size a ≤ S50000x1x128.size a)
instance k8_chk15.dec : ∀ (v129 : BitVec 32), Decidable (k8_chk15 v129) := fun v129 => decidable_of_iff' _ (Iff.of_eq (k8_chk15.eq_1 v129))
theorem k8_off30_inb : ∀ (v129 : BitVec 32) (k8_hw15 : k8_chk15 v129), ∀ a, (k8_off30 v129) a + S1x1x128.size a ≤ S50000x1x128.size a := fun v129 k8_hw15 => k8_hw15.1
theorem k8_off47_inb : ∀ (v129 : BitVec 32) (k8_hw15 : k8_chk15 v129), ∀ a, (k8_off47 v129) a + S1x1x128.size a ≤ S50000x1x128.size a := fun v129 k8_hw15 => k8_hw15.2

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S16x1x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev grid9 : Pipeline.Grid := ⟨1, ![4000], ![false]⟩

abbrev pre9 : Pipeline.Prefetch sig := ⟨1, ![main_v19.idx], fun | 0 => main_v19.names | ⟨_ + 1, h⟩ => absurd h (Nat.not_lt.2 (Nat.le_add_left _ _)), fun | 0 => rfl | ⟨_ + 1, h⟩ => absurd h (Nat.not_lt.2 (Nat.le_add_left _ _))⟩

def k9_off1 (i : grid9.Coords) : Fin 1 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![v2.toNat]
def k9_off2 (v3 : BitVec 32) : Fin 3 → Nat :=
  let c0_i32_4 : BitVec 32 := 0#32
  let c0_i32_5 : BitVec 32 := 0#32
  ![v3.toNat, 0, 0]

def k9_off3 (i : grid9.Coords) : Fin 1 → Nat :=
  let arg0 : BitVec 32 := BitVec.ofNat 32 (i 0).val
  let c16_i32 : BitVec 32 := 16#32
  let v0 : BitVec 32 := Scalar.muli arg0 c16_i32
  let c1_i32 : BitVec 32 := 1#32
  let v10 : BitVec 32 := Scalar.addi v0 c1_i32
  let v11 : Index := Scalar.indexCast v10
  ![v11.toNat]
def k9_off4 (v12 : BitVec 32) : Fin 3 → Nat :=
  let c0_i32_10 : BitVec 32 := 0#32
  let c0_i32_11 : BitVec 32 := 0#32
  ![v12.toNat, 0, 0]

def k9_off5 (i : grid9.Coords) : Fin 1 → Nat :=
  let arg0 : BitVec 32 := BitVec.ofNat 32 (i 0).val
  let c16_i32 : BitVec 32 := 16#32
  let v0 : BitVec 32 := Scalar.muli arg0 c16_i32
  let c2_i32 : BitVec 32 := 2#32
  let v19 : BitVec 32 := Scalar.addi v0 c2_i32
  let v20 : Index := Scalar.indexCast v19
  ![v20.toNat]
def k9_off6 (v21 : BitVec 32) : Fin 3 → Nat :=
  let c0_i32_16 : BitVec 32 := 0#32
  let c0_i32_17 : BitVec 32 := 0#32
  ![v21.toNat, 0, 0]

def k9_off7 (i : grid9.Coords) : Fin 1 → Nat :=
  let arg0 : BitVec 32 := BitVec.ofNat 32 (i 0).val
  let c16_i32 : BitVec 32 := 16#32
  let v0 : BitVec 32 := Scalar.muli arg0 c16_i32
  let c3_i32 : BitVec 32 := 3#32
  let v28 : BitVec 32 := Scalar.addi v0 c3_i32
  let v29 : Index := Scalar.indexCast v28
  ![v29.toNat]
def k9_off8 (v30 : BitVec 32) : Fin 3 → Nat :=
  let c0_i32_22 : BitVec 32 := 0#32
  let c0_i32_23 : BitVec 32 := 0#32
  ![v30.toNat, 0, 0]

def k9_off9 (i : grid9.Coords) : Fin 1 → Nat :=
  let arg0 : BitVec 32 := BitVec.ofNat 32 (i 0).val
  let c16_i32 : BitVec 32 := 16#32
  let v0 : BitVec 32 := Scalar.muli arg0 c16_i32
  let c4_i32 : BitVec 32 := 4#32
  let v37 : BitVec 32 := Scalar.addi v0 c4_i32
  let v38 : Index := Scalar.indexCast v37
  ![v38.toNat]
def k9_off10 (v39 : BitVec 32) : Fin 3 → Nat :=
  let c0_i32_28 : BitVec 32 := 0#32
  let c0_i32_29 : BitVec 32 := 0#32
  ![v39.toNat, 0, 0]

def k9_off11 (i : grid9.Coords) : Fin 1 → Nat :=
  let arg0 : BitVec 32 := BitVec.ofNat 32 (i 0).val
  let c16_i32 : BitVec 32 := 16#32
  let v0 : BitVec 32 := Scalar.muli arg0 c16_i32
  let c5_i32 : BitVec 32 := 5#32
  let v46 : BitVec 32 := Scalar.addi v0 c5_i32
  let v47 : Index := Scalar.indexCast v46
  ![v47.toNat]
def k9_off12 (v48 : BitVec 32) : Fin 3 → Nat :=
  let c0_i32_34 : BitVec 32 := 0#32
  let c0_i32_35 : BitVec 32 := 0#32
  ![v48.toNat, 0, 0]

def k9_off13 (i : grid9.Coords) : Fin 1 → Nat :=
  let arg0 : BitVec 32 := BitVec.ofNat 32 (i 0).val
  let c16_i32 : BitVec 32 := 16#32
  let v0 : BitVec 32 := Scalar.muli arg0 c16_i32
  let c6_i32 : BitVec 32 := 6#32
  let v55 : BitVec 32 := Scalar.addi v0 c6_i32
  let v56 : Index := Scalar.indexCast v55
  ![v56.toNat]
def k9_off14 (v57 : BitVec 32) : Fin 3 → Nat :=
  let c0_i32_40 : BitVec 32 := 0#32
  let c0_i32_41 : BitVec 32 := 0#32
  ![v57.toNat, 0, 0]

def k9_off15 (i : grid9.Coords) : Fin 1 → Nat :=
  let arg0 : BitVec 32 := BitVec.ofNat 32 (i 0).val
  let c16_i32 : BitVec 32 := 16#32
  let v0 : BitVec 32 := Scalar.muli arg0 c16_i32
  let c7_i32 : BitVec 32 := 7#32
  let v64 : BitVec 32 := Scalar.addi v0 c7_i32
  let v65 : Index := Scalar.indexCast v64
  ![v65.toNat]
def k9_off16 (v66 : BitVec 32) : Fin 3 → Nat :=
  let c0_i32_46 : BitVec 32 := 0#32
  let c0_i32_47 : BitVec 32 := 0#32
  ![v66.toNat, 0, 0]

def k9_off17 (i : grid9.Coords) : Fin 1 → Nat :=
  let arg0 : BitVec 32 := BitVec.ofNat 32 (i 0).val
  let c16_i32 : BitVec 32 := 16#32
  let v0 : BitVec 32 := Scalar.muli arg0 c16_i32
  let c8_i32 : BitVec 32 := 8#32
  let v73 : BitVec 32 := Scalar.addi v0 c8_i32
  let v74 : Index := Scalar.indexCast v73
  ![v74.toNat]
def k9_off18 (v75 : BitVec 32) : Fin 3 → Nat :=
  let c0_i32_52 : BitVec 32 := 0#32
  let c0_i32_53 : BitVec 32 := 0#32
  ![v75.toNat, 0, 0]

def k9_off19 (i : grid9.Coords) : Fin 1 → Nat :=
  let arg0 : BitVec 32 := BitVec.ofNat 32 (i 0).val
  let c16_i32 : BitVec 32 := 16#32
  let v0 : BitVec 32 := Scalar.muli arg0 c16_i32
  let c9_i32 : BitVec 32 := 9#32
  let v82 : BitVec 32 := Scalar.addi v0 c9_i32
  let v83 : Index := Scalar.indexCast v82
  ![v83.toNat]
def k9_off20 (v84 : BitVec 32) : Fin 3 → Nat :=
  let c0_i32_58 : BitVec 32 := 0#32
  let c0_i32_59 : BitVec 32 := 0#32
  ![v84.toNat, 0, 0]

def k9_off21 (i : grid9.Coords) : Fin 1 → Nat :=
  let arg0 : BitVec 32 := BitVec.ofNat 32 (i 0).val
  let c16_i32 : BitVec 32 := 16#32
  let v0 : BitVec 32 := Scalar.muli arg0 c16_i32
  let c10_i32 : BitVec 32 := 10#32
  let v91 : BitVec 32 := Scalar.addi v0 c10_i32
  let v92 : Index := Scalar.indexCast v91
  ![v92.toNat]
def k9_off22 (v93 : BitVec 32) : Fin 3 → Nat :=
  let c0_i32_64 : BitVec 32 := 0#32
  let c0_i32_65 : BitVec 32 := 0#32
  ![v93.toNat, 0, 0]

def k9_off23 (i : grid9.Coords) : Fin 1 → Nat :=
  let arg0 : BitVec 32 := BitVec.ofNat 32 (i 0).val
  let c16_i32 : BitVec 32 := 16#32
  let v0 : BitVec 32 := Scalar.muli arg0 c16_i32
  let c11_i32 : BitVec 32 := 11#32
  let v100 : BitVec 32 := Scalar.addi v0 c11_i32
  let v101 : Index := Scalar.indexCast v100
  ![v101.toNat]
def k9_off24 (v102 : BitVec 32) : Fin 3 → Nat :=
  let c0_i32_70 : BitVec 32 := 0#32
  let c0_i32_71 : BitVec 32 := 0#32
  ![v102.toNat, 0, 0]

def k9_off25 (i : grid9.Coords) : Fin 1 → Nat :=
  let arg0 : BitVec 32 := BitVec.ofNat 32 (i 0).val
  let c16_i32 : BitVec 32 := 16#32
  let v0 : BitVec 32 := Scalar.muli arg0 c16_i32
  let c12_i32 : BitVec 32 := 12#32
  let v109 : BitVec 32 := Scalar.addi v0 c12_i32
  let v110 : Index := Scalar.indexCast v109
  ![v110.toNat]
def k9_off26 (v111 : BitVec 32) : Fin 3 → Nat :=
  let c0_i32_76 : BitVec 32 := 0#32
  let c0_i32_77 : BitVec 32 := 0#32
  ![v111.toNat, 0, 0]

def k9_off27 (i : grid9.Coords) : Fin 1 → Nat :=
  let arg0 : BitVec 32 := BitVec.ofNat 32 (i 0).val
  let c16_i32 : BitVec 32 := 16#32
  let v0 : BitVec 32 := Scalar.muli arg0 c16_i32
  let c13_i32 : BitVec 32 := 13#32
  let v118 : BitVec 32 := Scalar.addi v0 c13_i32
  let v119 : Index := Scalar.indexCast v118
  ![v119.toNat]
def k9_off28 (v120 : BitVec 32) : Fin 3 → Nat :=
  let c0_i32_82 : BitVec 32 := 0#32
  let c0_i32_83 : BitVec 32 := 0#32
  ![v120.toNat, 0, 0]

def k9_off29 (i : grid9.Coords) : Fin 1 → Nat :=
  let arg0 : BitVec 32 := BitVec.ofNat 32 (i 0).val
  let c16_i32 : BitVec 32 := 16#32
  let v0 : BitVec 32 := Scalar.muli arg0 c16_i32
  let c14_i32 : BitVec 32 := 14#32
  let v127 : BitVec 32 := Scalar.addi v0 c14_i32
  let v128 : Index := Scalar.indexCast v127
  ![v128.toNat]
def k9_off30 (v129 : BitVec 32) : Fin 3 → Nat :=
  let c0_i32_88 : BitVec 32 := 0#32
  let c0_i32_89 : BitVec 32 := 0#32
  ![v129.toNat, 0, 0]

def k9_off31 (i : grid9.Coords) : Fin 1 → Nat :=
  let arg0 : BitVec 32 := BitVec.ofNat 32 (i 0).val
  let c16_i32 : BitVec 32 := 16#32
  let v0 : BitVec 32 := Scalar.muli arg0 c16_i32
  let c15_i32 : BitVec 32 := 15#32
  let v136 : BitVec 32 := Scalar.addi v0 c15_i32
  let v137 : Index := Scalar.indexCast v136
  ![v137.toNat]
def k9_off32 (v138 : BitVec 32) : Fin 3 → Nat :=
  let c0_i32_94 : BitVec 32 := 0#32
  let c0_i32_95 : BitVec 32 := 0#32
  ![v138.toNat, 0, 0]

def k9_chk16 (v138 : BitVec 32) : Prop :=
  (∀ a, (k9_off32 v138) a + S1x1x128.size a ≤ S50000x1x128.size a)
instance k9_chk16.dec : ∀ (v138 : BitVec 32), Decidable (k9_chk16 v138) := fun v138 => decidable_of_iff' _ (Iff.of_eq (k9_chk16.eq_1 v138))
theorem k9_off32_inb : ∀ (v138 : BitVec 32) (k9_hw16 : k9_chk16 v138), ∀ a, (k9_off32 v138) a + S1x1x128.size a ≤ S50000x1x128.size a := fun v138 k9_hw16 => k9_hw16

def k9_off33 (v3 : BitVec 32) : Fin 3 → Nat :=
  let c0_i32_100 : BitVec 32 := 0#32
  let c0_i32_101 : BitVec 32 := 0#32
  ![v3.toNat, 0, 0]

def k9_chk1 (v3 : BitVec 32) : Prop :=
  (∀ a, (k9_off2 v3) a + S1x1x128.size a ≤ S50000x1x128.size a) ∧
  (∀ a, (k9_off33 v3) a + S1x1x128.size a ≤ S50000x1x128.size a)
instance k9_chk1.dec : ∀ (v3 : BitVec 32), Decidable (k9_chk1 v3) := fun v3 => decidable_of_iff' _ (Iff.of_eq (k9_chk1.eq_1 v3))
theorem k9_off2_inb : ∀ (v3 : BitVec 32) (k9_hw1 : k9_chk1 v3), ∀ a, (k9_off2 v3) a + S1x1x128.size a ≤ S50000x1x128.size a := fun v3 k9_hw1 => k9_hw1.1
theorem k9_off33_inb : ∀ (v3 : BitVec 32) (k9_hw1 : k9_chk1 v3), ∀ a, (k9_off33 v3) a + S1x1x128.size a ≤ S50000x1x128.size a := fun v3 k9_hw1 => k9_hw1.2

def k9_off34 (v12 : BitVec 32) : Fin 3 → Nat :=
  let c0_i32_106 : BitVec 32 := 0#32
  let c0_i32_107 : BitVec 32 := 0#32
  ![v12.toNat, 0, 0]

def k9_chk2 (v12 : BitVec 32) : Prop :=
  (∀ a, (k9_off4 v12) a + S1x1x128.size a ≤ S50000x1x128.size a) ∧
  (∀ a, (k9_off34 v12) a + S1x1x128.size a ≤ S50000x1x128.size a)
instance k9_chk2.dec : ∀ (v12 : BitVec 32), Decidable (k9_chk2 v12) := fun v12 => decidable_of_iff' _ (Iff.of_eq (k9_chk2.eq_1 v12))
theorem k9_off4_inb : ∀ (v12 : BitVec 32) (k9_hw2 : k9_chk2 v12), ∀ a, (k9_off4 v12) a + S1x1x128.size a ≤ S50000x1x128.size a := fun v12 k9_hw2 => k9_hw2.1
theorem k9_off34_inb : ∀ (v12 : BitVec 32) (k9_hw2 : k9_chk2 v12), ∀ a, (k9_off34 v12) a + S1x1x128.size a ≤ S50000x1x128.size a := fun v12 k9_hw2 => k9_hw2.2

def k9_off35 (v21 : BitVec 32) : Fin 3 → Nat :=
  let c0_i32_112 : BitVec 32 := 0#32
  let c0_i32_113 : BitVec 32 := 0#32
  ![v21.toNat, 0, 0]

def k9_chk3 (v21 : BitVec 32) : Prop :=
  (∀ a, (k9_off6 v21) a + S1x1x128.size a ≤ S50000x1x128.size a) ∧
  (∀ a, (k9_off35 v21) a + S1x1x128.size a ≤ S50000x1x128.size a)
instance k9_chk3.dec : ∀ (v21 : BitVec 32), Decidable (k9_chk3 v21) := fun v21 => decidable_of_iff' _ (Iff.of_eq (k9_chk3.eq_1 v21))
theorem k9_off6_inb : ∀ (v21 : BitVec 32) (k9_hw3 : k9_chk3 v21), ∀ a, (k9_off6 v21) a + S1x1x128.size a ≤ S50000x1x128.size a := fun v21 k9_hw3 => k9_hw3.1
theorem k9_off35_inb : ∀ (v21 : BitVec 32) (k9_hw3 : k9_chk3 v21), ∀ a, (k9_off35 v21) a + S1x1x128.size a ≤ S50000x1x128.size a := fun v21 k9_hw3 => k9_hw3.2

def k9_off36 (v30 : BitVec 32) : Fin 3 → Nat :=
  let c0_i32_118 : BitVec 32 := 0#32
  let c0_i32_119 : BitVec 32 := 0#32
  ![v30.toNat, 0, 0]

def k9_chk4 (v30 : BitVec 32) : Prop :=
  (∀ a, (k9_off8 v30) a + S1x1x128.size a ≤ S50000x1x128.size a) ∧
  (∀ a, (k9_off36 v30) a + S1x1x128.size a ≤ S50000x1x128.size a)
instance k9_chk4.dec : ∀ (v30 : BitVec 32), Decidable (k9_chk4 v30) := fun v30 => decidable_of_iff' _ (Iff.of_eq (k9_chk4.eq_1 v30))
theorem k9_off8_inb : ∀ (v30 : BitVec 32) (k9_hw4 : k9_chk4 v30), ∀ a, (k9_off8 v30) a + S1x1x128.size a ≤ S50000x1x128.size a := fun v30 k9_hw4 => k9_hw4.1
theorem k9_off36_inb : ∀ (v30 : BitVec 32) (k9_hw4 : k9_chk4 v30), ∀ a, (k9_off36 v30) a + S1x1x128.size a ≤ S50000x1x128.size a := fun v30 k9_hw4 => k9_hw4.2

def k9_off37 (v39 : BitVec 32) : Fin 3 → Nat :=
  let c0_i32_124 : BitVec 32 := 0#32
  let c0_i32_125 : BitVec 32 := 0#32
  ![v39.toNat, 0, 0]

def k9_chk5 (v39 : BitVec 32) : Prop :=
  (∀ a, (k9_off10 v39) a + S1x1x128.size a ≤ S50000x1x128.size a) ∧
  (∀ a, (k9_off37 v39) a + S1x1x128.size a ≤ S50000x1x128.size a)
instance k9_chk5.dec : ∀ (v39 : BitVec 32), Decidable (k9_chk5 v39) := fun v39 => decidable_of_iff' _ (Iff.of_eq (k9_chk5.eq_1 v39))
theorem k9_off10_inb : ∀ (v39 : BitVec 32) (k9_hw5 : k9_chk5 v39), ∀ a, (k9_off10 v39) a + S1x1x128.size a ≤ S50000x1x128.size a := fun v39 k9_hw5 => k9_hw5.1
theorem k9_off37_inb : ∀ (v39 : BitVec 32) (k9_hw5 : k9_chk5 v39), ∀ a, (k9_off37 v39) a + S1x1x128.size a ≤ S50000x1x128.size a := fun v39 k9_hw5 => k9_hw5.2

def k9_off38 (v48 : BitVec 32) : Fin 3 → Nat :=
  let c0_i32_130 : BitVec 32 := 0#32
  let c0_i32_131 : BitVec 32 := 0#32
  ![v48.toNat, 0, 0]

def k9_chk6 (v48 : BitVec 32) : Prop :=
  (∀ a, (k9_off12 v48) a + S1x1x128.size a ≤ S50000x1x128.size a) ∧
  (∀ a, (k9_off38 v48) a + S1x1x128.size a ≤ S50000x1x128.size a)
instance k9_chk6.dec : ∀ (v48 : BitVec 32), Decidable (k9_chk6 v48) := fun v48 => decidable_of_iff' _ (Iff.of_eq (k9_chk6.eq_1 v48))
theorem k9_off12_inb : ∀ (v48 : BitVec 32) (k9_hw6 : k9_chk6 v48), ∀ a, (k9_off12 v48) a + S1x1x128.size a ≤ S50000x1x128.size a := fun v48 k9_hw6 => k9_hw6.1
theorem k9_off38_inb : ∀ (v48 : BitVec 32) (k9_hw6 : k9_chk6 v48), ∀ a, (k9_off38 v48) a + S1x1x128.size a ≤ S50000x1x128.size a := fun v48 k9_hw6 => k9_hw6.2

def k9_off39 (v57 : BitVec 32) : Fin 3 → Nat :=
  let c0_i32_136 : BitVec 32 := 0#32
  let c0_i32_137 : BitVec 32 := 0#32
  ![v57.toNat, 0, 0]

def k9_chk7 (v57 : BitVec 32) : Prop :=
  (∀ a, (k9_off14 v57) a + S1x1x128.size a ≤ S50000x1x128.size a) ∧
  (∀ a, (k9_off39 v57) a + S1x1x128.size a ≤ S50000x1x128.size a)
instance k9_chk7.dec : ∀ (v57 : BitVec 32), Decidable (k9_chk7 v57) := fun v57 => decidable_of_iff' _ (Iff.of_eq (k9_chk7.eq_1 v57))
theorem k9_off14_inb : ∀ (v57 : BitVec 32) (k9_hw7 : k9_chk7 v57), ∀ a, (k9_off14 v57) a + S1x1x128.size a ≤ S50000x1x128.size a := fun v57 k9_hw7 => k9_hw7.1
theorem k9_off39_inb : ∀ (v57 : BitVec 32) (k9_hw7 : k9_chk7 v57), ∀ a, (k9_off39 v57) a + S1x1x128.size a ≤ S50000x1x128.size a := fun v57 k9_hw7 => k9_hw7.2

def k9_off40 (v66 : BitVec 32) : Fin 3 → Nat :=
  let c0_i32_142 : BitVec 32 := 0#32
  let c0_i32_143 : BitVec 32 := 0#32
  ![v66.toNat, 0, 0]

def k9_chk8 (v66 : BitVec 32) : Prop :=
  (∀ a, (k9_off16 v66) a + S1x1x128.size a ≤ S50000x1x128.size a) ∧
  (∀ a, (k9_off40 v66) a + S1x1x128.size a ≤ S50000x1x128.size a)
instance k9_chk8.dec : ∀ (v66 : BitVec 32), Decidable (k9_chk8 v66) := fun v66 => decidable_of_iff' _ (Iff.of_eq (k9_chk8.eq_1 v66))
theorem k9_off16_inb : ∀ (v66 : BitVec 32) (k9_hw8 : k9_chk8 v66), ∀ a, (k9_off16 v66) a + S1x1x128.size a ≤ S50000x1x128.size a := fun v66 k9_hw8 => k9_hw8.1
theorem k9_off40_inb : ∀ (v66 : BitVec 32) (k9_hw8 : k9_chk8 v66), ∀ a, (k9_off40 v66) a + S1x1x128.size a ≤ S50000x1x128.size a := fun v66 k9_hw8 => k9_hw8.2

def k9_off41 (v75 : BitVec 32) : Fin 3 → Nat :=
  let c0_i32_148 : BitVec 32 := 0#32
  let c0_i32_149 : BitVec 32 := 0#32
  ![v75.toNat, 0, 0]

def k9_chk9 (v75 : BitVec 32) : Prop :=
  (∀ a, (k9_off18 v75) a + S1x1x128.size a ≤ S50000x1x128.size a) ∧
  (∀ a, (k9_off41 v75) a + S1x1x128.size a ≤ S50000x1x128.size a)
instance k9_chk9.dec : ∀ (v75 : BitVec 32), Decidable (k9_chk9 v75) := fun v75 => decidable_of_iff' _ (Iff.of_eq (k9_chk9.eq_1 v75))
theorem k9_off18_inb : ∀ (v75 : BitVec 32) (k9_hw9 : k9_chk9 v75), ∀ a, (k9_off18 v75) a + S1x1x128.size a ≤ S50000x1x128.size a := fun v75 k9_hw9 => k9_hw9.1
theorem k9_off41_inb : ∀ (v75 : BitVec 32) (k9_hw9 : k9_chk9 v75), ∀ a, (k9_off41 v75) a + S1x1x128.size a ≤ S50000x1x128.size a := fun v75 k9_hw9 => k9_hw9.2

def k9_off42 (v84 : BitVec 32) : Fin 3 → Nat :=
  let c0_i32_154 : BitVec 32 := 0#32
  let c0_i32_155 : BitVec 32 := 0#32
  ![v84.toNat, 0, 0]

def k9_chk10 (v84 : BitVec 32) : Prop :=
  (∀ a, (k9_off20 v84) a + S1x1x128.size a ≤ S50000x1x128.size a) ∧
  (∀ a, (k9_off42 v84) a + S1x1x128.size a ≤ S50000x1x128.size a)
instance k9_chk10.dec : ∀ (v84 : BitVec 32), Decidable (k9_chk10 v84) := fun v84 => decidable_of_iff' _ (Iff.of_eq (k9_chk10.eq_1 v84))
theorem k9_off20_inb : ∀ (v84 : BitVec 32) (k9_hw10 : k9_chk10 v84), ∀ a, (k9_off20 v84) a + S1x1x128.size a ≤ S50000x1x128.size a := fun v84 k9_hw10 => k9_hw10.1
theorem k9_off42_inb : ∀ (v84 : BitVec 32) (k9_hw10 : k9_chk10 v84), ∀ a, (k9_off42 v84) a + S1x1x128.size a ≤ S50000x1x128.size a := fun v84 k9_hw10 => k9_hw10.2

def k9_off43 (v93 : BitVec 32) : Fin 3 → Nat :=
  let c0_i32_160 : BitVec 32 := 0#32
  let c0_i32_161 : BitVec 32 := 0#32
  ![v93.toNat, 0, 0]

def k9_chk11 (v93 : BitVec 32) : Prop :=
  (∀ a, (k9_off22 v93) a + S1x1x128.size a ≤ S50000x1x128.size a) ∧
  (∀ a, (k9_off43 v93) a + S1x1x128.size a ≤ S50000x1x128.size a)
instance k9_chk11.dec : ∀ (v93 : BitVec 32), Decidable (k9_chk11 v93) := fun v93 => decidable_of_iff' _ (Iff.of_eq (k9_chk11.eq_1 v93))
theorem k9_off22_inb : ∀ (v93 : BitVec 32) (k9_hw11 : k9_chk11 v93), ∀ a, (k9_off22 v93) a + S1x1x128.size a ≤ S50000x1x128.size a := fun v93 k9_hw11 => k9_hw11.1
theorem k9_off43_inb : ∀ (v93 : BitVec 32) (k9_hw11 : k9_chk11 v93), ∀ a, (k9_off43 v93) a + S1x1x128.size a ≤ S50000x1x128.size a := fun v93 k9_hw11 => k9_hw11.2

def k9_off44 (v102 : BitVec 32) : Fin 3 → Nat :=
  let c0_i32_166 : BitVec 32 := 0#32
  let c0_i32_167 : BitVec 32 := 0#32
  ![v102.toNat, 0, 0]

def k9_chk12 (v102 : BitVec 32) : Prop :=
  (∀ a, (k9_off24 v102) a + S1x1x128.size a ≤ S50000x1x128.size a) ∧
  (∀ a, (k9_off44 v102) a + S1x1x128.size a ≤ S50000x1x128.size a)
instance k9_chk12.dec : ∀ (v102 : BitVec 32), Decidable (k9_chk12 v102) := fun v102 => decidable_of_iff' _ (Iff.of_eq (k9_chk12.eq_1 v102))
theorem k9_off24_inb : ∀ (v102 : BitVec 32) (k9_hw12 : k9_chk12 v102), ∀ a, (k9_off24 v102) a + S1x1x128.size a ≤ S50000x1x128.size a := fun v102 k9_hw12 => k9_hw12.1
theorem k9_off44_inb : ∀ (v102 : BitVec 32) (k9_hw12 : k9_chk12 v102), ∀ a, (k9_off44 v102) a + S1x1x128.size a ≤ S50000x1x128.size a := fun v102 k9_hw12 => k9_hw12.2

def k9_off45 (v111 : BitVec 32) : Fin 3 → Nat :=
  let c0_i32_172 : BitVec 32 := 0#32
  let c0_i32_173 : BitVec 32 := 0#32
  ![v111.toNat, 0, 0]

def k9_chk13 (v111 : BitVec 32) : Prop :=
  (∀ a, (k9_off26 v111) a + S1x1x128.size a ≤ S50000x1x128.size a) ∧
  (∀ a, (k9_off45 v111) a + S1x1x128.size a ≤ S50000x1x128.size a)
instance k9_chk13.dec : ∀ (v111 : BitVec 32), Decidable (k9_chk13 v111) := fun v111 => decidable_of_iff' _ (Iff.of_eq (k9_chk13.eq_1 v111))
theorem k9_off26_inb : ∀ (v111 : BitVec 32) (k9_hw13 : k9_chk13 v111), ∀ a, (k9_off26 v111) a + S1x1x128.size a ≤ S50000x1x128.size a := fun v111 k9_hw13 => k9_hw13.1
theorem k9_off45_inb : ∀ (v111 : BitVec 32) (k9_hw13 : k9_chk13 v111), ∀ a, (k9_off45 v111) a + S1x1x128.size a ≤ S50000x1x128.size a := fun v111 k9_hw13 => k9_hw13.2

def k9_off46 (v120 : BitVec 32) : Fin 3 → Nat :=
  let c0_i32_178 : BitVec 32 := 0#32
  let c0_i32_179 : BitVec 32 := 0#32
  ![v120.toNat, 0, 0]

def k9_chk14 (v120 : BitVec 32) : Prop :=
  (∀ a, (k9_off28 v120) a + S1x1x128.size a ≤ S50000x1x128.size a) ∧
  (∀ a, (k9_off46 v120) a + S1x1x128.size a ≤ S50000x1x128.size a)
instance k9_chk14.dec : ∀ (v120 : BitVec 32), Decidable (k9_chk14 v120) := fun v120 => decidable_of_iff' _ (Iff.of_eq (k9_chk14.eq_1 v120))
theorem k9_off28_inb : ∀ (v120 : BitVec 32) (k9_hw14 : k9_chk14 v120), ∀ a, (k9_off28 v120) a + S1x1x128.size a ≤ S50000x1x128.size a := fun v120 k9_hw14 => k9_hw14.1
theorem k9_off46_inb : ∀ (v120 : BitVec 32) (k9_hw14 : k9_chk14 v120), ∀ a, (k9_off46 v120) a + S1x1x128.size a ≤ S50000x1x128.size a := fun v120 k9_hw14 => k9_hw14.2

def k9_off47 (v129 : BitVec 32) : Fin 3 → Nat :=
  let c0_i32_184 : BitVec 32 := 0#32
  let c0_i32_185 : BitVec 32 := 0#32
  ![v129.toNat, 0, 0]

def k9_chk15 (v129 : BitVec 32) : Prop :=
  (∀ a, (k9_off30 v129) a + S1x1x128.size a ≤ S50000x1x128.size a) ∧
  (∀ a, (k9_off47 v129) a + S1x1x128.size a ≤ S50000x1x128.size a)
instance k9_chk15.dec : ∀ (v129 : BitVec 32), Decidable (k9_chk15 v129) := fun v129 => decidable_of_iff' _ (Iff.of_eq (k9_chk15.eq_1 v129))
theorem k9_off30_inb : ∀ (v129 : BitVec 32) (k9_hw15 : k9_chk15 v129), ∀ a, (k9_off30 v129) a + S1x1x128.size a ≤ S50000x1x128.size a := fun v129 k9_hw15 => k9_hw15.1
theorem k9_off47_inb : ∀ (v129 : BitVec 32) (k9_hw15 : k9_chk15 v129), ∀ a, (k9_off47 v129) a + S1x1x128.size a ≤ S50000x1x128.size a := fun v129 k9_hw15 => k9_hw15.2

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S16x1x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S2000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  shapeCasts_S50000x128_S50000x1x128 : S50000x128.ShapeCasts S50000x1x128
  slices_S640000_S64000_0 : S640000.Slices ![0] S64000
  numel1_S1 : S1.numel = 1
  inb_S16_S1_0 : ∀ a, (![0] : Fin 1 → Nat) a + S1.size a ≤ S16.size a
  squeezes_S1_S_ : S1.Squeezes S_
  inb_S16x1x128_S1x1x128_0_0_0 : ∀ a, (![0, 0, 0] : Fin 3 → Nat) a + S1x1x128.size a ≤ S16x1x128.size a
  squeezes_S1x1x128_S1x128 : S1x1x128.Squeezes S1x128
  inb_S16_S1_1 : ∀ a, (![1] : Fin 1 → Nat) a + S1.size a ≤ S16.size a
  inb_S16x1x128_S1x1x128_1_0_0 : ∀ a, (![1, 0, 0] : Fin 3 → Nat) a + S1x1x128.size a ≤ S16x1x128.size a
  inb_S16_S1_2 : ∀ a, (![2] : Fin 1 → Nat) a + S1.size a ≤ S16.size a
  inb_S16x1x128_S1x1x128_2_0_0 : ∀ a, (![2, 0, 0] : Fin 3 → Nat) a + S1x1x128.size a ≤ S16x1x128.size a
  inb_S16_S1_3 : ∀ a, (![3] : Fin 1 → Nat) a + S1.size a ≤ S16.size a
  inb_S16x1x128_S1x1x128_3_0_0 : ∀ a, (![3, 0, 0] : Fin 3 → Nat) a + S1x1x128.size a ≤ S16x1x128.size a
  inb_S16_S1_4 : ∀ a, (![4] : Fin 1 → Nat) a + S1.size a ≤ S16.size a
  inb_S16x1x128_S1x1x128_4_0_0 : ∀ a, (![4, 0, 0] : Fin 3 → Nat) a + S1x1x128.size a ≤ S16x1x128.size a
  inb_S16_S1_5 : ∀ a, (![5] : Fin 1 → Nat) a + S1.size a ≤ S16.size a
  inb_S16x1x128_S1x1x128_5_0_0 : ∀ a, (![5, 0, 0] : Fin 3 → Nat) a + S1x1x128.size a ≤ S16x1x128.size a
  inb_S16_S1_6 : ∀ a, (![6] : Fin 1 → Nat) a + S1.size a ≤ S16.size a
  inb_S16x1x128_S1x1x128_6_0_0 : ∀ a, (![6, 0, 0] : Fin 3 → Nat) a + S1x1x128.size a ≤ S16x1x128.size a
  inb_S16_S1_7 : ∀ a, (![7] : Fin 1 → Nat) a + S1.size a ≤ S16.size a
  inb_S16x1x128_S1x1x128_7_0_0 : ∀ a, (![7, 0, 0] : Fin 3 → Nat) a + S1x1x128.size a ≤ S16x1x128.size a
  inb_S16_S1_8 : ∀ a, (![8] : Fin 1 → Nat) a + S1.size a ≤ S16.size a
  inb_S16x1x128_S1x1x128_8_0_0 : ∀ a, (![8, 0, 0] : Fin 3 → Nat) a + S1x1x128.size a ≤ S16x1x128.size a
  inb_S16_S1_9 : ∀ a, (![9] : Fin 1 → Nat) a + S1.size a ≤ S16.size a
  inb_S16x1x128_S1x1x128_9_0_0 : ∀ a, (![9, 0, 0] : Fin 3 → Nat) a + S1x1x128.size a ≤ S16x1x128.size a
  inb_S16_S1_10 : ∀ a, (![10] : Fin 1 → Nat) a + S1.size a ≤ S16.size a
  inb_S16x1x128_S1x1x128_10_0_0 : ∀ a, (![10, 0, 0] : Fin 3 → Nat) a + S1x1x128.size a ≤ S16x1x128.size a
  inb_S16_S1_11 : ∀ a, (![11] : Fin 1 → Nat) a + S1.size a ≤ S16.size a
  inb_S16x1x128_S1x1x128_11_0_0 : ∀ a, (![11, 0, 0] : Fin 3 → Nat) a + S1x1x128.size a ≤ S16x1x128.size a
  inb_S16_S1_12 : ∀ a, (![12] : Fin 1 → Nat) a + S1.size a ≤ S16.size a
  inb_S16x1x128_S1x1x128_12_0_0 : ∀ a, (![12, 0, 0] : Fin 3 → Nat) a + S1x1x128.size a ≤ S16x1x128.size a
  inb_S16_S1_13 : ∀ a, (![13] : Fin 1 → Nat) a + S1.size a ≤ S16.size a
  inb_S16x1x128_S1x1x128_13_0_0 : ∀ a, (![13, 0, 0] : Fin 3 → Nat) a + S1x1x128.size a ≤ S16x1x128.size a
  inb_S16_S1_14 : ∀ a, (![14] : Fin 1 → Nat) a + S1.size a ≤ S16.size a
  inb_S16x1x128_S1x1x128_14_0_0 : ∀ a, (![14, 0, 0] : Fin 3 → Nat) a + S1x1x128.size a ≤ S16x1x128.size a
  inb_S16_S1_15 : ∀ a, (![15] : Fin 1 → Nat) a + S1.size a ≤ S16.size a
  inb_S16x1x128_S1x1x128_15_0_0 : ∀ a, (![15, 0, 0] : Fin 3 → Nat) a + S1x1x128.size a ≤ S16x1x128.size a
  inb_S16x1x128_S16x1x128_0_0_0 : ∀ a, (![0, 0, 0] : Fin 3 → Nat) a + S16x1x128.size a ≤ S16x1x128.size a
  h_S16x1x128 : 0 < S16x1x128.numel
  slices_S640000_S64000_64000 : S640000.Slices ![64000] S64000
  slices_S640000_S64000_128000 : S640000.Slices ![128000] S64000
  slices_S640000_S64000_192000 : S640000.Slices ![192000] S64000
  slices_S640000_S64000_256000 : S640000.Slices ![256000] S64000
  slices_S640000_S64000_320000 : S640000.Slices ![320000] S64000
  slices_S640000_S64000_384000 : S640000.Slices ![384000] S64000
  slices_S640000_S64000_448000 : S640000.Slices ![448000] S64000
  slices_S640000_S64000_512000 : S640000.Slices ![512000] S64000
  slices_S640000_S64000_576000 : S640000.Slices ![576000] S64000
  concatenates_S64000x1x128_S64000x1x128_S64000x1x128_S64000x1x128_S64000x1x128_S64000x1x128_S64000x1x128_S64000x1x128_S64000x1x128_S64000x1x128_S640000x1x128_d0 : Shape.Concatenates [S64000x1x128, S64000x1x128, S64000x1x128, S64000x1x128, S64000x1x128, S64000x1x128, S64000x1x128, S64000x1x128, S64000x1x128, S64000x1x128] S640000x1x128 0
  shapeCasts_S640000x1x128_S640000x128 : S640000x1x128.ShapeCasts S640000x128
  bcast_S_S50000x128 : S_.BroadcastsInDim S50000x128 (![] : Fin 0 → Fin S50000x128.rank)
  bcast_S640000_S640000x1_0 : S640000.BroadcastsInDim S640000x1 (![0] : Fin 1 → Fin S640000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S2000x128 : S1x128.Broadcasts S2000x128
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  hcc0_scratch1 : 2 + S16.numel ≤ 186
  hcc1_scratch1 : 20 + S16.numel ≤ 186
  hcc2_scratch1 : 38 + S16.numel ≤ 186
  hcc3_scratch1 : 56 + S16.numel ≤ 186
  hcc4_scratch1 : 74 + S16.numel ≤ 186
  hcc5_scratch1 : 92 + S16.numel ≤ 186
  hcc6_scratch1 : 110 + S16.numel ≤ 186
  hcc7_scratch1 : 128 + S16.numel ≤ 186
  hcc8_scratch1 : 146 + S16.numel ≤ 186
  hcc9_scratch1 : 164 + S16.numel ≤ 186
  hrank0 : 0 < grid0.rank
  k0_off1_inb : ∀ i : grid0.Coords, ∀ a, (k0_off1 i) a + S1.size a ≤ S64000.size a
  k0_off3_inb : ∀ i : grid0.Coords, ∀ a, (k0_off3 i) a + S1.size a ≤ S64000.size a
  k0_off5_inb : ∀ i : grid0.Coords, ∀ a, (k0_off5 i) a + S1.size a ≤ S64000.size a
  k0_off7_inb : ∀ i : grid0.Coords, ∀ a, (k0_off7 i) a + S1.size a ≤ S64000.size a
  k0_off9_inb : ∀ i : grid0.Coords, ∀ a, (k0_off9 i) a + S1.size a ≤ S64000.size a
  k0_off11_inb : ∀ i : grid0.Coords, ∀ a, (k0_off11 i) a + S1.size a ≤ S64000.size a
  k0_off13_inb : ∀ i : grid0.Coords, ∀ a, (k0_off13 i) a + S1.size a ≤ S64000.size a
  k0_off15_inb : ∀ i : grid0.Coords, ∀ a, (k0_off15 i) a + S1.size a ≤ S64000.size a
  k0_off17_inb : ∀ i : grid0.Coords, ∀ a, (k0_off17 i) a + S1.size a ≤ S64000.size a
  k0_off19_inb : ∀ i : grid0.Coords, ∀ a, (k0_off19 i) a + S1.size a ≤ S64000.size a
  k0_off21_inb : ∀ i : grid0.Coords, ∀ a, (k0_off21 i) a + S1.size a ≤ S64000.size a
  k0_off23_inb : ∀ i : grid0.Coords, ∀ a, (k0_off23 i) a + S1.size a ≤ S64000.size a
  k0_off25_inb : ∀ i : grid0.Coords, ∀ a, (k0_off25 i) a + S1.size a ≤ S64000.size a
  k0_off27_inb : ∀ i : grid0.Coords, ∀ a, (k0_off27 i) a + S1.size a ≤ S64000.size a
  k0_off29_inb : ∀ i : grid0.Coords, ∀ a, (k0_off29 i) a + S1.size a ≤ S64000.size a
  k0_off31_inb : ∀ i : grid0.Coords, ∀ a, (k0_off31 i) a + S1.size a ≤ S64000.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S16x1x128.size a ≤ S64000x1x128.size a
  hwx0_0 : ∀ i : grid0.Coords, EltTy.bits .f32 = 32 ∨ (Rect.block (s := S64000x1x128) S16x1x128.size (cc0_transform_1 i) (hinb0_0 i)).WholeWords (EltTy.packing .f32)
  hrank1 : 0 < grid1.rank
  k1_off1_inb : ∀ i : grid1.Coords, ∀ a, (k1_off1 i) a + S1.size a ≤ S64000.size a
  k1_off3_inb : ∀ i : grid1.Coords, ∀ a, (k1_off3 i) a + S1.size a ≤ S64000.size a
  k1_off5_inb : ∀ i : grid1.Coords, ∀ a, (k1_off5 i) a + S1.size a ≤ S64000.size a
  k1_off7_inb : ∀ i : grid1.Coords, ∀ a, (k1_off7 i) a + S1.size a ≤ S64000.size a
  k1_off9_inb : ∀ i : grid1.Coords, ∀ a, (k1_off9 i) a + S1.size a ≤ S64000.size a
  k1_off11_inb : ∀ i : grid1.Coords, ∀ a, (k1_off11 i) a + S1.size a ≤ S64000.size a
  k1_off13_inb : ∀ i : grid1.Coords, ∀ a, (k1_off13 i) a + S1.size a ≤ S64000.size a
  k1_off15_inb : ∀ i : grid1.Coords, ∀ a, (k1_off15 i) a + S1.size a ≤ S64000.size a
  k1_off17_inb : ∀ i : grid1.Coords, ∀ a, (k1_off17 i) a + S1.size a ≤ S64000.size a
  k1_off19_inb : ∀ i : grid1.Coords, ∀ a, (k1_off19 i) a + S1.size a ≤ S64000.size a
  k1_off21_inb : ∀ i : grid1.Coords, ∀ a, (k1_off21 i) a + S1.size a ≤ S64000.size a
  k1_off23_inb : ∀ i : grid1.Coords, ∀ a, (k1_off23 i) a + S1.size a ≤ S64000.size a
  k1_off25_inb : ∀ i : grid1.Coords, ∀ a, (k1_off25 i) a + S1.size a ≤ S64000.size a
  k1_off27_inb : ∀ i : grid1.Coords, ∀ a, (k1_off27 i) a + S1.size a ≤ S64000.size a
  k1_off29_inb : ∀ i : grid1.Coords, ∀ a, (k1_off29 i) a + S1.size a ≤ S64000.size a
  k1_off31_inb : ∀ i : grid1.Coords, ∀ a, (k1_off31 i) a + S1.size a ≤ S64000.size a
  hstage1_0 : ∀ j, (stage1_0 j).IsWhole
  nbuf1_0 : grid1.bufCount reads1_0 false = 2
  hreads1_0 : ∀ i i' : grid1.Coords, (∀ a, reads1_0 a = true → i a = i' a) → cc1_transform_1 i = cc1_transform_1 i'
  hinb1_0 : ∀ (i : grid1.Coords) a, (cc1_transform_1 i a + 1) * S16x1x128.size a ≤ S64000x1x128.size a
  hwx1_0 : ∀ i : grid1.Coords, EltTy.bits .f32 = 32 ∨ (Rect.block (s := S64000x1x128) S16x1x128.size (cc1_transform_1 i) (hinb1_0 i)).WholeWords (EltTy.packing .f32)
  hrank2 : 0 < grid2.rank
  k2_off1_inb : ∀ i : grid2.Coords, ∀ a, (k2_off1 i) a + S1.size a ≤ S64000.size a
  k2_off3_inb : ∀ i : grid2.Coords, ∀ a, (k2_off3 i) a + S1.size a ≤ S64000.size a
  k2_off5_inb : ∀ i : grid2.Coords, ∀ a, (k2_off5 i) a + S1.size a ≤ S64000.size a
  k2_off7_inb : ∀ i : grid2.Coords, ∀ a, (k2_off7 i) a + S1.size a ≤ S64000.size a
  k2_off9_inb : ∀ i : grid2.Coords, ∀ a, (k2_off9 i) a + S1.size a ≤ S64000.size a
  k2_off11_inb : ∀ i : grid2.Coords, ∀ a, (k2_off11 i) a + S1.size a ≤ S64000.size a
  k2_off13_inb : ∀ i : grid2.Coords, ∀ a, (k2_off13 i) a + S1.size a ≤ S64000.size a
  k2_off15_inb : ∀ i : grid2.Coords, ∀ a, (k2_off15 i) a + S1.size a ≤ S64000.size a
  k2_off17_inb : ∀ i : grid2.Coords, ∀ a, (k2_off17 i) a + S1.size a ≤ S64000.size a
  k2_off19_inb : ∀ i : grid2.Coords, ∀ a, (k2_off19 i) a + S1.size a ≤ S64000.size a
  k2_off21_inb : ∀ i : grid2.Coords, ∀ a, (k2_off21 i) a + S1.size a ≤ S64000.size a
  k2_off23_inb : ∀ i : grid2.Coords, ∀ a, (k2_off23 i) a + S1.size a ≤ S64000.size a
  k2_off25_inb : ∀ i : grid2.Coords, ∀ a, (k2_off25 i) a + S1.size a ≤ S64000.size a
  k2_off27_inb : ∀ i : grid2.Coords, ∀ a, (k2_off27 i) a + S1.size a ≤ S64000.size a
  k2_off29_inb : ∀ i : grid2.Coords, ∀ a, (k2_off29 i) a + S1.size a ≤ S64000.size a
  k2_off31_inb : ∀ i : grid2.Coords, ∀ a, (k2_off31 i) a + S1.size a ≤ S64000.size a
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S16x1x128.size a ≤ S64000x1x128.size a
  hwx2_0 : ∀ i : grid2.Coords, EltTy.bits .f32 = 32 ∨ (Rect.block (s := S64000x1x128) S16x1x128.size (cc2_transform_1 i) (hinb2_0 i)).WholeWords (EltTy.packing .f32)
  hrank3 : 0 < grid3.rank
  k3_off1_inb : ∀ i : grid3.Coords, ∀ a, (k3_off1 i) a + S1.size a ≤ S64000.size a
  k3_off3_inb : ∀ i : grid3.Coords, ∀ a, (k3_off3 i) a + S1.size a ≤ S64000.size a
  k3_off5_inb : ∀ i : grid3.Coords, ∀ a, (k3_off5 i) a + S1.size a ≤ S64000.size a
  k3_off7_inb : ∀ i : grid3.Coords, ∀ a, (k3_off7 i) a + S1.size a ≤ S64000.size a
  k3_off9_inb : ∀ i : grid3.Coords, ∀ a, (k3_off9 i) a + S1.size a ≤ S64000.size a
  k3_off11_inb : ∀ i : grid3.Coords, ∀ a, (k3_off11 i) a + S1.size a ≤ S64000.size a
  k3_off13_inb : ∀ i : grid3.Coords, ∀ a, (k3_off13 i) a + S1.size a ≤ S64000.size a
  k3_off15_inb : ∀ i : grid3.Coords, ∀ a, (k3_off15 i) a + S1.size a ≤ S64000.size a
  k3_off17_inb : ∀ i : grid3.Coords, ∀ a, (k3_off17 i) a + S1.size a ≤ S64000.size a
  k3_off19_inb : ∀ i : grid3.Coords, ∀ a, (k3_off19 i) a + S1.size a ≤ S64000.size a
  k3_off21_inb : ∀ i : grid3.Coords, ∀ a, (k3_off21 i) a + S1.size a ≤ S64000.size a
  k3_off23_inb : ∀ i : grid3.Coords, ∀ a, (k3_off23 i) a + S1.size a ≤ S64000.size a
  k3_off25_inb : ∀ i : grid3.Coords, ∀ a, (k3_off25 i) a + S1.size a ≤ S64000.size a
  k3_off27_inb : ∀ i : grid3.Coords, ∀ a, (k3_off27 i) a + S1.size a ≤ S64000.size a
  k3_off29_inb : ∀ i : grid3.Coords, ∀ a, (k3_off29 i) a + S1.size a ≤ S64000.size a
  k3_off31_inb : ∀ i : grid3.Coords, ∀ a, (k3_off31 i) a + S1.size a ≤ S64000.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S16x1x128.size a ≤ S64000x1x128.size a
  hwx3_0 : ∀ i : grid3.Coords, EltTy.bits .f32 = 32 ∨ (Rect.block (s := S64000x1x128) S16x1x128.size (cc3_transform_1 i) (hinb3_0 i)).WholeWords (EltTy.packing .f32)
  hrank4 : 0 < grid4.rank
  k4_off1_inb : ∀ i : grid4.Coords, ∀ a, (k4_off1 i) a + S1.size a ≤ S64000.size a
  k4_off3_inb : ∀ i : grid4.Coords, ∀ a, (k4_off3 i) a + S1.size a ≤ S64000.size a
  k4_off5_inb : ∀ i : grid4.Coords, ∀ a, (k4_off5 i) a + S1.size a ≤ S64000.size a
  k4_off7_inb : ∀ i : grid4.Coords, ∀ a, (k4_off7 i) a + S1.size a ≤ S64000.size a
  k4_off9_inb : ∀ i : grid4.Coords, ∀ a, (k4_off9 i) a + S1.size a ≤ S64000.size a
  k4_off11_inb : ∀ i : grid4.Coords, ∀ a, (k4_off11 i) a + S1.size a ≤ S64000.size a
  k4_off13_inb : ∀ i : grid4.Coords, ∀ a, (k4_off13 i) a + S1.size a ≤ S64000.size a
  k4_off15_inb : ∀ i : grid4.Coords, ∀ a, (k4_off15 i) a + S1.size a ≤ S64000.size a
  k4_off17_inb : ∀ i : grid4.Coords, ∀ a, (k4_off17 i) a + S1.size a ≤ S64000.size a
  k4_off19_inb : ∀ i : grid4.Coords, ∀ a, (k4_off19 i) a + S1.size a ≤ S64000.size a
  k4_off21_inb : ∀ i : grid4.Coords, ∀ a, (k4_off21 i) a + S1.size a ≤ S64000.size a
  k4_off23_inb : ∀ i : grid4.Coords, ∀ a, (k4_off23 i) a + S1.size a ≤ S64000.size a
  k4_off25_inb : ∀ i : grid4.Coords, ∀ a, (k4_off25 i) a + S1.size a ≤ S64000.size a
  k4_off27_inb : ∀ i : grid4.Coords, ∀ a, (k4_off27 i) a + S1.size a ≤ S64000.size a
  k4_off29_inb : ∀ i : grid4.Coords, ∀ a, (k4_off29 i) a + S1.size a ≤ S64000.size a
  k4_off31_inb : ∀ i : grid4.Coords, ∀ a, (k4_off31 i) a + S1.size a ≤ S64000.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S16x1x128.size a ≤ S64000x1x128.size a
  hwx4_0 : ∀ i : grid4.Coords, EltTy.bits .f32 = 32 ∨ (Rect.block (s := S64000x1x128) S16x1x128.size (cc4_transform_1 i) (hinb4_0 i)).WholeWords (EltTy.packing .f32)
  hrank5 : 0 < grid5.rank
  k5_off1_inb : ∀ i : grid5.Coords, ∀ a, (k5_off1 i) a + S1.size a ≤ S64000.size a
  k5_off3_inb : ∀ i : grid5.Coords, ∀ a, (k5_off3 i) a + S1.size a ≤ S64000.size a
  k5_off5_inb : ∀ i : grid5.Coords, ∀ a, (k5_off5 i) a + S1.size a ≤ S64000.size a
  k5_off7_inb : ∀ i : grid5.Coords, ∀ a, (k5_off7 i) a + S1.size a ≤ S64000.size a
  k5_off9_inb : ∀ i : grid5.Coords, ∀ a, (k5_off9 i) a + S1.size a ≤ S64000.size a
  k5_off11_inb : ∀ i : grid5.Coords, ∀ a, (k5_off11 i) a + S1.size a ≤ S64000.size a
  k5_off13_inb : ∀ i : grid5.Coords, ∀ a, (k5_off13 i) a + S1.size a ≤ S64000.size a
  k5_off15_inb : ∀ i : grid5.Coords, ∀ a, (k5_off15 i) a + S1.size a ≤ S64000.size a
  k5_off17_inb : ∀ i : grid5.Coords, ∀ a, (k5_off17 i) a + S1.size a ≤ S64000.size a
  k5_off19_inb : ∀ i : grid5.Coords, ∀ a, (k5_off19 i) a + S1.size a ≤ S64000.size a
  k5_off21_inb : ∀ i : grid5.Coords, ∀ a, (k5_off21 i) a + S1.size a ≤ S64000.size a
  k5_off23_inb : ∀ i : grid5.Coords, ∀ a, (k5_off23 i) a + S1.size a ≤ S64000.size a
  k5_off25_inb : ∀ i : grid5.Coords, ∀ a, (k5_off25 i) a + S1.size a ≤ S64000.size a
  k5_off27_inb : ∀ i : grid5.Coords, ∀ a, (k5_off27 i) a + S1.size a ≤ S64000.size a
  k5_off29_inb : ∀ i : grid5.Coords, ∀ a, (k5_off29 i) a + S1.size a ≤ S64000.size a
  k5_off31_inb : ∀ i : grid5.Coords, ∀ a, (k5_off31 i) a + S1.size a ≤ S64000.size a
  hstage5_0 : ∀ j, (stage5_0 j).IsWhole
  nbuf5_0 : grid5.bufCount reads5_0 false = 2
  hreads5_0 : ∀ i i' : grid5.Coords, (∀ a, reads5_0 a = true → i a = i' a) → cc5_transform_1 i = cc5_transform_1 i'
  hinb5_0 : ∀ (i : grid5.Coords) a, (cc5_transform_1 i a + 1) * S16x1x128.size a ≤ S64000x1x128.size a
  hwx5_0 : ∀ i : grid5.Coords, EltTy.bits .f32 = 32 ∨ (Rect.block (s := S64000x1x128) S16x1x128.size (cc5_transform_1 i) (hinb5_0 i)).WholeWords (EltTy.packing .f32)
  hrank6 : 0 < grid6.rank
  k6_off1_inb : ∀ i : grid6.Coords, ∀ a, (k6_off1 i) a + S1.size a ≤ S64000.size a
  k6_off3_inb : ∀ i : grid6.Coords, ∀ a, (k6_off3 i) a + S1.size a ≤ S64000.size a
  k6_off5_inb : ∀ i : grid6.Coords, ∀ a, (k6_off5 i) a + S1.size a ≤ S64000.size a
  k6_off7_inb : ∀ i : grid6.Coords, ∀ a, (k6_off7 i) a + S1.size a ≤ S64000.size a
  k6_off9_inb : ∀ i : grid6.Coords, ∀ a, (k6_off9 i) a + S1.size a ≤ S64000.size a
  k6_off11_inb : ∀ i : grid6.Coords, ∀ a, (k6_off11 i) a + S1.size a ≤ S64000.size a
  k6_off13_inb : ∀ i : grid6.Coords, ∀ a, (k6_off13 i) a + S1.size a ≤ S64000.size a
  k6_off15_inb : ∀ i : grid6.Coords, ∀ a, (k6_off15 i) a + S1.size a ≤ S64000.size a
  k6_off17_inb : ∀ i : grid6.Coords, ∀ a, (k6_off17 i) a + S1.size a ≤ S64000.size a
  k6_off19_inb : ∀ i : grid6.Coords, ∀ a, (k6_off19 i) a + S1.size a ≤ S64000.size a
  k6_off21_inb : ∀ i : grid6.Coords, ∀ a, (k6_off21 i) a + S1.size a ≤ S64000.size a
  k6_off23_inb : ∀ i : grid6.Coords, ∀ a, (k6_off23 i) a + S1.size a ≤ S64000.size a
  k6_off25_inb : ∀ i : grid6.Coords, ∀ a, (k6_off25 i) a + S1.size a ≤ S64000.size a
  k6_off27_inb : ∀ i : grid6.Coords, ∀ a, (k6_off27 i) a + S1.size a ≤ S64000.size a
  k6_off29_inb : ∀ i : grid6.Coords, ∀ a, (k6_off29 i) a + S1.size a ≤ S64000.size a
  k6_off31_inb : ∀ i : grid6.Coords, ∀ a, (k6_off31 i) a + S1.size a ≤ S64000.size a
  hstage6_0 : ∀ j, (stage6_0 j).IsWhole
  nbuf6_0 : grid6.bufCount reads6_0 false = 2
  hreads6_0 : ∀ i i' : grid6.Coords, (∀ a, reads6_0 a = true → i a = i' a) → cc6_transform_1 i = cc6_transform_1 i'
  hinb6_0 : ∀ (i : grid6.Coords) a, (cc6_transform_1 i a + 1) * S16x1x128.size a ≤ S64000x1x128.size a
  hwx6_0 : ∀ i : grid6.Coords, EltTy.bits .f32 = 32 ∨ (Rect.block (s := S64000x1x128) S16x1x128.size (cc6_transform_1 i) (hinb6_0 i)).WholeWords (EltTy.packing .f32)
  hrank7 : 0 < grid7.rank
  k7_off1_inb : ∀ i : grid7.Coords, ∀ a, (k7_off1 i) a + S1.size a ≤ S64000.size a
  k7_off3_inb : ∀ i : grid7.Coords, ∀ a, (k7_off3 i) a + S1.size a ≤ S64000.size a
  k7_off5_inb : ∀ i : grid7.Coords, ∀ a, (k7_off5 i) a + S1.size a ≤ S64000.size a
  k7_off7_inb : ∀ i : grid7.Coords, ∀ a, (k7_off7 i) a + S1.size a ≤ S64000.size a
  k7_off9_inb : ∀ i : grid7.Coords, ∀ a, (k7_off9 i) a + S1.size a ≤ S64000.size a
  k7_off11_inb : ∀ i : grid7.Coords, ∀ a, (k7_off11 i) a + S1.size a ≤ S64000.size a
  k7_off13_inb : ∀ i : grid7.Coords, ∀ a, (k7_off13 i) a + S1.size a ≤ S64000.size a
  k7_off15_inb : ∀ i : grid7.Coords, ∀ a, (k7_off15 i) a + S1.size a ≤ S64000.size a
  k7_off17_inb : ∀ i : grid7.Coords, ∀ a, (k7_off17 i) a + S1.size a ≤ S64000.size a
  k7_off19_inb : ∀ i : grid7.Coords, ∀ a, (k7_off19 i) a + S1.size a ≤ S64000.size a
  k7_off21_inb : ∀ i : grid7.Coords, ∀ a, (k7_off21 i) a + S1.size a ≤ S64000.size a
  k7_off23_inb : ∀ i : grid7.Coords, ∀ a, (k7_off23 i) a + S1.size a ≤ S64000.size a
  k7_off25_inb : ∀ i : grid7.Coords, ∀ a, (k7_off25 i) a + S1.size a ≤ S64000.size a
  k7_off27_inb : ∀ i : grid7.Coords, ∀ a, (k7_off27 i) a + S1.size a ≤ S64000.size a
  k7_off29_inb : ∀ i : grid7.Coords, ∀ a, (k7_off29 i) a + S1.size a ≤ S64000.size a
  k7_off31_inb : ∀ i : grid7.Coords, ∀ a, (k7_off31 i) a + S1.size a ≤ S64000.size a
  hstage7_0 : ∀ j, (stage7_0 j).IsWhole
  nbuf7_0 : grid7.bufCount reads7_0 false = 2
  hreads7_0 : ∀ i i' : grid7.Coords, (∀ a, reads7_0 a = true → i a = i' a) → cc7_transform_1 i = cc7_transform_1 i'
  hinb7_0 : ∀ (i : grid7.Coords) a, (cc7_transform_1 i a + 1) * S16x1x128.size a ≤ S64000x1x128.size a
  hwx7_0 : ∀ i : grid7.Coords, EltTy.bits .f32 = 32 ∨ (Rect.block (s := S64000x1x128) S16x1x128.size (cc7_transform_1 i) (hinb7_0 i)).WholeWords (EltTy.packing .f32)
  hrank8 : 0 < grid8.rank
  k8_off1_inb : ∀ i : grid8.Coords, ∀ a, (k8_off1 i) a + S1.size a ≤ S64000.size a
  k8_off3_inb : ∀ i : grid8.Coords, ∀ a, (k8_off3 i) a + S1.size a ≤ S64000.size a
  k8_off5_inb : ∀ i : grid8.Coords, ∀ a, (k8_off5 i) a + S1.size a ≤ S64000.size a
  k8_off7_inb : ∀ i : grid8.Coords, ∀ a, (k8_off7 i) a + S1.size a ≤ S64000.size a
  k8_off9_inb : ∀ i : grid8.Coords, ∀ a, (k8_off9 i) a + S1.size a ≤ S64000.size a
  k8_off11_inb : ∀ i : grid8.Coords, ∀ a, (k8_off11 i) a + S1.size a ≤ S64000.size a
  k8_off13_inb : ∀ i : grid8.Coords, ∀ a, (k8_off13 i) a + S1.size a ≤ S64000.size a
  k8_off15_inb : ∀ i : grid8.Coords, ∀ a, (k8_off15 i) a + S1.size a ≤ S64000.size a
  k8_off17_inb : ∀ i : grid8.Coords, ∀ a, (k8_off17 i) a + S1.size a ≤ S64000.size a
  k8_off19_inb : ∀ i : grid8.Coords, ∀ a, (k8_off19 i) a + S1.size a ≤ S64000.size a
  k8_off21_inb : ∀ i : grid8.Coords, ∀ a, (k8_off21 i) a + S1.size a ≤ S64000.size a
  k8_off23_inb : ∀ i : grid8.Coords, ∀ a, (k8_off23 i) a + S1.size a ≤ S64000.size a
  k8_off25_inb : ∀ i : grid8.Coords, ∀ a, (k8_off25 i) a + S1.size a ≤ S64000.size a
  k8_off27_inb : ∀ i : grid8.Coords, ∀ a, (k8_off27 i) a + S1.size a ≤ S64000.size a
  k8_off29_inb : ∀ i : grid8.Coords, ∀ a, (k8_off29 i) a + S1.size a ≤ S64000.size a
  k8_off31_inb : ∀ i : grid8.Coords, ∀ a, (k8_off31 i) a + S1.size a ≤ S64000.size a
  hstage8_0 : ∀ j, (stage8_0 j).IsWhole
  nbuf8_0 : grid8.bufCount reads8_0 false = 2
  hreads8_0 : ∀ i i' : grid8.Coords, (∀ a, reads8_0 a = true → i a = i' a) → cc8_transform_1 i = cc8_transform_1 i'
  hinb8_0 : ∀ (i : grid8.Coords) a, (cc8_transform_1 i a + 1) * S16x1x128.size a ≤ S64000x1x128.size a
  hwx8_0 : ∀ i : grid8.Coords, EltTy.bits .f32 = 32 ∨ (Rect.block (s := S64000x1x128) S16x1x128.size (cc8_transform_1 i) (hinb8_0 i)).WholeWords (EltTy.packing .f32)
  hrank9 : 0 < grid9.rank
  k9_off1_inb : ∀ i : grid9.Coords, ∀ a, (k9_off1 i) a + S1.size a ≤ S64000.size a
  k9_off3_inb : ∀ i : grid9.Coords, ∀ a, (k9_off3 i) a + S1.size a ≤ S64000.size a
  k9_off5_inb : ∀ i : grid9.Coords, ∀ a, (k9_off5 i) a + S1.size a ≤ S64000.size a
  k9_off7_inb : ∀ i : grid9.Coords, ∀ a, (k9_off7 i) a + S1.size a ≤ S64000.size a
  k9_off9_inb : ∀ i : grid9.Coords, ∀ a, (k9_off9 i) a + S1.size a ≤ S64000.size a
  k9_off11_inb : ∀ i : grid9.Coords, ∀ a, (k9_off11 i) a + S1.size a ≤ S64000.size a
  k9_off13_inb : ∀ i : grid9.Coords, ∀ a, (k9_off13 i) a + S1.size a ≤ S64000.size a
  k9_off15_inb : ∀ i : grid9.Coords, ∀ a, (k9_off15 i) a + S1.size a ≤ S64000.size a
  k9_off17_inb : ∀ i : grid9.Coords, ∀ a, (k9_off17 i) a + S1.size a ≤ S64000.size a
  k9_off19_inb : ∀ i : grid9.Coords, ∀ a, (k9_off19 i) a + S1.size a ≤ S64000.size a
  k9_off21_inb : ∀ i : grid9.Coords, ∀ a, (k9_off21 i) a + S1.size a ≤ S64000.size a
  k9_off23_inb : ∀ i : grid9.Coords, ∀ a, (k9_off23 i) a + S1.size a ≤ S64000.size a
  k9_off25_inb : ∀ i : grid9.Coords, ∀ a, (k9_off25 i) a + S1.size a ≤ S64000.size a
  k9_off27_inb : ∀ i : grid9.Coords, ∀ a, (k9_off27 i) a + S1.size a ≤ S64000.size a
  k9_off29_inb : ∀ i : grid9.Coords, ∀ a, (k9_off29 i) a + S1.size a ≤ S64000.size a
  k9_off31_inb : ∀ i : grid9.Coords, ∀ a, (k9_off31 i) a + S1.size a ≤ S64000.size a
  hstage9_0 : ∀ j, (stage9_0 j).IsWhole
  nbuf9_0 : grid9.bufCount reads9_0 false = 2
  hreads9_0 : ∀ i i' : grid9.Coords, (∀ a, reads9_0 a = true → i a = i' a) → cc9_transform_1 i = cc9_transform_1 i'
  hinb9_0 : ∀ (i : grid9.Coords) a, (cc9_transform_1 i a + 1) * S16x1x128.size a ≤ S64000x1x128.size a
  hwx9_0 : ∀ i : grid9.Coords, EltTy.bits .f32 = 32 ∨ (Rect.block (s := S64000x1x128) S16x1x128.size (cc9_transform_1 i) (hinb9_0 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x128.size a ≤ S50000x128.size a
  hwx10_3 : ∀ i : grid10.Coords, EltTy.bits .f32 = 32 ∨ (Rect.block (s := S50000x128) S2000x128.size (cc10_transform_3 i) (hinb10_3 i)).WholeWords (EltTy.packing .f32)

variable [Facts₀]

abbrev cc0_scratch1 : DmaSems sig S16 := SemArray.consecutive 2 S16 hcc0_scratch1
abbrev cc1_scratch1 : DmaSems sig S16 := SemArray.consecutive 20 S16 hcc1_scratch1
abbrev cc2_scratch1 : DmaSems sig S16 := SemArray.consecutive 38 S16 hcc2_scratch1
abbrev cc3_scratch1 : DmaSems sig S16 := SemArray.consecutive 56 S16 hcc3_scratch1
abbrev cc4_scratch1 : DmaSems sig S16 := SemArray.consecutive 74 S16 hcc4_scratch1
abbrev cc5_scratch1 : DmaSems sig S16 := SemArray.consecutive 92 S16 hcc5_scratch1
abbrev cc6_scratch1 : DmaSems sig S16 := SemArray.consecutive 110 S16 hcc6_scratch1
abbrev cc7_scratch1 : DmaSems sig S16 := SemArray.consecutive 128 S16 hcc7_scratch1
abbrev cc8_scratch1 : DmaSems sig S16 := SemArray.consecutive 146 S16 hcc8_scratch1
abbrev cc9_scratch1 : DmaSems sig S16 := SemArray.consecutive 164 S16 hcc9_scratch1
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev spec0_0 : Pipeline.WinSpec sig grid0.rank :=
  Pipeline.WinSpec.ofSpec (Memref.whole main_v2) S16x1x128.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev spec1_0 : Pipeline.WinSpec sig grid1.rank :=
  Pipeline.WinSpec.ofSpec (Memref.whole main_v4) S16x1x128.size reads1_0 true false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_1 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))
abbrev spec2_0 : Pipeline.WinSpec sig grid2.rank :=
  Pipeline.WinSpec.ofSpec (Memref.whole main_v6) S16x1x128.size reads2_0 true false 2 stage2_0 sem2_0 nbuf2_0 hstage2_0

abbrev spec2 : Fin 1 → Pipeline.WinSpec sig grid2.rank := fun | 0 => spec2_0 | ⟨_ + 1, h⟩ => absurd h (Nat.not_lt.2 (Nat.le_add_left _ _))
theorem hcount2 : ∀ w, grid2.bufCount (spec2 w).reads (spec2 w).sync = (spec2 w).nbuf := fun | 0 => nbuf2_0 | ⟨_ + 1, h⟩ => absurd h (Nat.not_lt.2 (Nat.le_add_left _ _))
abbrev ix2 (pf : pre2.Contents (Elt F)) : (w : Fin 1) → grid2.Coords → Fin (spec2 w).shape.rank → Nat := fun | 0 => cc2_transform_1 | ⟨_ + 1, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 | ⟨_ + 1, h⟩ => absurd h (Nat.not_lt.2 (Nat.le_add_left _ _))
def ok2 (_ : pre2.Contents (Elt F)) : Prop :=
  True
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun _ _ => fun | 0 => hinb2_0 | ⟨_ + 1, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun _ _ => fun | 0 => hwx2_0 | ⟨_ + 1, h⟩ => absurd h (Nat.not_lt.2 (Nat.le_add_left _ _))
abbrev spec3_0 : Pipeline.WinSpec sig grid3.rank :=
  Pipeline.WinSpec.ofSpec (Memref.whole main_v8) S16x1x128.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))
abbrev spec4_0 : Pipeline.WinSpec sig grid4.rank :=
  Pipeline.WinSpec.ofSpec (Memref.whole main_v10) S16x1x128.size reads4_0 true false 2 stage4_0 sem4_0 nbuf4_0 hstage4_0

abbrev spec4 : Fin 1 → Pipeline.WinSpec sig grid4.rank := fun | 0 => spec4_0 | ⟨_ + 1, h⟩ => absurd h (Nat.not_lt.2 (Nat.le_add_left _ _))
theorem hcount4 : ∀ w, grid4.bufCount (spec4 w).reads (spec4 w).sync = (spec4 w).nbuf := fun | 0 => nbuf4_0 | ⟨_ + 1, h⟩ => absurd h (Nat.not_lt.2 (Nat.le_add_left _ _))
abbrev ix4 (pf : pre4.Contents (Elt F)) : (w : Fin 1) → grid4.Coords → Fin (spec4 w).shape.rank → Nat := fun | 0 => cc4_transform_1 | ⟨_ + 1, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | ⟨_ + 1, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | ⟨_ + 1, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | ⟨_ + 1, h⟩ => absurd h (Nat.not_lt.2 (Nat.le_add_left _ _))
abbrev spec5_0 : Pipeline.WinSpec sig grid5.rank :=
  Pipeline.WinSpec.ofSpec (Memref.whole main_v12) S16x1x128.size reads5_0 true false 2 stage5_0 sem5_0 nbuf5_0 hstage5_0

abbrev spec5 : Fin 1 → Pipeline.WinSpec sig grid5.rank := fun | 0 => spec5_0 | ⟨_ + 1, h⟩ => absurd h (Nat.not_lt.2 (Nat.le_add_left _ _))
theorem hcount5 : ∀ w, grid5.bufCount (spec5 w).reads (spec5 w).sync = (spec5 w).nbuf := fun | 0 => nbuf5_0 | ⟨_ + 1, h⟩ => absurd h (Nat.not_lt.2 (Nat.le_add_left _ _))
abbrev ix5 (pf : pre5.Contents (Elt F)) : (w : Fin 1) → grid5.Coords → Fin (spec5 w).shape.rank → Nat := fun | 0 => cc5_transform_1 | ⟨_ + 1, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 | ⟨_ + 1, h⟩ => absurd h (Nat.not_lt.2 (Nat.le_add_left _ _))
def ok5 (_ : pre5.Contents (Elt F)) : Prop :=
  True
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun _ _ => fun | 0 => hinb5_0 | ⟨_ + 1, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun _ _ => fun | 0 => hwx5_0 | ⟨_ + 1, h⟩ => absurd h (Nat.not_lt.2 (Nat.le_add_left _ _))
abbrev spec6_0 : Pipeline.WinSpec sig grid6.rank :=
  Pipeline.WinSpec.ofSpec (Memref.whole main_v14) S16x1x128.size reads6_0 true false 2 stage6_0 sem6_0 nbuf6_0 hstage6_0

abbrev spec6 : Fin 1 → Pipeline.WinSpec sig grid6.rank := fun | 0 => spec6_0 | ⟨_ + 1, h⟩ => absurd h (Nat.not_lt.2 (Nat.le_add_left _ _))
theorem hcount6 : ∀ w, grid6.bufCount (spec6 w).reads (spec6 w).sync = (spec6 w).nbuf := fun | 0 => nbuf6_0 | ⟨_ + 1, h⟩ => absurd h (Nat.not_lt.2 (Nat.le_add_left _ _))
abbrev ix6 (pf : pre6.Contents (Elt F)) : (w : Fin 1) → grid6.Coords → Fin (spec6 w).shape.rank → Nat := fun | 0 => cc6_transform_1 | ⟨_ + 1, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 | ⟨_ + 1, h⟩ => absurd h (Nat.not_lt.2 (Nat.le_add_left _ _))
def ok6 (_ : pre6.Contents (Elt F)) : Prop :=
  True
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun _ _ => fun | 0 => hinb6_0 | ⟨_ + 1, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun _ _ => fun | 0 => hwx6_0 | ⟨_ + 1, h⟩ => absurd h (Nat.not_lt.2 (Nat.le_add_left _ _))
abbrev spec7_0 : Pipeline.WinSpec sig grid7.rank :=
  Pipeline.WinSpec.ofSpec (Memref.whole main_v16) S16x1x128.size reads7_0 true false 2 stage7_0 sem7_0 nbuf7_0 hstage7_0

abbrev spec7 : Fin 1 → Pipeline.WinSpec sig grid7.rank := fun | 0 => spec7_0 | ⟨_ + 1, h⟩ => absurd h (Nat.not_lt.2 (Nat.le_add_left _ _))
theorem hcount7 : ∀ w, grid7.bufCount (spec7 w).reads (spec7 w).sync = (spec7 w).nbuf := fun | 0 => nbuf7_0 | ⟨_ + 1, h⟩ => absurd h (Nat.not_lt.2 (Nat.le_add_left _ _))
abbrev ix7 (pf : pre7.Contents (Elt F)) : (w : Fin 1) → grid7.Coords → Fin (spec7 w).shape.rank → Nat := fun | 0 => cc7_transform_1 | ⟨_ + 1, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 | ⟨_ + 1, h⟩ => absurd h (Nat.not_lt.2 (Nat.le_add_left _ _))
def ok7 (_ : pre7.Contents (Elt F)) : Prop :=
  True
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun _ _ => fun | 0 => hinb7_0 | ⟨_ + 1, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun _ _ => fun | 0 => hwx7_0 | ⟨_ + 1, h⟩ => absurd h (Nat.not_lt.2 (Nat.le_add_left _ _))
abbrev spec8_0 : Pipeline.WinSpec sig grid8.rank :=
  Pipeline.WinSpec.ofSpec (Memref.whole main_v18) S16x1x128.size reads8_0 true false 2 stage8_0 sem8_0 nbuf8_0 hstage8_0

abbrev spec8 : Fin 1 → Pipeline.WinSpec sig grid8.rank := fun | 0 => spec8_0 | ⟨_ + 1, h⟩ => absurd h (Nat.not_lt.2 (Nat.le_add_left _ _))
theorem hcount8 : ∀ w, grid8.bufCount (spec8 w).reads (spec8 w).sync = (spec8 w).nbuf := fun | 0 => nbuf8_0 | ⟨_ + 1, h⟩ => absurd h (Nat.not_lt.2 (Nat.le_add_left _ _))
abbrev ix8 (pf : pre8.Contents (Elt F)) : (w : Fin 1) → grid8.Coords → Fin (spec8 w).shape.rank → Nat := fun | 0 => cc8_transform_1 | ⟨_ + 1, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 | ⟨_ + 1, h⟩ => absurd h (Nat.not_lt.2 (Nat.le_add_left _ _))
def ok8 (_ : pre8.Contents (Elt F)) : Prop :=
  True
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun _ _ => fun | 0 => hinb8_0 | ⟨_ + 1, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun _ _ => fun | 0 => hwx8_0 | ⟨_ + 1, h⟩ => absurd h (Nat.not_lt.2 (Nat.le_add_left _ _))
abbrev spec9_0 : Pipeline.WinSpec sig grid9.rank :=
  Pipeline.WinSpec.ofSpec (Memref.whole main_v20) S16x1x128.size reads9_0 true false 2 stage9_0 sem9_0 nbuf9_0 hstage9_0

abbrev spec9 : Fin 1 → Pipeline.WinSpec sig grid9.rank := fun | 0 => spec9_0 | ⟨_ + 1, h⟩ => absurd h (Nat.not_lt.2 (Nat.le_add_left _ _))
theorem hcount9 : ∀ w, grid9.bufCount (spec9 w).reads (spec9 w).sync = (spec9 w).nbuf := fun | 0 => nbuf9_0 | ⟨_ + 1, h⟩ => absurd h (Nat.not_lt.2 (Nat.le_add_left _ _))
abbrev ix9 (pf : pre9.Contents (Elt F)) : (w : Fin 1) → grid9.Coords → Fin (spec9 w).shape.rank → Nat := fun | 0 => cc9_transform_1 | ⟨_ + 1, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 | ⟨_ + 1, h⟩ => absurd h (Nat.not_lt.2 (Nat.le_add_left _ _))
def ok9 (_ : pre9.Contents (Elt F)) : Prop :=
  True
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun _ _ => fun | 0 => hinb9_0 | ⟨_ + 1, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun _ _ => fun | 0 => hwx9_0 | ⟨_ + 1, h⟩ => absurd h (Nat.not_lt.2 (Nat.le_add_left _ _))
abbrev win10_0 : Pipeline.Window sig grid10 :=
  Pipeline.Window.ofSpec (Memref.whole main_v25) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg3) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg4) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v26) S2000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole

variable [Facts]
-- ==== ReferenceIdeal.lean ====
abbrev S50000x128 : Shape := ⟨2, ![50000, 128]⟩
abbrev S640000 : Shape := ⟨1, ![640000]⟩
abbrev S128x128 : Shape := ⟨2, ![128, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩

abbrev nBuf : Space → Nat
  | .hbm => 21
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S1x128, .f32⟩
  | .hbm, ⟨5, _⟩ => ⟨S_, .i32⟩
  | .hbm, ⟨6, _⟩ => ⟨S640000, .i32⟩
  | .hbm, ⟨7, _⟩ => ⟨S640000, .i1⟩
  | .hbm, ⟨8, _⟩ => ⟨S_, .i32⟩
  | .hbm, ⟨9, _⟩ => ⟨S640000, .i32⟩
  | .hbm, ⟨10, _⟩ => ⟨S640000, .i32⟩
  | .hbm, ⟨11, _⟩ => ⟨S640000, .i32⟩
  | .hbm, ⟨12, _⟩ => ⟨S640000x1, .i32⟩
  | .hbm, ⟨13, _⟩ => ⟨S640000x128, .f32⟩
  | .hbm, ⟨14, _⟩ => ⟨S_, .f32⟩
  | .hbm, ⟨15, _⟩ => ⟨S50000x128, .f32⟩
  | .hbm, ⟨16, _⟩ => ⟨S640000x1, .i32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.PreDec.lean ====
import proofs.«401076_j19361712571372_2_alg».proof.Pre_finite_inputs
import proofs.«401076_j19361712571372_2_alg».proof.Proof.Gen.Pre_finite_inputs
import Idealize.ShloMosaic.Lib.ReduceAll
import Idealize.ShloMosaic.Lib.StableHlo.Predicate

noncomputable section

namespace Cert.Proof.PreDec

open Idealize.ShloMosaic Cert.Pre_finite_inputs

/-- Under the precondition every word of the edge-source array, read as an unsigned number, names a row of the
    node table: the printed predicate's last conjunct is the conjunction over all edges of
    `0 ≤ src e` (signed) and `src e < 50000` (signed), and a word that is non-negative as a signed number and
    below 50000 has that same value read unsigned. -/
theorem src_in_range {F : FTy → Type} [FloatOps F]
    (a0 : FVec F S50000x128 .f32) (a1 a2 : IVec S640000 32) (a3 : FVec F S128x128 .f32) (a4 : FVec F S1x128 .f32)
    (h : fn (F := F) a0 a1 a2 a3 a4 = fun _ => 1#1) (e : S640000.Idx) : (a1 e).toNat < 50000 := by
  -- the result shape has rank 0, so it has exactly one index
  haveI : Subsingleton S_.Idx := ⟨fun a b => funext fun d => d.elim0⟩
  -- the predicate at that one index is the bit 1
  have h0 := congrFun h (fun d => d.elim0)
  dsimp only [fn, fn_part1] at h0
  -- the last conjunct: the conjunction over all edges is 1
  obtain ⟨_, hred⟩ := IntOp.andi_eq_one.1 h0
  -- a conjunction over all edges that is 1 is 1 at every edge, in particular at e
  have he := Host.reduce_andi_all _ _ _ _ _ hred e
  -- at e both comparisons hold, read as inequalities of signed values
  obtain ⟨hge, hlt⟩ := IntOp.andi_eq_one.1 he
  have hge' := IntOp.cmpi_sge.1 hge
  have hlt' := IntOp.cmpi_slt.1 hlt
  -- the right-hand sides are the scalars 0 and 50000 spread over every edge
  rw [StableHlo.Predicate.bcast_scalar _ Facts.h_S_] at hge' hlt'
  simp only [constantI] at hge' hlt'
  have z0 : (0#32 : BitVec 32).toInt = 0 := by decide
  have z1 : (50000#32 : BitVec 32).toInt = 50000 := by decide
  rw [z0] at hge'
  rw [z1] at hlt'
  -- 0 ≤ signed value < 50000: the sign bit is clear, so the unsigned value is the signed one
  have hc := BitVec.toInt_eq_toNat_cond (a1 e)
  have hb := (a1 e).isLt
  split at hc <;> omega

end Cert.Proof.PreDec

end
-- ==== Proof.PSpec.lean ====
import Idealize.ShloMosaic.PureOps.Ideal
import Idealize.ShloMosaic.Lib.ValueIdx

noncomputable section

namespace Cert.Proof.PSpec

open Idealize.ShloMosaic

/-- The dense projection over the extended reals: entry (n, j) is the sum over the 128 input features k of
    `agg (n, k) · W (k, j)`, plus the bias `b (0, j)`. -/
def projSpec (agg : (⟨2, ![50000, 128]⟩ : Shape).Idx → EReal) (W : (⟨2, ![128, 128]⟩ : Shape).Idx → EReal)
    (b : (⟨2, ![1, 128]⟩ : Shape).Idx → EReal) : (⟨2, ![50000, 128]⟩ : Shape).Idx → EReal :=
  fun i => (∑ k : Fin 128, agg (ValueIdx.ix2 (i 0) k) * W (ValueIdx.ix2 k (i 1))) + b (ValueIdx.ix2 (0 : Fin 1) (i 1))

/-- The gathered edge messages: row `e` is the node-table row named by the edge's source word (reduced into the
    table's range, which changes nothing for a word below 50000). -/
def msgSpec {α : Type} (feat : (⟨2, ![50000, 128]⟩ : Shape).Idx → α) (src : (⟨1, ![640000]⟩ : Shape).Idx → BitVec 32) :
    (⟨2, ![640000, 128]⟩ : Shape).Idx → α :=
  fun i => feat (ValueIdx.ix2 (⟨(src (ValueIdx.ix1 (i 0))).toNat % 50000, Nat.mod_lt _ (by decide)⟩ : Fin 50000) (i 1))

end Cert.Proof.PSpec

end
-- ==== Proof.GSpec.lean ====
import Idealize.ShloMosaic.PureOps
import Idealize.ShloMosaic.Lib.ValueIdx

noncomputable section

namespace Cert.Proof.GSpec

open Idealize.ShloMosaic

/-- The word a gather call reads for row `j` of grid step `n`: entry `16 n + j` of its chunk of the edge-source
    table (the index reduced into the chunk's range, which changes nothing for `n < 4000`, `j < 16`). -/
def gword (pf : (⟨1, ![64000]⟩ : Shape).Idx → BitVec 32) (n j : ℕ) : BitVec 32 :=
  pf (ValueIdx.ix1 (⟨(16 * n + j) % 64000, Nat.mod_lt _ (by decide)⟩ : Fin 64000))

/-- Lane `l` of the node-table row a word names (the row number reduced into the table's range, which changes
    nothing for a word below 50000). -/
def grow {α : Type} (tb : (⟨3, ![50000, 1, 128]⟩ : Shape).Idx → α) (w : BitVec 32) (l : Fin 128) : α :=
  tb (ValueIdx.ix3 (⟨w.toNat % 50000, Nat.mod_lt _ (by decide)⟩ : Fin 50000) (0 : Fin 1) l)

/-- What grid step `n` of a gather call leaves in its 16 × 1 × 128 output block: row `j` is the node-table row named
    by the step's `j`-th word. -/
def gblock {α : Type} (tb : (⟨3, ![50000, 1, 128]⟩ : Shape).Idx → α) (pf : (⟨1, ![64000]⟩ : Shape).Idx → BitVec 32) (n : ℕ) :
    (⟨3, ![16, 1, 128]⟩ : Shape).Idx → α :=
  fun y => grow tb (gword pf n (y 0).val) (y 2)

/-- What a whole gather call leaves in its 64000 × 1 × 128 output array: row `e` is the node-table row named by
    entry `e` of the call's chunk of the edge-source table. -/
def gchunk {α : Type} (tb : (⟨3, ![50000, 1, 128]⟩ : Shape).Idx → α) (pf : (⟨1, ![64000]⟩ : Shape).Idx → BitVec 32) :
    (⟨3, ![64000, 1, 128]⟩ : Shape).Idx → α :=
  fun y => grow tb (pf (ValueIdx.ix1 (y 0))) (y 2)

end Cert.Proof.GSpec

end
-- ==== Proof.MsgValue.lean ====
import proofs.«401076_j19361712571372_2_alg».proof.Proof.Gen.KernelIdeal
import proofs.«401076_j19361712571372_2_alg».proof.Proof.Gen.ReferenceIdeal
import proofs.«401076_j19361712571372_2_alg».proof.Proof.GSpec
import proofs.«401076_j19361712571372_2_alg».proof.Proof.PSpec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.HandValue

open Cert.KernelIdeal Cert.Proof.GSpec Cert.Proof.PSpec
open Idealize.ShloMosaic

variable {F : FTy → Type} [FloatOps F]

/-- A reshape that drops a unit middle axis reads the rank-3 array at `(e, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (e : Fin a) (j : Fin b) :
    shapeCast ⟨2, ![a, b]⟩ x h (ValueIdx.ix2 e j) = x (ValueIdx.ix3 e (0 : Fin 1) j) := by
  refine shapeCast_apply x h _ _ ?_
  rw [Shape.rowMajor_val_three, Shape.rowMajor_val_two]
  show (e.val * 1 + 0) * b + j.val = e.val * b + j.val
  rw [Nat.mul_one, Nat.add_zero]

/-- A reshape that adds a unit middle axis reads the rank-2 array at `(n, j)`. -/
theorem shapeCast_ab_a1b_apply {α : Type} {a b : ℕ} (x : (⟨2, ![a, b]⟩ : Shape).Idx → α)
    (h : (⟨2, ![a, b]⟩ : Shape).ShapeCasts ⟨3, ![a, 1, b]⟩) (n : Fin a) (j : Fin b) :
    shapeCast ⟨3, ![a, 1, b]⟩ x h (ValueIdx.ix3 n (0 : Fin 1) j) = x (ValueIdx.ix2 n j) := by
  refine shapeCast_apply x h _ _ ?_
  rw [Shape.rowMajor_val_three, Shape.rowMajor_val_two]
  show n.val * b + j.val = (n.val * 1 + 0) * b + j.val
  rw [Nat.mul_one, Nat.add_zero]

/-- A concatenation whose piece list IS `N` pieces of one shape and extent `K` along the axis, read at an index: piece
    `c / K` at `c % K`. -/
theorem concatenate_eq_ofFn_apply {α : Type} {t s₁ : Shape} (a : Fin t.rank) {N : Nat} (f : Fin N → (s₁.Idx → α))
    (xs : List ((s : Shape) × (s.Idx → α)))
    (hxs : xs = List.ofFn fun n : Fin N => (⟨s₁, f n⟩ : (s : Shape) × (s.Idx → α)))
    (h : Shape.Concatenates (xs.map (·.1)) t a) (hr : s₁.rank = t.rank) (K : Nat) (hK : s₁.size (a.cast hr.symm) = K)
    (j : t.Idx) (n : Fin N) (hn : (j a).val / K = n.val) (i : s₁.Idx)
    (hia : (i (a.cast hr.symm)).val = (j a).val % K)
    (hi : ∀ b : Fin s₁.rank, b.cast hr ≠ a → (i b).val = (j (b.cast hr)).val) :
    concatenate t a xs h j = f n i := by
  subst hxs
  exact concatenate_ofFn_apply a f h hr K hK j n hn i hia hi

/-- The `n`-th 64000-slice of the 640000 edge sources lies inside them. -/
theorem slices_chunk (n : Fin 10) : S640000.Slices ![64000 * n.val] S64000 :=
  ⟨rfl, fun a => by
    match a with
    | ⟨0, _⟩ =>
      show 64000 * n.val + 64000 ≤ 640000
      omega⟩

/-- The `n`-th 64000-slice of the edge sources reads entry `64000 n + r`. -/
theorem slice_chunk_apply (src : IVec S640000 32) (n : Fin 10) (r : Fin 64000) (e : Fin 640000)
    (he : e.val = 64000 * n.val + r.val) :
    extractStridedSlice S64000 ![64000 * n.val] src (slices_chunk n) (ValueIdx.ix1 r) = src (ValueIdx.ix1 e) := by
  refine extractStridedSlice_apply _ src _ _ (ValueIdx.ix1 e) ?_
  intro a
  match a with
  | ⟨0, _⟩ => exact he

/-- The kernel program's edge messages: the ten calls' output arrays (each the node-table rows named by its 64000-slice of
    the edge sources, the node table the features with a unit middle axis) concatenated along the edges and the unit axis
    dropped are, entry by entry, `feat (src e, j)`. -/
theorem kernel_msgs (feat : FVec F S50000x128 .f32) (src : IVec S640000 32) :
    shapeCast S640000x128
        (concatenate S640000x1x128 0
          [⟨S64000x1x128, gchunk (shapeCast S50000x1x128 feat Facts₀.shapeCasts_S50000x128_S50000x1x128) (extractStridedSlice S64000 ![0] src Facts₀.slices_S640000_S64000_0)⟩,
           ⟨S64000x1x128, gchunk (shapeCast S50000x1x128 feat Facts₀.shapeCasts_S50000x128_S50000x1x128) (extractStridedSlice S64000 ![64000] src Facts₀.slices_S640000_S64000_64000)⟩,
           ⟨S64000x1x128, gchunk (shapeCast S50000x1x128 feat Facts₀.shapeCasts_S50000x128_S50000x1x128) (extractStridedSlice S64000 ![128000] src Facts₀.slices_S640000_S64000_128000)⟩,
           ⟨S64000x1x128, gchunk (shapeCast S50000x1x128 feat Facts₀.shapeCasts_S50000x128_S50000x1x128) (extractStridedSlice S64000 ![192000] src Facts₀.slices_S640000_S64000_192000)⟩,
           ⟨S64000x1x128, gchunk (shapeCast S50000x1x128 feat Facts₀.shapeCasts_S50000x128_S50000x1x128) (extractStridedSlice S64000 ![256000] src Facts₀.slices_S640000_S64000_256000)⟩,
           ⟨S64000x1x128, gchunk (shapeCast S50000x1x128 feat Facts₀.shapeCasts_S50000x128_S50000x1x128) (extractStridedSlice S64000 ![320000] src Facts₀.slices_S640000_S64000_320000)⟩,
           ⟨S64000x1x128, gchunk (shapeCast S50000x1x128 feat Facts₀.shapeCasts_S50000x128_S50000x1x128) (extractStridedSlice S64000 ![384000] src Facts₀.slices_S640000_S64000_384000)⟩,
           ⟨S64000x1x128, gchunk (shapeCast S50000x1x128 feat Facts₀.shapeCasts_S50000x128_S50000x1x128) (extractStridedSlice S64000 ![448000] src Facts₀.slices_S640000_S64000_448000)⟩,
           ⟨S64000x1x128, gchunk (shapeCast S50000x1x128 feat Facts₀.shapeCasts_S50000x128_S50000x1x128) (extractStridedSlice S64000 ![512000] src Facts₀.slices_S640000_S64000_512000)⟩,
           ⟨S64000x1x128, gchunk (shapeCast S50000x1x128 feat Facts₀.shapeCasts_S50000x128_S50000x1x128) (extractStridedSlice S64000 ![576000] src Facts₀.slices_S640000_S64000_576000)⟩]
          Facts₀.concatenates_S64000x1x128_S64000x1x128_S64000x1x128_S64000x1x128_S64000x1x128_S64000x1x128_S64000x1x128_S64000x1x128_S64000x1x128_S64000x1x128_S640000x1x128_d0)
        Facts₀.shapeCasts_S640000x1x128_S640000x128
      = msgSpec feat src := by
  funext i
  obtain ⟨e, j, rfl⟩ : ∃ (e : Fin 640000) (j : Fin 128), i = ValueIdx.ix2 e j := ⟨i 0, i 1, ValueIdx.eq_ix2 i⟩
  refine (shapeCast_a1b_ab_apply _ _ e j).trans ?_
  have he := e.isLt
  have hn : e.val / 64000 < 10 := by omega
  -- edge `e` lies in piece `e / 64000`, at row `e % 64000` of it
  refine (concatenate_eq_ofFn_apply (s₁ := S64000x1x128) (N := 10) _
    (fun n : Fin 10 => gchunk (shapeCast S50000x1x128 feat Facts₀.shapeCasts_S50000x128_S50000x1x128)
      (extractStridedSlice S64000 ![64000 * n.val] src (slices_chunk n)))
    _ (by rfl) _ (by rfl) 64000 (by rfl) _ (⟨e.val / 64000, hn⟩ : Fin 10) (by rfl)
    (ValueIdx.ix3 (⟨e.val % 64000, Nat.mod_lt _ (by decide)⟩ : Fin 64000) (0 : Fin 1) j) (by rfl) ?_).trans ?_
  · intro b hb
    match b with
    | ⟨0, _⟩ => exact absurd rfl hb
    | ⟨1, _⟩ => rfl
    | ⟨2, _⟩ => rfl
  · -- the slice's entry is the edge's own source word, and the reshaped table's row is the features' row
    show (shapeCast S50000x1x128 feat Facts₀.shapeCasts_S50000x128_S50000x1x128)
        (ValueIdx.ix3 (⟨(extractStridedSlice S64000 ![64000 * (e.val / 64000)] src (slices_chunk ⟨e.val / 64000, hn⟩)
          (ValueIdx.ix1 (⟨e.val % 64000, Nat.mod_lt _ (by decide)⟩ : Fin 64000))).toNat % 50000, Nat.mod_lt _ (by decide)⟩ : Fin 50000)
          (0 : Fin 1) j) = _
    rw [slice_chunk_apply src ⟨e.val / 64000, hn⟩ ⟨e.val % 64000, Nat.mod_lt _ (by decide)⟩ e
      (by show e.val = 64000 * (e.val / 64000) + e.val % 64000; omega)]
    exact shapeCast_ab_a1b_apply feat _ _ j

end Cert.KernelIdeal.HandValue

namespace Cert.ReferenceIdeal.HandValue

open Cert.ReferenceIdeal Cert.Proof.PSpec
open Idealize.ShloMosaic

variable {F : FTy → Type} [FloatOps F]

/-- The row coordinate the row-take gather reads: the start index, read signed and clamped into the table's rows. -/
theorem gather_rows_coord0 {w : Nat} (idx : IVec S640000x1 w) (e : Fin 640000) (j : Fin 128) :
    (gather_S50000x128_S640000x1_S640000x128_1_0_n_n_0_1_1128.operandIdx (ValueIdx.ix2 e j) idx (0 : Fin 2)).val
      = min (idx (ValueIdx.ix2 e (0 : Fin 1))).toInt.toNat 49999 := by
  show gather_S50000x128_S640000x1_S640000x128_1_0_n_n_0_1_1128.start (ValueIdx.ix2 e j) idx (0 : Fin 2)
      + gather_S50000x128_S640000x1_S640000x128_1_0_n_n_0_1_1128.batchCoord (ValueIdx.ix2 e j) (0 : Fin 2)
      + gather_S50000x128_S640000x1_S640000x128_1_0_n_n_0_1_1128.offCoord (ValueIdx.ix2 e j) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S50000x128_S640000x1_S640000x128_1_0_n_n_0_1_1128.startIndexMap from
    List.mem_singleton.mpr rfl)]
  have hsi : gather_S50000x128_S640000x1_S640000x128_1_0_n_n_0_1_1128.siIdx (ValueIdx.ix2 e j)
      ⟨List.idxOf (0 : Fin 2) gather_S50000x128_S640000x1_S640000x128_1_0_n_n_0_1_1128.startIndexMap,
        List.idxOf_lt_length_iff.2 (List.mem_singleton.mpr rfl)⟩ = ValueIdx.ix2 e (0 : Fin 1) := by
    funext b; refine Fin.ext ?_
    match b with
    | ⟨0, _⟩ => rfl
    | ⟨1, _⟩ => rfl
  rw [hsi]
  rfl

/-- The lane coordinate the row-take gather reads: the result's. -/
theorem gather_rows_coord1 {w : Nat} (idx : IVec S640000x1 w) (e : Fin 640000) (j : Fin 128) :
    (gather_S50000x128_S640000x1_S640000x128_1_0_n_n_0_1_1128.operandIdx (ValueIdx.ix2 e j) idx (1 : Fin 2)).val
      = j.val := by
  show gather_S50000x128_S640000x1_S640000x128_1_0_n_n_0_1_1128.start (ValueIdx.ix2 e j) idx (1 : Fin 2)
      + gather_S50000x128_S640000x1_S640000x128_1_0_n_n_0_1_1128.batchCoord (ValueIdx.ix2 e j) (1 : Fin 2)
      + gather_S50000x128_S640000x1_S640000x128_1_0_n_n_0_1_1128.offCoord (ValueIdx.ix2 e j) (1 : Fin 2) = _
  rw [GatherDims.batchCoord_eq_zero _ _ _ List.not_mem_nil]
  unfold GatherDims.start
  rw [dif_neg (show (1 : Fin 2) ∉ gather_S50000x128_S640000x1_S640000x128_1_0_n_n_0_1_1128.startIndexMap from by decide)]
  unfold GatherDims.offCoord
  rw [dif_pos (show (1 : Fin 2) ∈ gather_S50000x128_S640000x1_S640000x128_1_0_n_n_0_1_1128.sKept from by decide)]
  simp only [Nat.add_zero, Nat.zero_add]
  rfl

/-- The row-take gather read at an index: the operand's row named by the start index (read signed, clamped into the
    table's rows), at the same lane. -/
theorem gather_rows_apply {α : Type} {w : Nat} (x : S50000x128.Idx → α) (idx : IVec S640000x1 w)
    (e : Fin 640000) (j : Fin 128) :
    Host.gather gather_S50000x128_S640000x1_S640000x128_1_0_n_n_0_1_1128 x idx (ValueIdx.ix2 e j)
      = x (ValueIdx.ix2 (⟨min (idx (ValueIdx.ix2 e (0 : Fin 1))).toInt.toNat 49999, by omega⟩ : Fin 50000) j) := by
  unfold Host.gather
  refine congrArg x (funext fun a => Fin.ext ?_)
  match a with
  | ⟨0, _⟩ => exact gather_rows_coord0 idx e j
  | ⟨1, _⟩ => exact gather_rows_coord1 idx e j

/-- The reference's edge messages: for source words that name rows of the node table (none negative, so the wrap-around
    select leaves them as they are, and none past the end, so the gather's clamp does nothing) the gathered array is,
    entry by entry, `feat (src e, j)`. -/
theorem ref_msgs (feat : FVec F S50000x128 .f32) (src : IVec S640000 32)
    (hsrc : ∀ e : S640000.Idx, (src e).toNat < 50000) :
    Host.gather gather_S50000x128_S640000x1_S640000x128_1_0_n_n_0_1_1128 feat
        (broadcastInDim S640000x1 ![0] Facts₀.bcast_S640000_S640000x1_0
          (select (cmpi .slt src (broadcastInDim S640000 ![] Facts₀.bcast_S_S640000 (constantI S_ 32 0#32)))
            (addi src (broadcastInDim S640000 ![] Facts₀.bcast_S_S640000 (constantI S_ 32 50000#32))) src))
      = msgSpec feat src := by
  funext i
  obtain ⟨e, j, rfl⟩ : ∃ (e : Fin 640000) (j : Fin 128), i = ValueIdx.ix2 e j := ⟨i 0, i 1, ValueIdx.eq_ix2 i⟩
  rw [gather_rows_apply]
  have hlt : (src (ValueIdx.ix1 e)).toNat < 50000 := hsrc (ValueIdx.ix1 e)
  -- the start index of edge `e` is its source word: the word is not negative, so the select keeps it
  have hw : (broadcastInDim S640000x1 ![0] Facts₀.bcast_S640000_S640000x1_0
      (select (cmpi .slt src (broadcastInDim S640000 ![] Facts₀.bcast_S_S640000 (constantI S_ 32 0#32)))
        (addi src (broadcastInDim S640000 ![] Facts₀.bcast_S_S640000 (constantI S_ 32 50000#32))) src))
      (ValueIdx.ix2 e (0 : Fin 1)) = src (ValueIdx.ix1 e) := by
    refine (broadcastInDim_apply _ _ _ _ (ValueIdx.ix1 e) ?_).trans ?_
    · intro a
      match a with
      | ⟨0, _⟩ => rfl
    · have h0 : ¬ IntOp.cmpi .slt (src (ValueIdx.ix1 e)) 0#32 = 1#1 := by
        rw [StableHlo.Predicate.slt_iff_toNat (by omega) (by decide)]
        simp
      show Scalar.select (IntOp.cmpi .slt (src (ValueIdx.ix1 e)) 0#32) _ (src (ValueIdx.ix1 e)) = _
      exact if_neg h0
  unfold msgSpec
  refine congrArg feat (funext fun a => Fin.ext ?_)
  match a with
  | ⟨0, _⟩ =>
    show min (_ : BitVec 32).toInt.toNat 49999 = (src (ValueIdx.ix1 e)).toNat % 50000
    rw [hw, StableHlo.Predicate.toInt_eq_toNat_of_lt (by omega), Int.toNat_natCast]
    omega
  | ⟨1, _⟩ => rfl

end Cert.ReferenceIdeal.HandValue

end
-- ==== Proof.Proj.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the projection region is entered
variable (V : (c : Dev nD) → (b : Ref sig .tc) → Buf (Elt F) ((c : Thread nD τ).loc b))

/-- Window `w`'s block at grid point `t` of the projection call, read off its array as the region finds it. -/
def pblk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What one grid step stores into the output block: the 2000 × 128 block of aggregated rows times the 128 × 128
    weight (both narrowed to bf16 first, the product accumulated from zero in f32) plus the bias row broadcast down
    the rows. -/
def projOut (x0 : Vec F S2000x128 .f32) (x1 : Vec F S128x128 .f32) (x2 : Vec F S1x128 .f32) : Vec F S2000x128 .f32 :=
  addf (matmul dot_S2000x128_S128x128_S2000x128_1_0_0_1_n_n none
      (truncf .bf16 (shapeCast S2000x128 x0 shapeCasts_S2000x128_S2000x128) bitsLt_bf16_f32)
      (truncf .bf16 x1 bitsLt_bf16_f32) (constant S2000x128 .f32 0x00000000#32))
    (broadcastTo S2000x128 x2 broadcasts_S1x128_S2000x128)

/-- The proof data of the projection pipeline on core `c`: arrays as found; after the body each input buffer at its
    block and the output buffer at `projOut` of the three input blocks; nothing owed, full shares, the plain invariant. -/
def pdat (c : Dev nD) : Dat τ (Elt F) Unit ℕ (Pipeline.UD sig nD τ) ℕ cfg10 c where
  A w := V c (Pipeline.arrRef spec10 w)
  after w t := match w with
    | ⟨0, _⟩ => pblk V c 0 t
    | ⟨1, _⟩ => pblk V c 1 t
    | ⟨2, _⟩ => pblk V c 2 t
    | ⟨3, _⟩ => projOut (pblk V c 0 t) (pblk V c 1 t) (pblk V c 2 t)
  Φ _ := Pipeline.ΦA spec10 c
  q _ := fullShare
  owed _ := 0

theorem pdat_A (c : Dev nD) (w : Fin cfg10.W) : (pdat V c).A w = V c (Pipeline.arrRef spec10 w) := by
  dsimp only [pdat]
theorem pdat_after0 (c : Dev nD) (t : Fin cfg10.N) : (pdat V c).after 0 t = pblk V c 0 t := by dsimp only [pdat]
theorem pdat_after1 (c : Dev nD) (t : Fin cfg10.N) : (pdat V c).after 1 t = pblk V c 1 t := by dsimp only [pdat]
theorem pdat_after2 (c : Dev nD) (t : Fin cfg10.N) : (pdat V c).after 2 t = pblk V c 2 t := by dsimp only [pdat]
theorem pdat_after3 (c : Dev nD) (t : Fin cfg10.N) :
    (pdat V c).after 3 t = projOut (pblk V c 0 t) (pblk V c 1 t) (pblk V c 2 t) := by dsimp only [pdat]

/-! ## Each input window's staging buffer holds its block at every point

An input window the body leaves in place holds, at every grid point, the block a fetch there would put in it, fetched
there or not: where it is not fetched its block index has not moved (windows 1 and 2 after the first point). -/

private theorem proj_before0 (c : Dev nD) (t : Fin cfg10.N) (d) : (pdat V c).before 0 t d = pblk V c 0 t :=
  ((pdat V c).before_in_eq_fetched 0 rfl (fun _ => rfl) (fun _ _ _ => rfl)
      (fun t => by rw [pdat_after0]; unfold Dat.blockOf pblk; rw [pdat_A]; try rfl) t d).trans
    (by unfold Dat.fetched Dat.blockOf pblk; rw [pdat_A]; try rfl)

private theorem proj_before1 (c : Dev nD) (t : Fin cfg10.N) (d) : (pdat V c).before 1 t d = pblk V c 1 t :=
  ((pdat V c).before_in_eq_fetched 1 rfl (fun _ => rfl) (fun _ _ _ => rfl)
      (fun t => by rw [pdat_after1]; unfold Dat.blockOf pblk; rw [pdat_A]; try rfl) t d).trans
    (by unfold Dat.fetched Dat.blockOf pblk; rw [pdat_A]; try rfl)

private theorem proj_before2 (c : Dev nD) (t : Fin cfg10.N) (d) : (pdat V c).before 2 t d = pblk V c 2 t :=
  ((pdat V c).before_in_eq_fetched 2 rfl (fun _ => rfl) (fun _ _ _ => rfl)
      (fun t => by rw [pdat_after2]; unfold Dat.blockOf pblk; rw [pdat_A]; try rfl) t d).trans
    (by unfold Dat.fetched Dat.blockOf pblk; rw [pdat_A]; try rfl)

/-! ## Loads and a store through a whole block

A rectangle at zero offsets, of the shape's own sizes, places each index at itself: a load through it reads the
buffer's contents, and one store through it leaves exactly its payload, whatever the buffer held. -/

private theorem off00 : (![0, 0] : Fin 2 → Nat) = fun _ => 0 := funext fun a => by fin_cases a <;> rfl

private theorem readAt_zero_off {κ : Kind} {sp : Space} {S : Shape} {e : EltTy} {off : Fin S.rank → Nat}
    (h : off = fun _ => 0) (inb : ∀ a, off a + S.size a ≤ S.size a) (v : View sig κ sp S e)
    (f : v.ty.Contents (Elt F)) :
    v.readAt (Elt F) (Rect.unit off S.size inb).toLoadRect f = v.read (Elt F) f := by
  subst h
  funext x
  show v.read (Elt F) f ((Rect.whole S).emb x) = v.read (Elt F) f x
  rw [Rect.emb_whole_apply]

private theorem read_store_zero_off {κ : Kind} {sp : Space} {S : Shape} {e : EltTy} {off : Fin S.rank → Nat}
    (h : off = fun _ => 0) (inb : ∀ a, off a + S.size a ≤ S.size a) (v : View sig κ sp S e)
    (f : v.ty.Contents (Elt F)) (w : S.Idx → Elt F e) :
    v.read (Elt F) (v.writes (Elt F) f [(⟨Rect.unit off S.size inb, w⟩ : View.Piece (Elt F) S e)]) = w := by
  subst h
  funext y
  have hy := View.read_writes_cons_emb (v := v) (f := f) (Rect.whole S) w [] y
  rwa [Rect.emb_whole_apply] at hy

/-! ## The body's triple -/

set_option maxHeartbeats 1000000 in
/-- The kernel body on whole staging memrefs, the three inputs' at read contents `x0`, `x1`, `x2` and the output's at
    anything, runs to the continuation holding the inputs' as they were and the output's at `projOut x0 x1 x2`: each
    load goes through a whole block and reads that block's contents, and the one store goes through the whole output
    block, so what it leaves is its payload, the sum of the product and the broadcast bias. -/
private theorem proj_sound_kernel (c : Dev nD) (E : Set ℕ) (i : grid10.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (projOut x0 x1 x2)) -∗ K ⟨⟩))
      ⊢ wp frame (wpE (defs₀ (F := F)) Variants.none c none) E (cc10__proj_kernel i arg1 harg1 arg2 harg2 arg3 harg3 arg4 harg4) K := by
  simp only [cc10__proj_kernel_eq_skeleton]; unfold cc10__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store_zero_off off00, readAt_zero_off off00, readAt_zero_off off00, readAt_zero_off off00]
  unfold k10_pay1 projOut
  rfl

/-! ## The body obligation, at a generic point -/

/-- What the body is called with at point `t`: the invariant, the core's debt, and each window's current staging
    buffer at what it holds before the body, the windows one by one, -/
private def projBodyPre (c : Dev nD) (t : Fin cfg10.N) : sProp 𝕄 :=
  iprop((pdat V c).Φ t.castSucc ∗ (pdat V c).owesAt () t.castSucc
    ∗ (∃ d, owns (c : Thread nD τ) (st10_0 t) fullShare ((pdat V c).before 0 t d))
    ∗ (∃ d, owns (c : Thread nD τ) (st10_1 t) fullShare ((pdat V c).before 1 t d))
    ∗ (∃ d, owns (c : Thread nD τ) (st10_2 t) fullShare ((pdat V c).before 2 t d))
    ∗ (∃ d, owns (c : Thread nD τ) (st10_3 t) fullShare ((pdat V c).before 3 t d)))

/-- and what it returns: the same, each buffer at what the body leaves in it. -/
private def projBodyPost (c : Dev nD) (t : Fin cfg10.N) : sProp 𝕄 :=
  iprop((pdat V c).Φ t.succ ∗ (pdat V c).owesAt () t.succ
    ∗ owns (c : Thread nD τ) (st10_0 t) fullShare ((pdat V c).after 0 t)
    ∗ owns (c : Thread nD τ) (st10_1 t) fullShare ((pdat V c).after 1 t)
    ∗ owns (c : Thread nD τ) (st10_2 t) fullShare ((pdat V c).after 2 t)
    ∗ owns (c : Thread nD τ) (st10_3 t) fullShare ((pdat V c).after 3 t))

/-- The body at any point: the three inputs' staging buffers hold their blocks, so the kernel's triple applies at those
    blocks; the invariant and the core's debt are the same before and after a point and pass through unread. -/
private theorem proj_sound_body (c : Dev nD) (t : Fin cfg10.N) :
    projBodyPre V c t ⊢ wp frame (wpE (defs₀ (F := F)) Variants.none c none) Set.univ (bodyAt10 t) (fun _ => projBodyPost V c t) := by
  unfold projBodyPre projBodyPost bodyAt10
  simp only [proj_before0, proj_before1, proj_before2]
  rw [show (pdat V c).Φ t.succ = (pdat V c).Φ t.castSucc from rfl,
    show (pdat V c).owesAt () t.succ = (pdat V c).owesAt () t.castSucc from rfl,
    pdat_after0, pdat_after1, pdat_after2, pdat_after3]
  iintro ⟨HΦ, Ho, ⟨%d0, H0⟩, ⟨%d1, H1⟩, ⟨%d2, H2⟩, ⟨%d3, H3⟩⟩
  iapply (proj_sound_kernel c Set.univ (grid10.coords t) _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection call, at every grid point. -/
theorem proj_obligation (c : Dev nD) : BodyObligation (pdat (F := F) V c) (defs₀ (F := F)) Variants.none () Set.univ := by
  intro t
  rw [bigSep_W10, bigSep_W10]
  exact proj_sound_body V c t

end

end Cert.KernelIdeal.Hand

end
-- ==== Proof.ProjValue.lean ====
import proofs.«401076_j19361712571372_2_alg».proof.Proof.Proj
import proofs.«401076_j19361712571372_2_alg».proof.Proof.PSpec
import proofs.«401076_j19361712571372_2_alg».proof.Proof.Gen.ReferenceIdeal
import proofs.«401076_j19361712571372_2_alg».proof.Proof.Gen.ReferenceIdeal.Read
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.HandValue

open Cert.KernelIdeal Cert.KernelIdeal.Gen Cert.KernelIdeal.Hand Cert.Proof.PSpec
open Idealize.ShloMosaic Idealize.ShloMosaic.TcCoe
open Idealize.ShloMosaic.Pipeline (Dat Cfg Window)

/-! ## The product of one block at an index -/

/-- The product's left operand is read at the output's row -/
theorem plhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- and the contracted feature; -/
theorem plhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- the right operand at the contracted feature -/
theorem prhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- and the output's column. -/
theorem prhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product into the zero accumulator, at row `p` and column `q`: the sum over the 128 features. -/
theorem matmul_ix (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ValueIdx.ix2 p q)
      = ∑ k : Fin 128, x (ValueIdx.ix2 p k) * w (ValueIdx.ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ValueIdx.ix2 p q) ((ValueIdx.contrEquiv1 dot_S2000x128_S128x128_S2000x128_1_0_0_1_n_n 128 rfl rfl).symm k) = ValueIdx.ix2 p k := funext fun a => Fin.ext (by
    match a with
    | ⟨0, _⟩ => exact plhs_0 _ _
    | ⟨1, _⟩ => exact (plhs_1 _ _).trans hk)
  have er : dot_S2000x128_S128x128_S2000x128_1_0_0_1_n_n.rhsIdx (ValueIdx.ix2 p q) ((ValueIdx.contrEquiv1 dot_S2000x128_S128x128_S2000x128_1_0_0_1_n_n 128 rfl rfl).symm k) = ValueIdx.ix2 k q := funext fun a => Fin.ext (by
    match a with
    | ⟨0, _⟩ => exact (prhs_0 _ _).trans hk
    | ⟨1, _⟩ => exact prhs_1 _ _)
  rw [el, er]

/-- What one step stores, as the operations of its three blocks. -/
theorem projOut_eq (x0 : Vec Ideal S2000x128 .f32) (x1 : Vec Ideal S128x128 .f32) (x2 : Vec Ideal S1x128 .f32) :
    projOut (F := Ideal) x0 x1 x2
      = addf (matmul dot_S2000x128_S128x128_S2000x128_1_0_0_1_n_n none
          (truncf .bf16 (shapeCast S2000x128 x0 shapeCasts_S2000x128_S2000x128) bitsLt_bf16_f32)
          (truncf .bf16 x1 bitsLt_bf16_f32) (constant (F := Ideal) S2000x128 .f32 0x00000000#32))
        (broadcastTo S2000x128 x2 broadcasts_S1x128_S2000x128) := rfl

/-- What one step stores, at row `p` and column `q` of its block: over the extended reals the narrowing is the identity,
    so it is the sum over the features of the block's row times the weight's column, plus the bias at the column. -/
theorem projOut_ix (x0 : Vec Ideal S2000x128 .f32) (x1 : Vec Ideal S128x128 .f32) (x2 : Vec Ideal S1x128 .f32)
    (p : Fin 2000) (q : Fin 128) :
    projOut (F := Ideal) x0 x1 x2 (ValueIdx.ix2 p q) = (∑ k : Fin 128, x0 (ValueIdx.ix2 p k) * x1 (ValueIdx.ix2 k q)) + x2 (ValueIdx.ix2 (0 : Fin 1) q) := by
  rw [projOut_eq, ValueIdx.addf_apply, matmul_ix, ValueIdx.broadcastTo_1b_ab_apply]
  simp only [ValueIdx.truncf_apply, shapeCast_self]

/-! ## The three input blocks, as the arrays read at an index -/

/-- The block index maps, decided once over the 25 steps: the rows' windows (the aggregate's and the output's) are at
    block (t, 0), the weight's and the bias's windows at block (0, 0). -/
theorem idx_facts : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

section
variable (V : (c : Dev nD) → (b : Ref sig .tc) → Buf (Elt Ideal) ((c : Thread nD τ).loc b))

/-- Row `p` of step `t`'s block of the aggregate is row `2000 t + p` of the array. -/
theorem pblk0_ix (c : Dev nD) (t : Fin cfg10.N) (y : S2000x128.Idx) (i : S50000x128.Idx)
    (h0 : (i 0).val = 2000 * t.val + (y 0).val) (h1 : (i 1).val = (y 1).val) :
    (pblk V c 0 t : S2000x128.Idx → EReal) y = (V c main_v25 : S50000x128.Idx → EReal) i := by
  obtain ⟨e0, e1, -⟩ := idx_facts t
  unfold pblk
  rw [View.read_apply]
  show V c main_v25 _ = V c main_v25 _
  congr 1
  funext a
  apply Fin.ext
  match a with
  | ⟨0, _⟩ => show win10_0.index t 0 * 2000 + 1 * (y 0).val = (i 0).val; rw [e0, h0]; omega
  | ⟨1, _⟩ => show win10_0.index t 1 * 128 + 1 * (y 1).val = (i 1).val; rw [e1, h1]; omega

/-- The weight's one block is the weight. -/
theorem pblk1_eq (c : Dev nD) (t : Fin cfg10.N) :
    (pblk V c 1 t : S128x128.Idx → EReal) = (V c main_arg3 : S128x128.Idx → EReal) := by
  obtain ⟨-, -, e0, e1, -⟩ := idx_facts t
  funext y
  unfold pblk
  rw [View.read_apply]
  show V c main_arg3 _ = V c main_arg3 _
  congr 1
  funext a
  apply Fin.ext
  match a with
  | ⟨0, _⟩ => show win10_1.index t 0 * 128 + 1 * (y 0).val = (y 0).val; rw [e0]; omega
  | ⟨1, _⟩ => show win10_1.index t 1 * 128 + 1 * (y 1).val = (y 1).val; rw [e1]; omega

/-- The bias's one block is the bias. -/
theorem pblk2_eq (c : Dev nD) (t : Fin cfg10.N) :
    (pblk V c 2 t : S1x128.Idx → EReal) = (V c main_arg4 : S1x128.Idx → EReal) := by
  obtain ⟨-, -, -, -, e0, e1, -⟩ := idx_facts t
  funext y
  unfold pblk
  rw [View.read_apply]
  show V c main_arg4 _ = V c main_arg4 _
  congr 1
  funext a
  apply Fin.ext
  match a with
  | ⟨0, _⟩ => show win10_2.index t 0 * 1 + 1 * (y 0).val = (y 0).val; rw [e0]; omega
  | ⟨1, _⟩ => show win10_2.index t 1 * 128 + 1 * (y 1).val = (y 1).val; rw [e1]; omega

/-- One entry. When a step's first block is rows `2000 t …` of the aggregate, what it stores at (p, q) of its block
    is the projection's entry (2000 t + p, q). -/
theorem proj_point (agg : S50000x128.Idx → EReal) (W : S128x128.Idx → EReal) (b : S1x128.Idx → EReal)
    (x0 : Vec Ideal S2000x128 .f32) (x1 : Vec Ideal S128x128 .f32) (x2 : Vec Ideal S1x128 .f32)
    (tv : Nat) (y : S2000x128.Idx) (i : S50000x128.Idx)
    (hx0 : ∀ (y' : S2000x128.Idx) (i' : S50000x128.Idx), (i' 0).val = 2000 * tv + (y' 0).val → (i' 1).val = (y' 1).val → x0 y' = agg i')
    (hx1 : x1 = W) (hx2 : x2 = b)
    (hi0 : (i 0).val = 2000 * tv + (y 0).val) (hi1 : (i 1).val = (y 1).val) :
    projOut (F := Ideal) x0 x1 x2 y = projSpec agg W b i := by
  subst hx1; subst hx2
  obtain ⟨p, q, rfl⟩ : ∃ (p : Fin 2000) (q : Fin 128), y = ValueIdx.ix2 p q := ⟨y 0, y 1, ValueIdx.eq_ix2 y⟩
  obtain ⟨r, s, rfl⟩ : ∃ (r : Fin 50000) (s : Fin 128), i = ValueIdx.ix2 r s := ⟨i 0, i 1, ValueIdx.eq_ix2 i⟩
  obtain rfl : s = q := Fin.ext hi1
  rw [projOut_ix]
  show _ = (∑ k : Fin 128, agg (ValueIdx.ix2 r k) * x1 (ValueIdx.ix2 k s)) + x2 (ValueIdx.ix2 (0 : Fin 1) s)
  congr 1
  refine Finset.sum_congr rfl fun k _ => ?_
  rw [hx0 (ValueIdx.ix2 p k) (ValueIdx.ix2 r k) hi0 rfl]

/-! ## From the 25 blocks to the array -/

/-- What step `t` writes back is block `t` of the projection of the three arrays as the region finds them. -/
theorem proj_flushed (c : Dev nD) (t : Fin cfg10.N) :
    (pdat (F := Ideal) V c).flushed 3 t
      = ((cfg10.win 3).blk t).view.read (Elt Ideal) (projSpec (V c main_v25) (V c main_arg3) (V c main_arg4)) := by
  show (cfg10.win 3).cut (grid10.coords t) ((pdat V c).after 3 t) = _
  rw [pdat_after3]
  obtain ⟨-, -, -, -, -, -, e0, e1⟩ := idx_facts t
  funext j
  rw [View.read_apply]
  refine proj_point _ _ _ _ _ _ t.val _ _ (fun y' i' h0 h1 => pblk0_ix V c t y' i' h0 h1) (pblk1_eq V c t) (pblk2_eq V c t) ?_ ?_
  · show win10_3.index t 0 * 2000 + 1 * (j 0).val = 2000 * t.val + (j 0).val; rw [e0]; omega
  · show win10_3.index t 1 * 128 + 1 * (j 1).val = (j 1).val; rw [e1]; omega

/-- An index of the output array is in step `t`'s block iff each coordinate is in the block's range on its axis. -/
theorem mem_blk (t : Fin cfg10.N) (i : S50000x128.Idx) :
    i ∈ ((cfg10.win 3).blk t).view.set ↔ ∀ a : Fin 2, win10_3.index t a * S2000x128.size a ≤ (i a).val ∧ (i a).val < win10_3.index t a * S2000x128.size a + S2000x128.size a := by
  show i ∈ ((View.whole main_v26).slice (win10_3.rect t)).set ↔ _
  rw [View.set_slice_whole, Rect.mem_set_unit]
  exact Iff.rfl

/-- Every step writes its block back: the output's block index moves at every step. -/
theorem flush3 : ∀ t : Fin cfg10.N, (cfg10.win 3).flush t = true :=
  (by decide +kernel : ∀ t : Fin grid10.N, _)

/-- The 25 blocks of 2000 rows tile the 50000 rows: row `r` is in step `r / 2000`'s block. -/
theorem proj_cover (i : S50000x128.Idx) :
    ∃ t : Fin cfg10.N, (cfg10.win 3).flush t = true ∧ i ∈ ((cfg10.win 3).blk t).view.set := by
  have hi0 : (i 0).val < 50000 := (i 0).isLt
  have hi1 : (i 1).val < 128 := (i 1).isLt
  have hN : cfg10.N = 25 := N_10
  let t : Fin cfg10.N := ⟨(i 0).val / 2000, by rw [hN]; omega⟩
  obtain ⟨-, -, -, -, -, -, e0, e1⟩ := idx_facts t
  refine ⟨t, flush3 t, ?_⟩
  rw [mem_blk]
  intro a
  match a with
  | ⟨0, _⟩ => show win10_3.index t (0 : Fin 2) * 2000 ≤ (i 0).val ∧ (i 0).val < win10_3.index t (0 : Fin 2) * 2000 + 2000
              rw [e0]; show (i 0).val / 2000 * 2000 ≤ (i 0).val ∧ (i 0).val < (i 0).val / 2000 * 2000 + 2000; omega
  | ⟨1, _⟩ => show win10_3.index t (1 : Fin 2) * 128 ≤ (i 1).val ∧ (i 1).val < win10_3.index t (1 : Fin 2) * 128 + 128
              rw [e1]; omega

end

/-- After the projection call the output array is, entry by entry, the dense projection of the three input arrays as the
    region found them: block `t` of the output is what step `t` stored, the 25 blocks of 2000 rows tile the 50000 rows,
    and at the extended reals the narrowing to bf16 is the identity and the product into a zero accumulator is the
    plain sum over the 128 features. -/
theorem proj_arr (V : (c : Dev nD) → (b : Ref sig .tc) → Buf (Elt Ideal) ((c : Thread nD τ).loc b)) (c : Dev nD) :
    (pdat (F := Ideal) V c).arrAt 3 cfg10.N = projSpec (V c main_v25) (V c main_arg3) (V c main_arg4) :=
  (pdat (F := Ideal) V c).arrAt_eq_of_cover 3 (projSpec (V c main_v25) (V c main_arg3) (V c main_arg4))
    (fun t _ => proj_flushed V c t) proj_cover

end Cert.KernelIdeal.HandValue

namespace Cert.ReferenceIdeal.HandValue

open Cert.ReferenceIdeal Cert.Proof.PSpec
open Idealize.ShloMosaic Idealize.ShloMosaic.ValueIdx

/-- The reference's `dot_general` at an index: the sum over the one contracted axis. -/
theorem ref_dot_apply (agg : FVec Ideal S50000x128 .f32) (W : FVec Ideal S128x128 .f32) (i : S50000x128.Idx) :
    Host.dotGeneral (F := Ideal) dot_S50000x128_S128x128_S50000x128_1_0_0_1_n_n none agg W i
      = ∑ k : Fin 128, agg (ix2 (i 0) k) * W (ix2 k (i 1)) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (i 0) k := funext fun a => Fin.ext (by
    match a with
    | ⟨0, _⟩ => exact Read.lhs_main_v10_0 _ _
    | ⟨1, _⟩ => exact (Read.lhs_main_v10_1 _ _).trans hk)
  have er : dot_S50000x128_S128x128_S50000x128_1_0_0_1_n_n.rhsIdx i ((contrEquiv1 dot_S50000x128_S128x128_S50000x128_1_0_0_1_n_n 128 rfl rfl).symm k) = ix2 k (i 1) := funext fun a => Fin.ext (by
    match a with
    | ⟨0, _⟩ => exact (Read.rhs_main_v10_0 _ _).trans hk
    | ⟨1, _⟩ => exact Read.rhs_main_v10_1 _ _)
  rw [el, er]
  rfl

/-- The bias row broadcast down the rows, at an index. -/
theorem ref_bias_apply (b : FVec Ideal S1x128 .f32) (i : S50000x128.Idx) :
    broadcastInDim S50000x128 ![0, 1] Facts₀.bcast_S1x128_S50000x128_0_1 b i = b (ix2 (0 : Fin 1) (i 1)) :=
  broadcastInDim_apply _ Facts₀.bcast_S1x128_S50000x128_0_1 b i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

/-- The reference's last two operations, `dot_general` then the broadcast bias added, are the same dense projection. -/
theorem ref_proj (agg : FVec Ideal S50000x128 .f32) (W : FVec Ideal S128x128 .f32) (b : FVec Ideal S1x128 .f32) :
    addf (Host.dotGeneral (F := Ideal) dot_S50000x128_S128x128_S50000x128_1_0_0_1_n_n none agg W)
      (broadcastInDim S50000x128 ![0, 1] Facts₀.bcast_S1x128_S50000x128_0_1 b) = projSpec agg W b := by
  funext i
  rw [addf_apply, ref_dot_apply, ref_bias_apply]
  rfl

end Cert.ReferenceIdeal.HandValue

end
-- ==== Proof.RowsJoin0.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 0's scratch buffer, whole, and its sixteen rows as the body addresses them. -/
abbrev gsc0M : Memref sig .tc .vmem S16x1x128 .f32 := Memref.whole cc0_scratch0
abbrev gr0_0M : Memref sig .tc .vmem S1x128 .f32 := ((Memref.whole cc0_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr0_1M : Memref sig .tc .vmem S1x128 .f32 := ((Memref.whole cc0_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr0_2M : Memref sig .tc .vmem S1x128 .f32 := ((Memref.whole cc0_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr0_3M : Memref sig .tc .vmem S1x128 .f32 := ((Memref.whole cc0_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr0_4M : Memref sig .tc .vmem S1x128 .f32 := ((Memref.whole cc0_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr0_5M : Memref sig .tc .vmem S1x128 .f32 := ((Memref.whole cc0_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr0_6M : Memref sig .tc .vmem S1x128 .f32 := ((Memref.whole cc0_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr0_7M : Memref sig .tc .vmem S1x128 .f32 := ((Memref.whole cc0_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr0_8M : Memref sig .tc .vmem S1x128 .f32 := ((Memref.whole cc0_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr0_9M : Memref sig .tc .vmem S1x128 .f32 := ((Memref.whole cc0_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr0_10M : Memref sig .tc .vmem S1x128 .f32 := ((Memref.whole cc0_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr0_11M : Memref sig .tc .vmem S1x128 .f32 := ((Memref.whole cc0_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr0_12M : Memref sig .tc .vmem S1x128 .f32 := ((Memref.whole cc0_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr0_13M : Memref sig .tc .vmem S1x128 .f32 := ((Memref.whole cc0_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr0_14M : Memref sig .tc .vmem S1x128 .f32 := ((Memref.whole cc0_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr0_15M : Memref sig .tc .vmem S1x128 .f32 := ((Memref.whole cc0_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr0_0M.view.set = rowSet (0 : Fin 16) := by
  refine (View.set_reshape _ _).trans ?_
  refine (View.set_slice_whole _ _).trans ?_
  rfl
private theorem row_set_1 : gr0_1M.view.set = rowSet (1 : Fin 16) := by
  refine (View.set_reshape _ _).trans ?_
  refine (View.set_slice_whole _ _).trans ?_
  rfl
private theorem row_set_2 : gr0_2M.view.set = rowSet (2 : Fin 16) := by
  refine (View.set_reshape _ _).trans ?_
  refine (View.set_slice_whole _ _).trans ?_
  rfl
private theorem row_set_3 : gr0_3M.view.set = rowSet (3 : Fin 16) := by
  refine (View.set_reshape _ _).trans ?_
  refine (View.set_slice_whole _ _).trans ?_
  rfl
private theorem row_set_4 : gr0_4M.view.set = rowSet (4 : Fin 16) := by
  refine (View.set_reshape _ _).trans ?_
  refine (View.set_slice_whole _ _).trans ?_
  rfl
private theorem row_set_5 : gr0_5M.view.set = rowSet (5 : Fin 16) := by
  refine (View.set_reshape _ _).trans ?_
  refine (View.set_slice_whole _ _).trans ?_
  rfl
private theorem row_set_6 : gr0_6M.view.set = rowSet (6 : Fin 16) := by
  refine (View.set_reshape _ _).trans ?_
  refine (View.set_slice_whole _ _).trans ?_
  rfl
private theorem row_set_7 : gr0_7M.view.set = rowSet (7 : Fin 16) := by
  refine (View.set_reshape _ _).trans ?_
  refine (View.set_slice_whole _ _).trans ?_
  rfl
private theorem row_set_8 : gr0_8M.view.set = rowSet (8 : Fin 16) := by
  refine (View.set_reshape _ _).trans ?_
  refine (View.set_slice_whole _ _).trans ?_
  rfl
private theorem row_set_9 : gr0_9M.view.set = rowSet (9 : Fin 16) := by
  refine (View.set_reshape _ _).trans ?_
  refine (View.set_slice_whole _ _).trans ?_
  rfl
private theorem row_set_10 : gr0_10M.view.set = rowSet (10 : Fin 16) := by
  refine (View.set_reshape _ _).trans ?_
  refine (View.set_slice_whole _ _).trans ?_
  rfl
private theorem row_set_11 : gr0_11M.view.set = rowSet (11 : Fin 16) := by
  refine (View.set_reshape _ _).trans ?_
  refine (View.set_slice_whole _ _).trans ?_
  rfl
private theorem row_set_12 : gr0_12M.view.set = rowSet (12 : Fin 16) := by
  refine (View.set_reshape _ _).trans ?_
  refine (View.set_slice_whole _ _).trans ?_
  rfl
private theorem row_set_13 : gr0_13M.view.set = rowSet (13 : Fin 16) := by
  refine (View.set_reshape _ _).trans ?_
  refine (View.set_slice_whole _ _).trans ?_
  rfl
private theorem row_set_14 : gr0_14M.view.set = rowSet (14 : Fin 16) := by
  refine (View.set_reshape _ _).trans ?_
  refine (View.set_slice_whole _ _).trans ?_
  rfl
private theorem row_set_15 : gr0_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join0 (c : Dev nD) (f0 f1 f2 f3 f4 f5 f6 f7 f8 f9 f10 f11 f12 f13 f14 f15 : Buf (Elt F) (gsc0M.view.loc (c : Thread nD τ))) :
    (iprop((gsc0M.view.loc (c : Thread nD τ) ↦[gr0_0M.view.set]{fullShare} f0)
        ∗ (gsc0M.view.loc (c : Thread nD τ) ↦[gr0_1M.view.set]{fullShare} f1)
        ∗ (gsc0M.view.loc (c : Thread nD τ) ↦[gr0_2M.view.set]{fullShare} f2)
        ∗ (gsc0M.view.loc (c : Thread nD τ) ↦[gr0_3M.view.set]{fullShare} f3)
        ∗ (gsc0M.view.loc (c : Thread nD τ) ↦[gr0_4M.view.set]{fullShare} f4)
        ∗ (gsc0M.view.loc (c : Thread nD τ) ↦[gr0_5M.view.set]{fullShare} f5)
        ∗ (gsc0M.view.loc (c : Thread nD τ) ↦[gr0_6M.view.set]{fullShare} f6)
        ∗ (gsc0M.view.loc (c : Thread nD τ) ↦[gr0_7M.view.set]{fullShare} f7)
        ∗ (gsc0M.view.loc (c : Thread nD τ) ↦[gr0_8M.view.set]{fullShare} f8)
        ∗ (gsc0M.view.loc (c : Thread nD τ) ↦[gr0_9M.view.set]{fullShare} f9)
        ∗ (gsc0M.view.loc (c : Thread nD τ) ↦[gr0_10M.view.set]{fullShare} f10)
        ∗ (gsc0M.view.loc (c : Thread nD τ) ↦[gr0_11M.view.set]{fullShare} f11)
        ∗ (gsc0M.view.loc (c : Thread nD τ) ↦[gr0_12M.view.set]{fullShare} f12)
        ∗ (gsc0M.view.loc (c : Thread nD τ) ↦[gr0_13M.view.set]{fullShare} f13)
        ∗ (gsc0M.view.loc (c : Thread nD τ) ↦[gr0_14M.view.set]{fullShare} f14)
        ∗ (gsc0M.view.loc (c : Thread nD τ) ↦[gr0_15M.view.set]{fullShare} f15)) : sProp 𝕄)
      ⊢ iprop(∃ g : Buf (Elt F) (gsc0M.view.loc (c : Thread nD τ)),
          ⌜(∀ i ∈ gr0_0M.view.set, g i = f0 i)
            ∧ (∀ i ∈ gr0_1M.view.set, g i = f1 i)
            ∧ (∀ i ∈ gr0_2M.view.set, g i = f2 i)
            ∧ (∀ i ∈ gr0_3M.view.set, g i = f3 i)
            ∧ (∀ i ∈ gr0_4M.view.set, g i = f4 i)
            ∧ (∀ i ∈ gr0_5M.view.set, g i = f5 i)
            ∧ (∀ i ∈ gr0_6M.view.set, g i = f6 i)
            ∧ (∀ i ∈ gr0_7M.view.set, g i = f7 i)
            ∧ (∀ i ∈ gr0_8M.view.set, g i = f8 i)
            ∧ (∀ i ∈ gr0_9M.view.set, g i = f9 i)
            ∧ (∀ i ∈ gr0_10M.view.set, g i = f10 i)
            ∧ (∀ i ∈ gr0_11M.view.set, g i = f11 i)
            ∧ (∀ i ∈ gr0_12M.view.set, g i = f12 i)
            ∧ (∀ i ∈ gr0_13M.view.set, g i = f13 i)
            ∧ (∀ i ∈ gr0_14M.view.set, g i = f14 i)
            ∧ (∀ i ∈ gr0_15M.view.set, g i = f15 i)⌝
          ∗ (gsc0M.view.loc (c : Thread nD τ) ↦[gsc0M.view.set]{fullShare} g)) := by
  have hw : gsc0M.view.set = Finset.univ.biUnion rowSet := (View.set_whole _).trans rowSet_cover.symm
  exact join16 (ℓ := gsc0M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split0 (c : Dev nD) (f : Buf (Elt F) (gsc0M.view.loc (c : Thread nD τ))) :
    (gsc0M.view.loc (c : Thread nD τ) ↦[gsc0M.view.set]{fullShare} f : sProp 𝕄)
      ⊢ iprop((gsc0M.view.loc (c : Thread nD τ) ↦[gr0_0M.view.set]{fullShare} f)
        ∗ (gsc0M.view.loc (c : Thread nD τ) ↦[gr0_1M.view.set]{fullShare} f)
        ∗ (gsc0M.view.loc (c : Thread nD τ) ↦[gr0_2M.view.set]{fullShare} f)
        ∗ (gsc0M.view.loc (c : Thread nD τ) ↦[gr0_3M.view.set]{fullShare} f)
        ∗ (gsc0M.view.loc (c : Thread nD τ) ↦[gr0_4M.view.set]{fullShare} f)
        ∗ (gsc0M.view.loc (c : Thread nD τ) ↦[gr0_5M.view.set]{fullShare} f)
        ∗ (gsc0M.view.loc (c : Thread nD τ) ↦[gr0_6M.view.set]{fullShare} f)
        ∗ (gsc0M.view.loc (c : Thread nD τ) ↦[gr0_7M.view.set]{fullShare} f)
        ∗ (gsc0M.view.loc (c : Thread nD τ) ↦[gr0_8M.view.set]{fullShare} f)
        ∗ (gsc0M.view.loc (c : Thread nD τ) ↦[gr0_9M.view.set]{fullShare} f)
        ∗ (gsc0M.view.loc (c : Thread nD τ) ↦[gr0_10M.view.set]{fullShare} f)
        ∗ (gsc0M.view.loc (c : Thread nD τ) ↦[gr0_11M.view.set]{fullShare} f)
        ∗ (gsc0M.view.loc (c : Thread nD τ) ↦[gr0_12M.view.set]{fullShare} f)
        ∗ (gsc0M.view.loc (c : Thread nD τ) ↦[gr0_13M.view.set]{fullShare} f)
        ∗ (gsc0M.view.loc (c : Thread nD τ) ↦[gr0_14M.view.set]{fullShare} f)
        ∗ (gsc0M.view.loc (c : Thread nD τ) ↦[gr0_15M.view.set]{fullShare} f)) := by
  have hw : gsc0M.view.set = Finset.univ.biUnion rowSet := (View.set_whole _).trans rowSet_cover.symm
  exact split16 (ℓ := gsc0M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows0.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin0
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 0's chunk of the edge-source table in scalar memory, whole. -/
abbrev ghb0M : Memref sig .tc .hbm S50000x1x128 .f32 := Memref.whole main_v0
abbrev gtb0M : Memref sig .tc .smem S64000 .i32 := Memref.whole main_v1

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc0M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb0M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed0 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb0M.view.loc (c : Thread nD τ))) (fs g : Buf (Elt F) (gsc0M.view.loc (c : Thread nD τ)))
    (hg : ∀ i ∈ ((gsc0M.slice (Rect.unit (s := S16x1x128) ![j, 0, 0] S1x1x128.size inb) (fun _ => rfl)).squeeze S1x128 squeezes_S1x1x128_S1x128).view.set,
        g i = ((gsc0M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb0M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc0M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb0M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load0 (c : Dev nD) (g : Buf (Elt F) (gsc0M.view.loc (c : Thread nD τ))) (y : S16x1x128.Idx) :
    View.readAt (Elt F) gsc0M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word0 (pf : S64000.Idx → Elt F .i32) (off : Fin 1 → ℕ) (inb : ∀ a, off a + S1.size a ≤ S64000.size a)
    (n : ℕ) (hn : n < 64000) (hoff : off 0 = n) :
    View.readAt (Elt F) gtb0M.view (Rect.unit (s := S64000) off S1.size inb).toLoadRect
        ((Memref.isWhole_whole _ : gtb0M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs0 (i : grid0.Coords) :
    (k0_off1 i) 0 = 16 * (i 0).val + 0
    ∧ (k0_off3 i) 0 = 16 * (i 0).val + 1
    ∧ (k0_off5 i) 0 = 16 * (i 0).val + 2
    ∧ (k0_off7 i) 0 = 16 * (i 0).val + 3
    ∧ (k0_off9 i) 0 = 16 * (i 0).val + 4
    ∧ (k0_off11 i) 0 = 16 * (i 0).val + 5
    ∧ (k0_off13 i) 0 = 16 * (i 0).val + 6
    ∧ (k0_off15 i) 0 = 16 * (i 0).val + 7
    ∧ (k0_off17 i) 0 = 16 * (i 0).val + 8
    ∧ (k0_off19 i) 0 = 16 * (i 0).val + 9
    ∧ (k0_off21 i) 0 = 16 * (i 0).val + 10
    ∧ (k0_off23 i) 0 = 16 * (i 0).val + 11
    ∧ (k0_off25 i) 0 = 16 * (i 0).val + 12
    ∧ (k0_off27 i) 0 = 16 * (i 0).val + 13
    ∧ (k0_off29 i) 0 = 16 * (i 0).val + 14
    ∧ (k0_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.Shares.lean ====
import Idealize.ShloMosaic.Rules.PointsTo
import Idealize.ShloMosaic.Lib.Memref

noncomputable section

namespace Cert.Proof.Shares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Sixteen shares that make up the full share: the left half, the left half of the right half, and so on; the last is
    what remains. Sixteen readers of one buffer can each hold one. -/
def q16 : Fin 16 → PosShare TreeShare :=
  ![fullShare.left,
    fullShare.right.left,
    fullShare.right.right.left,
    fullShare.right.right.right.left,
    fullShare.right.right.right.right.left,
    fullShare.right.right.right.right.right.left,
    fullShare.right.right.right.right.right.right.left,
    fullShare.right.right.right.right.right.right.right.left,
    fullShare.right.right.right.right.right.right.right.right.left,
    fullShare.right.right.right.right.right.right.right.right.right.left,
    fullShare.right.right.right.right.right.right.right.right.right.right.left,
    fullShare.right.right.right.right.right.right.right.right.right.right.right.left,
    fullShare.right.right.right.right.right.right.right.right.right.right.right.right.left,
    fullShare.right.right.right.right.right.right.right.right.right.right.right.right.right.left,
    fullShare.right.right.right.right.right.right.right.right.right.right.right.right.right.right.left,
    fullShare.right.right.right.right.right.right.right.right.right.right.right.right.right.right.right]

variable {ℓ : Loc nD τ sig} {I : Finset (Idx ℓ)} {f : Buf Val ℓ}

/-- A buffer held at the full share is held sixteen times over at the sixteen shares. -/
theorem split16 :
    (ℓ ↦[I]{fullShare} f : sProp 𝕄)
      ⊢ iprop((ℓ ↦[I]{q16 0} f) ∗ (ℓ ↦[I]{q16 1} f) ∗ (ℓ ↦[I]{q16 2} f) ∗ (ℓ ↦[I]{q16 3} f) ∗ (ℓ ↦[I]{q16 4} f) ∗ (ℓ ↦[I]{q16 5} f) ∗ (ℓ ↦[I]{q16 6} f) ∗ (ℓ ↦[I]{q16 7} f) ∗ (ℓ ↦[I]{q16 8} f) ∗ (ℓ ↦[I]{q16 9} f) ∗ (ℓ ↦[I]{q16 10} f) ∗ (ℓ ↦[I]{q16 11} f) ∗ (ℓ ↦[I]{q16 12} f) ∗ (ℓ ↦[I]{q16 13} f) ∗ (ℓ ↦[I]{q16 14} f) ∗ (ℓ ↦[I]{q16 15} f)) := by
  iintro H
  ihave H' := ((pointsTo_share (ℓ := ℓ) (I := I) (f := f) (PosShare.mem_left_op_right (fullShare))).1 : _ ⊢ (_ : sProp 𝕄)) $$ H
  icases H' with ⟨H0, H⟩
  ihave H' := ((pointsTo_share (ℓ := ℓ) (I := I) (f := f) (PosShare.mem_left_op_right (fullShare.right))).1 : _ ⊢ (_ : sProp 𝕄)) $$ H
  icases H' with ⟨H1, H⟩
  ihave H' := ((pointsTo_share (ℓ := ℓ) (I := I) (f := f) (PosShare.mem_left_op_right (fullShare.right.right))).1 : _ ⊢ (_ : sProp 𝕄)) $$ H
  icases H' with ⟨H2, H⟩
  ihave H' := ((pointsTo_share (ℓ := ℓ) (I := I) (f := f) (PosShare.mem_left_op_right (fullShare.right.right.right))).1 : _ ⊢ (_ : sProp 𝕄)) $$ H
  icases H' with ⟨H3, H⟩
  ihave H' := ((pointsTo_share (ℓ := ℓ) (I := I) (f := f) (PosShare.mem_left_op_right (fullShare.right.right.right.right))).1 : _ ⊢ (_ : sProp 𝕄)) $$ H
  icases H' with ⟨H4, H⟩
  ihave H' := ((pointsTo_share (ℓ := ℓ) (I := I) (f := f) (PosShare.mem_left_op_right (fullShare.right.right.right.right.right))).1 : _ ⊢ (_ : sProp 𝕄)) $$ H
  icases H' with ⟨H5, H⟩
  ihave H' := ((pointsTo_share (ℓ := ℓ) (I := I) (f := f) (PosShare.mem_left_op_right (fullShare.right.right.right.right.right.right))).1 : _ ⊢ (_ : sProp 𝕄)) $$ H
  icases H' with ⟨H6, H⟩
  ihave H' := ((pointsTo_share (ℓ := ℓ) (I := I) (f := f) (PosShare.mem_left_op_right (fullShare.right.right.right.right.right.right.right))).1 : _ ⊢ (_ : sProp 𝕄)) $$ H
  icases H' with ⟨H7, H⟩
  ihave H' := ((pointsTo_share (ℓ := ℓ) (I := I) (f := f) (PosShare.mem_left_op_right (fullShare.right.right.right.right.right.right.right.right))).1 : _ ⊢ (_ : sProp 𝕄)) $$ H
  icases H' with ⟨H8, H⟩
  ihave H' := ((pointsTo_share (ℓ := ℓ) (I := I) (f := f) (PosShare.mem_left_op_right (fullShare.right.right.right.right.right.right.right.right.right))).1 : _ ⊢ (_ : sProp 𝕄)) $$ H
  icases H' with ⟨H9, H⟩
  ihave H' := ((pointsTo_share (ℓ := ℓ) (I := I) (f := f) (PosShare.mem_left_op_right (fullShare.right.right.right.right.right.right.right.right.right.right))).1 : _ ⊢ (_ : sProp 𝕄)) $$ H
  icases H' with ⟨H10, H⟩
  ihave H' := ((pointsTo_share (ℓ := ℓ) (I := I) (f := f) (PosShare.mem_left_op_right (fullShare.right.right.right.right.right.right.right.right.right.right.right))).1 : _ ⊢ (_ : sProp 𝕄)) $$ H
  icases H' with ⟨H11, H⟩
  ihave H' := ((pointsTo_share (ℓ := ℓ) (I := I) (f := f) (PosShare.mem_left_op_right (fullShare.right.right.right.right.right.right.right.right.right.right.right.right))).1 : _ ⊢ (_ : sProp 𝕄)) $$ H
  icases H' with ⟨H12, H⟩
  ihave H' := ((pointsTo_share (ℓ := ℓ) (I := I) (f := f) (PosShare.mem_left_op_right (fullShare.right.right.right.right.right.right.right.right.right.right.right.right.right))).1 : _ ⊢ (_ : sProp 𝕄)) $$ H
  icases H' with ⟨H13, H⟩
  ihave H' := ((pointsTo_share (ℓ := ℓ) (I := I) (f := f) (PosShare.mem_left_op_right (fullShare.right.right.right.right.right.right.right.right.right.right.right.right.right.right))).1 : _ ⊢ (_ : sProp 𝕄)) $$ H
  icases H' with ⟨H14, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H

/-- And back: the sixteen shares of one buffer at one contents are the full share. -/
theorem join16 :
    (iprop((ℓ ↦[I]{q16 0} f) ∗ (ℓ ↦[I]{q16 1} f) ∗ (ℓ ↦[I]{q16 2} f) ∗ (ℓ ↦[I]{q16 3} f) ∗ (ℓ ↦[I]{q16 4} f) ∗ (ℓ ↦[I]{q16 5} f) ∗ (ℓ ↦[I]{q16 6} f) ∗ (ℓ ↦[I]{q16 7} f) ∗ (ℓ ↦[I]{q16 8} f) ∗ (ℓ ↦[I]{q16 9} f) ∗ (ℓ ↦[I]{q16 10} f) ∗ (ℓ ↦[I]{q16 11} f) ∗ (ℓ ↦[I]{q16 12} f) ∗ (ℓ ↦[I]{q16 13} f) ∗ (ℓ ↦[I]{q16 14} f) ∗ (ℓ ↦[I]{q16 15} f)) : sProp 𝕄)
      ⊢ (ℓ ↦[I]{fullShare} f) := by
  iintro ⟨H0, H1, H2, H3, H4, H5, H6, H7, H8, H9, H10, H11, H12, H13, H14, H15⟩
  ihave H14 := ((pointsTo_share (ℓ := ℓ) (I := I) (f := f) (PosShare.mem_left_op_right (fullShare.right.right.right.right.right.right.right.right.right.right.right.right.right.right))).2 : _ ⊢ (_ : sProp 𝕄)) $$ [H14 H15]
  · isplitl [H14]; · iexact H14
    iexact H15
  ihave H13 := ((pointsTo_share (ℓ := ℓ) (I := I) (f := f) (PosShare.mem_left_op_right (fullShare.right.right.right.right.right.right.right.right.right.right.right.right.right))).2 : _ ⊢ (_ : sProp 𝕄)) $$ [H13 H14]
  · isplitl [H13]; · iexact H13
    iexact H14
  ihave H12 := ((pointsTo_share (ℓ := ℓ) (I := I) (f := f) (PosShare.mem_left_op_right (fullShare.right.right.right.right.right.right.right.right.right.right.right.right))).2 : _ ⊢ (_ : sProp 𝕄)) $$ [H12 H13]
  · isplitl [H12]; · iexact H12
    iexact H13
  ihave H11 := ((pointsTo_share (ℓ := ℓ) (I := I) (f := f) (PosShare.mem_left_op_right (fullShare.right.right.right.right.right.right.right.right.right.right.right))).2 : _ ⊢ (_ : sProp 𝕄)) $$ [H11 H12]
  · isplitl [H11]; · iexact H11
    iexact H12
  ihave H10 := ((pointsTo_share (ℓ := ℓ) (I := I) (f := f) (PosShare.mem_left_op_right (fullShare.right.right.right.right.right.right.right.right.right.right))).2 : _ ⊢ (_ : sProp 𝕄)) $$ [H10 H11]
  · isplitl [H10]; · iexact H10
    iexact H11
  ihave H9 := ((pointsTo_share (ℓ := ℓ) (I := I) (f := f) (PosShare.mem_left_op_right (fullShare.right.right.right.right.right.right.right.right.right))).2 : _ ⊢ (_ : sProp 𝕄)) $$ [H9 H10]
  · isplitl [H9]; · iexact H9
    iexact H10
  ihave H8 := ((pointsTo_share (ℓ := ℓ) (I := I) (f := f) (PosShare.mem_left_op_right (fullShare.right.right.right.right.right.right.right.right))).2 : _ ⊢ (_ : sProp 𝕄)) $$ [H8 H9]
  · isplitl [H8]; · iexact H8
    iexact H9
  ihave H7 := ((pointsTo_share (ℓ := ℓ) (I := I) (f := f) (PosShare.mem_left_op_right (fullShare.right.right.right.right.right.right.right))).2 : _ ⊢ (_ : sProp 𝕄)) $$ [H7 H8]
  · isplitl [H7]; · iexact H7
    iexact H8
  ihave H6 := ((pointsTo_share (ℓ := ℓ) (I := I) (f := f) (PosShare.mem_left_op_right (fullShare.right.right.right.right.right.right))).2 : _ ⊢ (_ : sProp 𝕄)) $$ [H6 H7]
  · isplitl [H6]; · iexact H6
    iexact H7
  ihave H5 := ((pointsTo_share (ℓ := ℓ) (I := I) (f := f) (PosShare.mem_left_op_right (fullShare.right.right.right.right.right))).2 : _ ⊢ (_ : sProp 𝕄)) $$ [H5 H6]
  · isplitl [H5]; · iexact H5
    iexact H6
  ihave H4 := ((pointsTo_share (ℓ := ℓ) (I := I) (f := f) (PosShare.mem_left_op_right (fullShare.right.right.right.right))).2 : _ ⊢ (_ : sProp 𝕄)) $$ [H4 H5]
  · isplitl [H4]; · iexact H4
    iexact H5
  ihave H3 := ((pointsTo_share (ℓ := ℓ) (I := I) (f := f) (PosShare.mem_left_op_right (fullShare.right.right.right))).2 : _ ⊢ (_ : sProp 𝕄)) $$ [H3 H4]
  · isplitl [H3]; · iexact H3
    iexact H4
  ihave H2 := ((pointsTo_share (ℓ := ℓ) (I := I) (f := f) (PosShare.mem_left_op_right (fullShare.right.right))).2 : _ ⊢ (_ : sProp 𝕄)) $$ [H2 H3]
  · isplitl [H2]; · iexact H2
    iexact H3
  ihave H1 := ((pointsTo_share (ℓ := ℓ) (I := I) (f := f) (PosShare.mem_left_op_right (fullShare.right))).2 : _ ⊢ (_ : sProp 𝕄)) $$ [H1 H2]
  · isplitl [H1]; · iexact H1
    iexact H2
  ihave H0 := ((pointsTo_share (ℓ := ℓ) (I := I) (f := f) (PosShare.mem_left_op_right (fullShare))).2 : _ ⊢ (_ : sProp 𝕄)) $$ [H0 H1]
  · isplitl [H0]; · iexact H0
    iexact H1
  iexact H0

end Cert.Proof.Shares

end
-- ==== Proof.GatherAux.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

/-- A word below 50000 names a one-row slice of the node table that lies inside it. -/
theorem chk_lt (v : BitVec 32) (h : v.toNat < 50000) :
    ∀ a, (![v.toNat, 0, 0] : Fin 3 → ℕ) a + S1x1x128.size a ≤ S50000x1x128.size a := by
  intro a; fin_cases a
  · show v.toNat + 1 ≤ 50000; omega
  · show 0 + 1 ≤ 1; omega
  · show 0 + 128 ≤ 128; omega

/-- One store through a rectangle at zero offsets of the buffer's own sizes leaves exactly its payload. -/
theorem read_store_whole {κ : Kind} {sp : Space} {S : Shape} {e : EltTy} {off : Fin S.rank → Nat}
    (h : off = fun _ => 0) {inb : ∀ a, off a + S.size a ≤ S.size a} {v : View sig κ sp S e}
    {f : v.ty.Contents (Elt F)} {w : S.Idx → Elt F e} :
    v.read (Elt F) (v.writes (Elt F) f [(⟨Rect.unit off S.size inb, w⟩ : View.Piece (Elt F) S e)]) = w := by
  subst h
  funext y
  have hy := View.read_writes_cons_emb (v := v) (f := f) (Rect.whole S) w [] y
  rwa [Rect.emb_whole_apply] at hy

/-- The node-table lane a table entry's word names, with the reductions into range dropped: entry `16 n + j` is inside
    the chunk and the word is below 50000. -/
theorem grow_word {α : Type} (tb : (⟨3, ![50000, 1, 128]⟩ : Shape).Idx → α) (pf : (⟨1, ![64000]⟩ : Shape).Idx → BitVec 32)
    (n j : ℕ) (hn : 16 * n + j < 64000) (w : BitVec 32)
    (hw : w = pf (ValueIdx.ix1 (⟨16 * n + j, hn⟩ : Fin 64000))) (hlt : w.toNat < 50000) (l : Fin 128) :
    tb (ValueIdx.ix3 (⟨w.toNat, hlt⟩ : Fin 50000) (0 : Fin 1) l) = grow tb (gword pf n j) l := by
  subst hw
  unfold grow gword
  have e1 : (⟨(16 * n + j) % 64000, Nat.mod_lt _ (by decide)⟩ : Fin 64000) = ⟨16 * n + j, hn⟩ := Fin.ext (Nat.mod_eq_of_lt hn)
  rw [e1]
  congr 2
  exact Fin.ext (Nat.mod_eq_of_lt hlt).symm

end Cert.KernelIdeal.Hand

end
-- ==== Proof.GatherRun0.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows0
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 0's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run0 (c : Dev nD) (i : grid0.Coords) (arg3 : Memref sig .tc .vmem S16x1x128 .f32) (harg3 : arg3.IsWhole)
    (pf : S64000.Idx → Elt F .i32) (tb : Buf (Elt F) (ghb0M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc0M.view.loc (c : Thread nD τ) ↦[gsc0M.view.set]{fullShare} f)
        ∗ owns (c : Thread nD τ) gtb0M fullShare pf
        ∗ (ghb0M.view.loc (c : Thread nD τ) ↦{fullShare} tb)
        ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
        ∗ owes (c : Thread nD τ) 0 W
        ∗ (iprop(owns (c : Thread nD τ) arg3 fullShare (gblock tb pf (i 0).val)
            ∗ (∃ f, gsc0M.view.loc (c : Thread nD τ) ↦[gsc0M.view.set]{fullShare} f)
            ∗ owns (c : Thread nD τ) gtb0M fullShare pf
            ∗ (ghb0M.view.loc (c : Thread nD τ) ↦{fullShare} tb)
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
            ∗ (∃ W', owes (c : Thread nD τ) 0 W')) -∗ K ⟨⟩))
      ⊢ wp frame (wpE (defs₀ (F := F)) Variants.none c none) Set.univ
          (cc0__gather_kernel i gtb0M (Memref.isWhole_whole _) ghb0M (Memref.isWhole_whole _) arg3 harg3 gsc0M (Memref.isWhole_whole _) cc0_scratch1) K := by
  have hi : (i 0).val < 4000 := (i 0).isLt
  have hoffs := table_offs0 i
  have hword0 : (View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))) = pf (ValueIdx.ix1 (⟨16 * (i 0).val + 0, by omega⟩ : Fin 64000)) :=
    table_word0 pf _ _ _ (by omega) hoffs.1
  have hlt0 : (View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))).toNat < 50000 := by rw [hword0]; exact hok _
  have hw1 : k0_chk1 (View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))) := ⟨chk_lt _ hlt0, chk_lt _ hlt0⟩
  have hword1 : (View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))) = pf (ValueIdx.ix1 (⟨16 * (i 0).val + 1, by omega⟩ : Fin 64000)) :=
    table_word0 pf _ _ _ (by omega) hoffs.2.1
  have hlt1 : (View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))).toNat < 50000 := by rw [hword1]; exact hok _
  have hw2 : k0_chk2 (View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))) := ⟨chk_lt _ hlt1, chk_lt _ hlt1⟩
  have hword2 : (View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))) = pf (ValueIdx.ix1 (⟨16 * (i 0).val + 2, by omega⟩ : Fin 64000)) :=
    table_word0 pf _ _ _ (by omega) hoffs.2.2.1
  have hlt2 : (View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))).toNat < 50000 := by rw [hword2]; exact hok _
  have hw3 : k0_chk3 (View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))) := ⟨chk_lt _ hlt2, chk_lt _ hlt2⟩
  have hword3 : (View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))) = pf (ValueIdx.ix1 (⟨16 * (i 0).val + 3, by omega⟩ : Fin 64000)) :=
    table_word0 pf _ _ _ (by omega) hoffs.2.2.2.1
  have hlt3 : (View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))).toNat < 50000 := by rw [hword3]; exact hok _
  have hw4 : k0_chk4 (View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))) := ⟨chk_lt _ hlt3, chk_lt _ hlt3⟩
  have hword4 : (View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))) = pf (ValueIdx.ix1 (⟨16 * (i 0).val + 4, by omega⟩ : Fin 64000)) :=
    table_word0 pf _ _ _ (by omega) hoffs.2.2.2.2.1
  have hlt4 : (View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))).toNat < 50000 := by rw [hword4]; exact hok _
  have hw5 : k0_chk5 (View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))) := ⟨chk_lt _ hlt4, chk_lt _ hlt4⟩
  have hword5 : (View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))) = pf (ValueIdx.ix1 (⟨16 * (i 0).val + 5, by omega⟩ : Fin 64000)) :=
    table_word0 pf _ _ _ (by omega) hoffs.2.2.2.2.2.1
  have hlt5 : (View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))).toNat < 50000 := by rw [hword5]; exact hok _
  have hw6 : k0_chk6 (View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))) := ⟨chk_lt _ hlt5, chk_lt _ hlt5⟩
  have hword6 : (View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))) = pf (ValueIdx.ix1 (⟨16 * (i 0).val + 6, by omega⟩ : Fin 64000)) :=
    table_word0 pf _ _ _ (by omega) hoffs.2.2.2.2.2.2.1
  have hlt6 : (View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))).toNat < 50000 := by rw [hword6]; exact hok _
  have hw7 : k0_chk7 (View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))) := ⟨chk_lt _ hlt6, chk_lt _ hlt6⟩
  have hword7 : (View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))) = pf (ValueIdx.ix1 (⟨16 * (i 0).val + 7, by omega⟩ : Fin 64000)) :=
    table_word0 pf _ _ _ (by omega) hoffs.2.2.2.2.2.2.2.1
  have hlt7 : (View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))).toNat < 50000 := by rw [hword7]; exact hok _
  have hw8 : k0_chk8 (View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))) := ⟨chk_lt _ hlt7, chk_lt _ hlt7⟩
  have hword8 : (View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))) = pf (ValueIdx.ix1 (⟨16 * (i 0).val + 8, by omega⟩ : Fin 64000)) :=
    table_word0 pf _ _ _ (by omega) hoffs.2.2.2.2.2.2.2.2.1
  have hlt8 : (View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))).toNat < 50000 := by rw [hword8]; exact hok _
  have hw9 : k0_chk9 (View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))) := ⟨chk_lt _ hlt8, chk_lt _ hlt8⟩
  have hword9 : (View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))) = pf (ValueIdx.ix1 (⟨16 * (i 0).val + 9, by omega⟩ : Fin 64000)) :=
    table_word0 pf _ _ _ (by omega) hoffs.2.2.2.2.2.2.2.2.2.1
  have hlt9 : (View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))).toNat < 50000 := by rw [hword9]; exact hok _
  have hw10 : k0_chk10 (View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))) := ⟨chk_lt _ hlt9, chk_lt _ hlt9⟩
  have hword10 : (View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))) = pf (ValueIdx.ix1 (⟨16 * (i 0).val + 10, by omega⟩ : Fin 64000)) :=
    table_word0 pf _ _ _ (by omega) hoffs.2.2.2.2.2.2.2.2.2.2.1
  have hlt10 : (View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))).toNat < 50000 := by rw [hword10]; exact hok _
  have hw11 : k0_chk11 (View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))) := ⟨chk_lt _ hlt10, chk_lt _ hlt10⟩
  have hword11 : (View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))) = pf (ValueIdx.ix1 (⟨16 * (i 0).val + 11, by omega⟩ : Fin 64000)) :=
    table_word0 pf _ _ _ (by omega) hoffs.2.2.2.2.2.2.2.2.2.2.2.1
  have hlt11 : (View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))).toNat < 50000 := by rw [hword11]; exact hok _
  have hw12 : k0_chk12 (View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))) := ⟨chk_lt _ hlt11, chk_lt _ hlt11⟩
  have hword12 : (View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))) = pf (ValueIdx.ix1 (⟨16 * (i 0).val + 12, by omega⟩ : Fin 64000)) :=
    table_word0 pf _ _ _ (by omega) hoffs.2.2.2.2.2.2.2.2.2.2.2.2.1
  have hlt12 : (View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))).toNat < 50000 := by rw [hword12]; exact hok _
  have hw13 : k0_chk13 (View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))) := ⟨chk_lt _ hlt12, chk_lt _ hlt12⟩
  have hword13 : (View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))) = pf (ValueIdx.ix1 (⟨16 * (i 0).val + 13, by omega⟩ : Fin 64000)) :=
    table_word0 pf _ _ _ (by omega) hoffs.2.2.2.2.2.2.2.2.2.2.2.2.2.1
  have hlt13 : (View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))).toNat < 50000 := by rw [hword13]; exact hok _
  have hw14 : k0_chk14 (View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))) := ⟨chk_lt _ hlt13, chk_lt _ hlt13⟩
  have hword14 : (View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))) = pf (ValueIdx.ix1 (⟨16 * (i 0).val + 14, by omega⟩ : Fin 64000)) :=
    table_word0 pf _ _ _ (by omega) hoffs.2.2.2.2.2.2.2.2.2.2.2.2.2.2.1
  have hlt14 : (View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))).toNat < 50000 := by rw [hword14]; exact hok _
  have hw15 : k0_chk15 (View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))) := ⟨chk_lt _ hlt14, chk_lt _ hlt14⟩
  have hword15 : (View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))) = pf (ValueIdx.ix1 (⟨16 * (i 0).val + 15, by omega⟩ : Fin 64000)) :=
    table_word0 pf _ _ _ (by omega) hoffs.2.2.2.2.2.2.2.2.2.2.2.2.2.2.2
  have hlt15 : (View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))).toNat < 50000 := by rw [hword15]; exact hok _
  have hw16 : k0_chk16 (View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))) := chk_lt _ hlt15
  rw [cc0__gather_kernel_eq_skeleton]; unfold cc0__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb0M).IsWhole).eq_unread hfp
  ihave HR := (rows_split0 (F := F) c fsc) $$ HSC
  icases HR with ⟨HS0, HS1, HS2, HS3, HS4, HS5, HS6, HS7, HS8, HS9, HS10, HS11, HS12, HS13, HS14, HS15⟩
  ihave HS0 := (Entails.of_eq (show ((gsc0M.view.loc (c : Thread nD τ) ↦[gr0_0M.view.set]{fullShare} fsc : sProp 𝕄)) = (gr0_0M.view.loc (c : Thread nD τ) ↦[gr0_0M.view.set]{fullShare} fsc) from rfl)) $$ HS0
  ihave HS1 := (Entails.of_eq (show ((gsc0M.view.loc (c : Thread nD τ) ↦[gr0_1M.view.set]{fullShare} fsc : sProp 𝕄)) = (gr0_1M.view.loc (c : Thread nD τ) ↦[gr0_1M.view.set]{fullShare} fsc) from rfl)) $$ HS1
  ihave HS2 := (Entails.of_eq (show ((gsc0M.view.loc (c : Thread nD τ) ↦[gr0_2M.view.set]{fullShare} fsc : sProp 𝕄)) = (gr0_2M.view.loc (c : Thread nD τ) ↦[gr0_2M.view.set]{fullShare} fsc) from rfl)) $$ HS2
  ihave HS3 := (Entails.of_eq (show ((gsc0M.view.loc (c : Thread nD τ) ↦[gr0_3M.view.set]{fullShare} fsc : sProp 𝕄)) = (gr0_3M.view.loc (c : Thread nD τ) ↦[gr0_3M.view.set]{fullShare} fsc) from rfl)) $$ HS3
  ihave HS4 := (Entails.of_eq (show ((gsc0M.view.loc (c : Thread nD τ) ↦[gr0_4M.view.set]{fullShare} fsc : sProp 𝕄)) = (gr0_4M.view.loc (c : Thread nD τ) ↦[gr0_4M.view.set]{fullShare} fsc) from rfl)) $$ HS4
  ihave HS5 := (Entails.of_eq (show ((gsc0M.view.loc (c : Thread nD τ) ↦[gr0_5M.view.set]{fullShare} fsc : sProp 𝕄)) = (gr0_5M.view.loc (c : Thread nD τ) ↦[gr0_5M.view.set]{fullShare} fsc) from rfl)) $$ HS5
  ihave HS6 := (Entails.of_eq (show ((gsc0M.view.loc (c : Thread nD τ) ↦[gr0_6M.view.set]{fullShare} fsc : sProp 𝕄)) = (gr0_6M.view.loc (c : Thread nD τ) ↦[gr0_6M.view.set]{fullShare} fsc) from rfl)) $$ HS6
  ihave HS7 := (Entails.of_eq (show ((gsc0M.view.loc (c : Thread nD τ) ↦[gr0_7M.view.set]{fullShare} fsc : sProp 𝕄)) = (gr0_7M.view.loc (c : Thread nD τ) ↦[gr0_7M.view.set]{fullShare} fsc) from rfl)) $$ HS7
  ihave HS8 := (Entails.of_eq (show ((gsc0M.view.loc (c : Thread nD τ) ↦[gr0_8M.view.set]{fullShare} fsc : sProp 𝕄)) = (gr0_8M.view.loc (c : Thread nD τ) ↦[gr0_8M.view.set]{fullShare} fsc) from rfl)) $$ HS8
  ihave HS9 := (Entails.of_eq (show ((gsc0M.view.loc (c : Thread nD τ) ↦[gr0_9M.view.set]{fullShare} fsc : sProp 𝕄)) = (gr0_9M.view.loc (c : Thread nD τ) ↦[gr0_9M.view.set]{fullShare} fsc) from rfl)) $$ HS9
  ihave HS10 := (Entails.of_eq (show ((gsc0M.view.loc (c : Thread nD τ) ↦[gr0_10M.view.set]{fullShare} fsc : sProp 𝕄)) = (gr0_10M.view.loc (c : Thread nD τ) ↦[gr0_10M.view.set]{fullShare} fsc) from rfl)) $$ HS10
  ihave HS11 := (Entails.of_eq (show ((gsc0M.view.loc (c : Thread nD τ) ↦[gr0_11M.view.set]{fullShare} fsc : sProp 𝕄)) = (gr0_11M.view.loc (c : Thread nD τ) ↦[gr0_11M.view.set]{fullShare} fsc) from rfl)) $$ HS11
  ihave HS12 := (Entails.of_eq (show ((gsc0M.view.loc (c : Thread nD τ) ↦[gr0_12M.view.set]{fullShare} fsc : sProp 𝕄)) = (gr0_12M.view.loc (c : Thread nD τ) ↦[gr0_12M.view.set]{fullShare} fsc) from rfl)) $$ HS12
  ihave HS13 := (Entails.of_eq (show ((gsc0M.view.loc (c : Thread nD τ) ↦[gr0_13M.view.set]{fullShare} fsc : sProp 𝕄)) = (gr0_13M.view.loc (c : Thread nD τ) ↦[gr0_13M.view.set]{fullShare} fsc) from rfl)) $$ HS13
  ihave HS14 := (Entails.of_eq (show ((gsc0M.view.loc (c : Thread nD τ) ↦[gr0_14M.view.set]{fullShare} fsc : sProp 𝕄)) = (gr0_14M.view.loc (c : Thread nD τ) ↦[gr0_14M.view.set]{fullShare} fsc) from rfl)) $$ HS14
  ihave HS15 := (Entails.of_eq (show ((gsc0M.view.loc (c : Thread nD τ) ↦[gr0_15M.view.set]{fullShare} fsc : sProp 𝕄)) = (gr0_15M.view.loc (c : Thread nD τ) ↦[gr0_15M.view.set]{fullShare} fsc) from rfl)) $$ HS15
  ihave HB := (split16 (ℓ := ghb0M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join0 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))).toNat, hlt0⟩ : Fin 50000) (0 : Fin 1) l) :=
    row_landed0 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))).toNat, hlt1⟩ : Fin 50000) (0 : Fin 1) l) :=
    row_landed0 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))).toNat, hlt2⟩ : Fin 50000) (0 : Fin 1) l) :=
    row_landed0 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))).toNat, hlt3⟩ : Fin 50000) (0 : Fin 1) l) :=
    row_landed0 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))).toNat, hlt4⟩ : Fin 50000) (0 : Fin 1) l) :=
    row_landed0 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))).toNat, hlt5⟩ : Fin 50000) (0 : Fin 1) l) :=
    row_landed0 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))).toNat, hlt6⟩ : Fin 50000) (0 : Fin 1) l) :=
    row_landed0 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))).toNat, hlt7⟩ : Fin 50000) (0 : Fin 1) l) :=
    row_landed0 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))).toNat, hlt8⟩ : Fin 50000) (0 : Fin 1) l) :=
    row_landed0 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))).toNat, hlt9⟩ : Fin 50000) (0 : Fin 1) l) :=
    row_landed0 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))).toNat, hlt10⟩ : Fin 50000) (0 : Fin 1) l) :=
    row_landed0 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))).toNat, hlt11⟩ : Fin 50000) (0 : Fin 1) l) :=
    row_landed0 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))).toNat, hlt12⟩ : Fin 50000) (0 : Fin 1) l) :=
    row_landed0 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))).toNat, hlt13⟩ : Fin 50000) (0 : Fin 1) l) :=
    row_landed0 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))).toNat, hlt14⟩ : Fin 50000) (0 : Fin 1) l) :=
    row_landed0 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))).toNat, hlt15⟩ : Fin 50000) (0 : Fin 1) l) :=
    row_landed0 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load0]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb0M).IsWhole).read_unread _
  isplitl [Hh0 Hh1 Hh2 Hh3 Hh4 Hh5 Hh6 Hh7 Hh8 Hh9 Hh10 Hh11 Hh12 Hh13 Hh14 Hh15]
  · iapply (join16 (ℓ := ghb0M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather0.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 0's own DMA semaphores: one per row of the step. -/
abbrev gsem0 : Fin 16 → SemLoc sig := fun j =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 16 → SemLoc sig) j
theorem gsemFacts0 : Pipeline.OwnSemFacts spec0 gsem0 := by decide

/-- The buffers the body reads without a window: the node table in HBM and its chunk of the edge-source table. -/
def gH0 : Finset (Ref sig .tc) := {main_v0, main_v1}
theorem gH0_sub : gH0 ⊆ Pipeline.restRefs sig spec0 := by decide

/-- The call's prefetched table at the contents the region finds. -/
def gadm0 (c : Dev nD) : (pcfg0 (F := F)).Adm := ⟨fun k => match k with | ⟨0, _⟩ => V c main_v1, trivial⟩

/-- The proof data of gather call 0 on core `c`: the output array as found; after step `t` the output block holds
    the gathered rows; the invariant carries the scratch, the call's semaphores at zero and the two tables as found. -/
def gdat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => gblock (V c main_v0) (V c main_v1) t.val
  Φ _ := Pipeline.ΦD gsem0 spec0 gH0 V c
  q _ := fullShare
  owed _ := 0

theorem gdat0_A (a : (pcfg0 (F := F)).Adm) (c : Dev nD) (w : Fin (cfg0 a).W) :
    (gdat0 V a c).A w = V c (Pipeline.arrRef spec0 w) := by dsimp only [gdat0]
theorem gdat0_after (a : (pcfg0 (F := F)).Adm) (c : Dev nD) (t : Fin (cfg0 a).N) :
    (gdat0 V a c).after 0 t = gblock (V c main_v0) (V c main_v1) t.val := rfl

/-! ## The body obligation, from the body's run -/

/-- The call's scratch buffer whole at some contents, said of the buffer and said through the whole-buffer memref. -/
theorem gsc0_whole (c : Dev nD) :
    (iprop(∃ f, gsc0M.view.loc (c : Thread nD τ) ↦[gsc0M.view.set]{fullShare} f) : sProp 𝕄)
      = iprop(∃ f : Buf (Elt F) ((c : Thread nD τ).loc cc0_scratch0), ((c : Thread nD τ).loc cc0_scratch0) ↦{fullShare} f) := by
  simp only [gsc0M, Memref.view_whole, View.set_whole]

/-- The region invariant of gather call 0, conjunct by conjunct: the call's scratch buffer whole at some contents beside
    the scoped buffers it does not touch, the generator register at some state, its sixteen semaphores at zero, and
    the two tables whole at the contents the region finds. -/
theorem PhiD0_eq (c : Dev nD) :
    (Pipeline.ΦD gsem0 spec0 gH0 V c : sProp 𝕄)
      = iprop(iprop((∃ f, gsc0M.view.loc (c : Thread nD τ) ↦[gsc0M.view.set]{fullShare} f)
            ∗ Pipeline.scopedRestBut (Ix := Unit) (Name := ℕ) (U := Pipeline.UD sig nD τ) (Lvl := ℕ) (Val := Elt F) spec0 c [cc0_scratch0])
          ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
          ∗ iprop((ghb0M.view.loc (c : Thread nD τ) ↦{fullShare} V c main_v0) ∗ owns (c : Thread nD τ) gtb0M fullShare (V c main_v1))) := by
  rw [gsc0_whole, owns_whole, Pipeline.ΦD_eq, scopedRest0_split,
    Pipeline.ownSems0_eq_of_list c gsem0 [0, 1, 2, 3, 4, 5, 6, 7, 8, 9, 10, 11, 12, 13, 14, 15] (by decide) (by decide),
    BI.bigSep_eq_bigSepL_of_eq [main_v0, main_v1] (by decide) (by decide)]
  rfl

/-- The kernel body of gather call 0 as the pipeline calls it at point `t`: the step's coordinates, the two tables whole,
    the output window's current staging buffer, the scratch buffer and the sixteen semaphores. -/
abbrev gbodyAt0 (a : (pcfg0 (F := F)).Adm) (t : Fin (cfg0 a).N) : Prog (TpuEff nD τ sig (Elt F) Λ₀ .tc) PUnit :=
  cc0__gather_kernel ((cfg0 a).grid.coords t) gtb0M (Memref.isWhole_whole _) ghb0M (Memref.isWhole_whole _)
    (spec0_0.stage ((cfg0 a).slots t 0)) (hstage0_0 (((cfg0 a).slots t 0).cast nbuf0_0)) gsc0M (Memref.isWhole_whole _) cc0_scratch1

/-- The grid is one axis of 4000 steps: the step's one coordinate is its number. -/
theorem gcoord0 (a : (pcfg0 (F := F)).Adm) (t : Fin (cfg0 a).N) : (((cfg0 a).grid.coords t) 0).val = t.val := by
  have ht : t.val < 4000 := lt_of_lt_of_eq t.isLt N_0
  show t.val / 1 % 4000 = t.val
  omega

/-- What the body is called with at point `t`: the invariant, the core's `owes`, the output window's current staging
    buffer at whatever it holds, -/
def gbodyPre0 (a : (pcfg0 (F := F)).Adm) (c : Dev nD) (t : Fin (cfg0 a).N) : sProp 𝕄 :=
  iprop((gdat0 V a c).Φ t.castSucc ∗ (gdat0 V a c).owesAt () t.castSucc
    ∗ (∃ d, owns (c : Thread nD τ) (spec0_0.stage ((cfg0 a).slots t 0)) fullShare ((gdat0 V a c).before 0 t d)))

/-- and what it returns: the invariant, `owes`, the staging buffer at the step's gathered rows. -/
def gbodyPost0 (a : (pcfg0 (F := F)).Adm) (c : Dev nD) (t : Fin (cfg0 a).N) : sProp 𝕄 :=
  iprop((gdat0 V a c).Φ t.succ ∗ (gdat0 V a c).owesAt () t.succ
    ∗ owns (c : Thread nD τ) (spec0_0.stage ((cfg0 a).slots t 0)) fullShare ((gdat0 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body0 (a : (pcfg0 (F := F)).Adm) (c : Dev nD)
    (hok : ∀ e : S64000.Idx, (V c main_v1 e).toNat < 50000) (t : Fin (cfg0 a).N) :
    gbodyPre0 V a c t ⊢ wp frame (wpE (defs₀ (F := F)) Variants.none c none) Set.univ (gbodyAt0 a t) (fun _ => gbodyPost0 V a c t) := by
  unfold gbodyPre0 gbodyPost0 gbodyAt0
  rw [show (gdat0 V a c).Φ t.succ = Pipeline.ΦD gsem0 spec0 gH0 V c from rfl,
    show (gdat0 V a c).Φ t.castSucc = Pipeline.ΦD gsem0 spec0 gH0 V c from rfl, gdat0_after, PhiD0_eq]
  unfold Dat.owesAt Pipeline.owesWithin
  rw [show (gdat0 V a c).owed t.castSucc = 0 from rfl, show (gdat0 V a c).owed t.succ = 0 from rfl]
  have hrun := fun W K => gather_run0 (F := F) c ((cfg0 a).grid.coords t) (spec0_0.stage ((cfg0 a).slots t 0))
    (hstage0_0 (((cfg0 a).slots t 0).cast nbuf0_0)) (V c main_v1) (V c main_v0) hok W K
  rw [gcoord0 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 0, when every word of its table names a row of the node table. -/
theorem gather_obligation0 (a : (pcfg0 (F := F)).Adm) (c : Dev nD)
    (hok : ∀ e : S64000.Idx, (V c main_v1 e).toNat < 50000) :
    BodyObligation (gdat0 (F := F) V a c) (defs₀ (F := F)) Variants.none () Set.univ := fun t => by
  rw [bigSep_W0, bigSep_W0]
  exact gsound_body0 V a c hok t

end

end Cert.KernelIdeal.Hand

end
-- ==== Proof.RowsJoin1.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 1's scratch buffer, whole, and its sixteen rows as the body addresses them. -/
abbrev gsc1M : Memref sig .tc .vmem S16x1x128 .f32 := Memref.whole cc1_scratch0
abbrev gr1_0M : Memref sig .tc .vmem S1x128 .f32 := ((Memref.whole cc1_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr1_1M : Memref sig .tc .vmem S1x128 .f32 := ((Memref.whole cc1_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr1_2M : Memref sig .tc .vmem S1x128 .f32 := ((Memref.whole cc1_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr1_3M : Memref sig .tc .vmem S1x128 .f32 := ((Memref.whole cc1_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr1_4M : Memref sig .tc .vmem S1x128 .f32 := ((Memref.whole cc1_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr1_5M : Memref sig .tc .vmem S1x128 .f32 := ((Memref.whole cc1_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr1_6M : Memref sig .tc .vmem S1x128 .f32 := ((Memref.whole cc1_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr1_7M : Memref sig .tc .vmem S1x128 .f32 := ((Memref.whole cc1_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr1_8M : Memref sig .tc .vmem S1x128 .f32 := ((Memref.whole cc1_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr1_9M : Memref sig .tc .vmem S1x128 .f32 := ((Memref.whole cc1_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr1_10M : Memref sig .tc .vmem S1x128 .f32 := ((Memref.whole cc1_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr1_11M : Memref sig .tc .vmem S1x128 .f32 := ((Memref.whole cc1_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr1_12M : Memref sig .tc .vmem S1x128 .f32 := ((Memref.whole cc1_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr1_13M : Memref sig .tc .vmem S1x128 .f32 := ((Memref.whole cc1_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr1_14M : Memref sig .tc .vmem S1x128 .f32 := ((Memref.whole cc1_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr1_15M : Memref sig .tc .vmem S1x128 .f32 := ((Memref.whole cc1_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr1_0M.view.set = rowSet (0 : Fin 16) := by
  refine (View.set_reshape _ _).trans ?_
  refine (View.set_slice_whole _ _).trans ?_
  rfl
private theorem row_set_1 : gr1_1M.view.set = rowSet (1 : Fin 16) := by
  refine (View.set_reshape _ _).trans ?_
  refine (View.set_slice_whole _ _).trans ?_
  rfl
private theorem row_set_2 : gr1_2M.view.set = rowSet (2 : Fin 16) := by
  refine (View.set_reshape _ _).trans ?_
  refine (View.set_slice_whole _ _).trans ?_
  rfl
private theorem row_set_3 : gr1_3M.view.set = rowSet (3 : Fin 16) := by
  refine (View.set_reshape _ _).trans ?_
  refine (View.set_slice_whole _ _).trans ?_
  rfl
private theorem row_set_4 : gr1_4M.view.set = rowSet (4 : Fin 16) := by
  refine (View.set_reshape _ _).trans ?_
  refine (View.set_slice_whole _ _).trans ?_
  rfl
private theorem row_set_5 : gr1_5M.view.set = rowSet (5 : Fin 16) := by
  refine (View.set_reshape _ _).trans ?_
  refine (View.set_slice_whole _ _).trans ?_
  rfl
private theorem row_set_6 : gr1_6M.view.set = rowSet (6 : Fin 16) := by
  refine (View.set_reshape _ _).trans ?_
  refine (View.set_slice_whole _ _).trans ?_
  rfl
private theorem row_set_7 : gr1_7M.view.set = rowSet (7 : Fin 16) := by
  refine (View.set_reshape _ _).trans ?_
  refine (View.set_slice_whole _ _).trans ?_
  rfl
private theorem row_set_8 : gr1_8M.view.set = rowSet (8 : Fin 16) := by
  refine (View.set_reshape _ _).trans ?_
  refine (View.set_slice_whole _ _).trans ?_
  rfl
private theorem row_set_9 : gr1_9M.view.set = rowSet (9 : Fin 16) := by
  refine (View.set_reshape _ _).trans ?_
  refine (View.set_slice_whole _ _).trans ?_
  rfl
private theorem row_set_10 : gr1_10M.view.set = rowSet (10 : Fin 16) := by
  refine (View.set_reshape _ _).trans ?_
  refine (View.set_slice_whole _ _).trans ?_
  rfl
private theorem row_set_11 : gr1_11M.view.set = rowSet (11 : Fin 16) := by
  refine (View.set_reshape _ _).trans ?_
  refine (View.set_slice_whole _ _).trans ?_
  rfl
private theorem row_set_12 : gr1_12M.view.set = rowSet (12 : Fin 16) := by
  refine (View.set_reshape _ _).trans ?_
  refine (View.set_slice_whole _ _).trans ?_
  rfl
private theorem row_set_13 : gr1_13M.view.set = rowSet (13 : Fin 16) := by
  refine (View.set_reshape _ _).trans ?_
  refine (View.set_slice_whole _ _).trans ?_
  rfl
private theorem row_set_14 : gr1_14M.view.set = rowSet (14 : Fin 16) := by
  refine (View.set_reshape _ _).trans ?_
  refine (View.set_slice_whole _ _).trans ?_
  rfl
private theorem row_set_15 : gr1_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join1 (c : Dev nD) (f0 f1 f2 f3 f4 f5 f6 f7 f8 f9 f10 f11 f12 f13 f14 f15 : Buf (Elt F) (gsc1M.view.loc (c : Thread nD τ))) :
    (iprop((gsc1M.view.loc (c : Thread nD τ) ↦[gr1_0M.view.set]{fullShare} f0)
        ∗ (gsc1M.view.loc (c : Thread nD τ) ↦[gr1_1M.view.set]{fullShare} f1)
        ∗ (gsc1M.view.loc (c : Thread nD τ) ↦[gr1_2M.view.set]{fullShare} f2)
        ∗ (gsc1M.view.loc (c : Thread nD τ) ↦[gr1_3M.view.set]{fullShare} f3)
        ∗ (gsc1M.view.loc (c : Thread nD τ) ↦[gr1_4M.view.set]{fullShare} f4)
        ∗ (gsc1M.view.loc (c : Thread nD τ) ↦[gr1_5M.view.set]{fullShare} f5)
        ∗ (gsc1M.view.loc (c : Thread nD τ) ↦[gr1_6M.view.set]{fullShare} f6)
        ∗ (gsc1M.view.loc (c : Thread nD τ) ↦[gr1_7M.view.set]{fullShare} f7)
        ∗ (gsc1M.view.loc (c : Thread nD τ) ↦[gr1_8M.view.set]{fullShare} f8)
        ∗ (gsc1M.view.loc (c : Thread nD τ) ↦[gr1_9M.view.set]{fullShare} f9)
        ∗ (gsc1M.view.loc (c : Thread nD τ) ↦[gr1_10M.view.set]{fullShare} f10)
        ∗ (gsc1M.view.loc (c : Thread nD τ) ↦[gr1_11M.view.set]{fullShare} f11)
        ∗ (gsc1M.view.loc (c : Thread nD τ) ↦[gr1_12M.view.set]{fullShare} f12)
        ∗ (gsc1M.view.loc (c : Thread nD τ) ↦[gr1_13M.view.set]{fullShare} f13)
        ∗ (gsc1M.view.loc (c : Thread nD τ) ↦[gr1_14M.view.set]{fullShare} f14)
        ∗ (gsc1M.view.loc (c : Thread nD τ) ↦[gr1_15M.view.set]{fullShare} f15)) : sProp 𝕄)
      ⊢ iprop(∃ g : Buf (Elt F) (gsc1M.view.loc (c : Thread nD τ)),
          ⌜(∀ i ∈ gr1_0M.view.set, g i = f0 i)
            ∧ (∀ i ∈ gr1_1M.view.set, g i = f1 i)
            ∧ (∀ i ∈ gr1_2M.view.set, g i = f2 i)
            ∧ (∀ i ∈ gr1_3M.view.set, g i = f3 i)
            ∧ (∀ i ∈ gr1_4M.view.set, g i = f4 i)
            ∧ (∀ i ∈ gr1_5M.view.set, g i = f5 i)
            ∧ (∀ i ∈ gr1_6M.view.set, g i = f6 i)
            ∧ (∀ i ∈ gr1_7M.view.set, g i = f7 i)
            ∧ (∀ i ∈ gr1_8M.view.set, g i = f8 i)
            ∧ (∀ i ∈ gr1_9M.view.set, g i = f9 i)
            ∧ (∀ i ∈ gr1_10M.view.set, g i = f10 i)
            ∧ (∀ i ∈ gr1_11M.view.set, g i = f11 i)
            ∧ (∀ i ∈ gr1_12M.view.set, g i = f12 i)
            ∧ (∀ i ∈ gr1_13M.view.set, g i = f13 i)
            ∧ (∀ i ∈ gr1_14M.view.set, g i = f14 i)
            ∧ (∀ i ∈ gr1_15M.view.set, g i = f15 i)⌝
          ∗ (gsc1M.view.loc (c : Thread nD τ) ↦[gsc1M.view.set]{fullShare} g)) := by
  have hw : gsc1M.view.set = Finset.univ.biUnion rowSet := (View.set_whole _).trans rowSet_cover.symm
  exact join16 (ℓ := gsc1M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split1 (c : Dev nD) (f : Buf (Elt F) (gsc1M.view.loc (c : Thread nD τ))) :
    (gsc1M.view.loc (c : Thread nD τ) ↦[gsc1M.view.set]{fullShare} f : sProp 𝕄)
      ⊢ iprop((gsc1M.view.loc (c : Thread nD τ) ↦[gr1_0M.view.set]{fullShare} f)
        ∗ (gsc1M.view.loc (c : Thread nD τ) ↦[gr1_1M.view.set]{fullShare} f)
        ∗ (gsc1M.view.loc (c : Thread nD τ) ↦[gr1_2M.view.set]{fullShare} f)
        ∗ (gsc1M.view.loc (c : Thread nD τ) ↦[gr1_3M.view.set]{fullShare} f)
        ∗ (gsc1M.view.loc (c : Thread nD τ) ↦[gr1_4M.view.set]{fullShare} f)
        ∗ (gsc1M.view.loc (c : Thread nD τ) ↦[gr1_5M.view.set]{fullShare} f)
        ∗ (gsc1M.view.loc (c : Thread nD τ) ↦[gr1_6M.view.set]{fullShare} f)
        ∗ (gsc1M.view.loc (c : Thread nD τ) ↦[gr1_7M.view.set]{fullShare} f)
        ∗ (gsc1M.view.loc (c : Thread nD τ) ↦[gr1_8M.view.set]{fullShare} f)
        ∗ (gsc1M.view.loc (c : Thread nD τ) ↦[gr1_9M.view.set]{fullShare} f)
        ∗ (gsc1M.view.loc (c : Thread nD τ) ↦[gr1_10M.view.set]{fullShare} f)
        ∗ (gsc1M.view.loc (c : Thread nD τ) ↦[gr1_11M.view.set]{fullShare} f)
        ∗ (gsc1M.view.loc (c : Thread nD τ) ↦[gr1_12M.view.set]{fullShare} f)
        ∗ (gsc1M.view.loc (c : Thread nD τ) ↦[gr1_13M.view.set]{fullShare} f)
        ∗ (gsc1M.view.loc (c : Thread nD τ) ↦[gr1_14M.view.set]{fullShare} f)
        ∗ (gsc1M.view.loc (c : Thread nD τ) ↦[gr1_15M.view.set]{fullShare} f)) := by
  have hw : gsc1M.view.set = Finset.univ.biUnion rowSet := (View.set_whole _).trans rowSet_cover.symm
  exact split16 (ℓ := gsc1M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows1.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 1's chunk of the edge-source table in scalar memory, whole. -/
abbrev ghb1M : Memref sig .tc .hbm S50000x1x128 .f32 := Memref.whole main_v0
abbrev gtb1M : Memref sig .tc .smem S64000 .i32 := Memref.whole main_v3

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc1M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb1M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed1 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb1M.view.loc (c : Thread nD τ))) (fs g : Buf (Elt F) (gsc1M.view.loc (c : Thread nD τ)))
    (hg : ∀ i ∈ ((gsc1M.slice (Rect.unit (s := S16x1x128) ![j, 0, 0] S1x1x128.size inb) (fun _ => rfl)).squeeze S1x128 squeezes_S1x1x128_S1x128).view.set,
        g i = ((gsc1M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb1M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc1M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb1M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load1 (c : Dev nD) (g : Buf (Elt F) (gsc1M.view.loc (c : Thread nD τ))) (y : S16x1x128.Idx) :
    View.readAt (Elt F) gsc1M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word1 (pf : S64000.Idx → Elt F .i32) (off : Fin 1 → ℕ) (inb : ∀ a, off a + S1.size a ≤ S64000.size a)
    (n : ℕ) (hn : n < 64000) (hoff : off 0 = n) :
    View.readAt (Elt F) gtb1M.view (Rect.unit (s := S64000) off S1.size inb).toLoadRect
        ((Memref.isWhole_whole _ : gtb1M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs1 (i : grid1.Coords) :
    (k1_off1 i) 0 = 16 * (i 0).val + 0
    ∧ (k1_off3 i) 0 = 16 * (i 0).val + 1
    ∧ (k1_off5 i) 0 = 16 * (i 0).val + 2
    ∧ (k1_off7 i) 0 = 16 * (i 0).val + 3
    ∧ (k1_off9 i) 0 = 16 * (i 0).val + 4
    ∧ (k1_off11 i) 0 = 16 * (i 0).val + 5
    ∧ (k1_off13 i) 0 = 16 * (i 0).val + 6
    ∧ (k1_off15 i) 0 = 16 * (i 0).val + 7
    ∧ (k1_off17 i) 0 = 16 * (i 0).val + 8
    ∧ (k1_off19 i) 0 = 16 * (i 0).val + 9
    ∧ (k1_off21 i) 0 = 16 * (i 0).val + 10
    ∧ (k1_off23 i) 0 = 16 * (i 0).val + 11
    ∧ (k1_off25 i) 0 = 16 * (i 0).val + 12
    ∧ (k1_off27 i) 0 = 16 * (i 0).val + 13
    ∧ (k1_off29 i) 0 = 16 * (i 0).val + 14
    ∧ (k1_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun1.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows1
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 1's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run1 (c : Dev nD) (i : grid1.Coords) (arg3 : Memref sig .tc .vmem S16x1x128 .f32) (harg3 : arg3.IsWhole)
    (pf : S64000.Idx → Elt F .i32) (tb : Buf (Elt F) (ghb1M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc1M.view.loc (c : Thread nD τ) ↦[gsc1M.view.set]{fullShare} f)
        ∗ owns (c : Thread nD τ) gtb1M fullShare pf
        ∗ (ghb1M.view.loc (c : Thread nD τ) ↦{fullShare} tb)
        ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0
        ∗ owes (c : Thread nD τ) 0 W
        ∗ (iprop(owns (c : Thread nD τ) arg3 fullShare (gblock tb pf (i 0).val)
            ∗ (∃ f, gsc1M.view.loc (c : Thread nD τ) ↦[gsc1M.view.set]{fullShare} f)
            ∗ owns (c : Thread nD τ) gtb1M fullShare pf
            ∗ (ghb1M.view.loc (c : Thread nD τ) ↦{fullShare} tb)
            ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0
            ∗ (∃ W', owes (c : Thread nD τ) 0 W')) -∗ K ⟨⟩))
      ⊢ wp frame (wpE (defs₀ (F := F)) Variants.none c none) Set.univ
          (cc1__gather_kernel i gtb1M (Memref.isWhole_whole _) ghb1M (Memref.isWhole_whole _) arg3 harg3 gsc1M (Memref.isWhole_whole _) cc1_scratch1) K := by
  have hi : (i 0).val < 4000 := (i 0).isLt
  have hoffs := table_offs1 i
  have hword0 : (View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))) = pf (ValueIdx.ix1 (⟨16 * (i 0).val + 0, by omega⟩ : Fin 64000)) :=
    table_word1 pf _ _ _ (by omega) hoffs.1
  have hlt0 : (View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))).toNat < 50000 := by rw [hword0]; exact hok _
  have hw1 : k1_chk1 (View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))) := ⟨chk_lt _ hlt0, chk_lt _ hlt0⟩
  have hword1 : (View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))) = pf (ValueIdx.ix1 (⟨16 * (i 0).val + 1, by omega⟩ : Fin 64000)) :=
    table_word1 pf _ _ _ (by omega) hoffs.2.1
  have hlt1 : (View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))).toNat < 50000 := by rw [hword1]; exact hok _
  have hw2 : k1_chk2 (View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))) := ⟨chk_lt _ hlt1, chk_lt _ hlt1⟩
  have hword2 : (View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))) = pf (ValueIdx.ix1 (⟨16 * (i 0).val + 2, by omega⟩ : Fin 64000)) :=
    table_word1 pf _ _ _ (by omega) hoffs.2.2.1
  have hlt2 : (View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))).toNat < 50000 := by rw [hword2]; exact hok _
  have hw3 : k1_chk3 (View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))) := ⟨chk_lt _ hlt2, chk_lt _ hlt2⟩
  have hword3 : (View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))) = pf (ValueIdx.ix1 (⟨16 * (i 0).val + 3, by omega⟩ : Fin 64000)) :=
    table_word1 pf _ _ _ (by omega) hoffs.2.2.2.1
  have hlt3 : (View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))).toNat < 50000 := by rw [hword3]; exact hok _
  have hw4 : k1_chk4 (View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))) := ⟨chk_lt _ hlt3, chk_lt _ hlt3⟩
  have hword4 : (View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))) = pf (ValueIdx.ix1 (⟨16 * (i 0).val + 4, by omega⟩ : Fin 64000)) :=
    table_word1 pf _ _ _ (by omega) hoffs.2.2.2.2.1
  have hlt4 : (View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))).toNat < 50000 := by rw [hword4]; exact hok _
  have hw5 : k1_chk5 (View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))) := ⟨chk_lt _ hlt4, chk_lt _ hlt4⟩
  have hword5 : (View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))) = pf (ValueIdx.ix1 (⟨16 * (i 0).val + 5, by omega⟩ : Fin 64000)) :=
    table_word1 pf _ _ _ (by omega) hoffs.2.2.2.2.2.1
  have hlt5 : (View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))).toNat < 50000 := by rw [hword5]; exact hok _
  have hw6 : k1_chk6 (View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))) := ⟨chk_lt _ hlt5, chk_lt _ hlt5⟩
  have hword6 : (View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))) = pf (ValueIdx.ix1 (⟨16 * (i 0).val + 6, by omega⟩ : Fin 64000)) :=
    table_word1 pf _ _ _ (by omega) hoffs.2.2.2.2.2.2.1
  have hlt6 : (View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))).toNat < 50000 := by rw [hword6]; exact hok _
  have hw7 : k1_chk7 (View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))) := ⟨chk_lt _ hlt6, chk_lt _ hlt6⟩
  have hword7 : (View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))) = pf (ValueIdx.ix1 (⟨16 * (i 0).val + 7, by omega⟩ : Fin 64000)) :=
    table_word1 pf _ _ _ (by omega) hoffs.2.2.2.2.2.2.2.1
  have hlt7 : (View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))).toNat < 50000 := by rw [hword7]; exact hok _
  have hw8 : k1_chk8 (View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))) := ⟨chk_lt _ hlt7, chk_lt _ hlt7⟩
  have hword8 : (View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))) = pf (ValueIdx.ix1 (⟨16 * (i 0).val + 8, by omega⟩ : Fin 64000)) :=
    table_word1 pf _ _ _ (by omega) hoffs.2.2.2.2.2.2.2.2.1
  have hlt8 : (View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))).toNat < 50000 := by rw [hword8]; exact hok _
  have hw9 : k1_chk9 (View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))) := ⟨chk_lt _ hlt8, chk_lt _ hlt8⟩
  have hword9 : (View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))) = pf (ValueIdx.ix1 (⟨16 * (i 0).val + 9, by omega⟩ : Fin 64000)) :=
    table_word1 pf _ _ _ (by omega) hoffs.2.2.2.2.2.2.2.2.2.1
  have hlt9 : (View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))).toNat < 50000 := by rw [hword9]; exact hok _
  have hw10 : k1_chk10 (View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))) := ⟨chk_lt _ hlt9, chk_lt _ hlt9⟩
  have hword10 : (View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))) = pf (ValueIdx.ix1 (⟨16 * (i 0).val + 10, by omega⟩ : Fin 64000)) :=
    table_word1 pf _ _ _ (by omega) hoffs.2.2.2.2.2.2.2.2.2.2.1
  have hlt10 : (View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))).toNat < 50000 := by rw [hword10]; exact hok _
  have hw11 : k1_chk11 (View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))) := ⟨chk_lt _ hlt10, chk_lt _ hlt10⟩
  have hword11 : (View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))) = pf (ValueIdx.ix1 (⟨16 * (i 0).val + 11, by omega⟩ : Fin 64000)) :=
    table_word1 pf _ _ _ (by omega) hoffs.2.2.2.2.2.2.2.2.2.2.2.1
  have hlt11 : (View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))).toNat < 50000 := by rw [hword11]; exact hok _
  have hw12 : k1_chk12 (View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))) := ⟨chk_lt _ hlt11, chk_lt _ hlt11⟩
  have hword12 : (View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))) = pf (ValueIdx.ix1 (⟨16 * (i 0).val + 12, by omega⟩ : Fin 64000)) :=
    table_word1 pf _ _ _ (by omega) hoffs.2.2.2.2.2.2.2.2.2.2.2.2.1
  have hlt12 : (View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))).toNat < 50000 := by rw [hword12]; exact hok _
  have hw13 : k1_chk13 (View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))) := ⟨chk_lt _ hlt12, chk_lt _ hlt12⟩
  have hword13 : (View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))) = pf (ValueIdx.ix1 (⟨16 * (i 0).val + 13, by omega⟩ : Fin 64000)) :=
    table_word1 pf _ _ _ (by omega) hoffs.2.2.2.2.2.2.2.2.2.2.2.2.2.1
  have hlt13 : (View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))).toNat < 50000 := by rw [hword13]; exact hok _
  have hw14 : k1_chk14 (View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))) := ⟨chk_lt _ hlt13, chk_lt _ hlt13⟩
  have hword14 : (View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))) = pf (ValueIdx.ix1 (⟨16 * (i 0).val + 14, by omega⟩ : Fin 64000)) :=
    table_word1 pf _ _ _ (by omega) hoffs.2.2.2.2.2.2.2.2.2.2.2.2.2.2.1
  have hlt14 : (View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))).toNat < 50000 := by rw [hword14]; exact hok _
  have hw15 : k1_chk15 (View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))) := ⟨chk_lt _ hlt14, chk_lt _ hlt14⟩
  have hword15 : (View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))) = pf (ValueIdx.ix1 (⟨16 * (i 0).val + 15, by omega⟩ : Fin 64000)) :=
    table_word1 pf _ _ _ (by omega) hoffs.2.2.2.2.2.2.2.2.2.2.2.2.2.2.2
  have hlt15 : (View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))).toNat < 50000 := by rw [hword15]; exact hok _
  have hw16 : k1_chk16 (View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))) := chk_lt _ hlt15
  rw [cc1__gather_kernel_eq_skeleton]; unfold cc1__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb1M).IsWhole).eq_unread hfp
  ihave HR := (rows_split1 (F := F) c fsc) $$ HSC
  icases HR with ⟨HS0, HS1, HS2, HS3, HS4, HS5, HS6, HS7, HS8, HS9, HS10, HS11, HS12, HS13, HS14, HS15⟩
  ihave HS0 := (Entails.of_eq (show ((gsc1M.view.loc (c : Thread nD τ) ↦[gr1_0M.view.set]{fullShare} fsc : sProp 𝕄)) = (gr1_0M.view.loc (c : Thread nD τ) ↦[gr1_0M.view.set]{fullShare} fsc) from rfl)) $$ HS0
  ihave HS1 := (Entails.of_eq (show ((gsc1M.view.loc (c : Thread nD τ) ↦[gr1_1M.view.set]{fullShare} fsc : sProp 𝕄)) = (gr1_1M.view.loc (c : Thread nD τ) ↦[gr1_1M.view.set]{fullShare} fsc) from rfl)) $$ HS1
  ihave HS2 := (Entails.of_eq (show ((gsc1M.view.loc (c : Thread nD τ) ↦[gr1_2M.view.set]{fullShare} fsc : sProp 𝕄)) = (gr1_2M.view.loc (c : Thread nD τ) ↦[gr1_2M.view.set]{fullShare} fsc) from rfl)) $$ HS2
  ihave HS3 := (Entails.of_eq (show ((gsc1M.view.loc (c : Thread nD τ) ↦[gr1_3M.view.set]{fullShare} fsc : sProp 𝕄)) = (gr1_3M.view.loc (c : Thread nD τ) ↦[gr1_3M.view.set]{fullShare} fsc) from rfl)) $$ HS3
  ihave HS4 := (Entails.of_eq (show ((gsc1M.view.loc (c : Thread nD τ) ↦[gr1_4M.view.set]{fullShare} fsc : sProp 𝕄)) = (gr1_4M.view.loc (c : Thread nD τ) ↦[gr1_4M.view.set]{fullShare} fsc) from rfl)) $$ HS4
  ihave HS5 := (Entails.of_eq (show ((gsc1M.view.loc (c : Thread nD τ) ↦[gr1_5M.view.set]{fullShare} fsc : sProp 𝕄)) = (gr1_5M.view.loc (c : Thread nD τ) ↦[gr1_5M.view.set]{fullShare} fsc) from rfl)) $$ HS5
  ihave HS6 := (Entails.of_eq (show ((gsc1M.view.loc (c : Thread nD τ) ↦[gr1_6M.view.set]{fullShare} fsc : sProp 𝕄)) = (gr1_6M.view.loc (c : Thread nD τ) ↦[gr1_6M.view.set]{fullShare} fsc) from rfl)) $$ HS6
  ihave HS7 := (Entails.of_eq (show ((gsc1M.view.loc (c : Thread nD τ) ↦[gr1_7M.view.set]{fullShare} fsc : sProp 𝕄)) = (gr1_7M.view.loc (c : Thread nD τ) ↦[gr1_7M.view.set]{fullShare} fsc) from rfl)) $$ HS7
  ihave HS8 := (Entails.of_eq (show ((gsc1M.view.loc (c : Thread nD τ) ↦[gr1_8M.view.set]{fullShare} fsc : sProp 𝕄)) = (gr1_8M.view.loc (c : Thread nD τ) ↦[gr1_8M.view.set]{fullShare} fsc) from rfl)) $$ HS8
  ihave HS9 := (Entails.of_eq (show ((gsc1M.view.loc (c : Thread nD τ) ↦[gr1_9M.view.set]{fullShare} fsc : sProp 𝕄)) = (gr1_9M.view.loc (c : Thread nD τ) ↦[gr1_9M.view.set]{fullShare} fsc) from rfl)) $$ HS9
  ihave HS10 := (Entails.of_eq (show ((gsc1M.view.loc (c : Thread nD τ) ↦[gr1_10M.view.set]{fullShare} fsc : sProp 𝕄)) = (gr1_10M.view.loc (c : Thread nD τ) ↦[gr1_10M.view.set]{fullShare} fsc) from rfl)) $$ HS10
  ihave HS11 := (Entails.of_eq (show ((gsc1M.view.loc (c : Thread nD τ) ↦[gr1_11M.view.set]{fullShare} fsc : sProp 𝕄)) = (gr1_11M.view.loc (c : Thread nD τ) ↦[gr1_11M.view.set]{fullShare} fsc) from rfl)) $$ HS11
  ihave HS12 := (Entails.of_eq (show ((gsc1M.view.loc (c : Thread nD τ) ↦[gr1_12M.view.set]{fullShare} fsc : sProp 𝕄)) = (gr1_12M.view.loc (c : Thread nD τ) ↦[gr1_12M.view.set]{fullShare} fsc) from rfl)) $$ HS12
  ihave HS13 := (Entails.of_eq (show ((gsc1M.view.loc (c : Thread nD τ) ↦[gr1_13M.view.set]{fullShare} fsc : sProp 𝕄)) = (gr1_13M.view.loc (c : Thread nD τ) ↦[gr1_13M.view.set]{fullShare} fsc) from rfl)) $$ HS13
  ihave HS14 := (Entails.of_eq (show ((gsc1M.view.loc (c : Thread nD τ) ↦[gr1_14M.view.set]{fullShare} fsc : sProp 𝕄)) = (gr1_14M.view.loc (c : Thread nD τ) ↦[gr1_14M.view.set]{fullShare} fsc) from rfl)) $$ HS14
  ihave HS15 := (Entails.of_eq (show ((gsc1M.view.loc (c : Thread nD τ) ↦[gr1_15M.view.set]{fullShare} fsc : sProp 𝕄)) = (gr1_15M.view.loc (c : Thread nD τ) ↦[gr1_15M.view.set]{fullShare} fsc) from rfl)) $$ HS15
  ihave HB := (split16 (ℓ := ghb1M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join1 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))).toNat, hlt0⟩ : Fin 50000) (0 : Fin 1) l) :=
    row_landed1 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))).toNat, hlt1⟩ : Fin 50000) (0 : Fin 1) l) :=
    row_landed1 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))).toNat, hlt2⟩ : Fin 50000) (0 : Fin 1) l) :=
    row_landed1 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))).toNat, hlt3⟩ : Fin 50000) (0 : Fin 1) l) :=
    row_landed1 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))).toNat, hlt4⟩ : Fin 50000) (0 : Fin 1) l) :=
    row_landed1 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))).toNat, hlt5⟩ : Fin 50000) (0 : Fin 1) l) :=
    row_landed1 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))).toNat, hlt6⟩ : Fin 50000) (0 : Fin 1) l) :=
    row_landed1 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))).toNat, hlt7⟩ : Fin 50000) (0 : Fin 1) l) :=
    row_landed1 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))).toNat, hlt8⟩ : Fin 50000) (0 : Fin 1) l) :=
    row_landed1 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))).toNat, hlt9⟩ : Fin 50000) (0 : Fin 1) l) :=
    row_landed1 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))).toNat, hlt10⟩ : Fin 50000) (0 : Fin 1) l) :=
    row_landed1 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))).toNat, hlt11⟩ : Fin 50000) (0 : Fin 1) l) :=
    row_landed1 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))).toNat, hlt12⟩ : Fin 50000) (0 : Fin 1) l) :=
    row_landed1 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))).toNat, hlt13⟩ : Fin 50000) (0 : Fin 1) l) :=
    row_landed1 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))).toNat, hlt14⟩ : Fin 50000) (0 : Fin 1) l) :=
    row_landed1 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))).toNat, hlt15⟩ : Fin 50000) (0 : Fin 1) l) :=
    row_landed1 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load1]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb1M).IsWhole).read_unread _
  isplitl [Hh0 Hh1 Hh2 Hh3 Hh4 Hh5 Hh6 Hh7 Hh8 Hh9 Hh10 Hh11 Hh12 Hh13 Hh14 Hh15]
  · iapply (join16 (ℓ := ghb1M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather1.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 1's own DMA semaphores: one per row of the step. -/
abbrev gsem1 : Fin 16 → SemLoc sig := fun j =>
  (![SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35] : Fin 16 → SemLoc sig) j
theorem gsemFacts1 : Pipeline.OwnSemFacts spec1 gsem1 := by decide

/-- The buffers the body reads without a window: the node table in HBM and its chunk of the edge-source table. -/
def gH1 : Finset (Ref sig .tc) := {main_v0, main_v3}
theorem gH1_sub : gH1 ⊆ Pipeline.restRefs sig spec1 := by decide

/-- The call's prefetched table at the contents the region finds. -/
def gadm1 (c : Dev nD) : (pcfg1 (F := F)).Adm := ⟨fun k => match k with | ⟨0, _⟩ => V c main_v3, trivial⟩

/-- The proof data of gather call 1 on core `c`: the output array as found; after step `t` the output block holds
    the gathered rows; the invariant carries the scratch, the call's semaphores at zero and the two tables as found. -/
def gdat1 (a : (pcfg1 (F := F)).Adm) (c : Dev nD) : Dat τ (Elt F) Unit ℕ (Pipeline.UD sig nD τ) ℕ (cfg1 a) c where
  A w := V c (Pipeline.arrRef spec1 w)
  after w t := match w with
    | ⟨0, _⟩ => gblock (V c main_v0) (V c main_v3) t.val
  Φ _ := Pipeline.ΦD gsem1 spec1 gH1 V c
  q _ := fullShare
  owed _ := 0

theorem gdat1_A (a : (pcfg1 (F := F)).Adm) (c : Dev nD) (w : Fin (cfg1 a).W) :
    (gdat1 V a c).A w = V c (Pipeline.arrRef spec1 w) := by dsimp only [gdat1]
theorem gdat1_after (a : (pcfg1 (F := F)).Adm) (c : Dev nD) (t : Fin (cfg1 a).N) :
    (gdat1 V a c).after 0 t = gblock (V c main_v0) (V c main_v3) t.val := rfl

/-! ## The body obligation, from the body's run -/

/-- The call's scratch buffer whole at some contents, said of the buffer and said through the whole-buffer memref. -/
theorem gsc1_whole (c : Dev nD) :
    (iprop(∃ f, gsc1M.view.loc (c : Thread nD τ) ↦[gsc1M.view.set]{fullShare} f) : sProp 𝕄)
      = iprop(∃ f : Buf (Elt F) ((c : Thread nD τ).loc cc1_scratch0), ((c : Thread nD τ).loc cc1_scratch0) ↦{fullShare} f) := by
  simp only [gsc1M, Memref.view_whole, View.set_whole]

/-- The region invariant of gather call 1, conjunct by conjunct: the call's scratch buffer whole at some contents beside
    the scoped buffers it does not touch, the generator register at some state, its sixteen semaphores at zero, and
    the two tables whole at the contents the region finds. -/
theorem PhiD1_eq (c : Dev nD) :
    (Pipeline.ΦD gsem1 spec1 gH1 V c : sProp 𝕄)
      = iprop(iprop((∃ f, gsc1M.view.loc (c : Thread nD τ) ↦[gsc1M.view.set]{fullShare} f)
            ∗ Pipeline.scopedRestBut (Ix := Unit) (Name := ℕ) (U := Pipeline.UD sig nD τ) (Lvl := ℕ) (Val := Elt F) spec1 c [cc1_scratch0])
          ∗ (∃ r, prngReg c r)
          ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
          ∗ iprop((ghb1M.view.loc (c : Thread nD τ) ↦{fullShare} V c main_v0) ∗ owns (c : Thread nD τ) gtb1M fullShare (V c main_v3))) := by
  rw [gsc1_whole, owns_whole, Pipeline.ΦD_eq, scopedRest1_split,
    Pipeline.ownSems0_eq_of_list c gsem1 [0, 1, 2, 3, 4, 5, 6, 7, 8, 9, 10, 11, 12, 13, 14, 15] (by decide) (by decide),
    BI.bigSep_eq_bigSepL_of_eq [main_v0, main_v3] (by decide) (by decide)]
  rfl

/-- The kernel body of gather call 1 as the pipeline calls it at point `t`: the step's coordinates, the two tables whole,
    the output window's current staging buffer, the scratch buffer and the sixteen semaphores. -/
abbrev gbodyAt1 (a : (pcfg1 (F := F)).Adm) (t : Fin (cfg1 a).N) : Prog (TpuEff nD τ sig (Elt F) Λ₀ .tc) PUnit :=
  cc1__gather_kernel ((cfg1 a).grid.coords t) gtb1M (Memref.isWhole_whole _) ghb1M (Memref.isWhole_whole _)
    (spec1_0.stage ((cfg1 a).slots t 0)) (hstage1_0 (((cfg1 a).slots t 0).cast nbuf1_0)) gsc1M (Memref.isWhole_whole _) cc1_scratch1

/-- The grid is one axis of 4000 steps: the step's one coordinate is its number. -/
theorem gcoord1 (a : (pcfg1 (F := F)).Adm) (t : Fin (cfg1 a).N) : (((cfg1 a).grid.coords t) 0).val = t.val := by
  have ht : t.val < 4000 := lt_of_lt_of_eq t.isLt N_1
  show t.val / 1 % 4000 = t.val
  omega

/-- What the body is called with at point `t`: the invariant, the core's `owes`, the output window's current staging
    buffer at whatever it holds, -/
def gbodyPre1 (a : (pcfg1 (F := F)).Adm) (c : Dev nD) (t : Fin (cfg1 a).N) : sProp 𝕄 :=
  iprop((gdat1 V a c).Φ t.castSucc ∗ (gdat1 V a c).owesAt () t.castSucc
    ∗ (∃ d, owns (c : Thread nD τ) (spec1_0.stage ((cfg1 a).slots t 0)) fullShare ((gdat1 V a c).before 0 t d)))

/-- and what it returns: the invariant, `owes`, the staging buffer at the step's gathered rows. -/
def gbodyPost1 (a : (pcfg1 (F := F)).Adm) (c : Dev nD) (t : Fin (cfg1 a).N) : sProp 𝕄 :=
  iprop((gdat1 V a c).Φ t.succ ∗ (gdat1 V a c).owesAt () t.succ
    ∗ owns (c : Thread nD τ) (spec1_0.stage ((cfg1 a).slots t 0)) fullShare ((gdat1 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body1 (a : (pcfg1 (F := F)).Adm) (c : Dev nD)
    (hok : ∀ e : S64000.Idx, (V c main_v3 e).toNat < 50000) (t : Fin (cfg1 a).N) :
    gbodyPre1 V a c t ⊢ wp frame (wpE (defs₀ (F := F)) Variants.none c none) Set.univ (gbodyAt1 a t) (fun _ => gbodyPost1 V a c t) := by
  unfold gbodyPre1 gbodyPost1 gbodyAt1
  rw [show (gdat1 V a c).Φ t.succ = Pipeline.ΦD gsem1 spec1 gH1 V c from rfl,
    show (gdat1 V a c).Φ t.castSucc = Pipeline.ΦD gsem1 spec1 gH1 V c from rfl, gdat1_after, PhiD1_eq]
  unfold Dat.owesAt Pipeline.owesWithin
  rw [show (gdat1 V a c).owed t.castSucc = 0 from rfl, show (gdat1 V a c).owed t.succ = 0 from rfl]
  have hrun := fun W K => gather_run1 (F := F) c ((cfg1 a).grid.coords t) (spec1_0.stage ((cfg1 a).slots t 0))
    (hstage1_0 (((cfg1 a).slots t 0).cast nbuf1_0)) (V c main_v3) (V c main_v0) hok W K
  rw [gcoord1 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 1, when every word of its table names a row of the node table. -/
theorem gather_obligation1 (a : (pcfg1 (F := F)).Adm) (c : Dev nD)
    (hok : ∀ e : S64000.Idx, (V c main_v3 e).toNat < 50000) :
    BodyObligation (gdat1 (F := F) V a c) (defs₀ (F := F)) Variants.none () Set.univ := fun t => by
  rw [bigSep_W1, bigSep_W1]
  exact gsound_body1 V a c hok t

end

end Cert.KernelIdeal.Hand

end
-- ==== Proof.RowsJoin2.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 2's scratch buffer, whole, and its sixteen rows as the body addresses them. -/
abbrev gsc2M : Memref sig .tc .vmem S16x1x128 .f32 := Memref.whole cc2_scratch0
abbrev gr2_0M : Memref sig .tc .vmem S1x128 .f32 := ((Memref.whole cc2_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr2_1M : Memref sig .tc .vmem S1x128 .f32 := ((Memref.whole cc2_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr2_2M : Memref sig .tc .vmem S1x128 .f32 := ((Memref.whole cc2_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr2_3M : Memref sig .tc .vmem S1x128 .f32 := ((Memref.whole cc2_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr2_4M : Memref sig .tc .vmem S1x128 .f32 := ((Memref.whole cc2_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr2_5M : Memref sig .tc .vmem S1x128 .f32 := ((Memref.whole cc2_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr2_6M : Memref sig .tc .vmem S1x128 .f32 := ((Memref.whole cc2_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr2_7M : Memref sig .tc .vmem S1x128 .f32 := ((Memref.whole cc2_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr2_8M : Memref sig .tc .vmem S1x128 .f32 := ((Memref.whole cc2_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr2_9M : Memref sig .tc .vmem S1x128 .f32 := ((Memref.whole cc2_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr2_10M : Memref sig .tc .vmem S1x128 .f32 := ((Memref.whole cc2_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr2_11M : Memref sig .tc .vmem S1x128 .f32 := ((Memref.whole cc2_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr2_12M : Memref sig .tc .vmem S1x128 .f32 := ((Memref.whole cc2_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr2_13M : Memref sig .tc .vmem S1x128 .f32 := ((Memref.whole cc2_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr2_14M : Memref sig .tc .vmem S1x128 .f32 := ((Memref.whole cc2_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr2_15M : Memref sig .tc .vmem S1x128 .f32 := ((Memref.whole cc2_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr2_0M.view.set = rowSet (0 : Fin 16) := by
  refine (View.set_reshape _ _).trans ?_
  refine (View.set_slice_whole _ _).trans ?_
  rfl
private theorem row_set_1 : gr2_1M.view.set = rowSet (1 : Fin 16) := by
  refine (View.set_reshape _ _).trans ?_
  refine (View.set_slice_whole _ _).trans ?_
  rfl
private theorem row_set_2 : gr2_2M.view.set = rowSet (2 : Fin 16) := by
  refine (View.set_reshape _ _).trans ?_
  refine (View.set_slice_whole _ _).trans ?_
  rfl
private theorem row_set_3 : gr2_3M.view.set = rowSet (3 : Fin 16) := by
  refine (View.set_reshape _ _).trans ?_
  refine (View.set_slice_whole _ _).trans ?_
  rfl
private theorem row_set_4 : gr2_4M.view.set = rowSet (4 : Fin 16) := by
  refine (View.set_reshape _ _).trans ?_
  refine (View.set_slice_whole _ _).trans ?_
  rfl
private theorem row_set_5 : gr2_5M.view.set = rowSet (5 : Fin 16) := by
  refine (View.set_reshape _ _).trans ?_
  refine (View.set_slice_whole _ _).trans ?_
  rfl
private theorem row_set_6 : gr2_6M.view.set = rowSet (6 : Fin 16) := by
  refine (View.set_reshape _ _).trans ?_
  refine (View.set_slice_whole _ _).trans ?_
  rfl
private theorem row_set_7 : gr2_7M.view.set = rowSet (7 : Fin 16) := by
  refine (View.set_reshape _ _).trans ?_
  refine (View.set_slice_whole _ _).trans ?_
  rfl
private theorem row_set_8 : gr2_8M.view.set = rowSet (8 : Fin 16) := by
  refine (View.set_reshape _ _).trans ?_
  refine (View.set_slice_whole _ _).trans ?_
  rfl
private theorem row_set_9 : gr2_9M.view.set = rowSet (9 : Fin 16) := by
  refine (View.set_reshape _ _).trans ?_
  refine (View.set_slice_whole _ _).trans ?_
  rfl
private theorem row_set_10 : gr2_10M.view.set = rowSet (10 : Fin 16) := by
  refine (View.set_reshape _ _).trans ?_
  refine (View.set_slice_whole _ _).trans ?_
  rfl
private theorem row_set_11 : gr2_11M.view.set = rowSet (11 : Fin 16) := by
  refine (View.set_reshape _ _).trans ?_
  refine (View.set_slice_whole _ _).trans ?_
  rfl
private theorem row_set_12 : gr2_12M.view.set = rowSet (12 : Fin 16) := by
  refine (View.set_reshape _ _).trans ?_
  refine (View.set_slice_whole _ _).trans ?_
  rfl
private theorem row_set_13 : gr2_13M.view.set = rowSet (13 : Fin 16) := by
  refine (View.set_reshape _ _).trans ?_
  refine (View.set_slice_whole _ _).trans ?_
  rfl
private theorem row_set_14 : gr2_14M.view.set = rowSet (14 : Fin 16) := by
  refine (View.set_reshape _ _).trans ?_
  refine (View.set_slice_whole _ _).trans ?_
  rfl
private theorem row_set_15 : gr2_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join2 (c : Dev nD) (f0 f1 f2 f3 f4 f5 f6 f7 f8 f9 f10 f11 f12 f13 f14 f15 : Buf (Elt F) (gsc2M.view.loc (c : Thread nD τ))) :
    (iprop((gsc2M.view.loc (c : Thread nD τ) ↦[gr2_0M.view.set]{fullShare} f0)
        ∗ (gsc2M.view.loc (c : Thread nD τ) ↦[gr2_1M.view.set]{fullShare} f1)
        ∗ (gsc2M.view.loc (c : Thread nD τ) ↦[gr2_2M.view.set]{fullShare} f2)
        ∗ (gsc2M.view.loc (c : Thread nD τ) ↦[gr2_3M.view.set]{fullShare} f3)
        ∗ (gsc2M.view.loc (c : Thread nD τ) ↦[gr2_4M.view.set]{fullShare} f4)
        ∗ (gsc2M.view.loc (c : Thread nD τ) ↦[gr2_5M.view.set]{fullShare} f5)
        ∗ (gsc2M.view.loc (c : Thread nD τ) ↦[gr2_6M.view.set]{fullShare} f6)
        ∗ (gsc2M.view.loc (c : Thread nD τ) ↦[gr2_7M.view.set]{fullShare} f7)
        ∗ (gsc2M.view.loc (c : Thread nD τ) ↦[gr2_8M.view.set]{fullShare} f8)
        ∗ (gsc2M.view.loc (c : Thread nD τ) ↦[gr2_9M.view.set]{fullShare} f9)
        ∗ (gsc2M.view.loc (c : Thread nD τ) ↦[gr2_10M.view.set]{fullShare} f10)
        ∗ (gsc2M.view.loc (c : Thread nD τ) ↦[gr2_11M.view.set]{fullShare} f11)
        ∗ (gsc2M.view.loc (c : Thread nD τ) ↦[gr2_12M.view.set]{fullShare} f12)
        ∗ (gsc2M.view.loc (c : Thread nD τ) ↦[gr2_13M.view.set]{fullShare} f13)
        ∗ (gsc2M.view.loc (c : Thread nD τ) ↦[gr2_14M.view.set]{fullShare} f14)
        ∗ (gsc2M.view.loc (c : Thread nD τ) ↦[gr2_15M.view.set]{fullShare} f15)) : sProp 𝕄)
      ⊢ iprop(∃ g : Buf (Elt F) (gsc2M.view.loc (c : Thread nD τ)),
          ⌜(∀ i ∈ gr2_0M.view.set, g i = f0 i)
            ∧ (∀ i ∈ gr2_1M.view.set, g i = f1 i)
            ∧ (∀ i ∈ gr2_2M.view.set, g i = f2 i)
            ∧ (∀ i ∈ gr2_3M.view.set, g i = f3 i)
            ∧ (∀ i ∈ gr2_4M.view.set, g i = f4 i)
            ∧ (∀ i ∈ gr2_5M.view.set, g i = f5 i)
            ∧ (∀ i ∈ gr2_6M.view.set, g i = f6 i)
            ∧ (∀ i ∈ gr2_7M.view.set, g i = f7 i)
            ∧ (∀ i ∈ gr2_8M.view.set, g i = f8 i)
            ∧ (∀ i ∈ gr2_9M.view.set, g i = f9 i)
            ∧ (∀ i ∈ gr2_10M.view.set, g i = f10 i)
            ∧ (∀ i ∈ gr2_11M.view.set, g i = f11 i)
            ∧ (∀ i ∈ gr2_12M.view.set, g i = f12 i)
            ∧ (∀ i ∈ gr2_13M.view.set, g i = f13 i)
            ∧ (∀ i ∈ gr2_14M.view.set, g i = f14 i)
            ∧ (∀ i ∈ gr2_15M.view.set, g i = f15 i)⌝
          ∗ (gsc2M.view.loc (c : Thread nD τ) ↦[gsc2M.view.set]{fullShare} g)) := by
  have hw : gsc2M.view.set = Finset.univ.biUnion rowSet := (View.set_whole _).trans rowSet_cover.symm
  exact join16 (ℓ := gsc2M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split2 (c : Dev nD) (f : Buf (Elt F) (gsc2M.view.loc (c : Thread nD τ))) :
    (gsc2M.view.loc (c : Thread nD τ) ↦[gsc2M.view.set]{fullShare} f : sProp 𝕄)
      ⊢ iprop((gsc2M.view.loc (c : Thread nD τ) ↦[gr2_0M.view.set]{fullShare} f)
        ∗ (gsc2M.view.loc (c : Thread nD τ) ↦[gr2_1M.view.set]{fullShare} f)
        ∗ (gsc2M.view.loc (c : Thread nD τ) ↦[gr2_2M.view.set]{fullShare} f)
        ∗ (gsc2M.view.loc (c : Thread nD τ) ↦[gr2_3M.view.set]{fullShare} f)
        ∗ (gsc2M.view.loc (c : Thread nD τ) ↦[gr2_4M.view.set]{fullShare} f)
        ∗ (gsc2M.view.loc (c : Thread nD τ) ↦[gr2_5M.view.set]{fullShare} f)
        ∗ (gsc2M.view.loc (c : Thread nD τ) ↦[gr2_6M.view.set]{fullShare} f)
        ∗ (gsc2M.view.loc (c : Thread nD τ) ↦[gr2_7M.view.set]{fullShare} f)
        ∗ (gsc2M.view.loc (c : Thread nD τ) ↦[gr2_8M.view.set]{fullShare} f)
        ∗ (gsc2M.view.loc (c : Thread nD τ) ↦[gr2_9M.view.set]{fullShare} f)
        ∗ (gsc2M.view.loc (c : Thread nD τ) ↦[gr2_10M.view.set]{fullShare} f)
        ∗ (gsc2M.view.loc (c : Thread nD τ) ↦[gr2_11M.view.set]{fullShare} f)
        ∗ (gsc2M.view.loc (c : Thread nD τ) ↦[gr2_12M.view.set]{fullShare} f)
        ∗ (gsc2M.view.loc (c : Thread nD τ) ↦[gr2_13M.view.set]{fullShare} f)
        ∗ (gsc2M.view.loc (c : Thread nD τ) ↦[gr2_14M.view.set]{fullShare} f)
        ∗ (gsc2M.view.loc (c : Thread nD τ) ↦[gr2_15M.view.set]{fullShare} f)) := by
  have hw : gsc2M.view.set = Finset.univ.biUnion rowSet := (View.set_whole _).trans rowSet_cover.symm
  exact split16 (ℓ := gsc2M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows2.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin2
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 2's chunk of the edge-source table in scalar memory, whole. -/
abbrev ghb2M : Memref sig .tc .hbm S50000x1x128 .f32 := Memref.whole main_v0
abbrev gtb2M : Memref sig .tc .smem S64000 .i32 := Memref.whole main_v5

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc2M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb2M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed2 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb2M.view.loc (c : Thread nD τ))) (fs g : Buf (Elt F) (gsc2M.view.loc (c : Thread nD τ)))
    (hg : ∀ i ∈ ((gsc2M.slice (Rect.unit (s := S16x1x128) ![j, 0, 0] S1x1x128.size inb) (fun _ => rfl)).squeeze S1x128 squeezes_S1x1x128_S1x128).view.set,
        g i = ((gsc2M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb2M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc2M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb2M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load2 (c : Dev nD) (g : Buf (Elt F) (gsc2M.view.loc (c : Thread nD τ))) (y : S16x1x128.Idx) :
    View.readAt (Elt F) gsc2M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word2 (pf : S64000.Idx → Elt F .i32) (off : Fin 1 → ℕ) (inb : ∀ a, off a + S1.size a ≤ S64000.size a)
    (n : ℕ) (hn : n < 64000) (hoff : off 0 = n) :
    View.readAt (Elt F) gtb2M.view (Rect.unit (s := S64000) off S1.size inb).toLoadRect
        ((Memref.isWhole_whole _ : gtb2M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs2 (i : grid2.Coords) :
    (k2_off1 i) 0 = 16 * (i 0).val + 0
    ∧ (k2_off3 i) 0 = 16 * (i 0).val + 1
    ∧ (k2_off5 i) 0 = 16 * (i 0).val + 2
    ∧ (k2_off7 i) 0 = 16 * (i 0).val + 3
    ∧ (k2_off9 i) 0 = 16 * (i 0).val + 4
    ∧ (k2_off11 i) 0 = 16 * (i 0).val + 5
    ∧ (k2_off13 i) 0 = 16 * (i 0).val + 6
    ∧ (k2_off15 i) 0 = 16 * (i 0).val + 7
    ∧ (k2_off17 i) 0 = 16 * (i 0).val + 8
    ∧ (k2_off19 i) 0 = 16 * (i 0).val + 9
    ∧ (k2_off21 i) 0 = 16 * (i 0).val + 10
    ∧ (k2_off23 i) 0 = 16 * (i 0).val + 11
    ∧ (k2_off25 i) 0 = 16 * (i 0).val + 12
    ∧ (k2_off27 i) 0 = 16 * (i 0).val + 13
    ∧ (k2_off29 i) 0 = 16 * (i 0).val + 14
    ∧ (k2_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun2.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows2
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 2's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run2 (c : Dev nD) (i : grid2.Coords) (arg3 : Memref sig .tc .vmem S16x1x128 .f32) (harg3 : arg3.IsWhole)
    (pf : S64000.Idx → Elt F .i32) (tb : Buf (Elt F) (ghb2M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc2M.view.loc (c : Thread nD τ) ↦[gsc2M.view.set]{fullShare} f)
        ∗ owns (c : Thread nD τ) gtb2M fullShare pf
        ∗ (ghb2M.view.loc (c : Thread nD τ) ↦{fullShare} tb)
        ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0
        ∗ owes (c : Thread nD τ) 0 W
        ∗ (iprop(owns (c : Thread nD τ) arg3 fullShare (gblock tb pf (i 0).val)
            ∗ (∃ f, gsc2M.view.loc (c : Thread nD τ) ↦[gsc2M.view.set]{fullShare} f)
            ∗ owns (c : Thread nD τ) gtb2M fullShare pf
            ∗ (ghb2M.view.loc (c : Thread nD τ) ↦{fullShare} tb)
            ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0
            ∗ (∃ W', owes (c : Thread nD τ) 0 W')) -∗ K ⟨⟩))
      ⊢ wp frame (wpE (defs₀ (F := F)) Variants.none c none) Set.univ
          (cc2__gather_kernel i gtb2M (Memref.isWhole_whole _) ghb2M (Memref.isWhole_whole _) arg3 harg3 gsc2M (Memref.isWhole_whole _) cc2_scratch1) K := by
  have hi : (i 0).val < 4000 := (i 0).isLt
  have hoffs := table_offs2 i
  have hword0 : (View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))) = pf (ValueIdx.ix1 (⟨16 * (i 0).val + 0, by omega⟩ : Fin 64000)) :=
    table_word2 pf _ _ _ (by omega) hoffs.1
  have hlt0 : (View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))).toNat < 50000 := by rw [hword0]; exact hok _
  have hw1 : k2_chk1 (View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))) := ⟨chk_lt _ hlt0, chk_lt _ hlt0⟩
  have hword1 : (View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))) = pf (ValueIdx.ix1 (⟨16 * (i 0).val + 1, by omega⟩ : Fin 64000)) :=
    table_word2 pf _ _ _ (by omega) hoffs.2.1
  have hlt1 : (View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))).toNat < 50000 := by rw [hword1]; exact hok _
  have hw2 : k2_chk2 (View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))) := ⟨chk_lt _ hlt1, chk_lt _ hlt1⟩
  have hword2 : (View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))) = pf (ValueIdx.ix1 (⟨16 * (i 0).val + 2, by omega⟩ : Fin 64000)) :=
    table_word2 pf _ _ _ (by omega) hoffs.2.2.1
  have hlt2 : (View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))).toNat < 50000 := by rw [hword2]; exact hok _
  have hw3 : k2_chk3 (View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))) := ⟨chk_lt _ hlt2, chk_lt _ hlt2⟩
  have hword3 : (View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))) = pf (ValueIdx.ix1 (⟨16 * (i 0).val + 3, by omega⟩ : Fin 64000)) :=
    table_word2 pf _ _ _ (by omega) hoffs.2.2.2.1
  have hlt3 : (View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))).toNat < 50000 := by rw [hword3]; exact hok _
  have hw4 : k2_chk4 (View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))) := ⟨chk_lt _ hlt3, chk_lt _ hlt3⟩
  have hword4 : (View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))) = pf (ValueIdx.ix1 (⟨16 * (i 0).val + 4, by omega⟩ : Fin 64000)) :=
    table_word2 pf _ _ _ (by omega) hoffs.2.2.2.2.1
  have hlt4 : (View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))).toNat < 50000 := by rw [hword4]; exact hok _
  have hw5 : k2_chk5 (View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))) := ⟨chk_lt _ hlt4, chk_lt _ hlt4⟩
  have hword5 : (View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))) = pf (ValueIdx.ix1 (⟨16 * (i 0).val + 5, by omega⟩ : Fin 64000)) :=
    table_word2 pf _ _ _ (by omega) hoffs.2.2.2.2.2.1
  have hlt5 : (View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))).toNat < 50000 := by rw [hword5]; exact hok _
  have hw6 : k2_chk6 (View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))) := ⟨chk_lt _ hlt5, chk_lt _ hlt5⟩
  have hword6 : (View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))) = pf (ValueIdx.ix1 (⟨16 * (i 0).val + 6, by omega⟩ : Fin 64000)) :=
    table_word2 pf _ _ _ (by omega) hoffs.2.2.2.2.2.2.1
  have hlt6 : (View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))).toNat < 50000 := by rw [hword6]; exact hok _
  have hw7 : k2_chk7 (View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))) := ⟨chk_lt _ hlt6, chk_lt _ hlt6⟩
  have hword7 : (View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))) = pf (ValueIdx.ix1 (⟨16 * (i 0).val + 7, by omega⟩ : Fin 64000)) :=
    table_word2 pf _ _ _ (by omega) hoffs.2.2.2.2.2.2.2.1
  have hlt7 : (View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))).toNat < 50000 := by rw [hword7]; exact hok _
  have hw8 : k2_chk8 (View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))) := ⟨chk_lt _ hlt7, chk_lt _ hlt7⟩
  have hword8 : (View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))) = pf (ValueIdx.ix1 (⟨16 * (i 0).val + 8, by omega⟩ : Fin 64000)) :=
    table_word2 pf _ _ _ (by omega) hoffs.2.2.2.2.2.2.2.2.1
  have hlt8 : (View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))).toNat < 50000 := by rw [hword8]; exact hok _
  have hw9 : k2_chk9 (View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))) := ⟨chk_lt _ hlt8, chk_lt _ hlt8⟩
  have hword9 : (View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))) = pf (ValueIdx.ix1 (⟨16 * (i 0).val + 9, by omega⟩ : Fin 64000)) :=
    table_word2 pf _ _ _ (by omega) hoffs.2.2.2.2.2.2.2.2.2.1
  have hlt9 : (View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))).toNat < 50000 := by rw [hword9]; exact hok _
  have hw10 : k2_chk10 (View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))) := ⟨chk_lt _ hlt9, chk_lt _ hlt9⟩
  have hword10 : (View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))) = pf (ValueIdx.ix1 (⟨16 * (i 0).val + 10, by omega⟩ : Fin 64000)) :=
    table_word2 pf _ _ _ (by omega) hoffs.2.2.2.2.2.2.2.2.2.2.1
  have hlt10 : (View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))).toNat < 50000 := by rw [hword10]; exact hok _
  have hw11 : k2_chk11 (View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))) := ⟨chk_lt _ hlt10, chk_lt _ hlt10⟩
  have hword11 : (View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))) = pf (ValueIdx.ix1 (⟨16 * (i 0).val + 11, by omega⟩ : Fin 64000)) :=
    table_word2 pf _ _ _ (by omega) hoffs.2.2.2.2.2.2.2.2.2.2.2.1
  have hlt11 : (View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))).toNat < 50000 := by rw [hword11]; exact hok _
  have hw12 : k2_chk12 (View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))) := ⟨chk_lt _ hlt11, chk_lt _ hlt11⟩
  have hword12 : (View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))) = pf (ValueIdx.ix1 (⟨16 * (i 0).val + 12, by omega⟩ : Fin 64000)) :=
    table_word2 pf _ _ _ (by omega) hoffs.2.2.2.2.2.2.2.2.2.2.2.2.1
  have hlt12 : (View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))).toNat < 50000 := by rw [hword12]; exact hok _
  have hw13 : k2_chk13 (View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))) := ⟨chk_lt _ hlt12, chk_lt _ hlt12⟩
  have hword13 : (View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))) = pf (ValueIdx.ix1 (⟨16 * (i 0).val + 13, by omega⟩ : Fin 64000)) :=
    table_word2 pf _ _ _ (by omega) hoffs.2.2.2.2.2.2.2.2.2.2.2.2.2.1
  have hlt13 : (View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))).toNat < 50000 := by rw [hword13]; exact hok _
  have hw14 : k2_chk14 (View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))) := ⟨chk_lt _ hlt13, chk_lt _ hlt13⟩
  have hword14 : (View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))) = pf (ValueIdx.ix1 (⟨16 * (i 0).val + 14, by omega⟩ : Fin 64000)) :=
    table_word2 pf _ _ _ (by omega) hoffs.2.2.2.2.2.2.2.2.2.2.2.2.2.2.1
  have hlt14 : (View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))).toNat < 50000 := by rw [hword14]; exact hok _
  have hw15 : k2_chk15 (View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))) := ⟨chk_lt _ hlt14, chk_lt _ hlt14⟩
  have hword15 : (View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))) = pf (ValueIdx.ix1 (⟨16 * (i 0).val + 15, by omega⟩ : Fin 64000)) :=
    table_word2 pf _ _ _ (by omega) hoffs.2.2.2.2.2.2.2.2.2.2.2.2.2.2.2
  have hlt15 : (View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))).toNat < 50000 := by rw [hword15]; exact hok _
  have hw16 : k2_chk16 (View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))) := chk_lt _ hlt15
  rw [cc2__gather_kernel_eq_skeleton]; unfold cc2__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb2M).IsWhole).eq_unread hfp
  ihave HR := (rows_split2 (F := F) c fsc) $$ HSC
  icases HR with ⟨HS0, HS1, HS2, HS3, HS4, HS5, HS6, HS7, HS8, HS9, HS10, HS11, HS12, HS13, HS14, HS15⟩
  ihave HS0 := (Entails.of_eq (show ((gsc2M.view.loc (c : Thread nD τ) ↦[gr2_0M.view.set]{fullShare} fsc : sProp 𝕄)) = (gr2_0M.view.loc (c : Thread nD τ) ↦[gr2_0M.view.set]{fullShare} fsc) from rfl)) $$ HS0
  ihave HS1 := (Entails.of_eq (show ((gsc2M.view.loc (c : Thread nD τ) ↦[gr2_1M.view.set]{fullShare} fsc : sProp 𝕄)) = (gr2_1M.view.loc (c : Thread nD τ) ↦[gr2_1M.view.set]{fullShare} fsc) from rfl)) $$ HS1
  ihave HS2 := (Entails.of_eq (show ((gsc2M.view.loc (c : Thread nD τ) ↦[gr2_2M.view.set]{fullShare} fsc : sProp 𝕄)) = (gr2_2M.view.loc (c : Thread nD τ) ↦[gr2_2M.view.set]{fullShare} fsc) from rfl)) $$ HS2
  ihave HS3 := (Entails.of_eq (show ((gsc2M.view.loc (c : Thread nD τ) ↦[gr2_3M.view.set]{fullShare} fsc : sProp 𝕄)) = (gr2_3M.view.loc (c : Thread nD τ) ↦[gr2_3M.view.set]{fullShare} fsc) from rfl)) $$ HS3
  ihave HS4 := (Entails.of_eq (show ((gsc2M.view.loc (c : Thread nD τ) ↦[gr2_4M.view.set]{fullShare} fsc : sProp 𝕄)) = (gr2_4M.view.loc (c : Thread nD τ) ↦[gr2_4M.view.set]{fullShare} fsc) from rfl)) $$ HS4
  ihave HS5 := (Entails.of_eq (show ((gsc2M.view.loc (c : Thread nD τ) ↦[gr2_5M.view.set]{fullShare} fsc : sProp 𝕄)) = (gr2_5M.view.loc (c : Thread nD τ) ↦[gr2_5M.view.set]{fullShare} fsc) from rfl)) $$ HS5
  ihave HS6 := (Entails.of_eq (show ((gsc2M.view.loc (c : Thread nD τ) ↦[gr2_6M.view.set]{fullShare} fsc : sProp 𝕄)) = (gr2_6M.view.loc (c : Thread nD τ) ↦[gr2_6M.view.set]{fullShare} fsc) from rfl)) $$ HS6
  ihave HS7 := (Entails.of_eq (show ((gsc2M.view.loc (c : Thread nD τ) ↦[gr2_7M.view.set]{fullShare} fsc : sProp 𝕄)) = (gr2_7M.view.loc (c : Thread nD τ) ↦[gr2_7M.view.set]{fullShare} fsc) from rfl)) $$ HS7
  ihave HS8 := (Entails.of_eq (show ((gsc2M.view.loc (c : Thread nD τ) ↦[gr2_8M.view.set]{fullShare} fsc : sProp 𝕄)) = (gr2_8M.view.loc (c : Thread nD τ) ↦[gr2_8M.view.set]{fullShare} fsc) from rfl)) $$ HS8
  ihave HS9 := (Entails.of_eq (show ((gsc2M.view.loc (c : Thread nD τ) ↦[gr2_9M.view.set]{fullShare} fsc : sProp 𝕄)) = (gr2_9M.view.loc (c : Thread nD τ) ↦[gr2_9M.view.set]{fullShare} fsc) from rfl)) $$ HS9
  ihave HS10 := (Entails.of_eq (show ((gsc2M.view.loc (c : Thread nD τ) ↦[gr2_10M.view.set]{fullShare} fsc : sProp 𝕄)) = (gr2_10M.view.loc (c : Thread nD τ) ↦[gr2_10M.view.set]{fullShare} fsc) from rfl)) $$ HS10
  ihave HS11 := (Entails.of_eq (show ((gsc2M.view.loc (c : Thread nD τ) ↦[gr2_11M.view.set]{fullShare} fsc : sProp 𝕄)) = (gr2_11M.view.loc (c : Thread nD τ) ↦[gr2_11M.view.set]{fullShare} fsc) from rfl)) $$ HS11
  ihave HS12 := (Entails.of_eq (show ((gsc2M.view.loc (c : Thread nD τ) ↦[gr2_12M.view.set]{fullShare} fsc : sProp 𝕄)) = (gr2_12M.view.loc (c : Thread nD τ) ↦[gr2_12M.view.set]{fullShare} fsc) from rfl)) $$ HS12
  ihave HS13 := (Entails.of_eq (show ((gsc2M.view.loc (c : Thread nD τ) ↦[gr2_13M.view.set]{fullShare} fsc : sProp 𝕄)) = (gr2_13M.view.loc (c : Thread nD τ) ↦[gr2_13M.view.set]{fullShare} fsc) from rfl)) $$ HS13
  ihave HS14 := (Entails.of_eq (show ((gsc2M.view.loc (c : Thread nD τ) ↦[gr2_14M.view.set]{fullShare} fsc : sProp 𝕄)) = (gr2_14M.view.loc (c : Thread nD τ) ↦[gr2_14M.view.set]{fullShare} fsc) from rfl)) $$ HS14
  ihave HS15 := (Entails.of_eq (show ((gsc2M.view.loc (c : Thread nD τ) ↦[gr2_15M.view.set]{fullShare} fsc : sProp 𝕄)) = (gr2_15M.view.loc (c : Thread nD τ) ↦[gr2_15M.view.set]{fullShare} fsc) from rfl)) $$ HS15
  ihave HB := (split16 (ℓ := ghb2M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join2 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))).toNat, hlt0⟩ : Fin 50000) (0 : Fin 1) l) :=
    row_landed2 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))).toNat, hlt1⟩ : Fin 50000) (0 : Fin 1) l) :=
    row_landed2 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))).toNat, hlt2⟩ : Fin 50000) (0 : Fin 1) l) :=
    row_landed2 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))).toNat, hlt3⟩ : Fin 50000) (0 : Fin 1) l) :=
    row_landed2 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))).toNat, hlt4⟩ : Fin 50000) (0 : Fin 1) l) :=
    row_landed2 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))).toNat, hlt5⟩ : Fin 50000) (0 : Fin 1) l) :=
    row_landed2 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))).toNat, hlt6⟩ : Fin 50000) (0 : Fin 1) l) :=
    row_landed2 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))).toNat, hlt7⟩ : Fin 50000) (0 : Fin 1) l) :=
    row_landed2 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))).toNat, hlt8⟩ : Fin 50000) (0 : Fin 1) l) :=
    row_landed2 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))).toNat, hlt9⟩ : Fin 50000) (0 : Fin 1) l) :=
    row_landed2 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))).toNat, hlt10⟩ : Fin 50000) (0 : Fin 1) l) :=
    row_landed2 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))).toNat, hlt11⟩ : Fin 50000) (0 : Fin 1) l) :=
    row_landed2 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))).toNat, hlt12⟩ : Fin 50000) (0 : Fin 1) l) :=
    row_landed2 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))).toNat, hlt13⟩ : Fin 50000) (0 : Fin 1) l) :=
    row_landed2 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))).toNat, hlt14⟩ : Fin 50000) (0 : Fin 1) l) :=
    row_landed2 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))).toNat, hlt15⟩ : Fin 50000) (0 : Fin 1) l) :=
    row_landed2 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load2]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb2M).IsWhole).read_unread _
  isplitl [Hh0 Hh1 Hh2 Hh3 Hh4 Hh5 Hh6 Hh7 Hh8 Hh9 Hh10 Hh11 Hh12 Hh13 Hh14 Hh15]
  · iapply (join16 (ℓ := ghb2M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather2.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 2's own DMA semaphores: one per row of the step. -/
abbrev gsem2 : Fin 16 → SemLoc sig := fun j =>
  (![SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53] : Fin 16 → SemLoc sig) j
theorem gsemFacts2 : Pipeline.OwnSemFacts spec2 gsem2 := by decide

/-- The buffers the body reads without a window: the node table in HBM and its chunk of the edge-source table. -/
def gH2 : Finset (Ref sig .tc) := {main_v0, main_v5}
theorem gH2_sub : gH2 ⊆ Pipeline.restRefs sig spec2 := by decide

/-- The call's prefetched table at the contents the region finds. -/
def gadm2 (c : Dev nD) : (pcfg2 (F := F)).Adm := ⟨fun k => match k with | ⟨0, _⟩ => V c main_v5, trivial⟩

/-- The proof data of gather call 2 on core `c`: the output array as found; after step `t` the output block holds
    the gathered rows; the invariant carries the scratch, the call's semaphores at zero and the two tables as found. -/
def gdat2 (a : (pcfg2 (F := F)).Adm) (c : Dev nD) : Dat τ (Elt F) Unit ℕ (Pipeline.UD sig nD τ) ℕ (cfg2 a) c where
  A w := V c (Pipeline.arrRef spec2 w)
  after w t := match w with
    | ⟨0, _⟩ => gblock (V c main_v0) (V c main_v5) t.val
  Φ _ := Pipeline.ΦD gsem2 spec2 gH2 V c
  q _ := fullShare
  owed _ := 0

theorem gdat2_A (a : (pcfg2 (F := F)).Adm) (c : Dev nD) (w : Fin (cfg2 a).W) :
    (gdat2 V a c).A w = V c (Pipeline.arrRef spec2 w) := by dsimp only [gdat2]
theorem gdat2_after (a : (pcfg2 (F := F)).Adm) (c : Dev nD) (t : Fin (cfg2 a).N) :
    (gdat2 V a c).after 0 t = gblock (V c main_v0) (V c main_v5) t.val := rfl

/-! ## The body obligation, from the body's run -/

/-- The call's scratch buffer whole at some contents, said of the buffer and said through the whole-buffer memref. -/
theorem gsc2_whole (c : Dev nD) :
    (iprop(∃ f, gsc2M.view.loc (c : Thread nD τ) ↦[gsc2M.view.set]{fullShare} f) : sProp 𝕄)
      = iprop(∃ f : Buf (Elt F) ((c : Thread nD τ).loc cc2_scratch0), ((c : Thread nD τ).loc cc2_scratch0) ↦{fullShare} f) := by
  simp only [gsc2M, Memref.view_whole, View.set_whole]

/-- The region invariant of gather call 2, conjunct by conjunct: the call's scratch buffer whole at some contents beside
    the scoped buffers it does not touch, the generator register at some state, its sixteen semaphores at zero, and
    the two tables whole at the contents the region finds. -/
theorem PhiD2_eq (c : Dev nD) :
    (Pipeline.ΦD gsem2 spec2 gH2 V c : sProp 𝕄)
      = iprop(iprop((∃ f, gsc2M.view.loc (c : Thread nD τ) ↦[gsc2M.view.set]{fullShare} f)
            ∗ Pipeline.scopedRestBut (Ix := Unit) (Name := ℕ) (U := Pipeline.UD sig nD τ) (Lvl := ℕ) (Val := Elt F) spec2 c [cc2_scratch0])
          ∗ (∃ r, prngReg c r)
          ∗ iprop(semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0)
          ∗ iprop((ghb2M.view.loc (c : Thread nD τ) ↦{fullShare} V c main_v0) ∗ owns (c : Thread nD τ) gtb2M fullShare (V c main_v5))) := by
  rw [gsc2_whole, owns_whole, Pipeline.ΦD_eq, scopedRest2_split,
    Pipeline.ownSems0_eq_of_list c gsem2 [0, 1, 2, 3, 4, 5, 6, 7, 8, 9, 10, 11, 12, 13, 14, 15] (by decide) (by decide),
    BI.bigSep_eq_bigSepL_of_eq [main_v0, main_v5] (by decide) (by decide)]
  rfl

/-- The kernel body of gather call 2 as the pipeline calls it at point `t`: the step's coordinates, the two tables whole,
    the output window's current staging buffer, the scratch buffer and the sixteen semaphores. -/
abbrev gbodyAt2 (a : (pcfg2 (F := F)).Adm) (t : Fin (cfg2 a).N) : Prog (TpuEff nD τ sig (Elt F) Λ₀ .tc) PUnit :=
  cc2__gather_kernel ((cfg2 a).grid.coords t) gtb2M (Memref.isWhole_whole _) ghb2M (Memref.isWhole_whole _)
    (spec2_0.stage ((cfg2 a).slots t 0)) (hstage2_0 (((cfg2 a).slots t 0).cast nbuf2_0)) gsc2M (Memref.isWhole_whole _) cc2_scratch1

/-- The grid is one axis of 4000 steps: the step's one coordinate is its number. -/
theorem gcoord2 (a : (pcfg2 (F := F)).Adm) (t : Fin (cfg2 a).N) : (((cfg2 a).grid.coords t) 0).val = t.val := by
  have ht : t.val < 4000 := lt_of_lt_of_eq t.isLt N_2
  show t.val / 1 % 4000 = t.val
  omega

/-- What the body is called with at point `t`: the invariant, the core's `owes`, the output window's current staging
    buffer at whatever it holds, -/
def gbodyPre2 (a : (pcfg2 (F := F)).Adm) (c : Dev nD) (t : Fin (cfg2 a).N) : sProp 𝕄 :=
  iprop((gdat2 V a c).Φ t.castSucc ∗ (gdat2 V a c).owesAt () t.castSucc
    ∗ (∃ d, owns (c : Thread nD τ) (spec2_0.stage ((cfg2 a).slots t 0)) fullShare ((gdat2 V a c).before 0 t d)))

/-- and what it returns: the invariant, `owes`, the staging buffer at the step's gathered rows. -/
def gbodyPost2 (a : (pcfg2 (F := F)).Adm) (c : Dev nD) (t : Fin (cfg2 a).N) : sProp 𝕄 :=
  iprop((gdat2 V a c).Φ t.succ ∗ (gdat2 V a c).owesAt () t.succ
    ∗ owns (c : Thread nD τ) (spec2_0.stage ((cfg2 a).slots t 0)) fullShare ((gdat2 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body2 (a : (pcfg2 (F := F)).Adm) (c : Dev nD)
    (hok : ∀ e : S64000.Idx, (V c main_v5 e).toNat < 50000) (t : Fin (cfg2 a).N) :
    gbodyPre2 V a c t ⊢ wp frame (wpE (defs₀ (F := F)) Variants.none c none) Set.univ (gbodyAt2 a t) (fun _ => gbodyPost2 V a c t) := by
  unfold gbodyPre2 gbodyPost2 gbodyAt2
  rw [show (gdat2 V a c).Φ t.succ = Pipeline.ΦD gsem2 spec2 gH2 V c from rfl,
    show (gdat2 V a c).Φ t.castSucc = Pipeline.ΦD gsem2 spec2 gH2 V c from rfl, gdat2_after, PhiD2_eq]
  unfold Dat.owesAt Pipeline.owesWithin
  rw [show (gdat2 V a c).owed t.castSucc = 0 from rfl, show (gdat2 V a c).owed t.succ = 0 from rfl]
  have hrun := fun W K => gather_run2 (F := F) c ((cfg2 a).grid.coords t) (spec2_0.stage ((cfg2 a).slots t 0))
    (hstage2_0 (((cfg2 a).slots t 0).cast nbuf2_0)) (V c main_v5) (V c main_v0) hok W K
  rw [gcoord2 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 2, when every word of its table names a row of the node table. -/
theorem gather_obligation2 (a : (pcfg2 (F := F)).Adm) (c : Dev nD)
    (hok : ∀ e : S64000.Idx, (V c main_v5 e).toNat < 50000) :
    BodyObligation (gdat2 (F := F) V a c) (defs₀ (F := F)) Variants.none () Set.univ := fun t => by
  rw [bigSep_W2, bigSep_W2]
  exact gsound_body2 V a c hok t

end

end Cert.KernelIdeal.Hand

end
-- ==== Proof.RowsJoin3.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 3's scratch buffer, whole, and its sixteen rows as the body addresses them. -/
abbrev gsc3M : Memref sig .tc .vmem S16x1x128 .f32 := Memref.whole cc3_scratch0
abbrev gr3_0M : Memref sig .tc .vmem S1x128 .f32 := ((Memref.whole cc3_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr3_1M : Memref sig .tc .vmem S1x128 .f32 := ((Memref.whole cc3_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr3_2M : Memref sig .tc .vmem S1x128 .f32 := ((Memref.whole cc3_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr3_3M : Memref sig .tc .vmem S1x128 .f32 := ((Memref.whole cc3_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr3_4M : Memref sig .tc .vmem S1x128 .f32 := ((Memref.whole cc3_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr3_5M : Memref sig .tc .vmem S1x128 .f32 := ((Memref.whole cc3_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr3_6M : Memref sig .tc .vmem S1x128 .f32 := ((Memref.whole cc3_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr3_7M : Memref sig .tc .vmem S1x128 .f32 := ((Memref.whole cc3_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr3_8M : Memref sig .tc .vmem S1x128 .f32 := ((Memref.whole cc3_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr3_9M : Memref sig .tc .vmem S1x128 .f32 := ((Memref.whole cc3_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr3_10M : Memref sig .tc .vmem S1x128 .f32 := ((Memref.whole cc3_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr3_11M : Memref sig .tc .vmem S1x128 .f32 := ((Memref.whole cc3_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr3_12M : Memref sig .tc .vmem S1x128 .f32 := ((Memref.whole cc3_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr3_13M : Memref sig .tc .vmem S1x128 .f32 := ((Memref.whole cc3_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr3_14M : Memref sig .tc .vmem S1x128 .f32 := ((Memref.whole cc3_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr3_15M : Memref sig .tc .vmem S1x128 .f32 := ((Memref.whole cc3_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr3_0M.view.set = rowSet (0 : Fin 16) := by
  refine (View.set_reshape _ _).trans ?_
  refine (View.set_slice_whole _ _).trans ?_
  rfl
private theorem row_set_1 : gr3_1M.view.set = rowSet (1 : Fin 16) := by
  refine (View.set_reshape _ _).trans ?_
  refine (View.set_slice_whole _ _).trans ?_
  rfl
private theorem row_set_2 : gr3_2M.view.set = rowSet (2 : Fin 16) := by
  refine (View.set_reshape _ _).trans ?_
  refine (View.set_slice_whole _ _).trans ?_
  rfl
private theorem row_set_3 : gr3_3M.view.set = rowSet (3 : Fin 16) := by
  refine (View.set_reshape _ _).trans ?_
  refine (View.set_slice_whole _ _).trans ?_
  rfl
private theorem row_set_4 : gr3_4M.view.set = rowSet (4 : Fin 16) := by
  refine (View.set_reshape _ _).trans ?_
  refine (View.set_slice_whole _ _).trans ?_
  rfl
private theorem row_set_5 : gr3_5M.view.set = rowSet (5 : Fin 16) := by
  refine (View.set_reshape _ _).trans ?_
  refine (View.set_slice_whole _ _).trans ?_
  rfl
private theorem row_set_6 : gr3_6M.view.set = rowSet (6 : Fin 16) := by
  refine (View.set_reshape _ _).trans ?_
  refine (View.set_slice_whole _ _).trans ?_
  rfl
private theorem row_set_7 : gr3_7M.view.set = rowSet (7 : Fin 16) := by
  refine (View.set_reshape _ _).trans ?_
  refine (View.set_slice_whole _ _).trans ?_
  rfl
private theorem row_set_8 : gr3_8M.view.set = rowSet (8 : Fin 16) := by
  refine (View.set_reshape _ _).trans ?_
  refine (View.set_slice_whole _ _).trans ?_
  rfl
private theorem row_set_9 : gr3_9M.view.set = rowSet (9 : Fin 16) := by
  refine (View.set_reshape _ _).trans ?_
  refine (View.set_slice_whole _ _).trans ?_
  rfl
private theorem row_set_10 : gr3_10M.view.set = rowSet (10 : Fin 16) := by
  refine (View.set_reshape _ _).trans ?_
  refine (View.set_slice_whole _ _).trans ?_
  rfl
private theorem row_set_11 : gr3_11M.view.set = rowSet (11 : Fin 16) := by
  refine (View.set_reshape _ _).trans ?_
  refine (View.set_slice_whole _ _).trans ?_
  rfl
private theorem row_set_12 : gr3_12M.view.set = rowSet (12 : Fin 16) := by
  refine (View.set_reshape _ _).trans ?_
  refine (View.set_slice_whole _ _).trans ?_
  rfl
private theorem row_set_13 : gr3_13M.view.set = rowSet (13 : Fin 16) := by
  refine (View.set_reshape _ _).trans ?_
  refine (View.set_slice_whole _ _).trans ?_
  rfl
private theorem row_set_14 : gr3_14M.view.set = rowSet (14 : Fin 16) := by
  refine (View.set_reshape _ _).trans ?_
  refine (View.set_slice_whole _ _).trans ?_
  rfl
private theorem row_set_15 : gr3_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join3 (c : Dev nD) (f0 f1 f2 f3 f4 f5 f6 f7 f8 f9 f10 f11 f12 f13 f14 f15 : Buf (Elt F) (gsc3M.view.loc (c : Thread nD τ))) :
    (iprop((gsc3M.view.loc (c : Thread nD τ) ↦[gr3_0M.view.set]{fullShare} f0)
        ∗ (gsc3M.view.loc (c : Thread nD τ) ↦[gr3_1M.view.set]{fullShare} f1)
        ∗ (gsc3M.view.loc (c : Thread nD τ) ↦[gr3_2M.view.set]{fullShare} f2)
        ∗ (gsc3M.view.loc (c : Thread nD τ) ↦[gr3_3M.view.set]{fullShare} f3)
        ∗ (gsc3M.view.loc (c : Thread nD τ) ↦[gr3_4M.view.set]{fullShare} f4)
        ∗ (gsc3M.view.loc (c : Thread nD τ) ↦[gr3_5M.view.set]{fullShare} f5)
        ∗ (gsc3M.view.loc (c : Thread nD τ) ↦[gr3_6M.view.set]{fullShare} f6)
        ∗ (gsc3M.view.loc (c : Thread nD τ) ↦[gr3_7M.view.set]{fullShare} f7)
        ∗ (gsc3M.view.loc (c : Thread nD τ) ↦[gr3_8M.view.set]{fullShare} f8)
        ∗ (gsc3M.view.loc (c : Thread nD τ) ↦[gr3_9M.view.set]{fullShare} f9)
        ∗ (gsc3M.view.loc (c : Thread nD τ) ↦[gr3_10M.view.set]{fullShare} f10)
        ∗ (gsc3M.view.loc (c : Thread nD τ) ↦[gr3_11M.view.set]{fullShare} f11)
        ∗ (gsc3M.view.loc (c : Thread nD τ) ↦[gr3_12M.view.set]{fullShare} f12)
        ∗ (gsc3M.view.loc (c : Thread nD τ) ↦[gr3_13M.view.set]{fullShare} f13)
        ∗ (gsc3M.view.loc (c : Thread nD τ) ↦[gr3_14M.view.set]{fullShare} f14)
        ∗ (gsc3M.view.loc (c : Thread nD τ) ↦[gr3_15M.view.set]{fullShare} f15)) : sProp 𝕄)
      ⊢ iprop(∃ g : Buf (Elt F) (gsc3M.view.loc (c : Thread nD τ)),
          ⌜(∀ i ∈ gr3_0M.view.set, g i = f0 i)
            ∧ (∀ i ∈ gr3_1M.view.set, g i = f1 i)
            ∧ (∀ i ∈ gr3_2M.view.set, g i = f2 i)
            ∧ (∀ i ∈ gr3_3M.view.set, g i = f3 i)
            ∧ (∀ i ∈ gr3_4M.view.set, g i = f4 i)
            ∧ (∀ i ∈ gr3_5M.view.set, g i = f5 i)
            ∧ (∀ i ∈ gr3_6M.view.set, g i = f6 i)
            ∧ (∀ i ∈ gr3_7M.view.set, g i = f7 i)
            ∧ (∀ i ∈ gr3_8M.view.set, g i = f8 i)
            ∧ (∀ i ∈ gr3_9M.view.set, g i = f9 i)
            ∧ (∀ i ∈ gr3_10M.view.set, g i = f10 i)
            ∧ (∀ i ∈ gr3_11M.view.set, g i = f11 i)
            ∧ (∀ i ∈ gr3_12M.view.set, g i = f12 i)
            ∧ (∀ i ∈ gr3_13M.view.set, g i = f13 i)
            ∧ (∀ i ∈ gr3_14M.view.set, g i = f14 i)
            ∧ (∀ i ∈ gr3_15M.view.set, g i = f15 i)⌝
          ∗ (gsc3M.view.loc (c : Thread nD τ) ↦[gsc3M.view.set]{fullShare} g)) := by
  have hw : gsc3M.view.set = Finset.univ.biUnion rowSet := (View.set_whole _).trans rowSet_cover.symm
  exact join16 (ℓ := gsc3M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split3 (c : Dev nD) (f : Buf (Elt F) (gsc3M.view.loc (c : Thread nD τ))) :
    (gsc3M.view.loc (c : Thread nD τ) ↦[gsc3M.view.set]{fullShare} f : sProp 𝕄)
      ⊢ iprop((gsc3M.view.loc (c : Thread nD τ) ↦[gr3_0M.view.set]{fullShare} f)
        ∗ (gsc3M.view.loc (c : Thread nD τ) ↦[gr3_1M.view.set]{fullShare} f)
        ∗ (gsc3M.view.loc (c : Thread nD τ) ↦[gr3_2M.view.set]{fullShare} f)
        ∗ (gsc3M.view.loc (c : Thread nD τ) ↦[gr3_3M.view.set]{fullShare} f)
        ∗ (gsc3M.view.loc (c : Thread nD τ) ↦[gr3_4M.view.set]{fullShare} f)
        ∗ (gsc3M.view.loc (c : Thread nD τ) ↦[gr3_5M.view.set]{fullShare} f)
        ∗ (gsc3M.view.loc (c : Thread nD τ) ↦[gr3_6M.view.set]{fullShare} f)
        ∗ (gsc3M.view.loc (c : Thread nD τ) ↦[gr3_7M.view.set]{fullShare} f)
        ∗ (gsc3M.view.loc (c : Thread nD τ) ↦[gr3_8M.view.set]{fullShare} f)
        ∗ (gsc3M.view.loc (c : Thread nD τ) ↦[gr3_9M.view.set]{fullShare} f)
        ∗ (gsc3M.view.loc (c : Thread nD τ) ↦[gr3_10M.view.set]{fullShare} f)
        ∗ (gsc3M.view.loc (c : Thread nD τ) ↦[gr3_11M.view.set]{fullShare} f)
        ∗ (gsc3M.view.loc (c : Thread nD τ) ↦[gr3_12M.view.set]{fullShare} f)
        ∗ (gsc3M.view.loc (c : Thread nD τ) ↦[gr3_13M.view.set]{fullShare} f)
        ∗ (gsc3M.view.loc (c : Thread nD τ) ↦[gr3_14M.view.set]{fullShare} f)
        ∗ (gsc3M.view.loc (c : Thread nD τ) ↦[gr3_15M.view.set]{fullShare} f)) := by
  have hw : gsc3M.view.set = Finset.univ.biUnion rowSet := (View.set_whole _).trans rowSet_cover.symm
  exact split16 (ℓ := gsc3M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows3.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin3
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 3's chunk of the edge-source table in scalar memory, whole. -/
abbrev ghb3M : Memref sig .tc .hbm S50000x1x128 .f32 := Memref.whole main_v0
abbrev gtb3M : Memref sig .tc .smem S64000 .i32 := Memref.whole main_v7

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc3M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb3M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed3 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb3M.view.loc (c : Thread nD τ))) (fs g : Buf (Elt F) (gsc3M.view.loc (c : Thread nD τ)))
    (hg : ∀ i ∈ ((gsc3M.slice (Rect.unit (s := S16x1x128) ![j, 0, 0] S1x1x128.size inb) (fun _ => rfl)).squeeze S1x128 squeezes_S1x1x128_S1x128).view.set,
        g i = ((gsc3M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb3M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc3M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb3M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load3 (c : Dev nD) (g : Buf (Elt F) (gsc3M.view.loc (c : Thread nD τ))) (y : S16x1x128.Idx) :
    View.readAt (Elt F) gsc3M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word3 (pf : S64000.Idx → Elt F .i32) (off : Fin 1 → ℕ) (inb : ∀ a, off a + S1.size a ≤ S64000.size a)
    (n : ℕ) (hn : n < 64000) (hoff : off 0 = n) :
    View.readAt (Elt F) gtb3M.view (Rect.unit (s := S64000) off S1.size inb).toLoadRect
        ((Memref.isWhole_whole _ : gtb3M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs3 (i : grid3.Coords) :
    (k3_off1 i) 0 = 16 * (i 0).val + 0
    ∧ (k3_off3 i) 0 = 16 * (i 0).val + 1
    ∧ (k3_off5 i) 0 = 16 * (i 0).val + 2
    ∧ (k3_off7 i) 0 = 16 * (i 0).val + 3
    ∧ (k3_off9 i) 0 = 16 * (i 0).val + 4
    ∧ (k3_off11 i) 0 = 16 * (i 0).val + 5
    ∧ (k3_off13 i) 0 = 16 * (i 0).val + 6
    ∧ (k3_off15 i) 0 = 16 * (i 0).val + 7
    ∧ (k3_off17 i) 0 = 16 * (i 0).val + 8
    ∧ (k3_off19 i) 0 = 16 * (i 0).val + 9
    ∧ (k3_off21 i) 0 = 16 * (i 0).val + 10
    ∧ (k3_off23 i) 0 = 16 * (i 0).val + 11
    ∧ (k3_off25 i) 0 = 16 * (i 0).val + 12
    ∧ (k3_off27 i) 0 = 16 * (i 0).val + 13
    ∧ (k3_off29 i) 0 = 16 * (i 0).val + 14
    ∧ (k3_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun3.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows3
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 3's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run3 (c : Dev nD) (i : grid3.Coords) (arg3 : Memref sig .tc .vmem S16x1x128 .f32) (harg3 : arg3.IsWhole)
    (pf : S64000.Idx → Elt F .i32) (tb : Buf (Elt F) (ghb3M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc3M.view.loc (c : Thread nD τ) ↦[gsc3M.view.set]{fullShare} f)
        ∗ owns (c : Thread nD τ) gtb3M fullShare pf
        ∗ (ghb3M.view.loc (c : Thread nD τ) ↦{fullShare} tb)
        ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0
        ∗ owes (c : Thread nD τ) 0 W
        ∗ (iprop(owns (c : Thread nD τ) arg3 fullShare (gblock tb pf (i 0).val)
            ∗ (∃ f, gsc3M.view.loc (c : Thread nD τ) ↦[gsc3M.view.set]{fullShare} f)
            ∗ owns (c : Thread nD τ) gtb3M fullShare pf
            ∗ (ghb3M.view.loc (c : Thread nD τ) ↦{fullShare} tb)
            ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0
            ∗ (∃ W', owes (c : Thread nD τ) 0 W')) -∗ K ⟨⟩))
      ⊢ wp frame (wpE (defs₀ (F := F)) Variants.none c none) Set.univ
          (cc3__gather_kernel i gtb3M (Memref.isWhole_whole _) ghb3M (Memref.isWhole_whole _) arg3 harg3 gsc3M (Memref.isWhole_whole _) cc3_scratch1) K := by
  have hi : (i 0).val < 4000 := (i 0).isLt
  have hoffs := table_offs3 i
  have hword0 : (View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))) = pf (ValueIdx.ix1 (⟨16 * (i 0).val + 0, by omega⟩ : Fin 64000)) :=
    table_word3 pf _ _ _ (by omega) hoffs.1
  have hlt0 : (View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))).toNat < 50000 := by rw [hword0]; exact hok _
  have hw1 : k3_chk1 (View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))) := ⟨chk_lt _ hlt0, chk_lt _ hlt0⟩
  have hword1 : (View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))) = pf (ValueIdx.ix1 (⟨16 * (i 0).val + 1, by omega⟩ : Fin 64000)) :=
    table_word3 pf _ _ _ (by omega) hoffs.2.1
  have hlt1 : (View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))).toNat < 50000 := by rw [hword1]; exact hok _
  have hw2 : k3_chk2 (View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))) := ⟨chk_lt _ hlt1, chk_lt _ hlt1⟩
  have hword2 : (View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))) = pf (ValueIdx.ix1 (⟨16 * (i 0).val + 2, by omega⟩ : Fin 64000)) :=
    table_word3 pf _ _ _ (by omega) hoffs.2.2.1
  have hlt2 : (View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))).toNat < 50000 := by rw [hword2]; exact hok _
  have hw3 : k3_chk3 (View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))) := ⟨chk_lt _ hlt2, chk_lt _ hlt2⟩
  have hword3 : (View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))) = pf (ValueIdx.ix1 (⟨16 * (i 0).val + 3, by omega⟩ : Fin 64000)) :=
    table_word3 pf _ _ _ (by omega) hoffs.2.2.2.1
  have hlt3 : (View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))).toNat < 50000 := by rw [hword3]; exact hok _
  have hw4 : k3_chk4 (View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))) := ⟨chk_lt _ hlt3, chk_lt _ hlt3⟩
  have hword4 : (View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))) = pf (ValueIdx.ix1 (⟨16 * (i 0).val + 4, by omega⟩ : Fin 64000)) :=
    table_word3 pf _ _ _ (by omega) hoffs.2.2.2.2.1
  have hlt4 : (View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))).toNat < 50000 := by rw [hword4]; exact hok _
  have hw5 : k3_chk5 (View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))) := ⟨chk_lt _ hlt4, chk_lt _ hlt4⟩
  have hword5 : (View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))) = pf (ValueIdx.ix1 (⟨16 * (i 0).val + 5, by omega⟩ : Fin 64000)) :=
    table_word3 pf _ _ _ (by omega) hoffs.2.2.2.2.2.1
  have hlt5 : (View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))).toNat < 50000 := by rw [hword5]; exact hok _
  have hw6 : k3_chk6 (View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))) := ⟨chk_lt _ hlt5, chk_lt _ hlt5⟩
  have hword6 : (View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))) = pf (ValueIdx.ix1 (⟨16 * (i 0).val + 6, by omega⟩ : Fin 64000)) :=
    table_word3 pf _ _ _ (by omega) hoffs.2.2.2.2.2.2.1
  have hlt6 : (View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))).toNat < 50000 := by rw [hword6]; exact hok _
  have hw7 : k3_chk7 (View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))) := ⟨chk_lt _ hlt6, chk_lt _ hlt6⟩
  have hword7 : (View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))) = pf (ValueIdx.ix1 (⟨16 * (i 0).val + 7, by omega⟩ : Fin 64000)) :=
    table_word3 pf _ _ _ (by omega) hoffs.2.2.2.2.2.2.2.1
  have hlt7 : (View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))).toNat < 50000 := by rw [hword7]; exact hok _
  have hw8 : k3_chk8 (View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))) := ⟨chk_lt _ hlt7, chk_lt _ hlt7⟩
  have hword8 : (View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))) = pf (ValueIdx.ix1 (⟨16 * (i 0).val + 8, by omega⟩ : Fin 64000)) :=
    table_word3 pf _ _ _ (by omega) hoffs.2.2.2.2.2.2.2.2.1
  have hlt8 : (View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))).toNat < 50000 := by rw [hword8]; exact hok _
  have hw9 : k3_chk9 (View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))) := ⟨chk_lt _ hlt8, chk_lt _ hlt8⟩
  have hword9 : (View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))) = pf (ValueIdx.ix1 (⟨16 * (i 0).val + 9, by omega⟩ : Fin 64000)) :=
    table_word3 pf _ _ _ (by omega) hoffs.2.2.2.2.2.2.2.2.2.1
  have hlt9 : (View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))).toNat < 50000 := by rw [hword9]; exact hok _
  have hw10 : k3_chk10 (View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))) := ⟨chk_lt _ hlt9, chk_lt _ hlt9⟩
  have hword10 : (View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))) = pf (ValueIdx.ix1 (⟨16 * (i 0).val + 10, by omega⟩ : Fin 64000)) :=
    table_word3 pf _ _ _ (by omega) hoffs.2.2.2.2.2.2.2.2.2.2.1
  have hlt10 : (View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))).toNat < 50000 := by rw [hword10]; exact hok _
  have hw11 : k3_chk11 (View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))) := ⟨chk_lt _ hlt10, chk_lt _ hlt10⟩
  have hword11 : (View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))) = pf (ValueIdx.ix1 (⟨16 * (i 0).val + 11, by omega⟩ : Fin 64000)) :=
    table_word3 pf _ _ _ (by omega) hoffs.2.2.2.2.2.2.2.2.2.2.2.1
  have hlt11 : (View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))).toNat < 50000 := by rw [hword11]; exact hok _
  have hw12 : k3_chk12 (View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))) := ⟨chk_lt _ hlt11, chk_lt _ hlt11⟩
  have hword12 : (View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))) = pf (ValueIdx.ix1 (⟨16 * (i 0).val + 12, by omega⟩ : Fin 64000)) :=
    table_word3 pf _ _ _ (by omega) hoffs.2.2.2.2.2.2.2.2.2.2.2.2.1
  have hlt12 : (View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))).toNat < 50000 := by rw [hword12]; exact hok _
  have hw13 : k3_chk13 (View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))) := ⟨chk_lt _ hlt12, chk_lt _ hlt12⟩
  have hword13 : (View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))) = pf (ValueIdx.ix1 (⟨16 * (i 0).val + 13, by omega⟩ : Fin 64000)) :=
    table_word3 pf _ _ _ (by omega) hoffs.2.2.2.2.2.2.2.2.2.2.2.2.2.1
  have hlt13 : (View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))).toNat < 50000 := by rw [hword13]; exact hok _
  have hw14 : k3_chk14 (View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))) := ⟨chk_lt _ hlt13, chk_lt _ hlt13⟩
  have hword14 : (View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))) = pf (ValueIdx.ix1 (⟨16 * (i 0).val + 14, by omega⟩ : Fin 64000)) :=
    table_word3 pf _ _ _ (by omega) hoffs.2.2.2.2.2.2.2.2.2.2.2.2.2.2.1
  have hlt14 : (View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))).toNat < 50000 := by rw [hword14]; exact hok _
  have hw15 : k3_chk15 (View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))) := ⟨chk_lt _ hlt14, chk_lt _ hlt14⟩
  have hword15 : (View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))) = pf (ValueIdx.ix1 (⟨16 * (i 0).val + 15, by omega⟩ : Fin 64000)) :=
    table_word3 pf _ _ _ (by omega) hoffs.2.2.2.2.2.2.2.2.2.2.2.2.2.2.2
  have hlt15 : (View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))).toNat < 50000 := by rw [hword15]; exact hok _
  have hw16 : k3_chk16 (View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))) := chk_lt _ hlt15
  rw [cc3__gather_kernel_eq_skeleton]; unfold cc3__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb3M).IsWhole).eq_unread hfp
  ihave HR := (rows_split3 (F := F) c fsc) $$ HSC
  icases HR with ⟨HS0, HS1, HS2, HS3, HS4, HS5, HS6, HS7, HS8, HS9, HS10, HS11, HS12, HS13, HS14, HS15⟩
  ihave HS0 := (Entails.of_eq (show ((gsc3M.view.loc (c : Thread nD τ) ↦[gr3_0M.view.set]{fullShare} fsc : sProp 𝕄)) = (gr3_0M.view.loc (c : Thread nD τ) ↦[gr3_0M.view.set]{fullShare} fsc) from rfl)) $$ HS0
  ihave HS1 := (Entails.of_eq (show ((gsc3M.view.loc (c : Thread nD τ) ↦[gr3_1M.view.set]{fullShare} fsc : sProp 𝕄)) = (gr3_1M.view.loc (c : Thread nD τ) ↦[gr3_1M.view.set]{fullShare} fsc) from rfl)) $$ HS1
  ihave HS2 := (Entails.of_eq (show ((gsc3M.view.loc (c : Thread nD τ) ↦[gr3_2M.view.set]{fullShare} fsc : sProp 𝕄)) = (gr3_2M.view.loc (c : Thread nD τ) ↦[gr3_2M.view.set]{fullShare} fsc) from rfl)) $$ HS2
  ihave HS3 := (Entails.of_eq (show ((gsc3M.view.loc (c : Thread nD τ) ↦[gr3_3M.view.set]{fullShare} fsc : sProp 𝕄)) = (gr3_3M.view.loc (c : Thread nD τ) ↦[gr3_3M.view.set]{fullShare} fsc) from rfl)) $$ HS3
  ihave HS4 := (Entails.of_eq (show ((gsc3M.view.loc (c : Thread nD τ) ↦[gr3_4M.view.set]{fullShare} fsc : sProp 𝕄)) = (gr3_4M.view.loc (c : Thread nD τ) ↦[gr3_4M.view.set]{fullShare} fsc) from rfl)) $$ HS4
  ihave HS5 := (Entails.of_eq (show ((gsc3M.view.loc (c : Thread nD τ) ↦[gr3_5M.view.set]{fullShare} fsc : sProp 𝕄)) = (gr3_5M.view.loc (c : Thread nD τ) ↦[gr3_5M.view.set]{fullShare} fsc) from rfl)) $$ HS5
  ihave HS6 := (Entails.of_eq (show ((gsc3M.view.loc (c : Thread nD τ) ↦[gr3_6M.view.set]{fullShare} fsc : sProp 𝕄)) = (gr3_6M.view.loc (c : Thread nD τ) ↦[gr3_6M.view.set]{fullShare} fsc) from rfl)) $$ HS6
  ihave HS7 := (Entails.of_eq (show ((gsc3M.view.loc (c : Thread nD τ) ↦[gr3_7M.view.set]{fullShare} fsc : sProp 𝕄)) = (gr3_7M.view.loc (c : Thread nD τ) ↦[gr3_7M.view.set]{fullShare} fsc) from rfl)) $$ HS7
  ihave HS8 := (Entails.of_eq (show ((gsc3M.view.loc (c : Thread nD τ) ↦[gr3_8M.view.set]{fullShare} fsc : sProp 𝕄)) = (gr3_8M.view.loc (c : Thread nD τ) ↦[gr3_8M.view.set]{fullShare} fsc) from rfl)) $$ HS8
  ihave HS9 := (Entails.of_eq (show ((gsc3M.view.loc (c : Thread nD τ) ↦[gr3_9M.view.set]{fullShare} fsc : sProp 𝕄)) = (gr3_9M.view.loc (c : Thread nD τ) ↦[gr3_9M.view.set]{fullShare} fsc) from rfl)) $$ HS9
  ihave HS10 := (Entails.of_eq (show ((gsc3M.view.loc (c : Thread nD τ) ↦[gr3_10M.view.set]{fullShare} fsc : sProp 𝕄)) = (gr3_10M.view.loc (c : Thread nD τ) ↦[gr3_10M.view.set]{fullShare} fsc) from rfl)) $$ HS10
  ihave HS11 := (Entails.of_eq (show ((gsc3M.view.loc (c : Thread nD τ) ↦[gr3_11M.view.set]{fullShare} fsc : sProp 𝕄)) = (gr3_11M.view.loc (c : Thread nD τ) ↦[gr3_11M.view.set]{fullShare} fsc) from rfl)) $$ HS11
  ihave HS12 := (Entails.of_eq (show ((gsc3M.view.loc (c : Thread nD τ) ↦[gr3_12M.view.set]{fullShare} fsc : sProp 𝕄)) = (gr3_12M.view.loc (c : Thread nD τ) ↦[gr3_12M.view.set]{fullShare} fsc) from rfl)) $$ HS12
  ihave HS13 := (Entails.of_eq (show ((gsc3M.view.loc (c : Thread nD τ) ↦[gr3_13M.view.set]{fullShare} fsc : sProp 𝕄)) = (gr3_13M.view.loc (c : Thread nD τ) ↦[gr3_13M.view.set]{fullShare} fsc) from rfl)) $$ HS13
  ihave HS14 := (Entails.of_eq (show ((gsc3M.view.loc (c : Thread nD τ) ↦[gr3_14M.view.set]{fullShare} fsc : sProp 𝕄)) = (gr3_14M.view.loc (c : Thread nD τ) ↦[gr3_14M.view.set]{fullShare} fsc) from rfl)) $$ HS14
  ihave HS15 := (Entails.of_eq (show ((gsc3M.view.loc (c : Thread nD τ) ↦[gr3_15M.view.set]{fullShare} fsc : sProp 𝕄)) = (gr3_15M.view.loc (c : Thread nD τ) ↦[gr3_15M.view.set]{fullShare} fsc) from rfl)) $$ HS15
  ihave HB := (split16 (ℓ := ghb3M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join3 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))).toNat, hlt0⟩ : Fin 50000) (0 : Fin 1) l) :=
    row_landed3 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))).toNat, hlt1⟩ : Fin 50000) (0 : Fin 1) l) :=
    row_landed3 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))).toNat, hlt2⟩ : Fin 50000) (0 : Fin 1) l) :=
    row_landed3 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))).toNat, hlt3⟩ : Fin 50000) (0 : Fin 1) l) :=
    row_landed3 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))).toNat, hlt4⟩ : Fin 50000) (0 : Fin 1) l) :=
    row_landed3 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))).toNat, hlt5⟩ : Fin 50000) (0 : Fin 1) l) :=
    row_landed3 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))).toNat, hlt6⟩ : Fin 50000) (0 : Fin 1) l) :=
    row_landed3 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))).toNat, hlt7⟩ : Fin 50000) (0 : Fin 1) l) :=
    row_landed3 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))).toNat, hlt8⟩ : Fin 50000) (0 : Fin 1) l) :=
    row_landed3 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))).toNat, hlt9⟩ : Fin 50000) (0 : Fin 1) l) :=
    row_landed3 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))).toNat, hlt10⟩ : Fin 50000) (0 : Fin 1) l) :=
    row_landed3 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))).toNat, hlt11⟩ : Fin 50000) (0 : Fin 1) l) :=
    row_landed3 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))).toNat, hlt12⟩ : Fin 50000) (0 : Fin 1) l) :=
    row_landed3 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))).toNat, hlt13⟩ : Fin 50000) (0 : Fin 1) l) :=
    row_landed3 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))).toNat, hlt14⟩ : Fin 50000) (0 : Fin 1) l) :=
    row_landed3 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))).toNat, hlt15⟩ : Fin 50000) (0 : Fin 1) l) :=
    row_landed3 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load3]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb3M).IsWhole).read_unread _
  isplitl [Hh0 Hh1 Hh2 Hh3 Hh4 Hh5 Hh6 Hh7 Hh8 Hh9 Hh10 Hh11 Hh12 Hh13 Hh14 Hh15]
  · iapply (join16 (ℓ := ghb3M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather3.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 3's own DMA semaphores: one per row of the step. -/
abbrev gsem3 : Fin 16 → SemLoc sig := fun j =>
  (![SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71] : Fin 16 → SemLoc sig) j
theorem gsemFacts3 : Pipeline.OwnSemFacts spec3 gsem3 := by decide

/-- The buffers the body reads without a window: the node table in HBM and its chunk of the edge-source table. -/
def gH3 : Finset (Ref sig .tc) := {main_v0, main_v7}
theorem gH3_sub : gH3 ⊆ Pipeline.restRefs sig spec3 := by decide

/-- The call's prefetched table at the contents the region finds. -/
def gadm3 (c : Dev nD) : (pcfg3 (F := F)).Adm := ⟨fun k => match k with | ⟨0, _⟩ => V c main_v7, trivial⟩

/-- The proof data of gather call 3 on core `c`: the output array as found; after step `t` the output block holds
    the gathered rows; the invariant carries the scratch, the call's semaphores at zero and the two tables as found. -/
def gdat3 (a : (pcfg3 (F := F)).Adm) (c : Dev nD) : Dat τ (Elt F) Unit ℕ (Pipeline.UD sig nD τ) ℕ (cfg3 a) c where
  A w := V c (Pipeline.arrRef spec3 w)
  after w t := match w with
    | ⟨0, _⟩ => gblock (V c main_v0) (V c main_v7) t.val
  Φ _ := Pipeline.ΦD gsem3 spec3 gH3 V c
  q _ := fullShare
  owed _ := 0

theorem gdat3_A (a : (pcfg3 (F := F)).Adm) (c : Dev nD) (w : Fin (cfg3 a).W) :
    (gdat3 V a c).A w = V c (Pipeline.arrRef spec3 w) := by dsimp only [gdat3]
theorem gdat3_after (a : (pcfg3 (F := F)).Adm) (c : Dev nD) (t : Fin (cfg3 a).N) :
    (gdat3 V a c).after 0 t = gblock (V c main_v0) (V c main_v7) t.val := rfl

/-! ## The body obligation, from the body's run -/

/-- The call's scratch buffer whole at some contents, said of the buffer and said through the whole-buffer memref. -/
theorem gsc3_whole (c : Dev nD) :
    (iprop(∃ f, gsc3M.view.loc (c : Thread nD τ) ↦[gsc3M.view.set]{fullShare} f) : sProp 𝕄)
      = iprop(∃ f : Buf (Elt F) ((c : Thread nD τ).loc cc3_scratch0), ((c : Thread nD τ).loc cc3_scratch0) ↦{fullShare} f) := by
  simp only [gsc3M, Memref.view_whole, View.set_whole]

/-- The region invariant of gather call 3, conjunct by conjunct: the call's scratch buffer whole at some contents beside
    the scoped buffers it does not touch, the generator register at some state, its sixteen semaphores at zero, and
    the two tables whole at the contents the region finds. -/
theorem PhiD3_eq (c : Dev nD) :
    (Pipeline.ΦD gsem3 spec3 gH3 V c : sProp 𝕄)
      = iprop(iprop((∃ f, gsc3M.view.loc (c : Thread nD τ) ↦[gsc3M.view.set]{fullShare} f)
            ∗ Pipeline.scopedRestBut (Ix := Unit) (Name := ℕ) (U := Pipeline.UD sig nD τ) (Lvl := ℕ) (Val := Elt F) spec3 c [cc3_scratch0])
          ∗ (∃ r, prngReg c r)
          ∗ iprop(semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0)
          ∗ iprop((ghb3M.view.loc (c : Thread nD τ) ↦{fullShare} V c main_v0) ∗ owns (c : Thread nD τ) gtb3M fullShare (V c main_v7))) := by
  rw [gsc3_whole, owns_whole, Pipeline.ΦD_eq, scopedRest3_split,
    Pipeline.ownSems0_eq_of_list c gsem3 [0, 1, 2, 3, 4, 5, 6, 7, 8, 9, 10, 11, 12, 13, 14, 15] (by decide) (by decide),
    BI.bigSep_eq_bigSepL_of_eq [main_v0, main_v7] (by decide) (by decide)]
  rfl

/-- The kernel body of gather call 3 as the pipeline calls it at point `t`: the step's coordinates, the two tables whole,
    the output window's current staging buffer, the scratch buffer and the sixteen semaphores. -/
abbrev gbodyAt3 (a : (pcfg3 (F := F)).Adm) (t : Fin (cfg3 a).N) : Prog (TpuEff nD τ sig (Elt F) Λ₀ .tc) PUnit :=
  cc3__gather_kernel ((cfg3 a).grid.coords t) gtb3M (Memref.isWhole_whole _) ghb3M (Memref.isWhole_whole _)
    (spec3_0.stage ((cfg3 a).slots t 0)) (hstage3_0 (((cfg3 a).slots t 0).cast nbuf3_0)) gsc3M (Memref.isWhole_whole _) cc3_scratch1

/-- The grid is one axis of 4000 steps: the step's one coordinate is its number. -/
theorem gcoord3 (a : (pcfg3 (F := F)).Adm) (t : Fin (cfg3 a).N) : (((cfg3 a).grid.coords t) 0).val = t.val := by
  have ht : t.val < 4000 := lt_of_lt_of_eq t.isLt N_3
  show t.val / 1 % 4000 = t.val
  omega

/-- What the body is called with at point `t`: the invariant, the core's `owes`, the output window's current staging
    buffer at whatever it holds, -/
def gbodyPre3 (a : (pcfg3 (F := F)).Adm) (c : Dev nD) (t : Fin (cfg3 a).N) : sProp 𝕄 :=
  iprop((gdat3 V a c).Φ t.castSucc ∗ (gdat3 V a c).owesAt () t.castSucc
    ∗ (∃ d, owns (c : Thread nD τ) (spec3_0.stage ((cfg3 a).slots t 0)) fullShare ((gdat3 V a c).before 0 t d)))

/-- and what it returns: the invariant, `owes`, the staging buffer at the step's gathered rows. -/
def gbodyPost3 (a : (pcfg3 (F := F)).Adm) (c : Dev nD) (t : Fin (cfg3 a).N) : sProp 𝕄 :=
  iprop((gdat3 V a c).Φ t.succ ∗ (gdat3 V a c).owesAt () t.succ
    ∗ owns (c : Thread nD τ) (spec3_0.stage ((cfg3 a).slots t 0)) fullShare ((gdat3 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body3 (a : (pcfg3 (F := F)).Adm) (c : Dev nD)
    (hok : ∀ e : S64000.Idx, (V c main_v7 e).toNat < 50000) (t : Fin (cfg3 a).N) :
    gbodyPre3 V a c t ⊢ wp frame (wpE (defs₀ (F := F)) Variants.none c none) Set.univ (gbodyAt3 a t) (fun _ => gbodyPost3 V a c t) := by
  unfold gbodyPre3 gbodyPost3 gbodyAt3
  rw [show (gdat3 V a c).Φ t.succ = Pipeline.ΦD gsem3 spec3 gH3 V c from rfl,
    show (gdat3 V a c).Φ t.castSucc = Pipeline.ΦD gsem3 spec3 gH3 V c from rfl, gdat3_after, PhiD3_eq]
  unfold Dat.owesAt Pipeline.owesWithin
  rw [show (gdat3 V a c).owed t.castSucc = 0 from rfl, show (gdat3 V a c).owed t.succ = 0 from rfl]
  have hrun := fun W K => gather_run3 (F := F) c ((cfg3 a).grid.coords t) (spec3_0.stage ((cfg3 a).slots t 0))
    (hstage3_0 (((cfg3 a).slots t 0).cast nbuf3_0)) (V c main_v7) (V c main_v0) hok W K
  rw [gcoord3 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 3, when every word of its table names a row of the node table. -/
theorem gather_obligation3 (a : (pcfg3 (F := F)).Adm) (c : Dev nD)
    (hok : ∀ e : S64000.Idx, (V c main_v7 e).toNat < 50000) :
    BodyObligation (gdat3 (F := F) V a c) (defs₀ (F := F)) Variants.none () Set.univ := fun t => by
  rw [bigSep_W3, bigSep_W3]
  exact gsound_body3 V a c hok t

end

end Cert.KernelIdeal.Hand

end
-- ==== Proof.RowsJoin4.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 4's scratch buffer, whole, and its sixteen rows as the body addresses them. -/
abbrev gsc4M : Memref sig .tc .vmem S16x1x128 .f32 := Memref.whole cc4_scratch0
abbrev gr4_0M : Memref sig .tc .vmem S1x128 .f32 := ((Memref.whole cc4_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr4_1M : Memref sig .tc .vmem S1x128 .f32 := ((Memref.whole cc4_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr4_2M : Memref sig .tc .vmem S1x128 .f32 := ((Memref.whole cc4_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr4_3M : Memref sig .tc .vmem S1x128 .f32 := ((Memref.whole cc4_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr4_4M : Memref sig .tc .vmem S1x128 .f32 := ((Memref.whole cc4_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr4_5M : Memref sig .tc .vmem S1x128 .f32 := ((Memref.whole cc4_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr4_6M : Memref sig .tc .vmem S1x128 .f32 := ((Memref.whole cc4_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr4_7M : Memref sig .tc .vmem S1x128 .f32 := ((Memref.whole cc4_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr4_8M : Memref sig .tc .vmem S1x128 .f32 := ((Memref.whole cc4_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr4_9M : Memref sig .tc .vmem S1x128 .f32 := ((Memref.whole cc4_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr4_10M : Memref sig .tc .vmem S1x128 .f32 := ((Memref.whole cc4_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr4_11M : Memref sig .tc .vmem S1x128 .f32 := ((Memref.whole cc4_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr4_12M : Memref sig .tc .vmem S1x128 .f32 := ((Memref.whole cc4_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr4_13M : Memref sig .tc .vmem S1x128 .f32 := ((Memref.whole cc4_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr4_14M : Memref sig .tc .vmem S1x128 .f32 := ((Memref.whole cc4_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr4_15M : Memref sig .tc .vmem S1x128 .f32 := ((Memref.whole cc4_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr4_0M.view.set = rowSet (0 : Fin 16) := by
  refine (View.set_reshape _ _).trans ?_
  refine (View.set_slice_whole _ _).trans ?_
  rfl
private theorem row_set_1 : gr4_1M.view.set = rowSet (1 : Fin 16) := by
  refine (View.set_reshape _ _).trans ?_
  refine (View.set_slice_whole _ _).trans ?_
  rfl
private theorem row_set_2 : gr4_2M.view.set = rowSet (2 : Fin 16) := by
  refine (View.set_reshape _ _).trans ?_
  refine (View.set_slice_whole _ _).trans ?_
  rfl
private theorem row_set_3 : gr4_3M.view.set = rowSet (3 : Fin 16) := by
  refine (View.set_reshape _ _).trans ?_
  refine (View.set_slice_whole _ _).trans ?_
  rfl
private theorem row_set_4 : gr4_4M.view.set = rowSet (4 : Fin 16) := by
  refine (View.set_reshape _ _).trans ?_
  refine (View.set_slice_whole _ _).trans ?_
  rfl
private theorem row_set_5 : gr4_5M.view.set = rowSet (5 : Fin 16) := by
  refine (View.set_reshape _ _).trans ?_
  refine (View.set_slice_whole _ _).trans ?_
  rfl
private theorem row_set_6 : gr4_6M.view.set = rowSet (6 : Fin 16) := by
  refine (View.set_reshape _ _).trans ?_
  refine (View.set_slice_whole _ _).trans ?_
  rfl
private theorem row_set_7 : gr4_7M.view.set = rowSet (7 : Fin 16) := by
  refine (View.set_reshape _ _).trans ?_
  refine (View.set_slice_whole _ _).trans ?_
  rfl
private theorem row_set_8 : gr4_8M.view.set = rowSet (8 : Fin 16) := by
  refine (View.set_reshape _ _).trans ?_
  refine (View.set_slice_whole _ _).trans ?_
  rfl
private theorem row_set_9 : gr4_9M.view.set = rowSet (9 : Fin 16) := by
  refine (View.set_reshape _ _).trans ?_
  refine (View.set_slice_whole _ _).trans ?_
  rfl
private theorem row_set_10 : gr4_10M.view.set = rowSet (10 : Fin 16) := by
  refine (View.set_reshape _ _).trans ?_
  refine (View.set_slice_whole _ _).trans ?_
  rfl
private theorem row_set_11 : gr4_11M.view.set = rowSet (11 : Fin 16) := by
  refine (View.set_reshape _ _).trans ?_
  refine (View.set_slice_whole _ _).trans ?_
  rfl
private theorem row_set_12 : gr4_12M.view.set = rowSet (12 : Fin 16) := by
  refine (View.set_reshape _ _).trans ?_
  refine (View.set_slice_whole _ _).trans ?_
  rfl
private theorem row_set_13 : gr4_13M.view.set = rowSet (13 : Fin 16) := by
  refine (View.set_reshape _ _).trans ?_
  refine (View.set_slice_whole _ _).trans ?_
  rfl
private theorem row_set_14 : gr4_14M.view.set = rowSet (14 : Fin 16) := by
  refine (View.set_reshape _ _).trans ?_
  refine (View.set_slice_whole _ _).trans ?_
  rfl
private theorem row_set_15 : gr4_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join4 (c : Dev nD) (f0 f1 f2 f3 f4 f5 f6 f7 f8 f9 f10 f11 f12 f13 f14 f15 : Buf (Elt F) (gsc4M.view.loc (c : Thread nD τ))) :
    (iprop((gsc4M.view.loc (c : Thread nD τ) ↦[gr4_0M.view.set]{fullShare} f0)
        ∗ (gsc4M.view.loc (c : Thread nD τ) ↦[gr4_1M.view.set]{fullShare} f1)
        ∗ (gsc4M.view.loc (c : Thread nD τ) ↦[gr4_2M.view.set]{fullShare} f2)
        ∗ (gsc4M.view.loc (c : Thread nD τ) ↦[gr4_3M.view.set]{fullShare} f3)
        ∗ (gsc4M.view.loc (c : Thread nD τ) ↦[gr4_4M.view.set]{fullShare} f4)
        ∗ (gsc4M.view.loc (c : Thread nD τ) ↦[gr4_5M.view.set]{fullShare} f5)
        ∗ (gsc4M.view.loc (c : Thread nD τ) ↦[gr4_6M.view.set]{fullShare} f6)
        ∗ (gsc4M.view.loc (c : Thread nD τ) ↦[gr4_7M.view.set]{fullShare} f7)
        ∗ (gsc4M.view.loc (c : Thread nD τ) ↦[gr4_8M.view.set]{fullShare} f8)
        ∗ (gsc4M.view.loc (c : Thread nD τ) ↦[gr4_9M.view.set]{fullShare} f9)
        ∗ (gsc4M.view.loc (c : Thread nD τ) ↦[gr4_10M.view.set]{fullShare} f10)
        ∗ (gsc4M.view.loc (c : Thread nD τ) ↦[gr4_11M.view.set]{fullShare} f11)
        ∗ (gsc4M.view.loc (c : Thread nD τ) ↦[gr4_12M.view.set]{fullShare} f12)
        ∗ (gsc4M.view.loc (c : Thread nD τ) ↦[gr4_13M.view.set]{fullShare} f13)
        ∗ (gsc4M.view.loc (c : Thread nD τ) ↦[gr4_14M.view.set]{fullShare} f14)
        ∗ (gsc4M.view.loc (c : Thread nD τ) ↦[gr4_15M.view.set]{fullShare} f15)) : sProp 𝕄)
      ⊢ iprop(∃ g : Buf (Elt F) (gsc4M.view.loc (c : Thread nD τ)),
          ⌜(∀ i ∈ gr4_0M.view.set, g i = f0 i)
            ∧ (∀ i ∈ gr4_1M.view.set, g i = f1 i)
            ∧ (∀ i ∈ gr4_2M.view.set, g i = f2 i)
            ∧ (∀ i ∈ gr4_3M.view.set, g i = f3 i)
            ∧ (∀ i ∈ gr4_4M.view.set, g i = f4 i)
            ∧ (∀ i ∈ gr4_5M.view.set, g i = f5 i)
            ∧ (∀ i ∈ gr4_6M.view.set, g i = f6 i)
            ∧ (∀ i ∈ gr4_7M.view.set, g i = f7 i)
            ∧ (∀ i ∈ gr4_8M.view.set, g i = f8 i)
            ∧ (∀ i ∈ gr4_9M.view.set, g i = f9 i)
            ∧ (∀ i ∈ gr4_10M.view.set, g i = f10 i)
            ∧ (∀ i ∈ gr4_11M.view.set, g i = f11 i)
            ∧ (∀ i ∈ gr4_12M.view.set, g i = f12 i)
            ∧ (∀ i ∈ gr4_13M.view.set, g i = f13 i)
            ∧ (∀ i ∈ gr4_14M.view.set, g i = f14 i)
            ∧ (∀ i ∈ gr4_15M.view.set, g i = f15 i)⌝
          ∗ (gsc4M.view.loc (c : Thread nD τ) ↦[gsc4M.view.set]{fullShare} g)) := by
  have hw : gsc4M.view.set = Finset.univ.biUnion rowSet := (View.set_whole _).trans rowSet_cover.symm
  exact join16 (ℓ := gsc4M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split4 (c : Dev nD) (f : Buf (Elt F) (gsc4M.view.loc (c : Thread nD τ))) :
    (gsc4M.view.loc (c : Thread nD τ) ↦[gsc4M.view.set]{fullShare} f : sProp 𝕄)
      ⊢ iprop((gsc4M.view.loc (c : Thread nD τ) ↦[gr4_0M.view.set]{fullShare} f)
        ∗ (gsc4M.view.loc (c : Thread nD τ) ↦[gr4_1M.view.set]{fullShare} f)
        ∗ (gsc4M.view.loc (c : Thread nD τ) ↦[gr4_2M.view.set]{fullShare} f)
        ∗ (gsc4M.view.loc (c : Thread nD τ) ↦[gr4_3M.view.set]{fullShare} f)
        ∗ (gsc4M.view.loc (c : Thread nD τ) ↦[gr4_4M.view.set]{fullShare} f)
        ∗ (gsc4M.view.loc (c : Thread nD τ) ↦[gr4_5M.view.set]{fullShare} f)
        ∗ (gsc4M.view.loc (c : Thread nD τ) ↦[gr4_6M.view.set]{fullShare} f)
        ∗ (gsc4M.view.loc (c : Thread nD τ) ↦[gr4_7M.view.set]{fullShare} f)
        ∗ (gsc4M.view.loc (c : Thread nD τ) ↦[gr4_8M.view.set]{fullShare} f)
        ∗ (gsc4M.view.loc (c : Thread nD τ) ↦[gr4_9M.view.set]{fullShare} f)
        ∗ (gsc4M.view.loc (c : Thread nD τ) ↦[gr4_10M.view.set]{fullShare} f)
        ∗ (gsc4M.view.loc (c : Thread nD τ) ↦[gr4_11M.view.set]{fullShare} f)
        ∗ (gsc4M.view.loc (c : Thread nD τ) ↦[gr4_12M.view.set]{fullShare} f)
        ∗ (gsc4M.view.loc (c : Thread nD τ) ↦[gr4_13M.view.set]{fullShare} f)
        ∗ (gsc4M.view.loc (c : Thread nD τ) ↦[gr4_14M.view.set]{fullShare} f)
        ∗ (gsc4M.view.loc (c : Thread nD τ) ↦[gr4_15M.view.set]{fullShare} f)) := by
  have hw : gsc4M.view.set = Finset.univ.biUnion rowSet := (View.set_whole _).trans rowSet_cover.symm
  exact split16 (ℓ := gsc4M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows4.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin4
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 4's chunk of the edge-source table in scalar memory, whole. -/
abbrev ghb4M : Memref sig .tc .hbm S50000x1x128 .f32 := Memref.whole main_v0
abbrev gtb4M : Memref sig .tc .smem S64000 .i32 := Memref.whole main_v9

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc4M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb4M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed4 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb4M.view.loc (c : Thread nD τ))) (fs g : Buf (Elt F) (gsc4M.view.loc (c : Thread nD τ)))
    (hg : ∀ i ∈ ((gsc4M.slice (Rect.unit (s := S16x1x128) ![j, 0, 0] S1x1x128.size inb) (fun _ => rfl)).squeeze S1x128 squeezes_S1x1x128_S1x128).view.set,
        g i = ((gsc4M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb4M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc4M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb4M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load4 (c : Dev nD) (g : Buf (Elt F) (gsc4M.view.loc (c : Thread nD τ))) (y : S16x1x128.Idx) :
    View.readAt (Elt F) gsc4M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word4 (pf : S64000.Idx → Elt F .i32) (off : Fin 1 → ℕ) (inb : ∀ a, off a + S1.size a ≤ S64000.size a)
    (n : ℕ) (hn : n < 64000) (hoff : off 0 = n) :
    View.readAt (Elt F) gtb4M.view (Rect.unit (s := S64000) off S1.size inb).toLoadRect
        ((Memref.isWhole_whole _ : gtb4M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs4 (i : grid4.Coords) :
    (k4_off1 i) 0 = 16 * (i 0).val + 0
    ∧ (k4_off3 i) 0 = 16 * (i 0).val + 1
    ∧ (k4_off5 i) 0 = 16 * (i 0).val + 2
    ∧ (k4_off7 i) 0 = 16 * (i 0).val + 3
    ∧ (k4_off9 i) 0 = 16 * (i 0).val + 4
    ∧ (k4_off11 i) 0 = 16 * (i 0).val + 5
    ∧ (k4_off13 i) 0 = 16 * (i 0).val + 6
    ∧ (k4_off15 i) 0 = 16 * (i 0).val + 7
    ∧ (k4_off17 i) 0 = 16 * (i 0).val + 8
    ∧ (k4_off19 i) 0 = 16 * (i 0).val + 9
    ∧ (k4_off21 i) 0 = 16 * (i 0).val + 10
    ∧ (k4_off23 i) 0 = 16 * (i 0).val + 11
    ∧ (k4_off25 i) 0 = 16 * (i 0).val + 12
    ∧ (k4_off27 i) 0 = 16 * (i 0).val + 13
    ∧ (k4_off29 i) 0 = 16 * (i 0).val + 14
    ∧ (k4_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun4.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows4
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 4's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run4 (c : Dev nD) (i : grid4.Coords) (arg3 : Memref sig .tc .vmem S16x1x128 .f32) (harg3 : arg3.IsWhole)
    (pf : S64000.Idx → Elt F .i32) (tb : Buf (Elt F) (ghb4M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc4M.view.loc (c : Thread nD τ) ↦[gsc4M.view.set]{fullShare} f)
        ∗ owns (c : Thread nD τ) gtb4M fullShare pf
        ∗ (ghb4M.view.loc (c : Thread nD τ) ↦{fullShare} tb)
        ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0
        ∗ owes (c : Thread nD τ) 0 W
        ∗ (iprop(owns (c : Thread nD τ) arg3 fullShare (gblock tb pf (i 0).val)
            ∗ (∃ f, gsc4M.view.loc (c : Thread nD τ) ↦[gsc4M.view.set]{fullShare} f)
            ∗ owns (c : Thread nD τ) gtb4M fullShare pf
            ∗ (ghb4M.view.loc (c : Thread nD τ) ↦{fullShare} tb)
            ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0
            ∗ (∃ W', owes (c : Thread nD τ) 0 W')) -∗ K ⟨⟩))
      ⊢ wp frame (wpE (defs₀ (F := F)) Variants.none c none) Set.univ
          (cc4__gather_kernel i gtb4M (Memref.isWhole_whole _) ghb4M (Memref.isWhole_whole _) arg3 harg3 gsc4M (Memref.isWhole_whole _) cc4_scratch1) K := by
  have hi : (i 0).val < 4000 := (i 0).isLt
  have hoffs := table_offs4 i
  have hword0 : (View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))) = pf (ValueIdx.ix1 (⟨16 * (i 0).val + 0, by omega⟩ : Fin 64000)) :=
    table_word4 pf _ _ _ (by omega) hoffs.1
  have hlt0 : (View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))).toNat < 50000 := by rw [hword0]; exact hok _
  have hw1 : k4_chk1 (View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))) := ⟨chk_lt _ hlt0, chk_lt _ hlt0⟩
  have hword1 : (View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))) = pf (ValueIdx.ix1 (⟨16 * (i 0).val + 1, by omega⟩ : Fin 64000)) :=
    table_word4 pf _ _ _ (by omega) hoffs.2.1
  have hlt1 : (View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))).toNat < 50000 := by rw [hword1]; exact hok _
  have hw2 : k4_chk2 (View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))) := ⟨chk_lt _ hlt1, chk_lt _ hlt1⟩
  have hword2 : (View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))) = pf (ValueIdx.ix1 (⟨16 * (i 0).val + 2, by omega⟩ : Fin 64000)) :=
    table_word4 pf _ _ _ (by omega) hoffs.2.2.1
  have hlt2 : (View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))).toNat < 50000 := by rw [hword2]; exact hok _
  have hw3 : k4_chk3 (View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))) := ⟨chk_lt _ hlt2, chk_lt _ hlt2⟩
  have hword3 : (View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))) = pf (ValueIdx.ix1 (⟨16 * (i 0).val + 3, by omega⟩ : Fin 64000)) :=
    table_word4 pf _ _ _ (by omega) hoffs.2.2.2.1
  have hlt3 : (View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))).toNat < 50000 := by rw [hword3]; exact hok _
  have hw4 : k4_chk4 (View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))) := ⟨chk_lt _ hlt3, chk_lt _ hlt3⟩
  have hword4 : (View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))) = pf (ValueIdx.ix1 (⟨16 * (i 0).val + 4, by omega⟩ : Fin 64000)) :=
    table_word4 pf _ _ _ (by omega) hoffs.2.2.2.2.1
  have hlt4 : (View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))).toNat < 50000 := by rw [hword4]; exact hok _
  have hw5 : k4_chk5 (View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))) := ⟨chk_lt _ hlt4, chk_lt _ hlt4⟩
  have hword5 : (View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))) = pf (ValueIdx.ix1 (⟨16 * (i 0).val + 5, by omega⟩ : Fin 64000)) :=
    table_word4 pf _ _ _ (by omega) hoffs.2.2.2.2.2.1
  have hlt5 : (View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))).toNat < 50000 := by rw [hword5]; exact hok _
  have hw6 : k4_chk6 (View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))) := ⟨chk_lt _ hlt5, chk_lt _ hlt5⟩
  have hword6 : (View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))) = pf (ValueIdx.ix1 (⟨16 * (i 0).val + 6, by omega⟩ : Fin 64000)) :=
    table_word4 pf _ _ _ (by omega) hoffs.2.2.2.2.2.2.1
  have hlt6 : (View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))).toNat < 50000 := by rw [hword6]; exact hok _
  have hw7 : k4_chk7 (View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))) := ⟨chk_lt _ hlt6, chk_lt _ hlt6⟩
  have hword7 : (View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))) = pf (ValueIdx.ix1 (⟨16 * (i 0).val + 7, by omega⟩ : Fin 64000)) :=
    table_word4 pf _ _ _ (by omega) hoffs.2.2.2.2.2.2.2.1
  have hlt7 : (View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))).toNat < 50000 := by rw [hword7]; exact hok _
  have hw8 : k4_chk8 (View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))) := ⟨chk_lt _ hlt7, chk_lt _ hlt7⟩
  have hword8 : (View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))) = pf (ValueIdx.ix1 (⟨16 * (i 0).val + 8, by omega⟩ : Fin 64000)) :=
    table_word4 pf _ _ _ (by omega) hoffs.2.2.2.2.2.2.2.2.1
  have hlt8 : (View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))).toNat < 50000 := by rw [hword8]; exact hok _
  have hw9 : k4_chk9 (View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))) := ⟨chk_lt _ hlt8, chk_lt _ hlt8⟩
  have hword9 : (View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))) = pf (ValueIdx.ix1 (⟨16 * (i 0).val + 9, by omega⟩ : Fin 64000)) :=
    table_word4 pf _ _ _ (by omega) hoffs.2.2.2.2.2.2.2.2.2.1
  have hlt9 : (View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))).toNat < 50000 := by rw [hword9]; exact hok _
  have hw10 : k4_chk10 (View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))) := ⟨chk_lt _ hlt9, chk_lt _ hlt9⟩
  have hword10 : (View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))) = pf (ValueIdx.ix1 (⟨16 * (i 0).val + 10, by omega⟩ : Fin 64000)) :=
    table_word4 pf _ _ _ (by omega) hoffs.2.2.2.2.2.2.2.2.2.2.1
  have hlt10 : (View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))).toNat < 50000 := by rw [hword10]; exact hok _
  have hw11 : k4_chk11 (View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))) := ⟨chk_lt _ hlt10, chk_lt _ hlt10⟩
  have hword11 : (View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))) = pf (ValueIdx.ix1 (⟨16 * (i 0).val + 11, by omega⟩ : Fin 64000)) :=
    table_word4 pf _ _ _ (by omega) hoffs.2.2.2.2.2.2.2.2.2.2.2.1
  have hlt11 : (View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))).toNat < 50000 := by rw [hword11]; exact hok _
  have hw12 : k4_chk12 (View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))) := ⟨chk_lt _ hlt11, chk_lt _ hlt11⟩
  have hword12 : (View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))) = pf (ValueIdx.ix1 (⟨16 * (i 0).val + 12, by omega⟩ : Fin 64000)) :=
    table_word4 pf _ _ _ (by omega) hoffs.2.2.2.2.2.2.2.2.2.2.2.2.1
  have hlt12 : (View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))).toNat < 50000 := by rw [hword12]; exact hok _
  have hw13 : k4_chk13 (View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))) := ⟨chk_lt _ hlt12, chk_lt _ hlt12⟩
  have hword13 : (View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))) = pf (ValueIdx.ix1 (⟨16 * (i 0).val + 13, by omega⟩ : Fin 64000)) :=
    table_word4 pf _ _ _ (by omega) hoffs.2.2.2.2.2.2.2.2.2.2.2.2.2.1
  have hlt13 : (View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))).toNat < 50000 := by rw [hword13]; exact hok _
  have hw14 : k4_chk14 (View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))) := ⟨chk_lt _ hlt13, chk_lt _ hlt13⟩
  have hword14 : (View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))) = pf (ValueIdx.ix1 (⟨16 * (i 0).val + 14, by omega⟩ : Fin 64000)) :=
    table_word4 pf _ _ _ (by omega) hoffs.2.2.2.2.2.2.2.2.2.2.2.2.2.2.1
  have hlt14 : (View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))).toNat < 50000 := by rw [hword14]; exact hok _
  have hw15 : k4_chk15 (View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))) := ⟨chk_lt _ hlt14, chk_lt _ hlt14⟩
  have hword15 : (View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))) = pf (ValueIdx.ix1 (⟨16 * (i 0).val + 15, by omega⟩ : Fin 64000)) :=
    table_word4 pf _ _ _ (by omega) hoffs.2.2.2.2.2.2.2.2.2.2.2.2.2.2.2
  have hlt15 : (View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))).toNat < 50000 := by rw [hword15]; exact hok _
  have hw16 : k4_chk16 (View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))) := chk_lt _ hlt15
  rw [cc4__gather_kernel_eq_skeleton]; unfold cc4__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb4M).IsWhole).eq_unread hfp
  ihave HR := (rows_split4 (F := F) c fsc) $$ HSC
  icases HR with ⟨HS0, HS1, HS2, HS3, HS4, HS5, HS6, HS7, HS8, HS9, HS10, HS11, HS12, HS13, HS14, HS15⟩
  ihave HS0 := (Entails.of_eq (show ((gsc4M.view.loc (c : Thread nD τ) ↦[gr4_0M.view.set]{fullShare} fsc : sProp 𝕄)) = (gr4_0M.view.loc (c : Thread nD τ) ↦[gr4_0M.view.set]{fullShare} fsc) from rfl)) $$ HS0
  ihave HS1 := (Entails.of_eq (show ((gsc4M.view.loc (c : Thread nD τ) ↦[gr4_1M.view.set]{fullShare} fsc : sProp 𝕄)) = (gr4_1M.view.loc (c : Thread nD τ) ↦[gr4_1M.view.set]{fullShare} fsc) from rfl)) $$ HS1
  ihave HS2 := (Entails.of_eq (show ((gsc4M.view.loc (c : Thread nD τ) ↦[gr4_2M.view.set]{fullShare} fsc : sProp 𝕄)) = (gr4_2M.view.loc (c : Thread nD τ) ↦[gr4_2M.view.set]{fullShare} fsc) from rfl)) $$ HS2
  ihave HS3 := (Entails.of_eq (show ((gsc4M.view.loc (c : Thread nD τ) ↦[gr4_3M.view.set]{fullShare} fsc : sProp 𝕄)) = (gr4_3M.view.loc (c : Thread nD τ) ↦[gr4_3M.view.set]{fullShare} fsc) from rfl)) $$ HS3
  ihave HS4 := (Entails.of_eq (show ((gsc4M.view.loc (c : Thread nD τ) ↦[gr4_4M.view.set]{fullShare} fsc : sProp 𝕄)) = (gr4_4M.view.loc (c : Thread nD τ) ↦[gr4_4M.view.set]{fullShare} fsc) from rfl)) $$ HS4
  ihave HS5 := (Entails.of_eq (show ((gsc4M.view.loc (c : Thread nD τ) ↦[gr4_5M.view.set]{fullShare} fsc : sProp 𝕄)) = (gr4_5M.view.loc (c : Thread nD τ) ↦[gr4_5M.view.set]{fullShare} fsc) from rfl)) $$ HS5
  ihave HS6 := (Entails.of_eq (show ((gsc4M.view.loc (c : Thread nD τ) ↦[gr4_6M.view.set]{fullShare} fsc : sProp 𝕄)) = (gr4_6M.view.loc (c : Thread nD τ) ↦[gr4_6M.view.set]{fullShare} fsc) from rfl)) $$ HS6
  ihave HS7 := (Entails.of_eq (show ((gsc4M.view.loc (c : Thread nD τ) ↦[gr4_7M.view.set]{fullShare} fsc : sProp 𝕄)) = (gr4_7M.view.loc (c : Thread nD τ) ↦[gr4_7M.view.set]{fullShare} fsc) from rfl)) $$ HS7
  ihave HS8 := (Entails.of_eq (show ((gsc4M.view.loc (c : Thread nD τ) ↦[gr4_8M.view.set]{fullShare} fsc : sProp 𝕄)) = (gr4_8M.view.loc (c : Thread nD τ) ↦[gr4_8M.view.set]{fullShare} fsc) from rfl)) $$ HS8
  ihave HS9 := (Entails.of_eq (show ((gsc4M.view.loc (c : Thread nD τ) ↦[gr4_9M.view.set]{fullShare} fsc : sProp 𝕄)) = (gr4_9M.view.loc (c : Thread nD τ) ↦[gr4_9M.view.set]{fullShare} fsc) from rfl)) $$ HS9
  ihave HS10 := (Entails.of_eq (show ((gsc4M.view.loc (c : Thread nD τ) ↦[gr4_10M.view.set]{fullShare} fsc : sProp 𝕄)) = (gr4_10M.view.loc (c : Thread nD τ) ↦[gr4_10M.view.set]{fullShare} fsc) from rfl)) $$ HS10
  ihave HS11 := (Entails.of_eq (show ((gsc4M.view.loc (c : Thread nD τ) ↦[gr4_11M.view.set]{fullShare} fsc : sProp 𝕄)) = (gr4_11M.view.loc (c : Thread nD τ) ↦[gr4_11M.view.set]{fullShare} fsc) from rfl)) $$ HS11
  ihave HS12 := (Entails.of_eq (show ((gsc4M.view.loc (c : Thread nD τ) ↦[gr4_12M.view.set]{fullShare} fsc : sProp 𝕄)) = (gr4_12M.view.loc (c : Thread nD τ) ↦[gr4_12M.view.set]{fullShare} fsc) from rfl)) $$ HS12
  ihave HS13 := (Entails.of_eq (show ((gsc4M.view.loc (c : Thread nD τ) ↦[gr4_13M.view.set]{fullShare} fsc : sProp 𝕄)) = (gr4_13M.view.loc (c : Thread nD τ) ↦[gr4_13M.view.set]{fullShare} fsc) from rfl)) $$ HS13
  ihave HS14 := (Entails.of_eq (show ((gsc4M.view.loc (c : Thread nD τ) ↦[gr4_14M.view.set]{fullShare} fsc : sProp 𝕄)) = (gr4_14M.view.loc (c : Thread nD τ) ↦[gr4_14M.view.set]{fullShare} fsc) from rfl)) $$ HS14
  ihave HS15 := (Entails.of_eq (show ((gsc4M.view.loc (c : Thread nD τ) ↦[gr4_15M.view.set]{fullShare} fsc : sProp 𝕄)) = (gr4_15M.view.loc (c : Thread nD τ) ↦[gr4_15M.view.set]{fullShare} fsc) from rfl)) $$ HS15
  ihave HB := (split16 (ℓ := ghb4M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join4 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))).toNat, hlt0⟩ : Fin 50000) (0 : Fin 1) l) :=
    row_landed4 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))).toNat, hlt1⟩ : Fin 50000) (0 : Fin 1) l) :=
    row_landed4 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))).toNat, hlt2⟩ : Fin 50000) (0 : Fin 1) l) :=
    row_landed4 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))).toNat, hlt3⟩ : Fin 50000) (0 : Fin 1) l) :=
    row_landed4 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))).toNat, hlt4⟩ : Fin 50000) (0 : Fin 1) l) :=
    row_landed4 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))).toNat, hlt5⟩ : Fin 50000) (0 : Fin 1) l) :=
    row_landed4 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))).toNat, hlt6⟩ : Fin 50000) (0 : Fin 1) l) :=
    row_landed4 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))).toNat, hlt7⟩ : Fin 50000) (0 : Fin 1) l) :=
    row_landed4 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))).toNat, hlt8⟩ : Fin 50000) (0 : Fin 1) l) :=
    row_landed4 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))).toNat, hlt9⟩ : Fin 50000) (0 : Fin 1) l) :=
    row_landed4 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))).toNat, hlt10⟩ : Fin 50000) (0 : Fin 1) l) :=
    row_landed4 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))).toNat, hlt11⟩ : Fin 50000) (0 : Fin 1) l) :=
    row_landed4 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))).toNat, hlt12⟩ : Fin 50000) (0 : Fin 1) l) :=
    row_landed4 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))).toNat, hlt13⟩ : Fin 50000) (0 : Fin 1) l) :=
    row_landed4 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))).toNat, hlt14⟩ : Fin 50000) (0 : Fin 1) l) :=
    row_landed4 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))).toNat, hlt15⟩ : Fin 50000) (0 : Fin 1) l) :=
    row_landed4 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load4]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb4M).IsWhole).read_unread _
  isplitl [Hh0 Hh1 Hh2 Hh3 Hh4 Hh5 Hh6 Hh7 Hh8 Hh9 Hh10 Hh11 Hh12 Hh13 Hh14 Hh15]
  · iapply (join16 (ℓ := ghb4M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather4.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 4's own DMA semaphores: one per row of the step. -/
abbrev gsem4 : Fin 16 → SemLoc sig := fun j =>
  (![SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89] : Fin 16 → SemLoc sig) j
theorem gsemFacts4 : Pipeline.OwnSemFacts spec4 gsem4 := by decide

/-- The buffers the body reads without a window: the node table in HBM and its chunk of the edge-source table. -/
def gH4 : Finset (Ref sig .tc) := {main_v0, main_v9}
theorem gH4_sub : gH4 ⊆ Pipeline.restRefs sig spec4 := by decide

/-- The call's prefetched table at the contents the region finds. -/
def gadm4 (c : Dev nD) : (pcfg4 (F := F)).Adm := ⟨fun k => match k with | ⟨0, _⟩ => V c main_v9, trivial⟩

/-- The proof data of gather call 4 on core `c`: the output array as found; after step `t` the output block holds
    the gathered rows; the invariant carries the scratch, the call's semaphores at zero and the two tables as found. -/
def gdat4 (a : (pcfg4 (F := F)).Adm) (c : Dev nD) : Dat τ (Elt F) Unit ℕ (Pipeline.UD sig nD τ) ℕ (cfg4 a) c where
  A w := V c (Pipeline.arrRef spec4 w)
  after w t := match w with
    | ⟨0, _⟩ => gblock (V c main_v0) (V c main_v9) t.val
  Φ _ := Pipeline.ΦD gsem4 spec4 gH4 V c
  q _ := fullShare
  owed _ := 0

theorem gdat4_A (a : (pcfg4 (F := F)).Adm) (c : Dev nD) (w : Fin (cfg4 a).W) :
    (gdat4 V a c).A w = V c (Pipeline.arrRef spec4 w) := by dsimp only [gdat4]
theorem gdat4_after (a : (pcfg4 (F := F)).Adm) (c : Dev nD) (t : Fin (cfg4 a).N) :
    (gdat4 V a c).after 0 t = gblock (V c main_v0) (V c main_v9) t.val := rfl

/-! ## The body obligation, from the body's run -/

/-- The call's scratch buffer whole at some contents, said of the buffer and said through the whole-buffer memref. -/
theorem gsc4_whole (c : Dev nD) :
    (iprop(∃ f, gsc4M.view.loc (c : Thread nD τ) ↦[gsc4M.view.set]{fullShare} f) : sProp 𝕄)
      = iprop(∃ f : Buf (Elt F) ((c : Thread nD τ).loc cc4_scratch0), ((c : Thread nD τ).loc cc4_scratch0) ↦{fullShare} f) := by
  simp only [gsc4M, Memref.view_whole, View.set_whole]

/-- The region invariant of gather call 4, conjunct by conjunct: the call's scratch buffer whole at some contents beside
    the scoped buffers it does not touch, the generator register at some state, its sixteen semaphores at zero, and
    the two tables whole at the contents the region finds. -/
theorem PhiD4_eq (c : Dev nD) :
    (Pipeline.ΦD gsem4 spec4 gH4 V c : sProp 𝕄)
      = iprop(iprop((∃ f, gsc4M.view.loc (c : Thread nD τ) ↦[gsc4M.view.set]{fullShare} f)
            ∗ Pipeline.scopedRestBut (Ix := Unit) (Name := ℕ) (U := Pipeline.UD sig nD τ) (Lvl := ℕ) (Val := Elt F) spec4 c [cc4_scratch0])
          ∗ (∃ r, prngReg c r)
          ∗ iprop(semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0)
          ∗ iprop((ghb4M.view.loc (c : Thread nD τ) ↦{fullShare} V c main_v0) ∗ owns (c : Thread nD τ) gtb4M fullShare (V c main_v9))) := by
  rw [gsc4_whole, owns_whole, Pipeline.ΦD_eq, scopedRest4_split,
    Pipeline.ownSems0_eq_of_list c gsem4 [0, 1, 2, 3, 4, 5, 6, 7, 8, 9, 10, 11, 12, 13, 14, 15] (by decide) (by decide),
    BI.bigSep_eq_bigSepL_of_eq [main_v0, main_v9] (by decide) (by decide)]
  rfl

/-- The kernel body of gather call 4 as the pipeline calls it at point `t`: the step's coordinates, the two tables whole,
    the output window's current staging buffer, the scratch buffer and the sixteen semaphores. -/
abbrev gbodyAt4 (a : (pcfg4 (F := F)).Adm) (t : Fin (cfg4 a).N) : Prog (TpuEff nD τ sig (Elt F) Λ₀ .tc) PUnit :=
  cc4__gather_kernel ((cfg4 a).grid.coords t) gtb4M (Memref.isWhole_whole _) ghb4M (Memref.isWhole_whole _)
    (spec4_0.stage ((cfg4 a).slots t 0)) (hstage4_0 (((cfg4 a).slots t 0).cast nbuf4_0)) gsc4M (Memref.isWhole_whole _) cc4_scratch1

/-- The grid is one axis of 4000 steps: the step's one coordinate is its number. -/
theorem gcoord4 (a : (pcfg4 (F := F)).Adm) (t : Fin (cfg4 a).N) : (((cfg4 a).grid.coords t) 0).val = t.val := by
  have ht : t.val < 4000 := lt_of_lt_of_eq t.isLt N_4
  show t.val / 1 % 4000 = t.val
  omega

/-- What the body is called with at point `t`: the invariant, the core's `owes`, the output window's current staging
    buffer at whatever it holds, -/
def gbodyPre4 (a : (pcfg4 (F := F)).Adm) (c : Dev nD) (t : Fin (cfg4 a).N) : sProp 𝕄 :=
  iprop((gdat4 V a c).Φ t.castSucc ∗ (gdat4 V a c).owesAt () t.castSucc
    ∗ (∃ d, owns (c : Thread nD τ) (spec4_0.stage ((cfg4 a).slots t 0)) fullShare ((gdat4 V a c).before 0 t d)))

/-- and what it returns: the invariant, `owes`, the staging buffer at the step's gathered rows. -/
def gbodyPost4 (a : (pcfg4 (F := F)).Adm) (c : Dev nD) (t : Fin (cfg4 a).N) : sProp 𝕄 :=
  iprop((gdat4 V a c).Φ t.succ ∗ (gdat4 V a c).owesAt () t.succ
    ∗ owns (c : Thread nD τ) (spec4_0.stage ((cfg4 a).slots t 0)) fullShare ((gdat4 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body4 (a : (pcfg4 (F := F)).Adm) (c : Dev nD)
    (hok : ∀ e : S64000.Idx, (V c main_v9 e).toNat < 50000) (t : Fin (cfg4 a).N) :
    gbodyPre4 V a c t ⊢ wp frame (wpE (defs₀ (F := F)) Variants.none c none) Set.univ (gbodyAt4 a t) (fun _ => gbodyPost4 V a c t) := by
  unfold gbodyPre4 gbodyPost4 gbodyAt4
  rw [show (gdat4 V a c).Φ t.succ = Pipeline.ΦD gsem4 spec4 gH4 V c from rfl,
    show (gdat4 V a c).Φ t.castSucc = Pipeline.ΦD gsem4 spec4 gH4 V c from rfl, gdat4_after, PhiD4_eq]
  unfold Dat.owesAt Pipeline.owesWithin
  rw [show (gdat4 V a c).owed t.castSucc = 0 from rfl, show (gdat4 V a c).owed t.succ = 0 from rfl]
  have hrun := fun W K => gather_run4 (F := F) c ((cfg4 a).grid.coords t) (spec4_0.stage ((cfg4 a).slots t 0))
    (hstage4_0 (((cfg4 a).slots t 0).cast nbuf4_0)) (V c main_v9) (V c main_v0) hok W K
  rw [gcoord4 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 4, when every word of its table names a row of the node table. -/
theorem gather_obligation4 (a : (pcfg4 (F := F)).Adm) (c : Dev nD)
    (hok : ∀ e : S64000.Idx, (V c main_v9 e).toNat < 50000) :
    BodyObligation (gdat4 (F := F) V a c) (defs₀ (F := F)) Variants.none () Set.univ := fun t => by
  rw [bigSep_W4, bigSep_W4]
  exact gsound_body4 V a c hok t

end

end Cert.KernelIdeal.Hand

end
-- ==== Proof.RowsJoin5.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 5's scratch buffer, whole, and its sixteen rows as the body addresses them. -/
abbrev gsc5M : Memref sig .tc .vmem S16x1x128 .f32 := Memref.whole cc5_scratch0
abbrev gr5_0M : Memref sig .tc .vmem S1x128 .f32 := ((Memref.whole cc5_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr5_1M : Memref sig .tc .vmem S1x128 .f32 := ((Memref.whole cc5_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr5_2M : Memref sig .tc .vmem S1x128 .f32 := ((Memref.whole cc5_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr5_3M : Memref sig .tc .vmem S1x128 .f32 := ((Memref.whole cc5_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr5_4M : Memref sig .tc .vmem S1x128 .f32 := ((Memref.whole cc5_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr5_5M : Memref sig .tc .vmem S1x128 .f32 := ((Memref.whole cc5_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr5_6M : Memref sig .tc .vmem S1x128 .f32 := ((Memref.whole cc5_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr5_7M : Memref sig .tc .vmem S1x128 .f32 := ((Memref.whole cc5_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr5_8M : Memref sig .tc .vmem S1x128 .f32 := ((Memref.whole cc5_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr5_9M : Memref sig .tc .vmem S1x128 .f32 := ((Memref.whole cc5_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr5_10M : Memref sig .tc .vmem S1x128 .f32 := ((Memref.whole cc5_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr5_11M : Memref sig .tc .vmem S1x128 .f32 := ((Memref.whole cc5_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr5_12M : Memref sig .tc .vmem S1x128 .f32 := ((Memref.whole cc5_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr5_13M : Memref sig .tc .vmem S1x128 .f32 := ((Memref.whole cc5_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr5_14M : Memref sig .tc .vmem S1x128 .f32 := ((Memref.whole cc5_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr5_15M : Memref sig .tc .vmem S1x128 .f32 := ((Memref.whole cc5_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr5_0M.view.set = rowSet (0 : Fin 16) := by
  refine (View.set_reshape _ _).trans ?_
  refine (View.set_slice_whole _ _).trans ?_
  rfl
private theorem row_set_1 : gr5_1M.view.set = rowSet (1 : Fin 16) := by
  refine (View.set_reshape _ _).trans ?_
  refine (View.set_slice_whole _ _).trans ?_
  rfl
private theorem row_set_2 : gr5_2M.view.set = rowSet (2 : Fin 16) := by
  refine (View.set_reshape _ _).trans ?_
  refine (View.set_slice_whole _ _).trans ?_
  rfl
private theorem row_set_3 : gr5_3M.view.set = rowSet (3 : Fin 16) := by
  refine (View.set_reshape _ _).trans ?_
  refine (View.set_slice_whole _ _).trans ?_
  rfl
private theorem row_set_4 : gr5_4M.view.set = rowSet (4 : Fin 16) := by
  refine (View.set_reshape _ _).trans ?_
  refine (View.set_slice_whole _ _).trans ?_
  rfl
private theorem row_set_5 : gr5_5M.view.set = rowSet (5 : Fin 16) := by
  refine (View.set_reshape _ _).trans ?_
  refine (View.set_slice_whole _ _).trans ?_
  rfl
private theorem row_set_6 : gr5_6M.view.set = rowSet (6 : Fin 16) := by
  refine (View.set_reshape _ _).trans ?_
  refine (View.set_slice_whole _ _).trans ?_
  rfl
private theorem row_set_7 : gr5_7M.view.set = rowSet (7 : Fin 16) := by
  refine (View.set_reshape _ _).trans ?_
  refine (View.set_slice_whole _ _).trans ?_
  rfl
private theorem row_set_8 : gr5_8M.view.set = rowSet (8 : Fin 16) := by
  refine (View.set_reshape _ _).trans ?_
  refine (View.set_slice_whole _ _).trans ?_
  rfl
private theorem row_set_9 : gr5_9M.view.set = rowSet (9 : Fin 16) := by
  refine (View.set_reshape _ _).trans ?_
  refine (View.set_slice_whole _ _).trans ?_
  rfl
private theorem row_set_10 : gr5_10M.view.set = rowSet (10 : Fin 16) := by
  refine (View.set_reshape _ _).trans ?_
  refine (View.set_slice_whole _ _).trans ?_
  rfl
private theorem row_set_11 : gr5_11M.view.set = rowSet (11 : Fin 16) := by
  refine (View.set_reshape _ _).trans ?_
  refine (View.set_slice_whole _ _).trans ?_
  rfl
private theorem row_set_12 : gr5_12M.view.set = rowSet (12 : Fin 16) := by
  refine (View.set_reshape _ _).trans ?_
  refine (View.set_slice_whole _ _).trans ?_
  rfl
private theorem row_set_13 : gr5_13M.view.set = rowSet (13 : Fin 16) := by
  refine (View.set_reshape _ _).trans ?_
  refine (View.set_slice_whole _ _).trans ?_
  rfl
private theorem row_set_14 : gr5_14M.view.set = rowSet (14 : Fin 16) := by
  refine (View.set_reshape _ _).trans ?_
  refine (View.set_slice_whole _ _).trans ?_
  rfl
private theorem row_set_15 : gr5_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join5 (c : Dev nD) (f0 f1 f2 f3 f4 f5 f6 f7 f8 f9 f10 f11 f12 f13 f14 f15 : Buf (Elt F) (gsc5M.view.loc (c : Thread nD τ))) :
    (iprop((gsc5M.view.loc (c : Thread nD τ) ↦[gr5_0M.view.set]{fullShare} f0)
        ∗ (gsc5M.view.loc (c : Thread nD τ) ↦[gr5_1M.view.set]{fullShare} f1)
        ∗ (gsc5M.view.loc (c : Thread nD τ) ↦[gr5_2M.view.set]{fullShare} f2)
        ∗ (gsc5M.view.loc (c : Thread nD τ) ↦[gr5_3M.view.set]{fullShare} f3)
        ∗ (gsc5M.view.loc (c : Thread nD τ) ↦[gr5_4M.view.set]{fullShare} f4)
        ∗ (gsc5M.view.loc (c : Thread nD τ) ↦[gr5_5M.view.set]{fullShare} f5)
        ∗ (gsc5M.view.loc (c : Thread nD τ) ↦[gr5_6M.view.set]{fullShare} f6)
        ∗ (gsc5M.view.loc (c : Thread nD τ) ↦[gr5_7M.view.set]{fullShare} f7)
        ∗ (gsc5M.view.loc (c : Thread nD τ) ↦[gr5_8M.view.set]{fullShare} f8)
        ∗ (gsc5M.view.loc (c : Thread nD τ) ↦[gr5_9M.view.set]{fullShare} f9)
        ∗ (gsc5M.view.loc (c : Thread nD τ) ↦[gr5_10M.view.set]{fullShare} f10)
        ∗ (gsc5M.view.loc (c : Thread nD τ) ↦[gr5_11M.view.set]{fullShare} f11)
        ∗ (gsc5M.view.loc (c : Thread nD τ) ↦[gr5_12M.view.set]{fullShare} f12)
        ∗ (gsc5M.view.loc (c : Thread nD τ) ↦[gr5_13M.view.set]{fullShare} f13)
        ∗ (gsc5M.view.loc (c : Thread nD τ) ↦[gr5_14M.view.set]{fullShare} f14)
        ∗ (gsc5M.view.loc (c : Thread nD τ) ↦[gr5_15M.view.set]{fullShare} f15)) : sProp 𝕄)
      ⊢ iprop(∃ g : Buf (Elt F) (gsc5M.view.loc (c : Thread nD τ)),
          ⌜(∀ i ∈ gr5_0M.view.set, g i = f0 i)
            ∧ (∀ i ∈ gr5_1M.view.set, g i = f1 i)
            ∧ (∀ i ∈ gr5_2M.view.set, g i = f2 i)
            ∧ (∀ i ∈ gr5_3M.view.set, g i = f3 i)
            ∧ (∀ i ∈ gr5_4M.view.set, g i = f4 i)
            ∧ (∀ i ∈ gr5_5M.view.set, g i = f5 i)
            ∧ (∀ i ∈ gr5_6M.view.set, g i = f6 i)
            ∧ (∀ i ∈ gr5_7M.view.set, g i = f7 i)
            ∧ (∀ i ∈ gr5_8M.view.set, g i = f8 i)
            ∧ (∀ i ∈ gr5_9M.view.set, g i = f9 i)
            ∧ (∀ i ∈ gr5_10M.view.set, g i = f10 i)
            ∧ (∀ i ∈ gr5_11M.view.set, g i = f11 i)
            ∧ (∀ i ∈ gr5_12M.view.set, g i = f12 i)
            ∧ (∀ i ∈ gr5_13M.view.set, g i = f13 i)
            ∧ (∀ i ∈ gr5_14M.view.set, g i = f14 i)
            ∧ (∀ i ∈ gr5_15M.view.set, g i = f15 i)⌝
          ∗ (gsc5M.view.loc (c : Thread nD τ) ↦[gsc5M.view.set]{fullShare} g)) := by
  have hw : gsc5M.view.set = Finset.univ.biUnion rowSet := (View.set_whole _).trans rowSet_cover.symm
  exact join16 (ℓ := gsc5M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split5 (c : Dev nD) (f : Buf (Elt F) (gsc5M.view.loc (c : Thread nD τ))) :
    (gsc5M.view.loc (c : Thread nD τ) ↦[gsc5M.view.set]{fullShare} f : sProp 𝕄)
      ⊢ iprop((gsc5M.view.loc (c : Thread nD τ) ↦[gr5_0M.view.set]{fullShare} f)
        ∗ (gsc5M.view.loc (c : Thread nD τ) ↦[gr5_1M.view.set]{fullShare} f)
        ∗ (gsc5M.view.loc (c : Thread nD τ) ↦[gr5_2M.view.set]{fullShare} f)
        ∗ (gsc5M.view.loc (c : Thread nD τ) ↦[gr5_3M.view.set]{fullShare} f)
        ∗ (gsc5M.view.loc (c : Thread nD τ) ↦[gr5_4M.view.set]{fullShare} f)
        ∗ (gsc5M.view.loc (c : Thread nD τ) ↦[gr5_5M.view.set]{fullShare} f)
        ∗ (gsc5M.view.loc (c : Thread nD τ) ↦[gr5_6M.view.set]{fullShare} f)
        ∗ (gsc5M.view.loc (c : Thread nD τ) ↦[gr5_7M.view.set]{fullShare} f)
        ∗ (gsc5M.view.loc (c : Thread nD τ) ↦[gr5_8M.view.set]{fullShare} f)
        ∗ (gsc5M.view.loc (c : Thread nD τ) ↦[gr5_9M.view.set]{fullShare} f)
        ∗ (gsc5M.view.loc (c : Thread nD τ) ↦[gr5_10M.view.set]{fullShare} f)
        ∗ (gsc5M.view.loc (c : Thread nD τ) ↦[gr5_11M.view.set]{fullShare} f)
        ∗ (gsc5M.view.loc (c : Thread nD τ) ↦[gr5_12M.view.set]{fullShare} f)
        ∗ (gsc5M.view.loc (c : Thread nD τ) ↦[gr5_13M.view.set]{fullShare} f)
        ∗ (gsc5M.view.loc (c : Thread nD τ) ↦[gr5_14M.view.set]{fullShare} f)
        ∗ (gsc5M.view.loc (c : Thread nD τ) ↦[gr5_15M.view.set]{fullShare} f)) := by
  have hw : gsc5M.view.set = Finset.univ.biUnion rowSet := (View.set_whole _).trans rowSet_cover.symm
  exact split16 (ℓ := gsc5M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows5.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin5
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 5's chunk of the edge-source table in scalar memory, whole. -/
abbrev ghb5M : Memref sig .tc .hbm S50000x1x128 .f32 := Memref.whole main_v0
abbrev gtb5M : Memref sig .tc .smem S64000 .i32 := Memref.whole main_v11

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc5M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb5M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed5 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb5M.view.loc (c : Thread nD τ))) (fs g : Buf (Elt F) (gsc5M.view.loc (c : Thread nD τ)))
    (hg : ∀ i ∈ ((gsc5M.slice (Rect.unit (s := S16x1x128) ![j, 0, 0] S1x1x128.size inb) (fun _ => rfl)).squeeze S1x128 squeezes_S1x1x128_S1x128).view.set,
        g i = ((gsc5M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb5M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc5M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb5M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load5 (c : Dev nD) (g : Buf (Elt F) (gsc5M.view.loc (c : Thread nD τ))) (y : S16x1x128.Idx) :
    View.readAt (Elt F) gsc5M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word5 (pf : S64000.Idx → Elt F .i32) (off : Fin 1 → ℕ) (inb : ∀ a, off a + S1.size a ≤ S64000.size a)
    (n : ℕ) (hn : n < 64000) (hoff : off 0 = n) :
    View.readAt (Elt F) gtb5M.view (Rect.unit (s := S64000) off S1.size inb).toLoadRect
        ((Memref.isWhole_whole _ : gtb5M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs5 (i : grid5.Coords) :
    (k5_off1 i) 0 = 16 * (i 0).val + 0
    ∧ (k5_off3 i) 0 = 16 * (i 0).val + 1
    ∧ (k5_off5 i) 0 = 16 * (i 0).val + 2
    ∧ (k5_off7 i) 0 = 16 * (i 0).val + 3
    ∧ (k5_off9 i) 0 = 16 * (i 0).val + 4
    ∧ (k5_off11 i) 0 = 16 * (i 0).val + 5
    ∧ (k5_off13 i) 0 = 16 * (i 0).val + 6
    ∧ (k5_off15 i) 0 = 16 * (i 0).val + 7
    ∧ (k5_off17 i) 0 = 16 * (i 0).val + 8
    ∧ (k5_off19 i) 0 = 16 * (i 0).val + 9
    ∧ (k5_off21 i) 0 = 16 * (i 0).val + 10
    ∧ (k5_off23 i) 0 = 16 * (i 0).val + 11
    ∧ (k5_off25 i) 0 = 16 * (i 0).val + 12
    ∧ (k5_off27 i) 0 = 16 * (i 0).val + 13
    ∧ (k5_off29 i) 0 = 16 * (i 0).val + 14
    ∧ (k5_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun5.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows5
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 5's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run5 (c : Dev nD) (i : grid5.Coords) (arg3 : Memref sig .tc .vmem S16x1x128 .f32) (harg3 : arg3.IsWhole)
    (pf : S64000.Idx → Elt F .i32) (tb : Buf (Elt F) (ghb5M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc5M.view.loc (c : Thread nD τ) ↦[gsc5M.view.set]{fullShare} f)
        ∗ owns (c : Thread nD τ) gtb5M fullShare pf
        ∗ (ghb5M.view.loc (c : Thread nD τ) ↦{fullShare} tb)
        ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0
        ∗ owes (c : Thread nD τ) 0 W
        ∗ (iprop(owns (c : Thread nD τ) arg3 fullShare (gblock tb pf (i 0).val)
            ∗ (∃ f, gsc5M.view.loc (c : Thread nD τ) ↦[gsc5M.view.set]{fullShare} f)
            ∗ owns (c : Thread nD τ) gtb5M fullShare pf
            ∗ (ghb5M.view.loc (c : Thread nD τ) ↦{fullShare} tb)
            ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0
            ∗ (∃ W', owes (c : Thread nD τ) 0 W')) -∗ K ⟨⟩))
      ⊢ wp frame (wpE (defs₀ (F := F)) Variants.none c none) Set.univ
          (cc5__gather_kernel i gtb5M (Memref.isWhole_whole _) ghb5M (Memref.isWhole_whole _) arg3 harg3 gsc5M (Memref.isWhole_whole _) cc5_scratch1) K := by
  have hi : (i 0).val < 4000 := (i 0).isLt
  have hoffs := table_offs5 i
  have hword0 : (View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))) = pf (ValueIdx.ix1 (⟨16 * (i 0).val + 0, by omega⟩ : Fin 64000)) :=
    table_word5 pf _ _ _ (by omega) hoffs.1
  have hlt0 : (View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))).toNat < 50000 := by rw [hword0]; exact hok _
  have hw1 : k5_chk1 (View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))) := ⟨chk_lt _ hlt0, chk_lt _ hlt0⟩
  have hword1 : (View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))) = pf (ValueIdx.ix1 (⟨16 * (i 0).val + 1, by omega⟩ : Fin 64000)) :=
    table_word5 pf _ _ _ (by omega) hoffs.2.1
  have hlt1 : (View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))).toNat < 50000 := by rw [hword1]; exact hok _
  have hw2 : k5_chk2 (View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))) := ⟨chk_lt _ hlt1, chk_lt _ hlt1⟩
  have hword2 : (View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))) = pf (ValueIdx.ix1 (⟨16 * (i 0).val + 2, by omega⟩ : Fin 64000)) :=
    table_word5 pf _ _ _ (by omega) hoffs.2.2.1
  have hlt2 : (View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))).toNat < 50000 := by rw [hword2]; exact hok _
  have hw3 : k5_chk3 (View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))) := ⟨chk_lt _ hlt2, chk_lt _ hlt2⟩
  have hword3 : (View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))) = pf (ValueIdx.ix1 (⟨16 * (i 0).val + 3, by omega⟩ : Fin 64000)) :=
    table_word5 pf _ _ _ (by omega) hoffs.2.2.2.1
  have hlt3 : (View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))).toNat < 50000 := by rw [hword3]; exact hok _
  have hw4 : k5_chk4 (View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))) := ⟨chk_lt _ hlt3, chk_lt _ hlt3⟩
  have hword4 : (View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))) = pf (ValueIdx.ix1 (⟨16 * (i 0).val + 4, by omega⟩ : Fin 64000)) :=
    table_word5 pf _ _ _ (by omega) hoffs.2.2.2.2.1
  have hlt4 : (View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))).toNat < 50000 := by rw [hword4]; exact hok _
  have hw5 : k5_chk5 (View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))) := ⟨chk_lt _ hlt4, chk_lt _ hlt4⟩
  have hword5 : (View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))) = pf (ValueIdx.ix1 (⟨16 * (i 0).val + 5, by omega⟩ : Fin 64000)) :=
    table_word5 pf _ _ _ (by omega) hoffs.2.2.2.2.2.1
  have hlt5 : (View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))).toNat < 50000 := by rw [hword5]; exact hok _
  have hw6 : k5_chk6 (View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))) := ⟨chk_lt _ hlt5, chk_lt _ hlt5⟩
  have hword6 : (View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))) = pf (ValueIdx.ix1 (⟨16 * (i 0).val + 6, by omega⟩ : Fin 64000)) :=
    table_word5 pf _ _ _ (by omega) hoffs.2.2.2.2.2.2.1
  have hlt6 : (View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))).toNat < 50000 := by rw [hword6]; exact hok _
  have hw7 : k5_chk7 (View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))) := ⟨chk_lt _ hlt6, chk_lt _ hlt6⟩
  have hword7 : (View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))) = pf (ValueIdx.ix1 (⟨16 * (i 0).val + 7, by omega⟩ : Fin 64000)) :=
    table_word5 pf _ _ _ (by omega) hoffs.2.2.2.2.2.2.2.1
  have hlt7 : (View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))).toNat < 50000 := by rw [hword7]; exact hok _
  have hw8 : k5_chk8 (View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))) := ⟨chk_lt _ hlt7, chk_lt _ hlt7⟩
  have hword8 : (View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))) = pf (ValueIdx.ix1 (⟨16 * (i 0).val + 8, by omega⟩ : Fin 64000)) :=
    table_word5 pf _ _ _ (by omega) hoffs.2.2.2.2.2.2.2.2.1
  have hlt8 : (View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))).toNat < 50000 := by rw [hword8]; exact hok _
  have hw9 : k5_chk9 (View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))) := ⟨chk_lt _ hlt8, chk_lt _ hlt8⟩
  have hword9 : (View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))) = pf (ValueIdx.ix1 (⟨16 * (i 0).val + 9, by omega⟩ : Fin 64000)) :=
    table_word5 pf _ _ _ (by omega) hoffs.2.2.2.2.2.2.2.2.2.1
  have hlt9 : (View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))).toNat < 50000 := by rw [hword9]; exact hok _
  have hw10 : k5_chk10 (View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))) := ⟨chk_lt _ hlt9, chk_lt _ hlt9⟩
  have hword10 : (View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))) = pf (ValueIdx.ix1 (⟨16 * (i 0).val + 10, by omega⟩ : Fin 64000)) :=
    table_word5 pf _ _ _ (by omega) hoffs.2.2.2.2.2.2.2.2.2.2.1
  have hlt10 : (View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))).toNat < 50000 := by rw [hword10]; exact hok _
  have hw11 : k5_chk11 (View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))) := ⟨chk_lt _ hlt10, chk_lt _ hlt10⟩
  have hword11 : (View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))) = pf (ValueIdx.ix1 (⟨16 * (i 0).val + 11, by omega⟩ : Fin 64000)) :=
    table_word5 pf _ _ _ (by omega) hoffs.2.2.2.2.2.2.2.2.2.2.2.1
  have hlt11 : (View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))).toNat < 50000 := by rw [hword11]; exact hok _
  have hw12 : k5_chk12 (View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))) := ⟨chk_lt _ hlt11, chk_lt _ hlt11⟩
  have hword12 : (View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))) = pf (ValueIdx.ix1 (⟨16 * (i 0).val + 12, by omega⟩ : Fin 64000)) :=
    table_word5 pf _ _ _ (by omega) hoffs.2.2.2.2.2.2.2.2.2.2.2.2.1
  have hlt12 : (View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))).toNat < 50000 := by rw [hword12]; exact hok _
  have hw13 : k5_chk13 (View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))) := ⟨chk_lt _ hlt12, chk_lt _ hlt12⟩
  have hword13 : (View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))) = pf (ValueIdx.ix1 (⟨16 * (i 0).val + 13, by omega⟩ : Fin 64000)) :=
    table_word5 pf _ _ _ (by omega) hoffs.2.2.2.2.2.2.2.2.2.2.2.2.2.1
  have hlt13 : (View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))).toNat < 50000 := by rw [hword13]; exact hok _
  have hw14 : k5_chk14 (View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))) := ⟨chk_lt _ hlt13, chk_lt _ hlt13⟩
  have hword14 : (View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))) = pf (ValueIdx.ix1 (⟨16 * (i 0).val + 14, by omega⟩ : Fin 64000)) :=
    table_word5 pf _ _ _ (by omega) hoffs.2.2.2.2.2.2.2.2.2.2.2.2.2.2.1
  have hlt14 : (View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))).toNat < 50000 := by rw [hword14]; exact hok _
  have hw15 : k5_chk15 (View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))) := ⟨chk_lt _ hlt14, chk_lt _ hlt14⟩
  have hword15 : (View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))) = pf (ValueIdx.ix1 (⟨16 * (i 0).val + 15, by omega⟩ : Fin 64000)) :=
    table_word5 pf _ _ _ (by omega) hoffs.2.2.2.2.2.2.2.2.2.2.2.2.2.2.2
  have hlt15 : (View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))).toNat < 50000 := by rw [hword15]; exact hok _
  have hw16 : k5_chk16 (View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))) := chk_lt _ hlt15
  rw [cc5__gather_kernel_eq_skeleton]; unfold cc5__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb5M).IsWhole).eq_unread hfp
  ihave HR := (rows_split5 (F := F) c fsc) $$ HSC
  icases HR with ⟨HS0, HS1, HS2, HS3, HS4, HS5, HS6, HS7, HS8, HS9, HS10, HS11, HS12, HS13, HS14, HS15⟩
  ihave HS0 := (Entails.of_eq (show ((gsc5M.view.loc (c : Thread nD τ) ↦[gr5_0M.view.set]{fullShare} fsc : sProp 𝕄)) = (gr5_0M.view.loc (c : Thread nD τ) ↦[gr5_0M.view.set]{fullShare} fsc) from rfl)) $$ HS0
  ihave HS1 := (Entails.of_eq (show ((gsc5M.view.loc (c : Thread nD τ) ↦[gr5_1M.view.set]{fullShare} fsc : sProp 𝕄)) = (gr5_1M.view.loc (c : Thread nD τ) ↦[gr5_1M.view.set]{fullShare} fsc) from rfl)) $$ HS1
  ihave HS2 := (Entails.of_eq (show ((gsc5M.view.loc (c : Thread nD τ) ↦[gr5_2M.view.set]{fullShare} fsc : sProp 𝕄)) = (gr5_2M.view.loc (c : Thread nD τ) ↦[gr5_2M.view.set]{fullShare} fsc) from rfl)) $$ HS2
  ihave HS3 := (Entails.of_eq (show ((gsc5M.view.loc (c : Thread nD τ) ↦[gr5_3M.view.set]{fullShare} fsc : sProp 𝕄)) = (gr5_3M.view.loc (c : Thread nD τ) ↦[gr5_3M.view.set]{fullShare} fsc) from rfl)) $$ HS3
  ihave HS4 := (Entails.of_eq (show ((gsc5M.view.loc (c : Thread nD τ) ↦[gr5_4M.view.set]{fullShare} fsc : sProp 𝕄)) = (gr5_4M.view.loc (c : Thread nD τ) ↦[gr5_4M.view.set]{fullShare} fsc) from rfl)) $$ HS4
  ihave HS5 := (Entails.of_eq (show ((gsc5M.view.loc (c : Thread nD τ) ↦[gr5_5M.view.set]{fullShare} fsc : sProp 𝕄)) = (gr5_5M.view.loc (c : Thread nD τ) ↦[gr5_5M.view.set]{fullShare} fsc) from rfl)) $$ HS5
  ihave HS6 := (Entails.of_eq (show ((gsc5M.view.loc (c : Thread nD τ) ↦[gr5_6M.view.set]{fullShare} fsc : sProp 𝕄)) = (gr5_6M.view.loc (c : Thread nD τ) ↦[gr5_6M.view.set]{fullShare} fsc) from rfl)) $$ HS6
  ihave HS7 := (Entails.of_eq (show ((gsc5M.view.loc (c : Thread nD τ) ↦[gr5_7M.view.set]{fullShare} fsc : sProp 𝕄)) = (gr5_7M.view.loc (c : Thread nD τ) ↦[gr5_7M.view.set]{fullShare} fsc) from rfl)) $$ HS7
  ihave HS8 := (Entails.of_eq (show ((gsc5M.view.loc (c : Thread nD τ) ↦[gr5_8M.view.set]{fullShare} fsc : sProp 𝕄)) = (gr5_8M.view.loc (c : Thread nD τ) ↦[gr5_8M.view.set]{fullShare} fsc) from rfl)) $$ HS8
  ihave HS9 := (Entails.of_eq (show ((gsc5M.view.loc (c : Thread nD τ) ↦[gr5_9M.view.set]{fullShare} fsc : sProp 𝕄)) = (gr5_9M.view.loc (c : Thread nD τ) ↦[gr5_9M.view.set]{fullShare} fsc) from rfl)) $$ HS9
  ihave HS10 := (Entails.of_eq (show ((gsc5M.view.loc (c : Thread nD τ) ↦[gr5_10M.view.set]{fullShare} fsc : sProp 𝕄)) = (gr5_10M.view.loc (c : Thread nD τ) ↦[gr5_10M.view.set]{fullShare} fsc) from rfl)) $$ HS10
  ihave HS11 := (Entails.of_eq (show ((gsc5M.view.loc (c : Thread nD τ) ↦[gr5_11M.view.set]{fullShare} fsc : sProp 𝕄)) = (gr5_11M.view.loc (c : Thread nD τ) ↦[gr5_11M.view.set]{fullShare} fsc) from rfl)) $$ HS11
  ihave HS12 := (Entails.of_eq (show ((gsc5M.view.loc (c : Thread nD τ) ↦[gr5_12M.view.set]{fullShare} fsc : sProp 𝕄)) = (gr5_12M.view.loc (c : Thread nD τ) ↦[gr5_12M.view.set]{fullShare} fsc) from rfl)) $$ HS12
  ihave HS13 := (Entails.of_eq (show ((gsc5M.view.loc (c : Thread nD τ) ↦[gr5_13M.view.set]{fullShare} fsc : sProp 𝕄)) = (gr5_13M.view.loc (c : Thread nD τ) ↦[gr5_13M.view.set]{fullShare} fsc) from rfl)) $$ HS13
  ihave HS14 := (Entails.of_eq (show ((gsc5M.view.loc (c : Thread nD τ) ↦[gr5_14M.view.set]{fullShare} fsc : sProp 𝕄)) = (gr5_14M.view.loc (c : Thread nD τ) ↦[gr5_14M.view.set]{fullShare} fsc) from rfl)) $$ HS14
  ihave HS15 := (Entails.of_eq (show ((gsc5M.view.loc (c : Thread nD τ) ↦[gr5_15M.view.set]{fullShare} fsc : sProp 𝕄)) = (gr5_15M.view.loc (c : Thread nD τ) ↦[gr5_15M.view.set]{fullShare} fsc) from rfl)) $$ HS15
  ihave HB := (split16 (ℓ := ghb5M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join5 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))).toNat, hlt0⟩ : Fin 50000) (0 : Fin 1) l) :=
    row_landed5 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))).toNat, hlt1⟩ : Fin 50000) (0 : Fin 1) l) :=
    row_landed5 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))).toNat, hlt2⟩ : Fin 50000) (0 : Fin 1) l) :=
    row_landed5 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))).toNat, hlt3⟩ : Fin 50000) (0 : Fin 1) l) :=
    row_landed5 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))).toNat, hlt4⟩ : Fin 50000) (0 : Fin 1) l) :=
    row_landed5 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))).toNat, hlt5⟩ : Fin 50000) (0 : Fin 1) l) :=
    row_landed5 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))).toNat, hlt6⟩ : Fin 50000) (0 : Fin 1) l) :=
    row_landed5 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))).toNat, hlt7⟩ : Fin 50000) (0 : Fin 1) l) :=
    row_landed5 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))).toNat, hlt8⟩ : Fin 50000) (0 : Fin 1) l) :=
    row_landed5 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))).toNat, hlt9⟩ : Fin 50000) (0 : Fin 1) l) :=
    row_landed5 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))).toNat, hlt10⟩ : Fin 50000) (0 : Fin 1) l) :=
    row_landed5 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))).toNat, hlt11⟩ : Fin 50000) (0 : Fin 1) l) :=
    row_landed5 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))).toNat, hlt12⟩ : Fin 50000) (0 : Fin 1) l) :=
    row_landed5 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))).toNat, hlt13⟩ : Fin 50000) (0 : Fin 1) l) :=
    row_landed5 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))).toNat, hlt14⟩ : Fin 50000) (0 : Fin 1) l) :=
    row_landed5 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))).toNat, hlt15⟩ : Fin 50000) (0 : Fin 1) l) :=
    row_landed5 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load5]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb5M).IsWhole).read_unread _
  isplitl [Hh0 Hh1 Hh2 Hh3 Hh4 Hh5 Hh6 Hh7 Hh8 Hh9 Hh10 Hh11 Hh12 Hh13 Hh14 Hh15]
  · iapply (join16 (ℓ := ghb5M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather5.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 5's own DMA semaphores: one per row of the step. -/
abbrev gsem5 : Fin 16 → SemLoc sig := fun j =>
  (![SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107] : Fin 16 → SemLoc sig) j
theorem gsemFacts5 : Pipeline.OwnSemFacts spec5 gsem5 := by decide

/-- The buffers the body reads without a window: the node table in HBM and its chunk of the edge-source table. -/
def gH5 : Finset (Ref sig .tc) := {main_v0, main_v11}
theorem gH5_sub : gH5 ⊆ Pipeline.restRefs sig spec5 := by decide

/-- The call's prefetched table at the contents the region finds. -/
def gadm5 (c : Dev nD) : (pcfg5 (F := F)).Adm := ⟨fun k => match k with | ⟨0, _⟩ => V c main_v11, trivial⟩

/-- The proof data of gather call 5 on core `c`: the output array as found; after step `t` the output block holds
    the gathered rows; the invariant carries the scratch, the call's semaphores at zero and the two tables as found. -/
def gdat5 (a : (pcfg5 (F := F)).Adm) (c : Dev nD) : Dat τ (Elt F) Unit ℕ (Pipeline.UD sig nD τ) ℕ (cfg5 a) c where
  A w := V c (Pipeline.arrRef spec5 w)
  after w t := match w with
    | ⟨0, _⟩ => gblock (V c main_v0) (V c main_v11) t.val
  Φ _ := Pipeline.ΦD gsem5 spec5 gH5 V c
  q _ := fullShare
  owed _ := 0

theorem gdat5_A (a : (pcfg5 (F := F)).Adm) (c : Dev nD) (w : Fin (cfg5 a).W) :
    (gdat5 V a c).A w = V c (Pipeline.arrRef spec5 w) := by dsimp only [gdat5]
theorem gdat5_after (a : (pcfg5 (F := F)).Adm) (c : Dev nD) (t : Fin (cfg5 a).N) :
    (gdat5 V a c).after 0 t = gblock (V c main_v0) (V c main_v11) t.val := rfl

/-! ## The body obligation, from the body's run -/

/-- The call's scratch buffer whole at some contents, said of the buffer and said through the whole-buffer memref. -/
theorem gsc5_whole (c : Dev nD) :
    (iprop(∃ f, gsc5M.view.loc (c : Thread nD τ) ↦[gsc5M.view.set]{fullShare} f) : sProp 𝕄)
      = iprop(∃ f : Buf (Elt F) ((c : Thread nD τ).loc cc5_scratch0), ((c : Thread nD τ).loc cc5_scratch0) ↦{fullShare} f) := by
  simp only [gsc5M, Memref.view_whole, View.set_whole]

/-- The region invariant of gather call 5, conjunct by conjunct: the call's scratch buffer whole at some contents beside
    the scoped buffers it does not touch, the generator register at some state, its sixteen semaphores at zero, and
    the two tables whole at the contents the region finds. -/
theorem PhiD5_eq (c : Dev nD) :
    (Pipeline.ΦD gsem5 spec5 gH5 V c : sProp 𝕄)
      = iprop(iprop((∃ f, gsc5M.view.loc (c : Thread nD τ) ↦[gsc5M.view.set]{fullShare} f)
            ∗ Pipeline.scopedRestBut (Ix := Unit) (Name := ℕ) (U := Pipeline.UD sig nD τ) (Lvl := ℕ) (Val := Elt F) spec5 c [cc5_scratch0])
          ∗ (∃ r, prngReg c r)
          ∗ iprop(semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0)
          ∗ iprop((ghb5M.view.loc (c : Thread nD τ) ↦{fullShare} V c main_v0) ∗ owns (c : Thread nD τ) gtb5M fullShare (V c main_v11))) := by
  rw [gsc5_whole, owns_whole, Pipeline.ΦD_eq, scopedRest5_split,
    Pipeline.ownSems0_eq_of_list c gsem5 [0, 1, 2, 3, 4, 5, 6, 7, 8, 9, 10, 11, 12, 13, 14, 15] (by decide) (by decide),
    BI.bigSep_eq_bigSepL_of_eq [main_v0, main_v11] (by decide) (by decide)]
  rfl

/-- The kernel body of gather call 5 as the pipeline calls it at point `t`: the step's coordinates, the two tables whole,
    the output window's current staging buffer, the scratch buffer and the sixteen semaphores. -/
abbrev gbodyAt5 (a : (pcfg5 (F := F)).Adm) (t : Fin (cfg5 a).N) : Prog (TpuEff nD τ sig (Elt F) Λ₀ .tc) PUnit :=
  cc5__gather_kernel ((cfg5 a).grid.coords t) gtb5M (Memref.isWhole_whole _) ghb5M (Memref.isWhole_whole _)
    (spec5_0.stage ((cfg5 a).slots t 0)) (hstage5_0 (((cfg5 a).slots t 0).cast nbuf5_0)) gsc5M (Memref.isWhole_whole _) cc5_scratch1

/-- The grid is one axis of 4000 steps: the step's one coordinate is its number. -/
theorem gcoord5 (a : (pcfg5 (F := F)).Adm) (t : Fin (cfg5 a).N) : (((cfg5 a).grid.coords t) 0).val = t.val := by
  have ht : t.val < 4000 := lt_of_lt_of_eq t.isLt N_5
  show t.val / 1 % 4000 = t.val
  omega

/-- What the body is called with at point `t`: the invariant, the core's `owes`, the output window's current staging
    buffer at whatever it holds, -/
def gbodyPre5 (a : (pcfg5 (F := F)).Adm) (c : Dev nD) (t : Fin (cfg5 a).N) : sProp 𝕄 :=
  iprop((gdat5 V a c).Φ t.castSucc ∗ (gdat5 V a c).owesAt () t.castSucc
    ∗ (∃ d, owns (c : Thread nD τ) (spec5_0.stage ((cfg5 a).slots t 0)) fullShare ((gdat5 V a c).before 0 t d)))

/-- and what it returns: the invariant, `owes`, the staging buffer at the step's gathered rows. -/
def gbodyPost5 (a : (pcfg5 (F := F)).Adm) (c : Dev nD) (t : Fin (cfg5 a).N) : sProp 𝕄 :=
  iprop((gdat5 V a c).Φ t.succ ∗ (gdat5 V a c).owesAt () t.succ
    ∗ owns (c : Thread nD τ) (spec5_0.stage ((cfg5 a).slots t 0)) fullShare ((gdat5 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body5 (a : (pcfg5 (F := F)).Adm) (c : Dev nD)
    (hok : ∀ e : S64000.Idx, (V c main_v11 e).toNat < 50000) (t : Fin (cfg5 a).N) :
    gbodyPre5 V a c t ⊢ wp frame (wpE (defs₀ (F := F)) Variants.none c none) Set.univ (gbodyAt5 a t) (fun _ => gbodyPost5 V a c t) := by
  unfold gbodyPre5 gbodyPost5 gbodyAt5
  rw [show (gdat5 V a c).Φ t.succ = Pipeline.ΦD gsem5 spec5 gH5 V c from rfl,
    show (gdat5 V a c).Φ t.castSucc = Pipeline.ΦD gsem5 spec5 gH5 V c from rfl, gdat5_after, PhiD5_eq]
  unfold Dat.owesAt Pipeline.owesWithin
  rw [show (gdat5 V a c).owed t.castSucc = 0 from rfl, show (gdat5 V a c).owed t.succ = 0 from rfl]
  have hrun := fun W K => gather_run5 (F := F) c ((cfg5 a).grid.coords t) (spec5_0.stage ((cfg5 a).slots t 0))
    (hstage5_0 (((cfg5 a).slots t 0).cast nbuf5_0)) (V c main_v11) (V c main_v0) hok W K
  rw [gcoord5 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 5, when every word of its table names a row of the node table. -/
theorem gather_obligation5 (a : (pcfg5 (F := F)).Adm) (c : Dev nD)
    (hok : ∀ e : S64000.Idx, (V c main_v11 e).toNat < 50000) :
    BodyObligation (gdat5 (F := F) V a c) (defs₀ (F := F)) Variants.none () Set.univ := fun t => by
  rw [bigSep_W5, bigSep_W5]
  exact gsound_body5 V a c hok t

end

end Cert.KernelIdeal.Hand

end
-- ==== Proof.RowsJoin6.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 6's scratch buffer, whole, and its sixteen rows as the body addresses them. -/
abbrev gsc6M : Memref sig .tc .vmem S16x1x128 .f32 := Memref.whole cc6_scratch0
abbrev gr6_0M : Memref sig .tc .vmem S1x128 .f32 := ((Memref.whole cc6_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr6_1M : Memref sig .tc .vmem S1x128 .f32 := ((Memref.whole cc6_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr6_2M : Memref sig .tc .vmem S1x128 .f32 := ((Memref.whole cc6_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr6_3M : Memref sig .tc .vmem S1x128 .f32 := ((Memref.whole cc6_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr6_4M : Memref sig .tc .vmem S1x128 .f32 := ((Memref.whole cc6_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr6_5M : Memref sig .tc .vmem S1x128 .f32 := ((Memref.whole cc6_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr6_6M : Memref sig .tc .vmem S1x128 .f32 := ((Memref.whole cc6_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr6_7M : Memref sig .tc .vmem S1x128 .f32 := ((Memref.whole cc6_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr6_8M : Memref sig .tc .vmem S1x128 .f32 := ((Memref.whole cc6_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr6_9M : Memref sig .tc .vmem S1x128 .f32 := ((Memref.whole cc6_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr6_10M : Memref sig .tc .vmem S1x128 .f32 := ((Memref.whole cc6_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr6_11M : Memref sig .tc .vmem S1x128 .f32 := ((Memref.whole cc6_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr6_12M : Memref sig .tc .vmem S1x128 .f32 := ((Memref.whole cc6_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr6_13M : Memref sig .tc .vmem S1x128 .f32 := ((Memref.whole cc6_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr6_14M : Memref sig .tc .vmem S1x128 .f32 := ((Memref.whole cc6_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr6_15M : Memref sig .tc .vmem S1x128 .f32 := ((Memref.whole cc6_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr6_0M.view.set = rowSet (0 : Fin 16) := by
  refine (View.set_reshape _ _).trans ?_
  refine (View.set_slice_whole _ _).trans ?_
  rfl
private theorem row_set_1 : gr6_1M.view.set = rowSet (1 : Fin 16) := by
  refine (View.set_reshape _ _).trans ?_
  refine (View.set_slice_whole _ _).trans ?_
  rfl
private theorem row_set_2 : gr6_2M.view.set = rowSet (2 : Fin 16) := by
  refine (View.set_reshape _ _).trans ?_
  refine (View.set_slice_whole _ _).trans ?_
  rfl
private theorem row_set_3 : gr6_3M.view.set = rowSet (3 : Fin 16) := by
  refine (View.set_reshape _ _).trans ?_
  refine (View.set_slice_whole _ _).trans ?_
  rfl
private theorem row_set_4 : gr6_4M.view.set = rowSet (4 : Fin 16) := by
  refine (View.set_reshape _ _).trans ?_
  refine (View.set_slice_whole _ _).trans ?_
  rfl
private theorem row_set_5 : gr6_5M.view.set = rowSet (5 : Fin 16) := by
  refine (View.set_reshape _ _).trans ?_
  refine (View.set_slice_whole _ _).trans ?_
  rfl
private theorem row_set_6 : gr6_6M.view.set = rowSet (6 : Fin 16) := by
  refine (View.set_reshape _ _).trans ?_
  refine (View.set_slice_whole _ _).trans ?_
  rfl
private theorem row_set_7 : gr6_7M.view.set = rowSet (7 : Fin 16) := by
  refine (View.set_reshape _ _).trans ?_
  refine (View.set_slice_whole _ _).trans ?_
  rfl
private theorem row_set_8 : gr6_8M.view.set = rowSet (8 : Fin 16) := by
  refine (View.set_reshape _ _).trans ?_
  refine (View.set_slice_whole _ _).trans ?_
  rfl
private theorem row_set_9 : gr6_9M.view.set = rowSet (9 : Fin 16) := by
  refine (View.set_reshape _ _).trans ?_
  refine (View.set_slice_whole _ _).trans ?_
  rfl
private theorem row_set_10 : gr6_10M.view.set = rowSet (10 : Fin 16) := by
  refine (View.set_reshape _ _).trans ?_
  refine (View.set_slice_whole _ _).trans ?_
  rfl
private theorem row_set_11 : gr6_11M.view.set = rowSet (11 : Fin 16) := by
  refine (View.set_reshape _ _).trans ?_
  refine (View.set_slice_whole _ _).trans ?_
  rfl
private theorem row_set_12 : gr6_12M.view.set = rowSet (12 : Fin 16) := by
  refine (View.set_reshape _ _).trans ?_
  refine (View.set_slice_whole _ _).trans ?_
  rfl
private theorem row_set_13 : gr6_13M.view.set = rowSet (13 : Fin 16) := by
  refine (View.set_reshape _ _).trans ?_
  refine (View.set_slice_whole _ _).trans ?_
  rfl
private theorem row_set_14 : gr6_14M.view.set = rowSet (14 : Fin 16) := by
  refine (View.set_reshape _ _).trans ?_
  refine (View.set_slice_whole _ _).trans ?_
  rfl
private theorem row_set_15 : gr6_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join6 (c : Dev nD) (f0 f1 f2 f3 f4 f5 f6 f7 f8 f9 f10 f11 f12 f13 f14 f15 : Buf (Elt F) (gsc6M.view.loc (c : Thread nD τ))) :
    (iprop((gsc6M.view.loc (c : Thread nD τ) ↦[gr6_0M.view.set]{fullShare} f0)
        ∗ (gsc6M.view.loc (c : Thread nD τ) ↦[gr6_1M.view.set]{fullShare} f1)
        ∗ (gsc6M.view.loc (c : Thread nD τ) ↦[gr6_2M.view.set]{fullShare} f2)
        ∗ (gsc6M.view.loc (c : Thread nD τ) ↦[gr6_3M.view.set]{fullShare} f3)
        ∗ (gsc6M.view.loc (c : Thread nD τ) ↦[gr6_4M.view.set]{fullShare} f4)
        ∗ (gsc6M.view.loc (c : Thread nD τ) ↦[gr6_5M.view.set]{fullShare} f5)
        ∗ (gsc6M.view.loc (c : Thread nD τ) ↦[gr6_6M.view.set]{fullShare} f6)
        ∗ (gsc6M.view.loc (c : Thread nD τ) ↦[gr6_7M.view.set]{fullShare} f7)
        ∗ (gsc6M.view.loc (c : Thread nD τ) ↦[gr6_8M.view.set]{fullShare} f8)
        ∗ (gsc6M.view.loc (c : Thread nD τ) ↦[gr6_9M.view.set]{fullShare} f9)
        ∗ (gsc6M.view.loc (c : Thread nD τ) ↦[gr6_10M.view.set]{fullShare} f10)
        ∗ (gsc6M.view.loc (c : Thread nD τ) ↦[gr6_11M.view.set]{fullShare} f11)
        ∗ (gsc6M.view.loc (c : Thread nD τ) ↦[gr6_12M.view.set]{fullShare} f12)
        ∗ (gsc6M.view.loc (c : Thread nD τ) ↦[gr6_13M.view.set]{fullShare} f13)
        ∗ (gsc6M.view.loc (c : Thread nD τ) ↦[gr6_14M.view.set]{fullShare} f14)
        ∗ (gsc6M.view.loc (c : Thread nD τ) ↦[gr6_15M.view.set]{fullShare} f15)) : sProp 𝕄)
      ⊢ iprop(∃ g : Buf (Elt F) (gsc6M.view.loc (c : Thread nD τ)),
          ⌜(∀ i ∈ gr6_0M.view.set, g i = f0 i)
            ∧ (∀ i ∈ gr6_1M.view.set, g i = f1 i)
            ∧ (∀ i ∈ gr6_2M.view.set, g i = f2 i)
            ∧ (∀ i ∈ gr6_3M.view.set, g i = f3 i)
            ∧ (∀ i ∈ gr6_4M.view.set, g i = f4 i)
            ∧ (∀ i ∈ gr6_5M.view.set, g i = f5 i)
            ∧ (∀ i ∈ gr6_6M.view.set, g i = f6 i)
            ∧ (∀ i ∈ gr6_7M.view.set, g i = f7 i)
            ∧ (∀ i ∈ gr6_8M.view.set, g i = f8 i)
            ∧ (∀ i ∈ gr6_9M.view.set, g i = f9 i)
            ∧ (∀ i ∈ gr6_10M.view.set, g i = f10 i)
            ∧ (∀ i ∈ gr6_11M.view.set, g i = f11 i)
            ∧ (∀ i ∈ gr6_12M.view.set, g i = f12 i)
            ∧ (∀ i ∈ gr6_13M.view.set, g i = f13 i)
            ∧ (∀ i ∈ gr6_14M.view.set, g i = f14 i)
            ∧ (∀ i ∈ gr6_15M.view.set, g i = f15 i)⌝
          ∗ (gsc6M.view.loc (c : Thread nD τ) ↦[gsc6M.view.set]{fullShare} g)) := by
  have hw : gsc6M.view.set = Finset.univ.biUnion rowSet := (View.set_whole _).trans rowSet_cover.symm
  exact join16 (ℓ := gsc6M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split6 (c : Dev nD) (f : Buf (Elt F) (gsc6M.view.loc (c : Thread nD τ))) :
    (gsc6M.view.loc (c : Thread nD τ) ↦[gsc6M.view.set]{fullShare} f : sProp 𝕄)
      ⊢ iprop((gsc6M.view.loc (c : Thread nD τ) ↦[gr6_0M.view.set]{fullShare} f)
        ∗ (gsc6M.view.loc (c : Thread nD τ) ↦[gr6_1M.view.set]{fullShare} f)
        ∗ (gsc6M.view.loc (c : Thread nD τ) ↦[gr6_2M.view.set]{fullShare} f)
        ∗ (gsc6M.view.loc (c : Thread nD τ) ↦[gr6_3M.view.set]{fullShare} f)
        ∗ (gsc6M.view.loc (c : Thread nD τ) ↦[gr6_4M.view.set]{fullShare} f)
        ∗ (gsc6M.view.loc (c : Thread nD τ) ↦[gr6_5M.view.set]{fullShare} f)
        ∗ (gsc6M.view.loc (c : Thread nD τ) ↦[gr6_6M.view.set]{fullShare} f)
        ∗ (gsc6M.view.loc (c : Thread nD τ) ↦[gr6_7M.view.set]{fullShare} f)
        ∗ (gsc6M.view.loc (c : Thread nD τ) ↦[gr6_8M.view.set]{fullShare} f)
        ∗ (gsc6M.view.loc (c : Thread nD τ) ↦[gr6_9M.view.set]{fullShare} f)
        ∗ (gsc6M.view.loc (c : Thread nD τ) ↦[gr6_10M.view.set]{fullShare} f)
        ∗ (gsc6M.view.loc (c : Thread nD τ) ↦[gr6_11M.view.set]{fullShare} f)
        ∗ (gsc6M.view.loc (c : Thread nD τ) ↦[gr6_12M.view.set]{fullShare} f)
        ∗ (gsc6M.view.loc (c : Thread nD τ) ↦[gr6_13M.view.set]{fullShare} f)
        ∗ (gsc6M.view.loc (c : Thread nD τ) ↦[gr6_14M.view.set]{fullShare} f)
        ∗ (gsc6M.view.loc (c : Thread nD τ) ↦[gr6_15M.view.set]{fullShare} f)) := by
  have hw : gsc6M.view.set = Finset.univ.biUnion rowSet := (View.set_whole _).trans rowSet_cover.symm
  exact split16 (ℓ := gsc6M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows6.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin6
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 6's chunk of the edge-source table in scalar memory, whole. -/
abbrev ghb6M : Memref sig .tc .hbm S50000x1x128 .f32 := Memref.whole main_v0
abbrev gtb6M : Memref sig .tc .smem S64000 .i32 := Memref.whole main_v13

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc6M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb6M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed6 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb6M.view.loc (c : Thread nD τ))) (fs g : Buf (Elt F) (gsc6M.view.loc (c : Thread nD τ)))
    (hg : ∀ i ∈ ((gsc6M.slice (Rect.unit (s := S16x1x128) ![j, 0, 0] S1x1x128.size inb) (fun _ => rfl)).squeeze S1x128 squeezes_S1x1x128_S1x128).view.set,
        g i = ((gsc6M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb6M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc6M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb6M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load6 (c : Dev nD) (g : Buf (Elt F) (gsc6M.view.loc (c : Thread nD τ))) (y : S16x1x128.Idx) :
    View.readAt (Elt F) gsc6M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word6 (pf : S64000.Idx → Elt F .i32) (off : Fin 1 → ℕ) (inb : ∀ a, off a + S1.size a ≤ S64000.size a)
    (n : ℕ) (hn : n < 64000) (hoff : off 0 = n) :
    View.readAt (Elt F) gtb6M.view (Rect.unit (s := S64000) off S1.size inb).toLoadRect
        ((Memref.isWhole_whole _ : gtb6M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs6 (i : grid6.Coords) :
    (k6_off1 i) 0 = 16 * (i 0).val + 0
    ∧ (k6_off3 i) 0 = 16 * (i 0).val + 1
    ∧ (k6_off5 i) 0 = 16 * (i 0).val + 2
    ∧ (k6_off7 i) 0 = 16 * (i 0).val + 3
    ∧ (k6_off9 i) 0 = 16 * (i 0).val + 4
    ∧ (k6_off11 i) 0 = 16 * (i 0).val + 5
    ∧ (k6_off13 i) 0 = 16 * (i 0).val + 6
    ∧ (k6_off15 i) 0 = 16 * (i 0).val + 7
    ∧ (k6_off17 i) 0 = 16 * (i 0).val + 8
    ∧ (k6_off19 i) 0 = 16 * (i 0).val + 9
    ∧ (k6_off21 i) 0 = 16 * (i 0).val + 10
    ∧ (k6_off23 i) 0 = 16 * (i 0).val + 11
    ∧ (k6_off25 i) 0 = 16 * (i 0).val + 12
    ∧ (k6_off27 i) 0 = 16 * (i 0).val + 13
    ∧ (k6_off29 i) 0 = 16 * (i 0).val + 14
    ∧ (k6_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun6.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows6
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 6's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run6 (c : Dev nD) (i : grid6.Coords) (arg3 : Memref sig .tc .vmem S16x1x128 .f32) (harg3 : arg3.IsWhole)
    (pf : S64000.Idx → Elt F .i32) (tb : Buf (Elt F) (ghb6M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc6M.view.loc (c : Thread nD τ) ↦[gsc6M.view.set]{fullShare} f)
        ∗ owns (c : Thread nD τ) gtb6M fullShare pf
        ∗ (ghb6M.view.loc (c : Thread nD τ) ↦{fullShare} tb)
        ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0
        ∗ owes (c : Thread nD τ) 0 W
        ∗ (iprop(owns (c : Thread nD τ) arg3 fullShare (gblock tb pf (i 0).val)
            ∗ (∃ f, gsc6M.view.loc (c : Thread nD τ) ↦[gsc6M.view.set]{fullShare} f)
            ∗ owns (c : Thread nD τ) gtb6M fullShare pf
            ∗ (ghb6M.view.loc (c : Thread nD τ) ↦{fullShare} tb)
            ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0
            ∗ (∃ W', owes (c : Thread nD τ) 0 W')) -∗ K ⟨⟩))
      ⊢ wp frame (wpE (defs₀ (F := F)) Variants.none c none) Set.univ
          (cc6__gather_kernel i gtb6M (Memref.isWhole_whole _) ghb6M (Memref.isWhole_whole _) arg3 harg3 gsc6M (Memref.isWhole_whole _) cc6_scratch1) K := by
  have hi : (i 0).val < 4000 := (i 0).isLt
  have hoffs := table_offs6 i
  have hword0 : (View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))) = pf (ValueIdx.ix1 (⟨16 * (i 0).val + 0, by omega⟩ : Fin 64000)) :=
    table_word6 pf _ _ _ (by omega) hoffs.1
  have hlt0 : (View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))).toNat < 50000 := by rw [hword0]; exact hok _
  have hw1 : k6_chk1 (View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))) := ⟨chk_lt _ hlt0, chk_lt _ hlt0⟩
  have hword1 : (View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))) = pf (ValueIdx.ix1 (⟨16 * (i 0).val + 1, by omega⟩ : Fin 64000)) :=
    table_word6 pf _ _ _ (by omega) hoffs.2.1
  have hlt1 : (View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))).toNat < 50000 := by rw [hword1]; exact hok _
  have hw2 : k6_chk2 (View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))) := ⟨chk_lt _ hlt1, chk_lt _ hlt1⟩
  have hword2 : (View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))) = pf (ValueIdx.ix1 (⟨16 * (i 0).val + 2, by omega⟩ : Fin 64000)) :=
    table_word6 pf _ _ _ (by omega) hoffs.2.2.1
  have hlt2 : (View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))).toNat < 50000 := by rw [hword2]; exact hok _
  have hw3 : k6_chk3 (View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))) := ⟨chk_lt _ hlt2, chk_lt _ hlt2⟩
  have hword3 : (View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))) = pf (ValueIdx.ix1 (⟨16 * (i 0).val + 3, by omega⟩ : Fin 64000)) :=
    table_word6 pf _ _ _ (by omega) hoffs.2.2.2.1
  have hlt3 : (View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))).toNat < 50000 := by rw [hword3]; exact hok _
  have hw4 : k6_chk4 (View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))) := ⟨chk_lt _ hlt3, chk_lt _ hlt3⟩
  have hword4 : (View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))) = pf (ValueIdx.ix1 (⟨16 * (i 0).val + 4, by omega⟩ : Fin 64000)) :=
    table_word6 pf _ _ _ (by omega) hoffs.2.2.2.2.1
  have hlt4 : (View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))).toNat < 50000 := by rw [hword4]; exact hok _
  have hw5 : k6_chk5 (View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))) := ⟨chk_lt _ hlt4, chk_lt _ hlt4⟩
  have hword5 : (View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))) = pf (ValueIdx.ix1 (⟨16 * (i 0).val + 5, by omega⟩ : Fin 64000)) :=
    table_word6 pf _ _ _ (by omega) hoffs.2.2.2.2.2.1
  have hlt5 : (View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))).toNat < 50000 := by rw [hword5]; exact hok _
  have hw6 : k6_chk6 (View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))) := ⟨chk_lt _ hlt5, chk_lt _ hlt5⟩
  have hword6 : (View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))) = pf (ValueIdx.ix1 (⟨16 * (i 0).val + 6, by omega⟩ : Fin 64000)) :=
    table_word6 pf _ _ _ (by omega) hoffs.2.2.2.2.2.2.1
  have hlt6 : (View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))).toNat < 50000 := by rw [hword6]; exact hok _
  have hw7 : k6_chk7 (View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))) := ⟨chk_lt _ hlt6, chk_lt _ hlt6⟩
  have hword7 : (View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))) = pf (ValueIdx.ix1 (⟨16 * (i 0).val + 7, by omega⟩ : Fin 64000)) :=
    table_word6 pf _ _ _ (by omega) hoffs.2.2.2.2.2.2.2.1
  have hlt7 : (View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))).toNat < 50000 := by rw [hword7]; exact hok _
  have hw8 : k6_chk8 (View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))) := ⟨chk_lt _ hlt7, chk_lt _ hlt7⟩
  have hword8 : (View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))) = pf (ValueIdx.ix1 (⟨16 * (i 0).val + 8, by omega⟩ : Fin 64000)) :=
    table_word6 pf _ _ _ (by omega) hoffs.2.2.2.2.2.2.2.2.1
  have hlt8 : (View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))).toNat < 50000 := by rw [hword8]; exact hok _
  have hw9 : k6_chk9 (View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))) := ⟨chk_lt _ hlt8, chk_lt _ hlt8⟩
  have hword9 : (View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))) = pf (ValueIdx.ix1 (⟨16 * (i 0).val + 9, by omega⟩ : Fin 64000)) :=
    table_word6 pf _ _ _ (by omega) hoffs.2.2.2.2.2.2.2.2.2.1
  have hlt9 : (View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))).toNat < 50000 := by rw [hword9]; exact hok _
  have hw10 : k6_chk10 (View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))) := ⟨chk_lt _ hlt9, chk_lt _ hlt9⟩
  have hword10 : (View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))) = pf (ValueIdx.ix1 (⟨16 * (i 0).val + 10, by omega⟩ : Fin 64000)) :=
    table_word6 pf _ _ _ (by omega) hoffs.2.2.2.2.2.2.2.2.2.2.1
  have hlt10 : (View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))).toNat < 50000 := by rw [hword10]; exact hok _
  have hw11 : k6_chk11 (View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))) := ⟨chk_lt _ hlt10, chk_lt _ hlt10⟩
  have hword11 : (View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))) = pf (ValueIdx.ix1 (⟨16 * (i 0).val + 11, by omega⟩ : Fin 64000)) :=
    table_word6 pf _ _ _ (by omega) hoffs.2.2.2.2.2.2.2.2.2.2.2.1
  have hlt11 : (View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))).toNat < 50000 := by rw [hword11]; exact hok _
  have hw12 : k6_chk12 (View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))) := ⟨chk_lt _ hlt11, chk_lt _ hlt11⟩
  have hword12 : (View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))) = pf (ValueIdx.ix1 (⟨16 * (i 0).val + 12, by omega⟩ : Fin 64000)) :=
    table_word6 pf _ _ _ (by omega) hoffs.2.2.2.2.2.2.2.2.2.2.2.2.1
  have hlt12 : (View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))).toNat < 50000 := by rw [hword12]; exact hok _
  have hw13 : k6_chk13 (View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))) := ⟨chk_lt _ hlt12, chk_lt _ hlt12⟩
  have hword13 : (View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))) = pf (ValueIdx.ix1 (⟨16 * (i 0).val + 13, by omega⟩ : Fin 64000)) :=
    table_word6 pf _ _ _ (by omega) hoffs.2.2.2.2.2.2.2.2.2.2.2.2.2.1
  have hlt13 : (View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))).toNat < 50000 := by rw [hword13]; exact hok _
  have hw14 : k6_chk14 (View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))) := ⟨chk_lt _ hlt13, chk_lt _ hlt13⟩
  have hword14 : (View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))) = pf (ValueIdx.ix1 (⟨16 * (i 0).val + 14, by omega⟩ : Fin 64000)) :=
    table_word6 pf _ _ _ (by omega) hoffs.2.2.2.2.2.2.2.2.2.2.2.2.2.2.1
  have hlt14 : (View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))).toNat < 50000 := by rw [hword14]; exact hok _
  have hw15 : k6_chk15 (View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))) := ⟨chk_lt _ hlt14, chk_lt _ hlt14⟩
  have hword15 : (View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))) = pf (ValueIdx.ix1 (⟨16 * (i 0).val + 15, by omega⟩ : Fin 64000)) :=
    table_word6 pf _ _ _ (by omega) hoffs.2.2.2.2.2.2.2.2.2.2.2.2.2.2.2
  have hlt15 : (View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))).toNat < 50000 := by rw [hword15]; exact hok _
  have hw16 : k6_chk16 (View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))) := chk_lt _ hlt15
  rw [cc6__gather_kernel_eq_skeleton]; unfold cc6__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb6M).IsWhole).eq_unread hfp
  ihave HR := (rows_split6 (F := F) c fsc) $$ HSC
  icases HR with ⟨HS0, HS1, HS2, HS3, HS4, HS5, HS6, HS7, HS8, HS9, HS10, HS11, HS12, HS13, HS14, HS15⟩
  ihave HS0 := (Entails.of_eq (show ((gsc6M.view.loc (c : Thread nD τ) ↦[gr6_0M.view.set]{fullShare} fsc : sProp 𝕄)) = (gr6_0M.view.loc (c : Thread nD τ) ↦[gr6_0M.view.set]{fullShare} fsc) from rfl)) $$ HS0
  ihave HS1 := (Entails.of_eq (show ((gsc6M.view.loc (c : Thread nD τ) ↦[gr6_1M.view.set]{fullShare} fsc : sProp 𝕄)) = (gr6_1M.view.loc (c : Thread nD τ) ↦[gr6_1M.view.set]{fullShare} fsc) from rfl)) $$ HS1
  ihave HS2 := (Entails.of_eq (show ((gsc6M.view.loc (c : Thread nD τ) ↦[gr6_2M.view.set]{fullShare} fsc : sProp 𝕄)) = (gr6_2M.view.loc (c : Thread nD τ) ↦[gr6_2M.view.set]{fullShare} fsc) from rfl)) $$ HS2
  ihave HS3 := (Entails.of_eq (show ((gsc6M.view.loc (c : Thread nD τ) ↦[gr6_3M.view.set]{fullShare} fsc : sProp 𝕄)) = (gr6_3M.view.loc (c : Thread nD τ) ↦[gr6_3M.view.set]{fullShare} fsc) from rfl)) $$ HS3
  ihave HS4 := (Entails.of_eq (show ((gsc6M.view.loc (c : Thread nD τ) ↦[gr6_4M.view.set]{fullShare} fsc : sProp 𝕄)) = (gr6_4M.view.loc (c : Thread nD τ) ↦[gr6_4M.view.set]{fullShare} fsc) from rfl)) $$ HS4
  ihave HS5 := (Entails.of_eq (show ((gsc6M.view.loc (c : Thread nD τ) ↦[gr6_5M.view.set]{fullShare} fsc : sProp 𝕄)) = (gr6_5M.view.loc (c : Thread nD τ) ↦[gr6_5M.view.set]{fullShare} fsc) from rfl)) $$ HS5
  ihave HS6 := (Entails.of_eq (show ((gsc6M.view.loc (c : Thread nD τ) ↦[gr6_6M.view.set]{fullShare} fsc : sProp 𝕄)) = (gr6_6M.view.loc (c : Thread nD τ) ↦[gr6_6M.view.set]{fullShare} fsc) from rfl)) $$ HS6
  ihave HS7 := (Entails.of_eq (show ((gsc6M.view.loc (c : Thread nD τ) ↦[gr6_7M.view.set]{fullShare} fsc : sProp 𝕄)) = (gr6_7M.view.loc (c : Thread nD τ) ↦[gr6_7M.view.set]{fullShare} fsc) from rfl)) $$ HS7
  ihave HS8 := (Entails.of_eq (show ((gsc6M.view.loc (c : Thread nD τ) ↦[gr6_8M.view.set]{fullShare} fsc : sProp 𝕄)) = (gr6_8M.view.loc (c : Thread nD τ) ↦[gr6_8M.view.set]{fullShare} fsc) from rfl)) $$ HS8
  ihave HS9 := (Entails.of_eq (show ((gsc6M.view.loc (c : Thread nD τ) ↦[gr6_9M.view.set]{fullShare} fsc : sProp 𝕄)) = (gr6_9M.view.loc (c : Thread nD τ) ↦[gr6_9M.view.set]{fullShare} fsc) from rfl)) $$ HS9
  ihave HS10 := (Entails.of_eq (show ((gsc6M.view.loc (c : Thread nD τ) ↦[gr6_10M.view.set]{fullShare} fsc : sProp 𝕄)) = (gr6_10M.view.loc (c : Thread nD τ) ↦[gr6_10M.view.set]{fullShare} fsc) from rfl)) $$ HS10
  ihave HS11 := (Entails.of_eq (show ((gsc6M.view.loc (c : Thread nD τ) ↦[gr6_11M.view.set]{fullShare} fsc : sProp 𝕄)) = (gr6_11M.view.loc (c : Thread nD τ) ↦[gr6_11M.view.set]{fullShare} fsc) from rfl)) $$ HS11
  ihave HS12 := (Entails.of_eq (show ((gsc6M.view.loc (c : Thread nD τ) ↦[gr6_12M.view.set]{fullShare} fsc : sProp 𝕄)) = (gr6_12M.view.loc (c : Thread nD τ) ↦[gr6_12M.view.set]{fullShare} fsc) from rfl)) $$ HS12
  ihave HS13 := (Entails.of_eq (show ((gsc6M.view.loc (c : Thread nD τ) ↦[gr6_13M.view.set]{fullShare} fsc : sProp 𝕄)) = (gr6_13M.view.loc (c : Thread nD τ) ↦[gr6_13M.view.set]{fullShare} fsc) from rfl)) $$ HS13
  ihave HS14 := (Entails.of_eq (show ((gsc6M.view.loc (c : Thread nD τ) ↦[gr6_14M.view.set]{fullShare} fsc : sProp 𝕄)) = (gr6_14M.view.loc (c : Thread nD τ) ↦[gr6_14M.view.set]{fullShare} fsc) from rfl)) $$ HS14
  ihave HS15 := (Entails.of_eq (show ((gsc6M.view.loc (c : Thread nD τ) ↦[gr6_15M.view.set]{fullShare} fsc : sProp 𝕄)) = (gr6_15M.view.loc (c : Thread nD τ) ↦[gr6_15M.view.set]{fullShare} fsc) from rfl)) $$ HS15
  ihave HB := (split16 (ℓ := ghb6M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join6 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))).toNat, hlt0⟩ : Fin 50000) (0 : Fin 1) l) :=
    row_landed6 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))).toNat, hlt1⟩ : Fin 50000) (0 : Fin 1) l) :=
    row_landed6 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))).toNat, hlt2⟩ : Fin 50000) (0 : Fin 1) l) :=
    row_landed6 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))).toNat, hlt3⟩ : Fin 50000) (0 : Fin 1) l) :=
    row_landed6 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))).toNat, hlt4⟩ : Fin 50000) (0 : Fin 1) l) :=
    row_landed6 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))).toNat, hlt5⟩ : Fin 50000) (0 : Fin 1) l) :=
    row_landed6 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))).toNat, hlt6⟩ : Fin 50000) (0 : Fin 1) l) :=
    row_landed6 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))).toNat, hlt7⟩ : Fin 50000) (0 : Fin 1) l) :=
    row_landed6 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))).toNat, hlt8⟩ : Fin 50000) (0 : Fin 1) l) :=
    row_landed6 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))).toNat, hlt9⟩ : Fin 50000) (0 : Fin 1) l) :=
    row_landed6 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))).toNat, hlt10⟩ : Fin 50000) (0 : Fin 1) l) :=
    row_landed6 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))).toNat, hlt11⟩ : Fin 50000) (0 : Fin 1) l) :=
    row_landed6 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))).toNat, hlt12⟩ : Fin 50000) (0 : Fin 1) l) :=
    row_landed6 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))).toNat, hlt13⟩ : Fin 50000) (0 : Fin 1) l) :=
    row_landed6 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))).toNat, hlt14⟩ : Fin 50000) (0 : Fin 1) l) :=
    row_landed6 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))).toNat, hlt15⟩ : Fin 50000) (0 : Fin 1) l) :=
    row_landed6 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load6]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb6M).IsWhole).read_unread _
  isplitl [Hh0 Hh1 Hh2 Hh3 Hh4 Hh5 Hh6 Hh7 Hh8 Hh9 Hh10 Hh11 Hh12 Hh13 Hh14 Hh15]
  · iapply (join16 (ℓ := ghb6M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather6.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 6's own DMA semaphores: one per row of the step. -/
abbrev gsem6 : Fin 16 → SemLoc sig := fun j =>
  (![SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125] : Fin 16 → SemLoc sig) j
theorem gsemFacts6 : Pipeline.OwnSemFacts spec6 gsem6 := by decide

/-- The buffers the body reads without a window: the node table in HBM and its chunk of the edge-source table. -/
def gH6 : Finset (Ref sig .tc) := {main_v0, main_v13}
theorem gH6_sub : gH6 ⊆ Pipeline.restRefs sig spec6 := by decide

/-- The call's prefetched table at the contents the region finds. -/
def gadm6 (c : Dev nD) : (pcfg6 (F := F)).Adm := ⟨fun k => match k with | ⟨0, _⟩ => V c main_v13, trivial⟩

/-- The proof data of gather call 6 on core `c`: the output array as found; after step `t` the output block holds
    the gathered rows; the invariant carries the scratch, the call's semaphores at zero and the two tables as found. -/
def gdat6 (a : (pcfg6 (F := F)).Adm) (c : Dev nD) : Dat τ (Elt F) Unit ℕ (Pipeline.UD sig nD τ) ℕ (cfg6 a) c where
  A w := V c (Pipeline.arrRef spec6 w)
  after w t := match w with
    | ⟨0, _⟩ => gblock (V c main_v0) (V c main_v13) t.val
  Φ _ := Pipeline.ΦD gsem6 spec6 gH6 V c
  q _ := fullShare
  owed _ := 0

theorem gdat6_A (a : (pcfg6 (F := F)).Adm) (c : Dev nD) (w : Fin (cfg6 a).W) :
    (gdat6 V a c).A w = V c (Pipeline.arrRef spec6 w) := by dsimp only [gdat6]
theorem gdat6_after (a : (pcfg6 (F := F)).Adm) (c : Dev nD) (t : Fin (cfg6 a).N) :
    (gdat6 V a c).after 0 t = gblock (V c main_v0) (V c main_v13) t.val := rfl

/-! ## The body obligation, from the body's run -/

/-- The call's scratch buffer whole at some contents, said of the buffer and said through the whole-buffer memref. -/
theorem gsc6_whole (c : Dev nD) :
    (iprop(∃ f, gsc6M.view.loc (c : Thread nD τ) ↦[gsc6M.view.set]{fullShare} f) : sProp 𝕄)
      = iprop(∃ f : Buf (Elt F) ((c : Thread nD τ).loc cc6_scratch0), ((c : Thread nD τ).loc cc6_scratch0) ↦{fullShare} f) := by
  simp only [gsc6M, Memref.view_whole, View.set_whole]

/-- The region invariant of gather call 6, conjunct by conjunct: the call's scratch buffer whole at some contents beside
    the scoped buffers it does not touch, the generator register at some state, its sixteen semaphores at zero, and
    the two tables whole at the contents the region finds. -/
theorem PhiD6_eq (c : Dev nD) :
    (Pipeline.ΦD gsem6 spec6 gH6 V c : sProp 𝕄)
      = iprop(iprop((∃ f, gsc6M.view.loc (c : Thread nD τ) ↦[gsc6M.view.set]{fullShare} f)
            ∗ Pipeline.scopedRestBut (Ix := Unit) (Name := ℕ) (U := Pipeline.UD sig nD τ) (Lvl := ℕ) (Val := Elt F) spec6 c [cc6_scratch0])
          ∗ (∃ r, prngReg c r)
          ∗ iprop(semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0)
          ∗ iprop((ghb6M.view.loc (c : Thread nD τ) ↦{fullShare} V c main_v0) ∗ owns (c : Thread nD τ) gtb6M fullShare (V c main_v13))) := by
  rw [gsc6_whole, owns_whole, Pipeline.ΦD_eq, scopedRest6_split,
    Pipeline.ownSems0_eq_of_list c gsem6 [0, 1, 2, 3, 4, 5, 6, 7, 8, 9, 10, 11, 12, 13, 14, 15] (by decide) (by decide),
    BI.bigSep_eq_bigSepL_of_eq [main_v0, main_v13] (by decide) (by decide)]
  rfl

/-- The kernel body of gather call 6 as the pipeline calls it at point `t`: the step's coordinates, the two tables whole,
    the output window's current staging buffer, the scratch buffer and the sixteen semaphores. -/
abbrev gbodyAt6 (a : (pcfg6 (F := F)).Adm) (t : Fin (cfg6 a).N) : Prog (TpuEff nD τ sig (Elt F) Λ₀ .tc) PUnit :=
  cc6__gather_kernel ((cfg6 a).grid.coords t) gtb6M (Memref.isWhole_whole _) ghb6M (Memref.isWhole_whole _)
    (spec6_0.stage ((cfg6 a).slots t 0)) (hstage6_0 (((cfg6 a).slots t 0).cast nbuf6_0)) gsc6M (Memref.isWhole_whole _) cc6_scratch1

/-- The grid is one axis of 4000 steps: the step's one coordinate is its number. -/
theorem gcoord6 (a : (pcfg6 (F := F)).Adm) (t : Fin (cfg6 a).N) : (((cfg6 a).grid.coords t) 0).val = t.val := by
  have ht : t.val < 4000 := lt_of_lt_of_eq t.isLt N_6
  show t.val / 1 % 4000 = t.val
  omega

/-- What the body is called with at point `t`: the invariant, the core's `owes`, the output window's current staging
    buffer at whatever it holds, -/
def gbodyPre6 (a : (pcfg6 (F := F)).Adm) (c : Dev nD) (t : Fin (cfg6 a).N) : sProp 𝕄 :=
  iprop((gdat6 V a c).Φ t.castSucc ∗ (gdat6 V a c).owesAt () t.castSucc
    ∗ (∃ d, owns (c : Thread nD τ) (spec6_0.stage ((cfg6 a).slots t 0)) fullShare ((gdat6 V a c).before 0 t d)))

/-- and what it returns: the invariant, `owes`, the staging buffer at the step's gathered rows. -/
def gbodyPost6 (a : (pcfg6 (F := F)).Adm) (c : Dev nD) (t : Fin (cfg6 a).N) : sProp 𝕄 :=
  iprop((gdat6 V a c).Φ t.succ ∗ (gdat6 V a c).owesAt () t.succ
    ∗ owns (c : Thread nD τ) (spec6_0.stage ((cfg6 a).slots t 0)) fullShare ((gdat6 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body6 (a : (pcfg6 (F := F)).Adm) (c : Dev nD)
    (hok : ∀ e : S64000.Idx, (V c main_v13 e).toNat < 50000) (t : Fin (cfg6 a).N) :
    gbodyPre6 V a c t ⊢ wp frame (wpE (defs₀ (F := F)) Variants.none c none) Set.univ (gbodyAt6 a t) (fun _ => gbodyPost6 V a c t) := by
  unfold gbodyPre6 gbodyPost6 gbodyAt6
  rw [show (gdat6 V a c).Φ t.succ = Pipeline.ΦD gsem6 spec6 gH6 V c from rfl,
    show (gdat6 V a c).Φ t.castSucc = Pipeline.ΦD gsem6 spec6 gH6 V c from rfl, gdat6_after, PhiD6_eq]
  unfold Dat.owesAt Pipeline.owesWithin
  rw [show (gdat6 V a c).owed t.castSucc = 0 from rfl, show (gdat6 V a c).owed t.succ = 0 from rfl]
  have hrun := fun W K => gather_run6 (F := F) c ((cfg6 a).grid.coords t) (spec6_0.stage ((cfg6 a).slots t 0))
    (hstage6_0 (((cfg6 a).slots t 0).cast nbuf6_0)) (V c main_v13) (V c main_v0) hok W K
  rw [gcoord6 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 6, when every word of its table names a row of the node table. -/
theorem gather_obligation6 (a : (pcfg6 (F := F)).Adm) (c : Dev nD)
    (hok : ∀ e : S64000.Idx, (V c main_v13 e).toNat < 50000) :
    BodyObligation (gdat6 (F := F) V a c) (defs₀ (F := F)) Variants.none () Set.univ := fun t => by
  rw [bigSep_W6, bigSep_W6]
  exact gsound_body6 V a c hok t

end

end Cert.KernelIdeal.Hand

end
-- ==== Proof.RowsJoin7.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 7's scratch buffer, whole, and its sixteen rows as the body addresses them. -/
abbrev gsc7M : Memref sig .tc .vmem S16x1x128 .f32 := Memref.whole cc7_scratch0
abbrev gr7_0M : Memref sig .tc .vmem S1x128 .f32 := ((Memref.whole cc7_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr7_1M : Memref sig .tc .vmem S1x128 .f32 := ((Memref.whole cc7_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr7_2M : Memref sig .tc .vmem S1x128 .f32 := ((Memref.whole cc7_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr7_3M : Memref sig .tc .vmem S1x128 .f32 := ((Memref.whole cc7_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr7_4M : Memref sig .tc .vmem S1x128 .f32 := ((Memref.whole cc7_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr7_5M : Memref sig .tc .vmem S1x128 .f32 := ((Memref.whole cc7_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr7_6M : Memref sig .tc .vmem S1x128 .f32 := ((Memref.whole cc7_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr7_7M : Memref sig .tc .vmem S1x128 .f32 := ((Memref.whole cc7_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr7_8M : Memref sig .tc .vmem S1x128 .f32 := ((Memref.whole cc7_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr7_9M : Memref sig .tc .vmem S1x128 .f32 := ((Memref.whole cc7_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr7_10M : Memref sig .tc .vmem S1x128 .f32 := ((Memref.whole cc7_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr7_11M : Memref sig .tc .vmem S1x128 .f32 := ((Memref.whole cc7_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr7_12M : Memref sig .tc .vmem S1x128 .f32 := ((Memref.whole cc7_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr7_13M : Memref sig .tc .vmem S1x128 .f32 := ((Memref.whole cc7_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr7_14M : Memref sig .tc .vmem S1x128 .f32 := ((Memref.whole cc7_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr7_15M : Memref sig .tc .vmem S1x128 .f32 := ((Memref.whole cc7_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr7_0M.view.set = rowSet (0 : Fin 16) := by
  refine (View.set_reshape _ _).trans ?_
  refine (View.set_slice_whole _ _).trans ?_
  rfl
private theorem row_set_1 : gr7_1M.view.set = rowSet (1 : Fin 16) := by
  refine (View.set_reshape _ _).trans ?_
  refine (View.set_slice_whole _ _).trans ?_
  rfl
private theorem row_set_2 : gr7_2M.view.set = rowSet (2 : Fin 16) := by
  refine (View.set_reshape _ _).trans ?_
  refine (View.set_slice_whole _ _).trans ?_
  rfl
private theorem row_set_3 : gr7_3M.view.set = rowSet (3 : Fin 16) := by
  refine (View.set_reshape _ _).trans ?_
  refine (View.set_slice_whole _ _).trans ?_
  rfl
private theorem row_set_4 : gr7_4M.view.set = rowSet (4 : Fin 16) := by
  refine (View.set_reshape _ _).trans ?_
  refine (View.set_slice_whole _ _).trans ?_
  rfl
private theorem row_set_5 : gr7_5M.view.set = rowSet (5 : Fin 16) := by
  refine (View.set_reshape _ _).trans ?_
  refine (View.set_slice_whole _ _).trans ?_
  rfl
private theorem row_set_6 : gr7_6M.view.set = rowSet (6 : Fin 16) := by
  refine (View.set_reshape _ _).trans ?_
  refine (View.set_slice_whole _ _).trans ?_
  rfl
private theorem row_set_7 : gr7_7M.view.set = rowSet (7 : Fin 16) := by
  refine (View.set_reshape _ _).trans ?_
  refine (View.set_slice_whole _ _).trans ?_
  rfl
private theorem row_set_8 : gr7_8M.view.set = rowSet (8 : Fin 16) := by
  refine (View.set_reshape _ _).trans ?_
  refine (View.set_slice_whole _ _).trans ?_
  rfl
private theorem row_set_9 : gr7_9M.view.set = rowSet (9 : Fin 16) := by
  refine (View.set_reshape _ _).trans ?_
  refine (View.set_slice_whole _ _).trans ?_
  rfl
private theorem row_set_10 : gr7_10M.view.set = rowSet (10 : Fin 16) := by
  refine (View.set_reshape _ _).trans ?_
  refine (View.set_slice_whole _ _).trans ?_
  rfl
private theorem row_set_11 : gr7_11M.view.set = rowSet (11 : Fin 16) := by
  refine (View.set_reshape _ _).trans ?_
  refine (View.set_slice_whole _ _).trans ?_
  rfl
private theorem row_set_12 : gr7_12M.view.set = rowSet (12 : Fin 16) := by
  refine (View.set_reshape _ _).trans ?_
  refine (View.set_slice_whole _ _).trans ?_
  rfl
private theorem row_set_13 : gr7_13M.view.set = rowSet (13 : Fin 16) := by
  refine (View.set_reshape _ _).trans ?_
  refine (View.set_slice_whole _ _).trans ?_
  rfl
private theorem row_set_14 : gr7_14M.view.set = rowSet (14 : Fin 16) := by
  refine (View.set_reshape _ _).trans ?_
  refine (View.set_slice_whole _ _).trans ?_
  rfl
private theorem row_set_15 : gr7_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join7 (c : Dev nD) (f0 f1 f2 f3 f4 f5 f6 f7 f8 f9 f10 f11 f12 f13 f14 f15 : Buf (Elt F) (gsc7M.view.loc (c : Thread nD τ))) :
    (iprop((gsc7M.view.loc (c : Thread nD τ) ↦[gr7_0M.view.set]{fullShare} f0)
        ∗ (gsc7M.view.loc (c : Thread nD τ) ↦[gr7_1M.view.set]{fullShare} f1)
        ∗ (gsc7M.view.loc (c : Thread nD τ) ↦[gr7_2M.view.set]{fullShare} f2)
        ∗ (gsc7M.view.loc (c : Thread nD τ) ↦[gr7_3M.view.set]{fullShare} f3)
        ∗ (gsc7M.view.loc (c : Thread nD τ) ↦[gr7_4M.view.set]{fullShare} f4)
        ∗ (gsc7M.view.loc (c : Thread nD τ) ↦[gr7_5M.view.set]{fullShare} f5)
        ∗ (gsc7M.view.loc (c : Thread nD τ) ↦[gr7_6M.view.set]{fullShare} f6)
        ∗ (gsc7M.view.loc (c : Thread nD τ) ↦[gr7_7M.view.set]{fullShare} f7)
        ∗ (gsc7M.view.loc (c : Thread nD τ) ↦[gr7_8M.view.set]{fullShare} f8)
        ∗ (gsc7M.view.loc (c : Thread nD τ) ↦[gr7_9M.view.set]{fullShare} f9)
        ∗ (gsc7M.view.loc (c : Thread nD τ) ↦[gr7_10M.view.set]{fullShare} f10)
        ∗ (gsc7M.view.loc (c : Thread nD τ) ↦[gr7_11M.view.set]{fullShare} f11)
        ∗ (gsc7M.view.loc (c : Thread nD τ) ↦[gr7_12M.view.set]{fullShare} f12)
        ∗ (gsc7M.view.loc (c : Thread nD τ) ↦[gr7_13M.view.set]{fullShare} f13)
        ∗ (gsc7M.view.loc (c : Thread nD τ) ↦[gr7_14M.view.set]{fullShare} f14)
        ∗ (gsc7M.view.loc (c : Thread nD τ) ↦[gr7_15M.view.set]{fullShare} f15)) : sProp 𝕄)
      ⊢ iprop(∃ g : Buf (Elt F) (gsc7M.view.loc (c : Thread nD τ)),
          ⌜(∀ i ∈ gr7_0M.view.set, g i = f0 i)
            ∧ (∀ i ∈ gr7_1M.view.set, g i = f1 i)
            ∧ (∀ i ∈ gr7_2M.view.set, g i = f2 i)
            ∧ (∀ i ∈ gr7_3M.view.set, g i = f3 i)
            ∧ (∀ i ∈ gr7_4M.view.set, g i = f4 i)
            ∧ (∀ i ∈ gr7_5M.view.set, g i = f5 i)
            ∧ (∀ i ∈ gr7_6M.view.set, g i = f6 i)
            ∧ (∀ i ∈ gr7_7M.view.set, g i = f7 i)
            ∧ (∀ i ∈ gr7_8M.view.set, g i = f8 i)
            ∧ (∀ i ∈ gr7_9M.view.set, g i = f9 i)
            ∧ (∀ i ∈ gr7_10M.view.set, g i = f10 i)
            ∧ (∀ i ∈ gr7_11M.view.set, g i = f11 i)
            ∧ (∀ i ∈ gr7_12M.view.set, g i = f12 i)
            ∧ (∀ i ∈ gr7_13M.view.set, g i = f13 i)
            ∧ (∀ i ∈ gr7_14M.view.set, g i = f14 i)
            ∧ (∀ i ∈ gr7_15M.view.set, g i = f15 i)⌝
          ∗ (gsc7M.view.loc (c : Thread nD τ) ↦[gsc7M.view.set]{fullShare} g)) := by
  have hw : gsc7M.view.set = Finset.univ.biUnion rowSet := (View.set_whole _).trans rowSet_cover.symm
  exact join16 (ℓ := gsc7M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split7 (c : Dev nD) (f : Buf (Elt F) (gsc7M.view.loc (c : Thread nD τ))) :
    (gsc7M.view.loc (c : Thread nD τ) ↦[gsc7M.view.set]{fullShare} f : sProp 𝕄)
      ⊢ iprop((gsc7M.view.loc (c : Thread nD τ) ↦[gr7_0M.view.set]{fullShare} f)
        ∗ (gsc7M.view.loc (c : Thread nD τ) ↦[gr7_1M.view.set]{fullShare} f)
        ∗ (gsc7M.view.loc (c : Thread nD τ) ↦[gr7_2M.view.set]{fullShare} f)
        ∗ (gsc7M.view.loc (c : Thread nD τ) ↦[gr7_3M.view.set]{fullShare} f)
        ∗ (gsc7M.view.loc (c : Thread nD τ) ↦[gr7_4M.view.set]{fullShare} f)
        ∗ (gsc7M.view.loc (c : Thread nD τ) ↦[gr7_5M.view.set]{fullShare} f)
        ∗ (gsc7M.view.loc (c : Thread nD τ) ↦[gr7_6M.view.set]{fullShare} f)
        ∗ (gsc7M.view.loc (c : Thread nD τ) ↦[gr7_7M.view.set]{fullShare} f)
        ∗ (gsc7M.view.loc (c : Thread nD τ) ↦[gr7_8M.view.set]{fullShare} f)
        ∗ (gsc7M.view.loc (c : Thread nD τ) ↦[gr7_9M.view.set]{fullShare} f)
        ∗ (gsc7M.view.loc (c : Thread nD τ) ↦[gr7_10M.view.set]{fullShare} f)
        ∗ (gsc7M.view.loc (c : Thread nD τ) ↦[gr7_11M.view.set]{fullShare} f)
        ∗ (gsc7M.view.loc (c : Thread nD τ) ↦[gr7_12M.view.set]{fullShare} f)
        ∗ (gsc7M.view.loc (c : Thread nD τ) ↦[gr7_13M.view.set]{fullShare} f)
        ∗ (gsc7M.view.loc (c : Thread nD τ) ↦[gr7_14M.view.set]{fullShare} f)
        ∗ (gsc7M.view.loc (c : Thread nD τ) ↦[gr7_15M.view.set]{fullShare} f)) := by
  have hw : gsc7M.view.set = Finset.univ.biUnion rowSet := (View.set_whole _).trans rowSet_cover.symm
  exact split16 (ℓ := gsc7M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows7.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin7
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 7's chunk of the edge-source table in scalar memory, whole. -/
abbrev ghb7M : Memref sig .tc .hbm S50000x1x128 .f32 := Memref.whole main_v0
abbrev gtb7M : Memref sig .tc .smem S64000 .i32 := Memref.whole main_v15

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc7M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb7M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed7 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb7M.view.loc (c : Thread nD τ))) (fs g : Buf (Elt F) (gsc7M.view.loc (c : Thread nD τ)))
    (hg : ∀ i ∈ ((gsc7M.slice (Rect.unit (s := S16x1x128) ![j, 0, 0] S1x1x128.size inb) (fun _ => rfl)).squeeze S1x128 squeezes_S1x1x128_S1x128).view.set,
        g i = ((gsc7M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb7M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc7M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb7M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load7 (c : Dev nD) (g : Buf (Elt F) (gsc7M.view.loc (c : Thread nD τ))) (y : S16x1x128.Idx) :
    View.readAt (Elt F) gsc7M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word7 (pf : S64000.Idx → Elt F .i32) (off : Fin 1 → ℕ) (inb : ∀ a, off a + S1.size a ≤ S64000.size a)
    (n : ℕ) (hn : n < 64000) (hoff : off 0 = n) :
    View.readAt (Elt F) gtb7M.view (Rect.unit (s := S64000) off S1.size inb).toLoadRect
        ((Memref.isWhole_whole _ : gtb7M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs7 (i : grid7.Coords) :
    (k7_off1 i) 0 = 16 * (i 0).val + 0
    ∧ (k7_off3 i) 0 = 16 * (i 0).val + 1
    ∧ (k7_off5 i) 0 = 16 * (i 0).val + 2
    ∧ (k7_off7 i) 0 = 16 * (i 0).val + 3
    ∧ (k7_off9 i) 0 = 16 * (i 0).val + 4
    ∧ (k7_off11 i) 0 = 16 * (i 0).val + 5
    ∧ (k7_off13 i) 0 = 16 * (i 0).val + 6
    ∧ (k7_off15 i) 0 = 16 * (i 0).val + 7
    ∧ (k7_off17 i) 0 = 16 * (i 0).val + 8
    ∧ (k7_off19 i) 0 = 16 * (i 0).val + 9
    ∧ (k7_off21 i) 0 = 16 * (i 0).val + 10
    ∧ (k7_off23 i) 0 = 16 * (i 0).val + 11
    ∧ (k7_off25 i) 0 = 16 * (i 0).val + 12
    ∧ (k7_off27 i) 0 = 16 * (i 0).val + 13
    ∧ (k7_off29 i) 0 = 16 * (i 0).val + 14
    ∧ (k7_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun7.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows7
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 7's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run7 (c : Dev nD) (i : grid7.Coords) (arg3 : Memref sig .tc .vmem S16x1x128 .f32) (harg3 : arg3.IsWhole)
    (pf : S64000.Idx → Elt F .i32) (tb : Buf (Elt F) (ghb7M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc7M.view.loc (c : Thread nD τ) ↦[gsc7M.view.set]{fullShare} f)
        ∗ owns (c : Thread nD τ) gtb7M fullShare pf
        ∗ (ghb7M.view.loc (c : Thread nD τ) ↦{fullShare} tb)
        ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0
        ∗ owes (c : Thread nD τ) 0 W
        ∗ (iprop(owns (c : Thread nD τ) arg3 fullShare (gblock tb pf (i 0).val)
            ∗ (∃ f, gsc7M.view.loc (c : Thread nD τ) ↦[gsc7M.view.set]{fullShare} f)
            ∗ owns (c : Thread nD τ) gtb7M fullShare pf
            ∗ (ghb7M.view.loc (c : Thread nD τ) ↦{fullShare} tb)
            ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0
            ∗ (∃ W', owes (c : Thread nD τ) 0 W')) -∗ K ⟨⟩))
      ⊢ wp frame (wpE (defs₀ (F := F)) Variants.none c none) Set.univ
          (cc7__gather_kernel i gtb7M (Memref.isWhole_whole _) ghb7M (Memref.isWhole_whole _) arg3 harg3 gsc7M (Memref.isWhole_whole _) cc7_scratch1) K := by
  have hi : (i 0).val < 4000 := (i 0).isLt
  have hoffs := table_offs7 i
  have hword0 : (View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))) = pf (ValueIdx.ix1 (⟨16 * (i 0).val + 0, by omega⟩ : Fin 64000)) :=
    table_word7 pf _ _ _ (by omega) hoffs.1
  have hlt0 : (View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))).toNat < 50000 := by rw [hword0]; exact hok _
  have hw1 : k7_chk1 (View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))) := ⟨chk_lt _ hlt0, chk_lt _ hlt0⟩
  have hword1 : (View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))) = pf (ValueIdx.ix1 (⟨16 * (i 0).val + 1, by omega⟩ : Fin 64000)) :=
    table_word7 pf _ _ _ (by omega) hoffs.2.1
  have hlt1 : (View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))).toNat < 50000 := by rw [hword1]; exact hok _
  have hw2 : k7_chk2 (View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))) := ⟨chk_lt _ hlt1, chk_lt _ hlt1⟩
  have hword2 : (View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))) = pf (ValueIdx.ix1 (⟨16 * (i 0).val + 2, by omega⟩ : Fin 64000)) :=
    table_word7 pf _ _ _ (by omega) hoffs.2.2.1
  have hlt2 : (View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))).toNat < 50000 := by rw [hword2]; exact hok _
  have hw3 : k7_chk3 (View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))) := ⟨chk_lt _ hlt2, chk_lt _ hlt2⟩
  have hword3 : (View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))) = pf (ValueIdx.ix1 (⟨16 * (i 0).val + 3, by omega⟩ : Fin 64000)) :=
    table_word7 pf _ _ _ (by omega) hoffs.2.2.2.1
  have hlt3 : (View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))).toNat < 50000 := by rw [hword3]; exact hok _
  have hw4 : k7_chk4 (View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))) := ⟨chk_lt _ hlt3, chk_lt _ hlt3⟩
  have hword4 : (View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))) = pf (ValueIdx.ix1 (⟨16 * (i 0).val + 4, by omega⟩ : Fin 64000)) :=
    table_word7 pf _ _ _ (by omega) hoffs.2.2.2.2.1
  have hlt4 : (View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))).toNat < 50000 := by rw [hword4]; exact hok _
  have hw5 : k7_chk5 (View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))) := ⟨chk_lt _ hlt4, chk_lt _ hlt4⟩
  have hword5 : (View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))) = pf (ValueIdx.ix1 (⟨16 * (i 0).val + 5, by omega⟩ : Fin 64000)) :=
    table_word7 pf _ _ _ (by omega) hoffs.2.2.2.2.2.1
  have hlt5 : (View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))).toNat < 50000 := by rw [hword5]; exact hok _
  have hw6 : k7_chk6 (View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))) := ⟨chk_lt _ hlt5, chk_lt _ hlt5⟩
  have hword6 : (View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))) = pf (ValueIdx.ix1 (⟨16 * (i 0).val + 6, by omega⟩ : Fin 64000)) :=
    table_word7 pf _ _ _ (by omega) hoffs.2.2.2.2.2.2.1
  have hlt6 : (View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))).toNat < 50000 := by rw [hword6]; exact hok _
  have hw7 : k7_chk7 (View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))) := ⟨chk_lt _ hlt6, chk_lt _ hlt6⟩
  have hword7 : (View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))) = pf (ValueIdx.ix1 (⟨16 * (i 0).val + 7, by omega⟩ : Fin 64000)) :=
    table_word7 pf _ _ _ (by omega) hoffs.2.2.2.2.2.2.2.1
  have hlt7 : (View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))).toNat < 50000 := by rw [hword7]; exact hok _
  have hw8 : k7_chk8 (View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))) := ⟨chk_lt _ hlt7, chk_lt _ hlt7⟩
  have hword8 : (View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))) = pf (ValueIdx.ix1 (⟨16 * (i 0).val + 8, by omega⟩ : Fin 64000)) :=
    table_word7 pf _ _ _ (by omega) hoffs.2.2.2.2.2.2.2.2.1
  have hlt8 : (View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))).toNat < 50000 := by rw [hword8]; exact hok _
  have hw9 : k7_chk9 (View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))) := ⟨chk_lt _ hlt8, chk_lt _ hlt8⟩
  have hword9 : (View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))) = pf (ValueIdx.ix1 (⟨16 * (i 0).val + 9, by omega⟩ : Fin 64000)) :=
    table_word7 pf _ _ _ (by omega) hoffs.2.2.2.2.2.2.2.2.2.1
  have hlt9 : (View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))).toNat < 50000 := by rw [hword9]; exact hok _
  have hw10 : k7_chk10 (View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))) := ⟨chk_lt _ hlt9, chk_lt _ hlt9⟩
  have hword10 : (View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))) = pf (ValueIdx.ix1 (⟨16 * (i 0).val + 10, by omega⟩ : Fin 64000)) :=
    table_word7 pf _ _ _ (by omega) hoffs.2.2.2.2.2.2.2.2.2.2.1
  have hlt10 : (View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))).toNat < 50000 := by rw [hword10]; exact hok _
  have hw11 : k7_chk11 (View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))) := ⟨chk_lt _ hlt10, chk_lt _ hlt10⟩
  have hword11 : (View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))) = pf (ValueIdx.ix1 (⟨16 * (i 0).val + 11, by omega⟩ : Fin 64000)) :=
    table_word7 pf _ _ _ (by omega) hoffs.2.2.2.2.2.2.2.2.2.2.2.1
  have hlt11 : (View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))).toNat < 50000 := by rw [hword11]; exact hok _
  have hw12 : k7_chk12 (View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))) := ⟨chk_lt _ hlt11, chk_lt _ hlt11⟩
  have hword12 : (View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))) = pf (ValueIdx.ix1 (⟨16 * (i 0).val + 12, by omega⟩ : Fin 64000)) :=
    table_word7 pf _ _ _ (by omega) hoffs.2.2.2.2.2.2.2.2.2.2.2.2.1
  have hlt12 : (View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))).toNat < 50000 := by rw [hword12]; exact hok _
  have hw13 : k7_chk13 (View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))) := ⟨chk_lt _ hlt12, chk_lt _ hlt12⟩
  have hword13 : (View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))) = pf (ValueIdx.ix1 (⟨16 * (i 0).val + 13, by omega⟩ : Fin 64000)) :=
    table_word7 pf _ _ _ (by omega) hoffs.2.2.2.2.2.2.2.2.2.2.2.2.2.1
  have hlt13 : (View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))).toNat < 50000 := by rw [hword13]; exact hok _
  have hw14 : k7_chk14 (View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))) := ⟨chk_lt _ hlt13, chk_lt _ hlt13⟩
  have hword14 : (View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))) = pf (ValueIdx.ix1 (⟨16 * (i 0).val + 14, by omega⟩ : Fin 64000)) :=
    table_word7 pf _ _ _ (by omega) hoffs.2.2.2.2.2.2.2.2.2.2.2.2.2.2.1
  have hlt14 : (View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))).toNat < 50000 := by rw [hword14]; exact hok _
  have hw15 : k7_chk15 (View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))) := ⟨chk_lt _ hlt14, chk_lt _ hlt14⟩
  have hword15 : (View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))) = pf (ValueIdx.ix1 (⟨16 * (i 0).val + 15, by omega⟩ : Fin 64000)) :=
    table_word7 pf _ _ _ (by omega) hoffs.2.2.2.2.2.2.2.2.2.2.2.2.2.2.2
  have hlt15 : (View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))).toNat < 50000 := by rw [hword15]; exact hok _
  have hw16 : k7_chk16 (View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))) := chk_lt _ hlt15
  rw [cc7__gather_kernel_eq_skeleton]; unfold cc7__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb7M).IsWhole).eq_unread hfp
  ihave HR := (rows_split7 (F := F) c fsc) $$ HSC
  icases HR with ⟨HS0, HS1, HS2, HS3, HS4, HS5, HS6, HS7, HS8, HS9, HS10, HS11, HS12, HS13, HS14, HS15⟩
  ihave HS0 := (Entails.of_eq (show ((gsc7M.view.loc (c : Thread nD τ) ↦[gr7_0M.view.set]{fullShare} fsc : sProp 𝕄)) = (gr7_0M.view.loc (c : Thread nD τ) ↦[gr7_0M.view.set]{fullShare} fsc) from rfl)) $$ HS0
  ihave HS1 := (Entails.of_eq (show ((gsc7M.view.loc (c : Thread nD τ) ↦[gr7_1M.view.set]{fullShare} fsc : sProp 𝕄)) = (gr7_1M.view.loc (c : Thread nD τ) ↦[gr7_1M.view.set]{fullShare} fsc) from rfl)) $$ HS1
  ihave HS2 := (Entails.of_eq (show ((gsc7M.view.loc (c : Thread nD τ) ↦[gr7_2M.view.set]{fullShare} fsc : sProp 𝕄)) = (gr7_2M.view.loc (c : Thread nD τ) ↦[gr7_2M.view.set]{fullShare} fsc) from rfl)) $$ HS2
  ihave HS3 := (Entails.of_eq (show ((gsc7M.view.loc (c : Thread nD τ) ↦[gr7_3M.view.set]{fullShare} fsc : sProp 𝕄)) = (gr7_3M.view.loc (c : Thread nD τ) ↦[gr7_3M.view.set]{fullShare} fsc) from rfl)) $$ HS3
  ihave HS4 := (Entails.of_eq (show ((gsc7M.view.loc (c : Thread nD τ) ↦[gr7_4M.view.set]{fullShare} fsc : sProp 𝕄)) = (gr7_4M.view.loc (c : Thread nD τ) ↦[gr7_4M.view.set]{fullShare} fsc) from rfl)) $$ HS4
  ihave HS5 := (Entails.of_eq (show ((gsc7M.view.loc (c : Thread nD τ) ↦[gr7_5M.view.set]{fullShare} fsc : sProp 𝕄)) = (gr7_5M.view.loc (c : Thread nD τ) ↦[gr7_5M.view.set]{fullShare} fsc) from rfl)) $$ HS5
  ihave HS6 := (Entails.of_eq (show ((gsc7M.view.loc (c : Thread nD τ) ↦[gr7_6M.view.set]{fullShare} fsc : sProp 𝕄)) = (gr7_6M.view.loc (c : Thread nD τ) ↦[gr7_6M.view.set]{fullShare} fsc) from rfl)) $$ HS6
  ihave HS7 := (Entails.of_eq (show ((gsc7M.view.loc (c : Thread nD τ) ↦[gr7_7M.view.set]{fullShare} fsc : sProp 𝕄)) = (gr7_7M.view.loc (c : Thread nD τ) ↦[gr7_7M.view.set]{fullShare} fsc) from rfl)) $$ HS7
  ihave HS8 := (Entails.of_eq (show ((gsc7M.view.loc (c : Thread nD τ) ↦[gr7_8M.view.set]{fullShare} fsc : sProp 𝕄)) = (gr7_8M.view.loc (c : Thread nD τ) ↦[gr7_8M.view.set]{fullShare} fsc) from rfl)) $$ HS8
  ihave HS9 := (Entails.of_eq (show ((gsc7M.view.loc (c : Thread nD τ) ↦[gr7_9M.view.set]{fullShare} fsc : sProp 𝕄)) = (gr7_9M.view.loc (c : Thread nD τ) ↦[gr7_9M.view.set]{fullShare} fsc) from rfl)) $$ HS9
  ihave HS10 := (Entails.of_eq (show ((gsc7M.view.loc (c : Thread nD τ) ↦[gr7_10M.view.set]{fullShare} fsc : sProp 𝕄)) = (gr7_10M.view.loc (c : Thread nD τ) ↦[gr7_10M.view.set]{fullShare} fsc) from rfl)) $$ HS10
  ihave HS11 := (Entails.of_eq (show ((gsc7M.view.loc (c : Thread nD τ) ↦[gr7_11M.view.set]{fullShare} fsc : sProp 𝕄)) = (gr7_11M.view.loc (c : Thread nD τ) ↦[gr7_11M.view.set]{fullShare} fsc) from rfl)) $$ HS11
  ihave HS12 := (Entails.of_eq (show ((gsc7M.view.loc (c : Thread nD τ) ↦[gr7_12M.view.set]{fullShare} fsc : sProp 𝕄)) = (gr7_12M.view.loc (c : Thread nD τ) ↦[gr7_12M.view.set]{fullShare} fsc) from rfl)) $$ HS12
  ihave HS13 := (Entails.of_eq (show ((gsc7M.view.loc (c : Thread nD τ) ↦[gr7_13M.view.set]{fullShare} fsc : sProp 𝕄)) = (gr7_13M.view.loc (c : Thread nD τ) ↦[gr7_13M.view.set]{fullShare} fsc) from rfl)) $$ HS13
  ihave HS14 := (Entails.of_eq (show ((gsc7M.view.loc (c : Thread nD τ) ↦[gr7_14M.view.set]{fullShare} fsc : sProp 𝕄)) = (gr7_14M.view.loc (c : Thread nD τ) ↦[gr7_14M.view.set]{fullShare} fsc) from rfl)) $$ HS14
  ihave HS15 := (Entails.of_eq (show ((gsc7M.view.loc (c : Thread nD τ) ↦[gr7_15M.view.set]{fullShare} fsc : sProp 𝕄)) = (gr7_15M.view.loc (c : Thread nD τ) ↦[gr7_15M.view.set]{fullShare} fsc) from rfl)) $$ HS15
  ihave HB := (split16 (ℓ := ghb7M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join7 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))).toNat, hlt0⟩ : Fin 50000) (0 : Fin 1) l) :=
    row_landed7 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))).toNat, hlt1⟩ : Fin 50000) (0 : Fin 1) l) :=
    row_landed7 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))).toNat, hlt2⟩ : Fin 50000) (0 : Fin 1) l) :=
    row_landed7 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))).toNat, hlt3⟩ : Fin 50000) (0 : Fin 1) l) :=
    row_landed7 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))).toNat, hlt4⟩ : Fin 50000) (0 : Fin 1) l) :=
    row_landed7 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))).toNat, hlt5⟩ : Fin 50000) (0 : Fin 1) l) :=
    row_landed7 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))).toNat, hlt6⟩ : Fin 50000) (0 : Fin 1) l) :=
    row_landed7 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))).toNat, hlt7⟩ : Fin 50000) (0 : Fin 1) l) :=
    row_landed7 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))).toNat, hlt8⟩ : Fin 50000) (0 : Fin 1) l) :=
    row_landed7 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))).toNat, hlt9⟩ : Fin 50000) (0 : Fin 1) l) :=
    row_landed7 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))).toNat, hlt10⟩ : Fin 50000) (0 : Fin 1) l) :=
    row_landed7 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))).toNat, hlt11⟩ : Fin 50000) (0 : Fin 1) l) :=
    row_landed7 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))).toNat, hlt12⟩ : Fin 50000) (0 : Fin 1) l) :=
    row_landed7 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))).toNat, hlt13⟩ : Fin 50000) (0 : Fin 1) l) :=
    row_landed7 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))).toNat, hlt14⟩ : Fin 50000) (0 : Fin 1) l) :=
    row_landed7 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))).toNat, hlt15⟩ : Fin 50000) (0 : Fin 1) l) :=
    row_landed7 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load7]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb7M).IsWhole).read_unread _
  isplitl [Hh0 Hh1 Hh2 Hh3 Hh4 Hh5 Hh6 Hh7 Hh8 Hh9 Hh10 Hh11 Hh12 Hh13 Hh14 Hh15]
  · iapply (join16 (ℓ := ghb7M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather7.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 7's own DMA semaphores: one per row of the step. -/
abbrev gsem7 : Fin 16 → SemLoc sig := fun j =>
  (![SemLoc.dma 128, SemLoc.dma 129, SemLoc.dma 130, SemLoc.dma 131, SemLoc.dma 132, SemLoc.dma 133, SemLoc.dma 134, SemLoc.dma 135, SemLoc.dma 136, SemLoc.dma 137, SemLoc.dma 138, SemLoc.dma 139, SemLoc.dma 140, SemLoc.dma 141, SemLoc.dma 142, SemLoc.dma 143] : Fin 16 → SemLoc sig) j
theorem gsemFacts7 : Pipeline.OwnSemFacts spec7 gsem7 := by decide

/-- The buffers the body reads without a window: the node table in HBM and its chunk of the edge-source table. -/
def gH7 : Finset (Ref sig .tc) := {main_v0, main_v15}
theorem gH7_sub : gH7 ⊆ Pipeline.restRefs sig spec7 := by decide

/-- The call's prefetched table at the contents the region finds. -/
def gadm7 (c : Dev nD) : (pcfg7 (F := F)).Adm := ⟨fun k => match k with | ⟨0, _⟩ => V c main_v15, trivial⟩

/-- The proof data of gather call 7 on core `c`: the output array as found; after step `t` the output block holds
    the gathered rows; the invariant carries the scratch, the call's semaphores at zero and the two tables as found. -/
def gdat7 (a : (pcfg7 (F := F)).Adm) (c : Dev nD) : Dat τ (Elt F) Unit ℕ (Pipeline.UD sig nD τ) ℕ (cfg7 a) c where
  A w := V c (Pipeline.arrRef spec7 w)
  after w t := match w with
    | ⟨0, _⟩ => gblock (V c main_v0) (V c main_v15) t.val
  Φ _ := Pipeline.ΦD gsem7 spec7 gH7 V c
  q _ := fullShare
  owed _ := 0

theorem gdat7_A (a : (pcfg7 (F := F)).Adm) (c : Dev nD) (w : Fin (cfg7 a).W) :
    (gdat7 V a c).A w = V c (Pipeline.arrRef spec7 w) := by dsimp only [gdat7]
theorem gdat7_after (a : (pcfg7 (F := F)).Adm) (c : Dev nD) (t : Fin (cfg7 a).N) :
    (gdat7 V a c).after 0 t = gblock (V c main_v0) (V c main_v15) t.val := rfl

/-! ## The body obligation, from the body's run -/

/-- The call's scratch buffer whole at some contents, said of the buffer and said through the whole-buffer memref. -/
theorem gsc7_whole (c : Dev nD) :
    (iprop(∃ f, gsc7M.view.loc (c : Thread nD τ) ↦[gsc7M.view.set]{fullShare} f) : sProp 𝕄)
      = iprop(∃ f : Buf (Elt F) ((c : Thread nD τ).loc cc7_scratch0), ((c : Thread nD τ).loc cc7_scratch0) ↦{fullShare} f) := by
  simp only [gsc7M, Memref.view_whole, View.set_whole]

/-- The region invariant of gather call 7, conjunct by conjunct: the call's scratch buffer whole at some contents beside
    the scoped buffers it does not touch, the generator register at some state, its sixteen semaphores at zero, and
    the two tables whole at the contents the region finds. -/
theorem PhiD7_eq (c : Dev nD) :
    (Pipeline.ΦD gsem7 spec7 gH7 V c : sProp 𝕄)
      = iprop(iprop((∃ f, gsc7M.view.loc (c : Thread nD τ) ↦[gsc7M.view.set]{fullShare} f)
            ∗ Pipeline.scopedRestBut (Ix := Unit) (Name := ℕ) (U := Pipeline.UD sig nD τ) (Lvl := ℕ) (Val := Elt F) spec7 c [cc7_scratch0])
          ∗ (∃ r, prngReg c r)
          ∗ iprop(semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0)
          ∗ iprop((ghb7M.view.loc (c : Thread nD τ) ↦{fullShare} V c main_v0) ∗ owns (c : Thread nD τ) gtb7M fullShare (V c main_v15))) := by
  rw [gsc7_whole, owns_whole, Pipeline.ΦD_eq, scopedRest7_split,
    Pipeline.ownSems0_eq_of_list c gsem7 [0, 1, 2, 3, 4, 5, 6, 7, 8, 9, 10, 11, 12, 13, 14, 15] (by decide) (by decide),
    BI.bigSep_eq_bigSepL_of_eq [main_v0, main_v15] (by decide) (by decide)]
  rfl

/-- The kernel body of gather call 7 as the pipeline calls it at point `t`: the step's coordinates, the two tables whole,
    the output window's current staging buffer, the scratch buffer and the sixteen semaphores. -/
abbrev gbodyAt7 (a : (pcfg7 (F := F)).Adm) (t : Fin (cfg7 a).N) : Prog (TpuEff nD τ sig (Elt F) Λ₀ .tc) PUnit :=
  cc7__gather_kernel ((cfg7 a).grid.coords t) gtb7M (Memref.isWhole_whole _) ghb7M (Memref.isWhole_whole _)
    (spec7_0.stage ((cfg7 a).slots t 0)) (hstage7_0 (((cfg7 a).slots t 0).cast nbuf7_0)) gsc7M (Memref.isWhole_whole _) cc7_scratch1

/-- The grid is one axis of 4000 steps: the step's one coordinate is its number. -/
theorem gcoord7 (a : (pcfg7 (F := F)).Adm) (t : Fin (cfg7 a).N) : (((cfg7 a).grid.coords t) 0).val = t.val := by
  have ht : t.val < 4000 := lt_of_lt_of_eq t.isLt N_7
  show t.val / 1 % 4000 = t.val
  omega

/-- What the body is called with at point `t`: the invariant, the core's `owes`, the output window's current staging
    buffer at whatever it holds, -/
def gbodyPre7 (a : (pcfg7 (F := F)).Adm) (c : Dev nD) (t : Fin (cfg7 a).N) : sProp 𝕄 :=
  iprop((gdat7 V a c).Φ t.castSucc ∗ (gdat7 V a c).owesAt () t.castSucc
    ∗ (∃ d, owns (c : Thread nD τ) (spec7_0.stage ((cfg7 a).slots t 0)) fullShare ((gdat7 V a c).before 0 t d)))

/-- and what it returns: the invariant, `owes`, the staging buffer at the step's gathered rows. -/
def gbodyPost7 (a : (pcfg7 (F := F)).Adm) (c : Dev nD) (t : Fin (cfg7 a).N) : sProp 𝕄 :=
  iprop((gdat7 V a c).Φ t.succ ∗ (gdat7 V a c).owesAt () t.succ
    ∗ owns (c : Thread nD τ) (spec7_0.stage ((cfg7 a).slots t 0)) fullShare ((gdat7 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body7 (a : (pcfg7 (F := F)).Adm) (c : Dev nD)
    (hok : ∀ e : S64000.Idx, (V c main_v15 e).toNat < 50000) (t : Fin (cfg7 a).N) :
    gbodyPre7 V a c t ⊢ wp frame (wpE (defs₀ (F := F)) Variants.none c none) Set.univ (gbodyAt7 a t) (fun _ => gbodyPost7 V a c t) := by
  unfold gbodyPre7 gbodyPost7 gbodyAt7
  rw [show (gdat7 V a c).Φ t.succ = Pipeline.ΦD gsem7 spec7 gH7 V c from rfl,
    show (gdat7 V a c).Φ t.castSucc = Pipeline.ΦD gsem7 spec7 gH7 V c from rfl, gdat7_after, PhiD7_eq]
  unfold Dat.owesAt Pipeline.owesWithin
  rw [show (gdat7 V a c).owed t.castSucc = 0 from rfl, show (gdat7 V a c).owed t.succ = 0 from rfl]
  have hrun := fun W K => gather_run7 (F := F) c ((cfg7 a).grid.coords t) (spec7_0.stage ((cfg7 a).slots t 0))
    (hstage7_0 (((cfg7 a).slots t 0).cast nbuf7_0)) (V c main_v15) (V c main_v0) hok W K
  rw [gcoord7 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 7, when every word of its table names a row of the node table. -/
theorem gather_obligation7 (a : (pcfg7 (F := F)).Adm) (c : Dev nD)
    (hok : ∀ e : S64000.Idx, (V c main_v15 e).toNat < 50000) :
    BodyObligation (gdat7 (F := F) V a c) (defs₀ (F := F)) Variants.none () Set.univ := fun t => by
  rw [bigSep_W7, bigSep_W7]
  exact gsound_body7 V a c hok t

end

end Cert.KernelIdeal.Hand

end
-- ==== Proof.RowsJoin8.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 8's scratch buffer, whole, and its sixteen rows as the body addresses them. -/
abbrev gsc8M : Memref sig .tc .vmem S16x1x128 .f32 := Memref.whole cc8_scratch0
abbrev gr8_0M : Memref sig .tc .vmem S1x128 .f32 := ((Memref.whole cc8_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr8_1M : Memref sig .tc .vmem S1x128 .f32 := ((Memref.whole cc8_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr8_2M : Memref sig .tc .vmem S1x128 .f32 := ((Memref.whole cc8_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr8_3M : Memref sig .tc .vmem S1x128 .f32 := ((Memref.whole cc8_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr8_4M : Memref sig .tc .vmem S1x128 .f32 := ((Memref.whole cc8_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr8_5M : Memref sig .tc .vmem S1x128 .f32 := ((Memref.whole cc8_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr8_6M : Memref sig .tc .vmem S1x128 .f32 := ((Memref.whole cc8_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr8_7M : Memref sig .tc .vmem S1x128 .f32 := ((Memref.whole cc8_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr8_8M : Memref sig .tc .vmem S1x128 .f32 := ((Memref.whole cc8_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr8_9M : Memref sig .tc .vmem S1x128 .f32 := ((Memref.whole cc8_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr8_10M : Memref sig .tc .vmem S1x128 .f32 := ((Memref.whole cc8_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr8_11M : Memref sig .tc .vmem S1x128 .f32 := ((Memref.whole cc8_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr8_12M : Memref sig .tc .vmem S1x128 .f32 := ((Memref.whole cc8_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr8_13M : Memref sig .tc .vmem S1x128 .f32 := ((Memref.whole cc8_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr8_14M : Memref sig .tc .vmem S1x128 .f32 := ((Memref.whole cc8_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr8_15M : Memref sig .tc .vmem S1x128 .f32 := ((Memref.whole cc8_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr8_0M.view.set = rowSet (0 : Fin 16) := by
  refine (View.set_reshape _ _).trans ?_
  refine (View.set_slice_whole _ _).trans ?_
  rfl
private theorem row_set_1 : gr8_1M.view.set = rowSet (1 : Fin 16) := by
  refine (View.set_reshape _ _).trans ?_
  refine (View.set_slice_whole _ _).trans ?_
  rfl
private theorem row_set_2 : gr8_2M.view.set = rowSet (2 : Fin 16) := by
  refine (View.set_reshape _ _).trans ?_
  refine (View.set_slice_whole _ _).trans ?_
  rfl
private theorem row_set_3 : gr8_3M.view.set = rowSet (3 : Fin 16) := by
  refine (View.set_reshape _ _).trans ?_
  refine (View.set_slice_whole _ _).trans ?_
  rfl
private theorem row_set_4 : gr8_4M.view.set = rowSet (4 : Fin 16) := by
  refine (View.set_reshape _ _).trans ?_
  refine (View.set_slice_whole _ _).trans ?_
  rfl
private theorem row_set_5 : gr8_5M.view.set = rowSet (5 : Fin 16) := by
  refine (View.set_reshape _ _).trans ?_
  refine (View.set_slice_whole _ _).trans ?_
  rfl
private theorem row_set_6 : gr8_6M.view.set = rowSet (6 : Fin 16) := by
  refine (View.set_reshape _ _).trans ?_
  refine (View.set_slice_whole _ _).trans ?_
  rfl
private theorem row_set_7 : gr8_7M.view.set = rowSet (7 : Fin 16) := by
  refine (View.set_reshape _ _).trans ?_
  refine (View.set_slice_whole _ _).trans ?_
  rfl
private theorem row_set_8 : gr8_8M.view.set = rowSet (8 : Fin 16) := by
  refine (View.set_reshape _ _).trans ?_
  refine (View.set_slice_whole _ _).trans ?_
  rfl
private theorem row_set_9 : gr8_9M.view.set = rowSet (9 : Fin 16) := by
  refine (View.set_reshape _ _).trans ?_
  refine (View.set_slice_whole _ _).trans ?_
  rfl
private theorem row_set_10 : gr8_10M.view.set = rowSet (10 : Fin 16) := by
  refine (View.set_reshape _ _).trans ?_
  refine (View.set_slice_whole _ _).trans ?_
  rfl
private theorem row_set_11 : gr8_11M.view.set = rowSet (11 : Fin 16) := by
  refine (View.set_reshape _ _).trans ?_
  refine (View.set_slice_whole _ _).trans ?_
  rfl
private theorem row_set_12 : gr8_12M.view.set = rowSet (12 : Fin 16) := by
  refine (View.set_reshape _ _).trans ?_
  refine (View.set_slice_whole _ _).trans ?_
  rfl
private theorem row_set_13 : gr8_13M.view.set = rowSet (13 : Fin 16) := by
  refine (View.set_reshape _ _).trans ?_
  refine (View.set_slice_whole _ _).trans ?_
  rfl
private theorem row_set_14 : gr8_14M.view.set = rowSet (14 : Fin 16) := by
  refine (View.set_reshape _ _).trans ?_
  refine (View.set_slice_whole _ _).trans ?_
  rfl
private theorem row_set_15 : gr8_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join8 (c : Dev nD) (f0 f1 f2 f3 f4 f5 f6 f7 f8 f9 f10 f11 f12 f13 f14 f15 : Buf (Elt F) (gsc8M.view.loc (c : Thread nD τ))) :
    (iprop((gsc8M.view.loc (c : Thread nD τ) ↦[gr8_0M.view.set]{fullShare} f0)
        ∗ (gsc8M.view.loc (c : Thread nD τ) ↦[gr8_1M.view.set]{fullShare} f1)
        ∗ (gsc8M.view.loc (c : Thread nD τ) ↦[gr8_2M.view.set]{fullShare} f2)
        ∗ (gsc8M.view.loc (c : Thread nD τ) ↦[gr8_3M.view.set]{fullShare} f3)
        ∗ (gsc8M.view.loc (c : Thread nD τ) ↦[gr8_4M.view.set]{fullShare} f4)
        ∗ (gsc8M.view.loc (c : Thread nD τ) ↦[gr8_5M.view.set]{fullShare} f5)
        ∗ (gsc8M.view.loc (c : Thread nD τ) ↦[gr8_6M.view.set]{fullShare} f6)
        ∗ (gsc8M.view.loc (c : Thread nD τ) ↦[gr8_7M.view.set]{fullShare} f7)
        ∗ (gsc8M.view.loc (c : Thread nD τ) ↦[gr8_8M.view.set]{fullShare} f8)
        ∗ (gsc8M.view.loc (c : Thread nD τ) ↦[gr8_9M.view.set]{fullShare} f9)
        ∗ (gsc8M.view.loc (c : Thread nD τ) ↦[gr8_10M.view.set]{fullShare} f10)
        ∗ (gsc8M.view.loc (c : Thread nD τ) ↦[gr8_11M.view.set]{fullShare} f11)
        ∗ (gsc8M.view.loc (c : Thread nD τ) ↦[gr8_12M.view.set]{fullShare} f12)
        ∗ (gsc8M.view.loc (c : Thread nD τ) ↦[gr8_13M.view.set]{fullShare} f13)
        ∗ (gsc8M.view.loc (c : Thread nD τ) ↦[gr8_14M.view.set]{fullShare} f14)
        ∗ (gsc8M.view.loc (c : Thread nD τ) ↦[gr8_15M.view.set]{fullShare} f15)) : sProp 𝕄)
      ⊢ iprop(∃ g : Buf (Elt F) (gsc8M.view.loc (c : Thread nD τ)),
          ⌜(∀ i ∈ gr8_0M.view.set, g i = f0 i)
            ∧ (∀ i ∈ gr8_1M.view.set, g i = f1 i)
            ∧ (∀ i ∈ gr8_2M.view.set, g i = f2 i)
            ∧ (∀ i ∈ gr8_3M.view.set, g i = f3 i)
            ∧ (∀ i ∈ gr8_4M.view.set, g i = f4 i)
            ∧ (∀ i ∈ gr8_5M.view.set, g i = f5 i)
            ∧ (∀ i ∈ gr8_6M.view.set, g i = f6 i)
            ∧ (∀ i ∈ gr8_7M.view.set, g i = f7 i)
            ∧ (∀ i ∈ gr8_8M.view.set, g i = f8 i)
            ∧ (∀ i ∈ gr8_9M.view.set, g i = f9 i)
            ∧ (∀ i ∈ gr8_10M.view.set, g i = f10 i)
            ∧ (∀ i ∈ gr8_11M.view.set, g i = f11 i)
            ∧ (∀ i ∈ gr8_12M.view.set, g i = f12 i)
            ∧ (∀ i ∈ gr8_13M.view.set, g i = f13 i)
            ∧ (∀ i ∈ gr8_14M.view.set, g i = f14 i)
            ∧ (∀ i ∈ gr8_15M.view.set, g i = f15 i)⌝
          ∗ (gsc8M.view.loc (c : Thread nD τ) ↦[gsc8M.view.set]{fullShare} g)) := by
  have hw : gsc8M.view.set = Finset.univ.biUnion rowSet := (View.set_whole _).trans rowSet_cover.symm
  exact join16 (ℓ := gsc8M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split8 (c : Dev nD) (f : Buf (Elt F) (gsc8M.view.loc (c : Thread nD τ))) :
    (gsc8M.view.loc (c : Thread nD τ) ↦[gsc8M.view.set]{fullShare} f : sProp 𝕄)
      ⊢ iprop((gsc8M.view.loc (c : Thread nD τ) ↦[gr8_0M.view.set]{fullShare} f)
        ∗ (gsc8M.view.loc (c : Thread nD τ) ↦[gr8_1M.view.set]{fullShare} f)
        ∗ (gsc8M.view.loc (c : Thread nD τ) ↦[gr8_2M.view.set]{fullShare} f)
        ∗ (gsc8M.view.loc (c : Thread nD τ) ↦[gr8_3M.view.set]{fullShare} f)
        ∗ (gsc8M.view.loc (c : Thread nD τ) ↦[gr8_4M.view.set]{fullShare} f)
        ∗ (gsc8M.view.loc (c : Thread nD τ) ↦[gr8_5M.view.set]{fullShare} f)
        ∗ (gsc8M.view.loc (c : Thread nD τ) ↦[gr8_6M.view.set]{fullShare} f)
        ∗ (gsc8M.view.loc (c : Thread nD τ) ↦[gr8_7M.view.set]{fullShare} f)
        ∗ (gsc8M.view.loc (c : Thread nD τ) ↦[gr8_8M.view.set]{fullShare} f)
        ∗ (gsc8M.view.loc (c : Thread nD τ) ↦[gr8_9M.view.set]{fullShare} f)
        ∗ (gsc8M.view.loc (c : Thread nD τ) ↦[gr8_10M.view.set]{fullShare} f)
        ∗ (gsc8M.view.loc (c : Thread nD τ) ↦[gr8_11M.view.set]{fullShare} f)
        ∗ (gsc8M.view.loc (c : Thread nD τ) ↦[gr8_12M.view.set]{fullShare} f)
        ∗ (gsc8M.view.loc (c : Thread nD τ) ↦[gr8_13M.view.set]{fullShare} f)
        ∗ (gsc8M.view.loc (c : Thread nD τ) ↦[gr8_14M.view.set]{fullShare} f)
        ∗ (gsc8M.view.loc (c : Thread nD τ) ↦[gr8_15M.view.set]{fullShare} f)) := by
  have hw : gsc8M.view.set = Finset.univ.biUnion rowSet := (View.set_whole _).trans rowSet_cover.symm
  exact split16 (ℓ := gsc8M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows8.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin8
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 8's chunk of the edge-source table in scalar memory, whole. -/
abbrev ghb8M : Memref sig .tc .hbm S50000x1x128 .f32 := Memref.whole main_v0
abbrev gtb8M : Memref sig .tc .smem S64000 .i32 := Memref.whole main_v17

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc8M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb8M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed8 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb8M.view.loc (c : Thread nD τ))) (fs g : Buf (Elt F) (gsc8M.view.loc (c : Thread nD τ)))
    (hg : ∀ i ∈ ((gsc8M.slice (Rect.unit (s := S16x1x128) ![j, 0, 0] S1x1x128.size inb) (fun _ => rfl)).squeeze S1x128 squeezes_S1x1x128_S1x128).view.set,
        g i = ((gsc8M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb8M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc8M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb8M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load8 (c : Dev nD) (g : Buf (Elt F) (gsc8M.view.loc (c : Thread nD τ))) (y : S16x1x128.Idx) :
    View.readAt (Elt F) gsc8M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word8 (pf : S64000.Idx → Elt F .i32) (off : Fin 1 → ℕ) (inb : ∀ a, off a + S1.size a ≤ S64000.size a)
    (n : ℕ) (hn : n < 64000) (hoff : off 0 = n) :
    View.readAt (Elt F) gtb8M.view (Rect.unit (s := S64000) off S1.size inb).toLoadRect
        ((Memref.isWhole_whole _ : gtb8M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs8 (i : grid8.Coords) :
    (k8_off1 i) 0 = 16 * (i 0).val + 0
    ∧ (k8_off3 i) 0 = 16 * (i 0).val + 1
    ∧ (k8_off5 i) 0 = 16 * (i 0).val + 2
    ∧ (k8_off7 i) 0 = 16 * (i 0).val + 3
    ∧ (k8_off9 i) 0 = 16 * (i 0).val + 4
    ∧ (k8_off11 i) 0 = 16 * (i 0).val + 5
    ∧ (k8_off13 i) 0 = 16 * (i 0).val + 6
    ∧ (k8_off15 i) 0 = 16 * (i 0).val + 7
    ∧ (k8_off17 i) 0 = 16 * (i 0).val + 8
    ∧ (k8_off19 i) 0 = 16 * (i 0).val + 9
    ∧ (k8_off21 i) 0 = 16 * (i 0).val + 10
    ∧ (k8_off23 i) 0 = 16 * (i 0).val + 11
    ∧ (k8_off25 i) 0 = 16 * (i 0).val + 12
    ∧ (k8_off27 i) 0 = 16 * (i 0).val + 13
    ∧ (k8_off29 i) 0 = 16 * (i 0).val + 14
    ∧ (k8_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun8.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows8
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 8's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run8 (c : Dev nD) (i : grid8.Coords) (arg3 : Memref sig .tc .vmem S16x1x128 .f32) (harg3 : arg3.IsWhole)
    (pf : S64000.Idx → Elt F .i32) (tb : Buf (Elt F) (ghb8M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc8M.view.loc (c : Thread nD τ) ↦[gsc8M.view.set]{fullShare} f)
        ∗ owns (c : Thread nD τ) gtb8M fullShare pf
        ∗ (ghb8M.view.loc (c : Thread nD τ) ↦{fullShare} tb)
        ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0
        ∗ owes (c : Thread nD τ) 0 W
        ∗ (iprop(owns (c : Thread nD τ) arg3 fullShare (gblock tb pf (i 0).val)
            ∗ (∃ f, gsc8M.view.loc (c : Thread nD τ) ↦[gsc8M.view.set]{fullShare} f)
            ∗ owns (c : Thread nD τ) gtb8M fullShare pf
            ∗ (ghb8M.view.loc (c : Thread nD τ) ↦{fullShare} tb)
            ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0
            ∗ (∃ W', owes (c : Thread nD τ) 0 W')) -∗ K ⟨⟩))
      ⊢ wp frame (wpE (defs₀ (F := F)) Variants.none c none) Set.univ
          (cc8__gather_kernel i gtb8M (Memref.isWhole_whole _) ghb8M (Memref.isWhole_whole _) arg3 harg3 gsc8M (Memref.isWhole_whole _) cc8_scratch1) K := by
  have hi : (i 0).val < 4000 := (i 0).isLt
  have hoffs := table_offs8 i
  have hword0 : (View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))) = pf (ValueIdx.ix1 (⟨16 * (i 0).val + 0, by omega⟩ : Fin 64000)) :=
    table_word8 pf _ _ _ (by omega) hoffs.1
  have hlt0 : (View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))).toNat < 50000 := by rw [hword0]; exact hok _
  have hw1 : k8_chk1 (View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))) := ⟨chk_lt _ hlt0, chk_lt _ hlt0⟩
  have hword1 : (View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))) = pf (ValueIdx.ix1 (⟨16 * (i 0).val + 1, by omega⟩ : Fin 64000)) :=
    table_word8 pf _ _ _ (by omega) hoffs.2.1
  have hlt1 : (View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))).toNat < 50000 := by rw [hword1]; exact hok _
  have hw2 : k8_chk2 (View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))) := ⟨chk_lt _ hlt1, chk_lt _ hlt1⟩
  have hword2 : (View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))) = pf (ValueIdx.ix1 (⟨16 * (i 0).val + 2, by omega⟩ : Fin 64000)) :=
    table_word8 pf _ _ _ (by omega) hoffs.2.2.1
  have hlt2 : (View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))).toNat < 50000 := by rw [hword2]; exact hok _
  have hw3 : k8_chk3 (View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))) := ⟨chk_lt _ hlt2, chk_lt _ hlt2⟩
  have hword3 : (View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))) = pf (ValueIdx.ix1 (⟨16 * (i 0).val + 3, by omega⟩ : Fin 64000)) :=
    table_word8 pf _ _ _ (by omega) hoffs.2.2.2.1
  have hlt3 : (View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))).toNat < 50000 := by rw [hword3]; exact hok _
  have hw4 : k8_chk4 (View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))) := ⟨chk_lt _ hlt3, chk_lt _ hlt3⟩
  have hword4 : (View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))) = pf (ValueIdx.ix1 (⟨16 * (i 0).val + 4, by omega⟩ : Fin 64000)) :=
    table_word8 pf _ _ _ (by omega) hoffs.2.2.2.2.1
  have hlt4 : (View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))).toNat < 50000 := by rw [hword4]; exact hok _
  have hw5 : k8_chk5 (View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))) := ⟨chk_lt _ hlt4, chk_lt _ hlt4⟩
  have hword5 : (View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))) = pf (ValueIdx.ix1 (⟨16 * (i 0).val + 5, by omega⟩ : Fin 64000)) :=
    table_word8 pf _ _ _ (by omega) hoffs.2.2.2.2.2.1
  have hlt5 : (View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))).toNat < 50000 := by rw [hword5]; exact hok _
  have hw6 : k8_chk6 (View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))) := ⟨chk_lt _ hlt5, chk_lt _ hlt5⟩
  have hword6 : (View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))) = pf (ValueIdx.ix1 (⟨16 * (i 0).val + 6, by omega⟩ : Fin 64000)) :=
    table_word8 pf _ _ _ (by omega) hoffs.2.2.2.2.2.2.1
  have hlt6 : (View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))).toNat < 50000 := by rw [hword6]; exact hok _
  have hw7 : k8_chk7 (View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))) := ⟨chk_lt _ hlt6, chk_lt _ hlt6⟩
  have hword7 : (View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))) = pf (ValueIdx.ix1 (⟨16 * (i 0).val + 7, by omega⟩ : Fin 64000)) :=
    table_word8 pf _ _ _ (by omega) hoffs.2.2.2.2.2.2.2.1
  have hlt7 : (View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))).toNat < 50000 := by rw [hword7]; exact hok _
  have hw8 : k8_chk8 (View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))) := ⟨chk_lt _ hlt7, chk_lt _ hlt7⟩
  have hword8 : (View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))) = pf (ValueIdx.ix1 (⟨16 * (i 0).val + 8, by omega⟩ : Fin 64000)) :=
    table_word8 pf _ _ _ (by omega) hoffs.2.2.2.2.2.2.2.2.1
  have hlt8 : (View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))).toNat < 50000 := by rw [hword8]; exact hok _
  have hw9 : k8_chk9 (View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))) := ⟨chk_lt _ hlt8, chk_lt _ hlt8⟩
  have hword9 : (View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))) = pf (ValueIdx.ix1 (⟨16 * (i 0).val + 9, by omega⟩ : Fin 64000)) :=
    table_word8 pf _ _ _ (by omega) hoffs.2.2.2.2.2.2.2.2.2.1
  have hlt9 : (View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))).toNat < 50000 := by rw [hword9]; exact hok _
  have hw10 : k8_chk10 (View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))) := ⟨chk_lt _ hlt9, chk_lt _ hlt9⟩
  have hword10 : (View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))) = pf (ValueIdx.ix1 (⟨16 * (i 0).val + 10, by omega⟩ : Fin 64000)) :=
    table_word8 pf _ _ _ (by omega) hoffs.2.2.2.2.2.2.2.2.2.2.1
  have hlt10 : (View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))).toNat < 50000 := by rw [hword10]; exact hok _
  have hw11 : k8_chk11 (View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))) := ⟨chk_lt _ hlt10, chk_lt _ hlt10⟩
  have hword11 : (View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))) = pf (ValueIdx.ix1 (⟨16 * (i 0).val + 11, by omega⟩ : Fin 64000)) :=
    table_word8 pf _ _ _ (by omega) hoffs.2.2.2.2.2.2.2.2.2.2.2.1
  have hlt11 : (View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))).toNat < 50000 := by rw [hword11]; exact hok _
  have hw12 : k8_chk12 (View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))) := ⟨chk_lt _ hlt11, chk_lt _ hlt11⟩
  have hword12 : (View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))) = pf (ValueIdx.ix1 (⟨16 * (i 0).val + 12, by omega⟩ : Fin 64000)) :=
    table_word8 pf _ _ _ (by omega) hoffs.2.2.2.2.2.2.2.2.2.2.2.2.1
  have hlt12 : (View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))).toNat < 50000 := by rw [hword12]; exact hok _
  have hw13 : k8_chk13 (View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))) := ⟨chk_lt _ hlt12, chk_lt _ hlt12⟩
  have hword13 : (View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))) = pf (ValueIdx.ix1 (⟨16 * (i 0).val + 13, by omega⟩ : Fin 64000)) :=
    table_word8 pf _ _ _ (by omega) hoffs.2.2.2.2.2.2.2.2.2.2.2.2.2.1
  have hlt13 : (View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))).toNat < 50000 := by rw [hword13]; exact hok _
  have hw14 : k8_chk14 (View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))) := ⟨chk_lt _ hlt13, chk_lt _ hlt13⟩
  have hword14 : (View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))) = pf (ValueIdx.ix1 (⟨16 * (i 0).val + 14, by omega⟩ : Fin 64000)) :=
    table_word8 pf _ _ _ (by omega) hoffs.2.2.2.2.2.2.2.2.2.2.2.2.2.2.1
  have hlt14 : (View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))).toNat < 50000 := by rw [hword14]; exact hok _
  have hw15 : k8_chk15 (View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))) := ⟨chk_lt _ hlt14, chk_lt _ hlt14⟩
  have hword15 : (View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))) = pf (ValueIdx.ix1 (⟨16 * (i 0).val + 15, by omega⟩ : Fin 64000)) :=
    table_word8 pf _ _ _ (by omega) hoffs.2.2.2.2.2.2.2.2.2.2.2.2.2.2.2
  have hlt15 : (View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))).toNat < 50000 := by rw [hword15]; exact hok _
  have hw16 : k8_chk16 (View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))) := chk_lt _ hlt15
  rw [cc8__gather_kernel_eq_skeleton]; unfold cc8__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb8M).IsWhole).eq_unread hfp
  ihave HR := (rows_split8 (F := F) c fsc) $$ HSC
  icases HR with ⟨HS0, HS1, HS2, HS3, HS4, HS5, HS6, HS7, HS8, HS9, HS10, HS11, HS12, HS13, HS14, HS15⟩
  ihave HS0 := (Entails.of_eq (show ((gsc8M.view.loc (c : Thread nD τ) ↦[gr8_0M.view.set]{fullShare} fsc : sProp 𝕄)) = (gr8_0M.view.loc (c : Thread nD τ) ↦[gr8_0M.view.set]{fullShare} fsc) from rfl)) $$ HS0
  ihave HS1 := (Entails.of_eq (show ((gsc8M.view.loc (c : Thread nD τ) ↦[gr8_1M.view.set]{fullShare} fsc : sProp 𝕄)) = (gr8_1M.view.loc (c : Thread nD τ) ↦[gr8_1M.view.set]{fullShare} fsc) from rfl)) $$ HS1
  ihave HS2 := (Entails.of_eq (show ((gsc8M.view.loc (c : Thread nD τ) ↦[gr8_2M.view.set]{fullShare} fsc : sProp 𝕄)) = (gr8_2M.view.loc (c : Thread nD τ) ↦[gr8_2M.view.set]{fullShare} fsc) from rfl)) $$ HS2
  ihave HS3 := (Entails.of_eq (show ((gsc8M.view.loc (c : Thread nD τ) ↦[gr8_3M.view.set]{fullShare} fsc : sProp 𝕄)) = (gr8_3M.view.loc (c : Thread nD τ) ↦[gr8_3M.view.set]{fullShare} fsc) from rfl)) $$ HS3
  ihave HS4 := (Entails.of_eq (show ((gsc8M.view.loc (c : Thread nD τ) ↦[gr8_4M.view.set]{fullShare} fsc : sProp 𝕄)) = (gr8_4M.view.loc (c : Thread nD τ) ↦[gr8_4M.view.set]{fullShare} fsc) from rfl)) $$ HS4
  ihave HS5 := (Entails.of_eq (show ((gsc8M.view.loc (c : Thread nD τ) ↦[gr8_5M.view.set]{fullShare} fsc : sProp 𝕄)) = (gr8_5M.view.loc (c : Thread nD τ) ↦[gr8_5M.view.set]{fullShare} fsc) from rfl)) $$ HS5
  ihave HS6 := (Entails.of_eq (show ((gsc8M.view.loc (c : Thread nD τ) ↦[gr8_6M.view.set]{fullShare} fsc : sProp 𝕄)) = (gr8_6M.view.loc (c : Thread nD τ) ↦[gr8_6M.view.set]{fullShare} fsc) from rfl)) $$ HS6
  ihave HS7 := (Entails.of_eq (show ((gsc8M.view.loc (c : Thread nD τ) ↦[gr8_7M.view.set]{fullShare} fsc : sProp 𝕄)) = (gr8_7M.view.loc (c : Thread nD τ) ↦[gr8_7M.view.set]{fullShare} fsc) from rfl)) $$ HS7
  ihave HS8 := (Entails.of_eq (show ((gsc8M.view.loc (c : Thread nD τ) ↦[gr8_8M.view.set]{fullShare} fsc : sProp 𝕄)) = (gr8_8M.view.loc (c : Thread nD τ) ↦[gr8_8M.view.set]{fullShare} fsc) from rfl)) $$ HS8
  ihave HS9 := (Entails.of_eq (show ((gsc8M.view.loc (c : Thread nD τ) ↦[gr8_9M.view.set]{fullShare} fsc : sProp 𝕄)) = (gr8_9M.view.loc (c : Thread nD τ) ↦[gr8_9M.view.set]{fullShare} fsc) from rfl)) $$ HS9
  ihave HS10 := (Entails.of_eq (show ((gsc8M.view.loc (c : Thread nD τ) ↦[gr8_10M.view.set]{fullShare} fsc : sProp 𝕄)) = (gr8_10M.view.loc (c : Thread nD τ) ↦[gr8_10M.view.set]{fullShare} fsc) from rfl)) $$ HS10
  ihave HS11 := (Entails.of_eq (show ((gsc8M.view.loc (c : Thread nD τ) ↦[gr8_11M.view.set]{fullShare} fsc : sProp 𝕄)) = (gr8_11M.view.loc (c : Thread nD τ) ↦[gr8_11M.view.set]{fullShare} fsc) from rfl)) $$ HS11
  ihave HS12 := (Entails.of_eq (show ((gsc8M.view.loc (c : Thread nD τ) ↦[gr8_12M.view.set]{fullShare} fsc : sProp 𝕄)) = (gr8_12M.view.loc (c : Thread nD τ) ↦[gr8_12M.view.set]{fullShare} fsc) from rfl)) $$ HS12
  ihave HS13 := (Entails.of_eq (show ((gsc8M.view.loc (c : Thread nD τ) ↦[gr8_13M.view.set]{fullShare} fsc : sProp 𝕄)) = (gr8_13M.view.loc (c : Thread nD τ) ↦[gr8_13M.view.set]{fullShare} fsc) from rfl)) $$ HS13
  ihave HS14 := (Entails.of_eq (show ((gsc8M.view.loc (c : Thread nD τ) ↦[gr8_14M.view.set]{fullShare} fsc : sProp 𝕄)) = (gr8_14M.view.loc (c : Thread nD τ) ↦[gr8_14M.view.set]{fullShare} fsc) from rfl)) $$ HS14
  ihave HS15 := (Entails.of_eq (show ((gsc8M.view.loc (c : Thread nD τ) ↦[gr8_15M.view.set]{fullShare} fsc : sProp 𝕄)) = (gr8_15M.view.loc (c : Thread nD τ) ↦[gr8_15M.view.set]{fullShare} fsc) from rfl)) $$ HS15
  ihave HB := (split16 (ℓ := ghb8M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join8 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))).toNat, hlt0⟩ : Fin 50000) (0 : Fin 1) l) :=
    row_landed8 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))).toNat, hlt1⟩ : Fin 50000) (0 : Fin 1) l) :=
    row_landed8 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))).toNat, hlt2⟩ : Fin 50000) (0 : Fin 1) l) :=
    row_landed8 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))).toNat, hlt3⟩ : Fin 50000) (0 : Fin 1) l) :=
    row_landed8 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))).toNat, hlt4⟩ : Fin 50000) (0 : Fin 1) l) :=
    row_landed8 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))).toNat, hlt5⟩ : Fin 50000) (0 : Fin 1) l) :=
    row_landed8 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))).toNat, hlt6⟩ : Fin 50000) (0 : Fin 1) l) :=
    row_landed8 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))).toNat, hlt7⟩ : Fin 50000) (0 : Fin 1) l) :=
    row_landed8 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))).toNat, hlt8⟩ : Fin 50000) (0 : Fin 1) l) :=
    row_landed8 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))).toNat, hlt9⟩ : Fin 50000) (0 : Fin 1) l) :=
    row_landed8 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))).toNat, hlt10⟩ : Fin 50000) (0 : Fin 1) l) :=
    row_landed8 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))).toNat, hlt11⟩ : Fin 50000) (0 : Fin 1) l) :=
    row_landed8 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))).toNat, hlt12⟩ : Fin 50000) (0 : Fin 1) l) :=
    row_landed8 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))).toNat, hlt13⟩ : Fin 50000) (0 : Fin 1) l) :=
    row_landed8 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))).toNat, hlt14⟩ : Fin 50000) (0 : Fin 1) l) :=
    row_landed8 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))).toNat, hlt15⟩ : Fin 50000) (0 : Fin 1) l) :=
    row_landed8 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load8]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb8M).IsWhole).read_unread _
  isplitl [Hh0 Hh1 Hh2 Hh3 Hh4 Hh5 Hh6 Hh7 Hh8 Hh9 Hh10 Hh11 Hh12 Hh13 Hh14 Hh15]
  · iapply (join16 (ℓ := ghb8M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather8.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 8's own DMA semaphores: one per row of the step. -/
abbrev gsem8 : Fin 16 → SemLoc sig := fun j =>
  (![SemLoc.dma 146, SemLoc.dma 147, SemLoc.dma 148, SemLoc.dma 149, SemLoc.dma 150, SemLoc.dma 151, SemLoc.dma 152, SemLoc.dma 153, SemLoc.dma 154, SemLoc.dma 155, SemLoc.dma 156, SemLoc.dma 157, SemLoc.dma 158, SemLoc.dma 159, SemLoc.dma 160, SemLoc.dma 161] : Fin 16 → SemLoc sig) j
theorem gsemFacts8 : Pipeline.OwnSemFacts spec8 gsem8 := by decide

/-- The buffers the body reads without a window: the node table in HBM and its chunk of the edge-source table. -/
def gH8 : Finset (Ref sig .tc) := {main_v0, main_v17}
theorem gH8_sub : gH8 ⊆ Pipeline.restRefs sig spec8 := by decide

/-- The call's prefetched table at the contents the region finds. -/
def gadm8 (c : Dev nD) : (pcfg8 (F := F)).Adm := ⟨fun k => match k with | ⟨0, _⟩ => V c main_v17, trivial⟩

/-- The proof data of gather call 8 on core `c`: the output array as found; after step `t` the output block holds
    the gathered rows; the invariant carries the scratch, the call's semaphores at zero and the two tables as found. -/
def gdat8 (a : (pcfg8 (F := F)).Adm) (c : Dev nD) : Dat τ (Elt F) Unit ℕ (Pipeline.UD sig nD τ) ℕ (cfg8 a) c where
  A w := V c (Pipeline.arrRef spec8 w)
  after w t := match w with
    | ⟨0, _⟩ => gblock (V c main_v0) (V c main_v17) t.val
  Φ _ := Pipeline.ΦD gsem8 spec8 gH8 V c
  q _ := fullShare
  owed _ := 0

theorem gdat8_A (a : (pcfg8 (F := F)).Adm) (c : Dev nD) (w : Fin (cfg8 a).W) :
    (gdat8 V a c).A w = V c (Pipeline.arrRef spec8 w) := by dsimp only [gdat8]
theorem gdat8_after (a : (pcfg8 (F := F)).Adm) (c : Dev nD) (t : Fin (cfg8 a).N) :
    (gdat8 V a c).after 0 t = gblock (V c main_v0) (V c main_v17) t.val := rfl

/-! ## The body obligation, from the body's run -/

/-- The call's scratch buffer whole at some contents, said of the buffer and said through the whole-buffer memref. -/
theorem gsc8_whole (c : Dev nD) :
    (iprop(∃ f, gsc8M.view.loc (c : Thread nD τ) ↦[gsc8M.view.set]{fullShare} f) : sProp 𝕄)
      = iprop(∃ f : Buf (Elt F) ((c : Thread nD τ).loc cc8_scratch0), ((c : Thread nD τ).loc cc8_scratch0) ↦{fullShare} f) := by
  simp only [gsc8M, Memref.view_whole, View.set_whole]

/-- The region invariant of gather call 8, conjunct by conjunct: the call's scratch buffer whole at some contents beside
    the scoped buffers it does not touch, the generator register at some state, its sixteen semaphores at zero, and
    the two tables whole at the contents the region finds. -/
theorem PhiD8_eq (c : Dev nD) :
    (Pipeline.ΦD gsem8 spec8 gH8 V c : sProp 𝕄)
      = iprop(iprop((∃ f, gsc8M.view.loc (c : Thread nD τ) ↦[gsc8M.view.set]{fullShare} f)
            ∗ Pipeline.scopedRestBut (Ix := Unit) (Name := ℕ) (U := Pipeline.UD sig nD τ) (Lvl := ℕ) (Val := Elt F) spec8 c [cc8_scratch0])
          ∗ (∃ r, prngReg c r)
          ∗ iprop(semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0)
          ∗ iprop((ghb8M.view.loc (c : Thread nD τ) ↦{fullShare} V c main_v0) ∗ owns (c : Thread nD τ) gtb8M fullShare (V c main_v17))) := by
  rw [gsc8_whole, owns_whole, Pipeline.ΦD_eq, scopedRest8_split,
    Pipeline.ownSems0_eq_of_list c gsem8 [0, 1, 2, 3, 4, 5, 6, 7, 8, 9, 10, 11, 12, 13, 14, 15] (by decide) (by decide),
    BI.bigSep_eq_bigSepL_of_eq [main_v0, main_v17] (by decide) (by decide)]
  rfl

/-- The kernel body of gather call 8 as the pipeline calls it at point `t`: the step's coordinates, the two tables whole,
    the output window's current staging buffer, the scratch buffer and the sixteen semaphores. -/
abbrev gbodyAt8 (a : (pcfg8 (F := F)).Adm) (t : Fin (cfg8 a).N) : Prog (TpuEff nD τ sig (Elt F) Λ₀ .tc) PUnit :=
  cc8__gather_kernel ((cfg8 a).grid.coords t) gtb8M (Memref.isWhole_whole _) ghb8M (Memref.isWhole_whole _)
    (spec8_0.stage ((cfg8 a).slots t 0)) (hstage8_0 (((cfg8 a).slots t 0).cast nbuf8_0)) gsc8M (Memref.isWhole_whole _) cc8_scratch1

/-- The grid is one axis of 4000 steps: the step's one coordinate is its number. -/
theorem gcoord8 (a : (pcfg8 (F := F)).Adm) (t : Fin (cfg8 a).N) : (((cfg8 a).grid.coords t) 0).val = t.val := by
  have ht : t.val < 4000 := lt_of_lt_of_eq t.isLt N_8
  show t.val / 1 % 4000 = t.val
  omega

/-- What the body is called with at point `t`: the invariant, the core's `owes`, the output window's current staging
    buffer at whatever it holds, -/
def gbodyPre8 (a : (pcfg8 (F := F)).Adm) (c : Dev nD) (t : Fin (cfg8 a).N) : sProp 𝕄 :=
  iprop((gdat8 V a c).Φ t.castSucc ∗ (gdat8 V a c).owesAt () t.castSucc
    ∗ (∃ d, owns (c : Thread nD τ) (spec8_0.stage ((cfg8 a).slots t 0)) fullShare ((gdat8 V a c).before 0 t d)))

/-- and what it returns: the invariant, `owes`, the staging buffer at the step's gathered rows. -/
def gbodyPost8 (a : (pcfg8 (F := F)).Adm) (c : Dev nD) (t : Fin (cfg8 a).N) : sProp 𝕄 :=
  iprop((gdat8 V a c).Φ t.succ ∗ (gdat8 V a c).owesAt () t.succ
    ∗ owns (c : Thread nD τ) (spec8_0.stage ((cfg8 a).slots t 0)) fullShare ((gdat8 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body8 (a : (pcfg8 (F := F)).Adm) (c : Dev nD)
    (hok : ∀ e : S64000.Idx, (V c main_v17 e).toNat < 50000) (t : Fin (cfg8 a).N) :
    gbodyPre8 V a c t ⊢ wp frame (wpE (defs₀ (F := F)) Variants.none c none) Set.univ (gbodyAt8 a t) (fun _ => gbodyPost8 V a c t) := by
  unfold gbodyPre8 gbodyPost8 gbodyAt8
  rw [show (gdat8 V a c).Φ t.succ = Pipeline.ΦD gsem8 spec8 gH8 V c from rfl,
    show (gdat8 V a c).Φ t.castSucc = Pipeline.ΦD gsem8 spec8 gH8 V c from rfl, gdat8_after, PhiD8_eq]
  unfold Dat.owesAt Pipeline.owesWithin
  rw [show (gdat8 V a c).owed t.castSucc = 0 from rfl, show (gdat8 V a c).owed t.succ = 0 from rfl]
  have hrun := fun W K => gather_run8 (F := F) c ((cfg8 a).grid.coords t) (spec8_0.stage ((cfg8 a).slots t 0))
    (hstage8_0 (((cfg8 a).slots t 0).cast nbuf8_0)) (V c main_v17) (V c main_v0) hok W K
  rw [gcoord8 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 8, when every word of its table names a row of the node table. -/
theorem gather_obligation8 (a : (pcfg8 (F := F)).Adm) (c : Dev nD)
    (hok : ∀ e : S64000.Idx, (V c main_v17 e).toNat < 50000) :
    BodyObligation (gdat8 (F := F) V a c) (defs₀ (F := F)) Variants.none () Set.univ := fun t => by
  rw [bigSep_W8, bigSep_W8]
  exact gsound_body8 V a c hok t

end

end Cert.KernelIdeal.Hand

end
-- ==== Proof.RowsJoin9.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 9's scratch buffer, whole, and its sixteen rows as the body addresses them. -/
abbrev gsc9M : Memref sig .tc .vmem S16x1x128 .f32 := Memref.whole cc9_scratch0
abbrev gr9_0M : Memref sig .tc .vmem S1x128 .f32 := ((Memref.whole cc9_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr9_1M : Memref sig .tc .vmem S1x128 .f32 := ((Memref.whole cc9_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr9_2M : Memref sig .tc .vmem S1x128 .f32 := ((Memref.whole cc9_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr9_3M : Memref sig .tc .vmem S1x128 .f32 := ((Memref.whole cc9_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr9_4M : Memref sig .tc .vmem S1x128 .f32 := ((Memref.whole cc9_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr9_5M : Memref sig .tc .vmem S1x128 .f32 := ((Memref.whole cc9_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr9_6M : Memref sig .tc .vmem S1x128 .f32 := ((Memref.whole cc9_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr9_7M : Memref sig .tc .vmem S1x128 .f32 := ((Memref.whole cc9_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr9_8M : Memref sig .tc .vmem S1x128 .f32 := ((Memref.whole cc9_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr9_9M : Memref sig .tc .vmem S1x128 .f32 := ((Memref.whole cc9_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr9_10M : Memref sig .tc .vmem S1x128 .f32 := ((Memref.whole cc9_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr9_11M : Memref sig .tc .vmem S1x128 .f32 := ((Memref.whole cc9_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr9_12M : Memref sig .tc .vmem S1x128 .f32 := ((Memref.whole cc9_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr9_13M : Memref sig .tc .vmem S1x128 .f32 := ((Memref.whole cc9_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr9_14M : Memref sig .tc .vmem S1x128 .f32 := ((Memref.whole cc9_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr9_15M : Memref sig .tc .vmem S1x128 .f32 := ((Memref.whole cc9_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr9_0M.view.set = rowSet (0 : Fin 16) := by
  refine (View.set_reshape _ _).trans ?_
  refine (View.set_slice_whole _ _).trans ?_
  rfl
private theorem row_set_1 : gr9_1M.view.set = rowSet (1 : Fin 16) := by
  refine (View.set_reshape _ _).trans ?_
  refine (View.set_slice_whole _ _).trans ?_
  rfl
private theorem row_set_2 : gr9_2M.view.set = rowSet (2 : Fin 16) := by
  refine (View.set_reshape _ _).trans ?_
  refine (View.set_slice_whole _ _).trans ?_
  rfl
private theorem row_set_3 : gr9_3M.view.set = rowSet (3 : Fin 16) := by
  refine (View.set_reshape _ _).trans ?_
  refine (View.set_slice_whole _ _).trans ?_
  rfl
private theorem row_set_4 : gr9_4M.view.set = rowSet (4 : Fin 16) := by
  refine (View.set_reshape _ _).trans ?_
  refine (View.set_slice_whole _ _).trans ?_
  rfl
private theorem row_set_5 : gr9_5M.view.set = rowSet (5 : Fin 16) := by
  refine (View.set_reshape _ _).trans ?_
  refine (View.set_slice_whole _ _).trans ?_
  rfl
private theorem row_set_6 : gr9_6M.view.set = rowSet (6 : Fin 16) := by
  refine (View.set_reshape _ _).trans ?_
  refine (View.set_slice_whole _ _).trans ?_
  rfl
private theorem row_set_7 : gr9_7M.view.set = rowSet (7 : Fin 16) := by
  refine (View.set_reshape _ _).trans ?_
  refine (View.set_slice_whole _ _).trans ?_
  rfl
private theorem row_set_8 : gr9_8M.view.set = rowSet (8 : Fin 16) := by
  refine (View.set_reshape _ _).trans ?_
  refine (View.set_slice_whole _ _).trans ?_
  rfl
private theorem row_set_9 : gr9_9M.view.set = rowSet (9 : Fin 16) := by
  refine (View.set_reshape _ _).trans ?_
  refine (View.set_slice_whole _ _).trans ?_
  rfl
private theorem row_set_10 : gr9_10M.view.set = rowSet (10 : Fin 16) := by
  refine (View.set_reshape _ _).trans ?_
  refine (View.set_slice_whole _ _).trans ?_
  rfl
private theorem row_set_11 : gr9_11M.view.set = rowSet (11 : Fin 16) := by
  refine (View.set_reshape _ _).trans ?_
  refine (View.set_slice_whole _ _).trans ?_
  rfl
private theorem row_set_12 : gr9_12M.view.set = rowSet (12 : Fin 16) := by
  refine (View.set_reshape _ _).trans ?_
  refine (View.set_slice_whole _ _).trans ?_
  rfl
private theorem row_set_13 : gr9_13M.view.set = rowSet (13 : Fin 16) := by
  refine (View.set_reshape _ _).trans ?_
  refine (View.set_slice_whole _ _).trans ?_
  rfl
private theorem row_set_14 : gr9_14M.view.set = rowSet (14 : Fin 16) := by
  refine (View.set_reshape _ _).trans ?_
  refine (View.set_slice_whole _ _).trans ?_
  rfl
private theorem row_set_15 : gr9_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join9 (c : Dev nD) (f0 f1 f2 f3 f4 f5 f6 f7 f8 f9 f10 f11 f12 f13 f14 f15 : Buf (Elt F) (gsc9M.view.loc (c : Thread nD τ))) :
    (iprop((gsc9M.view.loc (c : Thread nD τ) ↦[gr9_0M.view.set]{fullShare} f0)
        ∗ (gsc9M.view.loc (c : Thread nD τ) ↦[gr9_1M.view.set]{fullShare} f1)
        ∗ (gsc9M.view.loc (c : Thread nD τ) ↦[gr9_2M.view.set]{fullShare} f2)
        ∗ (gsc9M.view.loc (c : Thread nD τ) ↦[gr9_3M.view.set]{fullShare} f3)
        ∗ (gsc9M.view.loc (c : Thread nD τ) ↦[gr9_4M.view.set]{fullShare} f4)
        ∗ (gsc9M.view.loc (c : Thread nD τ) ↦[gr9_5M.view.set]{fullShare} f5)
        ∗ (gsc9M.view.loc (c : Thread nD τ) ↦[gr9_6M.view.set]{fullShare} f6)
        ∗ (gsc9M.view.loc (c : Thread nD τ) ↦[gr9_7M.view.set]{fullShare} f7)
        ∗ (gsc9M.view.loc (c : Thread nD τ) ↦[gr9_8M.view.set]{fullShare} f8)
        ∗ (gsc9M.view.loc (c : Thread nD τ) ↦[gr9_9M.view.set]{fullShare} f9)
        ∗ (gsc9M.view.loc (c : Thread nD τ) ↦[gr9_10M.view.set]{fullShare} f10)
        ∗ (gsc9M.view.loc (c : Thread nD τ) ↦[gr9_11M.view.set]{fullShare} f11)
        ∗ (gsc9M.view.loc (c : Thread nD τ) ↦[gr9_12M.view.set]{fullShare} f12)
        ∗ (gsc9M.view.loc (c : Thread nD τ) ↦[gr9_13M.view.set]{fullShare} f13)
        ∗ (gsc9M.view.loc (c : Thread nD τ) ↦[gr9_14M.view.set]{fullShare} f14)
        ∗ (gsc9M.view.loc (c : Thread nD τ) ↦[gr9_15M.view.set]{fullShare} f15)) : sProp 𝕄)
      ⊢ iprop(∃ g : Buf (Elt F) (gsc9M.view.loc (c : Thread nD τ)),
          ⌜(∀ i ∈ gr9_0M.view.set, g i = f0 i)
            ∧ (∀ i ∈ gr9_1M.view.set, g i = f1 i)
            ∧ (∀ i ∈ gr9_2M.view.set, g i = f2 i)
            ∧ (∀ i ∈ gr9_3M.view.set, g i = f3 i)
            ∧ (∀ i ∈ gr9_4M.view.set, g i = f4 i)
            ∧ (∀ i ∈ gr9_5M.view.set, g i = f5 i)
            ∧ (∀ i ∈ gr9_6M.view.set, g i = f6 i)
            ∧ (∀ i ∈ gr9_7M.view.set, g i = f7 i)
            ∧ (∀ i ∈ gr9_8M.view.set, g i = f8 i)
            ∧ (∀ i ∈ gr9_9M.view.set, g i = f9 i)
            ∧ (∀ i ∈ gr9_10M.view.set, g i = f10 i)
            ∧ (∀ i ∈ gr9_11M.view.set, g i = f11 i)
            ∧ (∀ i ∈ gr9_12M.view.set, g i = f12 i)
            ∧ (∀ i ∈ gr9_13M.view.set, g i = f13 i)
            ∧ (∀ i ∈ gr9_14M.view.set, g i = f14 i)
            ∧ (∀ i ∈ gr9_15M.view.set, g i = f15 i)⌝
          ∗ (gsc9M.view.loc (c : Thread nD τ) ↦[gsc9M.view.set]{fullShare} g)) := by
  have hw : gsc9M.view.set = Finset.univ.biUnion rowSet := (View.set_whole _).trans rowSet_cover.symm
  exact join16 (ℓ := gsc9M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split9 (c : Dev nD) (f : Buf (Elt F) (gsc9M.view.loc (c : Thread nD τ))) :
    (gsc9M.view.loc (c : Thread nD τ) ↦[gsc9M.view.set]{fullShare} f : sProp 𝕄)
      ⊢ iprop((gsc9M.view.loc (c : Thread nD τ) ↦[gr9_0M.view.set]{fullShare} f)
        ∗ (gsc9M.view.loc (c : Thread nD τ) ↦[gr9_1M.view.set]{fullShare} f)
        ∗ (gsc9M.view.loc (c : Thread nD τ) ↦[gr9_2M.view.set]{fullShare} f)
        ∗ (gsc9M.view.loc (c : Thread nD τ) ↦[gr9_3M.view.set]{fullShare} f)
        ∗ (gsc9M.view.loc (c : Thread nD τ) ↦[gr9_4M.view.set]{fullShare} f)
        ∗ (gsc9M.view.loc (c : Thread nD τ) ↦[gr9_5M.view.set]{fullShare} f)
        ∗ (gsc9M.view.loc (c : Thread nD τ) ↦[gr9_6M.view.set]{fullShare} f)
        ∗ (gsc9M.view.loc (c : Thread nD τ) ↦[gr9_7M.view.set]{fullShare} f)
        ∗ (gsc9M.view.loc (c : Thread nD τ) ↦[gr9_8M.view.set]{fullShare} f)
        ∗ (gsc9M.view.loc (c : Thread nD τ) ↦[gr9_9M.view.set]{fullShare} f)
        ∗ (gsc9M.view.loc (c : Thread nD τ) ↦[gr9_10M.view.set]{fullShare} f)
        ∗ (gsc9M.view.loc (c : Thread nD τ) ↦[gr9_11M.view.set]{fullShare} f)
        ∗ (gsc9M.view.loc (c : Thread nD τ) ↦[gr9_12M.view.set]{fullShare} f)
        ∗ (gsc9M.view.loc (c : Thread nD τ) ↦[gr9_13M.view.set]{fullShare} f)
        ∗ (gsc9M.view.loc (c : Thread nD τ) ↦[gr9_14M.view.set]{fullShare} f)
        ∗ (gsc9M.view.loc (c : Thread nD τ) ↦[gr9_15M.view.set]{fullShare} f)) := by
  have hw : gsc9M.view.set = Finset.univ.biUnion rowSet := (View.set_whole _).trans rowSet_cover.symm
  exact split16 (ℓ := gsc9M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.KernelIdeal.Hand

end
-- ==== Proof.GatherRows9.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.RowsJoin9
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 9's chunk of the edge-source table in scalar memory, whole. -/
abbrev ghb9M : Memref sig .tc .hbm S50000x1x128 .f32 := Memref.whole main_v0
abbrev gtb9M : Memref sig .tc .smem S64000 .i32 := Memref.whole main_v19

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc9M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb9M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed9 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb9M.view.loc (c : Thread nD τ))) (fs g : Buf (Elt F) (gsc9M.view.loc (c : Thread nD τ)))
    (hg : ∀ i ∈ ((gsc9M.slice (Rect.unit (s := S16x1x128) ![j, 0, 0] S1x1x128.size inb) (fun _ => rfl)).squeeze S1x128 squeezes_S1x1x128_S1x128).view.set,
        g i = ((gsc9M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb9M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc9M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb9M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load9 (c : Dev nD) (g : Buf (Elt F) (gsc9M.view.loc (c : Thread nD τ))) (y : S16x1x128.Idx) :
    View.readAt (Elt F) gsc9M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word9 (pf : S64000.Idx → Elt F .i32) (off : Fin 1 → ℕ) (inb : ∀ a, off a + S1.size a ≤ S64000.size a)
    (n : ℕ) (hn : n < 64000) (hoff : off 0 = n) :
    View.readAt (Elt F) gtb9M.view (Rect.unit (s := S64000) off S1.size inb).toLoadRect
        ((Memref.isWhole_whole _ : gtb9M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs9 (i : grid9.Coords) :
    (k9_off1 i) 0 = 16 * (i 0).val + 0
    ∧ (k9_off3 i) 0 = 16 * (i 0).val + 1
    ∧ (k9_off5 i) 0 = 16 * (i 0).val + 2
    ∧ (k9_off7 i) 0 = 16 * (i 0).val + 3
    ∧ (k9_off9 i) 0 = 16 * (i 0).val + 4
    ∧ (k9_off11 i) 0 = 16 * (i 0).val + 5
    ∧ (k9_off13 i) 0 = 16 * (i 0).val + 6
    ∧ (k9_off15 i) 0 = 16 * (i 0).val + 7
    ∧ (k9_off17 i) 0 = 16 * (i 0).val + 8
    ∧ (k9_off19 i) 0 = 16 * (i 0).val + 9
    ∧ (k9_off21 i) 0 = 16 * (i 0).val + 10
    ∧ (k9_off23 i) 0 = 16 * (i 0).val + 11
    ∧ (k9_off25 i) 0 = 16 * (i 0).val + 12
    ∧ (k9_off27 i) 0 = 16 * (i 0).val + 13
    ∧ (k9_off29 i) 0 = 16 * (i 0).val + 14
    ∧ (k9_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.KernelIdeal.Hand

end
-- ==== Proof.GatherRun9.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GatherRows9
import proofs.«401076_j19361712571372_2_alg».proof.Proof.Shares
import proofs.«401076_j19361712571372_2_alg».proof.Proof.GSpec
import proofs.«401076_j19361712571372_2_alg».proof.Proof.GatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 9's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run9 (c : Dev nD) (i : grid9.Coords) (arg3 : Memref sig .tc .vmem S16x1x128 .f32) (harg3 : arg3.IsWhole)
    (pf : S64000.Idx → Elt F .i32) (tb : Buf (Elt F) (ghb9M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc9M.view.loc (c : Thread nD τ) ↦[gsc9M.view.set]{fullShare} f)
        ∗ owns (c : Thread nD τ) gtb9M fullShare pf
        ∗ (ghb9M.view.loc (c : Thread nD τ) ↦{fullShare} tb)
        ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0
        ∗ owes (c : Thread nD τ) 0 W
        ∗ (iprop(owns (c : Thread nD τ) arg3 fullShare (gblock tb pf (i 0).val)
            ∗ (∃ f, gsc9M.view.loc (c : Thread nD τ) ↦[gsc9M.view.set]{fullShare} f)
            ∗ owns (c : Thread nD τ) gtb9M fullShare pf
            ∗ (ghb9M.view.loc (c : Thread nD τ) ↦{fullShare} tb)
            ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0
            ∗ (∃ W', owes (c : Thread nD τ) 0 W')) -∗ K ⟨⟩))
      ⊢ wp frame (wpE (defs₀ (F := F)) Variants.none c none) Set.univ
          (cc9__gather_kernel i gtb9M (Memref.isWhole_whole _) ghb9M (Memref.isWhole_whole _) arg3 harg3 gsc9M (Memref.isWhole_whole _) cc9_scratch1) K := by
  have hi : (i 0).val < 4000 := (i 0).isLt
  have hoffs := table_offs9 i
  have hword0 : (View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))) = pf (ValueIdx.ix1 (⟨16 * (i 0).val + 0, by omega⟩ : Fin 64000)) :=
    table_word9 pf _ _ _ (by omega) hoffs.1
  have hlt0 : (View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))).toNat < 50000 := by rw [hword0]; exact hok _
  have hw1 : k9_chk1 (View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))) := ⟨chk_lt _ hlt0, chk_lt _ hlt0⟩
  have hword1 : (View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))) = pf (ValueIdx.ix1 (⟨16 * (i 0).val + 1, by omega⟩ : Fin 64000)) :=
    table_word9 pf _ _ _ (by omega) hoffs.2.1
  have hlt1 : (View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))).toNat < 50000 := by rw [hword1]; exact hok _
  have hw2 : k9_chk2 (View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))) := ⟨chk_lt _ hlt1, chk_lt _ hlt1⟩
  have hword2 : (View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))) = pf (ValueIdx.ix1 (⟨16 * (i 0).val + 2, by omega⟩ : Fin 64000)) :=
    table_word9 pf _ _ _ (by omega) hoffs.2.2.1
  have hlt2 : (View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))).toNat < 50000 := by rw [hword2]; exact hok _
  have hw3 : k9_chk3 (View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))) := ⟨chk_lt _ hlt2, chk_lt _ hlt2⟩
  have hword3 : (View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))) = pf (ValueIdx.ix1 (⟨16 * (i 0).val + 3, by omega⟩ : Fin 64000)) :=
    table_word9 pf _ _ _ (by omega) hoffs.2.2.2.1
  have hlt3 : (View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))).toNat < 50000 := by rw [hword3]; exact hok _
  have hw4 : k9_chk4 (View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))) := ⟨chk_lt _ hlt3, chk_lt _ hlt3⟩
  have hword4 : (View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))) = pf (ValueIdx.ix1 (⟨16 * (i 0).val + 4, by omega⟩ : Fin 64000)) :=
    table_word9 pf _ _ _ (by omega) hoffs.2.2.2.2.1
  have hlt4 : (View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))).toNat < 50000 := by rw [hword4]; exact hok _
  have hw5 : k9_chk5 (View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))) := ⟨chk_lt _ hlt4, chk_lt _ hlt4⟩
  have hword5 : (View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))) = pf (ValueIdx.ix1 (⟨16 * (i 0).val + 5, by omega⟩ : Fin 64000)) :=
    table_word9 pf _ _ _ (by omega) hoffs.2.2.2.2.2.1
  have hlt5 : (View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))).toNat < 50000 := by rw [hword5]; exact hok _
  have hw6 : k9_chk6 (View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))) := ⟨chk_lt _ hlt5, chk_lt _ hlt5⟩
  have hword6 : (View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))) = pf (ValueIdx.ix1 (⟨16 * (i 0).val + 6, by omega⟩ : Fin 64000)) :=
    table_word9 pf _ _ _ (by omega) hoffs.2.2.2.2.2.2.1
  have hlt6 : (View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))).toNat < 50000 := by rw [hword6]; exact hok _
  have hw7 : k9_chk7 (View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))) := ⟨chk_lt _ hlt6, chk_lt _ hlt6⟩
  have hword7 : (View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))) = pf (ValueIdx.ix1 (⟨16 * (i 0).val + 7, by omega⟩ : Fin 64000)) :=
    table_word9 pf _ _ _ (by omega) hoffs.2.2.2.2.2.2.2.1
  have hlt7 : (View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))).toNat < 50000 := by rw [hword7]; exact hok _
  have hw8 : k9_chk8 (View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))) := ⟨chk_lt _ hlt7, chk_lt _ hlt7⟩
  have hword8 : (View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))) = pf (ValueIdx.ix1 (⟨16 * (i 0).val + 8, by omega⟩ : Fin 64000)) :=
    table_word9 pf _ _ _ (by omega) hoffs.2.2.2.2.2.2.2.2.1
  have hlt8 : (View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))).toNat < 50000 := by rw [hword8]; exact hok _
  have hw9 : k9_chk9 (View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))) := ⟨chk_lt _ hlt8, chk_lt _ hlt8⟩
  have hword9 : (View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))) = pf (ValueIdx.ix1 (⟨16 * (i 0).val + 9, by omega⟩ : Fin 64000)) :=
    table_word9 pf _ _ _ (by omega) hoffs.2.2.2.2.2.2.2.2.2.1
  have hlt9 : (View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))).toNat < 50000 := by rw [hword9]; exact hok _
  have hw10 : k9_chk10 (View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))) := ⟨chk_lt _ hlt9, chk_lt _ hlt9⟩
  have hword10 : (View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))) = pf (ValueIdx.ix1 (⟨16 * (i 0).val + 10, by omega⟩ : Fin 64000)) :=
    table_word9 pf _ _ _ (by omega) hoffs.2.2.2.2.2.2.2.2.2.2.1
  have hlt10 : (View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))).toNat < 50000 := by rw [hword10]; exact hok _
  have hw11 : k9_chk11 (View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))) := ⟨chk_lt _ hlt10, chk_lt _ hlt10⟩
  have hword11 : (View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))) = pf (ValueIdx.ix1 (⟨16 * (i 0).val + 11, by omega⟩ : Fin 64000)) :=
    table_word9 pf _ _ _ (by omega) hoffs.2.2.2.2.2.2.2.2.2.2.2.1
  have hlt11 : (View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))).toNat < 50000 := by rw [hword11]; exact hok _
  have hw12 : k9_chk12 (View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))) := ⟨chk_lt _ hlt11, chk_lt _ hlt11⟩
  have hword12 : (View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))) = pf (ValueIdx.ix1 (⟨16 * (i 0).val + 12, by omega⟩ : Fin 64000)) :=
    table_word9 pf _ _ _ (by omega) hoffs.2.2.2.2.2.2.2.2.2.2.2.2.1
  have hlt12 : (View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))).toNat < 50000 := by rw [hword12]; exact hok _
  have hw13 : k9_chk13 (View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))) := ⟨chk_lt _ hlt12, chk_lt _ hlt12⟩
  have hword13 : (View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))) = pf (ValueIdx.ix1 (⟨16 * (i 0).val + 13, by omega⟩ : Fin 64000)) :=
    table_word9 pf _ _ _ (by omega) hoffs.2.2.2.2.2.2.2.2.2.2.2.2.2.1
  have hlt13 : (View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))).toNat < 50000 := by rw [hword13]; exact hok _
  have hw14 : k9_chk14 (View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))) := ⟨chk_lt _ hlt13, chk_lt _ hlt13⟩
  have hword14 : (View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))) = pf (ValueIdx.ix1 (⟨16 * (i 0).val + 14, by omega⟩ : Fin 64000)) :=
    table_word9 pf _ _ _ (by omega) hoffs.2.2.2.2.2.2.2.2.2.2.2.2.2.2.1
  have hlt14 : (View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))).toNat < 50000 := by rw [hword14]; exact hok _
  have hw15 : k9_chk15 (View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))) := ⟨chk_lt _ hlt14, chk_lt _ hlt14⟩
  have hword15 : (View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))) = pf (ValueIdx.ix1 (⟨16 * (i 0).val + 15, by omega⟩ : Fin 64000)) :=
    table_word9 pf _ _ _ (by omega) hoffs.2.2.2.2.2.2.2.2.2.2.2.2.2.2.2
  have hlt15 : (View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))).toNat < 50000 := by rw [hword15]; exact hok _
  have hw16 : k9_chk16 (View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))) := chk_lt _ hlt15
  rw [cc9__gather_kernel_eq_skeleton]; unfold cc9__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb9M).IsWhole).eq_unread hfp
  ihave HR := (rows_split9 (F := F) c fsc) $$ HSC
  icases HR with ⟨HS0, HS1, HS2, HS3, HS4, HS5, HS6, HS7, HS8, HS9, HS10, HS11, HS12, HS13, HS14, HS15⟩
  ihave HS0 := (Entails.of_eq (show ((gsc9M.view.loc (c : Thread nD τ) ↦[gr9_0M.view.set]{fullShare} fsc : sProp 𝕄)) = (gr9_0M.view.loc (c : Thread nD τ) ↦[gr9_0M.view.set]{fullShare} fsc) from rfl)) $$ HS0
  ihave HS1 := (Entails.of_eq (show ((gsc9M.view.loc (c : Thread nD τ) ↦[gr9_1M.view.set]{fullShare} fsc : sProp 𝕄)) = (gr9_1M.view.loc (c : Thread nD τ) ↦[gr9_1M.view.set]{fullShare} fsc) from rfl)) $$ HS1
  ihave HS2 := (Entails.of_eq (show ((gsc9M.view.loc (c : Thread nD τ) ↦[gr9_2M.view.set]{fullShare} fsc : sProp 𝕄)) = (gr9_2M.view.loc (c : Thread nD τ) ↦[gr9_2M.view.set]{fullShare} fsc) from rfl)) $$ HS2
  ihave HS3 := (Entails.of_eq (show ((gsc9M.view.loc (c : Thread nD τ) ↦[gr9_3M.view.set]{fullShare} fsc : sProp 𝕄)) = (gr9_3M.view.loc (c : Thread nD τ) ↦[gr9_3M.view.set]{fullShare} fsc) from rfl)) $$ HS3
  ihave HS4 := (Entails.of_eq (show ((gsc9M.view.loc (c : Thread nD τ) ↦[gr9_4M.view.set]{fullShare} fsc : sProp 𝕄)) = (gr9_4M.view.loc (c : Thread nD τ) ↦[gr9_4M.view.set]{fullShare} fsc) from rfl)) $$ HS4
  ihave HS5 := (Entails.of_eq (show ((gsc9M.view.loc (c : Thread nD τ) ↦[gr9_5M.view.set]{fullShare} fsc : sProp 𝕄)) = (gr9_5M.view.loc (c : Thread nD τ) ↦[gr9_5M.view.set]{fullShare} fsc) from rfl)) $$ HS5
  ihave HS6 := (Entails.of_eq (show ((gsc9M.view.loc (c : Thread nD τ) ↦[gr9_6M.view.set]{fullShare} fsc : sProp 𝕄)) = (gr9_6M.view.loc (c : Thread nD τ) ↦[gr9_6M.view.set]{fullShare} fsc) from rfl)) $$ HS6
  ihave HS7 := (Entails.of_eq (show ((gsc9M.view.loc (c : Thread nD τ) ↦[gr9_7M.view.set]{fullShare} fsc : sProp 𝕄)) = (gr9_7M.view.loc (c : Thread nD τ) ↦[gr9_7M.view.set]{fullShare} fsc) from rfl)) $$ HS7
  ihave HS8 := (Entails.of_eq (show ((gsc9M.view.loc (c : Thread nD τ) ↦[gr9_8M.view.set]{fullShare} fsc : sProp 𝕄)) = (gr9_8M.view.loc (c : Thread nD τ) ↦[gr9_8M.view.set]{fullShare} fsc) from rfl)) $$ HS8
  ihave HS9 := (Entails.of_eq (show ((gsc9M.view.loc (c : Thread nD τ) ↦[gr9_9M.view.set]{fullShare} fsc : sProp 𝕄)) = (gr9_9M.view.loc (c : Thread nD τ) ↦[gr9_9M.view.set]{fullShare} fsc) from rfl)) $$ HS9
  ihave HS10 := (Entails.of_eq (show ((gsc9M.view.loc (c : Thread nD τ) ↦[gr9_10M.view.set]{fullShare} fsc : sProp 𝕄)) = (gr9_10M.view.loc (c : Thread nD τ) ↦[gr9_10M.view.set]{fullShare} fsc) from rfl)) $$ HS10
  ihave HS11 := (Entails.of_eq (show ((gsc9M.view.loc (c : Thread nD τ) ↦[gr9_11M.view.set]{fullShare} fsc : sProp 𝕄)) = (gr9_11M.view.loc (c : Thread nD τ) ↦[gr9_11M.view.set]{fullShare} fsc) from rfl)) $$ HS11
  ihave HS12 := (Entails.of_eq (show ((gsc9M.view.loc (c : Thread nD τ) ↦[gr9_12M.view.set]{fullShare} fsc : sProp 𝕄)) = (gr9_12M.view.loc (c : Thread nD τ) ↦[gr9_12M.view.set]{fullShare} fsc) from rfl)) $$ HS12
  ihave HS13 := (Entails.of_eq (show ((gsc9M.view.loc (c : Thread nD τ) ↦[gr9_13M.view.set]{fullShare} fsc : sProp 𝕄)) = (gr9_13M.view.loc (c : Thread nD τ) ↦[gr9_13M.view.set]{fullShare} fsc) from rfl)) $$ HS13
  ihave HS14 := (Entails.of_eq (show ((gsc9M.view.loc (c : Thread nD τ) ↦[gr9_14M.view.set]{fullShare} fsc : sProp 𝕄)) = (gr9_14M.view.loc (c : Thread nD τ) ↦[gr9_14M.view.set]{fullShare} fsc) from rfl)) $$ HS14
  ihave HS15 := (Entails.of_eq (show ((gsc9M.view.loc (c : Thread nD τ) ↦[gr9_15M.view.set]{fullShare} fsc : sProp 𝕄)) = (gr9_15M.view.loc (c : Thread nD τ) ↦[gr9_15M.view.set]{fullShare} fsc) from rfl)) $$ HS15
  ihave HB := (split16 (ℓ := ghb9M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join9 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))).toNat, hlt0⟩ : Fin 50000) (0 : Fin 1) l) :=
    row_landed9 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))).toNat, hlt1⟩ : Fin 50000) (0 : Fin 1) l) :=
    row_landed9 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))).toNat, hlt2⟩ : Fin 50000) (0 : Fin 1) l) :=
    row_landed9 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))).toNat, hlt3⟩ : Fin 50000) (0 : Fin 1) l) :=
    row_landed9 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))).toNat, hlt4⟩ : Fin 50000) (0 : Fin 1) l) :=
    row_landed9 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))).toNat, hlt5⟩ : Fin 50000) (0 : Fin 1) l) :=
    row_landed9 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))).toNat, hlt6⟩ : Fin 50000) (0 : Fin 1) l) :=
    row_landed9 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))).toNat, hlt7⟩ : Fin 50000) (0 : Fin 1) l) :=
    row_landed9 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))).toNat, hlt8⟩ : Fin 50000) (0 : Fin 1) l) :=
    row_landed9 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))).toNat, hlt9⟩ : Fin 50000) (0 : Fin 1) l) :=
    row_landed9 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))).toNat, hlt10⟩ : Fin 50000) (0 : Fin 1) l) :=
    row_landed9 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))).toNat, hlt11⟩ : Fin 50000) (0 : Fin 1) l) :=
    row_landed9 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))).toNat, hlt12⟩ : Fin 50000) (0 : Fin 1) l) :=
    row_landed9 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))).toNat, hlt13⟩ : Fin 50000) (0 : Fin 1) l) :=
    row_landed9 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))).toNat, hlt14⟩ : Fin 50000) (0 : Fin 1) l) :=
    row_landed9 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))).toNat, hlt15⟩ : Fin 50000) (0 : Fin 1) l) :=
    row_landed9 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load9]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb9M).IsWhole).read_unread _
  isplitl [Hh0 Hh1 Hh2 Hh3 Hh4 Hh5 Hh6 Hh7 Hh8 Hh9 Hh10 Hh11 Hh12 Hh13 Hh14 Hh15]
  · iapply (join16 (ℓ := ghb9M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.KernelIdeal.Hand

end
-- ==== Proof.Gather9.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.GSpec
import proofs.«401076_j19361712571372_2_alg».proof.Proof.GatherRun9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 9's own DMA semaphores: one per row of the step. -/
abbrev gsem9 : Fin 16 → SemLoc sig := fun j =>
  (![SemLoc.dma 164, SemLoc.dma 165, SemLoc.dma 166, SemLoc.dma 167, SemLoc.dma 168, SemLoc.dma 169, SemLoc.dma 170, SemLoc.dma 171, SemLoc.dma 172, SemLoc.dma 173, SemLoc.dma 174, SemLoc.dma 175, SemLoc.dma 176, SemLoc.dma 177, SemLoc.dma 178, SemLoc.dma 179] : Fin 16 → SemLoc sig) j
theorem gsemFacts9 : Pipeline.OwnSemFacts spec9 gsem9 := by decide

/-- The buffers the body reads without a window: the node table in HBM and its chunk of the edge-source table. -/
def gH9 : Finset (Ref sig .tc) := {main_v0, main_v19}
theorem gH9_sub : gH9 ⊆ Pipeline.restRefs sig spec9 := by decide

/-- The call's prefetched table at the contents the region finds. -/
def gadm9 (c : Dev nD) : (pcfg9 (F := F)).Adm := ⟨fun k => match k with | ⟨0, _⟩ => V c main_v19, trivial⟩

/-- The proof data of gather call 9 on core `c`: the output array as found; after step `t` the output block holds
    the gathered rows; the invariant carries the scratch, the call's semaphores at zero and the two tables as found. -/
def gdat9 (a : (pcfg9 (F := F)).Adm) (c : Dev nD) : Dat τ (Elt F) Unit ℕ (Pipeline.UD sig nD τ) ℕ (cfg9 a) c where
  A w := V c (Pipeline.arrRef spec9 w)
  after w t := match w with
    | ⟨0, _⟩ => gblock (V c main_v0) (V c main_v19) t.val
  Φ _ := Pipeline.ΦD gsem9 spec9 gH9 V c
  q _ := fullShare
  owed _ := 0

theorem gdat9_A (a : (pcfg9 (F := F)).Adm) (c : Dev nD) (w : Fin (cfg9 a).W) :
    (gdat9 V a c).A w = V c (Pipeline.arrRef spec9 w) := by dsimp only [gdat9]
theorem gdat9_after (a : (pcfg9 (F := F)).Adm) (c : Dev nD) (t : Fin (cfg9 a).N) :
    (gdat9 V a c).after 0 t = gblock (V c main_v0) (V c main_v19) t.val := rfl

/-! ## The body obligation, from the body's run -/

/-- The call's scratch buffer whole at some contents, said of the buffer and said through the whole-buffer memref. -/
theorem gsc9_whole (c : Dev nD) :
    (iprop(∃ f, gsc9M.view.loc (c : Thread nD τ) ↦[gsc9M.view.set]{fullShare} f) : sProp 𝕄)
      = iprop(∃ f : Buf (Elt F) ((c : Thread nD τ).loc cc9_scratch0), ((c : Thread nD τ).loc cc9_scratch0) ↦{fullShare} f) := by
  simp only [gsc9M, Memref.view_whole, View.set_whole]

/-- The region invariant of gather call 9, conjunct by conjunct: the call's scratch buffer whole at some contents beside
    the scoped buffers it does not touch, the generator register at some state, its sixteen semaphores at zero, and
    the two tables whole at the contents the region finds. -/
theorem PhiD9_eq (c : Dev nD) :
    (Pipeline.ΦD gsem9 spec9 gH9 V c : sProp 𝕄)
      = iprop(iprop((∃ f, gsc9M.view.loc (c : Thread nD τ) ↦[gsc9M.view.set]{fullShare} f)
            ∗ Pipeline.scopedRestBut (Ix := Unit) (Name := ℕ) (U := Pipeline.UD sig nD τ) (Lvl := ℕ) (Val := Elt F) spec9 c [cc9_scratch0])
          ∗ (∃ r, prngReg c r)
          ∗ iprop(semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0)
          ∗ iprop((ghb9M.view.loc (c : Thread nD τ) ↦{fullShare} V c main_v0) ∗ owns (c : Thread nD τ) gtb9M fullShare (V c main_v19))) := by
  rw [gsc9_whole, owns_whole, Pipeline.ΦD_eq, scopedRest9_split,
    Pipeline.ownSems0_eq_of_list c gsem9 [0, 1, 2, 3, 4, 5, 6, 7, 8, 9, 10, 11, 12, 13, 14, 15] (by decide) (by decide),
    BI.bigSep_eq_bigSepL_of_eq [main_v0, main_v19] (by decide) (by decide)]
  rfl

/-- The kernel body of gather call 9 as the pipeline calls it at point `t`: the step's coordinates, the two tables whole,
    the output window's current staging buffer, the scratch buffer and the sixteen semaphores. -/
abbrev gbodyAt9 (a : (pcfg9 (F := F)).Adm) (t : Fin (cfg9 a).N) : Prog (TpuEff nD τ sig (Elt F) Λ₀ .tc) PUnit :=
  cc9__gather_kernel ((cfg9 a).grid.coords t) gtb9M (Memref.isWhole_whole _) ghb9M (Memref.isWhole_whole _)
    (spec9_0.stage ((cfg9 a).slots t 0)) (hstage9_0 (((cfg9 a).slots t 0).cast nbuf9_0)) gsc9M (Memref.isWhole_whole _) cc9_scratch1

/-- The grid is one axis of 4000 steps: the step's one coordinate is its number. -/
theorem gcoord9 (a : (pcfg9 (F := F)).Adm) (t : Fin (cfg9 a).N) : (((cfg9 a).grid.coords t) 0).val = t.val := by
  have ht : t.val < 4000 := lt_of_lt_of_eq t.isLt N_9
  show t.val / 1 % 4000 = t.val
  omega

/-- What the body is called with at point `t`: the invariant, the core's `owes`, the output window's current staging
    buffer at whatever it holds, -/
def gbodyPre9 (a : (pcfg9 (F := F)).Adm) (c : Dev nD) (t : Fin (cfg9 a).N) : sProp 𝕄 :=
  iprop((gdat9 V a c).Φ t.castSucc ∗ (gdat9 V a c).owesAt () t.castSucc
    ∗ (∃ d, owns (c : Thread nD τ) (spec9_0.stage ((cfg9 a).slots t 0)) fullShare ((gdat9 V a c).before 0 t d)))

/-- and what it returns: the invariant, `owes`, the staging buffer at the step's gathered rows. -/
def gbodyPost9 (a : (pcfg9 (F := F)).Adm) (c : Dev nD) (t : Fin (cfg9 a).N) : sProp 𝕄 :=
  iprop((gdat9 V a c).Φ t.succ ∗ (gdat9 V a c).owesAt () t.succ
    ∗ owns (c : Thread nD τ) (spec9_0.stage ((cfg9 a).slots t 0)) fullShare ((gdat9 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body9 (a : (pcfg9 (F := F)).Adm) (c : Dev nD)
    (hok : ∀ e : S64000.Idx, (V c main_v19 e).toNat < 50000) (t : Fin (cfg9 a).N) :
    gbodyPre9 V a c t ⊢ wp frame (wpE (defs₀ (F := F)) Variants.none c none) Set.univ (gbodyAt9 a t) (fun _ => gbodyPost9 V a c t) := by
  unfold gbodyPre9 gbodyPost9 gbodyAt9
  rw [show (gdat9 V a c).Φ t.succ = Pipeline.ΦD gsem9 spec9 gH9 V c from rfl,
    show (gdat9 V a c).Φ t.castSucc = Pipeline.ΦD gsem9 spec9 gH9 V c from rfl, gdat9_after, PhiD9_eq]
  unfold Dat.owesAt Pipeline.owesWithin
  rw [show (gdat9 V a c).owed t.castSucc = 0 from rfl, show (gdat9 V a c).owed t.succ = 0 from rfl]
  have hrun := fun W K => gather_run9 (F := F) c ((cfg9 a).grid.coords t) (spec9_0.stage ((cfg9 a).slots t 0))
    (hstage9_0 (((cfg9 a).slots t 0).cast nbuf9_0)) (V c main_v19) (V c main_v0) hok W K
  rw [gcoord9 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 9, when every word of its table names a row of the node table. -/
theorem gather_obligation9 (a : (pcfg9 (F := F)).Adm) (c : Dev nD)
    (hok : ∀ e : S64000.Idx, (V c main_v19 e).toNat < 50000) :
    BodyObligation (gdat9 (F := F) V a c) (defs₀ (F := F)) Variants.none () Set.univ := fun t => by
  rw [bigSep_W9, bigSep_W9]
  exact gsound_body9 V a c hok t

end

end Cert.KernelIdeal.Hand

end
-- ==== Proof.RunChain.lean ====
import proofs.«401076_j19361712571372_2_alg».proof.Proof.Gen.KernelIdeal.Launch
import proofs.«401076_j19361712571372_2_alg».proof.Proof.Gen.KernelIdeal.Skeleton
import proofs.«401076_j19361712571372_2_alg».proof.Proof.Gen.KernelIdeal.Points
import proofs.«401076_j19361712571372_2_alg».proof.Proof.Gen.KernelIdeal.Regions
import proofs.«401076_j19361712571372_2_alg».proof.Proof.GSpec
import proofs.«401076_j19361712571372_2_alg».proof.Proof.Gather0
import proofs.«401076_j19361712571372_2_alg».proof.Proof.Gather1
import proofs.«401076_j19361712571372_2_alg».proof.Proof.Gather2
import proofs.«401076_j19361712571372_2_alg».proof.Proof.Gather3
import proofs.«401076_j19361712571372_2_alg».proof.Proof.Gather4
import proofs.«401076_j19361712571372_2_alg».proof.Proof.Gather5
import proofs.«401076_j19361712571372_2_alg».proof.Proof.Gather6
import proofs.«401076_j19361712571372_2_alg».proof.Proof.Gather7
import proofs.«401076_j19361712571372_2_alg».proof.Proof.Gather8
import proofs.«401076_j19361712571372_2_alg».proof.Proof.Gather9
import proofs.«401076_j19361712571372_2_alg».proof.Proof.Proj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # The buffers' contents between the items of @main

@main is twenty-two items: ten times a host stretch (the first also reshapes the node table; each cuts one chunk of
64000 words out of the edge-source argument into a table in scalar memory) followed by the gather call that reads that
table, then the host stretch that concatenates the ten gathered arrays and scatter-adds them, then the projection call.
`W j c` is what core `c`'s buffers hold after the first `j` items, from the launch memory `m`: a host stretch
rewrites the buffers its operations write, a kernel region leaves its windows' arrays at what its write-backs fold to
and every other buffer as it found it. -/

/-- The mesh has one device. -/
abbrev c0 : Dev nD := 0

/-- The five arguments of @main. -/
abbrev argRefs : List (Ref sig .tc) := [main_arg0, main_arg1, main_arg2, main_arg3, main_arg4]

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
theorem W0_args (c : Dev nD) (r : Ref sig .tc) (hr : r ∈ argRefs) :
    W0 m ρ c (Proc.devRef .tc r) = m ((c : Thread nD τ).loc r) := rfl

/-! ## Items 0 and 1: the host stretch that cuts table 0 out of the edge-source argument, and gather call 0 -/

/-- After the host stretch before gather call 0 (the call's entry). -/
def W1 (c : Dev nD) : Valuation τ sig (Elt F) := StableHlo.after hostOps0 (W0 m ρ c)
theorem W1_of_ne (c : Dev nD) (r : Ref sig .tc) (h : r ∉ (hostOps0_W : List (Ref sig .tc))) :
    W1 m ρ c (Proc.devRef .tc r) = W0 m ρ c (Proc.devRef .tc r) := by
  unfold W1; exact StableHlo.after_of_writes_sub hostOps0 _ hostOps0_writes h
/-- The same read at the TensorCore's references. -/
abbrev V1 : (c : Dev nD) → (b : Ref sig .tc) → Buf (Elt F) ((c : Thread nD τ).loc b) := fun c b => W1 m ρ c b
/-- The stretch writes no argument. -/
theorem W1_args (c : Dev nD) (r : Ref sig .tc) (hr : r ∈ argRefs) :
    W1 m ρ c (Proc.devRef .tc r) = m ((c : Thread nD τ).loc r) :=
  (W1_of_ne m ρ c r ((by decide : ∀ r ∈ argRefs, r ∉ (hostOps0_W : List (Ref sig .tc))) r hr)).trans (W0_args m ρ c r hr)
/-- The table gather call 0 finds is words 0 to 0 + 63999 of the edge-source argument as launched. -/
theorem W1_table (c : Dev nD) : V1 m ρ c main_v1
    = extractStridedSlice S64000 ![0] (m ((c : Thread nD τ).loc main_arg1)) slices_S640000_S64000_0 := by
  show W1 m ρ c (Proc.devRef .tc main_v1) = _
  unfold W1
  after_results
  all_goals rw [W0_args m ρ c main_arg1 (by decide)]
/-- So every word of it names a row of the node table when every word of the argument does. -/
theorem hok0 (hsrc : ∀ (c : Dev nD) (e : S640000.Idx), (m ((c : Thread nD τ).loc main_arg1) e).toNat < 50000)
    (c : Dev nD) (e : S64000.Idx) : (V1 m ρ c main_v1 e).toNat < 50000 := by
  rw [W1_table]; unfold extractStridedSlice; exact hsrc c _
/-- The admissible contents gather call 0's pipeline is pinned at: its table as the call finds it. -/
abbrev ga0 : (pcfg0 (F := F)).Adm := gadm0 (V1 m ρ) c0

/-- After gather call 0: its output array at what the write-backs fold to, every other buffer as the call found it. -/
def W2 (c : Dev nD) : Valuation τ sig (Elt F) :=
  Pipeline.withArrays spec0 c (W1 m ρ c) fun w => (gdat0 (V1 m ρ) (ga0 m ρ) c).arrAt w (cfg0 (ga0 m ρ)).N
theorem W2_arr (c : Dev nD) (w : Fin (cfg0 (ga0 m ρ)).W) :
    W2 m ρ c (Proc.devRef .tc (Pipeline.arrRef spec0 w)) = (gdat0 (V1 m ρ) (ga0 m ρ) c).arrAt w (cfg0 (ga0 m ρ)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the call's exit its array holds what the pipeline leaves and every other buffer what it held at entry. -/
theorem hF0 (c : Dev nD) (w : Fin (cfg0 (ga0 m ρ)).W) :
    (gdat0 (V1 m ρ) (ga0 m ρ) c).arrAt w (cfg0 (ga0 m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The call's one array is no argument. -/
theorem W2_args (c : Dev nD) (r : Ref sig .tc) (hr : r ∈ argRefs) :
    W2 m ρ c (Proc.devRef .tc r) = m ((c : Thread nD τ).loc r) :=
  (W2_of_ne m ρ c r ((by decide : ∀ r ∈ argRefs, ∀ w, Pipeline.arrRef spec0 w ≠ r) r hr)).trans (W1_args m ρ c r hr)

/-! ## Items 2 and 3: the host stretch that cuts table 1 out of the edge-source argument, and gather call 1 -/

/-- After the host stretch before gather call 1 (the call's entry). -/
def W3 (c : Dev nD) : Valuation τ sig (Elt F) := StableHlo.after hostOps1 (W2 m ρ c)
theorem W3_of_ne (c : Dev nD) (r : Ref sig .tc) (h : r ∉ (hostOps1_W : List (Ref sig .tc))) :
    W3 m ρ c (Proc.devRef .tc r) = W2 m ρ c (Proc.devRef .tc r) := by
  unfold W3; exact StableHlo.after_of_writes_sub hostOps1 _ hostOps1_writes h
/-- The same read at the TensorCore's references. -/
abbrev V3 : (c : Dev nD) → (b : Ref sig .tc) → Buf (Elt F) ((c : Thread nD τ).loc b) := fun c b => W3 m ρ c b
/-- The stretch writes no argument. -/
theorem W3_args (c : Dev nD) (r : Ref sig .tc) (hr : r ∈ argRefs) :
    W3 m ρ c (Proc.devRef .tc r) = m ((c : Thread nD τ).loc r) :=
  (W3_of_ne m ρ c r ((by decide : ∀ r ∈ argRefs, r ∉ (hostOps1_W : List (Ref sig .tc))) r hr)).trans (W2_args m ρ c r hr)
/-- The table gather call 1 finds is words 64000 to 64000 + 63999 of the edge-source argument as launched. -/
theorem W3_table (c : Dev nD) : V3 m ρ c main_v3
    = extractStridedSlice S64000 ![64000] (m ((c : Thread nD τ).loc main_arg1)) slices_S640000_S64000_64000 := by
  show W3 m ρ c (Proc.devRef .tc main_v3) = _
  unfold W3
  after_results
  all_goals rw [W2_args m ρ c main_arg1 (by decide)]
/-- So every word of it names a row of the node table when every word of the argument does. -/
theorem hok1 (hsrc : ∀ (c : Dev nD) (e : S640000.Idx), (m ((c : Thread nD τ).loc main_arg1) e).toNat < 50000)
    (c : Dev nD) (e : S64000.Idx) : (V3 m ρ c main_v3 e).toNat < 50000 := by
  rw [W3_table]; unfold extractStridedSlice; exact hsrc c _
/-- The admissible contents gather call 1's pipeline is pinned at: its table as the call finds it. -/
abbrev ga1 : (pcfg1 (F := F)).Adm := gadm1 (V3 m ρ) c0

/-- After gather call 1: its output array at what the write-backs fold to, every other buffer as the call found it. -/
def W4 (c : Dev nD) : Valuation τ sig (Elt F) :=
  Pipeline.withArrays spec1 c (W3 m ρ c) fun w => (gdat1 (V3 m ρ) (ga1 m ρ) c).arrAt w (cfg1 (ga1 m ρ)).N
theorem W4_arr (c : Dev nD) (w : Fin (cfg1 (ga1 m ρ)).W) :
    W4 m ρ c (Proc.devRef .tc (Pipeline.arrRef spec1 w)) = (gdat1 (V3 m ρ) (ga1 m ρ) c).arrAt w (cfg1 (ga1 m ρ)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At the call's exit its array holds what the pipeline leaves and every other buffer what it held at entry. -/
theorem hF1 (c : Dev nD) (w : Fin (cfg1 (ga1 m ρ)).W) :
    (gdat1 (V3 m ρ) (ga1 m ρ) c).arrAt w (cfg1 (ga1 m ρ)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- The call's one array is no argument. -/
theorem W4_args (c : Dev nD) (r : Ref sig .tc) (hr : r ∈ argRefs) :
    W4 m ρ c (Proc.devRef .tc r) = m ((c : Thread nD τ).loc r) :=
  (W4_of_ne m ρ c r ((by decide : ∀ r ∈ argRefs, ∀ w, Pipeline.arrRef spec1 w ≠ r) r hr)).trans (W3_args m ρ c r hr)

/-! ## Items 4 and 5: the host stretch that cuts table 2 out of the edge-source argument, and gather call 2 -/

/-- After the host stretch before gather call 2 (the call's entry). -/
def W5 (c : Dev nD) : Valuation τ sig (Elt F) := StableHlo.after hostOps2 (W4 m ρ c)
theorem W5_of_ne (c : Dev nD) (r : Ref sig .tc) (h : r ∉ (hostOps2_W : List (Ref sig .tc))) :
    W5 m ρ c (Proc.devRef .tc r) = W4 m ρ c (Proc.devRef .tc r) := by
  unfold W5; exact StableHlo.after_of_writes_sub hostOps2 _ hostOps2_writes h
/-- The same read at the TensorCore's references. -/
abbrev V5 : (c : Dev nD) → (b : Ref sig .tc) → Buf (Elt F) ((c : Thread nD τ).loc b) := fun c b => W5 m ρ c b
/-- The stretch writes no argument. -/
theorem W5_args (c : Dev nD) (r : Ref sig .tc) (hr : r ∈ argRefs) :
    W5 m ρ c (Proc.devRef .tc r) = m ((c : Thread nD τ).loc r) :=
  (W5_of_ne m ρ c r ((by decide : ∀ r ∈ argRefs, r ∉ (hostOps2_W : List (Ref sig .tc))) r hr)).trans (W4_args m ρ c r hr)
/-- The table gather call 2 finds is words 128000 to 128000 + 63999 of the edge-source argument as launched. -/
theorem W5_table (c : Dev nD) : V5 m ρ c main_v5
    = extractStridedSlice S64000 ![128000] (m ((c : Thread nD τ).loc main_arg1)) slices_S640000_S64000_128000 := by
  show W5 m ρ c (Proc.devRef .tc main_v5) = _
  unfold W5
  after_results
  all_goals rw [W4_args m ρ c main_arg1 (by decide)]
/-- So every word of it names a row of the node table when every word of the argument does. -/
theorem hok2 (hsrc : ∀ (c : Dev nD) (e : S640000.Idx), (m ((c : Thread nD τ).loc main_arg1) e).toNat < 50000)
    (c : Dev nD) (e : S64000.Idx) : (V5 m ρ c main_v5 e).toNat < 50000 := by
  rw [W5_table]; unfold extractStridedSlice; exact hsrc c _
/-- The admissible contents gather call 2's pipeline is pinned at: its table as the call finds it. -/
abbrev ga2 : (pcfg2 (F := F)).Adm := gadm2 (V5 m ρ) c0

/-- After gather call 2: its output array at what the write-backs fold to, every other buffer as the call found it. -/
def W6 (c : Dev nD) : Valuation τ sig (Elt F) :=
  Pipeline.withArrays spec2 c (W5 m ρ c) fun w => (gdat2 (V5 m ρ) (ga2 m ρ) c).arrAt w (cfg2 (ga2 m ρ)).N
theorem W6_arr (c : Dev nD) (w : Fin (cfg2 (ga2 m ρ)).W) :
    W6 m ρ c (Proc.devRef .tc (Pipeline.arrRef spec2 w)) = (gdat2 (V5 m ρ) (ga2 m ρ) c).arrAt w (cfg2 (ga2 m ρ)).N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At the call's exit its array holds what the pipeline leaves and every other buffer what it held at entry. -/
theorem hF2 (c : Dev nD) (w : Fin (cfg2 (ga2 m ρ)).W) :
    (gdat2 (V5 m ρ) (ga2 m ρ) c).arrAt w (cfg2 (ga2 m ρ)).N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- The call's one array is no argument. -/
theorem W6_args (c : Dev nD) (r : Ref sig .tc) (hr : r ∈ argRefs) :
    W6 m ρ c (Proc.devRef .tc r) = m ((c : Thread nD τ).loc r) :=
  (W6_of_ne m ρ c r ((by decide : ∀ r ∈ argRefs, ∀ w, Pipeline.arrRef spec2 w ≠ r) r hr)).trans (W5_args m ρ c r hr)

/-! ## Items 6 and 7: the host stretch that cuts table 3 out of the edge-source argument, and gather call 3 -/

/-- After the host stretch before gather call 3 (the call's entry). -/
def W7 (c : Dev nD) : Valuation τ sig (Elt F) := StableHlo.after hostOps3 (W6 m ρ c)
theorem W7_of_ne (c : Dev nD) (r : Ref sig .tc) (h : r ∉ (hostOps3_W : List (Ref sig .tc))) :
    W7 m ρ c (Proc.devRef .tc r) = W6 m ρ c (Proc.devRef .tc r) := by
  unfold W7; exact StableHlo.after_of_writes_sub hostOps3 _ hostOps3_writes h
/-- The same read at the TensorCore's references. -/
abbrev V7 : (c : Dev nD) → (b : Ref sig .tc) → Buf (Elt F) ((c : Thread nD τ).loc b) := fun c b => W7 m ρ c b
/-- The stretch writes no argument. -/
theorem W7_args (c : Dev nD) (r : Ref sig .tc) (hr : r ∈ argRefs) :
    W7 m ρ c (Proc.devRef .tc r) = m ((c : Thread nD τ).loc r) :=
  (W7_of_ne m ρ c r ((by decide : ∀ r ∈ argRefs, r ∉ (hostOps3_W : List (Ref sig .tc))) r hr)).trans (W6_args m ρ c r hr)
/-- The table gather call 3 finds is words 192000 to 192000 + 63999 of the edge-source argument as launched. -/
theorem W7_table (c : Dev nD) : V7 m ρ c main_v7
    = extractStridedSlice S64000 ![192000] (m ((c : Thread nD τ).loc main_arg1)) slices_S640000_S64000_192000 := by
  show W7 m ρ c (Proc.devRef .tc main_v7) = _
  unfold W7
  after_results
  all_goals rw [W6_args m ρ c main_arg1 (by decide)]
/-- So every word of it names a row of the node table when every word of the argument does. -/
theorem hok3 (hsrc : ∀ (c : Dev nD) (e : S640000.Idx), (m ((c : Thread nD τ).loc main_arg1) e).toNat < 50000)
    (c : Dev nD) (e : S64000.Idx) : (V7 m ρ c main_v7 e).toNat < 50000 := by
  rw [W7_table]; unfold extractStridedSlice; exact hsrc c _
/-- The admissible contents gather call 3's pipeline is pinned at: its table as the call finds it. -/
abbrev ga3 : (pcfg3 (F := F)).Adm := gadm3 (V7 m ρ) c0

/-- After gather call 3: its output array at what the write-backs fold to, every other buffer as the call found it. -/
def W8 (c : Dev nD) : Valuation τ sig (Elt F) :=
  Pipeline.withArrays spec3 c (W7 m ρ c) fun w => (gdat3 (V7 m ρ) (ga3 m ρ) c).arrAt w (cfg3 (ga3 m ρ)).N
theorem W8_arr (c : Dev nD) (w : Fin (cfg3 (ga3 m ρ)).W) :
    W8 m ρ c (Proc.devRef .tc (Pipeline.arrRef spec3 w)) = (gdat3 (V7 m ρ) (ga3 m ρ) c).arrAt w (cfg3 (ga3 m ρ)).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
/-- At the call's exit its array holds what the pipeline leaves and every other buffer what it held at entry. -/
theorem hF3 (c : Dev nD) (w : Fin (cfg3 (ga3 m ρ)).W) :
    (gdat3 (V7 m ρ) (ga3 m ρ) c).arrAt w (cfg3 (ga3 m ρ)).N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- The call's one array is no argument. -/
theorem W8_args (c : Dev nD) (r : Ref sig .tc) (hr : r ∈ argRefs) :
    W8 m ρ c (Proc.devRef .tc r) = m ((c : Thread nD τ).loc r) :=
  (W8_of_ne m ρ c r ((by decide : ∀ r ∈ argRefs, ∀ w, Pipeline.arrRef spec3 w ≠ r) r hr)).trans (W7_args m ρ c r hr)

/-! ## Items 8 and 9: the host stretch that cuts table 4 out of the edge-source argument, and gather call 4 -/

/-- After the host stretch before gather call 4 (the call's entry). -/
def W9 (c : Dev nD) : Valuation τ sig (Elt F) := StableHlo.after hostOps4 (W8 m ρ c)
theorem W9_of_ne (c : Dev nD) (r : Ref sig .tc) (h : r ∉ (hostOps4_W : List (Ref sig .tc))) :
    W9 m ρ c (Proc.devRef .tc r) = W8 m ρ c (Proc.devRef .tc r) := by
  unfold W9; exact StableHlo.after_of_writes_sub hostOps4 _ hostOps4_writes h
/-- The same read at the TensorCore's references. -/
abbrev V9 : (c : Dev nD) → (b : Ref sig .tc) → Buf (Elt F) ((c : Thread nD τ).loc b) := fun c b => W9 m ρ c b
/-- The stretch writes no argument. -/
theorem W9_args (c : Dev nD) (r : Ref sig .tc) (hr : r ∈ argRefs) :
    W9 m ρ c (Proc.devRef .tc r) = m ((c : Thread nD τ).loc r) :=
  (W9_of_ne m ρ c r ((by decide : ∀ r ∈ argRefs, r ∉ (hostOps4_W : List (Ref sig .tc))) r hr)).trans (W8_args m ρ c r hr)
/-- The table gather call 4 finds is words 256000 to 256000 + 63999 of the edge-source argument as launched. -/
theorem W9_table (c : Dev nD) : V9 m ρ c main_v9
    = extractStridedSlice S64000 ![256000] (m ((c : Thread nD τ).loc main_arg1)) slices_S640000_S64000_256000 := by
  show W9 m ρ c (Proc.devRef .tc main_v9) = _
  unfold W9
  after_results
  all_goals rw [W8_args m ρ c main_arg1 (by decide)]
/-- So every word of it names a row of the node table when every word of the argument does. -/
theorem hok4 (hsrc : ∀ (c : Dev nD) (e : S640000.Idx), (m ((c : Thread nD τ).loc main_arg1) e).toNat < 50000)
    (c : Dev nD) (e : S64000.Idx) : (V9 m ρ c main_v9 e).toNat < 50000 := by
  rw [W9_table]; unfold extractStridedSlice; exact hsrc c _
/-- The admissible contents gather call 4's pipeline is pinned at: its table as the call finds it. -/
abbrev ga4 : (pcfg4 (F := F)).Adm := gadm4 (V9 m ρ) c0

/-- After gather call 4: its output array at what the write-backs fold to, every other buffer as the call found it. -/
def W10 (c : Dev nD) : Valuation τ sig (Elt F) :=
  Pipeline.withArrays spec4 c (W9 m ρ c) fun w => (gdat4 (V9 m ρ) (ga4 m ρ) c).arrAt w (cfg4 (ga4 m ρ)).N
theorem W10_arr (c : Dev nD) (w : Fin (cfg4 (ga4 m ρ)).W) :
    W10 m ρ c (Proc.devRef .tc (Pipeline.arrRef spec4 w)) = (gdat4 (V9 m ρ) (ga4 m ρ) c).arrAt w (cfg4 (ga4 m ρ)).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
/-- At the call's exit its array holds what the pipeline leaves and every other buffer what it held at entry. -/
theorem hF4 (c : Dev nD) (w : Fin (cfg4 (ga4 m ρ)).W) :
    (gdat4 (V9 m ρ) (ga4 m ρ) c).arrAt w (cfg4 (ga4 m ρ)).N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- The call's one array is no argument. -/
theorem W10_args (c : Dev nD) (r : Ref sig .tc) (hr : r ∈ argRefs) :
    W10 m ρ c (Proc.devRef .tc r) = m ((c : Thread nD τ).loc r) :=
  (W10_of_ne m ρ c r ((by decide : ∀ r ∈ argRefs, ∀ w, Pipeline.arrRef spec4 w ≠ r) r hr)).trans (W9_args m ρ c r hr)

/-! ## Items 10 and 11: the host stretch that cuts table 5 out of the edge-source argument, and gather call 5 -/

/-- After the host stretch before gather call 5 (the call's entry). -/
def W11 (c : Dev nD) : Valuation τ sig (Elt F) := StableHlo.after hostOps5 (W10 m ρ c)
theorem W11_of_ne (c : Dev nD) (r : Ref sig .tc) (h : r ∉ (hostOps5_W : List (Ref sig .tc))) :
    W11 m ρ c (Proc.devRef .tc r) = W10 m ρ c (Proc.devRef .tc r) := by
  unfold W11; exact StableHlo.after_of_writes_sub hostOps5 _ hostOps5_writes h
/-- The same read at the TensorCore's references. -/
abbrev V11 : (c : Dev nD) → (b : Ref sig .tc) → Buf (Elt F) ((c : Thread nD τ).loc b) := fun c b => W11 m ρ c b
/-- The stretch writes no argument. -/
theorem W11_args (c : Dev nD) (r : Ref sig .tc) (hr : r ∈ argRefs) :
    W11 m ρ c (Proc.devRef .tc r) = m ((c : Thread nD τ).loc r) :=
  (W11_of_ne m ρ c r ((by decide : ∀ r ∈ argRefs, r ∉ (hostOps5_W : List (Ref sig .tc))) r hr)).trans (W10_args m ρ c r hr)
/-- The table gather call 5 finds is words 320000 to 320000 + 63999 of the edge-source argument as launched. -/
theorem W11_table (c : Dev nD) : V11 m ρ c main_v11
    = extractStridedSlice S64000 ![320000] (m ((c : Thread nD τ).loc main_arg1)) slices_S640000_S64000_320000 := by
  show W11 m ρ c (Proc.devRef .tc main_v11) = _
  unfold W11
  after_results
  all_goals rw [W10_args m ρ c main_arg1 (by decide)]
/-- So every word of it names a row of the node table when every word of the argument does. -/
theorem hok5 (hsrc : ∀ (c : Dev nD) (e : S640000.Idx), (m ((c : Thread nD τ).loc main_arg1) e).toNat < 50000)
    (c : Dev nD) (e : S64000.Idx) : (V11 m ρ c main_v11 e).toNat < 50000 := by
  rw [W11_table]; unfold extractStridedSlice; exact hsrc c _
/-- The admissible contents gather call 5's pipeline is pinned at: its table as the call finds it. -/
abbrev ga5 : (pcfg5 (F := F)).Adm := gadm5 (V11 m ρ) c0

/-- After gather call 5: its output array at what the write-backs fold to, every other buffer as the call found it. -/
def W12 (c : Dev nD) : Valuation τ sig (Elt F) :=
  Pipeline.withArrays spec5 c (W11 m ρ c) fun w => (gdat5 (V11 m ρ) (ga5 m ρ) c).arrAt w (cfg5 (ga5 m ρ)).N
theorem W12_arr (c : Dev nD) (w : Fin (cfg5 (ga5 m ρ)).W) :
    W12 m ρ c (Proc.devRef .tc (Pipeline.arrRef spec5 w)) = (gdat5 (V11 m ρ) (ga5 m ρ) c).arrAt w (cfg5 (ga5 m ρ)).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references. -/
abbrev V12 : (c : Dev nD) → (b : Ref sig .tc) → Buf (Elt F) ((c : Thread nD τ).loc b) := fun c b => W12 m ρ c b
/-- At the call's exit its array holds what the pipeline leaves and every other buffer what it held at entry. -/
theorem hF5 (c : Dev nD) (w : Fin (cfg5 (ga5 m ρ)).W) :
    (gdat5 (V11 m ρ) (ga5 m ρ) c).arrAt w (cfg5 (ga5 m ρ)).N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- The call's one array is no argument. -/
theorem W12_args (c : Dev nD) (r : Ref sig .tc) (hr : r ∈ argRefs) :
    W12 m ρ c (Proc.devRef .tc r) = m ((c : Thread nD τ).loc r) :=
  (W12_of_ne m ρ c r ((by decide : ∀ r ∈ argRefs, ∀ w, Pipeline.arrRef spec5 w ≠ r) r hr)).trans (W11_args m ρ c r hr)

/-! ## Items 12 and 13: the host stretch that cuts table 6 out of the edge-source argument, and gather call 6 -/

/-- After the host stretch before gather call 6 (the call's entry). -/
def W13 (c : Dev nD) : Valuation τ sig (Elt F) := StableHlo.after hostOps6 (W12 m ρ c)
theorem W13_of_ne (c : Dev nD) (r : Ref sig .tc) (h : r ∉ (hostOps6_W : List (Ref sig .tc))) :
    W13 m ρ c (Proc.devRef .tc r) = W12 m ρ c (Proc.devRef .tc r) := by
  unfold W13; exact StableHlo.after_of_writes_sub hostOps6 _ hostOps6_writes h
/-- The same read at the TensorCore's references. -/
abbrev V13 : (c : Dev nD) → (b : Ref sig .tc) → Buf (Elt F) ((c : Thread nD τ).loc b) := fun c b => W13 m ρ c b
/-- The stretch writes no argument. -/
theorem W13_args (c : Dev nD) (r : Ref sig .tc) (hr : r ∈ argRefs) :
    W13 m ρ c (Proc.devRef .tc r) = m ((c : Thread nD τ).loc r) :=
  (W13_of_ne m ρ c r ((by decide : ∀ r ∈ argRefs, r ∉ (hostOps6_W : List (Ref sig .tc))) r hr)).trans (W12_args m ρ c r hr)
/-- The table gather call 6 finds is words 384000 to 384000 + 63999 of the edge-source argument as launched. -/
theorem W13_table (c : Dev nD) : V13 m ρ c main_v13
    = extractStridedSlice S64000 ![384000] (m ((c : Thread nD τ).loc main_arg1)) slices_S640000_S64000_384000 := by
  show W13 m ρ c (Proc.devRef .tc main_v13) = _
  unfold W13
  after_results
  all_goals rw [W12_args m ρ c main_arg1 (by decide)]
/-- So every word of it names a row of the node table when every word of the argument does. -/
theorem hok6 (hsrc : ∀ (c : Dev nD) (e : S640000.Idx), (m ((c : Thread nD τ).loc main_arg1) e).toNat < 50000)
    (c : Dev nD) (e : S64000.Idx) : (V13 m ρ c main_v13 e).toNat < 50000 := by
  rw [W13_table]; unfold extractStridedSlice; exact hsrc c _
/-- The admissible contents gather call 6's pipeline is pinned at: its table as the call finds it. -/
abbrev ga6 : (pcfg6 (F := F)).Adm := gadm6 (V13 m ρ) c0

/-- After gather call 6: its output array at what the write-backs fold to, every other buffer as the call found it. -/
def W14 (c : Dev nD) : Valuation τ sig (Elt F) :=
  Pipeline.withArrays spec6 c (W13 m ρ c) fun w => (gdat6 (V13 m ρ) (ga6 m ρ) c).arrAt w (cfg6 (ga6 m ρ)).N
theorem W14_arr (c : Dev nD) (w : Fin (cfg6 (ga6 m ρ)).W) :
    W14 m ρ c (Proc.devRef .tc (Pipeline.arrRef spec6 w)) = (gdat6 (V13 m ρ) (ga6 m ρ) c).arrAt w (cfg6 (ga6 m ρ)).N := by
  unfold W14; exact Pipeline.withArrays_arr spec6 (launch6 (F := F)).win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references. -/
abbrev V14 : (c : Dev nD) → (b : Ref sig .tc) → Buf (Elt F) ((c : Thread nD τ).loc b) := fun c b => W14 m ρ c b
/-- At the call's exit its array holds what the pipeline leaves and every other buffer what it held at entry. -/
theorem hF6 (c : Dev nD) (w : Fin (cfg6 (ga6 m ρ)).W) :
    (gdat6 (V13 m ρ) (ga6 m ρ) c).arrAt w (cfg6 (ga6 m ρ)).N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- The call's one array is no argument. -/
theorem W14_args (c : Dev nD) (r : Ref sig .tc) (hr : r ∈ argRefs) :
    W14 m ρ c (Proc.devRef .tc r) = m ((c : Thread nD τ).loc r) :=
  (W14_of_ne m ρ c r ((by decide : ∀ r ∈ argRefs, ∀ w, Pipeline.arrRef spec6 w ≠ r) r hr)).trans (W13_args m ρ c r hr)

/-! ## Items 14 and 15: the host stretch that cuts table 7 out of the edge-source argument, and gather call 7 -/

/-- After the host stretch before gather call 7 (the call's entry). -/
def W15 (c : Dev nD) : Valuation τ sig (Elt F) := StableHlo.after hostOps7 (W14 m ρ c)
theorem W15_of_ne (c : Dev nD) (r : Ref sig .tc) (h : r ∉ (hostOps7_W : List (Ref sig .tc))) :
    W15 m ρ c (Proc.devRef .tc r) = W14 m ρ c (Proc.devRef .tc r) := by
  unfold W15; exact StableHlo.after_of_writes_sub hostOps7 _ hostOps7_writes h
/-- The same read at the TensorCore's references. -/
abbrev V15 : (c : Dev nD) → (b : Ref sig .tc) → Buf (Elt F) ((c : Thread nD τ).loc b) := fun c b => W15 m ρ c b
/-- The stretch writes no argument. -/
theorem W15_args (c : Dev nD) (r : Ref sig .tc) (hr : r ∈ argRefs) :
    W15 m ρ c (Proc.devRef .tc r) = m ((c : Thread nD τ).loc r) :=
  (W15_of_ne m ρ c r ((by decide : ∀ r ∈ argRefs, r ∉ (hostOps7_W : List (Ref sig .tc))) r hr)).trans (W14_args m ρ c r hr)
/-- The table gather call 7 finds is words 448000 to 448000 + 63999 of the edge-source argument as launched. -/
theorem W15_table (c : Dev nD) : V15 m ρ c main_v15
    = extractStridedSlice S64000 ![448000] (m ((c : Thread nD τ).loc main_arg1)) slices_S640000_S64000_448000 := by
  show W15 m ρ c (Proc.devRef .tc main_v15) = _
  unfold W15
  after_results
  all_goals rw [W14_args m ρ c main_arg1 (by decide)]
/-- So every word of it names a row of the node table when every word of the argument does. -/
theorem hok7 (hsrc : ∀ (c : Dev nD) (e : S640000.Idx), (m ((c : Thread nD τ).loc main_arg1) e).toNat < 50000)
    (c : Dev nD) (e : S64000.Idx) : (V15 m ρ c main_v15 e).toNat < 50000 := by
  rw [W15_table]; unfold extractStridedSlice; exact hsrc c _
/-- The admissible contents gather call 7's pipeline is pinned at: its table as the call finds it. -/
abbrev ga7 : (pcfg7 (F := F)).Adm := gadm7 (V15 m ρ) c0

/-- After gather call 7: its output array at what the write-backs fold to, every other buffer as the call found it. -/
def W16 (c : Dev nD) : Valuation τ sig (Elt F) :=
  Pipeline.withArrays spec7 c (W15 m ρ c) fun w => (gdat7 (V15 m ρ) (ga7 m ρ) c).arrAt w (cfg7 (ga7 m ρ)).N
theorem W16_arr (c : Dev nD) (w : Fin (cfg7 (ga7 m ρ)).W) :
    W16 m ρ c (Proc.devRef .tc (Pipeline.arrRef spec7 w)) = (gdat7 (V15 m ρ) (ga7 m ρ) c).arrAt w (cfg7 (ga7 m ρ)).N := by
  unfold W16; exact Pipeline.withArrays_arr spec7 (launch7 (F := F)).win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references. -/
abbrev V16 : (c : Dev nD) → (b : Ref sig .tc) → Buf (Elt F) ((c : Thread nD τ).loc b) := fun c b => W16 m ρ c b
/-- At the call's exit its array holds what the pipeline leaves and every other buffer what it held at entry. -/
theorem hF7 (c : Dev nD) (w : Fin (cfg7 (ga7 m ρ)).W) :
    (gdat7 (V15 m ρ) (ga7 m ρ) c).arrAt w (cfg7 (ga7 m ρ)).N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- The call's one array is no argument. -/
theorem W16_args (c : Dev nD) (r : Ref sig .tc) (hr : r ∈ argRefs) :
    W16 m ρ c (Proc.devRef .tc r) = m ((c : Thread nD τ).loc r) :=
  (W16_of_ne m ρ c r ((by decide : ∀ r ∈ argRefs, ∀ w, Pipeline.arrRef spec7 w ≠ r) r hr)).trans (W15_args m ρ c r hr)

/-! ## Items 16 and 17: the host stretch that cuts table 8 out of the edge-source argument, and gather call 8 -/

/-- After the host stretch before gather call 8 (the call's entry). -/
def W17 (c : Dev nD) : Valuation τ sig (Elt F) := StableHlo.after hostOps8 (W16 m ρ c)
theorem W17_of_ne (c : Dev nD) (r : Ref sig .tc) (h : r ∉ (hostOps8_W : List (Ref sig .tc))) :
    W17 m ρ c (Proc.devRef .tc r) = W16 m ρ c (Proc.devRef .tc r) := by
  unfold W17; exact StableHlo.after_of_writes_sub hostOps8 _ hostOps8_writes h
/-- The same read at the TensorCore's references. -/
abbrev V17 : (c : Dev nD) → (b : Ref sig .tc) → Buf (Elt F) ((c : Thread nD τ).loc b) := fun c b => W17 m ρ c b
/-- The stretch writes no argument. -/
theorem W17_args (c : Dev nD) (r : Ref sig .tc) (hr : r ∈ argRefs) :
    W17 m ρ c (Proc.devRef .tc r) = m ((c : Thread nD τ).loc r) :=
  (W17_of_ne m ρ c r ((by decide : ∀ r ∈ argRefs, r ∉ (hostOps8_W : List (Ref sig .tc))) r hr)).trans (W16_args m ρ c r hr)
/-- The table gather call 8 finds is words 512000 to 512000 + 63999 of the edge-source argument as launched. -/
theorem W17_table (c : Dev nD) : V17 m ρ c main_v17
    = extractStridedSlice S64000 ![512000] (m ((c : Thread nD τ).loc main_arg1)) slices_S640000_S64000_512000 := by
  show W17 m ρ c (Proc.devRef .tc main_v17) = _
  unfold W17
  after_results
  all_goals rw [W16_args m ρ c main_arg1 (by decide)]
/-- So every word of it names a row of the node table when every word of the argument does. -/
theorem hok8 (hsrc : ∀ (c : Dev nD) (e : S640000.Idx), (m ((c : Thread nD τ).loc main_arg1) e).toNat < 50000)
    (c : Dev nD) (e : S64000.Idx) : (V17 m ρ c main_v17 e).toNat < 50000 := by
  rw [W17_table]; unfold extractStridedSlice; exact hsrc c _
/-- The admissible contents gather call 8's pipeline is pinned at: its table as the call finds it. -/
abbrev ga8 : (pcfg8 (F := F)).Adm := gadm8 (V17 m ρ) c0

/-- After gather call 8: its output array at what the write-backs fold to, every other buffer as the call found it. -/
def W18 (c : Dev nD) : Valuation τ sig (Elt F) :=
  Pipeline.withArrays spec8 c (W17 m ρ c) fun w => (gdat8 (V17 m ρ) (ga8 m ρ) c).arrAt w (cfg8 (ga8 m ρ)).N
theorem W18_arr (c : Dev nD) (w : Fin (cfg8 (ga8 m ρ)).W) :
    W18 m ρ c (Proc.devRef .tc (Pipeline.arrRef spec8 w)) = (gdat8 (V17 m ρ) (ga8 m ρ) c).arrAt w (cfg8 (ga8 m ρ)).N := by
  unfold W18; exact Pipeline.withArrays_arr spec8 (launch8 (F := F)).win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references. -/
abbrev V18 : (c : Dev nD) → (b : Ref sig .tc) → Buf (Elt F) ((c : Thread nD τ).loc b) := fun c b => W18 m ρ c b
/-- At the call's exit its array holds what the pipeline leaves and every other buffer what it held at entry. -/
theorem hF8 (c : Dev nD) (w : Fin (cfg8 (ga8 m ρ)).W) :
    (gdat8 (V17 m ρ) (ga8 m ρ) c).arrAt w (cfg8 (ga8 m ρ)).N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- The call's one array is no argument. -/
theorem W18_args (c : Dev nD) (r : Ref sig .tc) (hr : r ∈ argRefs) :
    W18 m ρ c (Proc.devRef .tc r) = m ((c : Thread nD τ).loc r) :=
  (W18_of_ne m ρ c r ((by decide : ∀ r ∈ argRefs, ∀ w, Pipeline.arrRef spec8 w ≠ r) r hr)).trans (W17_args m ρ c r hr)

/-! ## Items 18 and 19: the host stretch that cuts table 9 out of the edge-source argument, and gather call 9 -/

/-- After the host stretch before gather call 9 (the call's entry). -/
def W19 (c : Dev nD) : Valuation τ sig (Elt F) := StableHlo.after hostOps9 (W18 m ρ c)
theorem W19_of_ne (c : Dev nD) (r : Ref sig .tc) (h : r ∉ (hostOps9_W : List (Ref sig .tc))) :
    W19 m ρ c (Proc.devRef .tc r) = W18 m ρ c (Proc.devRef .tc r) := by
  unfold W19; exact StableHlo.after_of_writes_sub hostOps9 _ hostOps9_writes h
/-- The same read at the TensorCore's references. -/
abbrev V19 : (c : Dev nD) → (b : Ref sig .tc) → Buf (Elt F) ((c : Thread nD τ).loc b) := fun c b => W19 m ρ c b
/-- The stretch writes no argument. -/
theorem W19_args (c : Dev nD) (r : Ref sig .tc) (hr : r ∈ argRefs) :
    W19 m ρ c (Proc.devRef .tc r) = m ((c : Thread nD τ).loc r) :=
  (W19_of_ne m ρ c r ((by decide : ∀ r ∈ argRefs, r ∉ (hostOps9_W : List (Ref sig .tc))) r hr)).trans (W18_args m ρ c r hr)
/-- The table gather call 9 finds is words 576000 to 576000 + 63999 of the edge-source argument as launched. -/
theorem W19_table (c : Dev nD) : V19 m ρ c main_v19
    = extractStridedSlice S64000 ![576000] (m ((c : Thread nD τ).loc main_arg1)) slices_S640000_S64000_576000 := by
  show W19 m ρ c (Proc.devRef .tc main_v19) = _
  unfold W19
  after_results
  all_goals rw [W18_args m ρ c main_arg1 (by decide)]
/-- So every word of it names a row of the node table when every word of the argument does. -/
theorem hok9 (hsrc : ∀ (c : Dev nD) (e : S640000.Idx), (m ((c : Thread nD τ).loc main_arg1) e).toNat < 50000)
    (c : Dev nD) (e : S64000.Idx) : (V19 m ρ c main_v19 e).toNat < 50000 := by
  rw [W19_table]; unfold extractStridedSlice; exact hsrc c _
/-- The admissible contents gather call 9's pipeline is pinned at: its table as the call finds it. -/
abbrev ga9 : (pcfg9 (F := F)).Adm := gadm9 (V19 m ρ) c0

/-- After gather call 9: its output array at what the write-backs fold to, every other buffer as the call found it. -/
def W20 (c : Dev nD) : Valuation τ sig (Elt F) :=
  Pipeline.withArrays spec9 c (W19 m ρ c) fun w => (gdat9 (V19 m ρ) (ga9 m ρ) c).arrAt w (cfg9 (ga9 m ρ)).N
theorem W20_arr (c : Dev nD) (w : Fin (cfg9 (ga9 m ρ)).W) :
    W20 m ρ c (Proc.devRef .tc (Pipeline.arrRef spec9 w)) = (gdat9 (V19 m ρ) (ga9 m ρ) c).arrAt w (cfg9 (ga9 m ρ)).N := by
  unfold W20; exact Pipeline.withArrays_arr spec9 (launch9 (F := F)).win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references. -/
abbrev V20 : (c : Dev nD) → (b : Ref sig .tc) → Buf (Elt F) ((c : Thread nD τ).loc b) := fun c b => W20 m ρ c b
/-- At the call's exit its array holds what the pipeline leaves and every other buffer what it held at entry. -/
theorem hF9 (c : Dev nD) (w : Fin (cfg9 (ga9 m ρ)).W) :
    (gdat9 (V19 m ρ) (ga9 m ρ) c).arrAt w (cfg9 (ga9 m ρ)).N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- The call's one array is no argument. -/
theorem W20_args (c : Dev nD) (r : Ref sig .tc) (hr : r ∈ argRefs) :
    W20 m ρ c (Proc.devRef .tc r) = m ((c : Thread nD τ).loc r) :=
  (W20_of_ne m ρ c r ((by decide : ∀ r ∈ argRefs, ∀ w, Pipeline.arrRef spec9 w ≠ r) r hr)).trans (W19_args m ρ c r hr)

/-! ## Item 20: the host stretch between the last gather call and the projection call

It concatenates the ten gathered arrays, flattens them, and scatter-adds their rows into a zero array by the
edge-destination argument. -/

/-- After that stretch (the projection call's entry). -/
def W21 (c : Dev nD) : Valuation τ sig (Elt F) := StableHlo.after hostOps10 (W20 m ρ c)
theorem W21_of_ne (c : Dev nD) (r : Ref sig .tc) (h : r ∉ (hostOps10_W : List (Ref sig .tc))) :
    W21 m ρ c (Proc.devRef .tc r) = W20 m ρ c (Proc.devRef .tc r) := by
  unfold W21; exact StableHlo.after_of_writes_sub hostOps10 _ hostOps10_writes h
/-- The same read at the TensorCore's references. -/
abbrev V21 : (c : Dev nD) → (b : Ref sig .tc) → Buf (Elt F) ((c : Thread nD τ).loc b) := fun c b => W21 m ρ c b
/-- The stretch writes no argument. -/
theorem W21_args (c : Dev nD) (r : Ref sig .tc) (hr : r ∈ argRefs) :
    W21 m ρ c (Proc.devRef .tc r) = m ((c : Thread nD τ).loc r) :=
  (W21_of_ne m ρ c r ((by decide : ∀ r ∈ argRefs, r ∉ (hostOps10_W : List (Ref sig .tc))) r hr)).trans (W20_args m ρ c r hr)

/-! ## Item 21: the projection call -/

/-- After the projection call: its arrays at what the pipeline leaves (the three inputs as found, the output's
    write-backs folded), every other buffer as the call found it. The last contents. -/
def W22 (c : Dev nD) : Valuation τ sig (Elt F) :=
  Pipeline.withArrays spec10 c (W21 m ρ c) fun w => (pdat (V21 m ρ) c).arrAt w cfg10.N
theorem W22_arr (c : Dev nD) (w : Fin cfg10.W) :
    W22 m ρ c (Proc.devRef .tc (Pipeline.arrRef spec10 w)) = (pdat (V21 m ρ) c).arrAt w cfg10.N := by
  unfold W22; exact Pipeline.withArrays_arr spec10 (launch10 (F := F)).win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references. -/
abbrev V22 : (c : Dev nD) → (b : Ref sig .tc) → Buf (Elt F) ((c : Thread nD τ).loc b) := fun c b => W22 m ρ c b
theorem hF10 (c : Dev nD) (w : Fin cfg10.W) : (pdat (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-! ### The arguments end as launched

No host stretch writes an argument and no gather call has one among its arrays; the projection call reads the weight
and the bias through input windows, whose arrays no write-back touches. -/

theorem W22_main_arg0 (c : Dev nD) : W22 m ρ c (Proc.devRef .tc main_arg0) = m ((c : Thread nD τ).loc main_arg0) :=
  (W22_of_ne m ρ c main_arg0 (by decide)).trans (W21_args m ρ c main_arg0 (by decide))
theorem W22_main_arg1 (c : Dev nD) : W22 m ρ c (Proc.devRef .tc main_arg1) = m ((c : Thread nD τ).loc main_arg1) :=
  (W22_of_ne m ρ c main_arg1 (by decide)).trans (W21_args m ρ c main_arg1 (by decide))
theorem W22_main_arg2 (c : Dev nD) : W22 m ρ c (Proc.devRef .tc main_arg2) = m ((c : Thread nD τ).loc main_arg2) :=
  (W22_of_ne m ρ c main_arg2 (by decide)).trans (W21_args m ρ c main_arg2 (by decide))
theorem W22_main_arg3 (c : Dev nD) : W22 m ρ c (Proc.devRef .tc main_arg3) = m ((c : Thread nD τ).loc main_arg3) :=
  (W22_arr m ρ c 1).trans ((((pdat (V21 m ρ) c).arrAt_in 1 rfl _).trans (pdat_A (V21 m ρ) c 1)).trans (W21_args m ρ c main_arg3 (by decide)))
theorem W22_main_arg4 (c : Dev nD) : W22 m ρ c (Proc.devRef .tc main_arg4) = m ((c : Thread nD τ).loc main_arg4) :=
  (W22_arr m ρ c 2).trans ((((pdat (V21 m ρ) c).arrAt_in 2 rfl _).trans (pdat_A (V21 m ρ) c 2)).trans (W21_args m ρ c main_arg4 (by decide)))

/-! # The proof data family and the thread state -/

/-- The admissible contents every pipeline is pinned at, fixed before the run: gather call `k`'s table as that call
    will find it (chunk `k` of the edge-source argument, `W⟨2k+1⟩_table`); the projection call has no table. -/
def adm : (p : Fin 11) → (pcfgs (F := F) p).Adm
  | ⟨0, _⟩ => ga0 m ρ
  | ⟨1, _⟩ => ga1 m ρ
  | ⟨2, _⟩ => ga2 m ρ
  | ⟨3, _⟩ => ga3 m ρ
  | ⟨4, _⟩ => ga4 m ρ
  | ⟨5, _⟩ => ga5 m ρ
  | ⟨6, _⟩ => ga6 m ρ
  | ⟨7, _⟩ => ga7 m ρ
  | ⟨8, _⟩ => ga8 m ρ
  | ⟨9, _⟩ => ga9 m ρ
  | ⟨10, _⟩ => cfg10.toPCfg_adm
  | ⟨_ + 11, h⟩ => absurd h (Nat.not_lt.2 (Nat.le_add_left _ _))

/-- Every pipeline's proof data, each at its call's entry contents: a literal match, so that the pinned configuration at a
    numeral reduces to the printed one. -/
def pdats : (p : Fin 11) → (c : Dev nD) → Dat τ (Elt F) Unit ℕ (Pipeline.UD sig nD τ) ℕ (Pipeline.pin (pcfgs (F := F)) (adm m ρ) p) c
  | ⟨0, _⟩ => fun c => gdat0 (V1 m ρ) (ga0 m ρ) c
  | ⟨1, _⟩ => fun c => gdat1 (V3 m ρ) (ga1 m ρ) c
  | ⟨2, _⟩ => fun c => gdat2 (V5 m ρ) (ga2 m ρ) c
  | ⟨3, _⟩ => fun c => gdat3 (V7 m ρ) (ga3 m ρ) c
  | ⟨4, _⟩ => fun c => gdat4 (V9 m ρ) (ga4 m ρ) c
  | ⟨5, _⟩ => fun c => gdat5 (V11 m ρ) (ga5 m ρ) c
  | ⟨6, _⟩ => fun c => gdat6 (V13 m ρ) (ga6 m ρ) c
  | ⟨7, _⟩ => fun c => gdat7 (V15 m ρ) (ga7 m ρ) c
  | ⟨8, _⟩ => fun c => gdat8 (V17 m ρ) (ga8 m ρ) c
  | ⟨9, _⟩ => fun c => gdat9 (V19 m ρ) (ga9 m ρ) c
  | ⟨10, _⟩ => fun c => pdat (V21 m ρ) c
  | ⟨_ + 11, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What a core holds beside its unscoped buffers between two items: the generator register at some state and its
    `owes` at nothing. -/
abbrev R (c : Dev nD) : sProp 𝕄 := iprop((∃ r, prngReg c r) ∗ ∃ W, owes (c : Thread nD τ) (0 : CellTallies nD τ sig Unit) W)
/-- The thread state between two items, at contents `W`: every unscoped buffer whole at `W c`, and `R c`. -/
abbrev T (W : Dev nD → Valuation τ sig (Elt F)) (c : Dev nD) : sProp 𝕄 :=
  iprop(StableHlo.held (c : Thread nD τ) (Pipeline.ucRefs τ sig) (W c) ∗ R c)
/-- A host stretch as a segment over the unscoped buffers from the contents `W` (it leaves them at
    `StableHlo.after ops (W c)`), `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W22`, the generator register at some state. -/
abbrev Tₙ (c : Dev nD) : sProp 𝕄 := iprop(StableHlo.held (c : Thread nD τ) (Pipeline.ucRefs τ sig) (W22 m ρ c) ∗ ∃ r, prngReg c r)

end Cert.KernelIdeal.Hand

end
-- ==== Proof.Bridge.lean ====
/- The bridges of the final assembly: from the precondition to "every edge-source word names a row of the node
   table" for each of the three programs; the reference run's result term as the dense projection of the scatter-sum
   of the edge messages; that the two programs' spellings of that function are one term; and from the two programs'
   runs to the frame and algebraic claims.

   The kernel gathers, for each edge, the node-table row its source word names (one row copy per edge, sixteen rows a
   grid step, ten calls of 64000 edges), the host sums the gathered rows by destination, and the last call multiplies
   the sums by the weight matrix, its inputs narrowed to bf16 and the products accumulated in f32, and adds the bias.
   Over the extended reals narrowing is the identity and the accumulation is the exact sum, so the result is
   `projSpec (scatter-sum of msgSpec feat src by dst) W b`; the reference's gather, scatter-add, `dot_general` and
   broadcast bias are the same function of the same arguments once every source word is known to lie below 50000
   (no wrap-around, no clamp). -/
import proofs.«401076_j19361712571372_2_alg».proof.Defs
import proofs.«401076_j19361712571372_2_alg».proof.Proof.PreDec
import proofs.«401076_j19361712571372_2_alg».proof.Proof.PSpec
import proofs.«401076_j19361712571372_2_alg».proof.Proof.MsgValue
import proofs.«401076_j19361712571372_2_alg».proof.Proof.ProjValue
import proofs.«401076_j19361712571372_2_alg».proof.Proof.RunChain
import proofs.«401076_j19361712571372_2_alg».proof.Proof.Gen.Kernel
import proofs.«401076_j19361712571372_2_alg».proof.Proof.Gen.ReferenceIdeal.Run

noncomputable section

namespace Cert.Proof.Bridge

open Idealize.ShloMosaic Idealize.ShloMosaic.TcCoe Idealize.SL.Sem
open Cert.Proof.PSpec

/-! ## From the precondition: every edge-source word names a row of the node table -/

theorem hsrc_Kernel (m : (ℓ : Loc Cert.Kernel.nD Cert.Kernel.τ Cert.Kernel.sig) → Buf (Elt Bits) ℓ) (h : Cert.Pre_Kernel m)
    (c : Dev Cert.Kernel.nD) (e : Cert.Kernel.S640000.Idx) :
    (m ((c : Thread Cert.Kernel.nD Cert.Kernel.τ).loc Cert.Kernel.main_arg1) e).toNat < 50000 :=
  Cert.Proof.PreDec.src_in_range (F := Bits) _ _ _ _ _ (h c) e

theorem hsrc_KernelIdeal (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S640000.Idx) :
    (m ((c : Thread Cert.KernelIdeal.nD Cert.KernelIdeal.τ).loc Cert.KernelIdeal.main_arg1) e).toNat < 50000 :=
  Cert.Proof.PreDec.src_in_range (F := Ideal) _ _ _ _ _ (h c) e

theorem hsrc_ReferenceIdeal (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) (e : Cert.ReferenceIdeal.S640000.Idx) :
    (m ((c : Thread Cert.ReferenceIdeal.nD Cert.ReferenceIdeal.τ).loc Cert.ReferenceIdeal.main_arg1) e).toNat < 50000 :=
  Cert.Proof.PreDec.src_in_range (F := Ideal) _ _ _ _ _ (h c) e

/-! ## The common result: the dense projection of the scatter-sum of the edge messages -/

/-- The result over the extended reals as one function of the five argument arrays, in the kernel program's spelling:
    the projection (weight `a3`, bias `a4`) of the sum by destination `a2` of the messages `a0 (a1 e, ·)`. -/
abbrev result (a0 : FVec Ideal Cert.KernelIdeal.S50000x128 .f32) (a1 a2 : IVec Cert.KernelIdeal.S640000 32)
    (a3 : FVec Ideal Cert.KernelIdeal.S128x128 .f32) (a4 : FVec Ideal Cert.KernelIdeal.S1x128 .f32) :
    Cert.KernelIdeal.S50000x128.Idx → EReal :=
  projSpec
    (Host.scatterAdd (F := Ideal) Cert.KernelIdeal.scatter_S50000x128_S640000x1_S640000x128_1_0_0_1
      (broadcastInDim Cert.KernelIdeal.S50000x128 ![] Cert.KernelIdeal.Facts₀.bcast_S_S50000x128
        (constant (F := Ideal) Cert.KernelIdeal.S_ .f32 0x00000000#32))
      (broadcastInDim Cert.KernelIdeal.S640000x1 ![0] Cert.KernelIdeal.Facts₀.bcast_S640000_S640000x1_0 a2)
      (msgSpec a0 a1))
    a3 a4

/-- The two programs' scatter records are one record: the same dimension numbers over the same shapes. -/
theorem scatter_eq : Cert.ReferenceIdeal.scatter_S50000x128_S640000x1_S640000x128_1_0_0_1
    = Cert.KernelIdeal.scatter_S50000x128_S640000x1_S640000x128_1_0_0_1 := rfl

/-- The reference run's result term is `result` of its arguments, when every source word names a row of the node
    table: its gather is the edge messages (no negative word to wrap, none past the end to clamp), its `dot_general`
    and broadcast bias the dense projection, and its scatter record the kernel program's. -/
theorem ref_result (a0 : FVec Ideal Cert.ReferenceIdeal.S50000x128 .f32) (a1 a2 : IVec Cert.ReferenceIdeal.S640000 32)
    (a3 : FVec Ideal Cert.ReferenceIdeal.S128x128 .f32) (a4 : FVec Ideal Cert.ReferenceIdeal.S1x128 .f32)
    (hsrc : ∀ e : Cert.ReferenceIdeal.S640000.Idx, (a1 e).toNat < 50000) :
    addf (Host.dotGeneral (F := Ideal) Cert.ReferenceIdeal.dot_S50000x128_S128x128_S50000x128_1_0_0_1_n_n none
        (Host.scatterAdd Cert.ReferenceIdeal.scatter_S50000x128_S640000x1_S640000x128_1_0_0_1
          (broadcastInDim Cert.ReferenceIdeal.S50000x128 ![] Cert.ReferenceIdeal.Facts₀.bcast_S_S50000x128
            (constant Cert.ReferenceIdeal.S_ .f32 0x00000000#32))
          (broadcastInDim Cert.ReferenceIdeal.S640000x1 ![0] Cert.ReferenceIdeal.Facts₀.bcast_S640000_S640000x1_0 a2)
          (Host.gather Cert.ReferenceIdeal.gather_S50000x128_S640000x1_S640000x128_1_0_n_n_0_1_1128 a0
            (broadcastInDim Cert.ReferenceIdeal.S640000x1 ![0] Cert.ReferenceIdeal.Facts₀.bcast_S640000_S640000x1_0
              (select (cmpi .slt a1 (broadcastInDim Cert.ReferenceIdeal.S640000 ![] Cert.ReferenceIdeal.Facts₀.bcast_S_S640000
                  (constantI Cert.ReferenceIdeal.S_ 32 0#32)))
                (addi a1 (broadcastInDim Cert.ReferenceIdeal.S640000 ![] Cert.ReferenceIdeal.Facts₀.bcast_S_S640000
                  (constantI Cert.ReferenceIdeal.S_ 32 50000#32)))
                a1))))
        a3)
      (broadcastInDim Cert.ReferenceIdeal.S50000x128 ![0, 1] Cert.ReferenceIdeal.Facts₀.bcast_S1x128_S50000x128_0_1 a4)
    = result a0 a1 a2 a3 a4 := by
  rw [Cert.ReferenceIdeal.HandValue.ref_msgs a0 a1 hsrc, Cert.ReferenceIdeal.HandValue.ref_proj]
  rfl

/-! ## The reference: its run read back, its frame -/

/-- `ReferenceIdeal` runs and leaves its arguments unchanged: its generated run with the result dropped. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-! ## The two kernel programs' frames, from their runs

Each takes the program's run as a hypothesis in the form it is proved: under "every source word names a row", the
result array at some contents `X` and the five arguments as launched. The frame claim drops the result. -/

theorem frame_Kernel_of
    {X : ((ℓ : Loc Cert.Kernel.nD Cert.Kernel.τ Cert.Kernel.sig) → Buf (Elt Bits) ℓ) → (Dev Cert.Kernel.nD → PrngReg) →
      (c : Dev Cert.Kernel.nD) → Buf (Elt Bits) ((c.tc : Thread Cert.Kernel.nD Cert.Kernel.τ).loc Cert.Kernel.main_v26)}
    (hrun : ∀ (m : (ℓ : Loc Cert.Kernel.nD Cert.Kernel.τ Cert.Kernel.sig) → Buf (Elt Bits) ℓ) (ρ : Dev Cert.Kernel.nD → PrngReg),
      (∀ (c : Dev Cert.Kernel.nD) (e : Cert.Kernel.S640000.Idx),
        (m ((c : Thread Cert.Kernel.nD Cert.Kernel.τ).loc Cert.Kernel.main_arg1) e).toNat < 50000) →
      θ_run (Cert.Kernel.defs (F := Bits)) (onTc (τ := Cert.Kernel.τ) (Cert.Kernel.main (F := Bits))) ⟨m, fun _ => 0, ρ⟩
        (fun r => ∀ c : Dev Cert.Kernel.nD,
          r.2.mem ((c.tc : Thread Cert.Kernel.nD Cert.Kernel.τ).loc Cert.Kernel.main_v26) = X m ρ c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))) :
    Cert.frame_Kernel := fun m ρ hpre =>
  (θ_run Cert.Kernel.defs _ _).mono (fun _ h c => (h c).2) (hrun m ρ (hsrc_Kernel m hpre))

theorem frame_KernelIdeal_of
    {X : ((ℓ : Loc Cert.KernelIdeal.nD Cert.KernelIdeal.τ Cert.KernelIdeal.sig) → Buf (Elt Ideal) ℓ) → (Dev Cert.KernelIdeal.nD → PrngReg) →
      (c : Dev Cert.KernelIdeal.nD) → Buf (Elt Ideal) ((c.tc : Thread Cert.KernelIdeal.nD Cert.KernelIdeal.τ).loc Cert.KernelIdeal.main_v26)}
    (hrun : ∀ (m : (ℓ : Loc Cert.KernelIdeal.nD Cert.KernelIdeal.τ Cert.KernelIdeal.sig) → Buf (Elt Ideal) ℓ) (ρ : Dev Cert.KernelIdeal.nD → PrngReg),
      (∀ (c : Dev Cert.KernelIdeal.nD) (e : Cert.KernelIdeal.S640000.Idx),
        (m ((c : Thread Cert.KernelIdeal.nD Cert.KernelIdeal.τ).loc Cert.KernelIdeal.main_arg1) e).toNat < 50000) →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v26) = X m ρ c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))) :
    Cert.frame_KernelIdeal := fun m ρ hpre =>
  (θ_run Cert.KernelIdeal.defs _ _).mono (fun _ h c => (h c).2) (hrun m ρ (hsrc_KernelIdeal m hpre))

/-! ## The algebraic claim, from the kernel program's run and what its result array holds -/

/-- At the ideal instance, from memories agreeing on the arguments: the kernel program's result array ends at the last
    contents of its fold (`hrun`), which is `result` of its arguments (`hres`); the reference's ends at its run's
    term, which is `result` of ITS arguments (`ref_result`, the source words in range by the precondition carried
    across the agreement); the arguments agree, so the two results are one array. -/
theorem algebraic_of
    (hrun : ∀ (m : (ℓ : Loc Cert.KernelIdeal.nD Cert.KernelIdeal.τ Cert.KernelIdeal.sig) → Buf (Elt Ideal) ℓ) (ρ : Dev Cert.KernelIdeal.nD → PrngReg),
      (∀ (c : Dev Cert.KernelIdeal.nD) (e : Cert.KernelIdeal.S640000.Idx),
        (m ((c : Thread Cert.KernelIdeal.nD Cert.KernelIdeal.τ).loc Cert.KernelIdeal.main_arg1) e).toNat < 50000) →
      θ_run (Cert.KernelIdeal.defs (F := Ideal)) (onTc (τ := Cert.KernelIdeal.τ) (Cert.KernelIdeal.main (F := Ideal))) ⟨m, fun _ => 0, ρ⟩
        (fun r => ∀ c : Dev Cert.KernelIdeal.nD,
          r.2.mem ((c.tc : Thread Cert.KernelIdeal.nD Cert.KernelIdeal.τ).loc Cert.KernelIdeal.main_v26)
            = Cert.KernelIdeal.Hand.W22 (F := Ideal) m ρ c (Proc.devRef .tc Cert.KernelIdeal.main_v26)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)))
    (hres : ∀ (m : (ℓ : Loc Cert.KernelIdeal.nD Cert.KernelIdeal.τ Cert.KernelIdeal.sig) → Buf (Elt Ideal) ℓ) (ρ : Dev Cert.KernelIdeal.nD → PrngReg)
      (c : Dev Cert.KernelIdeal.nD),
      Cert.KernelIdeal.Hand.W22 (F := Ideal) m ρ c (Proc.devRef .tc Cert.KernelIdeal.main_v26)
        = result (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))) :
    Cert.algebraic_KernelIdeal_ReferenceIdeal := by
  intro m ρ m' ρ' hpre hagree
  have hsrc := hsrc_KernelIdeal m hpre
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono (fun _ h c => ⟨(h c).1.trans (hres m ρ c), (h c).2⟩) (hrun m ρ hsrc)
  · refine (θ_run Cert.ReferenceIdeal.defs _ _).mono (fun _ h c => ⟨(h c).1.trans ?_, (h c).2⟩)
      (Cert.ReferenceIdeal.Value.run (F := Ideal) m' ρ')
    obtain ⟨e0, e1, e2, e3, e4⟩ := hagree c
    rw [ref_result _ _ _ _ _ (fun e => by rw [e1]; exact hsrc c e), e0, e1, e2, e3, e4]

end Cert.Proof.Bridge

end
-- ==== Proof.RunReg0.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 0 as a segment of @main

Entered from every unscoped buffer whole at `W1`, left at `W2`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 0 reads without a window, one by one. -/
theorem gH0_split (Φ : Ref sig .tc → sProp 𝕄) : bigSep gH0 Φ = iprop(Φ main_v0 ∗ Φ main_v1) := by
  unfold gH0; rw [BI.bigSep_insert (by decide), BI.bigSep_singleton]; rfl

/-- The prefetched table of gather call 0 at the pinned contents is its chunk of the edge-source table as the call finds
    it (there is one core, so the core the contents were read on is this one). -/
theorem prefHeld_eq0 (c : Dev nD) :
    (Pipeline.prefHeld (pcfgs (F := F) (0 : Fin 11)).pre c (fun _ => fullShare) (adm m ρ (0 : Fin 11)).1 : sProp 𝕄)
      = iprop(((c : Thread nD τ).loc main_v1) ↦{fullShare} V1 m ρ c main_v1) := by
  obtain rfl : c = c0 := Subsingleton.elim _ _
  unfold Pipeline.prefHeld
  exact bigSep_W0 _

-- a library lemma stated over the pinned configuration unifies with the printed one only when unification may unfold
-- plain definitions in a metavariable's type
set_option backward.isDefEq.respectTransparency.types false in
/-- Gather call 0 (custom_call 0) over the thread state. -/
def reg0 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (0 : Fin 11) where
  win := (launch0 (F := F)).win.to₀
  block_pos := (launch0 (F := F)).block_pos
  stage_whole := (launch0 (F := F)).stage_whole
  K := Fin 16
  osem := gsem0
  ho := gsemFacts0
  hbody c := (gather_obligation0 (V1 m ρ) (ga0 m ρ) c (hok0 m ρ hsrc c)).loose
  hwaits := Pipeline.hwaits_of_owed_zero _ _ _ _ L lv (0 : Fin 11) fun _ _ => rfl
  pre c := T (W1 m ρ) c
  post c := T (W2 m ρ) c
  X c := iprop((∃ r, prngReg c r)
    ∗ Pipeline.ownSems0 (Ix := Unit) (Name := ℕ) (U := Pipeline.UD sig nD τ) (Lvl := ℕ) (Val := Elt F) (τ := τ) gsem0 c
    ∗ (((c : Thread nD τ).loc main_v0) ↦{fullShare} V1 m ρ c main_v0))
  Y c := iprop((∃ r, prngReg c r) ∗ bigSep gH0 fun b => ((c : Thread nD τ).loc b) ↦{fullShare} V1 m ρ c b)
  Z c := bigSep (Pipeline.restRefs sig spec0 \ gH0) fun b => ((c : Thread nD τ).loc b) ↦{fullShare} V1 m ρ c b
  hentry c := by
    have hsplit := Pipeline.arrays_of_unscopedBufs (p := (0 : Fin 11)) (pcfgs (F := F)) (adm m ρ) (pdats m ρ) (launch0 (F := F)).win (launch0 (F := F)).arr_whole c
      ((pdats m ρ (0 : Fin 11) c).share_full fun _ => rfl) (V1 m ρ c) fun _ => rfl
    rw [Pipeline.unscopedBufs_held] at hsplit
    have hH := Pipeline.unscopedRest_sdiff spec0 gH0 gH0_sub c (V1 m ρ c)
    rw [prefHeld_eq0 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH0_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (0 : Fin 11) c).Φ 0 = Pipeline.ΦD gsem0 spec0 gH0 (V1 m ρ) c from rfl, Pipeline.ΦD_eq, prefHeld_eq0 m ρ c, gH0_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (0 : Fin 11) c).Φ (Fin.last _) = Pipeline.ΦD gsem0 spec0 gH0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (0 : Fin 11)) (pcfgs (F := F)) (adm m ρ) (Ix := Unit) (Name := ℕ) (U := Pipeline.UD sig nD τ) (Lvl := ℕ)
      (launch0 (F := F)).win (launch0 (F := F)).arr_whole c (pdats m ρ) ((pdats m ρ (0 : Fin 11) c).share_full fun _ => rfl)
      (V1 m ρ c) (V2 m ρ c) ((pdats m ρ (0 : Fin 11) c).arrAt · (cfg0 (ga0 m ρ)).N) (hF0 m ρ c) (hrest0 m ρ c)
    rw [Pipeline.unscopedBufs_held] at hjoin
    have hH := Pipeline.unscopedRest_sdiff spec0 gH0 gH0_sub c (V1 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg1.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 1 as a segment of @main

Entered from every unscoped buffer whole at `W3`, left at `W4`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 1 reads without a window, one by one. -/
theorem gH1_split (Φ : Ref sig .tc → sProp 𝕄) : bigSep gH1 Φ = iprop(Φ main_v0 ∗ Φ main_v3) := by
  unfold gH1; rw [BI.bigSep_insert (by decide), BI.bigSep_singleton]; rfl

/-- The prefetched table of gather call 1 at the pinned contents is its chunk of the edge-source table as the call finds
    it (there is one core, so the core the contents were read on is this one). -/
theorem prefHeld_eq1 (c : Dev nD) :
    (Pipeline.prefHeld (pcfgs (F := F) (1 : Fin 11)).pre c (fun _ => fullShare) (adm m ρ (1 : Fin 11)).1 : sProp 𝕄)
      = iprop(((c : Thread nD τ).loc main_v3) ↦{fullShare} V3 m ρ c main_v3) := by
  obtain rfl : c = c0 := Subsingleton.elim _ _
  unfold Pipeline.prefHeld
  exact bigSep_W1 _

-- a library lemma stated over the pinned configuration unifies with the printed one only when unification may unfold
-- plain definitions in a metavariable's type
set_option backward.isDefEq.respectTransparency.types false in
/-- Gather call 1 (custom_call 1) over the thread state. -/
def reg1 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (1 : Fin 11) where
  win := (launch1 (F := F)).win.to₀
  block_pos := (launch1 (F := F)).block_pos
  stage_whole := (launch1 (F := F)).stage_whole
  K := Fin 16
  osem := gsem1
  ho := gsemFacts1
  hbody c := (gather_obligation1 (V3 m ρ) (ga1 m ρ) c (hok1 m ρ hsrc c)).loose
  hwaits := Pipeline.hwaits_of_owed_zero _ _ _ _ L lv (1 : Fin 11) fun _ _ => rfl
  pre c := T (W3 m ρ) c
  post c := T (W4 m ρ) c
  X c := iprop((∃ r, prngReg c r)
    ∗ Pipeline.ownSems0 (Ix := Unit) (Name := ℕ) (U := Pipeline.UD sig nD τ) (Lvl := ℕ) (Val := Elt F) (τ := τ) gsem1 c
    ∗ (((c : Thread nD τ).loc main_v0) ↦{fullShare} V3 m ρ c main_v0))
  Y c := iprop((∃ r, prngReg c r) ∗ bigSep gH1 fun b => ((c : Thread nD τ).loc b) ↦{fullShare} V3 m ρ c b)
  Z c := bigSep (Pipeline.restRefs sig spec1 \ gH1) fun b => ((c : Thread nD τ).loc b) ↦{fullShare} V3 m ρ c b
  hentry c := by
    have hsplit := Pipeline.arrays_of_unscopedBufs (p := (1 : Fin 11)) (pcfgs (F := F)) (adm m ρ) (pdats m ρ) (launch1 (F := F)).win (launch1 (F := F)).arr_whole c
      ((pdats m ρ (1 : Fin 11) c).share_full fun _ => rfl) (V3 m ρ c) fun _ => rfl
    rw [Pipeline.unscopedBufs_held] at hsplit
    have hH := Pipeline.unscopedRest_sdiff spec1 gH1 gH1_sub c (V3 m ρ c)
    rw [prefHeld_eq1 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH1_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (1 : Fin 11) c).Φ 0 = Pipeline.ΦD gsem1 spec1 gH1 (V3 m ρ) c from rfl, Pipeline.ΦD_eq, prefHeld_eq1 m ρ c, gH1_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (1 : Fin 11) c).Φ (Fin.last _) = Pipeline.ΦD gsem1 spec1 gH1 (V3 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (1 : Fin 11)) (pcfgs (F := F)) (adm m ρ) (Ix := Unit) (Name := ℕ) (U := Pipeline.UD sig nD τ) (Lvl := ℕ)
      (launch1 (F := F)).win (launch1 (F := F)).arr_whole c (pdats m ρ) ((pdats m ρ (1 : Fin 11) c).share_full fun _ => rfl)
      (V3 m ρ c) (V4 m ρ c) ((pdats m ρ (1 : Fin 11) c).arrAt · (cfg1 (ga1 m ρ)).N) (hF1 m ρ c) (hrest1 m ρ c)
    rw [Pipeline.unscopedBufs_held] at hjoin
    have hH := Pipeline.unscopedRest_sdiff spec1 gH1 gH1_sub c (V3 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg2.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 2 as a segment of @main

Entered from every unscoped buffer whole at `W5`, left at `W6`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 2 reads without a window, one by one. -/
theorem gH2_split (Φ : Ref sig .tc → sProp 𝕄) : bigSep gH2 Φ = iprop(Φ main_v0 ∗ Φ main_v5) := by
  unfold gH2; rw [BI.bigSep_insert (by decide), BI.bigSep_singleton]; rfl

/-- The prefetched table of gather call 2 at the pinned contents is its chunk of the edge-source table as the call finds
    it (there is one core, so the core the contents were read on is this one). -/
theorem prefHeld_eq2 (c : Dev nD) :
    (Pipeline.prefHeld (pcfgs (F := F) (2 : Fin 11)).pre c (fun _ => fullShare) (adm m ρ (2 : Fin 11)).1 : sProp 𝕄)
      = iprop(((c : Thread nD τ).loc main_v5) ↦{fullShare} V5 m ρ c main_v5) := by
  obtain rfl : c = c0 := Subsingleton.elim _ _
  unfold Pipeline.prefHeld
  exact bigSep_W2 _

-- a library lemma stated over the pinned configuration unifies with the printed one only when unification may unfold
-- plain definitions in a metavariable's type
set_option backward.isDefEq.respectTransparency.types false in
/-- Gather call 2 (custom_call 2) over the thread state. -/
def reg2 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (2 : Fin 11) where
  win := (launch2 (F := F)).win.to₀
  block_pos := (launch2 (F := F)).block_pos
  stage_whole := (launch2 (F := F)).stage_whole
  K := Fin 16
  osem := gsem2
  ho := gsemFacts2
  hbody c := (gather_obligation2 (V5 m ρ) (ga2 m ρ) c (hok2 m ρ hsrc c)).loose
  hwaits := Pipeline.hwaits_of_owed_zero _ _ _ _ L lv (2 : Fin 11) fun _ _ => rfl
  pre c := T (W5 m ρ) c
  post c := T (W6 m ρ) c
  X c := iprop((∃ r, prngReg c r)
    ∗ Pipeline.ownSems0 (Ix := Unit) (Name := ℕ) (U := Pipeline.UD sig nD τ) (Lvl := ℕ) (Val := Elt F) (τ := τ) gsem2 c
    ∗ (((c : Thread nD τ).loc main_v0) ↦{fullShare} V5 m ρ c main_v0))
  Y c := iprop((∃ r, prngReg c r) ∗ bigSep gH2 fun b => ((c : Thread nD τ).loc b) ↦{fullShare} V5 m ρ c b)
  Z c := bigSep (Pipeline.restRefs sig spec2 \ gH2) fun b => ((c : Thread nD τ).loc b) ↦{fullShare} V5 m ρ c b
  hentry c := by
    have hsplit := Pipeline.arrays_of_unscopedBufs (p := (2 : Fin 11)) (pcfgs (F := F)) (adm m ρ) (pdats m ρ) (launch2 (F := F)).win (launch2 (F := F)).arr_whole c
      ((pdats m ρ (2 : Fin 11) c).share_full fun _ => rfl) (V5 m ρ c) fun _ => rfl
    rw [Pipeline.unscopedBufs_held] at hsplit
    have hH := Pipeline.unscopedRest_sdiff spec2 gH2 gH2_sub c (V5 m ρ c)
    rw [prefHeld_eq2 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH2_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (2 : Fin 11) c).Φ 0 = Pipeline.ΦD gsem2 spec2 gH2 (V5 m ρ) c from rfl, Pipeline.ΦD_eq, prefHeld_eq2 m ρ c, gH2_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (2 : Fin 11) c).Φ (Fin.last _) = Pipeline.ΦD gsem2 spec2 gH2 (V5 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (2 : Fin 11)) (pcfgs (F := F)) (adm m ρ) (Ix := Unit) (Name := ℕ) (U := Pipeline.UD sig nD τ) (Lvl := ℕ)
      (launch2 (F := F)).win (launch2 (F := F)).arr_whole c (pdats m ρ) ((pdats m ρ (2 : Fin 11) c).share_full fun _ => rfl)
      (V5 m ρ c) (V6 m ρ c) ((pdats m ρ (2 : Fin 11) c).arrAt · (cfg2 (ga2 m ρ)).N) (hF2 m ρ c) (hrest2 m ρ c)
    rw [Pipeline.unscopedBufs_held] at hjoin
    have hH := Pipeline.unscopedRest_sdiff spec2 gH2 gH2_sub c (V5 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg3.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 3 as a segment of @main

Entered from every unscoped buffer whole at `W7`, left at `W8`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 3 reads without a window, one by one. -/
theorem gH3_split (Φ : Ref sig .tc → sProp 𝕄) : bigSep gH3 Φ = iprop(Φ main_v0 ∗ Φ main_v7) := by
  unfold gH3; rw [BI.bigSep_insert (by decide), BI.bigSep_singleton]; rfl

/-- The prefetched table of gather call 3 at the pinned contents is its chunk of the edge-source table as the call finds
    it (there is one core, so the core the contents were read on is this one). -/
theorem prefHeld_eq3 (c : Dev nD) :
    (Pipeline.prefHeld (pcfgs (F := F) (3 : Fin 11)).pre c (fun _ => fullShare) (adm m ρ (3 : Fin 11)).1 : sProp 𝕄)
      = iprop(((c : Thread nD τ).loc main_v7) ↦{fullShare} V7 m ρ c main_v7) := by
  obtain rfl : c = c0 := Subsingleton.elim _ _
  unfold Pipeline.prefHeld
  exact bigSep_W3 _

-- a library lemma stated over the pinned configuration unifies with the printed one only when unification may unfold
-- plain definitions in a metavariable's type
set_option backward.isDefEq.respectTransparency.types false in
/-- Gather call 3 (custom_call 3) over the thread state. -/
def reg3 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (3 : Fin 11) where
  win := (launch3 (F := F)).win.to₀
  block_pos := (launch3 (F := F)).block_pos
  stage_whole := (launch3 (F := F)).stage_whole
  K := Fin 16
  osem := gsem3
  ho := gsemFacts3
  hbody c := (gather_obligation3 (V7 m ρ) (ga3 m ρ) c (hok3 m ρ hsrc c)).loose
  hwaits := Pipeline.hwaits_of_owed_zero _ _ _ _ L lv (3 : Fin 11) fun _ _ => rfl
  pre c := T (W7 m ρ) c
  post c := T (W8 m ρ) c
  X c := iprop((∃ r, prngReg c r)
    ∗ Pipeline.ownSems0 (Ix := Unit) (Name := ℕ) (U := Pipeline.UD sig nD τ) (Lvl := ℕ) (Val := Elt F) (τ := τ) gsem3 c
    ∗ (((c : Thread nD τ).loc main_v0) ↦{fullShare} V7 m ρ c main_v0))
  Y c := iprop((∃ r, prngReg c r) ∗ bigSep gH3 fun b => ((c : Thread nD τ).loc b) ↦{fullShare} V7 m ρ c b)
  Z c := bigSep (Pipeline.restRefs sig spec3 \ gH3) fun b => ((c : Thread nD τ).loc b) ↦{fullShare} V7 m ρ c b
  hentry c := by
    have hsplit := Pipeline.arrays_of_unscopedBufs (p := (3 : Fin 11)) (pcfgs (F := F)) (adm m ρ) (pdats m ρ) (launch3 (F := F)).win (launch3 (F := F)).arr_whole c
      ((pdats m ρ (3 : Fin 11) c).share_full fun _ => rfl) (V7 m ρ c) fun _ => rfl
    rw [Pipeline.unscopedBufs_held] at hsplit
    have hH := Pipeline.unscopedRest_sdiff spec3 gH3 gH3_sub c (V7 m ρ c)
    rw [prefHeld_eq3 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH3_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (3 : Fin 11) c).Φ 0 = Pipeline.ΦD gsem3 spec3 gH3 (V7 m ρ) c from rfl, Pipeline.ΦD_eq, prefHeld_eq3 m ρ c, gH3_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (3 : Fin 11) c).Φ (Fin.last _) = Pipeline.ΦD gsem3 spec3 gH3 (V7 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (3 : Fin 11)) (pcfgs (F := F)) (adm m ρ) (Ix := Unit) (Name := ℕ) (U := Pipeline.UD sig nD τ) (Lvl := ℕ)
      (launch3 (F := F)).win (launch3 (F := F)).arr_whole c (pdats m ρ) ((pdats m ρ (3 : Fin 11) c).share_full fun _ => rfl)
      (V7 m ρ c) (V8 m ρ c) ((pdats m ρ (3 : Fin 11) c).arrAt · (cfg3 (ga3 m ρ)).N) (hF3 m ρ c) (hrest3 m ρ c)
    rw [Pipeline.unscopedBufs_held] at hjoin
    have hH := Pipeline.unscopedRest_sdiff spec3 gH3 gH3_sub c (V7 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg4.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 4 as a segment of @main

Entered from every unscoped buffer whole at `W9`, left at `W10`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 4 reads without a window, one by one. -/
theorem gH4_split (Φ : Ref sig .tc → sProp 𝕄) : bigSep gH4 Φ = iprop(Φ main_v0 ∗ Φ main_v9) := by
  unfold gH4; rw [BI.bigSep_insert (by decide), BI.bigSep_singleton]; rfl

/-- The prefetched table of gather call 4 at the pinned contents is its chunk of the edge-source table as the call finds
    it (there is one core, so the core the contents were read on is this one). -/
theorem prefHeld_eq4 (c : Dev nD) :
    (Pipeline.prefHeld (pcfgs (F := F) (4 : Fin 11)).pre c (fun _ => fullShare) (adm m ρ (4 : Fin 11)).1 : sProp 𝕄)
      = iprop(((c : Thread nD τ).loc main_v9) ↦{fullShare} V9 m ρ c main_v9) := by
  obtain rfl : c = c0 := Subsingleton.elim _ _
  unfold Pipeline.prefHeld
  exact bigSep_W4 _

-- a library lemma stated over the pinned configuration unifies with the printed one only when unification may unfold
-- plain definitions in a metavariable's type
set_option backward.isDefEq.respectTransparency.types false in
/-- Gather call 4 (custom_call 4) over the thread state. -/
def reg4 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (4 : Fin 11) where
  win := (launch4 (F := F)).win.to₀
  block_pos := (launch4 (F := F)).block_pos
  stage_whole := (launch4 (F := F)).stage_whole
  K := Fin 16
  osem := gsem4
  ho := gsemFacts4
  hbody c := (gather_obligation4 (V9 m ρ) (ga4 m ρ) c (hok4 m ρ hsrc c)).loose
  hwaits := Pipeline.hwaits_of_owed_zero _ _ _ _ L lv (4 : Fin 11) fun _ _ => rfl
  pre c := T (W9 m ρ) c
  post c := T (W10 m ρ) c
  X c := iprop((∃ r, prngReg c r)
    ∗ Pipeline.ownSems0 (Ix := Unit) (Name := ℕ) (U := Pipeline.UD sig nD τ) (Lvl := ℕ) (Val := Elt F) (τ := τ) gsem4 c
    ∗ (((c : Thread nD τ).loc main_v0) ↦{fullShare} V9 m ρ c main_v0))
  Y c := iprop((∃ r, prngReg c r) ∗ bigSep gH4 fun b => ((c : Thread nD τ).loc b) ↦{fullShare} V9 m ρ c b)
  Z c := bigSep (Pipeline.restRefs sig spec4 \ gH4) fun b => ((c : Thread nD τ).loc b) ↦{fullShare} V9 m ρ c b
  hentry c := by
    have hsplit := Pipeline.arrays_of_unscopedBufs (p := (4 : Fin 11)) (pcfgs (F := F)) (adm m ρ) (pdats m ρ) (launch4 (F := F)).win (launch4 (F := F)).arr_whole c
      ((pdats m ρ (4 : Fin 11) c).share_full fun _ => rfl) (V9 m ρ c) fun _ => rfl
    rw [Pipeline.unscopedBufs_held] at hsplit
    have hH := Pipeline.unscopedRest_sdiff spec4 gH4 gH4_sub c (V9 m ρ c)
    rw [prefHeld_eq4 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH4_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (4 : Fin 11) c).Φ 0 = Pipeline.ΦD gsem4 spec4 gH4 (V9 m ρ) c from rfl, Pipeline.ΦD_eq, prefHeld_eq4 m ρ c, gH4_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (4 : Fin 11) c).Φ (Fin.last _) = Pipeline.ΦD gsem4 spec4 gH4 (V9 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (4 : Fin 11)) (pcfgs (F := F)) (adm m ρ) (Ix := Unit) (Name := ℕ) (U := Pipeline.UD sig nD τ) (Lvl := ℕ)
      (launch4 (F := F)).win (launch4 (F := F)).arr_whole c (pdats m ρ) ((pdats m ρ (4 : Fin 11) c).share_full fun _ => rfl)
      (V9 m ρ c) (V10 m ρ c) ((pdats m ρ (4 : Fin 11) c).arrAt · (cfg4 (ga4 m ρ)).N) (hF4 m ρ c) (hrest4 m ρ c)
    rw [Pipeline.unscopedBufs_held] at hjoin
    have hH := Pipeline.unscopedRest_sdiff spec4 gH4 gH4_sub c (V9 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg5.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 5 as a segment of @main

Entered from every unscoped buffer whole at `W11`, left at `W12`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 5 reads without a window, one by one. -/
theorem gH5_split (Φ : Ref sig .tc → sProp 𝕄) : bigSep gH5 Φ = iprop(Φ main_v0 ∗ Φ main_v11) := by
  unfold gH5; rw [BI.bigSep_insert (by decide), BI.bigSep_singleton]; rfl

/-- The prefetched table of gather call 5 at the pinned contents is its chunk of the edge-source table as the call finds
    it (there is one core, so the core the contents were read on is this one). -/
theorem prefHeld_eq5 (c : Dev nD) :
    (Pipeline.prefHeld (pcfgs (F := F) (5 : Fin 11)).pre c (fun _ => fullShare) (adm m ρ (5 : Fin 11)).1 : sProp 𝕄)
      = iprop(((c : Thread nD τ).loc main_v11) ↦{fullShare} V11 m ρ c main_v11) := by
  obtain rfl : c = c0 := Subsingleton.elim _ _
  unfold Pipeline.prefHeld
  exact bigSep_W5 _

-- a library lemma stated over the pinned configuration unifies with the printed one only when unification may unfold
-- plain definitions in a metavariable's type
set_option backward.isDefEq.respectTransparency.types false in
/-- Gather call 5 (custom_call 5) over the thread state. -/
def reg5 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (5 : Fin 11) where
  win := (launch5 (F := F)).win.to₀
  block_pos := (launch5 (F := F)).block_pos
  stage_whole := (launch5 (F := F)).stage_whole
  K := Fin 16
  osem := gsem5
  ho := gsemFacts5
  hbody c := (gather_obligation5 (V11 m ρ) (ga5 m ρ) c (hok5 m ρ hsrc c)).loose
  hwaits := Pipeline.hwaits_of_owed_zero _ _ _ _ L lv (5 : Fin 11) fun _ _ => rfl
  pre c := T (W11 m ρ) c
  post c := T (W12 m ρ) c
  X c := iprop((∃ r, prngReg c r)
    ∗ Pipeline.ownSems0 (Ix := Unit) (Name := ℕ) (U := Pipeline.UD sig nD τ) (Lvl := ℕ) (Val := Elt F) (τ := τ) gsem5 c
    ∗ (((c : Thread nD τ).loc main_v0) ↦{fullShare} V11 m ρ c main_v0))
  Y c := iprop((∃ r, prngReg c r) ∗ bigSep gH5 fun b => ((c : Thread nD τ).loc b) ↦{fullShare} V11 m ρ c b)
  Z c := bigSep (Pipeline.restRefs sig spec5 \ gH5) fun b => ((c : Thread nD τ).loc b) ↦{fullShare} V11 m ρ c b
  hentry c := by
    have hsplit := Pipeline.arrays_of_unscopedBufs (p := (5 : Fin 11)) (pcfgs (F := F)) (adm m ρ) (pdats m ρ) (launch5 (F := F)).win (launch5 (F := F)).arr_whole c
      ((pdats m ρ (5 : Fin 11) c).share_full fun _ => rfl) (V11 m ρ c) fun _ => rfl
    rw [Pipeline.unscopedBufs_held] at hsplit
    have hH := Pipeline.unscopedRest_sdiff spec5 gH5 gH5_sub c (V11 m ρ c)
    rw [prefHeld_eq5 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH5_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (5 : Fin 11) c).Φ 0 = Pipeline.ΦD gsem5 spec5 gH5 (V11 m ρ) c from rfl, Pipeline.ΦD_eq, prefHeld_eq5 m ρ c, gH5_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (5 : Fin 11) c).Φ (Fin.last _) = Pipeline.ΦD gsem5 spec5 gH5 (V11 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (5 : Fin 11)) (pcfgs (F := F)) (adm m ρ) (Ix := Unit) (Name := ℕ) (U := Pipeline.UD sig nD τ) (Lvl := ℕ)
      (launch5 (F := F)).win (launch5 (F := F)).arr_whole c (pdats m ρ) ((pdats m ρ (5 : Fin 11) c).share_full fun _ => rfl)
      (V11 m ρ c) (V12 m ρ c) ((pdats m ρ (5 : Fin 11) c).arrAt · (cfg5 (ga5 m ρ)).N) (hF5 m ρ c) (hrest5 m ρ c)
    rw [Pipeline.unscopedBufs_held] at hjoin
    have hH := Pipeline.unscopedRest_sdiff spec5 gH5 gH5_sub c (V11 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg6.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 6 as a segment of @main

Entered from every unscoped buffer whole at `W13`, left at `W14`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 6 reads without a window, one by one. -/
theorem gH6_split (Φ : Ref sig .tc → sProp 𝕄) : bigSep gH6 Φ = iprop(Φ main_v0 ∗ Φ main_v13) := by
  unfold gH6; rw [BI.bigSep_insert (by decide), BI.bigSep_singleton]; rfl

/-- The prefetched table of gather call 6 at the pinned contents is its chunk of the edge-source table as the call finds
    it (there is one core, so the core the contents were read on is this one). -/
theorem prefHeld_eq6 (c : Dev nD) :
    (Pipeline.prefHeld (pcfgs (F := F) (6 : Fin 11)).pre c (fun _ => fullShare) (adm m ρ (6 : Fin 11)).1 : sProp 𝕄)
      = iprop(((c : Thread nD τ).loc main_v13) ↦{fullShare} V13 m ρ c main_v13) := by
  obtain rfl : c = c0 := Subsingleton.elim _ _
  unfold Pipeline.prefHeld
  exact bigSep_W6 _

-- a library lemma stated over the pinned configuration unifies with the printed one only when unification may unfold
-- plain definitions in a metavariable's type
set_option backward.isDefEq.respectTransparency.types false in
/-- Gather call 6 (custom_call 6) over the thread state. -/
def reg6 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (6 : Fin 11) where
  win := (launch6 (F := F)).win.to₀
  block_pos := (launch6 (F := F)).block_pos
  stage_whole := (launch6 (F := F)).stage_whole
  K := Fin 16
  osem := gsem6
  ho := gsemFacts6
  hbody c := (gather_obligation6 (V13 m ρ) (ga6 m ρ) c (hok6 m ρ hsrc c)).loose
  hwaits := Pipeline.hwaits_of_owed_zero _ _ _ _ L lv (6 : Fin 11) fun _ _ => rfl
  pre c := T (W13 m ρ) c
  post c := T (W14 m ρ) c
  X c := iprop((∃ r, prngReg c r)
    ∗ Pipeline.ownSems0 (Ix := Unit) (Name := ℕ) (U := Pipeline.UD sig nD τ) (Lvl := ℕ) (Val := Elt F) (τ := τ) gsem6 c
    ∗ (((c : Thread nD τ).loc main_v0) ↦{fullShare} V13 m ρ c main_v0))
  Y c := iprop((∃ r, prngReg c r) ∗ bigSep gH6 fun b => ((c : Thread nD τ).loc b) ↦{fullShare} V13 m ρ c b)
  Z c := bigSep (Pipeline.restRefs sig spec6 \ gH6) fun b => ((c : Thread nD τ).loc b) ↦{fullShare} V13 m ρ c b
  hentry c := by
    have hsplit := Pipeline.arrays_of_unscopedBufs (p := (6 : Fin 11)) (pcfgs (F := F)) (adm m ρ) (pdats m ρ) (launch6 (F := F)).win (launch6 (F := F)).arr_whole c
      ((pdats m ρ (6 : Fin 11) c).share_full fun _ => rfl) (V13 m ρ c) fun _ => rfl
    rw [Pipeline.unscopedBufs_held] at hsplit
    have hH := Pipeline.unscopedRest_sdiff spec6 gH6 gH6_sub c (V13 m ρ c)
    rw [prefHeld_eq6 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH6_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (6 : Fin 11) c).Φ 0 = Pipeline.ΦD gsem6 spec6 gH6 (V13 m ρ) c from rfl, Pipeline.ΦD_eq, prefHeld_eq6 m ρ c, gH6_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (6 : Fin 11) c).Φ (Fin.last _) = Pipeline.ΦD gsem6 spec6 gH6 (V13 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (6 : Fin 11)) (pcfgs (F := F)) (adm m ρ) (Ix := Unit) (Name := ℕ) (U := Pipeline.UD sig nD τ) (Lvl := ℕ)
      (launch6 (F := F)).win (launch6 (F := F)).arr_whole c (pdats m ρ) ((pdats m ρ (6 : Fin 11) c).share_full fun _ => rfl)
      (V13 m ρ c) (V14 m ρ c) ((pdats m ρ (6 : Fin 11) c).arrAt · (cfg6 (ga6 m ρ)).N) (hF6 m ρ c) (hrest6 m ρ c)
    rw [Pipeline.unscopedBufs_held] at hjoin
    have hH := Pipeline.unscopedRest_sdiff spec6 gH6 gH6_sub c (V13 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg7.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 7 as a segment of @main

Entered from every unscoped buffer whole at `W15`, left at `W16`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 7 reads without a window, one by one. -/
theorem gH7_split (Φ : Ref sig .tc → sProp 𝕄) : bigSep gH7 Φ = iprop(Φ main_v0 ∗ Φ main_v15) := by
  unfold gH7; rw [BI.bigSep_insert (by decide), BI.bigSep_singleton]; rfl

/-- The prefetched table of gather call 7 at the pinned contents is its chunk of the edge-source table as the call finds
    it (there is one core, so the core the contents were read on is this one). -/
theorem prefHeld_eq7 (c : Dev nD) :
    (Pipeline.prefHeld (pcfgs (F := F) (7 : Fin 11)).pre c (fun _ => fullShare) (adm m ρ (7 : Fin 11)).1 : sProp 𝕄)
      = iprop(((c : Thread nD τ).loc main_v15) ↦{fullShare} V15 m ρ c main_v15) := by
  obtain rfl : c = c0 := Subsingleton.elim _ _
  unfold Pipeline.prefHeld
  exact bigSep_W7 _

-- a library lemma stated over the pinned configuration unifies with the printed one only when unification may unfold
-- plain definitions in a metavariable's type
set_option backward.isDefEq.respectTransparency.types false in
/-- Gather call 7 (custom_call 7) over the thread state. -/
def reg7 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (7 : Fin 11) where
  win := (launch7 (F := F)).win.to₀
  block_pos := (launch7 (F := F)).block_pos
  stage_whole := (launch7 (F := F)).stage_whole
  K := Fin 16
  osem := gsem7
  ho := gsemFacts7
  hbody c := (gather_obligation7 (V15 m ρ) (ga7 m ρ) c (hok7 m ρ hsrc c)).loose
  hwaits := Pipeline.hwaits_of_owed_zero _ _ _ _ L lv (7 : Fin 11) fun _ _ => rfl
  pre c := T (W15 m ρ) c
  post c := T (W16 m ρ) c
  X c := iprop((∃ r, prngReg c r)
    ∗ Pipeline.ownSems0 (Ix := Unit) (Name := ℕ) (U := Pipeline.UD sig nD τ) (Lvl := ℕ) (Val := Elt F) (τ := τ) gsem7 c
    ∗ (((c : Thread nD τ).loc main_v0) ↦{fullShare} V15 m ρ c main_v0))
  Y c := iprop((∃ r, prngReg c r) ∗ bigSep gH7 fun b => ((c : Thread nD τ).loc b) ↦{fullShare} V15 m ρ c b)
  Z c := bigSep (Pipeline.restRefs sig spec7 \ gH7) fun b => ((c : Thread nD τ).loc b) ↦{fullShare} V15 m ρ c b
  hentry c := by
    have hsplit := Pipeline.arrays_of_unscopedBufs (p := (7 : Fin 11)) (pcfgs (F := F)) (adm m ρ) (pdats m ρ) (launch7 (F := F)).win (launch7 (F := F)).arr_whole c
      ((pdats m ρ (7 : Fin 11) c).share_full fun _ => rfl) (V15 m ρ c) fun _ => rfl
    rw [Pipeline.unscopedBufs_held] at hsplit
    have hH := Pipeline.unscopedRest_sdiff spec7 gH7 gH7_sub c (V15 m ρ c)
    rw [prefHeld_eq7 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH7_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (7 : Fin 11) c).Φ 0 = Pipeline.ΦD gsem7 spec7 gH7 (V15 m ρ) c from rfl, Pipeline.ΦD_eq, prefHeld_eq7 m ρ c, gH7_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (7 : Fin 11) c).Φ (Fin.last _) = Pipeline.ΦD gsem7 spec7 gH7 (V15 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (7 : Fin 11)) (pcfgs (F := F)) (adm m ρ) (Ix := Unit) (Name := ℕ) (U := Pipeline.UD sig nD τ) (Lvl := ℕ)
      (launch7 (F := F)).win (launch7 (F := F)).arr_whole c (pdats m ρ) ((pdats m ρ (7 : Fin 11) c).share_full fun _ => rfl)
      (V15 m ρ c) (V16 m ρ c) ((pdats m ρ (7 : Fin 11) c).arrAt · (cfg7 (ga7 m ρ)).N) (hF7 m ρ c) (hrest7 m ρ c)
    rw [Pipeline.unscopedBufs_held] at hjoin
    have hH := Pipeline.unscopedRest_sdiff spec7 gH7 gH7_sub c (V15 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg8.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 8 as a segment of @main

Entered from every unscoped buffer whole at `W17`, left at `W18`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 8 reads without a window, one by one. -/
theorem gH8_split (Φ : Ref sig .tc → sProp 𝕄) : bigSep gH8 Φ = iprop(Φ main_v0 ∗ Φ main_v17) := by
  unfold gH8; rw [BI.bigSep_insert (by decide), BI.bigSep_singleton]; rfl

/-- The prefetched table of gather call 8 at the pinned contents is its chunk of the edge-source table as the call finds
    it (there is one core, so the core the contents were read on is this one). -/
theorem prefHeld_eq8 (c : Dev nD) :
    (Pipeline.prefHeld (pcfgs (F := F) (8 : Fin 11)).pre c (fun _ => fullShare) (adm m ρ (8 : Fin 11)).1 : sProp 𝕄)
      = iprop(((c : Thread nD τ).loc main_v17) ↦{fullShare} V17 m ρ c main_v17) := by
  obtain rfl : c = c0 := Subsingleton.elim _ _
  unfold Pipeline.prefHeld
  exact bigSep_W8 _

-- a library lemma stated over the pinned configuration unifies with the printed one only when unification may unfold
-- plain definitions in a metavariable's type
set_option backward.isDefEq.respectTransparency.types false in
/-- Gather call 8 (custom_call 8) over the thread state. -/
def reg8 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (8 : Fin 11) where
  win := (launch8 (F := F)).win.to₀
  block_pos := (launch8 (F := F)).block_pos
  stage_whole := (launch8 (F := F)).stage_whole
  K := Fin 16
  osem := gsem8
  ho := gsemFacts8
  hbody c := (gather_obligation8 (V17 m ρ) (ga8 m ρ) c (hok8 m ρ hsrc c)).loose
  hwaits := Pipeline.hwaits_of_owed_zero _ _ _ _ L lv (8 : Fin 11) fun _ _ => rfl
  pre c := T (W17 m ρ) c
  post c := T (W18 m ρ) c
  X c := iprop((∃ r, prngReg c r)
    ∗ Pipeline.ownSems0 (Ix := Unit) (Name := ℕ) (U := Pipeline.UD sig nD τ) (Lvl := ℕ) (Val := Elt F) (τ := τ) gsem8 c
    ∗ (((c : Thread nD τ).loc main_v0) ↦{fullShare} V17 m ρ c main_v0))
  Y c := iprop((∃ r, prngReg c r) ∗ bigSep gH8 fun b => ((c : Thread nD τ).loc b) ↦{fullShare} V17 m ρ c b)
  Z c := bigSep (Pipeline.restRefs sig spec8 \ gH8) fun b => ((c : Thread nD τ).loc b) ↦{fullShare} V17 m ρ c b
  hentry c := by
    have hsplit := Pipeline.arrays_of_unscopedBufs (p := (8 : Fin 11)) (pcfgs (F := F)) (adm m ρ) (pdats m ρ) (launch8 (F := F)).win (launch8 (F := F)).arr_whole c
      ((pdats m ρ (8 : Fin 11) c).share_full fun _ => rfl) (V17 m ρ c) fun _ => rfl
    rw [Pipeline.unscopedBufs_held] at hsplit
    have hH := Pipeline.unscopedRest_sdiff spec8 gH8 gH8_sub c (V17 m ρ c)
    rw [prefHeld_eq8 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH8_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (8 : Fin 11) c).Φ 0 = Pipeline.ΦD gsem8 spec8 gH8 (V17 m ρ) c from rfl, Pipeline.ΦD_eq, prefHeld_eq8 m ρ c, gH8_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (8 : Fin 11) c).Φ (Fin.last _) = Pipeline.ΦD gsem8 spec8 gH8 (V17 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (8 : Fin 11)) (pcfgs (F := F)) (adm m ρ) (Ix := Unit) (Name := ℕ) (U := Pipeline.UD sig nD τ) (Lvl := ℕ)
      (launch8 (F := F)).win (launch8 (F := F)).arr_whole c (pdats m ρ) ((pdats m ρ (8 : Fin 11) c).share_full fun _ => rfl)
      (V17 m ρ c) (V18 m ρ c) ((pdats m ρ (8 : Fin 11) c).arrAt · (cfg8 (ga8 m ρ)).N) (hF8 m ρ c) (hrest8 m ρ c)
    rw [Pipeline.unscopedBufs_held] at hjoin
    have hH := Pipeline.unscopedRest_sdiff spec8 gH8 gH8_sub c (V17 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg9.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 9 as a segment of @main

Entered from every unscoped buffer whole at `W19`, left at `W20`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 9 reads without a window, one by one. -/
theorem gH9_split (Φ : Ref sig .tc → sProp 𝕄) : bigSep gH9 Φ = iprop(Φ main_v0 ∗ Φ main_v19) := by
  unfold gH9; rw [BI.bigSep_insert (by decide), BI.bigSep_singleton]; rfl

/-- The prefetched table of gather call 9 at the pinned contents is its chunk of the edge-source table as the call finds
    it (there is one core, so the core the contents were read on is this one). -/
theorem prefHeld_eq9 (c : Dev nD) :
    (Pipeline.prefHeld (pcfgs (F := F) (9 : Fin 11)).pre c (fun _ => fullShare) (adm m ρ (9 : Fin 11)).1 : sProp 𝕄)
      = iprop(((c : Thread nD τ).loc main_v19) ↦{fullShare} V19 m ρ c main_v19) := by
  obtain rfl : c = c0 := Subsingleton.elim _ _
  unfold Pipeline.prefHeld
  exact bigSep_W9 _

-- a library lemma stated over the pinned configuration unifies with the printed one only when unification may unfold
-- plain definitions in a metavariable's type
set_option backward.isDefEq.respectTransparency.types false in
/-- Gather call 9 (custom_call 9) over the thread state. -/
def reg9 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (9 : Fin 11) where
  win := (launch9 (F := F)).win.to₀
  block_pos := (launch9 (F := F)).block_pos
  stage_whole := (launch9 (F := F)).stage_whole
  K := Fin 16
  osem := gsem9
  ho := gsemFacts9
  hbody c := (gather_obligation9 (V19 m ρ) (ga9 m ρ) c (hok9 m ρ hsrc c)).loose
  hwaits := Pipeline.hwaits_of_owed_zero _ _ _ _ L lv (9 : Fin 11) fun _ _ => rfl
  pre c := T (W19 m ρ) c
  post c := T (W20 m ρ) c
  X c := iprop((∃ r, prngReg c r)
    ∗ Pipeline.ownSems0 (Ix := Unit) (Name := ℕ) (U := Pipeline.UD sig nD τ) (Lvl := ℕ) (Val := Elt F) (τ := τ) gsem9 c
    ∗ (((c : Thread nD τ).loc main_v0) ↦{fullShare} V19 m ρ c main_v0))
  Y c := iprop((∃ r, prngReg c r) ∗ bigSep gH9 fun b => ((c : Thread nD τ).loc b) ↦{fullShare} V19 m ρ c b)
  Z c := bigSep (Pipeline.restRefs sig spec9 \ gH9) fun b => ((c : Thread nD τ).loc b) ↦{fullShare} V19 m ρ c b
  hentry c := by
    have hsplit := Pipeline.arrays_of_unscopedBufs (p := (9 : Fin 11)) (pcfgs (F := F)) (adm m ρ) (pdats m ρ) (launch9 (F := F)).win (launch9 (F := F)).arr_whole c
      ((pdats m ρ (9 : Fin 11) c).share_full fun _ => rfl) (V19 m ρ c) fun _ => rfl
    rw [Pipeline.unscopedBufs_held] at hsplit
    have hH := Pipeline.unscopedRest_sdiff spec9 gH9 gH9_sub c (V19 m ρ c)
    rw [prefHeld_eq9 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH9_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (9 : Fin 11) c).Φ 0 = Pipeline.ΦD gsem9 spec9 gH9 (V19 m ρ) c from rfl, Pipeline.ΦD_eq, prefHeld_eq9 m ρ c, gH9_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (9 : Fin 11) c).Φ (Fin.last _) = Pipeline.ΦD gsem9 spec9 gH9 (V19 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (9 : Fin 11)) (pcfgs (F := F)) (adm m ρ) (Ix := Unit) (Name := ℕ) (U := Pipeline.UD sig nD τ) (Lvl := ℕ)
      (launch9 (F := F)).win (launch9 (F := F)).arr_whole c (pdats m ρ) ((pdats m ρ (9 : Fin 11) c).share_full fun _ => rfl)
      (V19 m ρ c) (V20 m ρ c) ((pdats m ρ (9 : Fin 11) c).arrAt · (cfg9 (ga9 m ρ)).N) (hF9 m ρ c) (hrest9 m ρ c)
    rw [Pipeline.unscopedBufs_held] at hjoin
    have hH := Pipeline.unscopedRest_sdiff spec9 gH9 gH9_sub c (V19 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.RunReg10.lean ====
import proofs.«401076_j19361712571372_2_alg».proof.Proof.RunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # The projection call as a segment of @main

Entered from every unscoped buffer whole at `W21`, left at `W22`, the last contents. A plain pipeline: its four
arrays go in and come back, the three inputs as found and the output at what the write-backs fold to; the generator
register goes into the invariant and out; the kernel has no semaphore and no table of its own. -/

/-- The projection call prefetches no table. -/
theorem prefHeld_eq10 (c : Dev nD) :
    (Pipeline.prefHeld (pcfgs (F := F) (10 : Fin 11)).pre c (fun _ => fullShare) (adm m ρ (10 : Fin 11)).1 : sProp 𝕄) = BI.emp := by
  unfold Pipeline.prefHeld; rw [show (Finset.univ : Finset (Fin 0)) = ∅ from rfl, BI.bigSep_empty]

-- a library lemma stated over the pinned configuration unifies with the printed one only when unification may unfold
-- plain definitions in a metavariable's type
set_option backward.isDefEq.respectTransparency.types false in
/-- The projection call (custom_call 10) over the thread state. -/
def reg10 : Pipeline.RegionSeg (pcfgs (F := F)) (adm m ρ) (pdats m ρ) () defs₀ 𝒱₀ L lv (10 : Fin 11) where
  win := (launch10 (F := F)).win.to₀
  block_pos := (launch10 (F := F)).block_pos
  stage_whole := (launch10 (F := F)).stage_whole
  K := PEmpty
  osem k := k.elim
  ho := Pipeline.OwnSemFacts.none _
  hbody c := (proj_obligation (V21 m ρ) c).loose
  hwaits := Pipeline.hwaits_of_owed_zero _ _ _ _ L lv (10 : Fin 11) fun _ _ => rfl
  pre c := T (W21 m ρ) c
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec10 c (V21 m ρ c)
  hentry c := by
    rw [Pipeline.ownSems0_none, prefHeld_eq10 m ρ c]
    have hsplit := Pipeline.arrays_of_unscopedBufs (p := (10 : Fin 11)) (pcfgs (F := F)) (adm m ρ) (pdats m ρ) (launch10 (F := F)).win (launch10 (F := F)).arr_whole c
      ((pdats m ρ (10 : Fin 11) c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ (10 : Fin 11) c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ (10 : Fin 11) c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := (10 : Fin 11)) (pcfgs (F := F)) (adm m ρ) (Ix := Unit) (Name := ℕ) (U := Pipeline.UD sig nD τ) (Lvl := ℕ)
      (launch10 (F := F)).win (launch10 (F := F)).arr_whole c (pdats m ρ) ((pdats m ρ (10 : Fin 11) c).share_full fun _ => rfl)
      (V21 m ρ c) (V22 m ρ c) ((pdats m ρ (10 : Fin 11) c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.Run.lean ====
import proofs.«401076_j19361712571372_2_alg».proof.Proof.RunChain
import proofs.«401076_j19361712571372_2_alg».proof.Proof.RunReg0
import proofs.«401076_j19361712571372_2_alg».proof.Proof.RunReg1
import proofs.«401076_j19361712571372_2_alg».proof.Proof.RunReg2
import proofs.«401076_j19361712571372_2_alg».proof.Proof.RunReg3
import proofs.«401076_j19361712571372_2_alg».proof.Proof.RunReg4
import proofs.«401076_j19361712571372_2_alg».proof.Proof.RunReg5
import proofs.«401076_j19361712571372_2_alg».proof.Proof.RunReg6
import proofs.«401076_j19361712571372_2_alg».proof.Proof.RunReg7
import proofs.«401076_j19361712571372_2_alg».proof.Proof.RunReg8
import proofs.«401076_j19361712571372_2_alg».proof.Proof.RunReg9
import proofs.«401076_j19361712571372_2_alg».proof.Proof.RunReg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # @main as segments, and the launch

The twenty-two items in order: a host segment per stretch, from the contents before it; a region per pallas_call. Each
is entered from the thread state the one before it leaves: a host stretch from `W⟨j⟩` leaves the unscoped buffers at
`StableHlo.after` of its operations, which is `W⟨j+1⟩` by definition. -/

/-- @main's segments. -/
abbrev segs (hsrc : ∀ (c : Dev nD) (e : S640000.Idx), (m ((c : Thread nD τ).loc main_arg1) e).toNat < 50000) :
    List (Pipeline.Seg (pcfgs (F := F)) (adm m ρ) (pdats m ρ) () defs₀ 𝒱₀ L lv) :=
  [ .host (hseg hostOps0 hostOps0_sub hostOps0_fresh (W0 m ρ)), .region (reg0 m ρ hsrc),
    .host (hseg hostOps1 hostOps1_sub hostOps1_fresh (W2 m ρ)), .region (reg1 m ρ hsrc),
    .host (hseg hostOps2 hostOps2_sub hostOps2_fresh (W4 m ρ)), .region (reg2 m ρ hsrc),
    .host (hseg hostOps3 hostOps3_sub hostOps3_fresh (W6 m ρ)), .region (reg3 m ρ hsrc),
    .host (hseg hostOps4 hostOps4_sub hostOps4_fresh (W8 m ρ)), .region (reg4 m ρ hsrc),
    .host (hseg hostOps5 hostOps5_sub hostOps5_fresh (W10 m ρ)), .region (reg5 m ρ hsrc),
    .host (hseg hostOps6 hostOps6_sub hostOps6_fresh (W12 m ρ)), .region (reg6 m ρ hsrc),
    .host (hseg hostOps7 hostOps7_sub hostOps7_fresh (W14 m ρ)), .region (reg7 m ρ hsrc),
    .host (hseg hostOps8 hostOps8_sub hostOps8_fresh (W16 m ρ)), .region (reg8 m ρ hsrc),
    .host (hseg hostOps9 hostOps9_sub hostOps9_fresh (W18 m ρ)), .region (reg9 m ρ hsrc),
    .host (hseg hostOps10 hostOps10_sub hostOps10_fresh (W20 m ρ)), .region (reg10 m ρ) ]

/-- @main is the run of the segments: it is the chain of its items, and the segments' fragments are those items. -/
theorem main_run (hsrc : ∀ (c : Dev nD) (e : S640000.Idx), (m ((c : Thread nD τ).loc main_arg1) e).toNat < 50000) (c : Dev nD) :
    main (F := F) c = Pipeline.Seg.run (segs m ρ hsrc) :=
  main_segs (adm m ρ) (pdats m ρ) () 𝒱₀ L lv _ _ _ _ _ _ _ _ _ _ _ _ _ _ _ _ _ _ _ _ _ _ rfl rfl rfl rfl rfl rfl rfl rfl rfl rfl rfl c

/-! ## What the launch deals, and what the end reads

The launch theorem for a program of several regions wants three things besides the segments: the launch element split into the pipeline library's element and the
cores' ghost resources (here none); the first thread state made on each core from what the launch deals it; and the
last thread state read against a final memory. -/

/-- The first thread state on core `c`: the launch deals the core its unscoped buffers whole at the launch memory, which
    is `W0`; the generator register at its launch state; and its `owes` at nothing with no waits recorded. The unscoped
    semaphores and the launch credit are not used by any segment's thread state and are dropped. -/
theorem first_state (c : Dev nD) :
    iprop(iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (iprop(emp) : sProp 𝕄)) ∗ levAts L lv)
      ⊢ (|={Set.univ}=> T (W0 m ρ) c : sProp 𝕄) := by
  rw [Pipeline.unscopedBufs_held c (W0 m ρ c)]
  iintro ⟨⟨Hbufs, -, Howes, -, Hprng, -⟩, -⟩
  imodintro
  isplitl [Hbufs]; · iexact Hbufs
  isplitl [Hprng]
  · iexists (ρ c); iexact Hprng
  iexists ∅; iexact Howes

/-- The last thread state read against a final state: every unscoped buffer is held whole at `W22`, so the state's memory
    has `W22`'s contents at each of them. -/
theorem last_state_read (c : Dev nD) (s' : Phys nD τ sig (Elt F)) :
    iprop(Tₙ m ρ c ∗ SI s')
      ⊢ (|={Set.univ}=> iprop(⌜∀ b ∈ Pipeline.ucRefs τ sig, s'.mem.mem (((c : Thread nD τ)).1, b) = W22 m ρ c b⌝ ∗ SI s') : sProp 𝕄) := by
  iintro ⟨⟨Hbufs, -⟩, HSI⟩
  unfold StableHlo.held
  imodintro
  iapply (pointsTo_read_all (Pipeline.ucRefs τ sig) (fun b => (((c : Thread nD τ)).1, b)) (W22 m ρ c) s')
  isplitl [Hbufs]; · iexact Hbufs
  iexact HSI

-- the launch theorem's implicit arguments are found by unifying its conclusion with this one, which takes unfolding plain
-- definitions in a metavariable's type
set_option backward.isDefEq.respectTransparency.types false in
/-- THE RUN. At the compiled mesh, from any memory with zero counters whose edge-source words all name rows of the node
    table, every weakly fair execution of @main on the TensorCore terminates, nothing faulting, and every final state
    holds the result array at the last contents of the fold, `W22`, and each argument array as launched. The twenty-three
    links of the chain of thread states are identities: each segment is stated from `T` of the contents before it to `T`
    of the contents after it. -/
theorem run_main (hsrc : ∀ (c : Dev nD) (e : S640000.Idx), (m ((c : Thread nD τ).loc main_arg1) e).toNat < 50000) :
    θ_run defs (onTc (τ := τ) (main (F := F))) ⟨m, fun _ => 0, ρ⟩ (fun r => ∀ c : Dev nD,
      r.2.mem ((c.tc : Thread nD τ).loc main_v26) = W22 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) (adm m ρ) (pdats m ρ) () (cellOf_inj (adm m ρ)) embL defs₀ 𝒱₀ L lv m ρ main (segs m ρ hsrc)
    (fun c Q => by rw [main_run m ρ hsrc c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ)))
      (Pipeline.launchToks (Pipeline.pin (pcfgs (F := F)) (adm m ρ)) (cellOf_inj (adm m ρ))), 1))
    (hu₀ := by
      -- the pair splits; its left half is the pipeline library's element, the right half (the counters' unit) is dropped
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := Pipeline.initEach L lv (first_state m ρ))
    (QY := fun c s => ∀ b ∈ Pipeline.ucRefs τ sig, s.mem (((c : Thread nD τ)).1, b) = W22 m ρ c b)
    (hfin := last_state_read m ρ)
    (hQ := fun s h c =>
      ⟨h c _ (mem_uc main_v26 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c)⟩)

end Cert.KernelIdeal.Hand

end
-- ==== Proof.KRowsJoin0.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 0's scratch buffer, whole, and its sixteen rows as the body addresses them. -/
abbrev gsc0M : Memref sig .tc .vmem S16x1x128 .f32 := Memref.whole cc0_scratch0
abbrev gr0_0M : Memref sig .tc .vmem S1x128 .f32 := ((Memref.whole cc0_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr0_1M : Memref sig .tc .vmem S1x128 .f32 := ((Memref.whole cc0_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr0_2M : Memref sig .tc .vmem S1x128 .f32 := ((Memref.whole cc0_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr0_3M : Memref sig .tc .vmem S1x128 .f32 := ((Memref.whole cc0_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr0_4M : Memref sig .tc .vmem S1x128 .f32 := ((Memref.whole cc0_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr0_5M : Memref sig .tc .vmem S1x128 .f32 := ((Memref.whole cc0_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr0_6M : Memref sig .tc .vmem S1x128 .f32 := ((Memref.whole cc0_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr0_7M : Memref sig .tc .vmem S1x128 .f32 := ((Memref.whole cc0_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr0_8M : Memref sig .tc .vmem S1x128 .f32 := ((Memref.whole cc0_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr0_9M : Memref sig .tc .vmem S1x128 .f32 := ((Memref.whole cc0_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr0_10M : Memref sig .tc .vmem S1x128 .f32 := ((Memref.whole cc0_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr0_11M : Memref sig .tc .vmem S1x128 .f32 := ((Memref.whole cc0_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr0_12M : Memref sig .tc .vmem S1x128 .f32 := ((Memref.whole cc0_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr0_13M : Memref sig .tc .vmem S1x128 .f32 := ((Memref.whole cc0_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr0_14M : Memref sig .tc .vmem S1x128 .f32 := ((Memref.whole cc0_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr0_15M : Memref sig .tc .vmem S1x128 .f32 := ((Memref.whole cc0_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr0_0M.view.set = rowSet (0 : Fin 16) := by
  refine (View.set_reshape _ _).trans ?_
  refine (View.set_slice_whole _ _).trans ?_
  rfl
private theorem row_set_1 : gr0_1M.view.set = rowSet (1 : Fin 16) := by
  refine (View.set_reshape _ _).trans ?_
  refine (View.set_slice_whole _ _).trans ?_
  rfl
private theorem row_set_2 : gr0_2M.view.set = rowSet (2 : Fin 16) := by
  refine (View.set_reshape _ _).trans ?_
  refine (View.set_slice_whole _ _).trans ?_
  rfl
private theorem row_set_3 : gr0_3M.view.set = rowSet (3 : Fin 16) := by
  refine (View.set_reshape _ _).trans ?_
  refine (View.set_slice_whole _ _).trans ?_
  rfl
private theorem row_set_4 : gr0_4M.view.set = rowSet (4 : Fin 16) := by
  refine (View.set_reshape _ _).trans ?_
  refine (View.set_slice_whole _ _).trans ?_
  rfl
private theorem row_set_5 : gr0_5M.view.set = rowSet (5 : Fin 16) := by
  refine (View.set_reshape _ _).trans ?_
  refine (View.set_slice_whole _ _).trans ?_
  rfl
private theorem row_set_6 : gr0_6M.view.set = rowSet (6 : Fin 16) := by
  refine (View.set_reshape _ _).trans ?_
  refine (View.set_slice_whole _ _).trans ?_
  rfl
private theorem row_set_7 : gr0_7M.view.set = rowSet (7 : Fin 16) := by
  refine (View.set_reshape _ _).trans ?_
  refine (View.set_slice_whole _ _).trans ?_
  rfl
private theorem row_set_8 : gr0_8M.view.set = rowSet (8 : Fin 16) := by
  refine (View.set_reshape _ _).trans ?_
  refine (View.set_slice_whole _ _).trans ?_
  rfl
private theorem row_set_9 : gr0_9M.view.set = rowSet (9 : Fin 16) := by
  refine (View.set_reshape _ _).trans ?_
  refine (View.set_slice_whole _ _).trans ?_
  rfl
private theorem row_set_10 : gr0_10M.view.set = rowSet (10 : Fin 16) := by
  refine (View.set_reshape _ _).trans ?_
  refine (View.set_slice_whole _ _).trans ?_
  rfl
private theorem row_set_11 : gr0_11M.view.set = rowSet (11 : Fin 16) := by
  refine (View.set_reshape _ _).trans ?_
  refine (View.set_slice_whole _ _).trans ?_
  rfl
private theorem row_set_12 : gr0_12M.view.set = rowSet (12 : Fin 16) := by
  refine (View.set_reshape _ _).trans ?_
  refine (View.set_slice_whole _ _).trans ?_
  rfl
private theorem row_set_13 : gr0_13M.view.set = rowSet (13 : Fin 16) := by
  refine (View.set_reshape _ _).trans ?_
  refine (View.set_slice_whole _ _).trans ?_
  rfl
private theorem row_set_14 : gr0_14M.view.set = rowSet (14 : Fin 16) := by
  refine (View.set_reshape _ _).trans ?_
  refine (View.set_slice_whole _ _).trans ?_
  rfl
private theorem row_set_15 : gr0_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join0 (c : Dev nD) (f0 f1 f2 f3 f4 f5 f6 f7 f8 f9 f10 f11 f12 f13 f14 f15 : Buf (Elt F) (gsc0M.view.loc (c : Thread nD τ))) :
    (iprop((gsc0M.view.loc (c : Thread nD τ) ↦[gr0_0M.view.set]{fullShare} f0)
        ∗ (gsc0M.view.loc (c : Thread nD τ) ↦[gr0_1M.view.set]{fullShare} f1)
        ∗ (gsc0M.view.loc (c : Thread nD τ) ↦[gr0_2M.view.set]{fullShare} f2)
        ∗ (gsc0M.view.loc (c : Thread nD τ) ↦[gr0_3M.view.set]{fullShare} f3)
        ∗ (gsc0M.view.loc (c : Thread nD τ) ↦[gr0_4M.view.set]{fullShare} f4)
        ∗ (gsc0M.view.loc (c : Thread nD τ) ↦[gr0_5M.view.set]{fullShare} f5)
        ∗ (gsc0M.view.loc (c : Thread nD τ) ↦[gr0_6M.view.set]{fullShare} f6)
        ∗ (gsc0M.view.loc (c : Thread nD τ) ↦[gr0_7M.view.set]{fullShare} f7)
        ∗ (gsc0M.view.loc (c : Thread nD τ) ↦[gr0_8M.view.set]{fullShare} f8)
        ∗ (gsc0M.view.loc (c : Thread nD τ) ↦[gr0_9M.view.set]{fullShare} f9)
        ∗ (gsc0M.view.loc (c : Thread nD τ) ↦[gr0_10M.view.set]{fullShare} f10)
        ∗ (gsc0M.view.loc (c : Thread nD τ) ↦[gr0_11M.view.set]{fullShare} f11)
        ∗ (gsc0M.view.loc (c : Thread nD τ) ↦[gr0_12M.view.set]{fullShare} f12)
        ∗ (gsc0M.view.loc (c : Thread nD τ) ↦[gr0_13M.view.set]{fullShare} f13)
        ∗ (gsc0M.view.loc (c : Thread nD τ) ↦[gr0_14M.view.set]{fullShare} f14)
        ∗ (gsc0M.view.loc (c : Thread nD τ) ↦[gr0_15M.view.set]{fullShare} f15)) : sProp 𝕄)
      ⊢ iprop(∃ g : Buf (Elt F) (gsc0M.view.loc (c : Thread nD τ)),
          ⌜(∀ i ∈ gr0_0M.view.set, g i = f0 i)
            ∧ (∀ i ∈ gr0_1M.view.set, g i = f1 i)
            ∧ (∀ i ∈ gr0_2M.view.set, g i = f2 i)
            ∧ (∀ i ∈ gr0_3M.view.set, g i = f3 i)
            ∧ (∀ i ∈ gr0_4M.view.set, g i = f4 i)
            ∧ (∀ i ∈ gr0_5M.view.set, g i = f5 i)
            ∧ (∀ i ∈ gr0_6M.view.set, g i = f6 i)
            ∧ (∀ i ∈ gr0_7M.view.set, g i = f7 i)
            ∧ (∀ i ∈ gr0_8M.view.set, g i = f8 i)
            ∧ (∀ i ∈ gr0_9M.view.set, g i = f9 i)
            ∧ (∀ i ∈ gr0_10M.view.set, g i = f10 i)
            ∧ (∀ i ∈ gr0_11M.view.set, g i = f11 i)
            ∧ (∀ i ∈ gr0_12M.view.set, g i = f12 i)
            ∧ (∀ i ∈ gr0_13M.view.set, g i = f13 i)
            ∧ (∀ i ∈ gr0_14M.view.set, g i = f14 i)
            ∧ (∀ i ∈ gr0_15M.view.set, g i = f15 i)⌝
          ∗ (gsc0M.view.loc (c : Thread nD τ) ↦[gsc0M.view.set]{fullShare} g)) := by
  have hw : gsc0M.view.set = Finset.univ.biUnion rowSet := (View.set_whole _).trans rowSet_cover.symm
  exact join16 (ℓ := gsc0M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split0 (c : Dev nD) (f : Buf (Elt F) (gsc0M.view.loc (c : Thread nD τ))) :
    (gsc0M.view.loc (c : Thread nD τ) ↦[gsc0M.view.set]{fullShare} f : sProp 𝕄)
      ⊢ iprop((gsc0M.view.loc (c : Thread nD τ) ↦[gr0_0M.view.set]{fullShare} f)
        ∗ (gsc0M.view.loc (c : Thread nD τ) ↦[gr0_1M.view.set]{fullShare} f)
        ∗ (gsc0M.view.loc (c : Thread nD τ) ↦[gr0_2M.view.set]{fullShare} f)
        ∗ (gsc0M.view.loc (c : Thread nD τ) ↦[gr0_3M.view.set]{fullShare} f)
        ∗ (gsc0M.view.loc (c : Thread nD τ) ↦[gr0_4M.view.set]{fullShare} f)
        ∗ (gsc0M.view.loc (c : Thread nD τ) ↦[gr0_5M.view.set]{fullShare} f)
        ∗ (gsc0M.view.loc (c : Thread nD τ) ↦[gr0_6M.view.set]{fullShare} f)
        ∗ (gsc0M.view.loc (c : Thread nD τ) ↦[gr0_7M.view.set]{fullShare} f)
        ∗ (gsc0M.view.loc (c : Thread nD τ) ↦[gr0_8M.view.set]{fullShare} f)
        ∗ (gsc0M.view.loc (c : Thread nD τ) ↦[gr0_9M.view.set]{fullShare} f)
        ∗ (gsc0M.view.loc (c : Thread nD τ) ↦[gr0_10M.view.set]{fullShare} f)
        ∗ (gsc0M.view.loc (c : Thread nD τ) ↦[gr0_11M.view.set]{fullShare} f)
        ∗ (gsc0M.view.loc (c : Thread nD τ) ↦[gr0_12M.view.set]{fullShare} f)
        ∗ (gsc0M.view.loc (c : Thread nD τ) ↦[gr0_13M.view.set]{fullShare} f)
        ∗ (gsc0M.view.loc (c : Thread nD τ) ↦[gr0_14M.view.set]{fullShare} f)
        ∗ (gsc0M.view.loc (c : Thread nD τ) ↦[gr0_15M.view.set]{fullShare} f)) := by
  have hw : gsc0M.view.set = Finset.univ.biUnion rowSet := (View.set_whole _).trans rowSet_cover.symm
  exact split16 (ℓ := gsc0M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows0.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin0
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 0's chunk of the edge-source table in scalar memory, whole. -/
abbrev ghb0M : Memref sig .tc .hbm S50000x1x128 .f32 := Memref.whole main_v0
abbrev gtb0M : Memref sig .tc .smem S64000 .i32 := Memref.whole main_v1

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc0M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb0M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed0 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb0M.view.loc (c : Thread nD τ))) (fs g : Buf (Elt F) (gsc0M.view.loc (c : Thread nD τ)))
    (hg : ∀ i ∈ ((gsc0M.slice (Rect.unit (s := S16x1x128) ![j, 0, 0] S1x1x128.size inb) (fun _ => rfl)).squeeze S1x128 squeezes_S1x1x128_S1x128).view.set,
        g i = ((gsc0M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb0M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc0M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb0M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load0 (c : Dev nD) (g : Buf (Elt F) (gsc0M.view.loc (c : Thread nD τ))) (y : S16x1x128.Idx) :
    View.readAt (Elt F) gsc0M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word0 (pf : S64000.Idx → Elt F .i32) (off : Fin 1 → ℕ) (inb : ∀ a, off a + S1.size a ≤ S64000.size a)
    (n : ℕ) (hn : n < 64000) (hoff : off 0 = n) :
    View.readAt (Elt F) gtb0M.view (Rect.unit (s := S64000) off S1.size inb).toLoadRect
        ((Memref.isWhole_whole _ : gtb0M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs0 (i : grid0.Coords) :
    (k0_off1 i) 0 = 16 * (i 0).val + 0
    ∧ (k0_off3 i) 0 = 16 * (i 0).val + 1
    ∧ (k0_off5 i) 0 = 16 * (i 0).val + 2
    ∧ (k0_off7 i) 0 = 16 * (i 0).val + 3
    ∧ (k0_off9 i) 0 = 16 * (i 0).val + 4
    ∧ (k0_off11 i) 0 = 16 * (i 0).val + 5
    ∧ (k0_off13 i) 0 = 16 * (i 0).val + 6
    ∧ (k0_off15 i) 0 = 16 * (i 0).val + 7
    ∧ (k0_off17 i) 0 = 16 * (i 0).val + 8
    ∧ (k0_off19 i) 0 = 16 * (i 0).val + 9
    ∧ (k0_off21 i) 0 = 16 * (i 0).val + 10
    ∧ (k0_off23 i) 0 = 16 * (i 0).val + 11
    ∧ (k0_off25 i) 0 = 16 * (i 0).val + 12
    ∧ (k0_off27 i) 0 = 16 * (i 0).val + 13
    ∧ (k0_off29 i) 0 = 16 * (i 0).val + 14
    ∧ (k0_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherAux.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

/-- A word below 50000 names a one-row slice of the node table that lies inside it. -/
theorem chk_lt (v : BitVec 32) (h : v.toNat < 50000) :
    ∀ a, (![v.toNat, 0, 0] : Fin 3 → ℕ) a + S1x1x128.size a ≤ S50000x1x128.size a := by
  intro a; fin_cases a
  · show v.toNat + 1 ≤ 50000; omega
  · show 0 + 1 ≤ 1; omega
  · show 0 + 128 ≤ 128; omega

/-- One store through a rectangle at zero offsets of the buffer's own sizes leaves exactly its payload. -/
theorem read_store_whole {κ : Kind} {sp : Space} {S : Shape} {e : EltTy} {off : Fin S.rank → Nat}
    (h : off = fun _ => 0) {inb : ∀ a, off a + S.size a ≤ S.size a} {v : View sig κ sp S e}
    {f : v.ty.Contents (Elt F)} {w : S.Idx → Elt F e} :
    v.read (Elt F) (v.writes (Elt F) f [(⟨Rect.unit off S.size inb, w⟩ : View.Piece (Elt F) S e)]) = w := by
  subst h
  funext y
  have hy := View.read_writes_cons_emb (v := v) (f := f) (Rect.whole S) w [] y
  rwa [Rect.emb_whole_apply] at hy

/-- The node-table lane a table entry's word names, with the reductions into range dropped: entry `16 n + j` is inside
    the chunk and the word is below 50000. -/
theorem grow_word {α : Type} (tb : (⟨3, ![50000, 1, 128]⟩ : Shape).Idx → α) (pf : (⟨1, ![64000]⟩ : Shape).Idx → BitVec 32)
    (n j : ℕ) (hn : 16 * n + j < 64000) (w : BitVec 32)
    (hw : w = pf (ValueIdx.ix1 (⟨16 * n + j, hn⟩ : Fin 64000))) (hlt : w.toNat < 50000) (l : Fin 128) :
    tb (ValueIdx.ix3 (⟨w.toNat, hlt⟩ : Fin 50000) (0 : Fin 1) l) = grow tb (gword pf n j) l := by
  subst hw
  unfold grow gword
  have e1 : (⟨(16 * n + j) % 64000, Nat.mod_lt _ (by decide)⟩ : Fin 64000) = ⟨16 * n + j, hn⟩ := Fin.ext (Nat.mod_eq_of_lt hn)
  rw [e1]
  congr 2
  exact Fin.ext (Nat.mod_eq_of_lt hlt).symm

end Cert.Kernel.Hand

end
-- ==== Proof.KGatherRun0.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows0
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 0's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run0 (c : Dev nD) (i : grid0.Coords) (arg3 : Memref sig .tc .vmem S16x1x128 .f32) (harg3 : arg3.IsWhole)
    (pf : S64000.Idx → Elt F .i32) (tb : Buf (Elt F) (ghb0M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc0M.view.loc (c : Thread nD τ) ↦[gsc0M.view.set]{fullShare} f)
        ∗ owns (c : Thread nD τ) gtb0M fullShare pf
        ∗ (ghb0M.view.loc (c : Thread nD τ) ↦{fullShare} tb)
        ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
        ∗ owes (c : Thread nD τ) 0 W
        ∗ (iprop(owns (c : Thread nD τ) arg3 fullShare (gblock tb pf (i 0).val)
            ∗ (∃ f, gsc0M.view.loc (c : Thread nD τ) ↦[gsc0M.view.set]{fullShare} f)
            ∗ owns (c : Thread nD τ) gtb0M fullShare pf
            ∗ (ghb0M.view.loc (c : Thread nD τ) ↦{fullShare} tb)
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
            ∗ (∃ W', owes (c : Thread nD τ) 0 W')) -∗ K ⟨⟩))
      ⊢ wp frame (wpE (defs₀ (F := F)) Variants.none c none) Set.univ
          (cc0__gather_kernel i gtb0M (Memref.isWhole_whole _) ghb0M (Memref.isWhole_whole _) arg3 harg3 gsc0M (Memref.isWhole_whole _) cc0_scratch1) K := by
  have hi : (i 0).val < 4000 := (i 0).isLt
  have hoffs := table_offs0 i
  have hword0 : (View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))) = pf (ValueIdx.ix1 (⟨16 * (i 0).val + 0, by omega⟩ : Fin 64000)) :=
    table_word0 pf _ _ _ (by omega) hoffs.1
  have hlt0 : (View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))).toNat < 50000 := by rw [hword0]; exact hok _
  have hw1 : k0_chk1 (View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))) := ⟨chk_lt _ hlt0, chk_lt _ hlt0⟩
  have hword1 : (View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))) = pf (ValueIdx.ix1 (⟨16 * (i 0).val + 1, by omega⟩ : Fin 64000)) :=
    table_word0 pf _ _ _ (by omega) hoffs.2.1
  have hlt1 : (View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))).toNat < 50000 := by rw [hword1]; exact hok _
  have hw2 : k0_chk2 (View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))) := ⟨chk_lt _ hlt1, chk_lt _ hlt1⟩
  have hword2 : (View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))) = pf (ValueIdx.ix1 (⟨16 * (i 0).val + 2, by omega⟩ : Fin 64000)) :=
    table_word0 pf _ _ _ (by omega) hoffs.2.2.1
  have hlt2 : (View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))).toNat < 50000 := by rw [hword2]; exact hok _
  have hw3 : k0_chk3 (View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))) := ⟨chk_lt _ hlt2, chk_lt _ hlt2⟩
  have hword3 : (View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))) = pf (ValueIdx.ix1 (⟨16 * (i 0).val + 3, by omega⟩ : Fin 64000)) :=
    table_word0 pf _ _ _ (by omega) hoffs.2.2.2.1
  have hlt3 : (View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))).toNat < 50000 := by rw [hword3]; exact hok _
  have hw4 : k0_chk4 (View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))) := ⟨chk_lt _ hlt3, chk_lt _ hlt3⟩
  have hword4 : (View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))) = pf (ValueIdx.ix1 (⟨16 * (i 0).val + 4, by omega⟩ : Fin 64000)) :=
    table_word0 pf _ _ _ (by omega) hoffs.2.2.2.2.1
  have hlt4 : (View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))).toNat < 50000 := by rw [hword4]; exact hok _
  have hw5 : k0_chk5 (View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))) := ⟨chk_lt _ hlt4, chk_lt _ hlt4⟩
  have hword5 : (View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))) = pf (ValueIdx.ix1 (⟨16 * (i 0).val + 5, by omega⟩ : Fin 64000)) :=
    table_word0 pf _ _ _ (by omega) hoffs.2.2.2.2.2.1
  have hlt5 : (View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))).toNat < 50000 := by rw [hword5]; exact hok _
  have hw6 : k0_chk6 (View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))) := ⟨chk_lt _ hlt5, chk_lt _ hlt5⟩
  have hword6 : (View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))) = pf (ValueIdx.ix1 (⟨16 * (i 0).val + 6, by omega⟩ : Fin 64000)) :=
    table_word0 pf _ _ _ (by omega) hoffs.2.2.2.2.2.2.1
  have hlt6 : (View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))).toNat < 50000 := by rw [hword6]; exact hok _
  have hw7 : k0_chk7 (View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))) := ⟨chk_lt _ hlt6, chk_lt _ hlt6⟩
  have hword7 : (View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))) = pf (ValueIdx.ix1 (⟨16 * (i 0).val + 7, by omega⟩ : Fin 64000)) :=
    table_word0 pf _ _ _ (by omega) hoffs.2.2.2.2.2.2.2.1
  have hlt7 : (View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))).toNat < 50000 := by rw [hword7]; exact hok _
  have hw8 : k0_chk8 (View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))) := ⟨chk_lt _ hlt7, chk_lt _ hlt7⟩
  have hword8 : (View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))) = pf (ValueIdx.ix1 (⟨16 * (i 0).val + 8, by omega⟩ : Fin 64000)) :=
    table_word0 pf _ _ _ (by omega) hoffs.2.2.2.2.2.2.2.2.1
  have hlt8 : (View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))).toNat < 50000 := by rw [hword8]; exact hok _
  have hw9 : k0_chk9 (View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))) := ⟨chk_lt _ hlt8, chk_lt _ hlt8⟩
  have hword9 : (View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))) = pf (ValueIdx.ix1 (⟨16 * (i 0).val + 9, by omega⟩ : Fin 64000)) :=
    table_word0 pf _ _ _ (by omega) hoffs.2.2.2.2.2.2.2.2.2.1
  have hlt9 : (View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))).toNat < 50000 := by rw [hword9]; exact hok _
  have hw10 : k0_chk10 (View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))) := ⟨chk_lt _ hlt9, chk_lt _ hlt9⟩
  have hword10 : (View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))) = pf (ValueIdx.ix1 (⟨16 * (i 0).val + 10, by omega⟩ : Fin 64000)) :=
    table_word0 pf _ _ _ (by omega) hoffs.2.2.2.2.2.2.2.2.2.2.1
  have hlt10 : (View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))).toNat < 50000 := by rw [hword10]; exact hok _
  have hw11 : k0_chk11 (View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))) := ⟨chk_lt _ hlt10, chk_lt _ hlt10⟩
  have hword11 : (View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))) = pf (ValueIdx.ix1 (⟨16 * (i 0).val + 11, by omega⟩ : Fin 64000)) :=
    table_word0 pf _ _ _ (by omega) hoffs.2.2.2.2.2.2.2.2.2.2.2.1
  have hlt11 : (View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))).toNat < 50000 := by rw [hword11]; exact hok _
  have hw12 : k0_chk12 (View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))) := ⟨chk_lt _ hlt11, chk_lt _ hlt11⟩
  have hword12 : (View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))) = pf (ValueIdx.ix1 (⟨16 * (i 0).val + 12, by omega⟩ : Fin 64000)) :=
    table_word0 pf _ _ _ (by omega) hoffs.2.2.2.2.2.2.2.2.2.2.2.2.1
  have hlt12 : (View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))).toNat < 50000 := by rw [hword12]; exact hok _
  have hw13 : k0_chk13 (View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))) := ⟨chk_lt _ hlt12, chk_lt _ hlt12⟩
  have hword13 : (View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))) = pf (ValueIdx.ix1 (⟨16 * (i 0).val + 13, by omega⟩ : Fin 64000)) :=
    table_word0 pf _ _ _ (by omega) hoffs.2.2.2.2.2.2.2.2.2.2.2.2.2.1
  have hlt13 : (View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))).toNat < 50000 := by rw [hword13]; exact hok _
  have hw14 : k0_chk14 (View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))) := ⟨chk_lt _ hlt13, chk_lt _ hlt13⟩
  have hword14 : (View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))) = pf (ValueIdx.ix1 (⟨16 * (i 0).val + 14, by omega⟩ : Fin 64000)) :=
    table_word0 pf _ _ _ (by omega) hoffs.2.2.2.2.2.2.2.2.2.2.2.2.2.2.1
  have hlt14 : (View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))).toNat < 50000 := by rw [hword14]; exact hok _
  have hw15 : k0_chk15 (View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))) := ⟨chk_lt _ hlt14, chk_lt _ hlt14⟩
  have hword15 : (View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))) = pf (ValueIdx.ix1 (⟨16 * (i 0).val + 15, by omega⟩ : Fin 64000)) :=
    table_word0 pf _ _ _ (by omega) hoffs.2.2.2.2.2.2.2.2.2.2.2.2.2.2.2
  have hlt15 : (View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))).toNat < 50000 := by rw [hword15]; exact hok _
  have hw16 : k0_chk16 (View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))) := chk_lt _ hlt15
  rw [cc0__gather_kernel_eq_skeleton]; unfold cc0__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb0M).IsWhole).eq_unread hfp
  ihave HR := (rows_split0 (F := F) c fsc) $$ HSC
  icases HR with ⟨HS0, HS1, HS2, HS3, HS4, HS5, HS6, HS7, HS8, HS9, HS10, HS11, HS12, HS13, HS14, HS15⟩
  ihave HS0 := (Entails.of_eq (show ((gsc0M.view.loc (c : Thread nD τ) ↦[gr0_0M.view.set]{fullShare} fsc : sProp 𝕄)) = (gr0_0M.view.loc (c : Thread nD τ) ↦[gr0_0M.view.set]{fullShare} fsc) from rfl)) $$ HS0
  ihave HS1 := (Entails.of_eq (show ((gsc0M.view.loc (c : Thread nD τ) ↦[gr0_1M.view.set]{fullShare} fsc : sProp 𝕄)) = (gr0_1M.view.loc (c : Thread nD τ) ↦[gr0_1M.view.set]{fullShare} fsc) from rfl)) $$ HS1
  ihave HS2 := (Entails.of_eq (show ((gsc0M.view.loc (c : Thread nD τ) ↦[gr0_2M.view.set]{fullShare} fsc : sProp 𝕄)) = (gr0_2M.view.loc (c : Thread nD τ) ↦[gr0_2M.view.set]{fullShare} fsc) from rfl)) $$ HS2
  ihave HS3 := (Entails.of_eq (show ((gsc0M.view.loc (c : Thread nD τ) ↦[gr0_3M.view.set]{fullShare} fsc : sProp 𝕄)) = (gr0_3M.view.loc (c : Thread nD τ) ↦[gr0_3M.view.set]{fullShare} fsc) from rfl)) $$ HS3
  ihave HS4 := (Entails.of_eq (show ((gsc0M.view.loc (c : Thread nD τ) ↦[gr0_4M.view.set]{fullShare} fsc : sProp 𝕄)) = (gr0_4M.view.loc (c : Thread nD τ) ↦[gr0_4M.view.set]{fullShare} fsc) from rfl)) $$ HS4
  ihave HS5 := (Entails.of_eq (show ((gsc0M.view.loc (c : Thread nD τ) ↦[gr0_5M.view.set]{fullShare} fsc : sProp 𝕄)) = (gr0_5M.view.loc (c : Thread nD τ) ↦[gr0_5M.view.set]{fullShare} fsc) from rfl)) $$ HS5
  ihave HS6 := (Entails.of_eq (show ((gsc0M.view.loc (c : Thread nD τ) ↦[gr0_6M.view.set]{fullShare} fsc : sProp 𝕄)) = (gr0_6M.view.loc (c : Thread nD τ) ↦[gr0_6M.view.set]{fullShare} fsc) from rfl)) $$ HS6
  ihave HS7 := (Entails.of_eq (show ((gsc0M.view.loc (c : Thread nD τ) ↦[gr0_7M.view.set]{fullShare} fsc : sProp 𝕄)) = (gr0_7M.view.loc (c : Thread nD τ) ↦[gr0_7M.view.set]{fullShare} fsc) from rfl)) $$ HS7
  ihave HS8 := (Entails.of_eq (show ((gsc0M.view.loc (c : Thread nD τ) ↦[gr0_8M.view.set]{fullShare} fsc : sProp 𝕄)) = (gr0_8M.view.loc (c : Thread nD τ) ↦[gr0_8M.view.set]{fullShare} fsc) from rfl)) $$ HS8
  ihave HS9 := (Entails.of_eq (show ((gsc0M.view.loc (c : Thread nD τ) ↦[gr0_9M.view.set]{fullShare} fsc : sProp 𝕄)) = (gr0_9M.view.loc (c : Thread nD τ) ↦[gr0_9M.view.set]{fullShare} fsc) from rfl)) $$ HS9
  ihave HS10 := (Entails.of_eq (show ((gsc0M.view.loc (c : Thread nD τ) ↦[gr0_10M.view.set]{fullShare} fsc : sProp 𝕄)) = (gr0_10M.view.loc (c : Thread nD τ) ↦[gr0_10M.view.set]{fullShare} fsc) from rfl)) $$ HS10
  ihave HS11 := (Entails.of_eq (show ((gsc0M.view.loc (c : Thread nD τ) ↦[gr0_11M.view.set]{fullShare} fsc : sProp 𝕄)) = (gr0_11M.view.loc (c : Thread nD τ) ↦[gr0_11M.view.set]{fullShare} fsc) from rfl)) $$ HS11
  ihave HS12 := (Entails.of_eq (show ((gsc0M.view.loc (c : Thread nD τ) ↦[gr0_12M.view.set]{fullShare} fsc : sProp 𝕄)) = (gr0_12M.view.loc (c : Thread nD τ) ↦[gr0_12M.view.set]{fullShare} fsc) from rfl)) $$ HS12
  ihave HS13 := (Entails.of_eq (show ((gsc0M.view.loc (c : Thread nD τ) ↦[gr0_13M.view.set]{fullShare} fsc : sProp 𝕄)) = (gr0_13M.view.loc (c : Thread nD τ) ↦[gr0_13M.view.set]{fullShare} fsc) from rfl)) $$ HS13
  ihave HS14 := (Entails.of_eq (show ((gsc0M.view.loc (c : Thread nD τ) ↦[gr0_14M.view.set]{fullShare} fsc : sProp 𝕄)) = (gr0_14M.view.loc (c : Thread nD τ) ↦[gr0_14M.view.set]{fullShare} fsc) from rfl)) $$ HS14
  ihave HS15 := (Entails.of_eq (show ((gsc0M.view.loc (c : Thread nD τ) ↦[gr0_15M.view.set]{fullShare} fsc : sProp 𝕄)) = (gr0_15M.view.loc (c : Thread nD τ) ↦[gr0_15M.view.set]{fullShare} fsc) from rfl)) $$ HS15
  ihave HB := (split16 (ℓ := ghb0M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join0 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb0M.view (Rect.unit (s := S64000) (k0_off1 i) S1.size (k0_off1_inb i)).toLoadRect ((Memref.isWhole_whole _ : gtb0M.IsWhole).unread pf) (Shape.Idx.first (numel1_S1.symm ▸ Nat.one_pos))).toNat, hlt0⟩ : Fin 50000) (0 : Fin 1) l) :=
    row_landed0 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb0M.view (Rect.unit (s := S64000) (k0_off3 i) S1.size (k0_off3_inb i)).toLoadRect ((Memref.isWhole_whole _ : gtb0M.IsWhole).unread pf) (Shape.Idx.first (numel1_S1.symm ▸ Nat.one_pos))).toNat, hlt1⟩ : Fin 50000) (0 : Fin 1) l) :=
    row_landed0 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb0M.view (Rect.unit (s := S64000) (k0_off5 i) S1.size (k0_off5_inb i)).toLoadRect ((Memref.isWhole_whole _ : gtb0M.IsWhole).unread pf) (Shape.Idx.first (numel1_S1.symm ▸ Nat.one_pos))).toNat, hlt2⟩ : Fin 50000) (0 : Fin 1) l) :=
    row_landed0 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb0M.view (Rect.unit (s := S64000) (k0_off7 i) S1.size (k0_off7_inb i)).toLoadRect ((Memref.isWhole_whole _ : gtb0M.IsWhole).unread pf) (Shape.Idx.first (numel1_S1.symm ▸ Nat.one_pos))).toNat, hlt3⟩ : Fin 50000) (0 : Fin 1) l) :=
    row_landed0 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb0M.view (Rect.unit (s := S64000) (k0_off9 i) S1.size (k0_off9_inb i)).toLoadRect ((Memref.isWhole_whole _ : gtb0M.IsWhole).unread pf) (Shape.Idx.first (numel1_S1.symm ▸ Nat.one_pos))).toNat, hlt4⟩ : Fin 50000) (0 : Fin 1) l) :=
    row_landed0 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb0M.view (Rect.unit (s := S64000) (k0_off11 i) S1.size (k0_off11_inb i)).toLoadRect ((Memref.isWhole_whole _ : gtb0M.IsWhole).unread pf) (Shape.Idx.first (numel1_S1.symm ▸ Nat.one_pos))).toNat, hlt5⟩ : Fin 50000) (0 : Fin 1) l) :=
    row_landed0 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb0M.view (Rect.unit (s := S64000) (k0_off13 i) S1.size (k0_off13_inb i)).toLoadRect ((Memref.isWhole_whole _ : gtb0M.IsWhole).unread pf) (Shape.Idx.first (numel1_S1.symm ▸ Nat.one_pos))).toNat, hlt6⟩ : Fin 50000) (0 : Fin 1) l) :=
    row_landed0 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb0M.view (Rect.unit (s := S64000) (k0_off15 i) S1.size (k0_off15_inb i)).toLoadRect ((Memref.isWhole_whole _ : gtb0M.IsWhole).unread pf) (Shape.Idx.first (numel1_S1.symm ▸ Nat.one_pos))).toNat, hlt7⟩ : Fin 50000) (0 : Fin 1) l) :=
    row_landed0 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb0M.view (Rect.unit (s := S64000) (k0_off17 i) S1.size (k0_off17_inb i)).toLoadRect ((Memref.isWhole_whole _ : gtb0M.IsWhole).unread pf) (Shape.Idx.first (numel1_S1.symm ▸ Nat.one_pos))).toNat, hlt8⟩ : Fin 50000) (0 : Fin 1) l) :=
    row_landed0 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb0M.view (Rect.unit (s := S64000) (k0_off19 i) S1.size (k0_off19_inb i)).toLoadRect ((Memref.isWhole_whole _ : gtb0M.IsWhole).unread pf) (Shape.Idx.first (numel1_S1.symm ▸ Nat.one_pos))).toNat, hlt9⟩ : Fin 50000) (0 : Fin 1) l) :=
    row_landed0 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb0M.view (Rect.unit (s := S64000) (k0_off21 i) S1.size (k0_off21_inb i)).toLoadRect ((Memref.isWhole_whole _ : gtb0M.IsWhole).unread pf) (Shape.Idx.first (numel1_S1.symm ▸ Nat.one_pos))).toNat, hlt10⟩ : Fin 50000) (0 : Fin 1) l) :=
    row_landed0 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb0M.view (Rect.unit (s := S64000) (k0_off23 i) S1.size (k0_off23_inb i)).toLoadRect ((Memref.isWhole_whole _ : gtb0M.IsWhole).unread pf) (Shape.Idx.first (numel1_S1.symm ▸ Nat.one_pos))).toNat, hlt11⟩ : Fin 50000) (0 : Fin 1) l) :=
    row_landed0 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb0M.view (Rect.unit (s := S64000) (k0_off25 i) S1.size (k0_off25_inb i)).toLoadRect ((Memref.isWhole_whole _ : gtb0M.IsWhole).unread pf) (Shape.Idx.first (numel1_S1.symm ▸ Nat.one_pos))).toNat, hlt12⟩ : Fin 50000) (0 : Fin 1) l) :=
    row_landed0 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb0M.view (Rect.unit (s := S64000) (k0_off27 i) S1.size (k0_off27_inb i)).toLoadRect ((Memref.isWhole_whole _ : gtb0M.IsWhole).unread pf) (Shape.Idx.first (numel1_S1.symm ▸ Nat.one_pos))).toNat, hlt13⟩ : Fin 50000) (0 : Fin 1) l) :=
    row_landed0 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb0M.view (Rect.unit (s := S64000) (k0_off29 i) S1.size (k0_off29_inb i)).toLoadRect ((Memref.isWhole_whole _ : gtb0M.IsWhole).unread pf) (Shape.Idx.first (numel1_S1.symm ▸ Nat.one_pos))).toNat, hlt14⟩ : Fin 50000) (0 : Fin 1) l) :=
    row_landed0 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb0M.view (Rect.unit (s := S64000) (k0_off31 i) S1.size (k0_off31_inb i)).toLoadRect ((Memref.isWhole_whole _ : gtb0M.IsWhole).unread pf) (Shape.Idx.first (numel1_S1.symm ▸ Nat.one_pos))).toNat, hlt15⟩ : Fin 50000) (0 : Fin 1) l) :=
    row_landed0 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load0]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb0M).IsWhole).read_unread _
  isplitl [Hh0 Hh1 Hh2 Hh3 Hh4 Hh5 Hh6 Hh7 Hh8 Hh9 Hh10 Hh11 Hh12 Hh13 Hh14 Hh15]
  · iapply (join16 (ℓ := ghb0M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather0.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 0's own DMA semaphores: one per row of the step. -/
abbrev gsem0 : Fin 16 → SemLoc sig := fun j =>
  (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 16 → SemLoc sig) j
theorem gsemFacts0 : Pipeline.OwnSemFacts spec0 gsem0 := by decide

/-- The buffers the body reads without a window: the node table in HBM and its chunk of the edge-source table. -/
def gH0 : Finset (Ref sig .tc) := {main_v0, main_v1}
theorem gH0_sub : gH0 ⊆ Pipeline.restRefs sig spec0 := by decide

/-- The call's prefetched table at the contents the region finds. -/
def gadm0 (c : Dev nD) : (pcfg0 (F := F)).Adm := ⟨fun k => match k with | ⟨0, _⟩ => V c main_v1, trivial⟩

/-- The proof data of gather call 0 on core `c`: the output array as found; after step `t` the output block holds
    the gathered rows; the invariant carries the scratch, the call's semaphores at zero and the two tables as found. -/
def gdat0 (a : (pcfg0 (F := F)).Adm) (c : Dev nD) : Dat τ (Elt F) Unit ℕ (Pipeline.UD sig nD τ) ℕ (cfg0 a) c where
  A w := V c (Pipeline.arrRef spec0 w)
  after w t := match w with
    | ⟨0, _⟩ => gblock (V c main_v0) (V c main_v1) t.val
  Φ _ := Pipeline.ΦD gsem0 spec0 gH0 V c
  q _ := fullShare
  owed _ := 0

theorem gdat0_A (a : (pcfg0 (F := F)).Adm) (c : Dev nD) (w : Fin (cfg0 a).W) :
    (gdat0 V a c).A w = V c (Pipeline.arrRef spec0 w) := by dsimp only [gdat0]
theorem gdat0_after (a : (pcfg0 (F := F)).Adm) (c : Dev nD) (t : Fin (cfg0 a).N) :
    (gdat0 V a c).after 0 t = gblock (V c main_v0) (V c main_v1) t.val := rfl

/-! ## The body obligation, from the body's run -/

/-- The call's scratch buffer whole at some contents, said of the buffer and said through the whole-buffer memref. -/
theorem gsc0_whole (c : Dev nD) :
    (iprop(∃ f, gsc0M.view.loc (c : Thread nD τ) ↦[gsc0M.view.set]{fullShare} f) : sProp 𝕄)
      = iprop(∃ f : Buf (Elt F) ((c : Thread nD τ).loc cc0_scratch0), ((c : Thread nD τ).loc cc0_scratch0) ↦{fullShare} f) := by
  simp only [gsc0M, Memref.view_whole, View.set_whole]

/-- The region invariant of gather call 0, conjunct by conjunct: the call's scratch buffer whole at some contents beside
    the scoped buffers it does not touch, the generator register at some state, its sixteen semaphores at zero, and
    the two tables whole at the contents the region finds. -/
theorem PhiD0_eq (c : Dev nD) :
    (Pipeline.ΦD gsem0 spec0 gH0 V c : sProp 𝕄)
      = iprop(iprop((∃ f, gsc0M.view.loc (c : Thread nD τ) ↦[gsc0M.view.set]{fullShare} f)
            ∗ Pipeline.scopedRestBut (Ix := Unit) (Name := ℕ) (U := Pipeline.UD sig nD τ) (Lvl := ℕ) (Val := Elt F) spec0 c [cc0_scratch0])
          ∗ (∃ r, prngReg c r)
          ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
          ∗ iprop((ghb0M.view.loc (c : Thread nD τ) ↦{fullShare} V c main_v0) ∗ owns (c : Thread nD τ) gtb0M fullShare (V c main_v1))) := by
  rw [gsc0_whole, owns_whole, Pipeline.ΦD_eq, scopedRest0_split,
    Pipeline.ownSems0_eq_of_list c gsem0 [0, 1, 2, 3, 4, 5, 6, 7, 8, 9, 10, 11, 12, 13, 14, 15] (by decide) (by decide),
    BI.bigSep_eq_bigSepL_of_eq [main_v0, main_v1] (by decide) (by decide)]
  rfl

/-- The kernel body of gather call 0 as the pipeline calls it at point `t`: the step's coordinates, the two tables whole,
    the output window's current staging buffer, the scratch buffer and the sixteen semaphores. -/
abbrev gbodyAt0 (a : (pcfg0 (F := F)).Adm) (t : Fin (cfg0 a).N) : Prog (TpuEff nD τ sig (Elt F) Λ₀ .tc) PUnit :=
  cc0__gather_kernel ((cfg0 a).grid.coords t) gtb0M (Memref.isWhole_whole _) ghb0M (Memref.isWhole_whole _)
    (spec0_0.stage ((cfg0 a).slots t 0)) (hstage0_0 (((cfg0 a).slots t 0).cast nbuf0_0)) gsc0M (Memref.isWhole_whole _) cc0_scratch1

/-- The grid is one axis of 4000 steps: the step's one coordinate is its number. -/
theorem gcoord0 (a : (pcfg0 (F := F)).Adm) (t : Fin (cfg0 a).N) : (((cfg0 a).grid.coords t) 0).val = t.val := by
  have ht : t.val < 4000 := lt_of_lt_of_eq t.isLt N_0
  show t.val / 1 % 4000 = t.val
  omega

/-- What the body is called with at point `t`: the invariant, the core's `owes`, the output window's current staging
    buffer at whatever it holds, -/
def gbodyPre0 (a : (pcfg0 (F := F)).Adm) (c : Dev nD) (t : Fin (cfg0 a).N) : sProp 𝕄 :=
  iprop((gdat0 V a c).Φ t.castSucc ∗ (gdat0 V a c).owesAt () t.castSucc
    ∗ (∃ d, owns (c : Thread nD τ) (spec0_0.stage ((cfg0 a).slots t 0)) fullShare ((gdat0 V a c).before 0 t d)))

/-- and what it returns: the invariant, `owes`, the staging buffer at the step's gathered rows. -/
def gbodyPost0 (a : (pcfg0 (F := F)).Adm) (c : Dev nD) (t : Fin (cfg0 a).N) : sProp 𝕄 :=
  iprop((gdat0 V a c).Φ t.succ ∗ (gdat0 V a c).owesAt () t.succ
    ∗ owns (c : Thread nD τ) (spec0_0.stage ((cfg0 a).slots t 0)) fullShare ((gdat0 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body0 (a : (pcfg0 (F := F)).Adm) (c : Dev nD)
    (hok : ∀ e : S64000.Idx, (V c main_v1 e).toNat < 50000) (t : Fin (cfg0 a).N) :
    gbodyPre0 V a c t ⊢ wp frame (wpE (defs₀ (F := F)) Variants.none c none) Set.univ (gbodyAt0 a t) (fun _ => gbodyPost0 V a c t) := by
  unfold gbodyPre0 gbodyPost0 gbodyAt0
  rw [show (gdat0 V a c).Φ t.succ = Pipeline.ΦD gsem0 spec0 gH0 V c from rfl,
    show (gdat0 V a c).Φ t.castSucc = Pipeline.ΦD gsem0 spec0 gH0 V c from rfl, gdat0_after, PhiD0_eq]
  unfold Dat.owesAt Pipeline.owesWithin
  rw [show (gdat0 V a c).owed t.castSucc = 0 from rfl, show (gdat0 V a c).owed t.succ = 0 from rfl]
  have hrun := fun W K => gather_run0 (F := F) c ((cfg0 a).grid.coords t) (spec0_0.stage ((cfg0 a).slots t 0))
    (hstage0_0 (((cfg0 a).slots t 0).cast nbuf0_0)) (V c main_v1) (V c main_v0) hok W K
  rw [gcoord0 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 0, when every word of its table names a row of the node table. -/
theorem gather_obligation0 (a : (pcfg0 (F := F)).Adm) (c : Dev nD)
    (hok : ∀ e : S64000.Idx, (V c main_v1 e).toNat < 50000) :
    BodyObligation (gdat0 (F := F) V a c) (defs₀ (F := F)) Variants.none () Set.univ := fun t => by
  rw [bigSep_W0, bigSep_W0]
  exact gsound_body0 V a c hok t

end

end Cert.Kernel.Hand

end
-- ==== Proof.KRowsJoin1.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 1's scratch buffer, whole, and its sixteen rows as the body addresses them. -/
abbrev gsc1M : Memref sig .tc .vmem S16x1x128 .f32 := Memref.whole cc1_scratch0
abbrev gr1_0M : Memref sig .tc .vmem S1x128 .f32 := ((Memref.whole cc1_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr1_1M : Memref sig .tc .vmem S1x128 .f32 := ((Memref.whole cc1_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr1_2M : Memref sig .tc .vmem S1x128 .f32 := ((Memref.whole cc1_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr1_3M : Memref sig .tc .vmem S1x128 .f32 := ((Memref.whole cc1_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr1_4M : Memref sig .tc .vmem S1x128 .f32 := ((Memref.whole cc1_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr1_5M : Memref sig .tc .vmem S1x128 .f32 := ((Memref.whole cc1_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr1_6M : Memref sig .tc .vmem S1x128 .f32 := ((Memref.whole cc1_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr1_7M : Memref sig .tc .vmem S1x128 .f32 := ((Memref.whole cc1_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr1_8M : Memref sig .tc .vmem S1x128 .f32 := ((Memref.whole cc1_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr1_9M : Memref sig .tc .vmem S1x128 .f32 := ((Memref.whole cc1_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr1_10M : Memref sig .tc .vmem S1x128 .f32 := ((Memref.whole cc1_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr1_11M : Memref sig .tc .vmem S1x128 .f32 := ((Memref.whole cc1_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr1_12M : Memref sig .tc .vmem S1x128 .f32 := ((Memref.whole cc1_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr1_13M : Memref sig .tc .vmem S1x128 .f32 := ((Memref.whole cc1_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr1_14M : Memref sig .tc .vmem S1x128 .f32 := ((Memref.whole cc1_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr1_15M : Memref sig .tc .vmem S1x128 .f32 := ((Memref.whole cc1_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr1_0M.view.set = rowSet (0 : Fin 16) := by
  refine (View.set_reshape _ _).trans ?_
  refine (View.set_slice_whole _ _).trans ?_
  rfl
private theorem row_set_1 : gr1_1M.view.set = rowSet (1 : Fin 16) := by
  refine (View.set_reshape _ _).trans ?_
  refine (View.set_slice_whole _ _).trans ?_
  rfl
private theorem row_set_2 : gr1_2M.view.set = rowSet (2 : Fin 16) := by
  refine (View.set_reshape _ _).trans ?_
  refine (View.set_slice_whole _ _).trans ?_
  rfl
private theorem row_set_3 : gr1_3M.view.set = rowSet (3 : Fin 16) := by
  refine (View.set_reshape _ _).trans ?_
  refine (View.set_slice_whole _ _).trans ?_
  rfl
private theorem row_set_4 : gr1_4M.view.set = rowSet (4 : Fin 16) := by
  refine (View.set_reshape _ _).trans ?_
  refine (View.set_slice_whole _ _).trans ?_
  rfl
private theorem row_set_5 : gr1_5M.view.set = rowSet (5 : Fin 16) := by
  refine (View.set_reshape _ _).trans ?_
  refine (View.set_slice_whole _ _).trans ?_
  rfl
private theorem row_set_6 : gr1_6M.view.set = rowSet (6 : Fin 16) := by
  refine (View.set_reshape _ _).trans ?_
  refine (View.set_slice_whole _ _).trans ?_
  rfl
private theorem row_set_7 : gr1_7M.view.set = rowSet (7 : Fin 16) := by
  refine (View.set_reshape _ _).trans ?_
  refine (View.set_slice_whole _ _).trans ?_
  rfl
private theorem row_set_8 : gr1_8M.view.set = rowSet (8 : Fin 16) := by
  refine (View.set_reshape _ _).trans ?_
  refine (View.set_slice_whole _ _).trans ?_
  rfl
private theorem row_set_9 : gr1_9M.view.set = rowSet (9 : Fin 16) := by
  refine (View.set_reshape _ _).trans ?_
  refine (View.set_slice_whole _ _).trans ?_
  rfl
private theorem row_set_10 : gr1_10M.view.set = rowSet (10 : Fin 16) := by
  refine (View.set_reshape _ _).trans ?_
  refine (View.set_slice_whole _ _).trans ?_
  rfl
private theorem row_set_11 : gr1_11M.view.set = rowSet (11 : Fin 16) := by
  refine (View.set_reshape _ _).trans ?_
  refine (View.set_slice_whole _ _).trans ?_
  rfl
private theorem row_set_12 : gr1_12M.view.set = rowSet (12 : Fin 16) := by
  refine (View.set_reshape _ _).trans ?_
  refine (View.set_slice_whole _ _).trans ?_
  rfl
private theorem row_set_13 : gr1_13M.view.set = rowSet (13 : Fin 16) := by
  refine (View.set_reshape _ _).trans ?_
  refine (View.set_slice_whole _ _).trans ?_
  rfl
private theorem row_set_14 : gr1_14M.view.set = rowSet (14 : Fin 16) := by
  refine (View.set_reshape _ _).trans ?_
  refine (View.set_slice_whole _ _).trans ?_
  rfl
private theorem row_set_15 : gr1_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join1 (c : Dev nD) (f0 f1 f2 f3 f4 f5 f6 f7 f8 f9 f10 f11 f12 f13 f14 f15 : Buf (Elt F) (gsc1M.view.loc (c : Thread nD τ))) :
    (iprop((gsc1M.view.loc (c : Thread nD τ) ↦[gr1_0M.view.set]{fullShare} f0)
        ∗ (gsc1M.view.loc (c : Thread nD τ) ↦[gr1_1M.view.set]{fullShare} f1)
        ∗ (gsc1M.view.loc (c : Thread nD τ) ↦[gr1_2M.view.set]{fullShare} f2)
        ∗ (gsc1M.view.loc (c : Thread nD τ) ↦[gr1_3M.view.set]{fullShare} f3)
        ∗ (gsc1M.view.loc (c : Thread nD τ) ↦[gr1_4M.view.set]{fullShare} f4)
        ∗ (gsc1M.view.loc (c : Thread nD τ) ↦[gr1_5M.view.set]{fullShare} f5)
        ∗ (gsc1M.view.loc (c : Thread nD τ) ↦[gr1_6M.view.set]{fullShare} f6)
        ∗ (gsc1M.view.loc (c : Thread nD τ) ↦[gr1_7M.view.set]{fullShare} f7)
        ∗ (gsc1M.view.loc (c : Thread nD τ) ↦[gr1_8M.view.set]{fullShare} f8)
        ∗ (gsc1M.view.loc (c : Thread nD τ) ↦[gr1_9M.view.set]{fullShare} f9)
        ∗ (gsc1M.view.loc (c : Thread nD τ) ↦[gr1_10M.view.set]{fullShare} f10)
        ∗ (gsc1M.view.loc (c : Thread nD τ) ↦[gr1_11M.view.set]{fullShare} f11)
        ∗ (gsc1M.view.loc (c : Thread nD τ) ↦[gr1_12M.view.set]{fullShare} f12)
        ∗ (gsc1M.view.loc (c : Thread nD τ) ↦[gr1_13M.view.set]{fullShare} f13)
        ∗ (gsc1M.view.loc (c : Thread nD τ) ↦[gr1_14M.view.set]{fullShare} f14)
        ∗ (gsc1M.view.loc (c : Thread nD τ) ↦[gr1_15M.view.set]{fullShare} f15)) : sProp 𝕄)
      ⊢ iprop(∃ g : Buf (Elt F) (gsc1M.view.loc (c : Thread nD τ)),
          ⌜(∀ i ∈ gr1_0M.view.set, g i = f0 i)
            ∧ (∀ i ∈ gr1_1M.view.set, g i = f1 i)
            ∧ (∀ i ∈ gr1_2M.view.set, g i = f2 i)
            ∧ (∀ i ∈ gr1_3M.view.set, g i = f3 i)
            ∧ (∀ i ∈ gr1_4M.view.set, g i = f4 i)
            ∧ (∀ i ∈ gr1_5M.view.set, g i = f5 i)
            ∧ (∀ i ∈ gr1_6M.view.set, g i = f6 i)
            ∧ (∀ i ∈ gr1_7M.view.set, g i = f7 i)
            ∧ (∀ i ∈ gr1_8M.view.set, g i = f8 i)
            ∧ (∀ i ∈ gr1_9M.view.set, g i = f9 i)
            ∧ (∀ i ∈ gr1_10M.view.set, g i = f10 i)
            ∧ (∀ i ∈ gr1_11M.view.set, g i = f11 i)
            ∧ (∀ i ∈ gr1_12M.view.set, g i = f12 i)
            ∧ (∀ i ∈ gr1_13M.view.set, g i = f13 i)
            ∧ (∀ i ∈ gr1_14M.view.set, g i = f14 i)
            ∧ (∀ i ∈ gr1_15M.view.set, g i = f15 i)⌝
          ∗ (gsc1M.view.loc (c : Thread nD τ) ↦[gsc1M.view.set]{fullShare} g)) := by
  have hw : gsc1M.view.set = Finset.univ.biUnion rowSet := (View.set_whole _).trans rowSet_cover.symm
  exact join16 (ℓ := gsc1M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split1 (c : Dev nD) (f : Buf (Elt F) (gsc1M.view.loc (c : Thread nD τ))) :
    (gsc1M.view.loc (c : Thread nD τ) ↦[gsc1M.view.set]{fullShare} f : sProp 𝕄)
      ⊢ iprop((gsc1M.view.loc (c : Thread nD τ) ↦[gr1_0M.view.set]{fullShare} f)
        ∗ (gsc1M.view.loc (c : Thread nD τ) ↦[gr1_1M.view.set]{fullShare} f)
        ∗ (gsc1M.view.loc (c : Thread nD τ) ↦[gr1_2M.view.set]{fullShare} f)
        ∗ (gsc1M.view.loc (c : Thread nD τ) ↦[gr1_3M.view.set]{fullShare} f)
        ∗ (gsc1M.view.loc (c : Thread nD τ) ↦[gr1_4M.view.set]{fullShare} f)
        ∗ (gsc1M.view.loc (c : Thread nD τ) ↦[gr1_5M.view.set]{fullShare} f)
        ∗ (gsc1M.view.loc (c : Thread nD τ) ↦[gr1_6M.view.set]{fullShare} f)
        ∗ (gsc1M.view.loc (c : Thread nD τ) ↦[gr1_7M.view.set]{fullShare} f)
        ∗ (gsc1M.view.loc (c : Thread nD τ) ↦[gr1_8M.view.set]{fullShare} f)
        ∗ (gsc1M.view.loc (c : Thread nD τ) ↦[gr1_9M.view.set]{fullShare} f)
        ∗ (gsc1M.view.loc (c : Thread nD τ) ↦[gr1_10M.view.set]{fullShare} f)
        ∗ (gsc1M.view.loc (c : Thread nD τ) ↦[gr1_11M.view.set]{fullShare} f)
        ∗ (gsc1M.view.loc (c : Thread nD τ) ↦[gr1_12M.view.set]{fullShare} f)
        ∗ (gsc1M.view.loc (c : Thread nD τ) ↦[gr1_13M.view.set]{fullShare} f)
        ∗ (gsc1M.view.loc (c : Thread nD τ) ↦[gr1_14M.view.set]{fullShare} f)
        ∗ (gsc1M.view.loc (c : Thread nD τ) ↦[gr1_15M.view.set]{fullShare} f)) := by
  have hw : gsc1M.view.set = Finset.univ.biUnion rowSet := (View.set_whole _).trans rowSet_cover.symm
  exact split16 (ℓ := gsc1M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows1.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin1
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 1's chunk of the edge-source table in scalar memory, whole. -/
abbrev ghb1M : Memref sig .tc .hbm S50000x1x128 .f32 := Memref.whole main_v0
abbrev gtb1M : Memref sig .tc .smem S64000 .i32 := Memref.whole main_v3

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc1M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb1M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed1 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb1M.view.loc (c : Thread nD τ))) (fs g : Buf (Elt F) (gsc1M.view.loc (c : Thread nD τ)))
    (hg : ∀ i ∈ ((gsc1M.slice (Rect.unit (s := S16x1x128) ![j, 0, 0] S1x1x128.size inb) (fun _ => rfl)).squeeze S1x128 squeezes_S1x1x128_S1x128).view.set,
        g i = ((gsc1M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb1M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc1M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb1M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load1 (c : Dev nD) (g : Buf (Elt F) (gsc1M.view.loc (c : Thread nD τ))) (y : S16x1x128.Idx) :
    View.readAt (Elt F) gsc1M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word1 (pf : S64000.Idx → Elt F .i32) (off : Fin 1 → ℕ) (inb : ∀ a, off a + S1.size a ≤ S64000.size a)
    (n : ℕ) (hn : n < 64000) (hoff : off 0 = n) :
    View.readAt (Elt F) gtb1M.view (Rect.unit (s := S64000) off S1.size inb).toLoadRect
        ((Memref.isWhole_whole _ : gtb1M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs1 (i : grid1.Coords) :
    (k1_off1 i) 0 = 16 * (i 0).val + 0
    ∧ (k1_off3 i) 0 = 16 * (i 0).val + 1
    ∧ (k1_off5 i) 0 = 16 * (i 0).val + 2
    ∧ (k1_off7 i) 0 = 16 * (i 0).val + 3
    ∧ (k1_off9 i) 0 = 16 * (i 0).val + 4
    ∧ (k1_off11 i) 0 = 16 * (i 0).val + 5
    ∧ (k1_off13 i) 0 = 16 * (i 0).val + 6
    ∧ (k1_off15 i) 0 = 16 * (i 0).val + 7
    ∧ (k1_off17 i) 0 = 16 * (i 0).val + 8
    ∧ (k1_off19 i) 0 = 16 * (i 0).val + 9
    ∧ (k1_off21 i) 0 = 16 * (i 0).val + 10
    ∧ (k1_off23 i) 0 = 16 * (i 0).val + 11
    ∧ (k1_off25 i) 0 = 16 * (i 0).val + 12
    ∧ (k1_off27 i) 0 = 16 * (i 0).val + 13
    ∧ (k1_off29 i) 0 = 16 * (i 0).val + 14
    ∧ (k1_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun1.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows1
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 1's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run1 (c : Dev nD) (i : grid1.Coords) (arg3 : Memref sig .tc .vmem S16x1x128 .f32) (harg3 : arg3.IsWhole)
    (pf : S64000.Idx → Elt F .i32) (tb : Buf (Elt F) (ghb1M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc1M.view.loc (c : Thread nD τ) ↦[gsc1M.view.set]{fullShare} f)
        ∗ owns (c : Thread nD τ) gtb1M fullShare pf
        ∗ (ghb1M.view.loc (c : Thread nD τ) ↦{fullShare} tb)
        ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0
        ∗ owes (c : Thread nD τ) 0 W
        ∗ (iprop(owns (c : Thread nD τ) arg3 fullShare (gblock tb pf (i 0).val)
            ∗ (∃ f, gsc1M.view.loc (c : Thread nD τ) ↦[gsc1M.view.set]{fullShare} f)
            ∗ owns (c : Thread nD τ) gtb1M fullShare pf
            ∗ (ghb1M.view.loc (c : Thread nD τ) ↦{fullShare} tb)
            ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0
            ∗ (∃ W', owes (c : Thread nD τ) 0 W')) -∗ K ⟨⟩))
      ⊢ wp frame (wpE (defs₀ (F := F)) Variants.none c none) Set.univ
          (cc1__gather_kernel i gtb1M (Memref.isWhole_whole _) ghb1M (Memref.isWhole_whole _) arg3 harg3 gsc1M (Memref.isWhole_whole _) cc1_scratch1) K := by
  have hi : (i 0).val < 4000 := (i 0).isLt
  have hoffs := table_offs1 i
  have hword0 : (View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))) = pf (ValueIdx.ix1 (⟨16 * (i 0).val + 0, by omega⟩ : Fin 64000)) :=
    table_word1 pf _ _ _ (by omega) hoffs.1
  have hlt0 : (View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))).toNat < 50000 := by rw [hword0]; exact hok _
  have hw1 : k1_chk1 (View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))) := ⟨chk_lt _ hlt0, chk_lt _ hlt0⟩
  have hword1 : (View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))) = pf (ValueIdx.ix1 (⟨16 * (i 0).val + 1, by omega⟩ : Fin 64000)) :=
    table_word1 pf _ _ _ (by omega) hoffs.2.1
  have hlt1 : (View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))).toNat < 50000 := by rw [hword1]; exact hok _
  have hw2 : k1_chk2 (View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))) := ⟨chk_lt _ hlt1, chk_lt _ hlt1⟩
  have hword2 : (View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))) = pf (ValueIdx.ix1 (⟨16 * (i 0).val + 2, by omega⟩ : Fin 64000)) :=
    table_word1 pf _ _ _ (by omega) hoffs.2.2.1
  have hlt2 : (View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))).toNat < 50000 := by rw [hword2]; exact hok _
  have hw3 : k1_chk3 (View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))) := ⟨chk_lt _ hlt2, chk_lt _ hlt2⟩
  have hword3 : (View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))) = pf (ValueIdx.ix1 (⟨16 * (i 0).val + 3, by omega⟩ : Fin 64000)) :=
    table_word1 pf _ _ _ (by omega) hoffs.2.2.2.1
  have hlt3 : (View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))).toNat < 50000 := by rw [hword3]; exact hok _
  have hw4 : k1_chk4 (View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))) := ⟨chk_lt _ hlt3, chk_lt _ hlt3⟩
  have hword4 : (View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))) = pf (ValueIdx.ix1 (⟨16 * (i 0).val + 4, by omega⟩ : Fin 64000)) :=
    table_word1 pf _ _ _ (by omega) hoffs.2.2.2.2.1
  have hlt4 : (View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))).toNat < 50000 := by rw [hword4]; exact hok _
  have hw5 : k1_chk5 (View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))) := ⟨chk_lt _ hlt4, chk_lt _ hlt4⟩
  have hword5 : (View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))) = pf (ValueIdx.ix1 (⟨16 * (i 0).val + 5, by omega⟩ : Fin 64000)) :=
    table_word1 pf _ _ _ (by omega) hoffs.2.2.2.2.2.1
  have hlt5 : (View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))).toNat < 50000 := by rw [hword5]; exact hok _
  have hw6 : k1_chk6 (View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))) := ⟨chk_lt _ hlt5, chk_lt _ hlt5⟩
  have hword6 : (View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))) = pf (ValueIdx.ix1 (⟨16 * (i 0).val + 6, by omega⟩ : Fin 64000)) :=
    table_word1 pf _ _ _ (by omega) hoffs.2.2.2.2.2.2.1
  have hlt6 : (View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))).toNat < 50000 := by rw [hword6]; exact hok _
  have hw7 : k1_chk7 (View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))) := ⟨chk_lt _ hlt6, chk_lt _ hlt6⟩
  have hword7 : (View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))) = pf (ValueIdx.ix1 (⟨16 * (i 0).val + 7, by omega⟩ : Fin 64000)) :=
    table_word1 pf _ _ _ (by omega) hoffs.2.2.2.2.2.2.2.1
  have hlt7 : (View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))).toNat < 50000 := by rw [hword7]; exact hok _
  have hw8 : k1_chk8 (View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))) := ⟨chk_lt _ hlt7, chk_lt _ hlt7⟩
  have hword8 : (View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))) = pf (ValueIdx.ix1 (⟨16 * (i 0).val + 8, by omega⟩ : Fin 64000)) :=
    table_word1 pf _ _ _ (by omega) hoffs.2.2.2.2.2.2.2.2.1
  have hlt8 : (View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))).toNat < 50000 := by rw [hword8]; exact hok _
  have hw9 : k1_chk9 (View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))) := ⟨chk_lt _ hlt8, chk_lt _ hlt8⟩
  have hword9 : (View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))) = pf (ValueIdx.ix1 (⟨16 * (i 0).val + 9, by omega⟩ : Fin 64000)) :=
    table_word1 pf _ _ _ (by omega) hoffs.2.2.2.2.2.2.2.2.2.1
  have hlt9 : (View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))).toNat < 50000 := by rw [hword9]; exact hok _
  have hw10 : k1_chk10 (View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))) := ⟨chk_lt _ hlt9, chk_lt _ hlt9⟩
  have hword10 : (View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))) = pf (ValueIdx.ix1 (⟨16 * (i 0).val + 10, by omega⟩ : Fin 64000)) :=
    table_word1 pf _ _ _ (by omega) hoffs.2.2.2.2.2.2.2.2.2.2.1
  have hlt10 : (View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))).toNat < 50000 := by rw [hword10]; exact hok _
  have hw11 : k1_chk11 (View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))) := ⟨chk_lt _ hlt10, chk_lt _ hlt10⟩
  have hword11 : (View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))) = pf (ValueIdx.ix1 (⟨16 * (i 0).val + 11, by omega⟩ : Fin 64000)) :=
    table_word1 pf _ _ _ (by omega) hoffs.2.2.2.2.2.2.2.2.2.2.2.1
  have hlt11 : (View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))).toNat < 50000 := by rw [hword11]; exact hok _
  have hw12 : k1_chk12 (View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))) := ⟨chk_lt _ hlt11, chk_lt _ hlt11⟩
  have hword12 : (View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))) = pf (ValueIdx.ix1 (⟨16 * (i 0).val + 12, by omega⟩ : Fin 64000)) :=
    table_word1 pf _ _ _ (by omega) hoffs.2.2.2.2.2.2.2.2.2.2.2.2.1
  have hlt12 : (View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))).toNat < 50000 := by rw [hword12]; exact hok _
  have hw13 : k1_chk13 (View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))) := ⟨chk_lt _ hlt12, chk_lt _ hlt12⟩
  have hword13 : (View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))) = pf (ValueIdx.ix1 (⟨16 * (i 0).val + 13, by omega⟩ : Fin 64000)) :=
    table_word1 pf _ _ _ (by omega) hoffs.2.2.2.2.2.2.2.2.2.2.2.2.2.1
  have hlt13 : (View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))).toNat < 50000 := by rw [hword13]; exact hok _
  have hw14 : k1_chk14 (View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))) := ⟨chk_lt _ hlt13, chk_lt _ hlt13⟩
  have hword14 : (View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))) = pf (ValueIdx.ix1 (⟨16 * (i 0).val + 14, by omega⟩ : Fin 64000)) :=
    table_word1 pf _ _ _ (by omega) hoffs.2.2.2.2.2.2.2.2.2.2.2.2.2.2.1
  have hlt14 : (View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))).toNat < 50000 := by rw [hword14]; exact hok _
  have hw15 : k1_chk15 (View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))) := ⟨chk_lt _ hlt14, chk_lt _ hlt14⟩
  have hword15 : (View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))) = pf (ValueIdx.ix1 (⟨16 * (i 0).val + 15, by omega⟩ : Fin 64000)) :=
    table_word1 pf _ _ _ (by omega) hoffs.2.2.2.2.2.2.2.2.2.2.2.2.2.2.2
  have hlt15 : (View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))).toNat < 50000 := by rw [hword15]; exact hok _
  have hw16 : k1_chk16 (View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))) := chk_lt _ hlt15
  rw [cc1__gather_kernel_eq_skeleton]; unfold cc1__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb1M).IsWhole).eq_unread hfp
  ihave HR := (rows_split1 (F := F) c fsc) $$ HSC
  icases HR with ⟨HS0, HS1, HS2, HS3, HS4, HS5, HS6, HS7, HS8, HS9, HS10, HS11, HS12, HS13, HS14, HS15⟩
  ihave HS0 := (Entails.of_eq (show ((gsc1M.view.loc (c : Thread nD τ) ↦[gr1_0M.view.set]{fullShare} fsc : sProp 𝕄)) = (gr1_0M.view.loc (c : Thread nD τ) ↦[gr1_0M.view.set]{fullShare} fsc) from rfl)) $$ HS0
  ihave HS1 := (Entails.of_eq (show ((gsc1M.view.loc (c : Thread nD τ) ↦[gr1_1M.view.set]{fullShare} fsc : sProp 𝕄)) = (gr1_1M.view.loc (c : Thread nD τ) ↦[gr1_1M.view.set]{fullShare} fsc) from rfl)) $$ HS1
  ihave HS2 := (Entails.of_eq (show ((gsc1M.view.loc (c : Thread nD τ) ↦[gr1_2M.view.set]{fullShare} fsc : sProp 𝕄)) = (gr1_2M.view.loc (c : Thread nD τ) ↦[gr1_2M.view.set]{fullShare} fsc) from rfl)) $$ HS2
  ihave HS3 := (Entails.of_eq (show ((gsc1M.view.loc (c : Thread nD τ) ↦[gr1_3M.view.set]{fullShare} fsc : sProp 𝕄)) = (gr1_3M.view.loc (c : Thread nD τ) ↦[gr1_3M.view.set]{fullShare} fsc) from rfl)) $$ HS3
  ihave HS4 := (Entails.of_eq (show ((gsc1M.view.loc (c : Thread nD τ) ↦[gr1_4M.view.set]{fullShare} fsc : sProp 𝕄)) = (gr1_4M.view.loc (c : Thread nD τ) ↦[gr1_4M.view.set]{fullShare} fsc) from rfl)) $$ HS4
  ihave HS5 := (Entails.of_eq (show ((gsc1M.view.loc (c : Thread nD τ) ↦[gr1_5M.view.set]{fullShare} fsc : sProp 𝕄)) = (gr1_5M.view.loc (c : Thread nD τ) ↦[gr1_5M.view.set]{fullShare} fsc) from rfl)) $$ HS5
  ihave HS6 := (Entails.of_eq (show ((gsc1M.view.loc (c : Thread nD τ) ↦[gr1_6M.view.set]{fullShare} fsc : sProp 𝕄)) = (gr1_6M.view.loc (c : Thread nD τ) ↦[gr1_6M.view.set]{fullShare} fsc) from rfl)) $$ HS6
  ihave HS7 := (Entails.of_eq (show ((gsc1M.view.loc (c : Thread nD τ) ↦[gr1_7M.view.set]{fullShare} fsc : sProp 𝕄)) = (gr1_7M.view.loc (c : Thread nD τ) ↦[gr1_7M.view.set]{fullShare} fsc) from rfl)) $$ HS7
  ihave HS8 := (Entails.of_eq (show ((gsc1M.view.loc (c : Thread nD τ) ↦[gr1_8M.view.set]{fullShare} fsc : sProp 𝕄)) = (gr1_8M.view.loc (c : Thread nD τ) ↦[gr1_8M.view.set]{fullShare} fsc) from rfl)) $$ HS8
  ihave HS9 := (Entails.of_eq (show ((gsc1M.view.loc (c : Thread nD τ) ↦[gr1_9M.view.set]{fullShare} fsc : sProp 𝕄)) = (gr1_9M.view.loc (c : Thread nD τ) ↦[gr1_9M.view.set]{fullShare} fsc) from rfl)) $$ HS9
  ihave HS10 := (Entails.of_eq (show ((gsc1M.view.loc (c : Thread nD τ) ↦[gr1_10M.view.set]{fullShare} fsc : sProp 𝕄)) = (gr1_10M.view.loc (c : Thread nD τ) ↦[gr1_10M.view.set]{fullShare} fsc) from rfl)) $$ HS10
  ihave HS11 := (Entails.of_eq (show ((gsc1M.view.loc (c : Thread nD τ) ↦[gr1_11M.view.set]{fullShare} fsc : sProp 𝕄)) = (gr1_11M.view.loc (c : Thread nD τ) ↦[gr1_11M.view.set]{fullShare} fsc) from rfl)) $$ HS11
  ihave HS12 := (Entails.of_eq (show ((gsc1M.view.loc (c : Thread nD τ) ↦[gr1_12M.view.set]{fullShare} fsc : sProp 𝕄)) = (gr1_12M.view.loc (c : Thread nD τ) ↦[gr1_12M.view.set]{fullShare} fsc) from rfl)) $$ HS12
  ihave HS13 := (Entails.of_eq (show ((gsc1M.view.loc (c : Thread nD τ) ↦[gr1_13M.view.set]{fullShare} fsc : sProp 𝕄)) = (gr1_13M.view.loc (c : Thread nD τ) ↦[gr1_13M.view.set]{fullShare} fsc) from rfl)) $$ HS13
  ihave HS14 := (Entails.of_eq (show ((gsc1M.view.loc (c : Thread nD τ) ↦[gr1_14M.view.set]{fullShare} fsc : sProp 𝕄)) = (gr1_14M.view.loc (c : Thread nD τ) ↦[gr1_14M.view.set]{fullShare} fsc) from rfl)) $$ HS14
  ihave HS15 := (Entails.of_eq (show ((gsc1M.view.loc (c : Thread nD τ) ↦[gr1_15M.view.set]{fullShare} fsc : sProp 𝕄)) = (gr1_15M.view.loc (c : Thread nD τ) ↦[gr1_15M.view.set]{fullShare} fsc) from rfl)) $$ HS15
  ihave HB := (split16 (ℓ := ghb1M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join1 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb1M.view (Rect.unit (s := S64000) (k1_off1 i) S1.size (k1_off1_inb i)).toLoadRect ((Memref.isWhole_whole _ : gtb1M.IsWhole).unread pf) (Shape.Idx.first (numel1_S1.symm ▸ Nat.one_pos))).toNat, hlt0⟩ : Fin 50000) (0 : Fin 1) l) :=
    row_landed1 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb1M.view (Rect.unit (s := S64000) (k1_off3 i) S1.size (k1_off3_inb i)).toLoadRect ((Memref.isWhole_whole _ : gtb1M.IsWhole).unread pf) (Shape.Idx.first (numel1_S1.symm ▸ Nat.one_pos))).toNat, hlt1⟩ : Fin 50000) (0 : Fin 1) l) :=
    row_landed1 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb1M.view (Rect.unit (s := S64000) (k1_off5 i) S1.size (k1_off5_inb i)).toLoadRect ((Memref.isWhole_whole _ : gtb1M.IsWhole).unread pf) (Shape.Idx.first (numel1_S1.symm ▸ Nat.one_pos))).toNat, hlt2⟩ : Fin 50000) (0 : Fin 1) l) :=
    row_landed1 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb1M.view (Rect.unit (s := S64000) (k1_off7 i) S1.size (k1_off7_inb i)).toLoadRect ((Memref.isWhole_whole _ : gtb1M.IsWhole).unread pf) (Shape.Idx.first (numel1_S1.symm ▸ Nat.one_pos))).toNat, hlt3⟩ : Fin 50000) (0 : Fin 1) l) :=
    row_landed1 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb1M.view (Rect.unit (s := S64000) (k1_off9 i) S1.size (k1_off9_inb i)).toLoadRect ((Memref.isWhole_whole _ : gtb1M.IsWhole).unread pf) (Shape.Idx.first (numel1_S1.symm ▸ Nat.one_pos))).toNat, hlt4⟩ : Fin 50000) (0 : Fin 1) l) :=
    row_landed1 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb1M.view (Rect.unit (s := S64000) (k1_off11 i) S1.size (k1_off11_inb i)).toLoadRect ((Memref.isWhole_whole _ : gtb1M.IsWhole).unread pf) (Shape.Idx.first (numel1_S1.symm ▸ Nat.one_pos))).toNat, hlt5⟩ : Fin 50000) (0 : Fin 1) l) :=
    row_landed1 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb1M.view (Rect.unit (s := S64000) (k1_off13 i) S1.size (k1_off13_inb i)).toLoadRect ((Memref.isWhole_whole _ : gtb1M.IsWhole).unread pf) (Shape.Idx.first (numel1_S1.symm ▸ Nat.one_pos))).toNat, hlt6⟩ : Fin 50000) (0 : Fin 1) l) :=
    row_landed1 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb1M.view (Rect.unit (s := S64000) (k1_off15 i) S1.size (k1_off15_inb i)).toLoadRect ((Memref.isWhole_whole _ : gtb1M.IsWhole).unread pf) (Shape.Idx.first (numel1_S1.symm ▸ Nat.one_pos))).toNat, hlt7⟩ : Fin 50000) (0 : Fin 1) l) :=
    row_landed1 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb1M.view (Rect.unit (s := S64000) (k1_off17 i) S1.size (k1_off17_inb i)).toLoadRect ((Memref.isWhole_whole _ : gtb1M.IsWhole).unread pf) (Shape.Idx.first (numel1_S1.symm ▸ Nat.one_pos))).toNat, hlt8⟩ : Fin 50000) (0 : Fin 1) l) :=
    row_landed1 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb1M.view (Rect.unit (s := S64000) (k1_off19 i) S1.size (k1_off19_inb i)).toLoadRect ((Memref.isWhole_whole _ : gtb1M.IsWhole).unread pf) (Shape.Idx.first (numel1_S1.symm ▸ Nat.one_pos))).toNat, hlt9⟩ : Fin 50000) (0 : Fin 1) l) :=
    row_landed1 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb1M.view (Rect.unit (s := S64000) (k1_off21 i) S1.size (k1_off21_inb i)).toLoadRect ((Memref.isWhole_whole _ : gtb1M.IsWhole).unread pf) (Shape.Idx.first (numel1_S1.symm ▸ Nat.one_pos))).toNat, hlt10⟩ : Fin 50000) (0 : Fin 1) l) :=
    row_landed1 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb1M.view (Rect.unit (s := S64000) (k1_off23 i) S1.size (k1_off23_inb i)).toLoadRect ((Memref.isWhole_whole _ : gtb1M.IsWhole).unread pf) (Shape.Idx.first (numel1_S1.symm ▸ Nat.one_pos))).toNat, hlt11⟩ : Fin 50000) (0 : Fin 1) l) :=
    row_landed1 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb1M.view (Rect.unit (s := S64000) (k1_off25 i) S1.size (k1_off25_inb i)).toLoadRect ((Memref.isWhole_whole _ : gtb1M.IsWhole).unread pf) (Shape.Idx.first (numel1_S1.symm ▸ Nat.one_pos))).toNat, hlt12⟩ : Fin 50000) (0 : Fin 1) l) :=
    row_landed1 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb1M.view (Rect.unit (s := S64000) (k1_off27 i) S1.size (k1_off27_inb i)).toLoadRect ((Memref.isWhole_whole _ : gtb1M.IsWhole).unread pf) (Shape.Idx.first (numel1_S1.symm ▸ Nat.one_pos))).toNat, hlt13⟩ : Fin 50000) (0 : Fin 1) l) :=
    row_landed1 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb1M.view (Rect.unit (s := S64000) (k1_off29 i) S1.size (k1_off29_inb i)).toLoadRect ((Memref.isWhole_whole _ : gtb1M.IsWhole).unread pf) (Shape.Idx.first (numel1_S1.symm ▸ Nat.one_pos))).toNat, hlt14⟩ : Fin 50000) (0 : Fin 1) l) :=
    row_landed1 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb1M.view (Rect.unit (s := S64000) (k1_off31 i) S1.size (k1_off31_inb i)).toLoadRect ((Memref.isWhole_whole _ : gtb1M.IsWhole).unread pf) (Shape.Idx.first (numel1_S1.symm ▸ Nat.one_pos))).toNat, hlt15⟩ : Fin 50000) (0 : Fin 1) l) :=
    row_landed1 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load1]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb1M).IsWhole).read_unread _
  isplitl [Hh0 Hh1 Hh2 Hh3 Hh4 Hh5 Hh6 Hh7 Hh8 Hh9 Hh10 Hh11 Hh12 Hh13 Hh14 Hh15]
  · iapply (join16 (ℓ := ghb1M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather1.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 1's own DMA semaphores: one per row of the step. -/
abbrev gsem1 : Fin 16 → SemLoc sig := fun j =>
  (![SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35] : Fin 16 → SemLoc sig) j
theorem gsemFacts1 : Pipeline.OwnSemFacts spec1 gsem1 := by decide

/-- The buffers the body reads without a window: the node table in HBM and its chunk of the edge-source table. -/
def gH1 : Finset (Ref sig .tc) := {main_v0, main_v3}
theorem gH1_sub : gH1 ⊆ Pipeline.restRefs sig spec1 := by decide

/-- The call's prefetched table at the contents the region finds. -/
def gadm1 (c : Dev nD) : (pcfg1 (F := F)).Adm := ⟨fun k => match k with | ⟨0, _⟩ => V c main_v3, trivial⟩

/-- The proof data of gather call 1 on core `c`: the output array as found; after step `t` the output block holds
    the gathered rows; the invariant carries the scratch, the call's semaphores at zero and the two tables as found. -/
def gdat1 (a : (pcfg1 (F := F)).Adm) (c : Dev nD) : Dat τ (Elt F) Unit ℕ (Pipeline.UD sig nD τ) ℕ (cfg1 a) c where
  A w := V c (Pipeline.arrRef spec1 w)
  after w t := match w with
    | ⟨0, _⟩ => gblock (V c main_v0) (V c main_v3) t.val
  Φ _ := Pipeline.ΦD gsem1 spec1 gH1 V c
  q _ := fullShare
  owed _ := 0

theorem gdat1_A (a : (pcfg1 (F := F)).Adm) (c : Dev nD) (w : Fin (cfg1 a).W) :
    (gdat1 V a c).A w = V c (Pipeline.arrRef spec1 w) := by dsimp only [gdat1]
theorem gdat1_after (a : (pcfg1 (F := F)).Adm) (c : Dev nD) (t : Fin (cfg1 a).N) :
    (gdat1 V a c).after 0 t = gblock (V c main_v0) (V c main_v3) t.val := rfl

/-! ## The body obligation, from the body's run -/

/-- The call's scratch buffer whole at some contents, said of the buffer and said through the whole-buffer memref. -/
theorem gsc1_whole (c : Dev nD) :
    (iprop(∃ f, gsc1M.view.loc (c : Thread nD τ) ↦[gsc1M.view.set]{fullShare} f) : sProp 𝕄)
      = iprop(∃ f : Buf (Elt F) ((c : Thread nD τ).loc cc1_scratch0), ((c : Thread nD τ).loc cc1_scratch0) ↦{fullShare} f) := by
  simp only [gsc1M, Memref.view_whole, View.set_whole]

/-- The region invariant of gather call 1, conjunct by conjunct: the call's scratch buffer whole at some contents beside
    the scoped buffers it does not touch, the generator register at some state, its sixteen semaphores at zero, and
    the two tables whole at the contents the region finds. -/
theorem PhiD1_eq (c : Dev nD) :
    (Pipeline.ΦD gsem1 spec1 gH1 V c : sProp 𝕄)
      = iprop(iprop((∃ f, gsc1M.view.loc (c : Thread nD τ) ↦[gsc1M.view.set]{fullShare} f)
            ∗ Pipeline.scopedRestBut (Ix := Unit) (Name := ℕ) (U := Pipeline.UD sig nD τ) (Lvl := ℕ) (Val := Elt F) spec1 c [cc1_scratch0])
          ∗ (∃ r, prngReg c r)
          ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
          ∗ iprop((ghb1M.view.loc (c : Thread nD τ) ↦{fullShare} V c main_v0) ∗ owns (c : Thread nD τ) gtb1M fullShare (V c main_v3))) := by
  rw [gsc1_whole, owns_whole, Pipeline.ΦD_eq, scopedRest1_split,
    Pipeline.ownSems0_eq_of_list c gsem1 [0, 1, 2, 3, 4, 5, 6, 7, 8, 9, 10, 11, 12, 13, 14, 15] (by decide) (by decide),
    BI.bigSep_eq_bigSepL_of_eq [main_v0, main_v3] (by decide) (by decide)]
  rfl

/-- The kernel body of gather call 1 as the pipeline calls it at point `t`: the step's coordinates, the two tables whole,
    the output window's current staging buffer, the scratch buffer and the sixteen semaphores. -/
abbrev gbodyAt1 (a : (pcfg1 (F := F)).Adm) (t : Fin (cfg1 a).N) : Prog (TpuEff nD τ sig (Elt F) Λ₀ .tc) PUnit :=
  cc1__gather_kernel ((cfg1 a).grid.coords t) gtb1M (Memref.isWhole_whole _) ghb1M (Memref.isWhole_whole _)
    (spec1_0.stage ((cfg1 a).slots t 0)) (hstage1_0 (((cfg1 a).slots t 0).cast nbuf1_0)) gsc1M (Memref.isWhole_whole _) cc1_scratch1

/-- The grid is one axis of 4000 steps: the step's one coordinate is its number. -/
theorem gcoord1 (a : (pcfg1 (F := F)).Adm) (t : Fin (cfg1 a).N) : (((cfg1 a).grid.coords t) 0).val = t.val := by
  have ht : t.val < 4000 := lt_of_lt_of_eq t.isLt N_1
  show t.val / 1 % 4000 = t.val
  omega

/-- What the body is called with at point `t`: the invariant, the core's `owes`, the output window's current staging
    buffer at whatever it holds, -/
def gbodyPre1 (a : (pcfg1 (F := F)).Adm) (c : Dev nD) (t : Fin (cfg1 a).N) : sProp 𝕄 :=
  iprop((gdat1 V a c).Φ t.castSucc ∗ (gdat1 V a c).owesAt () t.castSucc
    ∗ (∃ d, owns (c : Thread nD τ) (spec1_0.stage ((cfg1 a).slots t 0)) fullShare ((gdat1 V a c).before 0 t d)))

/-- and what it returns: the invariant, `owes`, the staging buffer at the step's gathered rows. -/
def gbodyPost1 (a : (pcfg1 (F := F)).Adm) (c : Dev nD) (t : Fin (cfg1 a).N) : sProp 𝕄 :=
  iprop((gdat1 V a c).Φ t.succ ∗ (gdat1 V a c).owesAt () t.succ
    ∗ owns (c : Thread nD τ) (spec1_0.stage ((cfg1 a).slots t 0)) fullShare ((gdat1 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body1 (a : (pcfg1 (F := F)).Adm) (c : Dev nD)
    (hok : ∀ e : S64000.Idx, (V c main_v3 e).toNat < 50000) (t : Fin (cfg1 a).N) :
    gbodyPre1 V a c t ⊢ wp frame (wpE (defs₀ (F := F)) Variants.none c none) Set.univ (gbodyAt1 a t) (fun _ => gbodyPost1 V a c t) := by
  unfold gbodyPre1 gbodyPost1 gbodyAt1
  rw [show (gdat1 V a c).Φ t.succ = Pipeline.ΦD gsem1 spec1 gH1 V c from rfl,
    show (gdat1 V a c).Φ t.castSucc = Pipeline.ΦD gsem1 spec1 gH1 V c from rfl, gdat1_after, PhiD1_eq]
  unfold Dat.owesAt Pipeline.owesWithin
  rw [show (gdat1 V a c).owed t.castSucc = 0 from rfl, show (gdat1 V a c).owed t.succ = 0 from rfl]
  have hrun := fun W K => gather_run1 (F := F) c ((cfg1 a).grid.coords t) (spec1_0.stage ((cfg1 a).slots t 0))
    (hstage1_0 (((cfg1 a).slots t 0).cast nbuf1_0)) (V c main_v3) (V c main_v0) hok W K
  rw [gcoord1 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 1, when every word of its table names a row of the node table. -/
theorem gather_obligation1 (a : (pcfg1 (F := F)).Adm) (c : Dev nD)
    (hok : ∀ e : S64000.Idx, (V c main_v3 e).toNat < 50000) :
    BodyObligation (gdat1 (F := F) V a c) (defs₀ (F := F)) Variants.none () Set.univ := fun t => by
  rw [bigSep_W1, bigSep_W1]
  exact gsound_body1 V a c hok t

end

end Cert.Kernel.Hand

end
-- ==== Proof.KRowsJoin2.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 2's scratch buffer, whole, and its sixteen rows as the body addresses them. -/
abbrev gsc2M : Memref sig .tc .vmem S16x1x128 .f32 := Memref.whole cc2_scratch0
abbrev gr2_0M : Memref sig .tc .vmem S1x128 .f32 := ((Memref.whole cc2_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr2_1M : Memref sig .tc .vmem S1x128 .f32 := ((Memref.whole cc2_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr2_2M : Memref sig .tc .vmem S1x128 .f32 := ((Memref.whole cc2_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr2_3M : Memref sig .tc .vmem S1x128 .f32 := ((Memref.whole cc2_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr2_4M : Memref sig .tc .vmem S1x128 .f32 := ((Memref.whole cc2_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr2_5M : Memref sig .tc .vmem S1x128 .f32 := ((Memref.whole cc2_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr2_6M : Memref sig .tc .vmem S1x128 .f32 := ((Memref.whole cc2_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr2_7M : Memref sig .tc .vmem S1x128 .f32 := ((Memref.whole cc2_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr2_8M : Memref sig .tc .vmem S1x128 .f32 := ((Memref.whole cc2_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr2_9M : Memref sig .tc .vmem S1x128 .f32 := ((Memref.whole cc2_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr2_10M : Memref sig .tc .vmem S1x128 .f32 := ((Memref.whole cc2_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr2_11M : Memref sig .tc .vmem S1x128 .f32 := ((Memref.whole cc2_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr2_12M : Memref sig .tc .vmem S1x128 .f32 := ((Memref.whole cc2_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr2_13M : Memref sig .tc .vmem S1x128 .f32 := ((Memref.whole cc2_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr2_14M : Memref sig .tc .vmem S1x128 .f32 := ((Memref.whole cc2_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr2_15M : Memref sig .tc .vmem S1x128 .f32 := ((Memref.whole cc2_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr2_0M.view.set = rowSet (0 : Fin 16) := by
  refine (View.set_reshape _ _).trans ?_
  refine (View.set_slice_whole _ _).trans ?_
  rfl
private theorem row_set_1 : gr2_1M.view.set = rowSet (1 : Fin 16) := by
  refine (View.set_reshape _ _).trans ?_
  refine (View.set_slice_whole _ _).trans ?_
  rfl
private theorem row_set_2 : gr2_2M.view.set = rowSet (2 : Fin 16) := by
  refine (View.set_reshape _ _).trans ?_
  refine (View.set_slice_whole _ _).trans ?_
  rfl
private theorem row_set_3 : gr2_3M.view.set = rowSet (3 : Fin 16) := by
  refine (View.set_reshape _ _).trans ?_
  refine (View.set_slice_whole _ _).trans ?_
  rfl
private theorem row_set_4 : gr2_4M.view.set = rowSet (4 : Fin 16) := by
  refine (View.set_reshape _ _).trans ?_
  refine (View.set_slice_whole _ _).trans ?_
  rfl
private theorem row_set_5 : gr2_5M.view.set = rowSet (5 : Fin 16) := by
  refine (View.set_reshape _ _).trans ?_
  refine (View.set_slice_whole _ _).trans ?_
  rfl
private theorem row_set_6 : gr2_6M.view.set = rowSet (6 : Fin 16) := by
  refine (View.set_reshape _ _).trans ?_
  refine (View.set_slice_whole _ _).trans ?_
  rfl
private theorem row_set_7 : gr2_7M.view.set = rowSet (7 : Fin 16) := by
  refine (View.set_reshape _ _).trans ?_
  refine (View.set_slice_whole _ _).trans ?_
  rfl
private theorem row_set_8 : gr2_8M.view.set = rowSet (8 : Fin 16) := by
  refine (View.set_reshape _ _).trans ?_
  refine (View.set_slice_whole _ _).trans ?_
  rfl
private theorem row_set_9 : gr2_9M.view.set = rowSet (9 : Fin 16) := by
  refine (View.set_reshape _ _).trans ?_
  refine (View.set_slice_whole _ _).trans ?_
  rfl
private theorem row_set_10 : gr2_10M.view.set = rowSet (10 : Fin 16) := by
  refine (View.set_reshape _ _).trans ?_
  refine (View.set_slice_whole _ _).trans ?_
  rfl
private theorem row_set_11 : gr2_11M.view.set = rowSet (11 : Fin 16) := by
  refine (View.set_reshape _ _).trans ?_
  refine (View.set_slice_whole _ _).trans ?_
  rfl
private theorem row_set_12 : gr2_12M.view.set = rowSet (12 : Fin 16) := by
  refine (View.set_reshape _ _).trans ?_
  refine (View.set_slice_whole _ _).trans ?_
  rfl
private theorem row_set_13 : gr2_13M.view.set = rowSet (13 : Fin 16) := by
  refine (View.set_reshape _ _).trans ?_
  refine (View.set_slice_whole _ _).trans ?_
  rfl
private theorem row_set_14 : gr2_14M.view.set = rowSet (14 : Fin 16) := by
  refine (View.set_reshape _ _).trans ?_
  refine (View.set_slice_whole _ _).trans ?_
  rfl
private theorem row_set_15 : gr2_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join2 (c : Dev nD) (f0 f1 f2 f3 f4 f5 f6 f7 f8 f9 f10 f11 f12 f13 f14 f15 : Buf (Elt F) (gsc2M.view.loc (c : Thread nD τ))) :
    (iprop((gsc2M.view.loc (c : Thread nD τ) ↦[gr2_0M.view.set]{fullShare} f0)
        ∗ (gsc2M.view.loc (c : Thread nD τ) ↦[gr2_1M.view.set]{fullShare} f1)
        ∗ (gsc2M.view.loc (c : Thread nD τ) ↦[gr2_2M.view.set]{fullShare} f2)
        ∗ (gsc2M.view.loc (c : Thread nD τ) ↦[gr2_3M.view.set]{fullShare} f3)
        ∗ (gsc2M.view.loc (c : Thread nD τ) ↦[gr2_4M.view.set]{fullShare} f4)
        ∗ (gsc2M.view.loc (c : Thread nD τ) ↦[gr2_5M.view.set]{fullShare} f5)
        ∗ (gsc2M.view.loc (c : Thread nD τ) ↦[gr2_6M.view.set]{fullShare} f6)
        ∗ (gsc2M.view.loc (c : Thread nD τ) ↦[gr2_7M.view.set]{fullShare} f7)
        ∗ (gsc2M.view.loc (c : Thread nD τ) ↦[gr2_8M.view.set]{fullShare} f8)
        ∗ (gsc2M.view.loc (c : Thread nD τ) ↦[gr2_9M.view.set]{fullShare} f9)
        ∗ (gsc2M.view.loc (c : Thread nD τ) ↦[gr2_10M.view.set]{fullShare} f10)
        ∗ (gsc2M.view.loc (c : Thread nD τ) ↦[gr2_11M.view.set]{fullShare} f11)
        ∗ (gsc2M.view.loc (c : Thread nD τ) ↦[gr2_12M.view.set]{fullShare} f12)
        ∗ (gsc2M.view.loc (c : Thread nD τ) ↦[gr2_13M.view.set]{fullShare} f13)
        ∗ (gsc2M.view.loc (c : Thread nD τ) ↦[gr2_14M.view.set]{fullShare} f14)
        ∗ (gsc2M.view.loc (c : Thread nD τ) ↦[gr2_15M.view.set]{fullShare} f15)) : sProp 𝕄)
      ⊢ iprop(∃ g : Buf (Elt F) (gsc2M.view.loc (c : Thread nD τ)),
          ⌜(∀ i ∈ gr2_0M.view.set, g i = f0 i)
            ∧ (∀ i ∈ gr2_1M.view.set, g i = f1 i)
            ∧ (∀ i ∈ gr2_2M.view.set, g i = f2 i)
            ∧ (∀ i ∈ gr2_3M.view.set, g i = f3 i)
            ∧ (∀ i ∈ gr2_4M.view.set, g i = f4 i)
            ∧ (∀ i ∈ gr2_5M.view.set, g i = f5 i)
            ∧ (∀ i ∈ gr2_6M.view.set, g i = f6 i)
            ∧ (∀ i ∈ gr2_7M.view.set, g i = f7 i)
            ∧ (∀ i ∈ gr2_8M.view.set, g i = f8 i)
            ∧ (∀ i ∈ gr2_9M.view.set, g i = f9 i)
            ∧ (∀ i ∈ gr2_10M.view.set, g i = f10 i)
            ∧ (∀ i ∈ gr2_11M.view.set, g i = f11 i)
            ∧ (∀ i ∈ gr2_12M.view.set, g i = f12 i)
            ∧ (∀ i ∈ gr2_13M.view.set, g i = f13 i)
            ∧ (∀ i ∈ gr2_14M.view.set, g i = f14 i)
            ∧ (∀ i ∈ gr2_15M.view.set, g i = f15 i)⌝
          ∗ (gsc2M.view.loc (c : Thread nD τ) ↦[gsc2M.view.set]{fullShare} g)) := by
  have hw : gsc2M.view.set = Finset.univ.biUnion rowSet := (View.set_whole _).trans rowSet_cover.symm
  exact join16 (ℓ := gsc2M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split2 (c : Dev nD) (f : Buf (Elt F) (gsc2M.view.loc (c : Thread nD τ))) :
    (gsc2M.view.loc (c : Thread nD τ) ↦[gsc2M.view.set]{fullShare} f : sProp 𝕄)
      ⊢ iprop((gsc2M.view.loc (c : Thread nD τ) ↦[gr2_0M.view.set]{fullShare} f)
        ∗ (gsc2M.view.loc (c : Thread nD τ) ↦[gr2_1M.view.set]{fullShare} f)
        ∗ (gsc2M.view.loc (c : Thread nD τ) ↦[gr2_2M.view.set]{fullShare} f)
        ∗ (gsc2M.view.loc (c : Thread nD τ) ↦[gr2_3M.view.set]{fullShare} f)
        ∗ (gsc2M.view.loc (c : Thread nD τ) ↦[gr2_4M.view.set]{fullShare} f)
        ∗ (gsc2M.view.loc (c : Thread nD τ) ↦[gr2_5M.view.set]{fullShare} f)
        ∗ (gsc2M.view.loc (c : Thread nD τ) ↦[gr2_6M.view.set]{fullShare} f)
        ∗ (gsc2M.view.loc (c : Thread nD τ) ↦[gr2_7M.view.set]{fullShare} f)
        ∗ (gsc2M.view.loc (c : Thread nD τ) ↦[gr2_8M.view.set]{fullShare} f)
        ∗ (gsc2M.view.loc (c : Thread nD τ) ↦[gr2_9M.view.set]{fullShare} f)
        ∗ (gsc2M.view.loc (c : Thread nD τ) ↦[gr2_10M.view.set]{fullShare} f)
        ∗ (gsc2M.view.loc (c : Thread nD τ) ↦[gr2_11M.view.set]{fullShare} f)
        ∗ (gsc2M.view.loc (c : Thread nD τ) ↦[gr2_12M.view.set]{fullShare} f)
        ∗ (gsc2M.view.loc (c : Thread nD τ) ↦[gr2_13M.view.set]{fullShare} f)
        ∗ (gsc2M.view.loc (c : Thread nD τ) ↦[gr2_14M.view.set]{fullShare} f)
        ∗ (gsc2M.view.loc (c : Thread nD τ) ↦[gr2_15M.view.set]{fullShare} f)) := by
  have hw : gsc2M.view.set = Finset.univ.biUnion rowSet := (View.set_whole _).trans rowSet_cover.symm
  exact split16 (ℓ := gsc2M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows2.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin2
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 2's chunk of the edge-source table in scalar memory, whole. -/
abbrev ghb2M : Memref sig .tc .hbm S50000x1x128 .f32 := Memref.whole main_v0
abbrev gtb2M : Memref sig .tc .smem S64000 .i32 := Memref.whole main_v5

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc2M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb2M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed2 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb2M.view.loc (c : Thread nD τ))) (fs g : Buf (Elt F) (gsc2M.view.loc (c : Thread nD τ)))
    (hg : ∀ i ∈ ((gsc2M.slice (Rect.unit (s := S16x1x128) ![j, 0, 0] S1x1x128.size inb) (fun _ => rfl)).squeeze S1x128 squeezes_S1x1x128_S1x128).view.set,
        g i = ((gsc2M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb2M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc2M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb2M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load2 (c : Dev nD) (g : Buf (Elt F) (gsc2M.view.loc (c : Thread nD τ))) (y : S16x1x128.Idx) :
    View.readAt (Elt F) gsc2M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word2 (pf : S64000.Idx → Elt F .i32) (off : Fin 1 → ℕ) (inb : ∀ a, off a + S1.size a ≤ S64000.size a)
    (n : ℕ) (hn : n < 64000) (hoff : off 0 = n) :
    View.readAt (Elt F) gtb2M.view (Rect.unit (s := S64000) off S1.size inb).toLoadRect
        ((Memref.isWhole_whole _ : gtb2M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs2 (i : grid2.Coords) :
    (k2_off1 i) 0 = 16 * (i 0).val + 0
    ∧ (k2_off3 i) 0 = 16 * (i 0).val + 1
    ∧ (k2_off5 i) 0 = 16 * (i 0).val + 2
    ∧ (k2_off7 i) 0 = 16 * (i 0).val + 3
    ∧ (k2_off9 i) 0 = 16 * (i 0).val + 4
    ∧ (k2_off11 i) 0 = 16 * (i 0).val + 5
    ∧ (k2_off13 i) 0 = 16 * (i 0).val + 6
    ∧ (k2_off15 i) 0 = 16 * (i 0).val + 7
    ∧ (k2_off17 i) 0 = 16 * (i 0).val + 8
    ∧ (k2_off19 i) 0 = 16 * (i 0).val + 9
    ∧ (k2_off21 i) 0 = 16 * (i 0).val + 10
    ∧ (k2_off23 i) 0 = 16 * (i 0).val + 11
    ∧ (k2_off25 i) 0 = 16 * (i 0).val + 12
    ∧ (k2_off27 i) 0 = 16 * (i 0).val + 13
    ∧ (k2_off29 i) 0 = 16 * (i 0).val + 14
    ∧ (k2_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun2.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows2
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 2's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run2 (c : Dev nD) (i : grid2.Coords) (arg3 : Memref sig .tc .vmem S16x1x128 .f32) (harg3 : arg3.IsWhole)
    (pf : S64000.Idx → Elt F .i32) (tb : Buf (Elt F) (ghb2M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc2M.view.loc (c : Thread nD τ) ↦[gsc2M.view.set]{fullShare} f)
        ∗ owns (c : Thread nD τ) gtb2M fullShare pf
        ∗ (ghb2M.view.loc (c : Thread nD τ) ↦{fullShare} tb)
        ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0
        ∗ owes (c : Thread nD τ) 0 W
        ∗ (iprop(owns (c : Thread nD τ) arg3 fullShare (gblock tb pf (i 0).val)
            ∗ (∃ f, gsc2M.view.loc (c : Thread nD τ) ↦[gsc2M.view.set]{fullShare} f)
            ∗ owns (c : Thread nD τ) gtb2M fullShare pf
            ∗ (ghb2M.view.loc (c : Thread nD τ) ↦{fullShare} tb)
            ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0
            ∗ (∃ W', owes (c : Thread nD τ) 0 W')) -∗ K ⟨⟩))
      ⊢ wp frame (wpE (defs₀ (F := F)) Variants.none c none) Set.univ
          (cc2__gather_kernel i gtb2M (Memref.isWhole_whole _) ghb2M (Memref.isWhole_whole _) arg3 harg3 gsc2M (Memref.isWhole_whole _) cc2_scratch1) K := by
  have hi : (i 0).val < 4000 := (i 0).isLt
  have hoffs := table_offs2 i
  have hword0 : (View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))) = pf (ValueIdx.ix1 (⟨16 * (i 0).val + 0, by omega⟩ : Fin 64000)) :=
    table_word2 pf _ _ _ (by omega) hoffs.1
  have hlt0 : (View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))).toNat < 50000 := by rw [hword0]; exact hok _
  have hw1 : k2_chk1 (View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))) := ⟨chk_lt _ hlt0, chk_lt _ hlt0⟩
  have hword1 : (View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))) = pf (ValueIdx.ix1 (⟨16 * (i 0).val + 1, by omega⟩ : Fin 64000)) :=
    table_word2 pf _ _ _ (by omega) hoffs.2.1
  have hlt1 : (View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))).toNat < 50000 := by rw [hword1]; exact hok _
  have hw2 : k2_chk2 (View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))) := ⟨chk_lt _ hlt1, chk_lt _ hlt1⟩
  have hword2 : (View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))) = pf (ValueIdx.ix1 (⟨16 * (i 0).val + 2, by omega⟩ : Fin 64000)) :=
    table_word2 pf _ _ _ (by omega) hoffs.2.2.1
  have hlt2 : (View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))).toNat < 50000 := by rw [hword2]; exact hok _
  have hw3 : k2_chk3 (View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))) := ⟨chk_lt _ hlt2, chk_lt _ hlt2⟩
  have hword3 : (View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))) = pf (ValueIdx.ix1 (⟨16 * (i 0).val + 3, by omega⟩ : Fin 64000)) :=
    table_word2 pf _ _ _ (by omega) hoffs.2.2.2.1
  have hlt3 : (View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))).toNat < 50000 := by rw [hword3]; exact hok _
  have hw4 : k2_chk4 (View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))) := ⟨chk_lt _ hlt3, chk_lt _ hlt3⟩
  have hword4 : (View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))) = pf (ValueIdx.ix1 (⟨16 * (i 0).val + 4, by omega⟩ : Fin 64000)) :=
    table_word2 pf _ _ _ (by omega) hoffs.2.2.2.2.1
  have hlt4 : (View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))).toNat < 50000 := by rw [hword4]; exact hok _
  have hw5 : k2_chk5 (View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))) := ⟨chk_lt _ hlt4, chk_lt _ hlt4⟩
  have hword5 : (View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))) = pf (ValueIdx.ix1 (⟨16 * (i 0).val + 5, by omega⟩ : Fin 64000)) :=
    table_word2 pf _ _ _ (by omega) hoffs.2.2.2.2.2.1
  have hlt5 : (View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))).toNat < 50000 := by rw [hword5]; exact hok _
  have hw6 : k2_chk6 (View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))) := ⟨chk_lt _ hlt5, chk_lt _ hlt5⟩
  have hword6 : (View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))) = pf (ValueIdx.ix1 (⟨16 * (i 0).val + 6, by omega⟩ : Fin 64000)) :=
    table_word2 pf _ _ _ (by omega) hoffs.2.2.2.2.2.2.1
  have hlt6 : (View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))).toNat < 50000 := by rw [hword6]; exact hok _
  have hw7 : k2_chk7 (View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))) := ⟨chk_lt _ hlt6, chk_lt _ hlt6⟩
  have hword7 : (View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))) = pf (ValueIdx.ix1 (⟨16 * (i 0).val + 7, by omega⟩ : Fin 64000)) :=
    table_word2 pf _ _ _ (by omega) hoffs.2.2.2.2.2.2.2.1
  have hlt7 : (View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))).toNat < 50000 := by rw [hword7]; exact hok _
  have hw8 : k2_chk8 (View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))) := ⟨chk_lt _ hlt7, chk_lt _ hlt7⟩
  have hword8 : (View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))) = pf (ValueIdx.ix1 (⟨16 * (i 0).val + 8, by omega⟩ : Fin 64000)) :=
    table_word2 pf _ _ _ (by omega) hoffs.2.2.2.2.2.2.2.2.1
  have hlt8 : (View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))).toNat < 50000 := by rw [hword8]; exact hok _
  have hw9 : k2_chk9 (View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))) := ⟨chk_lt _ hlt8, chk_lt _ hlt8⟩
  have hword9 : (View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))) = pf (ValueIdx.ix1 (⟨16 * (i 0).val + 9, by omega⟩ : Fin 64000)) :=
    table_word2 pf _ _ _ (by omega) hoffs.2.2.2.2.2.2.2.2.2.1
  have hlt9 : (View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))).toNat < 50000 := by rw [hword9]; exact hok _
  have hw10 : k2_chk10 (View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))) := ⟨chk_lt _ hlt9, chk_lt _ hlt9⟩
  have hword10 : (View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))) = pf (ValueIdx.ix1 (⟨16 * (i 0).val + 10, by omega⟩ : Fin 64000)) :=
    table_word2 pf _ _ _ (by omega) hoffs.2.2.2.2.2.2.2.2.2.2.1
  have hlt10 : (View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))).toNat < 50000 := by rw [hword10]; exact hok _
  have hw11 : k2_chk11 (View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))) := ⟨chk_lt _ hlt10, chk_lt _ hlt10⟩
  have hword11 : (View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))) = pf (ValueIdx.ix1 (⟨16 * (i 0).val + 11, by omega⟩ : Fin 64000)) :=
    table_word2 pf _ _ _ (by omega) hoffs.2.2.2.2.2.2.2.2.2.2.2.1
  have hlt11 : (View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))).toNat < 50000 := by rw [hword11]; exact hok _
  have hw12 : k2_chk12 (View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))) := ⟨chk_lt _ hlt11, chk_lt _ hlt11⟩
  have hword12 : (View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))) = pf (ValueIdx.ix1 (⟨16 * (i 0).val + 12, by omega⟩ : Fin 64000)) :=
    table_word2 pf _ _ _ (by omega) hoffs.2.2.2.2.2.2.2.2.2.2.2.2.1
  have hlt12 : (View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))).toNat < 50000 := by rw [hword12]; exact hok _
  have hw13 : k2_chk13 (View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))) := ⟨chk_lt _ hlt12, chk_lt _ hlt12⟩
  have hword13 : (View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))) = pf (ValueIdx.ix1 (⟨16 * (i 0).val + 13, by omega⟩ : Fin 64000)) :=
    table_word2 pf _ _ _ (by omega) hoffs.2.2.2.2.2.2.2.2.2.2.2.2.2.1
  have hlt13 : (View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))).toNat < 50000 := by rw [hword13]; exact hok _
  have hw14 : k2_chk14 (View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))) := ⟨chk_lt _ hlt13, chk_lt _ hlt13⟩
  have hword14 : (View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))) = pf (ValueIdx.ix1 (⟨16 * (i 0).val + 14, by omega⟩ : Fin 64000)) :=
    table_word2 pf _ _ _ (by omega) hoffs.2.2.2.2.2.2.2.2.2.2.2.2.2.2.1
  have hlt14 : (View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))).toNat < 50000 := by rw [hword14]; exact hok _
  have hw15 : k2_chk15 (View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))) := ⟨chk_lt _ hlt14, chk_lt _ hlt14⟩
  have hword15 : (View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))) = pf (ValueIdx.ix1 (⟨16 * (i 0).val + 15, by omega⟩ : Fin 64000)) :=
    table_word2 pf _ _ _ (by omega) hoffs.2.2.2.2.2.2.2.2.2.2.2.2.2.2.2
  have hlt15 : (View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))).toNat < 50000 := by rw [hword15]; exact hok _
  have hw16 : k2_chk16 (View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))) := chk_lt _ hlt15
  rw [cc2__gather_kernel_eq_skeleton]; unfold cc2__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb2M).IsWhole).eq_unread hfp
  ihave HR := (rows_split2 (F := F) c fsc) $$ HSC
  icases HR with ⟨HS0, HS1, HS2, HS3, HS4, HS5, HS6, HS7, HS8, HS9, HS10, HS11, HS12, HS13, HS14, HS15⟩
  ihave HS0 := (Entails.of_eq (show ((gsc2M.view.loc (c : Thread nD τ) ↦[gr2_0M.view.set]{fullShare} fsc : sProp 𝕄)) = (gr2_0M.view.loc (c : Thread nD τ) ↦[gr2_0M.view.set]{fullShare} fsc) from rfl)) $$ HS0
  ihave HS1 := (Entails.of_eq (show ((gsc2M.view.loc (c : Thread nD τ) ↦[gr2_1M.view.set]{fullShare} fsc : sProp 𝕄)) = (gr2_1M.view.loc (c : Thread nD τ) ↦[gr2_1M.view.set]{fullShare} fsc) from rfl)) $$ HS1
  ihave HS2 := (Entails.of_eq (show ((gsc2M.view.loc (c : Thread nD τ) ↦[gr2_2M.view.set]{fullShare} fsc : sProp 𝕄)) = (gr2_2M.view.loc (c : Thread nD τ) ↦[gr2_2M.view.set]{fullShare} fsc) from rfl)) $$ HS2
  ihave HS3 := (Entails.of_eq (show ((gsc2M.view.loc (c : Thread nD τ) ↦[gr2_3M.view.set]{fullShare} fsc : sProp 𝕄)) = (gr2_3M.view.loc (c : Thread nD τ) ↦[gr2_3M.view.set]{fullShare} fsc) from rfl)) $$ HS3
  ihave HS4 := (Entails.of_eq (show ((gsc2M.view.loc (c : Thread nD τ) ↦[gr2_4M.view.set]{fullShare} fsc : sProp 𝕄)) = (gr2_4M.view.loc (c : Thread nD τ) ↦[gr2_4M.view.set]{fullShare} fsc) from rfl)) $$ HS4
  ihave HS5 := (Entails.of_eq (show ((gsc2M.view.loc (c : Thread nD τ) ↦[gr2_5M.view.set]{fullShare} fsc : sProp 𝕄)) = (gr2_5M.view.loc (c : Thread nD τ) ↦[gr2_5M.view.set]{fullShare} fsc) from rfl)) $$ HS5
  ihave HS6 := (Entails.of_eq (show ((gsc2M.view.loc (c : Thread nD τ) ↦[gr2_6M.view.set]{fullShare} fsc : sProp 𝕄)) = (gr2_6M.view.loc (c : Thread nD τ) ↦[gr2_6M.view.set]{fullShare} fsc) from rfl)) $$ HS6
  ihave HS7 := (Entails.of_eq (show ((gsc2M.view.loc (c : Thread nD τ) ↦[gr2_7M.view.set]{fullShare} fsc : sProp 𝕄)) = (gr2_7M.view.loc (c : Thread nD τ) ↦[gr2_7M.view.set]{fullShare} fsc) from rfl)) $$ HS7
  ihave HS8 := (Entails.of_eq (show ((gsc2M.view.loc (c : Thread nD τ) ↦[gr2_8M.view.set]{fullShare} fsc : sProp 𝕄)) = (gr2_8M.view.loc (c : Thread nD τ) ↦[gr2_8M.view.set]{fullShare} fsc) from rfl)) $$ HS8
  ihave HS9 := (Entails.of_eq (show ((gsc2M.view.loc (c : Thread nD τ) ↦[gr2_9M.view.set]{fullShare} fsc : sProp 𝕄)) = (gr2_9M.view.loc (c : Thread nD τ) ↦[gr2_9M.view.set]{fullShare} fsc) from rfl)) $$ HS9
  ihave HS10 := (Entails.of_eq (show ((gsc2M.view.loc (c : Thread nD τ) ↦[gr2_10M.view.set]{fullShare} fsc : sProp 𝕄)) = (gr2_10M.view.loc (c : Thread nD τ) ↦[gr2_10M.view.set]{fullShare} fsc) from rfl)) $$ HS10
  ihave HS11 := (Entails.of_eq (show ((gsc2M.view.loc (c : Thread nD τ) ↦[gr2_11M.view.set]{fullShare} fsc : sProp 𝕄)) = (gr2_11M.view.loc (c : Thread nD τ) ↦[gr2_11M.view.set]{fullShare} fsc) from rfl)) $$ HS11
  ihave HS12 := (Entails.of_eq (show ((gsc2M.view.loc (c : Thread nD τ) ↦[gr2_12M.view.set]{fullShare} fsc : sProp 𝕄)) = (gr2_12M.view.loc (c : Thread nD τ) ↦[gr2_12M.view.set]{fullShare} fsc) from rfl)) $$ HS12
  ihave HS13 := (Entails.of_eq (show ((gsc2M.view.loc (c : Thread nD τ) ↦[gr2_13M.view.set]{fullShare} fsc : sProp 𝕄)) = (gr2_13M.view.loc (c : Thread nD τ) ↦[gr2_13M.view.set]{fullShare} fsc) from rfl)) $$ HS13
  ihave HS14 := (Entails.of_eq (show ((gsc2M.view.loc (c : Thread nD τ) ↦[gr2_14M.view.set]{fullShare} fsc : sProp 𝕄)) = (gr2_14M.view.loc (c : Thread nD τ) ↦[gr2_14M.view.set]{fullShare} fsc) from rfl)) $$ HS14
  ihave HS15 := (Entails.of_eq (show ((gsc2M.view.loc (c : Thread nD τ) ↦[gr2_15M.view.set]{fullShare} fsc : sProp 𝕄)) = (gr2_15M.view.loc (c : Thread nD τ) ↦[gr2_15M.view.set]{fullShare} fsc) from rfl)) $$ HS15
  ihave HB := (split16 (ℓ := ghb2M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join2 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb2M.view (Rect.unit (s := S64000) (k2_off1 i) S1.size (k2_off1_inb i)).toLoadRect ((Memref.isWhole_whole _ : gtb2M.IsWhole).unread pf) (Shape.Idx.first (numel1_S1.symm ▸ Nat.one_pos))).toNat, hlt0⟩ : Fin 50000) (0 : Fin 1) l) :=
    row_landed2 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb2M.view (Rect.unit (s := S64000) (k2_off3 i) S1.size (k2_off3_inb i)).toLoadRect ((Memref.isWhole_whole _ : gtb2M.IsWhole).unread pf) (Shape.Idx.first (numel1_S1.symm ▸ Nat.one_pos))).toNat, hlt1⟩ : Fin 50000) (0 : Fin 1) l) :=
    row_landed2 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb2M.view (Rect.unit (s := S64000) (k2_off5 i) S1.size (k2_off5_inb i)).toLoadRect ((Memref.isWhole_whole _ : gtb2M.IsWhole).unread pf) (Shape.Idx.first (numel1_S1.symm ▸ Nat.one_pos))).toNat, hlt2⟩ : Fin 50000) (0 : Fin 1) l) :=
    row_landed2 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb2M.view (Rect.unit (s := S64000) (k2_off7 i) S1.size (k2_off7_inb i)).toLoadRect ((Memref.isWhole_whole _ : gtb2M.IsWhole).unread pf) (Shape.Idx.first (numel1_S1.symm ▸ Nat.one_pos))).toNat, hlt3⟩ : Fin 50000) (0 : Fin 1) l) :=
    row_landed2 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb2M.view (Rect.unit (s := S64000) (k2_off9 i) S1.size (k2_off9_inb i)).toLoadRect ((Memref.isWhole_whole _ : gtb2M.IsWhole).unread pf) (Shape.Idx.first (numel1_S1.symm ▸ Nat.one_pos))).toNat, hlt4⟩ : Fin 50000) (0 : Fin 1) l) :=
    row_landed2 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb2M.view (Rect.unit (s := S64000) (k2_off11 i) S1.size (k2_off11_inb i)).toLoadRect ((Memref.isWhole_whole _ : gtb2M.IsWhole).unread pf) (Shape.Idx.first (numel1_S1.symm ▸ Nat.one_pos))).toNat, hlt5⟩ : Fin 50000) (0 : Fin 1) l) :=
    row_landed2 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb2M.view (Rect.unit (s := S64000) (k2_off13 i) S1.size (k2_off13_inb i)).toLoadRect ((Memref.isWhole_whole _ : gtb2M.IsWhole).unread pf) (Shape.Idx.first (numel1_S1.symm ▸ Nat.one_pos))).toNat, hlt6⟩ : Fin 50000) (0 : Fin 1) l) :=
    row_landed2 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb2M.view (Rect.unit (s := S64000) (k2_off15 i) S1.size (k2_off15_inb i)).toLoadRect ((Memref.isWhole_whole _ : gtb2M.IsWhole).unread pf) (Shape.Idx.first (numel1_S1.symm ▸ Nat.one_pos))).toNat, hlt7⟩ : Fin 50000) (0 : Fin 1) l) :=
    row_landed2 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb2M.view (Rect.unit (s := S64000) (k2_off17 i) S1.size (k2_off17_inb i)).toLoadRect ((Memref.isWhole_whole _ : gtb2M.IsWhole).unread pf) (Shape.Idx.first (numel1_S1.symm ▸ Nat.one_pos))).toNat, hlt8⟩ : Fin 50000) (0 : Fin 1) l) :=
    row_landed2 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb2M.view (Rect.unit (s := S64000) (k2_off19 i) S1.size (k2_off19_inb i)).toLoadRect ((Memref.isWhole_whole _ : gtb2M.IsWhole).unread pf) (Shape.Idx.first (numel1_S1.symm ▸ Nat.one_pos))).toNat, hlt9⟩ : Fin 50000) (0 : Fin 1) l) :=
    row_landed2 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb2M.view (Rect.unit (s := S64000) (k2_off21 i) S1.size (k2_off21_inb i)).toLoadRect ((Memref.isWhole_whole _ : gtb2M.IsWhole).unread pf) (Shape.Idx.first (numel1_S1.symm ▸ Nat.one_pos))).toNat, hlt10⟩ : Fin 50000) (0 : Fin 1) l) :=
    row_landed2 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb2M.view (Rect.unit (s := S64000) (k2_off23 i) S1.size (k2_off23_inb i)).toLoadRect ((Memref.isWhole_whole _ : gtb2M.IsWhole).unread pf) (Shape.Idx.first (numel1_S1.symm ▸ Nat.one_pos))).toNat, hlt11⟩ : Fin 50000) (0 : Fin 1) l) :=
    row_landed2 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb2M.view (Rect.unit (s := S64000) (k2_off25 i) S1.size (k2_off25_inb i)).toLoadRect ((Memref.isWhole_whole _ : gtb2M.IsWhole).unread pf) (Shape.Idx.first (numel1_S1.symm ▸ Nat.one_pos))).toNat, hlt12⟩ : Fin 50000) (0 : Fin 1) l) :=
    row_landed2 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb2M.view (Rect.unit (s := S64000) (k2_off27 i) S1.size (k2_off27_inb i)).toLoadRect ((Memref.isWhole_whole _ : gtb2M.IsWhole).unread pf) (Shape.Idx.first (numel1_S1.symm ▸ Nat.one_pos))).toNat, hlt13⟩ : Fin 50000) (0 : Fin 1) l) :=
    row_landed2 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb2M.view (Rect.unit (s := S64000) (k2_off29 i) S1.size (k2_off29_inb i)).toLoadRect ((Memref.isWhole_whole _ : gtb2M.IsWhole).unread pf) (Shape.Idx.first (numel1_S1.symm ▸ Nat.one_pos))).toNat, hlt14⟩ : Fin 50000) (0 : Fin 1) l) :=
    row_landed2 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb2M.view (Rect.unit (s := S64000) (k2_off31 i) S1.size (k2_off31_inb i)).toLoadRect ((Memref.isWhole_whole _ : gtb2M.IsWhole).unread pf) (Shape.Idx.first (numel1_S1.symm ▸ Nat.one_pos))).toNat, hlt15⟩ : Fin 50000) (0 : Fin 1) l) :=
    row_landed2 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load2]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb2M).IsWhole).read_unread _
  isplitl [Hh0 Hh1 Hh2 Hh3 Hh4 Hh5 Hh6 Hh7 Hh8 Hh9 Hh10 Hh11 Hh12 Hh13 Hh14 Hh15]
  · iapply (join16 (ℓ := ghb2M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather2.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 2's own DMA semaphores: one per row of the step. -/
abbrev gsem2 : Fin 16 → SemLoc sig := fun j =>
  (![SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53] : Fin 16 → SemLoc sig) j
theorem gsemFacts2 : Pipeline.OwnSemFacts spec2 gsem2 := by decide

/-- The buffers the body reads without a window: the node table in HBM and its chunk of the edge-source table. -/
def gH2 : Finset (Ref sig .tc) := {main_v0, main_v5}
theorem gH2_sub : gH2 ⊆ Pipeline.restRefs sig spec2 := by decide

/-- The call's prefetched table at the contents the region finds. -/
def gadm2 (c : Dev nD) : (pcfg2 (F := F)).Adm := ⟨fun k => match k with | ⟨0, _⟩ => V c main_v5, trivial⟩

/-- The proof data of gather call 2 on core `c`: the output array as found; after step `t` the output block holds
    the gathered rows; the invariant carries the scratch, the call's semaphores at zero and the two tables as found. -/
def gdat2 (a : (pcfg2 (F := F)).Adm) (c : Dev nD) : Dat τ (Elt F) Unit ℕ (Pipeline.UD sig nD τ) ℕ (cfg2 a) c where
  A w := V c (Pipeline.arrRef spec2 w)
  after w t := match w with
    | ⟨0, _⟩ => gblock (V c main_v0) (V c main_v5) t.val
  Φ _ := Pipeline.ΦD gsem2 spec2 gH2 V c
  q _ := fullShare
  owed _ := 0

theorem gdat2_A (a : (pcfg2 (F := F)).Adm) (c : Dev nD) (w : Fin (cfg2 a).W) :
    (gdat2 V a c).A w = V c (Pipeline.arrRef spec2 w) := by dsimp only [gdat2]
theorem gdat2_after (a : (pcfg2 (F := F)).Adm) (c : Dev nD) (t : Fin (cfg2 a).N) :
    (gdat2 V a c).after 0 t = gblock (V c main_v0) (V c main_v5) t.val := rfl

/-! ## The body obligation, from the body's run -/

/-- The call's scratch buffer whole at some contents, said of the buffer and said through the whole-buffer memref. -/
theorem gsc2_whole (c : Dev nD) :
    (iprop(∃ f, gsc2M.view.loc (c : Thread nD τ) ↦[gsc2M.view.set]{fullShare} f) : sProp 𝕄)
      = iprop(∃ f : Buf (Elt F) ((c : Thread nD τ).loc cc2_scratch0), ((c : Thread nD τ).loc cc2_scratch0) ↦{fullShare} f) := by
  simp only [gsc2M, Memref.view_whole, View.set_whole]

/-- The region invariant of gather call 2, conjunct by conjunct: the call's scratch buffer whole at some contents beside
    the scoped buffers it does not touch, the generator register at some state, its sixteen semaphores at zero, and
    the two tables whole at the contents the region finds. -/
theorem PhiD2_eq (c : Dev nD) :
    (Pipeline.ΦD gsem2 spec2 gH2 V c : sProp 𝕄)
      = iprop(iprop((∃ f, gsc2M.view.loc (c : Thread nD τ) ↦[gsc2M.view.set]{fullShare} f)
            ∗ Pipeline.scopedRestBut (Ix := Unit) (Name := ℕ) (U := Pipeline.UD sig nD τ) (Lvl := ℕ) (Val := Elt F) spec2 c [cc2_scratch0])
          ∗ (∃ r, prngReg c r)
          ∗ iprop(semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0)
          ∗ iprop((ghb2M.view.loc (c : Thread nD τ) ↦{fullShare} V c main_v0) ∗ owns (c : Thread nD τ) gtb2M fullShare (V c main_v5))) := by
  rw [gsc2_whole, owns_whole, Pipeline.ΦD_eq, scopedRest2_split,
    Pipeline.ownSems0_eq_of_list c gsem2 [0, 1, 2, 3, 4, 5, 6, 7, 8, 9, 10, 11, 12, 13, 14, 15] (by decide) (by decide),
    BI.bigSep_eq_bigSepL_of_eq [main_v0, main_v5] (by decide) (by decide)]
  rfl

/-- The kernel body of gather call 2 as the pipeline calls it at point `t`: the step's coordinates, the two tables whole,
    the output window's current staging buffer, the scratch buffer and the sixteen semaphores. -/
abbrev gbodyAt2 (a : (pcfg2 (F := F)).Adm) (t : Fin (cfg2 a).N) : Prog (TpuEff nD τ sig (Elt F) Λ₀ .tc) PUnit :=
  cc2__gather_kernel ((cfg2 a).grid.coords t) gtb2M (Memref.isWhole_whole _) ghb2M (Memref.isWhole_whole _)
    (spec2_0.stage ((cfg2 a).slots t 0)) (hstage2_0 (((cfg2 a).slots t 0).cast nbuf2_0)) gsc2M (Memref.isWhole_whole _) cc2_scratch1

/-- The grid is one axis of 4000 steps: the step's one coordinate is its number. -/
theorem gcoord2 (a : (pcfg2 (F := F)).Adm) (t : Fin (cfg2 a).N) : (((cfg2 a).grid.coords t) 0).val = t.val := by
  have ht : t.val < 4000 := lt_of_lt_of_eq t.isLt N_2
  show t.val / 1 % 4000 = t.val
  omega

/-- What the body is called with at point `t`: the invariant, the core's `owes`, the output window's current staging
    buffer at whatever it holds, -/
def gbodyPre2 (a : (pcfg2 (F := F)).Adm) (c : Dev nD) (t : Fin (cfg2 a).N) : sProp 𝕄 :=
  iprop((gdat2 V a c).Φ t.castSucc ∗ (gdat2 V a c).owesAt () t.castSucc
    ∗ (∃ d, owns (c : Thread nD τ) (spec2_0.stage ((cfg2 a).slots t 0)) fullShare ((gdat2 V a c).before 0 t d)))

/-- and what it returns: the invariant, `owes`, the staging buffer at the step's gathered rows. -/
def gbodyPost2 (a : (pcfg2 (F := F)).Adm) (c : Dev nD) (t : Fin (cfg2 a).N) : sProp 𝕄 :=
  iprop((gdat2 V a c).Φ t.succ ∗ (gdat2 V a c).owesAt () t.succ
    ∗ owns (c : Thread nD τ) (spec2_0.stage ((cfg2 a).slots t 0)) fullShare ((gdat2 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body2 (a : (pcfg2 (F := F)).Adm) (c : Dev nD)
    (hok : ∀ e : S64000.Idx, (V c main_v5 e).toNat < 50000) (t : Fin (cfg2 a).N) :
    gbodyPre2 V a c t ⊢ wp frame (wpE (defs₀ (F := F)) Variants.none c none) Set.univ (gbodyAt2 a t) (fun _ => gbodyPost2 V a c t) := by
  unfold gbodyPre2 gbodyPost2 gbodyAt2
  rw [show (gdat2 V a c).Φ t.succ = Pipeline.ΦD gsem2 spec2 gH2 V c from rfl,
    show (gdat2 V a c).Φ t.castSucc = Pipeline.ΦD gsem2 spec2 gH2 V c from rfl, gdat2_after, PhiD2_eq]
  unfold Dat.owesAt Pipeline.owesWithin
  rw [show (gdat2 V a c).owed t.castSucc = 0 from rfl, show (gdat2 V a c).owed t.succ = 0 from rfl]
  have hrun := fun W K => gather_run2 (F := F) c ((cfg2 a).grid.coords t) (spec2_0.stage ((cfg2 a).slots t 0))
    (hstage2_0 (((cfg2 a).slots t 0).cast nbuf2_0)) (V c main_v5) (V c main_v0) hok W K
  rw [gcoord2 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 2, when every word of its table names a row of the node table. -/
theorem gather_obligation2 (a : (pcfg2 (F := F)).Adm) (c : Dev nD)
    (hok : ∀ e : S64000.Idx, (V c main_v5 e).toNat < 50000) :
    BodyObligation (gdat2 (F := F) V a c) (defs₀ (F := F)) Variants.none () Set.univ := fun t => by
  rw [bigSep_W2, bigSep_W2]
  exact gsound_body2 V a c hok t

end

end Cert.Kernel.Hand

end
-- ==== Proof.KRowsJoin3.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 3's scratch buffer, whole, and its sixteen rows as the body addresses them. -/
abbrev gsc3M : Memref sig .tc .vmem S16x1x128 .f32 := Memref.whole cc3_scratch0
abbrev gr3_0M : Memref sig .tc .vmem S1x128 .f32 := ((Memref.whole cc3_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr3_1M : Memref sig .tc .vmem S1x128 .f32 := ((Memref.whole cc3_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr3_2M : Memref sig .tc .vmem S1x128 .f32 := ((Memref.whole cc3_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr3_3M : Memref sig .tc .vmem S1x128 .f32 := ((Memref.whole cc3_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr3_4M : Memref sig .tc .vmem S1x128 .f32 := ((Memref.whole cc3_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr3_5M : Memref sig .tc .vmem S1x128 .f32 := ((Memref.whole cc3_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr3_6M : Memref sig .tc .vmem S1x128 .f32 := ((Memref.whole cc3_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr3_7M : Memref sig .tc .vmem S1x128 .f32 := ((Memref.whole cc3_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr3_8M : Memref sig .tc .vmem S1x128 .f32 := ((Memref.whole cc3_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr3_9M : Memref sig .tc .vmem S1x128 .f32 := ((Memref.whole cc3_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr3_10M : Memref sig .tc .vmem S1x128 .f32 := ((Memref.whole cc3_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr3_11M : Memref sig .tc .vmem S1x128 .f32 := ((Memref.whole cc3_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr3_12M : Memref sig .tc .vmem S1x128 .f32 := ((Memref.whole cc3_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr3_13M : Memref sig .tc .vmem S1x128 .f32 := ((Memref.whole cc3_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr3_14M : Memref sig .tc .vmem S1x128 .f32 := ((Memref.whole cc3_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr3_15M : Memref sig .tc .vmem S1x128 .f32 := ((Memref.whole cc3_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr3_0M.view.set = rowSet (0 : Fin 16) := by
  refine (View.set_reshape _ _).trans ?_
  refine (View.set_slice_whole _ _).trans ?_
  rfl
private theorem row_set_1 : gr3_1M.view.set = rowSet (1 : Fin 16) := by
  refine (View.set_reshape _ _).trans ?_
  refine (View.set_slice_whole _ _).trans ?_
  rfl
private theorem row_set_2 : gr3_2M.view.set = rowSet (2 : Fin 16) := by
  refine (View.set_reshape _ _).trans ?_
  refine (View.set_slice_whole _ _).trans ?_
  rfl
private theorem row_set_3 : gr3_3M.view.set = rowSet (3 : Fin 16) := by
  refine (View.set_reshape _ _).trans ?_
  refine (View.set_slice_whole _ _).trans ?_
  rfl
private theorem row_set_4 : gr3_4M.view.set = rowSet (4 : Fin 16) := by
  refine (View.set_reshape _ _).trans ?_
  refine (View.set_slice_whole _ _).trans ?_
  rfl
private theorem row_set_5 : gr3_5M.view.set = rowSet (5 : Fin 16) := by
  refine (View.set_reshape _ _).trans ?_
  refine (View.set_slice_whole _ _).trans ?_
  rfl
private theorem row_set_6 : gr3_6M.view.set = rowSet (6 : Fin 16) := by
  refine (View.set_reshape _ _).trans ?_
  refine (View.set_slice_whole _ _).trans ?_
  rfl
private theorem row_set_7 : gr3_7M.view.set = rowSet (7 : Fin 16) := by
  refine (View.set_reshape _ _).trans ?_
  refine (View.set_slice_whole _ _).trans ?_
  rfl
private theorem row_set_8 : gr3_8M.view.set = rowSet (8 : Fin 16) := by
  refine (View.set_reshape _ _).trans ?_
  refine (View.set_slice_whole _ _).trans ?_
  rfl
private theorem row_set_9 : gr3_9M.view.set = rowSet (9 : Fin 16) := by
  refine (View.set_reshape _ _).trans ?_
  refine (View.set_slice_whole _ _).trans ?_
  rfl
private theorem row_set_10 : gr3_10M.view.set = rowSet (10 : Fin 16) := by
  refine (View.set_reshape _ _).trans ?_
  refine (View.set_slice_whole _ _).trans ?_
  rfl
private theorem row_set_11 : gr3_11M.view.set = rowSet (11 : Fin 16) := by
  refine (View.set_reshape _ _).trans ?_
  refine (View.set_slice_whole _ _).trans ?_
  rfl
private theorem row_set_12 : gr3_12M.view.set = rowSet (12 : Fin 16) := by
  refine (View.set_reshape _ _).trans ?_
  refine (View.set_slice_whole _ _).trans ?_
  rfl
private theorem row_set_13 : gr3_13M.view.set = rowSet (13 : Fin 16) := by
  refine (View.set_reshape _ _).trans ?_
  refine (View.set_slice_whole _ _).trans ?_
  rfl
private theorem row_set_14 : gr3_14M.view.set = rowSet (14 : Fin 16) := by
  refine (View.set_reshape _ _).trans ?_
  refine (View.set_slice_whole _ _).trans ?_
  rfl
private theorem row_set_15 : gr3_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join3 (c : Dev nD) (f0 f1 f2 f3 f4 f5 f6 f7 f8 f9 f10 f11 f12 f13 f14 f15 : Buf (Elt F) (gsc3M.view.loc (c : Thread nD τ))) :
    (iprop((gsc3M.view.loc (c : Thread nD τ) ↦[gr3_0M.view.set]{fullShare} f0)
        ∗ (gsc3M.view.loc (c : Thread nD τ) ↦[gr3_1M.view.set]{fullShare} f1)
        ∗ (gsc3M.view.loc (c : Thread nD τ) ↦[gr3_2M.view.set]{fullShare} f2)
        ∗ (gsc3M.view.loc (c : Thread nD τ) ↦[gr3_3M.view.set]{fullShare} f3)
        ∗ (gsc3M.view.loc (c : Thread nD τ) ↦[gr3_4M.view.set]{fullShare} f4)
        ∗ (gsc3M.view.loc (c : Thread nD τ) ↦[gr3_5M.view.set]{fullShare} f5)
        ∗ (gsc3M.view.loc (c : Thread nD τ) ↦[gr3_6M.view.set]{fullShare} f6)
        ∗ (gsc3M.view.loc (c : Thread nD τ) ↦[gr3_7M.view.set]{fullShare} f7)
        ∗ (gsc3M.view.loc (c : Thread nD τ) ↦[gr3_8M.view.set]{fullShare} f8)
        ∗ (gsc3M.view.loc (c : Thread nD τ) ↦[gr3_9M.view.set]{fullShare} f9)
        ∗ (gsc3M.view.loc (c : Thread nD τ) ↦[gr3_10M.view.set]{fullShare} f10)
        ∗ (gsc3M.view.loc (c : Thread nD τ) ↦[gr3_11M.view.set]{fullShare} f11)
        ∗ (gsc3M.view.loc (c : Thread nD τ) ↦[gr3_12M.view.set]{fullShare} f12)
        ∗ (gsc3M.view.loc (c : Thread nD τ) ↦[gr3_13M.view.set]{fullShare} f13)
        ∗ (gsc3M.view.loc (c : Thread nD τ) ↦[gr3_14M.view.set]{fullShare} f14)
        ∗ (gsc3M.view.loc (c : Thread nD τ) ↦[gr3_15M.view.set]{fullShare} f15)) : sProp 𝕄)
      ⊢ iprop(∃ g : Buf (Elt F) (gsc3M.view.loc (c : Thread nD τ)),
          ⌜(∀ i ∈ gr3_0M.view.set, g i = f0 i)
            ∧ (∀ i ∈ gr3_1M.view.set, g i = f1 i)
            ∧ (∀ i ∈ gr3_2M.view.set, g i = f2 i)
            ∧ (∀ i ∈ gr3_3M.view.set, g i = f3 i)
            ∧ (∀ i ∈ gr3_4M.view.set, g i = f4 i)
            ∧ (∀ i ∈ gr3_5M.view.set, g i = f5 i)
            ∧ (∀ i ∈ gr3_6M.view.set, g i = f6 i)
            ∧ (∀ i ∈ gr3_7M.view.set, g i = f7 i)
            ∧ (∀ i ∈ gr3_8M.view.set, g i = f8 i)
            ∧ (∀ i ∈ gr3_9M.view.set, g i = f9 i)
            ∧ (∀ i ∈ gr3_10M.view.set, g i = f10 i)
            ∧ (∀ i ∈ gr3_11M.view.set, g i = f11 i)
            ∧ (∀ i ∈ gr3_12M.view.set, g i = f12 i)
            ∧ (∀ i ∈ gr3_13M.view.set, g i = f13 i)
            ∧ (∀ i ∈ gr3_14M.view.set, g i = f14 i)
            ∧ (∀ i ∈ gr3_15M.view.set, g i = f15 i)⌝
          ∗ (gsc3M.view.loc (c : Thread nD τ) ↦[gsc3M.view.set]{fullShare} g)) := by
  have hw : gsc3M.view.set = Finset.univ.biUnion rowSet := (View.set_whole _).trans rowSet_cover.symm
  exact join16 (ℓ := gsc3M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split3 (c : Dev nD) (f : Buf (Elt F) (gsc3M.view.loc (c : Thread nD τ))) :
    (gsc3M.view.loc (c : Thread nD τ) ↦[gsc3M.view.set]{fullShare} f : sProp 𝕄)
      ⊢ iprop((gsc3M.view.loc (c : Thread nD τ) ↦[gr3_0M.view.set]{fullShare} f)
        ∗ (gsc3M.view.loc (c : Thread nD τ) ↦[gr3_1M.view.set]{fullShare} f)
        ∗ (gsc3M.view.loc (c : Thread nD τ) ↦[gr3_2M.view.set]{fullShare} f)
        ∗ (gsc3M.view.loc (c : Thread nD τ) ↦[gr3_3M.view.set]{fullShare} f)
        ∗ (gsc3M.view.loc (c : Thread nD τ) ↦[gr3_4M.view.set]{fullShare} f)
        ∗ (gsc3M.view.loc (c : Thread nD τ) ↦[gr3_5M.view.set]{fullShare} f)
        ∗ (gsc3M.view.loc (c : Thread nD τ) ↦[gr3_6M.view.set]{fullShare} f)
        ∗ (gsc3M.view.loc (c : Thread nD τ) ↦[gr3_7M.view.set]{fullShare} f)
        ∗ (gsc3M.view.loc (c : Thread nD τ) ↦[gr3_8M.view.set]{fullShare} f)
        ∗ (gsc3M.view.loc (c : Thread nD τ) ↦[gr3_9M.view.set]{fullShare} f)
        ∗ (gsc3M.view.loc (c : Thread nD τ) ↦[gr3_10M.view.set]{fullShare} f)
        ∗ (gsc3M.view.loc (c : Thread nD τ) ↦[gr3_11M.view.set]{fullShare} f)
        ∗ (gsc3M.view.loc (c : Thread nD τ) ↦[gr3_12M.view.set]{fullShare} f)
        ∗ (gsc3M.view.loc (c : Thread nD τ) ↦[gr3_13M.view.set]{fullShare} f)
        ∗ (gsc3M.view.loc (c : Thread nD τ) ↦[gr3_14M.view.set]{fullShare} f)
        ∗ (gsc3M.view.loc (c : Thread nD τ) ↦[gr3_15M.view.set]{fullShare} f)) := by
  have hw : gsc3M.view.set = Finset.univ.biUnion rowSet := (View.set_whole _).trans rowSet_cover.symm
  exact split16 (ℓ := gsc3M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows3.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin3
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 3's chunk of the edge-source table in scalar memory, whole. -/
abbrev ghb3M : Memref sig .tc .hbm S50000x1x128 .f32 := Memref.whole main_v0
abbrev gtb3M : Memref sig .tc .smem S64000 .i32 := Memref.whole main_v7

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc3M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb3M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed3 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb3M.view.loc (c : Thread nD τ))) (fs g : Buf (Elt F) (gsc3M.view.loc (c : Thread nD τ)))
    (hg : ∀ i ∈ ((gsc3M.slice (Rect.unit (s := S16x1x128) ![j, 0, 0] S1x1x128.size inb) (fun _ => rfl)).squeeze S1x128 squeezes_S1x1x128_S1x128).view.set,
        g i = ((gsc3M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb3M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc3M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb3M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load3 (c : Dev nD) (g : Buf (Elt F) (gsc3M.view.loc (c : Thread nD τ))) (y : S16x1x128.Idx) :
    View.readAt (Elt F) gsc3M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word3 (pf : S64000.Idx → Elt F .i32) (off : Fin 1 → ℕ) (inb : ∀ a, off a + S1.size a ≤ S64000.size a)
    (n : ℕ) (hn : n < 64000) (hoff : off 0 = n) :
    View.readAt (Elt F) gtb3M.view (Rect.unit (s := S64000) off S1.size inb).toLoadRect
        ((Memref.isWhole_whole _ : gtb3M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs3 (i : grid3.Coords) :
    (k3_off1 i) 0 = 16 * (i 0).val + 0
    ∧ (k3_off3 i) 0 = 16 * (i 0).val + 1
    ∧ (k3_off5 i) 0 = 16 * (i 0).val + 2
    ∧ (k3_off7 i) 0 = 16 * (i 0).val + 3
    ∧ (k3_off9 i) 0 = 16 * (i 0).val + 4
    ∧ (k3_off11 i) 0 = 16 * (i 0).val + 5
    ∧ (k3_off13 i) 0 = 16 * (i 0).val + 6
    ∧ (k3_off15 i) 0 = 16 * (i 0).val + 7
    ∧ (k3_off17 i) 0 = 16 * (i 0).val + 8
    ∧ (k3_off19 i) 0 = 16 * (i 0).val + 9
    ∧ (k3_off21 i) 0 = 16 * (i 0).val + 10
    ∧ (k3_off23 i) 0 = 16 * (i 0).val + 11
    ∧ (k3_off25 i) 0 = 16 * (i 0).val + 12
    ∧ (k3_off27 i) 0 = 16 * (i 0).val + 13
    ∧ (k3_off29 i) 0 = 16 * (i 0).val + 14
    ∧ (k3_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun3.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows3
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 3's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run3 (c : Dev nD) (i : grid3.Coords) (arg3 : Memref sig .tc .vmem S16x1x128 .f32) (harg3 : arg3.IsWhole)
    (pf : S64000.Idx → Elt F .i32) (tb : Buf (Elt F) (ghb3M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc3M.view.loc (c : Thread nD τ) ↦[gsc3M.view.set]{fullShare} f)
        ∗ owns (c : Thread nD τ) gtb3M fullShare pf
        ∗ (ghb3M.view.loc (c : Thread nD τ) ↦{fullShare} tb)
        ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0
        ∗ owes (c : Thread nD τ) 0 W
        ∗ (iprop(owns (c : Thread nD τ) arg3 fullShare (gblock tb pf (i 0).val)
            ∗ (∃ f, gsc3M.view.loc (c : Thread nD τ) ↦[gsc3M.view.set]{fullShare} f)
            ∗ owns (c : Thread nD τ) gtb3M fullShare pf
            ∗ (ghb3M.view.loc (c : Thread nD τ) ↦{fullShare} tb)
            ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0
            ∗ (∃ W', owes (c : Thread nD τ) 0 W')) -∗ K ⟨⟩))
      ⊢ wp frame (wpE (defs₀ (F := F)) Variants.none c none) Set.univ
          (cc3__gather_kernel i gtb3M (Memref.isWhole_whole _) ghb3M (Memref.isWhole_whole _) arg3 harg3 gsc3M (Memref.isWhole_whole _) cc3_scratch1) K := by
  have hi : (i 0).val < 4000 := (i 0).isLt
  have hoffs := table_offs3 i
  have hword0 : (View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))) = pf (ValueIdx.ix1 (⟨16 * (i 0).val + 0, by omega⟩ : Fin 64000)) :=
    table_word3 pf _ _ _ (by omega) hoffs.1
  have hlt0 : (View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))).toNat < 50000 := by rw [hword0]; exact hok _
  have hw1 : k3_chk1 (View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))) := ⟨chk_lt _ hlt0, chk_lt _ hlt0⟩
  have hword1 : (View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))) = pf (ValueIdx.ix1 (⟨16 * (i 0).val + 1, by omega⟩ : Fin 64000)) :=
    table_word3 pf _ _ _ (by omega) hoffs.2.1
  have hlt1 : (View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))).toNat < 50000 := by rw [hword1]; exact hok _
  have hw2 : k3_chk2 (View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))) := ⟨chk_lt _ hlt1, chk_lt _ hlt1⟩
  have hword2 : (View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))) = pf (ValueIdx.ix1 (⟨16 * (i 0).val + 2, by omega⟩ : Fin 64000)) :=
    table_word3 pf _ _ _ (by omega) hoffs.2.2.1
  have hlt2 : (View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))).toNat < 50000 := by rw [hword2]; exact hok _
  have hw3 : k3_chk3 (View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))) := ⟨chk_lt _ hlt2, chk_lt _ hlt2⟩
  have hword3 : (View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))) = pf (ValueIdx.ix1 (⟨16 * (i 0).val + 3, by omega⟩ : Fin 64000)) :=
    table_word3 pf _ _ _ (by omega) hoffs.2.2.2.1
  have hlt3 : (View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))).toNat < 50000 := by rw [hword3]; exact hok _
  have hw4 : k3_chk4 (View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))) := ⟨chk_lt _ hlt3, chk_lt _ hlt3⟩
  have hword4 : (View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))) = pf (ValueIdx.ix1 (⟨16 * (i 0).val + 4, by omega⟩ : Fin 64000)) :=
    table_word3 pf _ _ _ (by omega) hoffs.2.2.2.2.1
  have hlt4 : (View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))).toNat < 50000 := by rw [hword4]; exact hok _
  have hw5 : k3_chk5 (View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))) := ⟨chk_lt _ hlt4, chk_lt _ hlt4⟩
  have hword5 : (View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))) = pf (ValueIdx.ix1 (⟨16 * (i 0).val + 5, by omega⟩ : Fin 64000)) :=
    table_word3 pf _ _ _ (by omega) hoffs.2.2.2.2.2.1
  have hlt5 : (View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))).toNat < 50000 := by rw [hword5]; exact hok _
  have hw6 : k3_chk6 (View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))) := ⟨chk_lt _ hlt5, chk_lt _ hlt5⟩
  have hword6 : (View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))) = pf (ValueIdx.ix1 (⟨16 * (i 0).val + 6, by omega⟩ : Fin 64000)) :=
    table_word3 pf _ _ _ (by omega) hoffs.2.2.2.2.2.2.1
  have hlt6 : (View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))).toNat < 50000 := by rw [hword6]; exact hok _
  have hw7 : k3_chk7 (View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))) := ⟨chk_lt _ hlt6, chk_lt _ hlt6⟩
  have hword7 : (View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))) = pf (ValueIdx.ix1 (⟨16 * (i 0).val + 7, by omega⟩ : Fin 64000)) :=
    table_word3 pf _ _ _ (by omega) hoffs.2.2.2.2.2.2.2.1
  have hlt7 : (View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))).toNat < 50000 := by rw [hword7]; exact hok _
  have hw8 : k3_chk8 (View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))) := ⟨chk_lt _ hlt7, chk_lt _ hlt7⟩
  have hword8 : (View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))) = pf (ValueIdx.ix1 (⟨16 * (i 0).val + 8, by omega⟩ : Fin 64000)) :=
    table_word3 pf _ _ _ (by omega) hoffs.2.2.2.2.2.2.2.2.1
  have hlt8 : (View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))).toNat < 50000 := by rw [hword8]; exact hok _
  have hw9 : k3_chk9 (View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))) := ⟨chk_lt _ hlt8, chk_lt _ hlt8⟩
  have hword9 : (View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))) = pf (ValueIdx.ix1 (⟨16 * (i 0).val + 9, by omega⟩ : Fin 64000)) :=
    table_word3 pf _ _ _ (by omega) hoffs.2.2.2.2.2.2.2.2.2.1
  have hlt9 : (View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))).toNat < 50000 := by rw [hword9]; exact hok _
  have hw10 : k3_chk10 (View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))) := ⟨chk_lt _ hlt9, chk_lt _ hlt9⟩
  have hword10 : (View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))) = pf (ValueIdx.ix1 (⟨16 * (i 0).val + 10, by omega⟩ : Fin 64000)) :=
    table_word3 pf _ _ _ (by omega) hoffs.2.2.2.2.2.2.2.2.2.2.1
  have hlt10 : (View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))).toNat < 50000 := by rw [hword10]; exact hok _
  have hw11 : k3_chk11 (View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))) := ⟨chk_lt _ hlt10, chk_lt _ hlt10⟩
  have hword11 : (View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))) = pf (ValueIdx.ix1 (⟨16 * (i 0).val + 11, by omega⟩ : Fin 64000)) :=
    table_word3 pf _ _ _ (by omega) hoffs.2.2.2.2.2.2.2.2.2.2.2.1
  have hlt11 : (View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))).toNat < 50000 := by rw [hword11]; exact hok _
  have hw12 : k3_chk12 (View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))) := ⟨chk_lt _ hlt11, chk_lt _ hlt11⟩
  have hword12 : (View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))) = pf (ValueIdx.ix1 (⟨16 * (i 0).val + 12, by omega⟩ : Fin 64000)) :=
    table_word3 pf _ _ _ (by omega) hoffs.2.2.2.2.2.2.2.2.2.2.2.2.1
  have hlt12 : (View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))).toNat < 50000 := by rw [hword12]; exact hok _
  have hw13 : k3_chk13 (View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))) := ⟨chk_lt _ hlt12, chk_lt _ hlt12⟩
  have hword13 : (View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))) = pf (ValueIdx.ix1 (⟨16 * (i 0).val + 13, by omega⟩ : Fin 64000)) :=
    table_word3 pf _ _ _ (by omega) hoffs.2.2.2.2.2.2.2.2.2.2.2.2.2.1
  have hlt13 : (View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))).toNat < 50000 := by rw [hword13]; exact hok _
  have hw14 : k3_chk14 (View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))) := ⟨chk_lt _ hlt13, chk_lt _ hlt13⟩
  have hword14 : (View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))) = pf (ValueIdx.ix1 (⟨16 * (i 0).val + 14, by omega⟩ : Fin 64000)) :=
    table_word3 pf _ _ _ (by omega) hoffs.2.2.2.2.2.2.2.2.2.2.2.2.2.2.1
  have hlt14 : (View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))).toNat < 50000 := by rw [hword14]; exact hok _
  have hw15 : k3_chk15 (View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))) := ⟨chk_lt _ hlt14, chk_lt _ hlt14⟩
  have hword15 : (View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))) = pf (ValueIdx.ix1 (⟨16 * (i 0).val + 15, by omega⟩ : Fin 64000)) :=
    table_word3 pf _ _ _ (by omega) hoffs.2.2.2.2.2.2.2.2.2.2.2.2.2.2.2
  have hlt15 : (View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))).toNat < 50000 := by rw [hword15]; exact hok _
  have hw16 : k3_chk16 (View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))) := chk_lt _ hlt15
  rw [cc3__gather_kernel_eq_skeleton]; unfold cc3__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb3M).IsWhole).eq_unread hfp
  ihave HR := (rows_split3 (F := F) c fsc) $$ HSC
  icases HR with ⟨HS0, HS1, HS2, HS3, HS4, HS5, HS6, HS7, HS8, HS9, HS10, HS11, HS12, HS13, HS14, HS15⟩
  ihave HS0 := (Entails.of_eq (show ((gsc3M.view.loc (c : Thread nD τ) ↦[gr3_0M.view.set]{fullShare} fsc : sProp 𝕄)) = (gr3_0M.view.loc (c : Thread nD τ) ↦[gr3_0M.view.set]{fullShare} fsc) from rfl)) $$ HS0
  ihave HS1 := (Entails.of_eq (show ((gsc3M.view.loc (c : Thread nD τ) ↦[gr3_1M.view.set]{fullShare} fsc : sProp 𝕄)) = (gr3_1M.view.loc (c : Thread nD τ) ↦[gr3_1M.view.set]{fullShare} fsc) from rfl)) $$ HS1
  ihave HS2 := (Entails.of_eq (show ((gsc3M.view.loc (c : Thread nD τ) ↦[gr3_2M.view.set]{fullShare} fsc : sProp 𝕄)) = (gr3_2M.view.loc (c : Thread nD τ) ↦[gr3_2M.view.set]{fullShare} fsc) from rfl)) $$ HS2
  ihave HS3 := (Entails.of_eq (show ((gsc3M.view.loc (c : Thread nD τ) ↦[gr3_3M.view.set]{fullShare} fsc : sProp 𝕄)) = (gr3_3M.view.loc (c : Thread nD τ) ↦[gr3_3M.view.set]{fullShare} fsc) from rfl)) $$ HS3
  ihave HS4 := (Entails.of_eq (show ((gsc3M.view.loc (c : Thread nD τ) ↦[gr3_4M.view.set]{fullShare} fsc : sProp 𝕄)) = (gr3_4M.view.loc (c : Thread nD τ) ↦[gr3_4M.view.set]{fullShare} fsc) from rfl)) $$ HS4
  ihave HS5 := (Entails.of_eq (show ((gsc3M.view.loc (c : Thread nD τ) ↦[gr3_5M.view.set]{fullShare} fsc : sProp 𝕄)) = (gr3_5M.view.loc (c : Thread nD τ) ↦[gr3_5M.view.set]{fullShare} fsc) from rfl)) $$ HS5
  ihave HS6 := (Entails.of_eq (show ((gsc3M.view.loc (c : Thread nD τ) ↦[gr3_6M.view.set]{fullShare} fsc : sProp 𝕄)) = (gr3_6M.view.loc (c : Thread nD τ) ↦[gr3_6M.view.set]{fullShare} fsc) from rfl)) $$ HS6
  ihave HS7 := (Entails.of_eq (show ((gsc3M.view.loc (c : Thread nD τ) ↦[gr3_7M.view.set]{fullShare} fsc : sProp 𝕄)) = (gr3_7M.view.loc (c : Thread nD τ) ↦[gr3_7M.view.set]{fullShare} fsc) from rfl)) $$ HS7
  ihave HS8 := (Entails.of_eq (show ((gsc3M.view.loc (c : Thread nD τ) ↦[gr3_8M.view.set]{fullShare} fsc : sProp 𝕄)) = (gr3_8M.view.loc (c : Thread nD τ) ↦[gr3_8M.view.set]{fullShare} fsc) from rfl)) $$ HS8
  ihave HS9 := (Entails.of_eq (show ((gsc3M.view.loc (c : Thread nD τ) ↦[gr3_9M.view.set]{fullShare} fsc : sProp 𝕄)) = (gr3_9M.view.loc (c : Thread nD τ) ↦[gr3_9M.view.set]{fullShare} fsc) from rfl)) $$ HS9
  ihave HS10 := (Entails.of_eq (show ((gsc3M.view.loc (c : Thread nD τ) ↦[gr3_10M.view.set]{fullShare} fsc : sProp 𝕄)) = (gr3_10M.view.loc (c : Thread nD τ) ↦[gr3_10M.view.set]{fullShare} fsc) from rfl)) $$ HS10
  ihave HS11 := (Entails.of_eq (show ((gsc3M.view.loc (c : Thread nD τ) ↦[gr3_11M.view.set]{fullShare} fsc : sProp 𝕄)) = (gr3_11M.view.loc (c : Thread nD τ) ↦[gr3_11M.view.set]{fullShare} fsc) from rfl)) $$ HS11
  ihave HS12 := (Entails.of_eq (show ((gsc3M.view.loc (c : Thread nD τ) ↦[gr3_12M.view.set]{fullShare} fsc : sProp 𝕄)) = (gr3_12M.view.loc (c : Thread nD τ) ↦[gr3_12M.view.set]{fullShare} fsc) from rfl)) $$ HS12
  ihave HS13 := (Entails.of_eq (show ((gsc3M.view.loc (c : Thread nD τ) ↦[gr3_13M.view.set]{fullShare} fsc : sProp 𝕄)) = (gr3_13M.view.loc (c : Thread nD τ) ↦[gr3_13M.view.set]{fullShare} fsc) from rfl)) $$ HS13
  ihave HS14 := (Entails.of_eq (show ((gsc3M.view.loc (c : Thread nD τ) ↦[gr3_14M.view.set]{fullShare} fsc : sProp 𝕄)) = (gr3_14M.view.loc (c : Thread nD τ) ↦[gr3_14M.view.set]{fullShare} fsc) from rfl)) $$ HS14
  ihave HS15 := (Entails.of_eq (show ((gsc3M.view.loc (c : Thread nD τ) ↦[gr3_15M.view.set]{fullShare} fsc : sProp 𝕄)) = (gr3_15M.view.loc (c : Thread nD τ) ↦[gr3_15M.view.set]{fullShare} fsc) from rfl)) $$ HS15
  ihave HB := (split16 (ℓ := ghb3M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join3 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb3M.view (Rect.unit (s := S64000) (k3_off1 i) S1.size (k3_off1_inb i)).toLoadRect ((Memref.isWhole_whole _ : gtb3M.IsWhole).unread pf) (Shape.Idx.first (numel1_S1.symm ▸ Nat.one_pos))).toNat, hlt0⟩ : Fin 50000) (0 : Fin 1) l) :=
    row_landed3 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb3M.view (Rect.unit (s := S64000) (k3_off3 i) S1.size (k3_off3_inb i)).toLoadRect ((Memref.isWhole_whole _ : gtb3M.IsWhole).unread pf) (Shape.Idx.first (numel1_S1.symm ▸ Nat.one_pos))).toNat, hlt1⟩ : Fin 50000) (0 : Fin 1) l) :=
    row_landed3 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb3M.view (Rect.unit (s := S64000) (k3_off5 i) S1.size (k3_off5_inb i)).toLoadRect ((Memref.isWhole_whole _ : gtb3M.IsWhole).unread pf) (Shape.Idx.first (numel1_S1.symm ▸ Nat.one_pos))).toNat, hlt2⟩ : Fin 50000) (0 : Fin 1) l) :=
    row_landed3 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb3M.view (Rect.unit (s := S64000) (k3_off7 i) S1.size (k3_off7_inb i)).toLoadRect ((Memref.isWhole_whole _ : gtb3M.IsWhole).unread pf) (Shape.Idx.first (numel1_S1.symm ▸ Nat.one_pos))).toNat, hlt3⟩ : Fin 50000) (0 : Fin 1) l) :=
    row_landed3 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb3M.view (Rect.unit (s := S64000) (k3_off9 i) S1.size (k3_off9_inb i)).toLoadRect ((Memref.isWhole_whole _ : gtb3M.IsWhole).unread pf) (Shape.Idx.first (numel1_S1.symm ▸ Nat.one_pos))).toNat, hlt4⟩ : Fin 50000) (0 : Fin 1) l) :=
    row_landed3 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb3M.view (Rect.unit (s := S64000) (k3_off11 i) S1.size (k3_off11_inb i)).toLoadRect ((Memref.isWhole_whole _ : gtb3M.IsWhole).unread pf) (Shape.Idx.first (numel1_S1.symm ▸ Nat.one_pos))).toNat, hlt5⟩ : Fin 50000) (0 : Fin 1) l) :=
    row_landed3 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb3M.view (Rect.unit (s := S64000) (k3_off13 i) S1.size (k3_off13_inb i)).toLoadRect ((Memref.isWhole_whole _ : gtb3M.IsWhole).unread pf) (Shape.Idx.first (numel1_S1.symm ▸ Nat.one_pos))).toNat, hlt6⟩ : Fin 50000) (0 : Fin 1) l) :=
    row_landed3 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb3M.view (Rect.unit (s := S64000) (k3_off15 i) S1.size (k3_off15_inb i)).toLoadRect ((Memref.isWhole_whole _ : gtb3M.IsWhole).unread pf) (Shape.Idx.first (numel1_S1.symm ▸ Nat.one_pos))).toNat, hlt7⟩ : Fin 50000) (0 : Fin 1) l) :=
    row_landed3 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb3M.view (Rect.unit (s := S64000) (k3_off17 i) S1.size (k3_off17_inb i)).toLoadRect ((Memref.isWhole_whole _ : gtb3M.IsWhole).unread pf) (Shape.Idx.first (numel1_S1.symm ▸ Nat.one_pos))).toNat, hlt8⟩ : Fin 50000) (0 : Fin 1) l) :=
    row_landed3 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb3M.view (Rect.unit (s := S64000) (k3_off19 i) S1.size (k3_off19_inb i)).toLoadRect ((Memref.isWhole_whole _ : gtb3M.IsWhole).unread pf) (Shape.Idx.first (numel1_S1.symm ▸ Nat.one_pos))).toNat, hlt9⟩ : Fin 50000) (0 : Fin 1) l) :=
    row_landed3 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb3M.view (Rect.unit (s := S64000) (k3_off21 i) S1.size (k3_off21_inb i)).toLoadRect ((Memref.isWhole_whole _ : gtb3M.IsWhole).unread pf) (Shape.Idx.first (numel1_S1.symm ▸ Nat.one_pos))).toNat, hlt10⟩ : Fin 50000) (0 : Fin 1) l) :=
    row_landed3 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb3M.view (Rect.unit (s := S64000) (k3_off23 i) S1.size (k3_off23_inb i)).toLoadRect ((Memref.isWhole_whole _ : gtb3M.IsWhole).unread pf) (Shape.Idx.first (numel1_S1.symm ▸ Nat.one_pos))).toNat, hlt11⟩ : Fin 50000) (0 : Fin 1) l) :=
    row_landed3 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb3M.view (Rect.unit (s := S64000) (k3_off25 i) S1.size (k3_off25_inb i)).toLoadRect ((Memref.isWhole_whole _ : gtb3M.IsWhole).unread pf) (Shape.Idx.first (numel1_S1.symm ▸ Nat.one_pos))).toNat, hlt12⟩ : Fin 50000) (0 : Fin 1) l) :=
    row_landed3 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb3M.view (Rect.unit (s := S64000) (k3_off27 i) S1.size (k3_off27_inb i)).toLoadRect ((Memref.isWhole_whole _ : gtb3M.IsWhole).unread pf) (Shape.Idx.first (numel1_S1.symm ▸ Nat.one_pos))).toNat, hlt13⟩ : Fin 50000) (0 : Fin 1) l) :=
    row_landed3 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb3M.view (Rect.unit (s := S64000) (k3_off29 i) S1.size (k3_off29_inb i)).toLoadRect ((Memref.isWhole_whole _ : gtb3M.IsWhole).unread pf) (Shape.Idx.first (numel1_S1.symm ▸ Nat.one_pos))).toNat, hlt14⟩ : Fin 50000) (0 : Fin 1) l) :=
    row_landed3 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb3M.view (Rect.unit (s := S64000) (k3_off31 i) S1.size (k3_off31_inb i)).toLoadRect ((Memref.isWhole_whole _ : gtb3M.IsWhole).unread pf) (Shape.Idx.first (numel1_S1.symm ▸ Nat.one_pos))).toNat, hlt15⟩ : Fin 50000) (0 : Fin 1) l) :=
    row_landed3 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load3]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb3M).IsWhole).read_unread _
  isplitl [Hh0 Hh1 Hh2 Hh3 Hh4 Hh5 Hh6 Hh7 Hh8 Hh9 Hh10 Hh11 Hh12 Hh13 Hh14 Hh15]
  · iapply (join16 (ℓ := ghb3M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather3.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 3's own DMA semaphores: one per row of the step. -/
abbrev gsem3 : Fin 16 → SemLoc sig := fun j =>
  (![SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71] : Fin 16 → SemLoc sig) j
theorem gsemFacts3 : Pipeline.OwnSemFacts spec3 gsem3 := by decide

/-- The buffers the body reads without a window: the node table in HBM and its chunk of the edge-source table. -/
def gH3 : Finset (Ref sig .tc) := {main_v0, main_v7}
theorem gH3_sub : gH3 ⊆ Pipeline.restRefs sig spec3 := by decide

/-- The call's prefetched table at the contents the region finds. -/
def gadm3 (c : Dev nD) : (pcfg3 (F := F)).Adm := ⟨fun k => match k with | ⟨0, _⟩ => V c main_v7, trivial⟩

/-- The proof data of gather call 3 on core `c`: the output array as found; after step `t` the output block holds
    the gathered rows; the invariant carries the scratch, the call's semaphores at zero and the two tables as found. -/
def gdat3 (a : (pcfg3 (F := F)).Adm) (c : Dev nD) : Dat τ (Elt F) Unit ℕ (Pipeline.UD sig nD τ) ℕ (cfg3 a) c where
  A w := V c (Pipeline.arrRef spec3 w)
  after w t := match w with
    | ⟨0, _⟩ => gblock (V c main_v0) (V c main_v7) t.val
  Φ _ := Pipeline.ΦD gsem3 spec3 gH3 V c
  q _ := fullShare
  owed _ := 0

theorem gdat3_A (a : (pcfg3 (F := F)).Adm) (c : Dev nD) (w : Fin (cfg3 a).W) :
    (gdat3 V a c).A w = V c (Pipeline.arrRef spec3 w) := by dsimp only [gdat3]
theorem gdat3_after (a : (pcfg3 (F := F)).Adm) (c : Dev nD) (t : Fin (cfg3 a).N) :
    (gdat3 V a c).after 0 t = gblock (V c main_v0) (V c main_v7) t.val := rfl

/-! ## The body obligation, from the body's run -/

/-- The call's scratch buffer whole at some contents, said of the buffer and said through the whole-buffer memref. -/
theorem gsc3_whole (c : Dev nD) :
    (iprop(∃ f, gsc3M.view.loc (c : Thread nD τ) ↦[gsc3M.view.set]{fullShare} f) : sProp 𝕄)
      = iprop(∃ f : Buf (Elt F) ((c : Thread nD τ).loc cc3_scratch0), ((c : Thread nD τ).loc cc3_scratch0) ↦{fullShare} f) := by
  simp only [gsc3M, Memref.view_whole, View.set_whole]

/-- The region invariant of gather call 3, conjunct by conjunct: the call's scratch buffer whole at some contents beside
    the scoped buffers it does not touch, the generator register at some state, its sixteen semaphores at zero, and
    the two tables whole at the contents the region finds. -/
theorem PhiD3_eq (c : Dev nD) :
    (Pipeline.ΦD gsem3 spec3 gH3 V c : sProp 𝕄)
      = iprop(iprop((∃ f, gsc3M.view.loc (c : Thread nD τ) ↦[gsc3M.view.set]{fullShare} f)
            ∗ Pipeline.scopedRestBut (Ix := Unit) (Name := ℕ) (U := Pipeline.UD sig nD τ) (Lvl := ℕ) (Val := Elt F) spec3 c [cc3_scratch0])
          ∗ (∃ r, prngReg c r)
          ∗ iprop(semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0)
          ∗ iprop((ghb3M.view.loc (c : Thread nD τ) ↦{fullShare} V c main_v0) ∗ owns (c : Thread nD τ) gtb3M fullShare (V c main_v7))) := by
  rw [gsc3_whole, owns_whole, Pipeline.ΦD_eq, scopedRest3_split,
    Pipeline.ownSems0_eq_of_list c gsem3 [0, 1, 2, 3, 4, 5, 6, 7, 8, 9, 10, 11, 12, 13, 14, 15] (by decide) (by decide),
    BI.bigSep_eq_bigSepL_of_eq [main_v0, main_v7] (by decide) (by decide)]
  rfl

/-- The kernel body of gather call 3 as the pipeline calls it at point `t`: the step's coordinates, the two tables whole,
    the output window's current staging buffer, the scratch buffer and the sixteen semaphores. -/
abbrev gbodyAt3 (a : (pcfg3 (F := F)).Adm) (t : Fin (cfg3 a).N) : Prog (TpuEff nD τ sig (Elt F) Λ₀ .tc) PUnit :=
  cc3__gather_kernel ((cfg3 a).grid.coords t) gtb3M (Memref.isWhole_whole _) ghb3M (Memref.isWhole_whole _)
    (spec3_0.stage ((cfg3 a).slots t 0)) (hstage3_0 (((cfg3 a).slots t 0).cast nbuf3_0)) gsc3M (Memref.isWhole_whole _) cc3_scratch1

/-- The grid is one axis of 4000 steps: the step's one coordinate is its number. -/
theorem gcoord3 (a : (pcfg3 (F := F)).Adm) (t : Fin (cfg3 a).N) : (((cfg3 a).grid.coords t) 0).val = t.val := by
  have ht : t.val < 4000 := lt_of_lt_of_eq t.isLt N_3
  show t.val / 1 % 4000 = t.val
  omega

/-- What the body is called with at point `t`: the invariant, the core's `owes`, the output window's current staging
    buffer at whatever it holds, -/
def gbodyPre3 (a : (pcfg3 (F := F)).Adm) (c : Dev nD) (t : Fin (cfg3 a).N) : sProp 𝕄 :=
  iprop((gdat3 V a c).Φ t.castSucc ∗ (gdat3 V a c).owesAt () t.castSucc
    ∗ (∃ d, owns (c : Thread nD τ) (spec3_0.stage ((cfg3 a).slots t 0)) fullShare ((gdat3 V a c).before 0 t d)))

/-- and what it returns: the invariant, `owes`, the staging buffer at the step's gathered rows. -/
def gbodyPost3 (a : (pcfg3 (F := F)).Adm) (c : Dev nD) (t : Fin (cfg3 a).N) : sProp 𝕄 :=
  iprop((gdat3 V a c).Φ t.succ ∗ (gdat3 V a c).owesAt () t.succ
    ∗ owns (c : Thread nD τ) (spec3_0.stage ((cfg3 a).slots t 0)) fullShare ((gdat3 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body3 (a : (pcfg3 (F := F)).Adm) (c : Dev nD)
    (hok : ∀ e : S64000.Idx, (V c main_v7 e).toNat < 50000) (t : Fin (cfg3 a).N) :
    gbodyPre3 V a c t ⊢ wp frame (wpE (defs₀ (F := F)) Variants.none c none) Set.univ (gbodyAt3 a t) (fun _ => gbodyPost3 V a c t) := by
  unfold gbodyPre3 gbodyPost3 gbodyAt3
  rw [show (gdat3 V a c).Φ t.succ = Pipeline.ΦD gsem3 spec3 gH3 V c from rfl,
    show (gdat3 V a c).Φ t.castSucc = Pipeline.ΦD gsem3 spec3 gH3 V c from rfl, gdat3_after, PhiD3_eq]
  unfold Dat.owesAt Pipeline.owesWithin
  rw [show (gdat3 V a c).owed t.castSucc = 0 from rfl, show (gdat3 V a c).owed t.succ = 0 from rfl]
  have hrun := fun W K => gather_run3 (F := F) c ((cfg3 a).grid.coords t) (spec3_0.stage ((cfg3 a).slots t 0))
    (hstage3_0 (((cfg3 a).slots t 0).cast nbuf3_0)) (V c main_v7) (V c main_v0) hok W K
  rw [gcoord3 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 3, when every word of its table names a row of the node table. -/
theorem gather_obligation3 (a : (pcfg3 (F := F)).Adm) (c : Dev nD)
    (hok : ∀ e : S64000.Idx, (V c main_v7 e).toNat < 50000) :
    BodyObligation (gdat3 (F := F) V a c) (defs₀ (F := F)) Variants.none () Set.univ := fun t => by
  rw [bigSep_W3, bigSep_W3]
  exact gsound_body3 V a c hok t

end

end Cert.Kernel.Hand

end
-- ==== Proof.KRowsJoin4.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 4's scratch buffer, whole, and its sixteen rows as the body addresses them. -/
abbrev gsc4M : Memref sig .tc .vmem S16x1x128 .f32 := Memref.whole cc4_scratch0
abbrev gr4_0M : Memref sig .tc .vmem S1x128 .f32 := ((Memref.whole cc4_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr4_1M : Memref sig .tc .vmem S1x128 .f32 := ((Memref.whole cc4_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr4_2M : Memref sig .tc .vmem S1x128 .f32 := ((Memref.whole cc4_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr4_3M : Memref sig .tc .vmem S1x128 .f32 := ((Memref.whole cc4_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr4_4M : Memref sig .tc .vmem S1x128 .f32 := ((Memref.whole cc4_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr4_5M : Memref sig .tc .vmem S1x128 .f32 := ((Memref.whole cc4_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr4_6M : Memref sig .tc .vmem S1x128 .f32 := ((Memref.whole cc4_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr4_7M : Memref sig .tc .vmem S1x128 .f32 := ((Memref.whole cc4_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr4_8M : Memref sig .tc .vmem S1x128 .f32 := ((Memref.whole cc4_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr4_9M : Memref sig .tc .vmem S1x128 .f32 := ((Memref.whole cc4_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr4_10M : Memref sig .tc .vmem S1x128 .f32 := ((Memref.whole cc4_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr4_11M : Memref sig .tc .vmem S1x128 .f32 := ((Memref.whole cc4_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr4_12M : Memref sig .tc .vmem S1x128 .f32 := ((Memref.whole cc4_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr4_13M : Memref sig .tc .vmem S1x128 .f32 := ((Memref.whole cc4_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr4_14M : Memref sig .tc .vmem S1x128 .f32 := ((Memref.whole cc4_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr4_15M : Memref sig .tc .vmem S1x128 .f32 := ((Memref.whole cc4_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr4_0M.view.set = rowSet (0 : Fin 16) := by
  refine (View.set_reshape _ _).trans ?_
  refine (View.set_slice_whole _ _).trans ?_
  rfl
private theorem row_set_1 : gr4_1M.view.set = rowSet (1 : Fin 16) := by
  refine (View.set_reshape _ _).trans ?_
  refine (View.set_slice_whole _ _).trans ?_
  rfl
private theorem row_set_2 : gr4_2M.view.set = rowSet (2 : Fin 16) := by
  refine (View.set_reshape _ _).trans ?_
  refine (View.set_slice_whole _ _).trans ?_
  rfl
private theorem row_set_3 : gr4_3M.view.set = rowSet (3 : Fin 16) := by
  refine (View.set_reshape _ _).trans ?_
  refine (View.set_slice_whole _ _).trans ?_
  rfl
private theorem row_set_4 : gr4_4M.view.set = rowSet (4 : Fin 16) := by
  refine (View.set_reshape _ _).trans ?_
  refine (View.set_slice_whole _ _).trans ?_
  rfl
private theorem row_set_5 : gr4_5M.view.set = rowSet (5 : Fin 16) := by
  refine (View.set_reshape _ _).trans ?_
  refine (View.set_slice_whole _ _).trans ?_
  rfl
private theorem row_set_6 : gr4_6M.view.set = rowSet (6 : Fin 16) := by
  refine (View.set_reshape _ _).trans ?_
  refine (View.set_slice_whole _ _).trans ?_
  rfl
private theorem row_set_7 : gr4_7M.view.set = rowSet (7 : Fin 16) := by
  refine (View.set_reshape _ _).trans ?_
  refine (View.set_slice_whole _ _).trans ?_
  rfl
private theorem row_set_8 : gr4_8M.view.set = rowSet (8 : Fin 16) := by
  refine (View.set_reshape _ _).trans ?_
  refine (View.set_slice_whole _ _).trans ?_
  rfl
private theorem row_set_9 : gr4_9M.view.set = rowSet (9 : Fin 16) := by
  refine (View.set_reshape _ _).trans ?_
  refine (View.set_slice_whole _ _).trans ?_
  rfl
private theorem row_set_10 : gr4_10M.view.set = rowSet (10 : Fin 16) := by
  refine (View.set_reshape _ _).trans ?_
  refine (View.set_slice_whole _ _).trans ?_
  rfl
private theorem row_set_11 : gr4_11M.view.set = rowSet (11 : Fin 16) := by
  refine (View.set_reshape _ _).trans ?_
  refine (View.set_slice_whole _ _).trans ?_
  rfl
private theorem row_set_12 : gr4_12M.view.set = rowSet (12 : Fin 16) := by
  refine (View.set_reshape _ _).trans ?_
  refine (View.set_slice_whole _ _).trans ?_
  rfl
private theorem row_set_13 : gr4_13M.view.set = rowSet (13 : Fin 16) := by
  refine (View.set_reshape _ _).trans ?_
  refine (View.set_slice_whole _ _).trans ?_
  rfl
private theorem row_set_14 : gr4_14M.view.set = rowSet (14 : Fin 16) := by
  refine (View.set_reshape _ _).trans ?_
  refine (View.set_slice_whole _ _).trans ?_
  rfl
private theorem row_set_15 : gr4_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join4 (c : Dev nD) (f0 f1 f2 f3 f4 f5 f6 f7 f8 f9 f10 f11 f12 f13 f14 f15 : Buf (Elt F) (gsc4M.view.loc (c : Thread nD τ))) :
    (iprop((gsc4M.view.loc (c : Thread nD τ) ↦[gr4_0M.view.set]{fullShare} f0)
        ∗ (gsc4M.view.loc (c : Thread nD τ) ↦[gr4_1M.view.set]{fullShare} f1)
        ∗ (gsc4M.view.loc (c : Thread nD τ) ↦[gr4_2M.view.set]{fullShare} f2)
        ∗ (gsc4M.view.loc (c : Thread nD τ) ↦[gr4_3M.view.set]{fullShare} f3)
        ∗ (gsc4M.view.loc (c : Thread nD τ) ↦[gr4_4M.view.set]{fullShare} f4)
        ∗ (gsc4M.view.loc (c : Thread nD τ) ↦[gr4_5M.view.set]{fullShare} f5)
        ∗ (gsc4M.view.loc (c : Thread nD τ) ↦[gr4_6M.view.set]{fullShare} f6)
        ∗ (gsc4M.view.loc (c : Thread nD τ) ↦[gr4_7M.view.set]{fullShare} f7)
        ∗ (gsc4M.view.loc (c : Thread nD τ) ↦[gr4_8M.view.set]{fullShare} f8)
        ∗ (gsc4M.view.loc (c : Thread nD τ) ↦[gr4_9M.view.set]{fullShare} f9)
        ∗ (gsc4M.view.loc (c : Thread nD τ) ↦[gr4_10M.view.set]{fullShare} f10)
        ∗ (gsc4M.view.loc (c : Thread nD τ) ↦[gr4_11M.view.set]{fullShare} f11)
        ∗ (gsc4M.view.loc (c : Thread nD τ) ↦[gr4_12M.view.set]{fullShare} f12)
        ∗ (gsc4M.view.loc (c : Thread nD τ) ↦[gr4_13M.view.set]{fullShare} f13)
        ∗ (gsc4M.view.loc (c : Thread nD τ) ↦[gr4_14M.view.set]{fullShare} f14)
        ∗ (gsc4M.view.loc (c : Thread nD τ) ↦[gr4_15M.view.set]{fullShare} f15)) : sProp 𝕄)
      ⊢ iprop(∃ g : Buf (Elt F) (gsc4M.view.loc (c : Thread nD τ)),
          ⌜(∀ i ∈ gr4_0M.view.set, g i = f0 i)
            ∧ (∀ i ∈ gr4_1M.view.set, g i = f1 i)
            ∧ (∀ i ∈ gr4_2M.view.set, g i = f2 i)
            ∧ (∀ i ∈ gr4_3M.view.set, g i = f3 i)
            ∧ (∀ i ∈ gr4_4M.view.set, g i = f4 i)
            ∧ (∀ i ∈ gr4_5M.view.set, g i = f5 i)
            ∧ (∀ i ∈ gr4_6M.view.set, g i = f6 i)
            ∧ (∀ i ∈ gr4_7M.view.set, g i = f7 i)
            ∧ (∀ i ∈ gr4_8M.view.set, g i = f8 i)
            ∧ (∀ i ∈ gr4_9M.view.set, g i = f9 i)
            ∧ (∀ i ∈ gr4_10M.view.set, g i = f10 i)
            ∧ (∀ i ∈ gr4_11M.view.set, g i = f11 i)
            ∧ (∀ i ∈ gr4_12M.view.set, g i = f12 i)
            ∧ (∀ i ∈ gr4_13M.view.set, g i = f13 i)
            ∧ (∀ i ∈ gr4_14M.view.set, g i = f14 i)
            ∧ (∀ i ∈ gr4_15M.view.set, g i = f15 i)⌝
          ∗ (gsc4M.view.loc (c : Thread nD τ) ↦[gsc4M.view.set]{fullShare} g)) := by
  have hw : gsc4M.view.set = Finset.univ.biUnion rowSet := (View.set_whole _).trans rowSet_cover.symm
  exact join16 (ℓ := gsc4M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split4 (c : Dev nD) (f : Buf (Elt F) (gsc4M.view.loc (c : Thread nD τ))) :
    (gsc4M.view.loc (c : Thread nD τ) ↦[gsc4M.view.set]{fullShare} f : sProp 𝕄)
      ⊢ iprop((gsc4M.view.loc (c : Thread nD τ) ↦[gr4_0M.view.set]{fullShare} f)
        ∗ (gsc4M.view.loc (c : Thread nD τ) ↦[gr4_1M.view.set]{fullShare} f)
        ∗ (gsc4M.view.loc (c : Thread nD τ) ↦[gr4_2M.view.set]{fullShare} f)
        ∗ (gsc4M.view.loc (c : Thread nD τ) ↦[gr4_3M.view.set]{fullShare} f)
        ∗ (gsc4M.view.loc (c : Thread nD τ) ↦[gr4_4M.view.set]{fullShare} f)
        ∗ (gsc4M.view.loc (c : Thread nD τ) ↦[gr4_5M.view.set]{fullShare} f)
        ∗ (gsc4M.view.loc (c : Thread nD τ) ↦[gr4_6M.view.set]{fullShare} f)
        ∗ (gsc4M.view.loc (c : Thread nD τ) ↦[gr4_7M.view.set]{fullShare} f)
        ∗ (gsc4M.view.loc (c : Thread nD τ) ↦[gr4_8M.view.set]{fullShare} f)
        ∗ (gsc4M.view.loc (c : Thread nD τ) ↦[gr4_9M.view.set]{fullShare} f)
        ∗ (gsc4M.view.loc (c : Thread nD τ) ↦[gr4_10M.view.set]{fullShare} f)
        ∗ (gsc4M.view.loc (c : Thread nD τ) ↦[gr4_11M.view.set]{fullShare} f)
        ∗ (gsc4M.view.loc (c : Thread nD τ) ↦[gr4_12M.view.set]{fullShare} f)
        ∗ (gsc4M.view.loc (c : Thread nD τ) ↦[gr4_13M.view.set]{fullShare} f)
        ∗ (gsc4M.view.loc (c : Thread nD τ) ↦[gr4_14M.view.set]{fullShare} f)
        ∗ (gsc4M.view.loc (c : Thread nD τ) ↦[gr4_15M.view.set]{fullShare} f)) := by
  have hw : gsc4M.view.set = Finset.univ.biUnion rowSet := (View.set_whole _).trans rowSet_cover.symm
  exact split16 (ℓ := gsc4M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows4.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin4
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 4's chunk of the edge-source table in scalar memory, whole. -/
abbrev ghb4M : Memref sig .tc .hbm S50000x1x128 .f32 := Memref.whole main_v0
abbrev gtb4M : Memref sig .tc .smem S64000 .i32 := Memref.whole main_v9

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc4M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb4M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed4 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb4M.view.loc (c : Thread nD τ))) (fs g : Buf (Elt F) (gsc4M.view.loc (c : Thread nD τ)))
    (hg : ∀ i ∈ ((gsc4M.slice (Rect.unit (s := S16x1x128) ![j, 0, 0] S1x1x128.size inb) (fun _ => rfl)).squeeze S1x128 squeezes_S1x1x128_S1x128).view.set,
        g i = ((gsc4M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb4M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc4M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb4M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load4 (c : Dev nD) (g : Buf (Elt F) (gsc4M.view.loc (c : Thread nD τ))) (y : S16x1x128.Idx) :
    View.readAt (Elt F) gsc4M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word4 (pf : S64000.Idx → Elt F .i32) (off : Fin 1 → ℕ) (inb : ∀ a, off a + S1.size a ≤ S64000.size a)
    (n : ℕ) (hn : n < 64000) (hoff : off 0 = n) :
    View.readAt (Elt F) gtb4M.view (Rect.unit (s := S64000) off S1.size inb).toLoadRect
        ((Memref.isWhole_whole _ : gtb4M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs4 (i : grid4.Coords) :
    (k4_off1 i) 0 = 16 * (i 0).val + 0
    ∧ (k4_off3 i) 0 = 16 * (i 0).val + 1
    ∧ (k4_off5 i) 0 = 16 * (i 0).val + 2
    ∧ (k4_off7 i) 0 = 16 * (i 0).val + 3
    ∧ (k4_off9 i) 0 = 16 * (i 0).val + 4
    ∧ (k4_off11 i) 0 = 16 * (i 0).val + 5
    ∧ (k4_off13 i) 0 = 16 * (i 0).val + 6
    ∧ (k4_off15 i) 0 = 16 * (i 0).val + 7
    ∧ (k4_off17 i) 0 = 16 * (i 0).val + 8
    ∧ (k4_off19 i) 0 = 16 * (i 0).val + 9
    ∧ (k4_off21 i) 0 = 16 * (i 0).val + 10
    ∧ (k4_off23 i) 0 = 16 * (i 0).val + 11
    ∧ (k4_off25 i) 0 = 16 * (i 0).val + 12
    ∧ (k4_off27 i) 0 = 16 * (i 0).val + 13
    ∧ (k4_off29 i) 0 = 16 * (i 0).val + 14
    ∧ (k4_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun4.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows4
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 4's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run4 (c : Dev nD) (i : grid4.Coords) (arg3 : Memref sig .tc .vmem S16x1x128 .f32) (harg3 : arg3.IsWhole)
    (pf : S64000.Idx → Elt F .i32) (tb : Buf (Elt F) (ghb4M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc4M.view.loc (c : Thread nD τ) ↦[gsc4M.view.set]{fullShare} f)
        ∗ owns (c : Thread nD τ) gtb4M fullShare pf
        ∗ (ghb4M.view.loc (c : Thread nD τ) ↦{fullShare} tb)
        ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0
        ∗ owes (c : Thread nD τ) 0 W
        ∗ (iprop(owns (c : Thread nD τ) arg3 fullShare (gblock tb pf (i 0).val)
            ∗ (∃ f, gsc4M.view.loc (c : Thread nD τ) ↦[gsc4M.view.set]{fullShare} f)
            ∗ owns (c : Thread nD τ) gtb4M fullShare pf
            ∗ (ghb4M.view.loc (c : Thread nD τ) ↦{fullShare} tb)
            ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0
            ∗ (∃ W', owes (c : Thread nD τ) 0 W')) -∗ K ⟨⟩))
      ⊢ wp frame (wpE (defs₀ (F := F)) Variants.none c none) Set.univ
          (cc4__gather_kernel i gtb4M (Memref.isWhole_whole _) ghb4M (Memref.isWhole_whole _) arg3 harg3 gsc4M (Memref.isWhole_whole _) cc4_scratch1) K := by
  have hi : (i 0).val < 4000 := (i 0).isLt
  have hoffs := table_offs4 i
  have hword0 : (View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))) = pf (ValueIdx.ix1 (⟨16 * (i 0).val + 0, by omega⟩ : Fin 64000)) :=
    table_word4 pf _ _ _ (by omega) hoffs.1
  have hlt0 : (View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))).toNat < 50000 := by rw [hword0]; exact hok _
  have hw1 : k4_chk1 (View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))) := ⟨chk_lt _ hlt0, chk_lt _ hlt0⟩
  have hword1 : (View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))) = pf (ValueIdx.ix1 (⟨16 * (i 0).val + 1, by omega⟩ : Fin 64000)) :=
    table_word4 pf _ _ _ (by omega) hoffs.2.1
  have hlt1 : (View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))).toNat < 50000 := by rw [hword1]; exact hok _
  have hw2 : k4_chk2 (View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))) := ⟨chk_lt _ hlt1, chk_lt _ hlt1⟩
  have hword2 : (View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))) = pf (ValueIdx.ix1 (⟨16 * (i 0).val + 2, by omega⟩ : Fin 64000)) :=
    table_word4 pf _ _ _ (by omega) hoffs.2.2.1
  have hlt2 : (View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))).toNat < 50000 := by rw [hword2]; exact hok _
  have hw3 : k4_chk3 (View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))) := ⟨chk_lt _ hlt2, chk_lt _ hlt2⟩
  have hword3 : (View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))) = pf (ValueIdx.ix1 (⟨16 * (i 0).val + 3, by omega⟩ : Fin 64000)) :=
    table_word4 pf _ _ _ (by omega) hoffs.2.2.2.1
  have hlt3 : (View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))).toNat < 50000 := by rw [hword3]; exact hok _
  have hw4 : k4_chk4 (View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))) := ⟨chk_lt _ hlt3, chk_lt _ hlt3⟩
  have hword4 : (View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))) = pf (ValueIdx.ix1 (⟨16 * (i 0).val + 4, by omega⟩ : Fin 64000)) :=
    table_word4 pf _ _ _ (by omega) hoffs.2.2.2.2.1
  have hlt4 : (View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))).toNat < 50000 := by rw [hword4]; exact hok _
  have hw5 : k4_chk5 (View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))) := ⟨chk_lt _ hlt4, chk_lt _ hlt4⟩
  have hword5 : (View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))) = pf (ValueIdx.ix1 (⟨16 * (i 0).val + 5, by omega⟩ : Fin 64000)) :=
    table_word4 pf _ _ _ (by omega) hoffs.2.2.2.2.2.1
  have hlt5 : (View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))).toNat < 50000 := by rw [hword5]; exact hok _
  have hw6 : k4_chk6 (View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))) := ⟨chk_lt _ hlt5, chk_lt _ hlt5⟩
  have hword6 : (View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))) = pf (ValueIdx.ix1 (⟨16 * (i 0).val + 6, by omega⟩ : Fin 64000)) :=
    table_word4 pf _ _ _ (by omega) hoffs.2.2.2.2.2.2.1
  have hlt6 : (View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))).toNat < 50000 := by rw [hword6]; exact hok _
  have hw7 : k4_chk7 (View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))) := ⟨chk_lt _ hlt6, chk_lt _ hlt6⟩
  have hword7 : (View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))) = pf (ValueIdx.ix1 (⟨16 * (i 0).val + 7, by omega⟩ : Fin 64000)) :=
    table_word4 pf _ _ _ (by omega) hoffs.2.2.2.2.2.2.2.1
  have hlt7 : (View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))).toNat < 50000 := by rw [hword7]; exact hok _
  have hw8 : k4_chk8 (View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))) := ⟨chk_lt _ hlt7, chk_lt _ hlt7⟩
  have hword8 : (View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))) = pf (ValueIdx.ix1 (⟨16 * (i 0).val + 8, by omega⟩ : Fin 64000)) :=
    table_word4 pf _ _ _ (by omega) hoffs.2.2.2.2.2.2.2.2.1
  have hlt8 : (View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))).toNat < 50000 := by rw [hword8]; exact hok _
  have hw9 : k4_chk9 (View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))) := ⟨chk_lt _ hlt8, chk_lt _ hlt8⟩
  have hword9 : (View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))) = pf (ValueIdx.ix1 (⟨16 * (i 0).val + 9, by omega⟩ : Fin 64000)) :=
    table_word4 pf _ _ _ (by omega) hoffs.2.2.2.2.2.2.2.2.2.1
  have hlt9 : (View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))).toNat < 50000 := by rw [hword9]; exact hok _
  have hw10 : k4_chk10 (View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))) := ⟨chk_lt _ hlt9, chk_lt _ hlt9⟩
  have hword10 : (View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))) = pf (ValueIdx.ix1 (⟨16 * (i 0).val + 10, by omega⟩ : Fin 64000)) :=
    table_word4 pf _ _ _ (by omega) hoffs.2.2.2.2.2.2.2.2.2.2.1
  have hlt10 : (View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))).toNat < 50000 := by rw [hword10]; exact hok _
  have hw11 : k4_chk11 (View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))) := ⟨chk_lt _ hlt10, chk_lt _ hlt10⟩
  have hword11 : (View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))) = pf (ValueIdx.ix1 (⟨16 * (i 0).val + 11, by omega⟩ : Fin 64000)) :=
    table_word4 pf _ _ _ (by omega) hoffs.2.2.2.2.2.2.2.2.2.2.2.1
  have hlt11 : (View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))).toNat < 50000 := by rw [hword11]; exact hok _
  have hw12 : k4_chk12 (View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))) := ⟨chk_lt _ hlt11, chk_lt _ hlt11⟩
  have hword12 : (View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))) = pf (ValueIdx.ix1 (⟨16 * (i 0).val + 12, by omega⟩ : Fin 64000)) :=
    table_word4 pf _ _ _ (by omega) hoffs.2.2.2.2.2.2.2.2.2.2.2.2.1
  have hlt12 : (View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))).toNat < 50000 := by rw [hword12]; exact hok _
  have hw13 : k4_chk13 (View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))) := ⟨chk_lt _ hlt12, chk_lt _ hlt12⟩
  have hword13 : (View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))) = pf (ValueIdx.ix1 (⟨16 * (i 0).val + 13, by omega⟩ : Fin 64000)) :=
    table_word4 pf _ _ _ (by omega) hoffs.2.2.2.2.2.2.2.2.2.2.2.2.2.1
  have hlt13 : (View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))).toNat < 50000 := by rw [hword13]; exact hok _
  have hw14 : k4_chk14 (View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))) := ⟨chk_lt _ hlt13, chk_lt _ hlt13⟩
  have hword14 : (View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))) = pf (ValueIdx.ix1 (⟨16 * (i 0).val + 14, by omega⟩ : Fin 64000)) :=
    table_word4 pf _ _ _ (by omega) hoffs.2.2.2.2.2.2.2.2.2.2.2.2.2.2.1
  have hlt14 : (View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))).toNat < 50000 := by rw [hword14]; exact hok _
  have hw15 : k4_chk15 (View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))) := ⟨chk_lt _ hlt14, chk_lt _ hlt14⟩
  have hword15 : (View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))) = pf (ValueIdx.ix1 (⟨16 * (i 0).val + 15, by omega⟩ : Fin 64000)) :=
    table_word4 pf _ _ _ (by omega) hoffs.2.2.2.2.2.2.2.2.2.2.2.2.2.2.2
  have hlt15 : (View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))).toNat < 50000 := by rw [hword15]; exact hok _
  have hw16 : k4_chk16 (View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))) := chk_lt _ hlt15
  rw [cc4__gather_kernel_eq_skeleton]; unfold cc4__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb4M).IsWhole).eq_unread hfp
  ihave HR := (rows_split4 (F := F) c fsc) $$ HSC
  icases HR with ⟨HS0, HS1, HS2, HS3, HS4, HS5, HS6, HS7, HS8, HS9, HS10, HS11, HS12, HS13, HS14, HS15⟩
  ihave HS0 := (Entails.of_eq (show ((gsc4M.view.loc (c : Thread nD τ) ↦[gr4_0M.view.set]{fullShare} fsc : sProp 𝕄)) = (gr4_0M.view.loc (c : Thread nD τ) ↦[gr4_0M.view.set]{fullShare} fsc) from rfl)) $$ HS0
  ihave HS1 := (Entails.of_eq (show ((gsc4M.view.loc (c : Thread nD τ) ↦[gr4_1M.view.set]{fullShare} fsc : sProp 𝕄)) = (gr4_1M.view.loc (c : Thread nD τ) ↦[gr4_1M.view.set]{fullShare} fsc) from rfl)) $$ HS1
  ihave HS2 := (Entails.of_eq (show ((gsc4M.view.loc (c : Thread nD τ) ↦[gr4_2M.view.set]{fullShare} fsc : sProp 𝕄)) = (gr4_2M.view.loc (c : Thread nD τ) ↦[gr4_2M.view.set]{fullShare} fsc) from rfl)) $$ HS2
  ihave HS3 := (Entails.of_eq (show ((gsc4M.view.loc (c : Thread nD τ) ↦[gr4_3M.view.set]{fullShare} fsc : sProp 𝕄)) = (gr4_3M.view.loc (c : Thread nD τ) ↦[gr4_3M.view.set]{fullShare} fsc) from rfl)) $$ HS3
  ihave HS4 := (Entails.of_eq (show ((gsc4M.view.loc (c : Thread nD τ) ↦[gr4_4M.view.set]{fullShare} fsc : sProp 𝕄)) = (gr4_4M.view.loc (c : Thread nD τ) ↦[gr4_4M.view.set]{fullShare} fsc) from rfl)) $$ HS4
  ihave HS5 := (Entails.of_eq (show ((gsc4M.view.loc (c : Thread nD τ) ↦[gr4_5M.view.set]{fullShare} fsc : sProp 𝕄)) = (gr4_5M.view.loc (c : Thread nD τ) ↦[gr4_5M.view.set]{fullShare} fsc) from rfl)) $$ HS5
  ihave HS6 := (Entails.of_eq (show ((gsc4M.view.loc (c : Thread nD τ) ↦[gr4_6M.view.set]{fullShare} fsc : sProp 𝕄)) = (gr4_6M.view.loc (c : Thread nD τ) ↦[gr4_6M.view.set]{fullShare} fsc) from rfl)) $$ HS6
  ihave HS7 := (Entails.of_eq (show ((gsc4M.view.loc (c : Thread nD τ) ↦[gr4_7M.view.set]{fullShare} fsc : sProp 𝕄)) = (gr4_7M.view.loc (c : Thread nD τ) ↦[gr4_7M.view.set]{fullShare} fsc) from rfl)) $$ HS7
  ihave HS8 := (Entails.of_eq (show ((gsc4M.view.loc (c : Thread nD τ) ↦[gr4_8M.view.set]{fullShare} fsc : sProp 𝕄)) = (gr4_8M.view.loc (c : Thread nD τ) ↦[gr4_8M.view.set]{fullShare} fsc) from rfl)) $$ HS8
  ihave HS9 := (Entails.of_eq (show ((gsc4M.view.loc (c : Thread nD τ) ↦[gr4_9M.view.set]{fullShare} fsc : sProp 𝕄)) = (gr4_9M.view.loc (c : Thread nD τ) ↦[gr4_9M.view.set]{fullShare} fsc) from rfl)) $$ HS9
  ihave HS10 := (Entails.of_eq (show ((gsc4M.view.loc (c : Thread nD τ) ↦[gr4_10M.view.set]{fullShare} fsc : sProp 𝕄)) = (gr4_10M.view.loc (c : Thread nD τ) ↦[gr4_10M.view.set]{fullShare} fsc) from rfl)) $$ HS10
  ihave HS11 := (Entails.of_eq (show ((gsc4M.view.loc (c : Thread nD τ) ↦[gr4_11M.view.set]{fullShare} fsc : sProp 𝕄)) = (gr4_11M.view.loc (c : Thread nD τ) ↦[gr4_11M.view.set]{fullShare} fsc) from rfl)) $$ HS11
  ihave HS12 := (Entails.of_eq (show ((gsc4M.view.loc (c : Thread nD τ) ↦[gr4_12M.view.set]{fullShare} fsc : sProp 𝕄)) = (gr4_12M.view.loc (c : Thread nD τ) ↦[gr4_12M.view.set]{fullShare} fsc) from rfl)) $$ HS12
  ihave HS13 := (Entails.of_eq (show ((gsc4M.view.loc (c : Thread nD τ) ↦[gr4_13M.view.set]{fullShare} fsc : sProp 𝕄)) = (gr4_13M.view.loc (c : Thread nD τ) ↦[gr4_13M.view.set]{fullShare} fsc) from rfl)) $$ HS13
  ihave HS14 := (Entails.of_eq (show ((gsc4M.view.loc (c : Thread nD τ) ↦[gr4_14M.view.set]{fullShare} fsc : sProp 𝕄)) = (gr4_14M.view.loc (c : Thread nD τ) ↦[gr4_14M.view.set]{fullShare} fsc) from rfl)) $$ HS14
  ihave HS15 := (Entails.of_eq (show ((gsc4M.view.loc (c : Thread nD τ) ↦[gr4_15M.view.set]{fullShare} fsc : sProp 𝕄)) = (gr4_15M.view.loc (c : Thread nD τ) ↦[gr4_15M.view.set]{fullShare} fsc) from rfl)) $$ HS15
  ihave HB := (split16 (ℓ := ghb4M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join4 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb4M.view (Rect.unit (s := S64000) (k4_off1 i) S1.size (k4_off1_inb i)).toLoadRect ((Memref.isWhole_whole _ : gtb4M.IsWhole).unread pf) (Shape.Idx.first (numel1_S1.symm ▸ Nat.one_pos))).toNat, hlt0⟩ : Fin 50000) (0 : Fin 1) l) :=
    row_landed4 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb4M.view (Rect.unit (s := S64000) (k4_off3 i) S1.size (k4_off3_inb i)).toLoadRect ((Memref.isWhole_whole _ : gtb4M.IsWhole).unread pf) (Shape.Idx.first (numel1_S1.symm ▸ Nat.one_pos))).toNat, hlt1⟩ : Fin 50000) (0 : Fin 1) l) :=
    row_landed4 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb4M.view (Rect.unit (s := S64000) (k4_off5 i) S1.size (k4_off5_inb i)).toLoadRect ((Memref.isWhole_whole _ : gtb4M.IsWhole).unread pf) (Shape.Idx.first (numel1_S1.symm ▸ Nat.one_pos))).toNat, hlt2⟩ : Fin 50000) (0 : Fin 1) l) :=
    row_landed4 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb4M.view (Rect.unit (s := S64000) (k4_off7 i) S1.size (k4_off7_inb i)).toLoadRect ((Memref.isWhole_whole _ : gtb4M.IsWhole).unread pf) (Shape.Idx.first (numel1_S1.symm ▸ Nat.one_pos))).toNat, hlt3⟩ : Fin 50000) (0 : Fin 1) l) :=
    row_landed4 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb4M.view (Rect.unit (s := S64000) (k4_off9 i) S1.size (k4_off9_inb i)).toLoadRect ((Memref.isWhole_whole _ : gtb4M.IsWhole).unread pf) (Shape.Idx.first (numel1_S1.symm ▸ Nat.one_pos))).toNat, hlt4⟩ : Fin 50000) (0 : Fin 1) l) :=
    row_landed4 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb4M.view (Rect.unit (s := S64000) (k4_off11 i) S1.size (k4_off11_inb i)).toLoadRect ((Memref.isWhole_whole _ : gtb4M.IsWhole).unread pf) (Shape.Idx.first (numel1_S1.symm ▸ Nat.one_pos))).toNat, hlt5⟩ : Fin 50000) (0 : Fin 1) l) :=
    row_landed4 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb4M.view (Rect.unit (s := S64000) (k4_off13 i) S1.size (k4_off13_inb i)).toLoadRect ((Memref.isWhole_whole _ : gtb4M.IsWhole).unread pf) (Shape.Idx.first (numel1_S1.symm ▸ Nat.one_pos))).toNat, hlt6⟩ : Fin 50000) (0 : Fin 1) l) :=
    row_landed4 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb4M.view (Rect.unit (s := S64000) (k4_off15 i) S1.size (k4_off15_inb i)).toLoadRect ((Memref.isWhole_whole _ : gtb4M.IsWhole).unread pf) (Shape.Idx.first (numel1_S1.symm ▸ Nat.one_pos))).toNat, hlt7⟩ : Fin 50000) (0 : Fin 1) l) :=
    row_landed4 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb4M.view (Rect.unit (s := S64000) (k4_off17 i) S1.size (k4_off17_inb i)).toLoadRect ((Memref.isWhole_whole _ : gtb4M.IsWhole).unread pf) (Shape.Idx.first (numel1_S1.symm ▸ Nat.one_pos))).toNat, hlt8⟩ : Fin 50000) (0 : Fin 1) l) :=
    row_landed4 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb4M.view (Rect.unit (s := S64000) (k4_off19 i) S1.size (k4_off19_inb i)).toLoadRect ((Memref.isWhole_whole _ : gtb4M.IsWhole).unread pf) (Shape.Idx.first (numel1_S1.symm ▸ Nat.one_pos))).toNat, hlt9⟩ : Fin 50000) (0 : Fin 1) l) :=
    row_landed4 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb4M.view (Rect.unit (s := S64000) (k4_off21 i) S1.size (k4_off21_inb i)).toLoadRect ((Memref.isWhole_whole _ : gtb4M.IsWhole).unread pf) (Shape.Idx.first (numel1_S1.symm ▸ Nat.one_pos))).toNat, hlt10⟩ : Fin 50000) (0 : Fin 1) l) :=
    row_landed4 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb4M.view (Rect.unit (s := S64000) (k4_off23 i) S1.size (k4_off23_inb i)).toLoadRect ((Memref.isWhole_whole _ : gtb4M.IsWhole).unread pf) (Shape.Idx.first (numel1_S1.symm ▸ Nat.one_pos))).toNat, hlt11⟩ : Fin 50000) (0 : Fin 1) l) :=
    row_landed4 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb4M.view (Rect.unit (s := S64000) (k4_off25 i) S1.size (k4_off25_inb i)).toLoadRect ((Memref.isWhole_whole _ : gtb4M.IsWhole).unread pf) (Shape.Idx.first (numel1_S1.symm ▸ Nat.one_pos))).toNat, hlt12⟩ : Fin 50000) (0 : Fin 1) l) :=
    row_landed4 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb4M.view (Rect.unit (s := S64000) (k4_off27 i) S1.size (k4_off27_inb i)).toLoadRect ((Memref.isWhole_whole _ : gtb4M.IsWhole).unread pf) (Shape.Idx.first (numel1_S1.symm ▸ Nat.one_pos))).toNat, hlt13⟩ : Fin 50000) (0 : Fin 1) l) :=
    row_landed4 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb4M.view (Rect.unit (s := S64000) (k4_off29 i) S1.size (k4_off29_inb i)).toLoadRect ((Memref.isWhole_whole _ : gtb4M.IsWhole).unread pf) (Shape.Idx.first (numel1_S1.symm ▸ Nat.one_pos))).toNat, hlt14⟩ : Fin 50000) (0 : Fin 1) l) :=
    row_landed4 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb4M.view (Rect.unit (s := S64000) (k4_off31 i) S1.size (k4_off31_inb i)).toLoadRect ((Memref.isWhole_whole _ : gtb4M.IsWhole).unread pf) (Shape.Idx.first (numel1_S1.symm ▸ Nat.one_pos))).toNat, hlt15⟩ : Fin 50000) (0 : Fin 1) l) :=
    row_landed4 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load4]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb4M).IsWhole).read_unread _
  isplitl [Hh0 Hh1 Hh2 Hh3 Hh4 Hh5 Hh6 Hh7 Hh8 Hh9 Hh10 Hh11 Hh12 Hh13 Hh14 Hh15]
  · iapply (join16 (ℓ := ghb4M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather4.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 4's own DMA semaphores: one per row of the step. -/
abbrev gsem4 : Fin 16 → SemLoc sig := fun j =>
  (![SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89] : Fin 16 → SemLoc sig) j
theorem gsemFacts4 : Pipeline.OwnSemFacts spec4 gsem4 := by decide

/-- The buffers the body reads without a window: the node table in HBM and its chunk of the edge-source table. -/
def gH4 : Finset (Ref sig .tc) := {main_v0, main_v9}
theorem gH4_sub : gH4 ⊆ Pipeline.restRefs sig spec4 := by decide

/-- The call's prefetched table at the contents the region finds. -/
def gadm4 (c : Dev nD) : (pcfg4 (F := F)).Adm := ⟨fun k => match k with | ⟨0, _⟩ => V c main_v9, trivial⟩

/-- The proof data of gather call 4 on core `c`: the output array as found; after step `t` the output block holds
    the gathered rows; the invariant carries the scratch, the call's semaphores at zero and the two tables as found. -/
def gdat4 (a : (pcfg4 (F := F)).Adm) (c : Dev nD) : Dat τ (Elt F) Unit ℕ (Pipeline.UD sig nD τ) ℕ (cfg4 a) c where
  A w := V c (Pipeline.arrRef spec4 w)
  after w t := match w with
    | ⟨0, _⟩ => gblock (V c main_v0) (V c main_v9) t.val
  Φ _ := Pipeline.ΦD gsem4 spec4 gH4 V c
  q _ := fullShare
  owed _ := 0

theorem gdat4_A (a : (pcfg4 (F := F)).Adm) (c : Dev nD) (w : Fin (cfg4 a).W) :
    (gdat4 V a c).A w = V c (Pipeline.arrRef spec4 w) := by dsimp only [gdat4]
theorem gdat4_after (a : (pcfg4 (F := F)).Adm) (c : Dev nD) (t : Fin (cfg4 a).N) :
    (gdat4 V a c).after 0 t = gblock (V c main_v0) (V c main_v9) t.val := rfl

/-! ## The body obligation, from the body's run -/

/-- The call's scratch buffer whole at some contents, said of the buffer and said through the whole-buffer memref. -/
theorem gsc4_whole (c : Dev nD) :
    (iprop(∃ f, gsc4M.view.loc (c : Thread nD τ) ↦[gsc4M.view.set]{fullShare} f) : sProp 𝕄)
      = iprop(∃ f : Buf (Elt F) ((c : Thread nD τ).loc cc4_scratch0), ((c : Thread nD τ).loc cc4_scratch0) ↦{fullShare} f) := by
  simp only [gsc4M, Memref.view_whole, View.set_whole]

/-- The region invariant of gather call 4, conjunct by conjunct: the call's scratch buffer whole at some contents beside
    the scoped buffers it does not touch, the generator register at some state, its sixteen semaphores at zero, and
    the two tables whole at the contents the region finds. -/
theorem PhiD4_eq (c : Dev nD) :
    (Pipeline.ΦD gsem4 spec4 gH4 V c : sProp 𝕄)
      = iprop(iprop((∃ f, gsc4M.view.loc (c : Thread nD τ) ↦[gsc4M.view.set]{fullShare} f)
            ∗ Pipeline.scopedRestBut (Ix := Unit) (Name := ℕ) (U := Pipeline.UD sig nD τ) (Lvl := ℕ) (Val := Elt F) spec4 c [cc4_scratch0])
          ∗ (∃ r, prngReg c r)
          ∗ iprop(semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0)
          ∗ iprop((ghb4M.view.loc (c : Thread nD τ) ↦{fullShare} V c main_v0) ∗ owns (c : Thread nD τ) gtb4M fullShare (V c main_v9))) := by
  rw [gsc4_whole, owns_whole, Pipeline.ΦD_eq, scopedRest4_split,
    Pipeline.ownSems0_eq_of_list c gsem4 [0, 1, 2, 3, 4, 5, 6, 7, 8, 9, 10, 11, 12, 13, 14, 15] (by decide) (by decide),
    BI.bigSep_eq_bigSepL_of_eq [main_v0, main_v9] (by decide) (by decide)]
  rfl

/-- The kernel body of gather call 4 as the pipeline calls it at point `t`: the step's coordinates, the two tables whole,
    the output window's current staging buffer, the scratch buffer and the sixteen semaphores. -/
abbrev gbodyAt4 (a : (pcfg4 (F := F)).Adm) (t : Fin (cfg4 a).N) : Prog (TpuEff nD τ sig (Elt F) Λ₀ .tc) PUnit :=
  cc4__gather_kernel ((cfg4 a).grid.coords t) gtb4M (Memref.isWhole_whole _) ghb4M (Memref.isWhole_whole _)
    (spec4_0.stage ((cfg4 a).slots t 0)) (hstage4_0 (((cfg4 a).slots t 0).cast nbuf4_0)) gsc4M (Memref.isWhole_whole _) cc4_scratch1

/-- The grid is one axis of 4000 steps: the step's one coordinate is its number. -/
theorem gcoord4 (a : (pcfg4 (F := F)).Adm) (t : Fin (cfg4 a).N) : (((cfg4 a).grid.coords t) 0).val = t.val := by
  have ht : t.val < 4000 := lt_of_lt_of_eq t.isLt N_4
  show t.val / 1 % 4000 = t.val
  omega

/-- What the body is called with at point `t`: the invariant, the core's `owes`, the output window's current staging
    buffer at whatever it holds, -/
def gbodyPre4 (a : (pcfg4 (F := F)).Adm) (c : Dev nD) (t : Fin (cfg4 a).N) : sProp 𝕄 :=
  iprop((gdat4 V a c).Φ t.castSucc ∗ (gdat4 V a c).owesAt () t.castSucc
    ∗ (∃ d, owns (c : Thread nD τ) (spec4_0.stage ((cfg4 a).slots t 0)) fullShare ((gdat4 V a c).before 0 t d)))

/-- and what it returns: the invariant, `owes`, the staging buffer at the step's gathered rows. -/
def gbodyPost4 (a : (pcfg4 (F := F)).Adm) (c : Dev nD) (t : Fin (cfg4 a).N) : sProp 𝕄 :=
  iprop((gdat4 V a c).Φ t.succ ∗ (gdat4 V a c).owesAt () t.succ
    ∗ owns (c : Thread nD τ) (spec4_0.stage ((cfg4 a).slots t 0)) fullShare ((gdat4 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body4 (a : (pcfg4 (F := F)).Adm) (c : Dev nD)
    (hok : ∀ e : S64000.Idx, (V c main_v9 e).toNat < 50000) (t : Fin (cfg4 a).N) :
    gbodyPre4 V a c t ⊢ wp frame (wpE (defs₀ (F := F)) Variants.none c none) Set.univ (gbodyAt4 a t) (fun _ => gbodyPost4 V a c t) := by
  unfold gbodyPre4 gbodyPost4 gbodyAt4
  rw [show (gdat4 V a c).Φ t.succ = Pipeline.ΦD gsem4 spec4 gH4 V c from rfl,
    show (gdat4 V a c).Φ t.castSucc = Pipeline.ΦD gsem4 spec4 gH4 V c from rfl, gdat4_after, PhiD4_eq]
  unfold Dat.owesAt Pipeline.owesWithin
  rw [show (gdat4 V a c).owed t.castSucc = 0 from rfl, show (gdat4 V a c).owed t.succ = 0 from rfl]
  have hrun := fun W K => gather_run4 (F := F) c ((cfg4 a).grid.coords t) (spec4_0.stage ((cfg4 a).slots t 0))
    (hstage4_0 (((cfg4 a).slots t 0).cast nbuf4_0)) (V c main_v9) (V c main_v0) hok W K
  rw [gcoord4 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 4, when every word of its table names a row of the node table. -/
theorem gather_obligation4 (a : (pcfg4 (F := F)).Adm) (c : Dev nD)
    (hok : ∀ e : S64000.Idx, (V c main_v9 e).toNat < 50000) :
    BodyObligation (gdat4 (F := F) V a c) (defs₀ (F := F)) Variants.none () Set.univ := fun t => by
  rw [bigSep_W4, bigSep_W4]
  exact gsound_body4 V a c hok t

end

end Cert.Kernel.Hand

end
-- ==== Proof.KRowsJoin5.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 5's scratch buffer, whole, and its sixteen rows as the body addresses them. -/
abbrev gsc5M : Memref sig .tc .vmem S16x1x128 .f32 := Memref.whole cc5_scratch0
abbrev gr5_0M : Memref sig .tc .vmem S1x128 .f32 := ((Memref.whole cc5_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr5_1M : Memref sig .tc .vmem S1x128 .f32 := ((Memref.whole cc5_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr5_2M : Memref sig .tc .vmem S1x128 .f32 := ((Memref.whole cc5_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr5_3M : Memref sig .tc .vmem S1x128 .f32 := ((Memref.whole cc5_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr5_4M : Memref sig .tc .vmem S1x128 .f32 := ((Memref.whole cc5_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr5_5M : Memref sig .tc .vmem S1x128 .f32 := ((Memref.whole cc5_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr5_6M : Memref sig .tc .vmem S1x128 .f32 := ((Memref.whole cc5_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr5_7M : Memref sig .tc .vmem S1x128 .f32 := ((Memref.whole cc5_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr5_8M : Memref sig .tc .vmem S1x128 .f32 := ((Memref.whole cc5_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr5_9M : Memref sig .tc .vmem S1x128 .f32 := ((Memref.whole cc5_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr5_10M : Memref sig .tc .vmem S1x128 .f32 := ((Memref.whole cc5_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr5_11M : Memref sig .tc .vmem S1x128 .f32 := ((Memref.whole cc5_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr5_12M : Memref sig .tc .vmem S1x128 .f32 := ((Memref.whole cc5_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr5_13M : Memref sig .tc .vmem S1x128 .f32 := ((Memref.whole cc5_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr5_14M : Memref sig .tc .vmem S1x128 .f32 := ((Memref.whole cc5_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr5_15M : Memref sig .tc .vmem S1x128 .f32 := ((Memref.whole cc5_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr5_0M.view.set = rowSet (0 : Fin 16) := by
  refine (View.set_reshape _ _).trans ?_
  refine (View.set_slice_whole _ _).trans ?_
  rfl
private theorem row_set_1 : gr5_1M.view.set = rowSet (1 : Fin 16) := by
  refine (View.set_reshape _ _).trans ?_
  refine (View.set_slice_whole _ _).trans ?_
  rfl
private theorem row_set_2 : gr5_2M.view.set = rowSet (2 : Fin 16) := by
  refine (View.set_reshape _ _).trans ?_
  refine (View.set_slice_whole _ _).trans ?_
  rfl
private theorem row_set_3 : gr5_3M.view.set = rowSet (3 : Fin 16) := by
  refine (View.set_reshape _ _).trans ?_
  refine (View.set_slice_whole _ _).trans ?_
  rfl
private theorem row_set_4 : gr5_4M.view.set = rowSet (4 : Fin 16) := by
  refine (View.set_reshape _ _).trans ?_
  refine (View.set_slice_whole _ _).trans ?_
  rfl
private theorem row_set_5 : gr5_5M.view.set = rowSet (5 : Fin 16) := by
  refine (View.set_reshape _ _).trans ?_
  refine (View.set_slice_whole _ _).trans ?_
  rfl
private theorem row_set_6 : gr5_6M.view.set = rowSet (6 : Fin 16) := by
  refine (View.set_reshape _ _).trans ?_
  refine (View.set_slice_whole _ _).trans ?_
  rfl
private theorem row_set_7 : gr5_7M.view.set = rowSet (7 : Fin 16) := by
  refine (View.set_reshape _ _).trans ?_
  refine (View.set_slice_whole _ _).trans ?_
  rfl
private theorem row_set_8 : gr5_8M.view.set = rowSet (8 : Fin 16) := by
  refine (View.set_reshape _ _).trans ?_
  refine (View.set_slice_whole _ _).trans ?_
  rfl
private theorem row_set_9 : gr5_9M.view.set = rowSet (9 : Fin 16) := by
  refine (View.set_reshape _ _).trans ?_
  refine (View.set_slice_whole _ _).trans ?_
  rfl
private theorem row_set_10 : gr5_10M.view.set = rowSet (10 : Fin 16) := by
  refine (View.set_reshape _ _).trans ?_
  refine (View.set_slice_whole _ _).trans ?_
  rfl
private theorem row_set_11 : gr5_11M.view.set = rowSet (11 : Fin 16) := by
  refine (View.set_reshape _ _).trans ?_
  refine (View.set_slice_whole _ _).trans ?_
  rfl
private theorem row_set_12 : gr5_12M.view.set = rowSet (12 : Fin 16) := by
  refine (View.set_reshape _ _).trans ?_
  refine (View.set_slice_whole _ _).trans ?_
  rfl
private theorem row_set_13 : gr5_13M.view.set = rowSet (13 : Fin 16) := by
  refine (View.set_reshape _ _).trans ?_
  refine (View.set_slice_whole _ _).trans ?_
  rfl
private theorem row_set_14 : gr5_14M.view.set = rowSet (14 : Fin 16) := by
  refine (View.set_reshape _ _).trans ?_
  refine (View.set_slice_whole _ _).trans ?_
  rfl
private theorem row_set_15 : gr5_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join5 (c : Dev nD) (f0 f1 f2 f3 f4 f5 f6 f7 f8 f9 f10 f11 f12 f13 f14 f15 : Buf (Elt F) (gsc5M.view.loc (c : Thread nD τ))) :
    (iprop((gsc5M.view.loc (c : Thread nD τ) ↦[gr5_0M.view.set]{fullShare} f0)
        ∗ (gsc5M.view.loc (c : Thread nD τ) ↦[gr5_1M.view.set]{fullShare} f1)
        ∗ (gsc5M.view.loc (c : Thread nD τ) ↦[gr5_2M.view.set]{fullShare} f2)
        ∗ (gsc5M.view.loc (c : Thread nD τ) ↦[gr5_3M.view.set]{fullShare} f3)
        ∗ (gsc5M.view.loc (c : Thread nD τ) ↦[gr5_4M.view.set]{fullShare} f4)
        ∗ (gsc5M.view.loc (c : Thread nD τ) ↦[gr5_5M.view.set]{fullShare} f5)
        ∗ (gsc5M.view.loc (c : Thread nD τ) ↦[gr5_6M.view.set]{fullShare} f6)
        ∗ (gsc5M.view.loc (c : Thread nD τ) ↦[gr5_7M.view.set]{fullShare} f7)
        ∗ (gsc5M.view.loc (c : Thread nD τ) ↦[gr5_8M.view.set]{fullShare} f8)
        ∗ (gsc5M.view.loc (c : Thread nD τ) ↦[gr5_9M.view.set]{fullShare} f9)
        ∗ (gsc5M.view.loc (c : Thread nD τ) ↦[gr5_10M.view.set]{fullShare} f10)
        ∗ (gsc5M.view.loc (c : Thread nD τ) ↦[gr5_11M.view.set]{fullShare} f11)
        ∗ (gsc5M.view.loc (c : Thread nD τ) ↦[gr5_12M.view.set]{fullShare} f12)
        ∗ (gsc5M.view.loc (c : Thread nD τ) ↦[gr5_13M.view.set]{fullShare} f13)
        ∗ (gsc5M.view.loc (c : Thread nD τ) ↦[gr5_14M.view.set]{fullShare} f14)
        ∗ (gsc5M.view.loc (c : Thread nD τ) ↦[gr5_15M.view.set]{fullShare} f15)) : sProp 𝕄)
      ⊢ iprop(∃ g : Buf (Elt F) (gsc5M.view.loc (c : Thread nD τ)),
          ⌜(∀ i ∈ gr5_0M.view.set, g i = f0 i)
            ∧ (∀ i ∈ gr5_1M.view.set, g i = f1 i)
            ∧ (∀ i ∈ gr5_2M.view.set, g i = f2 i)
            ∧ (∀ i ∈ gr5_3M.view.set, g i = f3 i)
            ∧ (∀ i ∈ gr5_4M.view.set, g i = f4 i)
            ∧ (∀ i ∈ gr5_5M.view.set, g i = f5 i)
            ∧ (∀ i ∈ gr5_6M.view.set, g i = f6 i)
            ∧ (∀ i ∈ gr5_7M.view.set, g i = f7 i)
            ∧ (∀ i ∈ gr5_8M.view.set, g i = f8 i)
            ∧ (∀ i ∈ gr5_9M.view.set, g i = f9 i)
            ∧ (∀ i ∈ gr5_10M.view.set, g i = f10 i)
            ∧ (∀ i ∈ gr5_11M.view.set, g i = f11 i)
            ∧ (∀ i ∈ gr5_12M.view.set, g i = f12 i)
            ∧ (∀ i ∈ gr5_13M.view.set, g i = f13 i)
            ∧ (∀ i ∈ gr5_14M.view.set, g i = f14 i)
            ∧ (∀ i ∈ gr5_15M.view.set, g i = f15 i)⌝
          ∗ (gsc5M.view.loc (c : Thread nD τ) ↦[gsc5M.view.set]{fullShare} g)) := by
  have hw : gsc5M.view.set = Finset.univ.biUnion rowSet := (View.set_whole _).trans rowSet_cover.symm
  exact join16 (ℓ := gsc5M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split5 (c : Dev nD) (f : Buf (Elt F) (gsc5M.view.loc (c : Thread nD τ))) :
    (gsc5M.view.loc (c : Thread nD τ) ↦[gsc5M.view.set]{fullShare} f : sProp 𝕄)
      ⊢ iprop((gsc5M.view.loc (c : Thread nD τ) ↦[gr5_0M.view.set]{fullShare} f)
        ∗ (gsc5M.view.loc (c : Thread nD τ) ↦[gr5_1M.view.set]{fullShare} f)
        ∗ (gsc5M.view.loc (c : Thread nD τ) ↦[gr5_2M.view.set]{fullShare} f)
        ∗ (gsc5M.view.loc (c : Thread nD τ) ↦[gr5_3M.view.set]{fullShare} f)
        ∗ (gsc5M.view.loc (c : Thread nD τ) ↦[gr5_4M.view.set]{fullShare} f)
        ∗ (gsc5M.view.loc (c : Thread nD τ) ↦[gr5_5M.view.set]{fullShare} f)
        ∗ (gsc5M.view.loc (c : Thread nD τ) ↦[gr5_6M.view.set]{fullShare} f)
        ∗ (gsc5M.view.loc (c : Thread nD τ) ↦[gr5_7M.view.set]{fullShare} f)
        ∗ (gsc5M.view.loc (c : Thread nD τ) ↦[gr5_8M.view.set]{fullShare} f)
        ∗ (gsc5M.view.loc (c : Thread nD τ) ↦[gr5_9M.view.set]{fullShare} f)
        ∗ (gsc5M.view.loc (c : Thread nD τ) ↦[gr5_10M.view.set]{fullShare} f)
        ∗ (gsc5M.view.loc (c : Thread nD τ) ↦[gr5_11M.view.set]{fullShare} f)
        ∗ (gsc5M.view.loc (c : Thread nD τ) ↦[gr5_12M.view.set]{fullShare} f)
        ∗ (gsc5M.view.loc (c : Thread nD τ) ↦[gr5_13M.view.set]{fullShare} f)
        ∗ (gsc5M.view.loc (c : Thread nD τ) ↦[gr5_14M.view.set]{fullShare} f)
        ∗ (gsc5M.view.loc (c : Thread nD τ) ↦[gr5_15M.view.set]{fullShare} f)) := by
  have hw : gsc5M.view.set = Finset.univ.biUnion rowSet := (View.set_whole _).trans rowSet_cover.symm
  exact split16 (ℓ := gsc5M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows5.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin5
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 5's chunk of the edge-source table in scalar memory, whole. -/
abbrev ghb5M : Memref sig .tc .hbm S50000x1x128 .f32 := Memref.whole main_v0
abbrev gtb5M : Memref sig .tc .smem S64000 .i32 := Memref.whole main_v11

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc5M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb5M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed5 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb5M.view.loc (c : Thread nD τ))) (fs g : Buf (Elt F) (gsc5M.view.loc (c : Thread nD τ)))
    (hg : ∀ i ∈ ((gsc5M.slice (Rect.unit (s := S16x1x128) ![j, 0, 0] S1x1x128.size inb) (fun _ => rfl)).squeeze S1x128 squeezes_S1x1x128_S1x128).view.set,
        g i = ((gsc5M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb5M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc5M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb5M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load5 (c : Dev nD) (g : Buf (Elt F) (gsc5M.view.loc (c : Thread nD τ))) (y : S16x1x128.Idx) :
    View.readAt (Elt F) gsc5M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word5 (pf : S64000.Idx → Elt F .i32) (off : Fin 1 → ℕ) (inb : ∀ a, off a + S1.size a ≤ S64000.size a)
    (n : ℕ) (hn : n < 64000) (hoff : off 0 = n) :
    View.readAt (Elt F) gtb5M.view (Rect.unit (s := S64000) off S1.size inb).toLoadRect
        ((Memref.isWhole_whole _ : gtb5M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs5 (i : grid5.Coords) :
    (k5_off1 i) 0 = 16 * (i 0).val + 0
    ∧ (k5_off3 i) 0 = 16 * (i 0).val + 1
    ∧ (k5_off5 i) 0 = 16 * (i 0).val + 2
    ∧ (k5_off7 i) 0 = 16 * (i 0).val + 3
    ∧ (k5_off9 i) 0 = 16 * (i 0).val + 4
    ∧ (k5_off11 i) 0 = 16 * (i 0).val + 5
    ∧ (k5_off13 i) 0 = 16 * (i 0).val + 6
    ∧ (k5_off15 i) 0 = 16 * (i 0).val + 7
    ∧ (k5_off17 i) 0 = 16 * (i 0).val + 8
    ∧ (k5_off19 i) 0 = 16 * (i 0).val + 9
    ∧ (k5_off21 i) 0 = 16 * (i 0).val + 10
    ∧ (k5_off23 i) 0 = 16 * (i 0).val + 11
    ∧ (k5_off25 i) 0 = 16 * (i 0).val + 12
    ∧ (k5_off27 i) 0 = 16 * (i 0).val + 13
    ∧ (k5_off29 i) 0 = 16 * (i 0).val + 14
    ∧ (k5_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun5.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows5
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 5's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run5 (c : Dev nD) (i : grid5.Coords) (arg3 : Memref sig .tc .vmem S16x1x128 .f32) (harg3 : arg3.IsWhole)
    (pf : S64000.Idx → Elt F .i32) (tb : Buf (Elt F) (ghb5M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc5M.view.loc (c : Thread nD τ) ↦[gsc5M.view.set]{fullShare} f)
        ∗ owns (c : Thread nD τ) gtb5M fullShare pf
        ∗ (ghb5M.view.loc (c : Thread nD τ) ↦{fullShare} tb)
        ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0
        ∗ owes (c : Thread nD τ) 0 W
        ∗ (iprop(owns (c : Thread nD τ) arg3 fullShare (gblock tb pf (i 0).val)
            ∗ (∃ f, gsc5M.view.loc (c : Thread nD τ) ↦[gsc5M.view.set]{fullShare} f)
            ∗ owns (c : Thread nD τ) gtb5M fullShare pf
            ∗ (ghb5M.view.loc (c : Thread nD τ) ↦{fullShare} tb)
            ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0
            ∗ (∃ W', owes (c : Thread nD τ) 0 W')) -∗ K ⟨⟩))
      ⊢ wp frame (wpE (defs₀ (F := F)) Variants.none c none) Set.univ
          (cc5__gather_kernel i gtb5M (Memref.isWhole_whole _) ghb5M (Memref.isWhole_whole _) arg3 harg3 gsc5M (Memref.isWhole_whole _) cc5_scratch1) K := by
  have hi : (i 0).val < 4000 := (i 0).isLt
  have hoffs := table_offs5 i
  have hword0 : (View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))) = pf (ValueIdx.ix1 (⟨16 * (i 0).val + 0, by omega⟩ : Fin 64000)) :=
    table_word5 pf _ _ _ (by omega) hoffs.1
  have hlt0 : (View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))).toNat < 50000 := by rw [hword0]; exact hok _
  have hw1 : k5_chk1 (View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))) := ⟨chk_lt _ hlt0, chk_lt _ hlt0⟩
  have hword1 : (View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))) = pf (ValueIdx.ix1 (⟨16 * (i 0).val + 1, by omega⟩ : Fin 64000)) :=
    table_word5 pf _ _ _ (by omega) hoffs.2.1
  have hlt1 : (View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))).toNat < 50000 := by rw [hword1]; exact hok _
  have hw2 : k5_chk2 (View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))) := ⟨chk_lt _ hlt1, chk_lt _ hlt1⟩
  have hword2 : (View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))) = pf (ValueIdx.ix1 (⟨16 * (i 0).val + 2, by omega⟩ : Fin 64000)) :=
    table_word5 pf _ _ _ (by omega) hoffs.2.2.1
  have hlt2 : (View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))).toNat < 50000 := by rw [hword2]; exact hok _
  have hw3 : k5_chk3 (View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))) := ⟨chk_lt _ hlt2, chk_lt _ hlt2⟩
  have hword3 : (View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))) = pf (ValueIdx.ix1 (⟨16 * (i 0).val + 3, by omega⟩ : Fin 64000)) :=
    table_word5 pf _ _ _ (by omega) hoffs.2.2.2.1
  have hlt3 : (View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))).toNat < 50000 := by rw [hword3]; exact hok _
  have hw4 : k5_chk4 (View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))) := ⟨chk_lt _ hlt3, chk_lt _ hlt3⟩
  have hword4 : (View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))) = pf (ValueIdx.ix1 (⟨16 * (i 0).val + 4, by omega⟩ : Fin 64000)) :=
    table_word5 pf _ _ _ (by omega) hoffs.2.2.2.2.1
  have hlt4 : (View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))).toNat < 50000 := by rw [hword4]; exact hok _
  have hw5 : k5_chk5 (View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))) := ⟨chk_lt _ hlt4, chk_lt _ hlt4⟩
  have hword5 : (View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))) = pf (ValueIdx.ix1 (⟨16 * (i 0).val + 5, by omega⟩ : Fin 64000)) :=
    table_word5 pf _ _ _ (by omega) hoffs.2.2.2.2.2.1
  have hlt5 : (View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))).toNat < 50000 := by rw [hword5]; exact hok _
  have hw6 : k5_chk6 (View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))) := ⟨chk_lt _ hlt5, chk_lt _ hlt5⟩
  have hword6 : (View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))) = pf (ValueIdx.ix1 (⟨16 * (i 0).val + 6, by omega⟩ : Fin 64000)) :=
    table_word5 pf _ _ _ (by omega) hoffs.2.2.2.2.2.2.1
  have hlt6 : (View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))).toNat < 50000 := by rw [hword6]; exact hok _
  have hw7 : k5_chk7 (View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))) := ⟨chk_lt _ hlt6, chk_lt _ hlt6⟩
  have hword7 : (View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))) = pf (ValueIdx.ix1 (⟨16 * (i 0).val + 7, by omega⟩ : Fin 64000)) :=
    table_word5 pf _ _ _ (by omega) hoffs.2.2.2.2.2.2.2.1
  have hlt7 : (View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))).toNat < 50000 := by rw [hword7]; exact hok _
  have hw8 : k5_chk8 (View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))) := ⟨chk_lt _ hlt7, chk_lt _ hlt7⟩
  have hword8 : (View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))) = pf (ValueIdx.ix1 (⟨16 * (i 0).val + 8, by omega⟩ : Fin 64000)) :=
    table_word5 pf _ _ _ (by omega) hoffs.2.2.2.2.2.2.2.2.1
  have hlt8 : (View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))).toNat < 50000 := by rw [hword8]; exact hok _
  have hw9 : k5_chk9 (View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))) := ⟨chk_lt _ hlt8, chk_lt _ hlt8⟩
  have hword9 : (View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))) = pf (ValueIdx.ix1 (⟨16 * (i 0).val + 9, by omega⟩ : Fin 64000)) :=
    table_word5 pf _ _ _ (by omega) hoffs.2.2.2.2.2.2.2.2.2.1
  have hlt9 : (View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))).toNat < 50000 := by rw [hword9]; exact hok _
  have hw10 : k5_chk10 (View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))) := ⟨chk_lt _ hlt9, chk_lt _ hlt9⟩
  have hword10 : (View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))) = pf (ValueIdx.ix1 (⟨16 * (i 0).val + 10, by omega⟩ : Fin 64000)) :=
    table_word5 pf _ _ _ (by omega) hoffs.2.2.2.2.2.2.2.2.2.2.1
  have hlt10 : (View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))).toNat < 50000 := by rw [hword10]; exact hok _
  have hw11 : k5_chk11 (View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))) := ⟨chk_lt _ hlt10, chk_lt _ hlt10⟩
  have hword11 : (View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))) = pf (ValueIdx.ix1 (⟨16 * (i 0).val + 11, by omega⟩ : Fin 64000)) :=
    table_word5 pf _ _ _ (by omega) hoffs.2.2.2.2.2.2.2.2.2.2.2.1
  have hlt11 : (View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))).toNat < 50000 := by rw [hword11]; exact hok _
  have hw12 : k5_chk12 (View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))) := ⟨chk_lt _ hlt11, chk_lt _ hlt11⟩
  have hword12 : (View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))) = pf (ValueIdx.ix1 (⟨16 * (i 0).val + 12, by omega⟩ : Fin 64000)) :=
    table_word5 pf _ _ _ (by omega) hoffs.2.2.2.2.2.2.2.2.2.2.2.2.1
  have hlt12 : (View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))).toNat < 50000 := by rw [hword12]; exact hok _
  have hw13 : k5_chk13 (View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))) := ⟨chk_lt _ hlt12, chk_lt _ hlt12⟩
  have hword13 : (View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))) = pf (ValueIdx.ix1 (⟨16 * (i 0).val + 13, by omega⟩ : Fin 64000)) :=
    table_word5 pf _ _ _ (by omega) hoffs.2.2.2.2.2.2.2.2.2.2.2.2.2.1
  have hlt13 : (View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))).toNat < 50000 := by rw [hword13]; exact hok _
  have hw14 : k5_chk14 (View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))) := ⟨chk_lt _ hlt13, chk_lt _ hlt13⟩
  have hword14 : (View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))) = pf (ValueIdx.ix1 (⟨16 * (i 0).val + 14, by omega⟩ : Fin 64000)) :=
    table_word5 pf _ _ _ (by omega) hoffs.2.2.2.2.2.2.2.2.2.2.2.2.2.2.1
  have hlt14 : (View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))).toNat < 50000 := by rw [hword14]; exact hok _
  have hw15 : k5_chk15 (View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))) := ⟨chk_lt _ hlt14, chk_lt _ hlt14⟩
  have hword15 : (View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))) = pf (ValueIdx.ix1 (⟨16 * (i 0).val + 15, by omega⟩ : Fin 64000)) :=
    table_word5 pf _ _ _ (by omega) hoffs.2.2.2.2.2.2.2.2.2.2.2.2.2.2.2
  have hlt15 : (View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))).toNat < 50000 := by rw [hword15]; exact hok _
  have hw16 : k5_chk16 (View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))) := chk_lt _ hlt15
  rw [cc5__gather_kernel_eq_skeleton]; unfold cc5__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb5M).IsWhole).eq_unread hfp
  ihave HR := (rows_split5 (F := F) c fsc) $$ HSC
  icases HR with ⟨HS0, HS1, HS2, HS3, HS4, HS5, HS6, HS7, HS8, HS9, HS10, HS11, HS12, HS13, HS14, HS15⟩
  ihave HS0 := (Entails.of_eq (show ((gsc5M.view.loc (c : Thread nD τ) ↦[gr5_0M.view.set]{fullShare} fsc : sProp 𝕄)) = (gr5_0M.view.loc (c : Thread nD τ) ↦[gr5_0M.view.set]{fullShare} fsc) from rfl)) $$ HS0
  ihave HS1 := (Entails.of_eq (show ((gsc5M.view.loc (c : Thread nD τ) ↦[gr5_1M.view.set]{fullShare} fsc : sProp 𝕄)) = (gr5_1M.view.loc (c : Thread nD τ) ↦[gr5_1M.view.set]{fullShare} fsc) from rfl)) $$ HS1
  ihave HS2 := (Entails.of_eq (show ((gsc5M.view.loc (c : Thread nD τ) ↦[gr5_2M.view.set]{fullShare} fsc : sProp 𝕄)) = (gr5_2M.view.loc (c : Thread nD τ) ↦[gr5_2M.view.set]{fullShare} fsc) from rfl)) $$ HS2
  ihave HS3 := (Entails.of_eq (show ((gsc5M.view.loc (c : Thread nD τ) ↦[gr5_3M.view.set]{fullShare} fsc : sProp 𝕄)) = (gr5_3M.view.loc (c : Thread nD τ) ↦[gr5_3M.view.set]{fullShare} fsc) from rfl)) $$ HS3
  ihave HS4 := (Entails.of_eq (show ((gsc5M.view.loc (c : Thread nD τ) ↦[gr5_4M.view.set]{fullShare} fsc : sProp 𝕄)) = (gr5_4M.view.loc (c : Thread nD τ) ↦[gr5_4M.view.set]{fullShare} fsc) from rfl)) $$ HS4
  ihave HS5 := (Entails.of_eq (show ((gsc5M.view.loc (c : Thread nD τ) ↦[gr5_5M.view.set]{fullShare} fsc : sProp 𝕄)) = (gr5_5M.view.loc (c : Thread nD τ) ↦[gr5_5M.view.set]{fullShare} fsc) from rfl)) $$ HS5
  ihave HS6 := (Entails.of_eq (show ((gsc5M.view.loc (c : Thread nD τ) ↦[gr5_6M.view.set]{fullShare} fsc : sProp 𝕄)) = (gr5_6M.view.loc (c : Thread nD τ) ↦[gr5_6M.view.set]{fullShare} fsc) from rfl)) $$ HS6
  ihave HS7 := (Entails.of_eq (show ((gsc5M.view.loc (c : Thread nD τ) ↦[gr5_7M.view.set]{fullShare} fsc : sProp 𝕄)) = (gr5_7M.view.loc (c : Thread nD τ) ↦[gr5_7M.view.set]{fullShare} fsc) from rfl)) $$ HS7
  ihave HS8 := (Entails.of_eq (show ((gsc5M.view.loc (c : Thread nD τ) ↦[gr5_8M.view.set]{fullShare} fsc : sProp 𝕄)) = (gr5_8M.view.loc (c : Thread nD τ) ↦[gr5_8M.view.set]{fullShare} fsc) from rfl)) $$ HS8
  ihave HS9 := (Entails.of_eq (show ((gsc5M.view.loc (c : Thread nD τ) ↦[gr5_9M.view.set]{fullShare} fsc : sProp 𝕄)) = (gr5_9M.view.loc (c : Thread nD τ) ↦[gr5_9M.view.set]{fullShare} fsc) from rfl)) $$ HS9
  ihave HS10 := (Entails.of_eq (show ((gsc5M.view.loc (c : Thread nD τ) ↦[gr5_10M.view.set]{fullShare} fsc : sProp 𝕄)) = (gr5_10M.view.loc (c : Thread nD τ) ↦[gr5_10M.view.set]{fullShare} fsc) from rfl)) $$ HS10
  ihave HS11 := (Entails.of_eq (show ((gsc5M.view.loc (c : Thread nD τ) ↦[gr5_11M.view.set]{fullShare} fsc : sProp 𝕄)) = (gr5_11M.view.loc (c : Thread nD τ) ↦[gr5_11M.view.set]{fullShare} fsc) from rfl)) $$ HS11
  ihave HS12 := (Entails.of_eq (show ((gsc5M.view.loc (c : Thread nD τ) ↦[gr5_12M.view.set]{fullShare} fsc : sProp 𝕄)) = (gr5_12M.view.loc (c : Thread nD τ) ↦[gr5_12M.view.set]{fullShare} fsc) from rfl)) $$ HS12
  ihave HS13 := (Entails.of_eq (show ((gsc5M.view.loc (c : Thread nD τ) ↦[gr5_13M.view.set]{fullShare} fsc : sProp 𝕄)) = (gr5_13M.view.loc (c : Thread nD τ) ↦[gr5_13M.view.set]{fullShare} fsc) from rfl)) $$ HS13
  ihave HS14 := (Entails.of_eq (show ((gsc5M.view.loc (c : Thread nD τ) ↦[gr5_14M.view.set]{fullShare} fsc : sProp 𝕄)) = (gr5_14M.view.loc (c : Thread nD τ) ↦[gr5_14M.view.set]{fullShare} fsc) from rfl)) $$ HS14
  ihave HS15 := (Entails.of_eq (show ((gsc5M.view.loc (c : Thread nD τ) ↦[gr5_15M.view.set]{fullShare} fsc : sProp 𝕄)) = (gr5_15M.view.loc (c : Thread nD τ) ↦[gr5_15M.view.set]{fullShare} fsc) from rfl)) $$ HS15
  ihave HB := (split16 (ℓ := ghb5M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join5 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb5M.view (Rect.unit (s := S64000) (k5_off1 i) S1.size (k5_off1_inb i)).toLoadRect ((Memref.isWhole_whole _ : gtb5M.IsWhole).unread pf) (Shape.Idx.first (numel1_S1.symm ▸ Nat.one_pos))).toNat, hlt0⟩ : Fin 50000) (0 : Fin 1) l) :=
    row_landed5 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb5M.view (Rect.unit (s := S64000) (k5_off3 i) S1.size (k5_off3_inb i)).toLoadRect ((Memref.isWhole_whole _ : gtb5M.IsWhole).unread pf) (Shape.Idx.first (numel1_S1.symm ▸ Nat.one_pos))).toNat, hlt1⟩ : Fin 50000) (0 : Fin 1) l) :=
    row_landed5 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb5M.view (Rect.unit (s := S64000) (k5_off5 i) S1.size (k5_off5_inb i)).toLoadRect ((Memref.isWhole_whole _ : gtb5M.IsWhole).unread pf) (Shape.Idx.first (numel1_S1.symm ▸ Nat.one_pos))).toNat, hlt2⟩ : Fin 50000) (0 : Fin 1) l) :=
    row_landed5 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb5M.view (Rect.unit (s := S64000) (k5_off7 i) S1.size (k5_off7_inb i)).toLoadRect ((Memref.isWhole_whole _ : gtb5M.IsWhole).unread pf) (Shape.Idx.first (numel1_S1.symm ▸ Nat.one_pos))).toNat, hlt3⟩ : Fin 50000) (0 : Fin 1) l) :=
    row_landed5 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb5M.view (Rect.unit (s := S64000) (k5_off9 i) S1.size (k5_off9_inb i)).toLoadRect ((Memref.isWhole_whole _ : gtb5M.IsWhole).unread pf) (Shape.Idx.first (numel1_S1.symm ▸ Nat.one_pos))).toNat, hlt4⟩ : Fin 50000) (0 : Fin 1) l) :=
    row_landed5 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb5M.view (Rect.unit (s := S64000) (k5_off11 i) S1.size (k5_off11_inb i)).toLoadRect ((Memref.isWhole_whole _ : gtb5M.IsWhole).unread pf) (Shape.Idx.first (numel1_S1.symm ▸ Nat.one_pos))).toNat, hlt5⟩ : Fin 50000) (0 : Fin 1) l) :=
    row_landed5 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb5M.view (Rect.unit (s := S64000) (k5_off13 i) S1.size (k5_off13_inb i)).toLoadRect ((Memref.isWhole_whole _ : gtb5M.IsWhole).unread pf) (Shape.Idx.first (numel1_S1.symm ▸ Nat.one_pos))).toNat, hlt6⟩ : Fin 50000) (0 : Fin 1) l) :=
    row_landed5 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb5M.view (Rect.unit (s := S64000) (k5_off15 i) S1.size (k5_off15_inb i)).toLoadRect ((Memref.isWhole_whole _ : gtb5M.IsWhole).unread pf) (Shape.Idx.first (numel1_S1.symm ▸ Nat.one_pos))).toNat, hlt7⟩ : Fin 50000) (0 : Fin 1) l) :=
    row_landed5 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb5M.view (Rect.unit (s := S64000) (k5_off17 i) S1.size (k5_off17_inb i)).toLoadRect ((Memref.isWhole_whole _ : gtb5M.IsWhole).unread pf) (Shape.Idx.first (numel1_S1.symm ▸ Nat.one_pos))).toNat, hlt8⟩ : Fin 50000) (0 : Fin 1) l) :=
    row_landed5 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb5M.view (Rect.unit (s := S64000) (k5_off19 i) S1.size (k5_off19_inb i)).toLoadRect ((Memref.isWhole_whole _ : gtb5M.IsWhole).unread pf) (Shape.Idx.first (numel1_S1.symm ▸ Nat.one_pos))).toNat, hlt9⟩ : Fin 50000) (0 : Fin 1) l) :=
    row_landed5 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb5M.view (Rect.unit (s := S64000) (k5_off21 i) S1.size (k5_off21_inb i)).toLoadRect ((Memref.isWhole_whole _ : gtb5M.IsWhole).unread pf) (Shape.Idx.first (numel1_S1.symm ▸ Nat.one_pos))).toNat, hlt10⟩ : Fin 50000) (0 : Fin 1) l) :=
    row_landed5 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb5M.view (Rect.unit (s := S64000) (k5_off23 i) S1.size (k5_off23_inb i)).toLoadRect ((Memref.isWhole_whole _ : gtb5M.IsWhole).unread pf) (Shape.Idx.first (numel1_S1.symm ▸ Nat.one_pos))).toNat, hlt11⟩ : Fin 50000) (0 : Fin 1) l) :=
    row_landed5 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb5M.view (Rect.unit (s := S64000) (k5_off25 i) S1.size (k5_off25_inb i)).toLoadRect ((Memref.isWhole_whole _ : gtb5M.IsWhole).unread pf) (Shape.Idx.first (numel1_S1.symm ▸ Nat.one_pos))).toNat, hlt12⟩ : Fin 50000) (0 : Fin 1) l) :=
    row_landed5 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb5M.view (Rect.unit (s := S64000) (k5_off27 i) S1.size (k5_off27_inb i)).toLoadRect ((Memref.isWhole_whole _ : gtb5M.IsWhole).unread pf) (Shape.Idx.first (numel1_S1.symm ▸ Nat.one_pos))).toNat, hlt13⟩ : Fin 50000) (0 : Fin 1) l) :=
    row_landed5 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb5M.view (Rect.unit (s := S64000) (k5_off29 i) S1.size (k5_off29_inb i)).toLoadRect ((Memref.isWhole_whole _ : gtb5M.IsWhole).unread pf) (Shape.Idx.first (numel1_S1.symm ▸ Nat.one_pos))).toNat, hlt14⟩ : Fin 50000) (0 : Fin 1) l) :=
    row_landed5 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb5M.view (Rect.unit (s := S64000) (k5_off31 i) S1.size (k5_off31_inb i)).toLoadRect ((Memref.isWhole_whole _ : gtb5M.IsWhole).unread pf) (Shape.Idx.first (numel1_S1.symm ▸ Nat.one_pos))).toNat, hlt15⟩ : Fin 50000) (0 : Fin 1) l) :=
    row_landed5 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load5]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb5M).IsWhole).read_unread _
  isplitl [Hh0 Hh1 Hh2 Hh3 Hh4 Hh5 Hh6 Hh7 Hh8 Hh9 Hh10 Hh11 Hh12 Hh13 Hh14 Hh15]
  · iapply (join16 (ℓ := ghb5M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather5.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 5's own DMA semaphores: one per row of the step. -/
abbrev gsem5 : Fin 16 → SemLoc sig := fun j =>
  (![SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107] : Fin 16 → SemLoc sig) j
theorem gsemFacts5 : Pipeline.OwnSemFacts spec5 gsem5 := by decide

/-- The buffers the body reads without a window: the node table in HBM and its chunk of the edge-source table. -/
def gH5 : Finset (Ref sig .tc) := {main_v0, main_v11}
theorem gH5_sub : gH5 ⊆ Pipeline.restRefs sig spec5 := by decide

/-- The call's prefetched table at the contents the region finds. -/
def gadm5 (c : Dev nD) : (pcfg5 (F := F)).Adm := ⟨fun k => match k with | ⟨0, _⟩ => V c main_v11, trivial⟩

/-- The proof data of gather call 5 on core `c`: the output array as found; after step `t` the output block holds
    the gathered rows; the invariant carries the scratch, the call's semaphores at zero and the two tables as found. -/
def gdat5 (a : (pcfg5 (F := F)).Adm) (c : Dev nD) : Dat τ (Elt F) Unit ℕ (Pipeline.UD sig nD τ) ℕ (cfg5 a) c where
  A w := V c (Pipeline.arrRef spec5 w)
  after w t := match w with
    | ⟨0, _⟩ => gblock (V c main_v0) (V c main_v11) t.val
  Φ _ := Pipeline.ΦD gsem5 spec5 gH5 V c
  q _ := fullShare
  owed _ := 0

theorem gdat5_A (a : (pcfg5 (F := F)).Adm) (c : Dev nD) (w : Fin (cfg5 a).W) :
    (gdat5 V a c).A w = V c (Pipeline.arrRef spec5 w) := by dsimp only [gdat5]
theorem gdat5_after (a : (pcfg5 (F := F)).Adm) (c : Dev nD) (t : Fin (cfg5 a).N) :
    (gdat5 V a c).after 0 t = gblock (V c main_v0) (V c main_v11) t.val := rfl

/-! ## The body obligation, from the body's run -/

/-- The call's scratch buffer whole at some contents, said of the buffer and said through the whole-buffer memref. -/
theorem gsc5_whole (c : Dev nD) :
    (iprop(∃ f, gsc5M.view.loc (c : Thread nD τ) ↦[gsc5M.view.set]{fullShare} f) : sProp 𝕄)
      = iprop(∃ f : Buf (Elt F) ((c : Thread nD τ).loc cc5_scratch0), ((c : Thread nD τ).loc cc5_scratch0) ↦{fullShare} f) := by
  simp only [gsc5M, Memref.view_whole, View.set_whole]

/-- The region invariant of gather call 5, conjunct by conjunct: the call's scratch buffer whole at some contents beside
    the scoped buffers it does not touch, the generator register at some state, its sixteen semaphores at zero, and
    the two tables whole at the contents the region finds. -/
theorem PhiD5_eq (c : Dev nD) :
    (Pipeline.ΦD gsem5 spec5 gH5 V c : sProp 𝕄)
      = iprop(iprop((∃ f, gsc5M.view.loc (c : Thread nD τ) ↦[gsc5M.view.set]{fullShare} f)
            ∗ Pipeline.scopedRestBut (Ix := Unit) (Name := ℕ) (U := Pipeline.UD sig nD τ) (Lvl := ℕ) (Val := Elt F) spec5 c [cc5_scratch0])
          ∗ (∃ r, prngReg c r)
          ∗ iprop(semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0)
          ∗ iprop((ghb5M.view.loc (c : Thread nD τ) ↦{fullShare} V c main_v0) ∗ owns (c : Thread nD τ) gtb5M fullShare (V c main_v11))) := by
  rw [gsc5_whole, owns_whole, Pipeline.ΦD_eq, scopedRest5_split,
    Pipeline.ownSems0_eq_of_list c gsem5 [0, 1, 2, 3, 4, 5, 6, 7, 8, 9, 10, 11, 12, 13, 14, 15] (by decide) (by decide),
    BI.bigSep_eq_bigSepL_of_eq [main_v0, main_v11] (by decide) (by decide)]
  rfl

/-- The kernel body of gather call 5 as the pipeline calls it at point `t`: the step's coordinates, the two tables whole,
    the output window's current staging buffer, the scratch buffer and the sixteen semaphores. -/
abbrev gbodyAt5 (a : (pcfg5 (F := F)).Adm) (t : Fin (cfg5 a).N) : Prog (TpuEff nD τ sig (Elt F) Λ₀ .tc) PUnit :=
  cc5__gather_kernel ((cfg5 a).grid.coords t) gtb5M (Memref.isWhole_whole _) ghb5M (Memref.isWhole_whole _)
    (spec5_0.stage ((cfg5 a).slots t 0)) (hstage5_0 (((cfg5 a).slots t 0).cast nbuf5_0)) gsc5M (Memref.isWhole_whole _) cc5_scratch1

/-- The grid is one axis of 4000 steps: the step's one coordinate is its number. -/
theorem gcoord5 (a : (pcfg5 (F := F)).Adm) (t : Fin (cfg5 a).N) : (((cfg5 a).grid.coords t) 0).val = t.val := by
  have ht : t.val < 4000 := lt_of_lt_of_eq t.isLt N_5
  show t.val / 1 % 4000 = t.val
  omega

/-- What the body is called with at point `t`: the invariant, the core's `owes`, the output window's current staging
    buffer at whatever it holds, -/
def gbodyPre5 (a : (pcfg5 (F := F)).Adm) (c : Dev nD) (t : Fin (cfg5 a).N) : sProp 𝕄 :=
  iprop((gdat5 V a c).Φ t.castSucc ∗ (gdat5 V a c).owesAt () t.castSucc
    ∗ (∃ d, owns (c : Thread nD τ) (spec5_0.stage ((cfg5 a).slots t 0)) fullShare ((gdat5 V a c).before 0 t d)))

/-- and what it returns: the invariant, `owes`, the staging buffer at the step's gathered rows. -/
def gbodyPost5 (a : (pcfg5 (F := F)).Adm) (c : Dev nD) (t : Fin (cfg5 a).N) : sProp 𝕄 :=
  iprop((gdat5 V a c).Φ t.succ ∗ (gdat5 V a c).owesAt () t.succ
    ∗ owns (c : Thread nD τ) (spec5_0.stage ((cfg5 a).slots t 0)) fullShare ((gdat5 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body5 (a : (pcfg5 (F := F)).Adm) (c : Dev nD)
    (hok : ∀ e : S64000.Idx, (V c main_v11 e).toNat < 50000) (t : Fin (cfg5 a).N) :
    gbodyPre5 V a c t ⊢ wp frame (wpE (defs₀ (F := F)) Variants.none c none) Set.univ (gbodyAt5 a t) (fun _ => gbodyPost5 V a c t) := by
  unfold gbodyPre5 gbodyPost5 gbodyAt5
  rw [show (gdat5 V a c).Φ t.succ = Pipeline.ΦD gsem5 spec5 gH5 V c from rfl,
    show (gdat5 V a c).Φ t.castSucc = Pipeline.ΦD gsem5 spec5 gH5 V c from rfl, gdat5_after, PhiD5_eq]
  unfold Dat.owesAt Pipeline.owesWithin
  rw [show (gdat5 V a c).owed t.castSucc = 0 from rfl, show (gdat5 V a c).owed t.succ = 0 from rfl]
  have hrun := fun W K => gather_run5 (F := F) c ((cfg5 a).grid.coords t) (spec5_0.stage ((cfg5 a).slots t 0))
    (hstage5_0 (((cfg5 a).slots t 0).cast nbuf5_0)) (V c main_v11) (V c main_v0) hok W K
  rw [gcoord5 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 5, when every word of its table names a row of the node table. -/
theorem gather_obligation5 (a : (pcfg5 (F := F)).Adm) (c : Dev nD)
    (hok : ∀ e : S64000.Idx, (V c main_v11 e).toNat < 50000) :
    BodyObligation (gdat5 (F := F) V a c) (defs₀ (F := F)) Variants.none () Set.univ := fun t => by
  rw [bigSep_W5, bigSep_W5]
  exact gsound_body5 V a c hok t

end

end Cert.Kernel.Hand

end
-- ==== Proof.KRowsJoin6.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 6's scratch buffer, whole, and its sixteen rows as the body addresses them. -/
abbrev gsc6M : Memref sig .tc .vmem S16x1x128 .f32 := Memref.whole cc6_scratch0
abbrev gr6_0M : Memref sig .tc .vmem S1x128 .f32 := ((Memref.whole cc6_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr6_1M : Memref sig .tc .vmem S1x128 .f32 := ((Memref.whole cc6_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr6_2M : Memref sig .tc .vmem S1x128 .f32 := ((Memref.whole cc6_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr6_3M : Memref sig .tc .vmem S1x128 .f32 := ((Memref.whole cc6_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr6_4M : Memref sig .tc .vmem S1x128 .f32 := ((Memref.whole cc6_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr6_5M : Memref sig .tc .vmem S1x128 .f32 := ((Memref.whole cc6_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr6_6M : Memref sig .tc .vmem S1x128 .f32 := ((Memref.whole cc6_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr6_7M : Memref sig .tc .vmem S1x128 .f32 := ((Memref.whole cc6_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr6_8M : Memref sig .tc .vmem S1x128 .f32 := ((Memref.whole cc6_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr6_9M : Memref sig .tc .vmem S1x128 .f32 := ((Memref.whole cc6_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr6_10M : Memref sig .tc .vmem S1x128 .f32 := ((Memref.whole cc6_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr6_11M : Memref sig .tc .vmem S1x128 .f32 := ((Memref.whole cc6_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr6_12M : Memref sig .tc .vmem S1x128 .f32 := ((Memref.whole cc6_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr6_13M : Memref sig .tc .vmem S1x128 .f32 := ((Memref.whole cc6_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr6_14M : Memref sig .tc .vmem S1x128 .f32 := ((Memref.whole cc6_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr6_15M : Memref sig .tc .vmem S1x128 .f32 := ((Memref.whole cc6_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr6_0M.view.set = rowSet (0 : Fin 16) := by
  refine (View.set_reshape _ _).trans ?_
  refine (View.set_slice_whole _ _).trans ?_
  rfl
private theorem row_set_1 : gr6_1M.view.set = rowSet (1 : Fin 16) := by
  refine (View.set_reshape _ _).trans ?_
  refine (View.set_slice_whole _ _).trans ?_
  rfl
private theorem row_set_2 : gr6_2M.view.set = rowSet (2 : Fin 16) := by
  refine (View.set_reshape _ _).trans ?_
  refine (View.set_slice_whole _ _).trans ?_
  rfl
private theorem row_set_3 : gr6_3M.view.set = rowSet (3 : Fin 16) := by
  refine (View.set_reshape _ _).trans ?_
  refine (View.set_slice_whole _ _).trans ?_
  rfl
private theorem row_set_4 : gr6_4M.view.set = rowSet (4 : Fin 16) := by
  refine (View.set_reshape _ _).trans ?_
  refine (View.set_slice_whole _ _).trans ?_
  rfl
private theorem row_set_5 : gr6_5M.view.set = rowSet (5 : Fin 16) := by
  refine (View.set_reshape _ _).trans ?_
  refine (View.set_slice_whole _ _).trans ?_
  rfl
private theorem row_set_6 : gr6_6M.view.set = rowSet (6 : Fin 16) := by
  refine (View.set_reshape _ _).trans ?_
  refine (View.set_slice_whole _ _).trans ?_
  rfl
private theorem row_set_7 : gr6_7M.view.set = rowSet (7 : Fin 16) := by
  refine (View.set_reshape _ _).trans ?_
  refine (View.set_slice_whole _ _).trans ?_
  rfl
private theorem row_set_8 : gr6_8M.view.set = rowSet (8 : Fin 16) := by
  refine (View.set_reshape _ _).trans ?_
  refine (View.set_slice_whole _ _).trans ?_
  rfl
private theorem row_set_9 : gr6_9M.view.set = rowSet (9 : Fin 16) := by
  refine (View.set_reshape _ _).trans ?_
  refine (View.set_slice_whole _ _).trans ?_
  rfl
private theorem row_set_10 : gr6_10M.view.set = rowSet (10 : Fin 16) := by
  refine (View.set_reshape _ _).trans ?_
  refine (View.set_slice_whole _ _).trans ?_
  rfl
private theorem row_set_11 : gr6_11M.view.set = rowSet (11 : Fin 16) := by
  refine (View.set_reshape _ _).trans ?_
  refine (View.set_slice_whole _ _).trans ?_
  rfl
private theorem row_set_12 : gr6_12M.view.set = rowSet (12 : Fin 16) := by
  refine (View.set_reshape _ _).trans ?_
  refine (View.set_slice_whole _ _).trans ?_
  rfl
private theorem row_set_13 : gr6_13M.view.set = rowSet (13 : Fin 16) := by
  refine (View.set_reshape _ _).trans ?_
  refine (View.set_slice_whole _ _).trans ?_
  rfl
private theorem row_set_14 : gr6_14M.view.set = rowSet (14 : Fin 16) := by
  refine (View.set_reshape _ _).trans ?_
  refine (View.set_slice_whole _ _).trans ?_
  rfl
private theorem row_set_15 : gr6_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join6 (c : Dev nD) (f0 f1 f2 f3 f4 f5 f6 f7 f8 f9 f10 f11 f12 f13 f14 f15 : Buf (Elt F) (gsc6M.view.loc (c : Thread nD τ))) :
    (iprop((gsc6M.view.loc (c : Thread nD τ) ↦[gr6_0M.view.set]{fullShare} f0)
        ∗ (gsc6M.view.loc (c : Thread nD τ) ↦[gr6_1M.view.set]{fullShare} f1)
        ∗ (gsc6M.view.loc (c : Thread nD τ) ↦[gr6_2M.view.set]{fullShare} f2)
        ∗ (gsc6M.view.loc (c : Thread nD τ) ↦[gr6_3M.view.set]{fullShare} f3)
        ∗ (gsc6M.view.loc (c : Thread nD τ) ↦[gr6_4M.view.set]{fullShare} f4)
        ∗ (gsc6M.view.loc (c : Thread nD τ) ↦[gr6_5M.view.set]{fullShare} f5)
        ∗ (gsc6M.view.loc (c : Thread nD τ) ↦[gr6_6M.view.set]{fullShare} f6)
        ∗ (gsc6M.view.loc (c : Thread nD τ) ↦[gr6_7M.view.set]{fullShare} f7)
        ∗ (gsc6M.view.loc (c : Thread nD τ) ↦[gr6_8M.view.set]{fullShare} f8)
        ∗ (gsc6M.view.loc (c : Thread nD τ) ↦[gr6_9M.view.set]{fullShare} f9)
        ∗ (gsc6M.view.loc (c : Thread nD τ) ↦[gr6_10M.view.set]{fullShare} f10)
        ∗ (gsc6M.view.loc (c : Thread nD τ) ↦[gr6_11M.view.set]{fullShare} f11)
        ∗ (gsc6M.view.loc (c : Thread nD τ) ↦[gr6_12M.view.set]{fullShare} f12)
        ∗ (gsc6M.view.loc (c : Thread nD τ) ↦[gr6_13M.view.set]{fullShare} f13)
        ∗ (gsc6M.view.loc (c : Thread nD τ) ↦[gr6_14M.view.set]{fullShare} f14)
        ∗ (gsc6M.view.loc (c : Thread nD τ) ↦[gr6_15M.view.set]{fullShare} f15)) : sProp 𝕄)
      ⊢ iprop(∃ g : Buf (Elt F) (gsc6M.view.loc (c : Thread nD τ)),
          ⌜(∀ i ∈ gr6_0M.view.set, g i = f0 i)
            ∧ (∀ i ∈ gr6_1M.view.set, g i = f1 i)
            ∧ (∀ i ∈ gr6_2M.view.set, g i = f2 i)
            ∧ (∀ i ∈ gr6_3M.view.set, g i = f3 i)
            ∧ (∀ i ∈ gr6_4M.view.set, g i = f4 i)
            ∧ (∀ i ∈ gr6_5M.view.set, g i = f5 i)
            ∧ (∀ i ∈ gr6_6M.view.set, g i = f6 i)
            ∧ (∀ i ∈ gr6_7M.view.set, g i = f7 i)
            ∧ (∀ i ∈ gr6_8M.view.set, g i = f8 i)
            ∧ (∀ i ∈ gr6_9M.view.set, g i = f9 i)
            ∧ (∀ i ∈ gr6_10M.view.set, g i = f10 i)
            ∧ (∀ i ∈ gr6_11M.view.set, g i = f11 i)
            ∧ (∀ i ∈ gr6_12M.view.set, g i = f12 i)
            ∧ (∀ i ∈ gr6_13M.view.set, g i = f13 i)
            ∧ (∀ i ∈ gr6_14M.view.set, g i = f14 i)
            ∧ (∀ i ∈ gr6_15M.view.set, g i = f15 i)⌝
          ∗ (gsc6M.view.loc (c : Thread nD τ) ↦[gsc6M.view.set]{fullShare} g)) := by
  have hw : gsc6M.view.set = Finset.univ.biUnion rowSet := (View.set_whole _).trans rowSet_cover.symm
  exact join16 (ℓ := gsc6M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split6 (c : Dev nD) (f : Buf (Elt F) (gsc6M.view.loc (c : Thread nD τ))) :
    (gsc6M.view.loc (c : Thread nD τ) ↦[gsc6M.view.set]{fullShare} f : sProp 𝕄)
      ⊢ iprop((gsc6M.view.loc (c : Thread nD τ) ↦[gr6_0M.view.set]{fullShare} f)
        ∗ (gsc6M.view.loc (c : Thread nD τ) ↦[gr6_1M.view.set]{fullShare} f)
        ∗ (gsc6M.view.loc (c : Thread nD τ) ↦[gr6_2M.view.set]{fullShare} f)
        ∗ (gsc6M.view.loc (c : Thread nD τ) ↦[gr6_3M.view.set]{fullShare} f)
        ∗ (gsc6M.view.loc (c : Thread nD τ) ↦[gr6_4M.view.set]{fullShare} f)
        ∗ (gsc6M.view.loc (c : Thread nD τ) ↦[gr6_5M.view.set]{fullShare} f)
        ∗ (gsc6M.view.loc (c : Thread nD τ) ↦[gr6_6M.view.set]{fullShare} f)
        ∗ (gsc6M.view.loc (c : Thread nD τ) ↦[gr6_7M.view.set]{fullShare} f)
        ∗ (gsc6M.view.loc (c : Thread nD τ) ↦[gr6_8M.view.set]{fullShare} f)
        ∗ (gsc6M.view.loc (c : Thread nD τ) ↦[gr6_9M.view.set]{fullShare} f)
        ∗ (gsc6M.view.loc (c : Thread nD τ) ↦[gr6_10M.view.set]{fullShare} f)
        ∗ (gsc6M.view.loc (c : Thread nD τ) ↦[gr6_11M.view.set]{fullShare} f)
        ∗ (gsc6M.view.loc (c : Thread nD τ) ↦[gr6_12M.view.set]{fullShare} f)
        ∗ (gsc6M.view.loc (c : Thread nD τ) ↦[gr6_13M.view.set]{fullShare} f)
        ∗ (gsc6M.view.loc (c : Thread nD τ) ↦[gr6_14M.view.set]{fullShare} f)
        ∗ (gsc6M.view.loc (c : Thread nD τ) ↦[gr6_15M.view.set]{fullShare} f)) := by
  have hw : gsc6M.view.set = Finset.univ.biUnion rowSet := (View.set_whole _).trans rowSet_cover.symm
  exact split16 (ℓ := gsc6M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows6.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin6
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 6's chunk of the edge-source table in scalar memory, whole. -/
abbrev ghb6M : Memref sig .tc .hbm S50000x1x128 .f32 := Memref.whole main_v0
abbrev gtb6M : Memref sig .tc .smem S64000 .i32 := Memref.whole main_v13

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc6M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb6M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed6 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb6M.view.loc (c : Thread nD τ))) (fs g : Buf (Elt F) (gsc6M.view.loc (c : Thread nD τ)))
    (hg : ∀ i ∈ ((gsc6M.slice (Rect.unit (s := S16x1x128) ![j, 0, 0] S1x1x128.size inb) (fun _ => rfl)).squeeze S1x128 squeezes_S1x1x128_S1x128).view.set,
        g i = ((gsc6M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb6M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc6M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb6M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load6 (c : Dev nD) (g : Buf (Elt F) (gsc6M.view.loc (c : Thread nD τ))) (y : S16x1x128.Idx) :
    View.readAt (Elt F) gsc6M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word6 (pf : S64000.Idx → Elt F .i32) (off : Fin 1 → ℕ) (inb : ∀ a, off a + S1.size a ≤ S64000.size a)
    (n : ℕ) (hn : n < 64000) (hoff : off 0 = n) :
    View.readAt (Elt F) gtb6M.view (Rect.unit (s := S64000) off S1.size inb).toLoadRect
        ((Memref.isWhole_whole _ : gtb6M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs6 (i : grid6.Coords) :
    (k6_off1 i) 0 = 16 * (i 0).val + 0
    ∧ (k6_off3 i) 0 = 16 * (i 0).val + 1
    ∧ (k6_off5 i) 0 = 16 * (i 0).val + 2
    ∧ (k6_off7 i) 0 = 16 * (i 0).val + 3
    ∧ (k6_off9 i) 0 = 16 * (i 0).val + 4
    ∧ (k6_off11 i) 0 = 16 * (i 0).val + 5
    ∧ (k6_off13 i) 0 = 16 * (i 0).val + 6
    ∧ (k6_off15 i) 0 = 16 * (i 0).val + 7
    ∧ (k6_off17 i) 0 = 16 * (i 0).val + 8
    ∧ (k6_off19 i) 0 = 16 * (i 0).val + 9
    ∧ (k6_off21 i) 0 = 16 * (i 0).val + 10
    ∧ (k6_off23 i) 0 = 16 * (i 0).val + 11
    ∧ (k6_off25 i) 0 = 16 * (i 0).val + 12
    ∧ (k6_off27 i) 0 = 16 * (i 0).val + 13
    ∧ (k6_off29 i) 0 = 16 * (i 0).val + 14
    ∧ (k6_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun6.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows6
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 6's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run6 (c : Dev nD) (i : grid6.Coords) (arg3 : Memref sig .tc .vmem S16x1x128 .f32) (harg3 : arg3.IsWhole)
    (pf : S64000.Idx → Elt F .i32) (tb : Buf (Elt F) (ghb6M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc6M.view.loc (c : Thread nD τ) ↦[gsc6M.view.set]{fullShare} f)
        ∗ owns (c : Thread nD τ) gtb6M fullShare pf
        ∗ (ghb6M.view.loc (c : Thread nD τ) ↦{fullShare} tb)
        ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0
        ∗ owes (c : Thread nD τ) 0 W
        ∗ (iprop(owns (c : Thread nD τ) arg3 fullShare (gblock tb pf (i 0).val)
            ∗ (∃ f, gsc6M.view.loc (c : Thread nD τ) ↦[gsc6M.view.set]{fullShare} f)
            ∗ owns (c : Thread nD τ) gtb6M fullShare pf
            ∗ (ghb6M.view.loc (c : Thread nD τ) ↦{fullShare} tb)
            ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0
            ∗ (∃ W', owes (c : Thread nD τ) 0 W')) -∗ K ⟨⟩))
      ⊢ wp frame (wpE (defs₀ (F := F)) Variants.none c none) Set.univ
          (cc6__gather_kernel i gtb6M (Memref.isWhole_whole _) ghb6M (Memref.isWhole_whole _) arg3 harg3 gsc6M (Memref.isWhole_whole _) cc6_scratch1) K := by
  have hi : (i 0).val < 4000 := (i 0).isLt
  have hoffs := table_offs6 i
  have hword0 : (View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))) = pf (ValueIdx.ix1 (⟨16 * (i 0).val + 0, by omega⟩ : Fin 64000)) :=
    table_word6 pf _ _ _ (by omega) hoffs.1
  have hlt0 : (View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))).toNat < 50000 := by rw [hword0]; exact hok _
  have hw1 : k6_chk1 (View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))) := ⟨chk_lt _ hlt0, chk_lt _ hlt0⟩
  have hword1 : (View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))) = pf (ValueIdx.ix1 (⟨16 * (i 0).val + 1, by omega⟩ : Fin 64000)) :=
    table_word6 pf _ _ _ (by omega) hoffs.2.1
  have hlt1 : (View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))).toNat < 50000 := by rw [hword1]; exact hok _
  have hw2 : k6_chk2 (View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))) := ⟨chk_lt _ hlt1, chk_lt _ hlt1⟩
  have hword2 : (View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))) = pf (ValueIdx.ix1 (⟨16 * (i 0).val + 2, by omega⟩ : Fin 64000)) :=
    table_word6 pf _ _ _ (by omega) hoffs.2.2.1
  have hlt2 : (View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))).toNat < 50000 := by rw [hword2]; exact hok _
  have hw3 : k6_chk3 (View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))) := ⟨chk_lt _ hlt2, chk_lt _ hlt2⟩
  have hword3 : (View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))) = pf (ValueIdx.ix1 (⟨16 * (i 0).val + 3, by omega⟩ : Fin 64000)) :=
    table_word6 pf _ _ _ (by omega) hoffs.2.2.2.1
  have hlt3 : (View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))).toNat < 50000 := by rw [hword3]; exact hok _
  have hw4 : k6_chk4 (View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))) := ⟨chk_lt _ hlt3, chk_lt _ hlt3⟩
  have hword4 : (View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))) = pf (ValueIdx.ix1 (⟨16 * (i 0).val + 4, by omega⟩ : Fin 64000)) :=
    table_word6 pf _ _ _ (by omega) hoffs.2.2.2.2.1
  have hlt4 : (View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))).toNat < 50000 := by rw [hword4]; exact hok _
  have hw5 : k6_chk5 (View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))) := ⟨chk_lt _ hlt4, chk_lt _ hlt4⟩
  have hword5 : (View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))) = pf (ValueIdx.ix1 (⟨16 * (i 0).val + 5, by omega⟩ : Fin 64000)) :=
    table_word6 pf _ _ _ (by omega) hoffs.2.2.2.2.2.1
  have hlt5 : (View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))).toNat < 50000 := by rw [hword5]; exact hok _
  have hw6 : k6_chk6 (View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))) := ⟨chk_lt _ hlt5, chk_lt _ hlt5⟩
  have hword6 : (View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))) = pf (ValueIdx.ix1 (⟨16 * (i 0).val + 6, by omega⟩ : Fin 64000)) :=
    table_word6 pf _ _ _ (by omega) hoffs.2.2.2.2.2.2.1
  have hlt6 : (View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))).toNat < 50000 := by rw [hword6]; exact hok _
  have hw7 : k6_chk7 (View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))) := ⟨chk_lt _ hlt6, chk_lt _ hlt6⟩
  have hword7 : (View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))) = pf (ValueIdx.ix1 (⟨16 * (i 0).val + 7, by omega⟩ : Fin 64000)) :=
    table_word6 pf _ _ _ (by omega) hoffs.2.2.2.2.2.2.2.1
  have hlt7 : (View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))).toNat < 50000 := by rw [hword7]; exact hok _
  have hw8 : k6_chk8 (View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))) := ⟨chk_lt _ hlt7, chk_lt _ hlt7⟩
  have hword8 : (View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))) = pf (ValueIdx.ix1 (⟨16 * (i 0).val + 8, by omega⟩ : Fin 64000)) :=
    table_word6 pf _ _ _ (by omega) hoffs.2.2.2.2.2.2.2.2.1
  have hlt8 : (View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))).toNat < 50000 := by rw [hword8]; exact hok _
  have hw9 : k6_chk9 (View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))) := ⟨chk_lt _ hlt8, chk_lt _ hlt8⟩
  have hword9 : (View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))) = pf (ValueIdx.ix1 (⟨16 * (i 0).val + 9, by omega⟩ : Fin 64000)) :=
    table_word6 pf _ _ _ (by omega) hoffs.2.2.2.2.2.2.2.2.2.1
  have hlt9 : (View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))).toNat < 50000 := by rw [hword9]; exact hok _
  have hw10 : k6_chk10 (View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))) := ⟨chk_lt _ hlt9, chk_lt _ hlt9⟩
  have hword10 : (View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))) = pf (ValueIdx.ix1 (⟨16 * (i 0).val + 10, by omega⟩ : Fin 64000)) :=
    table_word6 pf _ _ _ (by omega) hoffs.2.2.2.2.2.2.2.2.2.2.1
  have hlt10 : (View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))).toNat < 50000 := by rw [hword10]; exact hok _
  have hw11 : k6_chk11 (View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))) := ⟨chk_lt _ hlt10, chk_lt _ hlt10⟩
  have hword11 : (View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))) = pf (ValueIdx.ix1 (⟨16 * (i 0).val + 11, by omega⟩ : Fin 64000)) :=
    table_word6 pf _ _ _ (by omega) hoffs.2.2.2.2.2.2.2.2.2.2.2.1
  have hlt11 : (View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))).toNat < 50000 := by rw [hword11]; exact hok _
  have hw12 : k6_chk12 (View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))) := ⟨chk_lt _ hlt11, chk_lt _ hlt11⟩
  have hword12 : (View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))) = pf (ValueIdx.ix1 (⟨16 * (i 0).val + 12, by omega⟩ : Fin 64000)) :=
    table_word6 pf _ _ _ (by omega) hoffs.2.2.2.2.2.2.2.2.2.2.2.2.1
  have hlt12 : (View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))).toNat < 50000 := by rw [hword12]; exact hok _
  have hw13 : k6_chk13 (View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))) := ⟨chk_lt _ hlt12, chk_lt _ hlt12⟩
  have hword13 : (View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))) = pf (ValueIdx.ix1 (⟨16 * (i 0).val + 13, by omega⟩ : Fin 64000)) :=
    table_word6 pf _ _ _ (by omega) hoffs.2.2.2.2.2.2.2.2.2.2.2.2.2.1
  have hlt13 : (View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))).toNat < 50000 := by rw [hword13]; exact hok _
  have hw14 : k6_chk14 (View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))) := ⟨chk_lt _ hlt13, chk_lt _ hlt13⟩
  have hword14 : (View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))) = pf (ValueIdx.ix1 (⟨16 * (i 0).val + 14, by omega⟩ : Fin 64000)) :=
    table_word6 pf _ _ _ (by omega) hoffs.2.2.2.2.2.2.2.2.2.2.2.2.2.2.1
  have hlt14 : (View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))).toNat < 50000 := by rw [hword14]; exact hok _
  have hw15 : k6_chk15 (View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))) := ⟨chk_lt _ hlt14, chk_lt _ hlt14⟩
  have hword15 : (View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))) = pf (ValueIdx.ix1 (⟨16 * (i 0).val + 15, by omega⟩ : Fin 64000)) :=
    table_word6 pf _ _ _ (by omega) hoffs.2.2.2.2.2.2.2.2.2.2.2.2.2.2.2
  have hlt15 : (View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))).toNat < 50000 := by rw [hword15]; exact hok _
  have hw16 : k6_chk16 (View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))) := chk_lt _ hlt15
  rw [cc6__gather_kernel_eq_skeleton]; unfold cc6__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb6M).IsWhole).eq_unread hfp
  ihave HR := (rows_split6 (F := F) c fsc) $$ HSC
  icases HR with ⟨HS0, HS1, HS2, HS3, HS4, HS5, HS6, HS7, HS8, HS9, HS10, HS11, HS12, HS13, HS14, HS15⟩
  ihave HS0 := (Entails.of_eq (show ((gsc6M.view.loc (c : Thread nD τ) ↦[gr6_0M.view.set]{fullShare} fsc : sProp 𝕄)) = (gr6_0M.view.loc (c : Thread nD τ) ↦[gr6_0M.view.set]{fullShare} fsc) from rfl)) $$ HS0
  ihave HS1 := (Entails.of_eq (show ((gsc6M.view.loc (c : Thread nD τ) ↦[gr6_1M.view.set]{fullShare} fsc : sProp 𝕄)) = (gr6_1M.view.loc (c : Thread nD τ) ↦[gr6_1M.view.set]{fullShare} fsc) from rfl)) $$ HS1
  ihave HS2 := (Entails.of_eq (show ((gsc6M.view.loc (c : Thread nD τ) ↦[gr6_2M.view.set]{fullShare} fsc : sProp 𝕄)) = (gr6_2M.view.loc (c : Thread nD τ) ↦[gr6_2M.view.set]{fullShare} fsc) from rfl)) $$ HS2
  ihave HS3 := (Entails.of_eq (show ((gsc6M.view.loc (c : Thread nD τ) ↦[gr6_3M.view.set]{fullShare} fsc : sProp 𝕄)) = (gr6_3M.view.loc (c : Thread nD τ) ↦[gr6_3M.view.set]{fullShare} fsc) from rfl)) $$ HS3
  ihave HS4 := (Entails.of_eq (show ((gsc6M.view.loc (c : Thread nD τ) ↦[gr6_4M.view.set]{fullShare} fsc : sProp 𝕄)) = (gr6_4M.view.loc (c : Thread nD τ) ↦[gr6_4M.view.set]{fullShare} fsc) from rfl)) $$ HS4
  ihave HS5 := (Entails.of_eq (show ((gsc6M.view.loc (c : Thread nD τ) ↦[gr6_5M.view.set]{fullShare} fsc : sProp 𝕄)) = (gr6_5M.view.loc (c : Thread nD τ) ↦[gr6_5M.view.set]{fullShare} fsc) from rfl)) $$ HS5
  ihave HS6 := (Entails.of_eq (show ((gsc6M.view.loc (c : Thread nD τ) ↦[gr6_6M.view.set]{fullShare} fsc : sProp 𝕄)) = (gr6_6M.view.loc (c : Thread nD τ) ↦[gr6_6M.view.set]{fullShare} fsc) from rfl)) $$ HS6
  ihave HS7 := (Entails.of_eq (show ((gsc6M.view.loc (c : Thread nD τ) ↦[gr6_7M.view.set]{fullShare} fsc : sProp 𝕄)) = (gr6_7M.view.loc (c : Thread nD τ) ↦[gr6_7M.view.set]{fullShare} fsc) from rfl)) $$ HS7
  ihave HS8 := (Entails.of_eq (show ((gsc6M.view.loc (c : Thread nD τ) ↦[gr6_8M.view.set]{fullShare} fsc : sProp 𝕄)) = (gr6_8M.view.loc (c : Thread nD τ) ↦[gr6_8M.view.set]{fullShare} fsc) from rfl)) $$ HS8
  ihave HS9 := (Entails.of_eq (show ((gsc6M.view.loc (c : Thread nD τ) ↦[gr6_9M.view.set]{fullShare} fsc : sProp 𝕄)) = (gr6_9M.view.loc (c : Thread nD τ) ↦[gr6_9M.view.set]{fullShare} fsc) from rfl)) $$ HS9
  ihave HS10 := (Entails.of_eq (show ((gsc6M.view.loc (c : Thread nD τ) ↦[gr6_10M.view.set]{fullShare} fsc : sProp 𝕄)) = (gr6_10M.view.loc (c : Thread nD τ) ↦[gr6_10M.view.set]{fullShare} fsc) from rfl)) $$ HS10
  ihave HS11 := (Entails.of_eq (show ((gsc6M.view.loc (c : Thread nD τ) ↦[gr6_11M.view.set]{fullShare} fsc : sProp 𝕄)) = (gr6_11M.view.loc (c : Thread nD τ) ↦[gr6_11M.view.set]{fullShare} fsc) from rfl)) $$ HS11
  ihave HS12 := (Entails.of_eq (show ((gsc6M.view.loc (c : Thread nD τ) ↦[gr6_12M.view.set]{fullShare} fsc : sProp 𝕄)) = (gr6_12M.view.loc (c : Thread nD τ) ↦[gr6_12M.view.set]{fullShare} fsc) from rfl)) $$ HS12
  ihave HS13 := (Entails.of_eq (show ((gsc6M.view.loc (c : Thread nD τ) ↦[gr6_13M.view.set]{fullShare} fsc : sProp 𝕄)) = (gr6_13M.view.loc (c : Thread nD τ) ↦[gr6_13M.view.set]{fullShare} fsc) from rfl)) $$ HS13
  ihave HS14 := (Entails.of_eq (show ((gsc6M.view.loc (c : Thread nD τ) ↦[gr6_14M.view.set]{fullShare} fsc : sProp 𝕄)) = (gr6_14M.view.loc (c : Thread nD τ) ↦[gr6_14M.view.set]{fullShare} fsc) from rfl)) $$ HS14
  ihave HS15 := (Entails.of_eq (show ((gsc6M.view.loc (c : Thread nD τ) ↦[gr6_15M.view.set]{fullShare} fsc : sProp 𝕄)) = (gr6_15M.view.loc (c : Thread nD τ) ↦[gr6_15M.view.set]{fullShare} fsc) from rfl)) $$ HS15
  ihave HB := (split16 (ℓ := ghb6M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join6 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb6M.view (Rect.unit (s := S64000) (k6_off1 i) S1.size (k6_off1_inb i)).toLoadRect ((Memref.isWhole_whole _ : gtb6M.IsWhole).unread pf) (Shape.Idx.first (numel1_S1.symm ▸ Nat.one_pos))).toNat, hlt0⟩ : Fin 50000) (0 : Fin 1) l) :=
    row_landed6 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb6M.view (Rect.unit (s := S64000) (k6_off3 i) S1.size (k6_off3_inb i)).toLoadRect ((Memref.isWhole_whole _ : gtb6M.IsWhole).unread pf) (Shape.Idx.first (numel1_S1.symm ▸ Nat.one_pos))).toNat, hlt1⟩ : Fin 50000) (0 : Fin 1) l) :=
    row_landed6 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb6M.view (Rect.unit (s := S64000) (k6_off5 i) S1.size (k6_off5_inb i)).toLoadRect ((Memref.isWhole_whole _ : gtb6M.IsWhole).unread pf) (Shape.Idx.first (numel1_S1.symm ▸ Nat.one_pos))).toNat, hlt2⟩ : Fin 50000) (0 : Fin 1) l) :=
    row_landed6 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb6M.view (Rect.unit (s := S64000) (k6_off7 i) S1.size (k6_off7_inb i)).toLoadRect ((Memref.isWhole_whole _ : gtb6M.IsWhole).unread pf) (Shape.Idx.first (numel1_S1.symm ▸ Nat.one_pos))).toNat, hlt3⟩ : Fin 50000) (0 : Fin 1) l) :=
    row_landed6 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb6M.view (Rect.unit (s := S64000) (k6_off9 i) S1.size (k6_off9_inb i)).toLoadRect ((Memref.isWhole_whole _ : gtb6M.IsWhole).unread pf) (Shape.Idx.first (numel1_S1.symm ▸ Nat.one_pos))).toNat, hlt4⟩ : Fin 50000) (0 : Fin 1) l) :=
    row_landed6 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb6M.view (Rect.unit (s := S64000) (k6_off11 i) S1.size (k6_off11_inb i)).toLoadRect ((Memref.isWhole_whole _ : gtb6M.IsWhole).unread pf) (Shape.Idx.first (numel1_S1.symm ▸ Nat.one_pos))).toNat, hlt5⟩ : Fin 50000) (0 : Fin 1) l) :=
    row_landed6 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb6M.view (Rect.unit (s := S64000) (k6_off13 i) S1.size (k6_off13_inb i)).toLoadRect ((Memref.isWhole_whole _ : gtb6M.IsWhole).unread pf) (Shape.Idx.first (numel1_S1.symm ▸ Nat.one_pos))).toNat, hlt6⟩ : Fin 50000) (0 : Fin 1) l) :=
    row_landed6 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb6M.view (Rect.unit (s := S64000) (k6_off15 i) S1.size (k6_off15_inb i)).toLoadRect ((Memref.isWhole_whole _ : gtb6M.IsWhole).unread pf) (Shape.Idx.first (numel1_S1.symm ▸ Nat.one_pos))).toNat, hlt7⟩ : Fin 50000) (0 : Fin 1) l) :=
    row_landed6 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb6M.view (Rect.unit (s := S64000) (k6_off17 i) S1.size (k6_off17_inb i)).toLoadRect ((Memref.isWhole_whole _ : gtb6M.IsWhole).unread pf) (Shape.Idx.first (numel1_S1.symm ▸ Nat.one_pos))).toNat, hlt8⟩ : Fin 50000) (0 : Fin 1) l) :=
    row_landed6 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb6M.view (Rect.unit (s := S64000) (k6_off19 i) S1.size (k6_off19_inb i)).toLoadRect ((Memref.isWhole_whole _ : gtb6M.IsWhole).unread pf) (Shape.Idx.first (numel1_S1.symm ▸ Nat.one_pos))).toNat, hlt9⟩ : Fin 50000) (0 : Fin 1) l) :=
    row_landed6 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb6M.view (Rect.unit (s := S64000) (k6_off21 i) S1.size (k6_off21_inb i)).toLoadRect ((Memref.isWhole_whole _ : gtb6M.IsWhole).unread pf) (Shape.Idx.first (numel1_S1.symm ▸ Nat.one_pos))).toNat, hlt10⟩ : Fin 50000) (0 : Fin 1) l) :=
    row_landed6 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb6M.view (Rect.unit (s := S64000) (k6_off23 i) S1.size (k6_off23_inb i)).toLoadRect ((Memref.isWhole_whole _ : gtb6M.IsWhole).unread pf) (Shape.Idx.first (numel1_S1.symm ▸ Nat.one_pos))).toNat, hlt11⟩ : Fin 50000) (0 : Fin 1) l) :=
    row_landed6 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb6M.view (Rect.unit (s := S64000) (k6_off25 i) S1.size (k6_off25_inb i)).toLoadRect ((Memref.isWhole_whole _ : gtb6M.IsWhole).unread pf) (Shape.Idx.first (numel1_S1.symm ▸ Nat.one_pos))).toNat, hlt12⟩ : Fin 50000) (0 : Fin 1) l) :=
    row_landed6 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb6M.view (Rect.unit (s := S64000) (k6_off27 i) S1.size (k6_off27_inb i)).toLoadRect ((Memref.isWhole_whole _ : gtb6M.IsWhole).unread pf) (Shape.Idx.first (numel1_S1.symm ▸ Nat.one_pos))).toNat, hlt13⟩ : Fin 50000) (0 : Fin 1) l) :=
    row_landed6 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb6M.view (Rect.unit (s := S64000) (k6_off29 i) S1.size (k6_off29_inb i)).toLoadRect ((Memref.isWhole_whole _ : gtb6M.IsWhole).unread pf) (Shape.Idx.first (numel1_S1.symm ▸ Nat.one_pos))).toNat, hlt14⟩ : Fin 50000) (0 : Fin 1) l) :=
    row_landed6 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb6M.view (Rect.unit (s := S64000) (k6_off31 i) S1.size (k6_off31_inb i)).toLoadRect ((Memref.isWhole_whole _ : gtb6M.IsWhole).unread pf) (Shape.Idx.first (numel1_S1.symm ▸ Nat.one_pos))).toNat, hlt15⟩ : Fin 50000) (0 : Fin 1) l) :=
    row_landed6 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load6]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb6M).IsWhole).read_unread _
  isplitl [Hh0 Hh1 Hh2 Hh3 Hh4 Hh5 Hh6 Hh7 Hh8 Hh9 Hh10 Hh11 Hh12 Hh13 Hh14 Hh15]
  · iapply (join16 (ℓ := ghb6M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather6.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 6's own DMA semaphores: one per row of the step. -/
abbrev gsem6 : Fin 16 → SemLoc sig := fun j =>
  (![SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125] : Fin 16 → SemLoc sig) j
theorem gsemFacts6 : Pipeline.OwnSemFacts spec6 gsem6 := by decide

/-- The buffers the body reads without a window: the node table in HBM and its chunk of the edge-source table. -/
def gH6 : Finset (Ref sig .tc) := {main_v0, main_v13}
theorem gH6_sub : gH6 ⊆ Pipeline.restRefs sig spec6 := by decide

/-- The call's prefetched table at the contents the region finds. -/
def gadm6 (c : Dev nD) : (pcfg6 (F := F)).Adm := ⟨fun k => match k with | ⟨0, _⟩ => V c main_v13, trivial⟩

/-- The proof data of gather call 6 on core `c`: the output array as found; after step `t` the output block holds
    the gathered rows; the invariant carries the scratch, the call's semaphores at zero and the two tables as found. -/
def gdat6 (a : (pcfg6 (F := F)).Adm) (c : Dev nD) : Dat τ (Elt F) Unit ℕ (Pipeline.UD sig nD τ) ℕ (cfg6 a) c where
  A w := V c (Pipeline.arrRef spec6 w)
  after w t := match w with
    | ⟨0, _⟩ => gblock (V c main_v0) (V c main_v13) t.val
  Φ _ := Pipeline.ΦD gsem6 spec6 gH6 V c
  q _ := fullShare
  owed _ := 0

theorem gdat6_A (a : (pcfg6 (F := F)).Adm) (c : Dev nD) (w : Fin (cfg6 a).W) :
    (gdat6 V a c).A w = V c (Pipeline.arrRef spec6 w) := by dsimp only [gdat6]
theorem gdat6_after (a : (pcfg6 (F := F)).Adm) (c : Dev nD) (t : Fin (cfg6 a).N) :
    (gdat6 V a c).after 0 t = gblock (V c main_v0) (V c main_v13) t.val := rfl

/-! ## The body obligation, from the body's run -/

/-- The call's scratch buffer whole at some contents, said of the buffer and said through the whole-buffer memref. -/
theorem gsc6_whole (c : Dev nD) :
    (iprop(∃ f, gsc6M.view.loc (c : Thread nD τ) ↦[gsc6M.view.set]{fullShare} f) : sProp 𝕄)
      = iprop(∃ f : Buf (Elt F) ((c : Thread nD τ).loc cc6_scratch0), ((c : Thread nD τ).loc cc6_scratch0) ↦{fullShare} f) := by
  simp only [gsc6M, Memref.view_whole, View.set_whole]

/-- The region invariant of gather call 6, conjunct by conjunct: the call's scratch buffer whole at some contents beside
    the scoped buffers it does not touch, the generator register at some state, its sixteen semaphores at zero, and
    the two tables whole at the contents the region finds. -/
theorem PhiD6_eq (c : Dev nD) :
    (Pipeline.ΦD gsem6 spec6 gH6 V c : sProp 𝕄)
      = iprop(iprop((∃ f, gsc6M.view.loc (c : Thread nD τ) ↦[gsc6M.view.set]{fullShare} f)
            ∗ Pipeline.scopedRestBut (Ix := Unit) (Name := ℕ) (U := Pipeline.UD sig nD τ) (Lvl := ℕ) (Val := Elt F) spec6 c [cc6_scratch0])
          ∗ (∃ r, prngReg c r)
          ∗ iprop(semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0)
          ∗ iprop((ghb6M.view.loc (c : Thread nD τ) ↦{fullShare} V c main_v0) ∗ owns (c : Thread nD τ) gtb6M fullShare (V c main_v13))) := by
  rw [gsc6_whole, owns_whole, Pipeline.ΦD_eq, scopedRest6_split,
    Pipeline.ownSems0_eq_of_list c gsem6 [0, 1, 2, 3, 4, 5, 6, 7, 8, 9, 10, 11, 12, 13, 14, 15] (by decide) (by decide),
    BI.bigSep_eq_bigSepL_of_eq [main_v0, main_v13] (by decide) (by decide)]
  rfl

/-- The kernel body of gather call 6 as the pipeline calls it at point `t`: the step's coordinates, the two tables whole,
    the output window's current staging buffer, the scratch buffer and the sixteen semaphores. -/
abbrev gbodyAt6 (a : (pcfg6 (F := F)).Adm) (t : Fin (cfg6 a).N) : Prog (TpuEff nD τ sig (Elt F) Λ₀ .tc) PUnit :=
  cc6__gather_kernel ((cfg6 a).grid.coords t) gtb6M (Memref.isWhole_whole _) ghb6M (Memref.isWhole_whole _)
    (spec6_0.stage ((cfg6 a).slots t 0)) (hstage6_0 (((cfg6 a).slots t 0).cast nbuf6_0)) gsc6M (Memref.isWhole_whole _) cc6_scratch1

/-- The grid is one axis of 4000 steps: the step's one coordinate is its number. -/
theorem gcoord6 (a : (pcfg6 (F := F)).Adm) (t : Fin (cfg6 a).N) : (((cfg6 a).grid.coords t) 0).val = t.val := by
  have ht : t.val < 4000 := lt_of_lt_of_eq t.isLt N_6
  show t.val / 1 % 4000 = t.val
  omega

/-- What the body is called with at point `t`: the invariant, the core's `owes`, the output window's current staging
    buffer at whatever it holds, -/
def gbodyPre6 (a : (pcfg6 (F := F)).Adm) (c : Dev nD) (t : Fin (cfg6 a).N) : sProp 𝕄 :=
  iprop((gdat6 V a c).Φ t.castSucc ∗ (gdat6 V a c).owesAt () t.castSucc
    ∗ (∃ d, owns (c : Thread nD τ) (spec6_0.stage ((cfg6 a).slots t 0)) fullShare ((gdat6 V a c).before 0 t d)))

/-- and what it returns: the invariant, `owes`, the staging buffer at the step's gathered rows. -/
def gbodyPost6 (a : (pcfg6 (F := F)).Adm) (c : Dev nD) (t : Fin (cfg6 a).N) : sProp 𝕄 :=
  iprop((gdat6 V a c).Φ t.succ ∗ (gdat6 V a c).owesAt () t.succ
    ∗ owns (c : Thread nD τ) (spec6_0.stage ((cfg6 a).slots t 0)) fullShare ((gdat6 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body6 (a : (pcfg6 (F := F)).Adm) (c : Dev nD)
    (hok : ∀ e : S64000.Idx, (V c main_v13 e).toNat < 50000) (t : Fin (cfg6 a).N) :
    gbodyPre6 V a c t ⊢ wp frame (wpE (defs₀ (F := F)) Variants.none c none) Set.univ (gbodyAt6 a t) (fun _ => gbodyPost6 V a c t) := by
  unfold gbodyPre6 gbodyPost6 gbodyAt6
  rw [show (gdat6 V a c).Φ t.succ = Pipeline.ΦD gsem6 spec6 gH6 V c from rfl,
    show (gdat6 V a c).Φ t.castSucc = Pipeline.ΦD gsem6 spec6 gH6 V c from rfl, gdat6_after, PhiD6_eq]
  unfold Dat.owesAt Pipeline.owesWithin
  rw [show (gdat6 V a c).owed t.castSucc = 0 from rfl, show (gdat6 V a c).owed t.succ = 0 from rfl]
  have hrun := fun W K => gather_run6 (F := F) c ((cfg6 a).grid.coords t) (spec6_0.stage ((cfg6 a).slots t 0))
    (hstage6_0 (((cfg6 a).slots t 0).cast nbuf6_0)) (V c main_v13) (V c main_v0) hok W K
  rw [gcoord6 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 6, when every word of its table names a row of the node table. -/
theorem gather_obligation6 (a : (pcfg6 (F := F)).Adm) (c : Dev nD)
    (hok : ∀ e : S64000.Idx, (V c main_v13 e).toNat < 50000) :
    BodyObligation (gdat6 (F := F) V a c) (defs₀ (F := F)) Variants.none () Set.univ := fun t => by
  rw [bigSep_W6, bigSep_W6]
  exact gsound_body6 V a c hok t

end

end Cert.Kernel.Hand

end
-- ==== Proof.KRowsJoin7.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 7's scratch buffer, whole, and its sixteen rows as the body addresses them. -/
abbrev gsc7M : Memref sig .tc .vmem S16x1x128 .f32 := Memref.whole cc7_scratch0
abbrev gr7_0M : Memref sig .tc .vmem S1x128 .f32 := ((Memref.whole cc7_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr7_1M : Memref sig .tc .vmem S1x128 .f32 := ((Memref.whole cc7_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr7_2M : Memref sig .tc .vmem S1x128 .f32 := ((Memref.whole cc7_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr7_3M : Memref sig .tc .vmem S1x128 .f32 := ((Memref.whole cc7_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr7_4M : Memref sig .tc .vmem S1x128 .f32 := ((Memref.whole cc7_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr7_5M : Memref sig .tc .vmem S1x128 .f32 := ((Memref.whole cc7_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr7_6M : Memref sig .tc .vmem S1x128 .f32 := ((Memref.whole cc7_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr7_7M : Memref sig .tc .vmem S1x128 .f32 := ((Memref.whole cc7_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr7_8M : Memref sig .tc .vmem S1x128 .f32 := ((Memref.whole cc7_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr7_9M : Memref sig .tc .vmem S1x128 .f32 := ((Memref.whole cc7_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr7_10M : Memref sig .tc .vmem S1x128 .f32 := ((Memref.whole cc7_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr7_11M : Memref sig .tc .vmem S1x128 .f32 := ((Memref.whole cc7_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr7_12M : Memref sig .tc .vmem S1x128 .f32 := ((Memref.whole cc7_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr7_13M : Memref sig .tc .vmem S1x128 .f32 := ((Memref.whole cc7_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr7_14M : Memref sig .tc .vmem S1x128 .f32 := ((Memref.whole cc7_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr7_15M : Memref sig .tc .vmem S1x128 .f32 := ((Memref.whole cc7_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr7_0M.view.set = rowSet (0 : Fin 16) := by
  refine (View.set_reshape _ _).trans ?_
  refine (View.set_slice_whole _ _).trans ?_
  rfl
private theorem row_set_1 : gr7_1M.view.set = rowSet (1 : Fin 16) := by
  refine (View.set_reshape _ _).trans ?_
  refine (View.set_slice_whole _ _).trans ?_
  rfl
private theorem row_set_2 : gr7_2M.view.set = rowSet (2 : Fin 16) := by
  refine (View.set_reshape _ _).trans ?_
  refine (View.set_slice_whole _ _).trans ?_
  rfl
private theorem row_set_3 : gr7_3M.view.set = rowSet (3 : Fin 16) := by
  refine (View.set_reshape _ _).trans ?_
  refine (View.set_slice_whole _ _).trans ?_
  rfl
private theorem row_set_4 : gr7_4M.view.set = rowSet (4 : Fin 16) := by
  refine (View.set_reshape _ _).trans ?_
  refine (View.set_slice_whole _ _).trans ?_
  rfl
private theorem row_set_5 : gr7_5M.view.set = rowSet (5 : Fin 16) := by
  refine (View.set_reshape _ _).trans ?_
  refine (View.set_slice_whole _ _).trans ?_
  rfl
private theorem row_set_6 : gr7_6M.view.set = rowSet (6 : Fin 16) := by
  refine (View.set_reshape _ _).trans ?_
  refine (View.set_slice_whole _ _).trans ?_
  rfl
private theorem row_set_7 : gr7_7M.view.set = rowSet (7 : Fin 16) := by
  refine (View.set_reshape _ _).trans ?_
  refine (View.set_slice_whole _ _).trans ?_
  rfl
private theorem row_set_8 : gr7_8M.view.set = rowSet (8 : Fin 16) := by
  refine (View.set_reshape _ _).trans ?_
  refine (View.set_slice_whole _ _).trans ?_
  rfl
private theorem row_set_9 : gr7_9M.view.set = rowSet (9 : Fin 16) := by
  refine (View.set_reshape _ _).trans ?_
  refine (View.set_slice_whole _ _).trans ?_
  rfl
private theorem row_set_10 : gr7_10M.view.set = rowSet (10 : Fin 16) := by
  refine (View.set_reshape _ _).trans ?_
  refine (View.set_slice_whole _ _).trans ?_
  rfl
private theorem row_set_11 : gr7_11M.view.set = rowSet (11 : Fin 16) := by
  refine (View.set_reshape _ _).trans ?_
  refine (View.set_slice_whole _ _).trans ?_
  rfl
private theorem row_set_12 : gr7_12M.view.set = rowSet (12 : Fin 16) := by
  refine (View.set_reshape _ _).trans ?_
  refine (View.set_slice_whole _ _).trans ?_
  rfl
private theorem row_set_13 : gr7_13M.view.set = rowSet (13 : Fin 16) := by
  refine (View.set_reshape _ _).trans ?_
  refine (View.set_slice_whole _ _).trans ?_
  rfl
private theorem row_set_14 : gr7_14M.view.set = rowSet (14 : Fin 16) := by
  refine (View.set_reshape _ _).trans ?_
  refine (View.set_slice_whole _ _).trans ?_
  rfl
private theorem row_set_15 : gr7_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join7 (c : Dev nD) (f0 f1 f2 f3 f4 f5 f6 f7 f8 f9 f10 f11 f12 f13 f14 f15 : Buf (Elt F) (gsc7M.view.loc (c : Thread nD τ))) :
    (iprop((gsc7M.view.loc (c : Thread nD τ) ↦[gr7_0M.view.set]{fullShare} f0)
        ∗ (gsc7M.view.loc (c : Thread nD τ) ↦[gr7_1M.view.set]{fullShare} f1)
        ∗ (gsc7M.view.loc (c : Thread nD τ) ↦[gr7_2M.view.set]{fullShare} f2)
        ∗ (gsc7M.view.loc (c : Thread nD τ) ↦[gr7_3M.view.set]{fullShare} f3)
        ∗ (gsc7M.view.loc (c : Thread nD τ) ↦[gr7_4M.view.set]{fullShare} f4)
        ∗ (gsc7M.view.loc (c : Thread nD τ) ↦[gr7_5M.view.set]{fullShare} f5)
        ∗ (gsc7M.view.loc (c : Thread nD τ) ↦[gr7_6M.view.set]{fullShare} f6)
        ∗ (gsc7M.view.loc (c : Thread nD τ) ↦[gr7_7M.view.set]{fullShare} f7)
        ∗ (gsc7M.view.loc (c : Thread nD τ) ↦[gr7_8M.view.set]{fullShare} f8)
        ∗ (gsc7M.view.loc (c : Thread nD τ) ↦[gr7_9M.view.set]{fullShare} f9)
        ∗ (gsc7M.view.loc (c : Thread nD τ) ↦[gr7_10M.view.set]{fullShare} f10)
        ∗ (gsc7M.view.loc (c : Thread nD τ) ↦[gr7_11M.view.set]{fullShare} f11)
        ∗ (gsc7M.view.loc (c : Thread nD τ) ↦[gr7_12M.view.set]{fullShare} f12)
        ∗ (gsc7M.view.loc (c : Thread nD τ) ↦[gr7_13M.view.set]{fullShare} f13)
        ∗ (gsc7M.view.loc (c : Thread nD τ) ↦[gr7_14M.view.set]{fullShare} f14)
        ∗ (gsc7M.view.loc (c : Thread nD τ) ↦[gr7_15M.view.set]{fullShare} f15)) : sProp 𝕄)
      ⊢ iprop(∃ g : Buf (Elt F) (gsc7M.view.loc (c : Thread nD τ)),
          ⌜(∀ i ∈ gr7_0M.view.set, g i = f0 i)
            ∧ (∀ i ∈ gr7_1M.view.set, g i = f1 i)
            ∧ (∀ i ∈ gr7_2M.view.set, g i = f2 i)
            ∧ (∀ i ∈ gr7_3M.view.set, g i = f3 i)
            ∧ (∀ i ∈ gr7_4M.view.set, g i = f4 i)
            ∧ (∀ i ∈ gr7_5M.view.set, g i = f5 i)
            ∧ (∀ i ∈ gr7_6M.view.set, g i = f6 i)
            ∧ (∀ i ∈ gr7_7M.view.set, g i = f7 i)
            ∧ (∀ i ∈ gr7_8M.view.set, g i = f8 i)
            ∧ (∀ i ∈ gr7_9M.view.set, g i = f9 i)
            ∧ (∀ i ∈ gr7_10M.view.set, g i = f10 i)
            ∧ (∀ i ∈ gr7_11M.view.set, g i = f11 i)
            ∧ (∀ i ∈ gr7_12M.view.set, g i = f12 i)
            ∧ (∀ i ∈ gr7_13M.view.set, g i = f13 i)
            ∧ (∀ i ∈ gr7_14M.view.set, g i = f14 i)
            ∧ (∀ i ∈ gr7_15M.view.set, g i = f15 i)⌝
          ∗ (gsc7M.view.loc (c : Thread nD τ) ↦[gsc7M.view.set]{fullShare} g)) := by
  have hw : gsc7M.view.set = Finset.univ.biUnion rowSet := (View.set_whole _).trans rowSet_cover.symm
  exact join16 (ℓ := gsc7M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split7 (c : Dev nD) (f : Buf (Elt F) (gsc7M.view.loc (c : Thread nD τ))) :
    (gsc7M.view.loc (c : Thread nD τ) ↦[gsc7M.view.set]{fullShare} f : sProp 𝕄)
      ⊢ iprop((gsc7M.view.loc (c : Thread nD τ) ↦[gr7_0M.view.set]{fullShare} f)
        ∗ (gsc7M.view.loc (c : Thread nD τ) ↦[gr7_1M.view.set]{fullShare} f)
        ∗ (gsc7M.view.loc (c : Thread nD τ) ↦[gr7_2M.view.set]{fullShare} f)
        ∗ (gsc7M.view.loc (c : Thread nD τ) ↦[gr7_3M.view.set]{fullShare} f)
        ∗ (gsc7M.view.loc (c : Thread nD τ) ↦[gr7_4M.view.set]{fullShare} f)
        ∗ (gsc7M.view.loc (c : Thread nD τ) ↦[gr7_5M.view.set]{fullShare} f)
        ∗ (gsc7M.view.loc (c : Thread nD τ) ↦[gr7_6M.view.set]{fullShare} f)
        ∗ (gsc7M.view.loc (c : Thread nD τ) ↦[gr7_7M.view.set]{fullShare} f)
        ∗ (gsc7M.view.loc (c : Thread nD τ) ↦[gr7_8M.view.set]{fullShare} f)
        ∗ (gsc7M.view.loc (c : Thread nD τ) ↦[gr7_9M.view.set]{fullShare} f)
        ∗ (gsc7M.view.loc (c : Thread nD τ) ↦[gr7_10M.view.set]{fullShare} f)
        ∗ (gsc7M.view.loc (c : Thread nD τ) ↦[gr7_11M.view.set]{fullShare} f)
        ∗ (gsc7M.view.loc (c : Thread nD τ) ↦[gr7_12M.view.set]{fullShare} f)
        ∗ (gsc7M.view.loc (c : Thread nD τ) ↦[gr7_13M.view.set]{fullShare} f)
        ∗ (gsc7M.view.loc (c : Thread nD τ) ↦[gr7_14M.view.set]{fullShare} f)
        ∗ (gsc7M.view.loc (c : Thread nD τ) ↦[gr7_15M.view.set]{fullShare} f)) := by
  have hw : gsc7M.view.set = Finset.univ.biUnion rowSet := (View.set_whole _).trans rowSet_cover.symm
  exact split16 (ℓ := gsc7M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows7.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin7
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 7's chunk of the edge-source table in scalar memory, whole. -/
abbrev ghb7M : Memref sig .tc .hbm S50000x1x128 .f32 := Memref.whole main_v0
abbrev gtb7M : Memref sig .tc .smem S64000 .i32 := Memref.whole main_v15

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc7M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb7M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed7 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb7M.view.loc (c : Thread nD τ))) (fs g : Buf (Elt F) (gsc7M.view.loc (c : Thread nD τ)))
    (hg : ∀ i ∈ ((gsc7M.slice (Rect.unit (s := S16x1x128) ![j, 0, 0] S1x1x128.size inb) (fun _ => rfl)).squeeze S1x128 squeezes_S1x1x128_S1x128).view.set,
        g i = ((gsc7M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb7M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc7M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb7M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load7 (c : Dev nD) (g : Buf (Elt F) (gsc7M.view.loc (c : Thread nD τ))) (y : S16x1x128.Idx) :
    View.readAt (Elt F) gsc7M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word7 (pf : S64000.Idx → Elt F .i32) (off : Fin 1 → ℕ) (inb : ∀ a, off a + S1.size a ≤ S64000.size a)
    (n : ℕ) (hn : n < 64000) (hoff : off 0 = n) :
    View.readAt (Elt F) gtb7M.view (Rect.unit (s := S64000) off S1.size inb).toLoadRect
        ((Memref.isWhole_whole _ : gtb7M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs7 (i : grid7.Coords) :
    (k7_off1 i) 0 = 16 * (i 0).val + 0
    ∧ (k7_off3 i) 0 = 16 * (i 0).val + 1
    ∧ (k7_off5 i) 0 = 16 * (i 0).val + 2
    ∧ (k7_off7 i) 0 = 16 * (i 0).val + 3
    ∧ (k7_off9 i) 0 = 16 * (i 0).val + 4
    ∧ (k7_off11 i) 0 = 16 * (i 0).val + 5
    ∧ (k7_off13 i) 0 = 16 * (i 0).val + 6
    ∧ (k7_off15 i) 0 = 16 * (i 0).val + 7
    ∧ (k7_off17 i) 0 = 16 * (i 0).val + 8
    ∧ (k7_off19 i) 0 = 16 * (i 0).val + 9
    ∧ (k7_off21 i) 0 = 16 * (i 0).val + 10
    ∧ (k7_off23 i) 0 = 16 * (i 0).val + 11
    ∧ (k7_off25 i) 0 = 16 * (i 0).val + 12
    ∧ (k7_off27 i) 0 = 16 * (i 0).val + 13
    ∧ (k7_off29 i) 0 = 16 * (i 0).val + 14
    ∧ (k7_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun7.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows7
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 7's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run7 (c : Dev nD) (i : grid7.Coords) (arg3 : Memref sig .tc .vmem S16x1x128 .f32) (harg3 : arg3.IsWhole)
    (pf : S64000.Idx → Elt F .i32) (tb : Buf (Elt F) (ghb7M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc7M.view.loc (c : Thread nD τ) ↦[gsc7M.view.set]{fullShare} f)
        ∗ owns (c : Thread nD τ) gtb7M fullShare pf
        ∗ (ghb7M.view.loc (c : Thread nD τ) ↦{fullShare} tb)
        ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0
        ∗ owes (c : Thread nD τ) 0 W
        ∗ (iprop(owns (c : Thread nD τ) arg3 fullShare (gblock tb pf (i 0).val)
            ∗ (∃ f, gsc7M.view.loc (c : Thread nD τ) ↦[gsc7M.view.set]{fullShare} f)
            ∗ owns (c : Thread nD τ) gtb7M fullShare pf
            ∗ (ghb7M.view.loc (c : Thread nD τ) ↦{fullShare} tb)
            ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0
            ∗ (∃ W', owes (c : Thread nD τ) 0 W')) -∗ K ⟨⟩))
      ⊢ wp frame (wpE (defs₀ (F := F)) Variants.none c none) Set.univ
          (cc7__gather_kernel i gtb7M (Memref.isWhole_whole _) ghb7M (Memref.isWhole_whole _) arg3 harg3 gsc7M (Memref.isWhole_whole _) cc7_scratch1) K := by
  have hi : (i 0).val < 4000 := (i 0).isLt
  have hoffs := table_offs7 i
  have hword0 : (View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))) = pf (ValueIdx.ix1 (⟨16 * (i 0).val + 0, by omega⟩ : Fin 64000)) :=
    table_word7 pf _ _ _ (by omega) hoffs.1
  have hlt0 : (View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))).toNat < 50000 := by rw [hword0]; exact hok _
  have hw1 : k7_chk1 (View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))) := ⟨chk_lt _ hlt0, chk_lt _ hlt0⟩
  have hword1 : (View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))) = pf (ValueIdx.ix1 (⟨16 * (i 0).val + 1, by omega⟩ : Fin 64000)) :=
    table_word7 pf _ _ _ (by omega) hoffs.2.1
  have hlt1 : (View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))).toNat < 50000 := by rw [hword1]; exact hok _
  have hw2 : k7_chk2 (View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))) := ⟨chk_lt _ hlt1, chk_lt _ hlt1⟩
  have hword2 : (View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))) = pf (ValueIdx.ix1 (⟨16 * (i 0).val + 2, by omega⟩ : Fin 64000)) :=
    table_word7 pf _ _ _ (by omega) hoffs.2.2.1
  have hlt2 : (View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))).toNat < 50000 := by rw [hword2]; exact hok _
  have hw3 : k7_chk3 (View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))) := ⟨chk_lt _ hlt2, chk_lt _ hlt2⟩
  have hword3 : (View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))) = pf (ValueIdx.ix1 (⟨16 * (i 0).val + 3, by omega⟩ : Fin 64000)) :=
    table_word7 pf _ _ _ (by omega) hoffs.2.2.2.1
  have hlt3 : (View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))).toNat < 50000 := by rw [hword3]; exact hok _
  have hw4 : k7_chk4 (View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))) := ⟨chk_lt _ hlt3, chk_lt _ hlt3⟩
  have hword4 : (View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))) = pf (ValueIdx.ix1 (⟨16 * (i 0).val + 4, by omega⟩ : Fin 64000)) :=
    table_word7 pf _ _ _ (by omega) hoffs.2.2.2.2.1
  have hlt4 : (View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))).toNat < 50000 := by rw [hword4]; exact hok _
  have hw5 : k7_chk5 (View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))) := ⟨chk_lt _ hlt4, chk_lt _ hlt4⟩
  have hword5 : (View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))) = pf (ValueIdx.ix1 (⟨16 * (i 0).val + 5, by omega⟩ : Fin 64000)) :=
    table_word7 pf _ _ _ (by omega) hoffs.2.2.2.2.2.1
  have hlt5 : (View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))).toNat < 50000 := by rw [hword5]; exact hok _
  have hw6 : k7_chk6 (View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))) := ⟨chk_lt _ hlt5, chk_lt _ hlt5⟩
  have hword6 : (View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))) = pf (ValueIdx.ix1 (⟨16 * (i 0).val + 6, by omega⟩ : Fin 64000)) :=
    table_word7 pf _ _ _ (by omega) hoffs.2.2.2.2.2.2.1
  have hlt6 : (View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))).toNat < 50000 := by rw [hword6]; exact hok _
  have hw7 : k7_chk7 (View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))) := ⟨chk_lt _ hlt6, chk_lt _ hlt6⟩
  have hword7 : (View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))) = pf (ValueIdx.ix1 (⟨16 * (i 0).val + 7, by omega⟩ : Fin 64000)) :=
    table_word7 pf _ _ _ (by omega) hoffs.2.2.2.2.2.2.2.1
  have hlt7 : (View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))).toNat < 50000 := by rw [hword7]; exact hok _
  have hw8 : k7_chk8 (View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))) := ⟨chk_lt _ hlt7, chk_lt _ hlt7⟩
  have hword8 : (View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))) = pf (ValueIdx.ix1 (⟨16 * (i 0).val + 8, by omega⟩ : Fin 64000)) :=
    table_word7 pf _ _ _ (by omega) hoffs.2.2.2.2.2.2.2.2.1
  have hlt8 : (View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))).toNat < 50000 := by rw [hword8]; exact hok _
  have hw9 : k7_chk9 (View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))) := ⟨chk_lt _ hlt8, chk_lt _ hlt8⟩
  have hword9 : (View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))) = pf (ValueIdx.ix1 (⟨16 * (i 0).val + 9, by omega⟩ : Fin 64000)) :=
    table_word7 pf _ _ _ (by omega) hoffs.2.2.2.2.2.2.2.2.2.1
  have hlt9 : (View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))).toNat < 50000 := by rw [hword9]; exact hok _
  have hw10 : k7_chk10 (View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))) := ⟨chk_lt _ hlt9, chk_lt _ hlt9⟩
  have hword10 : (View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))) = pf (ValueIdx.ix1 (⟨16 * (i 0).val + 10, by omega⟩ : Fin 64000)) :=
    table_word7 pf _ _ _ (by omega) hoffs.2.2.2.2.2.2.2.2.2.2.1
  have hlt10 : (View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))).toNat < 50000 := by rw [hword10]; exact hok _
  have hw11 : k7_chk11 (View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))) := ⟨chk_lt _ hlt10, chk_lt _ hlt10⟩
  have hword11 : (View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))) = pf (ValueIdx.ix1 (⟨16 * (i 0).val + 11, by omega⟩ : Fin 64000)) :=
    table_word7 pf _ _ _ (by omega) hoffs.2.2.2.2.2.2.2.2.2.2.2.1
  have hlt11 : (View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))).toNat < 50000 := by rw [hword11]; exact hok _
  have hw12 : k7_chk12 (View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))) := ⟨chk_lt _ hlt11, chk_lt _ hlt11⟩
  have hword12 : (View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))) = pf (ValueIdx.ix1 (⟨16 * (i 0).val + 12, by omega⟩ : Fin 64000)) :=
    table_word7 pf _ _ _ (by omega) hoffs.2.2.2.2.2.2.2.2.2.2.2.2.1
  have hlt12 : (View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))).toNat < 50000 := by rw [hword12]; exact hok _
  have hw13 : k7_chk13 (View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))) := ⟨chk_lt _ hlt12, chk_lt _ hlt12⟩
  have hword13 : (View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))) = pf (ValueIdx.ix1 (⟨16 * (i 0).val + 13, by omega⟩ : Fin 64000)) :=
    table_word7 pf _ _ _ (by omega) hoffs.2.2.2.2.2.2.2.2.2.2.2.2.2.1
  have hlt13 : (View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))).toNat < 50000 := by rw [hword13]; exact hok _
  have hw14 : k7_chk14 (View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))) := ⟨chk_lt _ hlt13, chk_lt _ hlt13⟩
  have hword14 : (View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))) = pf (ValueIdx.ix1 (⟨16 * (i 0).val + 14, by omega⟩ : Fin 64000)) :=
    table_word7 pf _ _ _ (by omega) hoffs.2.2.2.2.2.2.2.2.2.2.2.2.2.2.1
  have hlt14 : (View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))).toNat < 50000 := by rw [hword14]; exact hok _
  have hw15 : k7_chk15 (View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))) := ⟨chk_lt _ hlt14, chk_lt _ hlt14⟩
  have hword15 : (View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))) = pf (ValueIdx.ix1 (⟨16 * (i 0).val + 15, by omega⟩ : Fin 64000)) :=
    table_word7 pf _ _ _ (by omega) hoffs.2.2.2.2.2.2.2.2.2.2.2.2.2.2.2
  have hlt15 : (View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))).toNat < 50000 := by rw [hword15]; exact hok _
  have hw16 : k7_chk16 (View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))) := chk_lt _ hlt15
  rw [cc7__gather_kernel_eq_skeleton]; unfold cc7__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb7M).IsWhole).eq_unread hfp
  ihave HR := (rows_split7 (F := F) c fsc) $$ HSC
  icases HR with ⟨HS0, HS1, HS2, HS3, HS4, HS5, HS6, HS7, HS8, HS9, HS10, HS11, HS12, HS13, HS14, HS15⟩
  ihave HS0 := (Entails.of_eq (show ((gsc7M.view.loc (c : Thread nD τ) ↦[gr7_0M.view.set]{fullShare} fsc : sProp 𝕄)) = (gr7_0M.view.loc (c : Thread nD τ) ↦[gr7_0M.view.set]{fullShare} fsc) from rfl)) $$ HS0
  ihave HS1 := (Entails.of_eq (show ((gsc7M.view.loc (c : Thread nD τ) ↦[gr7_1M.view.set]{fullShare} fsc : sProp 𝕄)) = (gr7_1M.view.loc (c : Thread nD τ) ↦[gr7_1M.view.set]{fullShare} fsc) from rfl)) $$ HS1
  ihave HS2 := (Entails.of_eq (show ((gsc7M.view.loc (c : Thread nD τ) ↦[gr7_2M.view.set]{fullShare} fsc : sProp 𝕄)) = (gr7_2M.view.loc (c : Thread nD τ) ↦[gr7_2M.view.set]{fullShare} fsc) from rfl)) $$ HS2
  ihave HS3 := (Entails.of_eq (show ((gsc7M.view.loc (c : Thread nD τ) ↦[gr7_3M.view.set]{fullShare} fsc : sProp 𝕄)) = (gr7_3M.view.loc (c : Thread nD τ) ↦[gr7_3M.view.set]{fullShare} fsc) from rfl)) $$ HS3
  ihave HS4 := (Entails.of_eq (show ((gsc7M.view.loc (c : Thread nD τ) ↦[gr7_4M.view.set]{fullShare} fsc : sProp 𝕄)) = (gr7_4M.view.loc (c : Thread nD τ) ↦[gr7_4M.view.set]{fullShare} fsc) from rfl)) $$ HS4
  ihave HS5 := (Entails.of_eq (show ((gsc7M.view.loc (c : Thread nD τ) ↦[gr7_5M.view.set]{fullShare} fsc : sProp 𝕄)) = (gr7_5M.view.loc (c : Thread nD τ) ↦[gr7_5M.view.set]{fullShare} fsc) from rfl)) $$ HS5
  ihave HS6 := (Entails.of_eq (show ((gsc7M.view.loc (c : Thread nD τ) ↦[gr7_6M.view.set]{fullShare} fsc : sProp 𝕄)) = (gr7_6M.view.loc (c : Thread nD τ) ↦[gr7_6M.view.set]{fullShare} fsc) from rfl)) $$ HS6
  ihave HS7 := (Entails.of_eq (show ((gsc7M.view.loc (c : Thread nD τ) ↦[gr7_7M.view.set]{fullShare} fsc : sProp 𝕄)) = (gr7_7M.view.loc (c : Thread nD τ) ↦[gr7_7M.view.set]{fullShare} fsc) from rfl)) $$ HS7
  ihave HS8 := (Entails.of_eq (show ((gsc7M.view.loc (c : Thread nD τ) ↦[gr7_8M.view.set]{fullShare} fsc : sProp 𝕄)) = (gr7_8M.view.loc (c : Thread nD τ) ↦[gr7_8M.view.set]{fullShare} fsc) from rfl)) $$ HS8
  ihave HS9 := (Entails.of_eq (show ((gsc7M.view.loc (c : Thread nD τ) ↦[gr7_9M.view.set]{fullShare} fsc : sProp 𝕄)) = (gr7_9M.view.loc (c : Thread nD τ) ↦[gr7_9M.view.set]{fullShare} fsc) from rfl)) $$ HS9
  ihave HS10 := (Entails.of_eq (show ((gsc7M.view.loc (c : Thread nD τ) ↦[gr7_10M.view.set]{fullShare} fsc : sProp 𝕄)) = (gr7_10M.view.loc (c : Thread nD τ) ↦[gr7_10M.view.set]{fullShare} fsc) from rfl)) $$ HS10
  ihave HS11 := (Entails.of_eq (show ((gsc7M.view.loc (c : Thread nD τ) ↦[gr7_11M.view.set]{fullShare} fsc : sProp 𝕄)) = (gr7_11M.view.loc (c : Thread nD τ) ↦[gr7_11M.view.set]{fullShare} fsc) from rfl)) $$ HS11
  ihave HS12 := (Entails.of_eq (show ((gsc7M.view.loc (c : Thread nD τ) ↦[gr7_12M.view.set]{fullShare} fsc : sProp 𝕄)) = (gr7_12M.view.loc (c : Thread nD τ) ↦[gr7_12M.view.set]{fullShare} fsc) from rfl)) $$ HS12
  ihave HS13 := (Entails.of_eq (show ((gsc7M.view.loc (c : Thread nD τ) ↦[gr7_13M.view.set]{fullShare} fsc : sProp 𝕄)) = (gr7_13M.view.loc (c : Thread nD τ) ↦[gr7_13M.view.set]{fullShare} fsc) from rfl)) $$ HS13
  ihave HS14 := (Entails.of_eq (show ((gsc7M.view.loc (c : Thread nD τ) ↦[gr7_14M.view.set]{fullShare} fsc : sProp 𝕄)) = (gr7_14M.view.loc (c : Thread nD τ) ↦[gr7_14M.view.set]{fullShare} fsc) from rfl)) $$ HS14
  ihave HS15 := (Entails.of_eq (show ((gsc7M.view.loc (c : Thread nD τ) ↦[gr7_15M.view.set]{fullShare} fsc : sProp 𝕄)) = (gr7_15M.view.loc (c : Thread nD τ) ↦[gr7_15M.view.set]{fullShare} fsc) from rfl)) $$ HS15
  ihave HB := (split16 (ℓ := ghb7M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join7 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb7M.view (Rect.unit (s := S64000) (k7_off1 i) S1.size (k7_off1_inb i)).toLoadRect ((Memref.isWhole_whole _ : gtb7M.IsWhole).unread pf) (Shape.Idx.first (numel1_S1.symm ▸ Nat.one_pos))).toNat, hlt0⟩ : Fin 50000) (0 : Fin 1) l) :=
    row_landed7 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb7M.view (Rect.unit (s := S64000) (k7_off3 i) S1.size (k7_off3_inb i)).toLoadRect ((Memref.isWhole_whole _ : gtb7M.IsWhole).unread pf) (Shape.Idx.first (numel1_S1.symm ▸ Nat.one_pos))).toNat, hlt1⟩ : Fin 50000) (0 : Fin 1) l) :=
    row_landed7 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb7M.view (Rect.unit (s := S64000) (k7_off5 i) S1.size (k7_off5_inb i)).toLoadRect ((Memref.isWhole_whole _ : gtb7M.IsWhole).unread pf) (Shape.Idx.first (numel1_S1.symm ▸ Nat.one_pos))).toNat, hlt2⟩ : Fin 50000) (0 : Fin 1) l) :=
    row_landed7 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb7M.view (Rect.unit (s := S64000) (k7_off7 i) S1.size (k7_off7_inb i)).toLoadRect ((Memref.isWhole_whole _ : gtb7M.IsWhole).unread pf) (Shape.Idx.first (numel1_S1.symm ▸ Nat.one_pos))).toNat, hlt3⟩ : Fin 50000) (0 : Fin 1) l) :=
    row_landed7 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb7M.view (Rect.unit (s := S64000) (k7_off9 i) S1.size (k7_off9_inb i)).toLoadRect ((Memref.isWhole_whole _ : gtb7M.IsWhole).unread pf) (Shape.Idx.first (numel1_S1.symm ▸ Nat.one_pos))).toNat, hlt4⟩ : Fin 50000) (0 : Fin 1) l) :=
    row_landed7 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb7M.view (Rect.unit (s := S64000) (k7_off11 i) S1.size (k7_off11_inb i)).toLoadRect ((Memref.isWhole_whole _ : gtb7M.IsWhole).unread pf) (Shape.Idx.first (numel1_S1.symm ▸ Nat.one_pos))).toNat, hlt5⟩ : Fin 50000) (0 : Fin 1) l) :=
    row_landed7 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb7M.view (Rect.unit (s := S64000) (k7_off13 i) S1.size (k7_off13_inb i)).toLoadRect ((Memref.isWhole_whole _ : gtb7M.IsWhole).unread pf) (Shape.Idx.first (numel1_S1.symm ▸ Nat.one_pos))).toNat, hlt6⟩ : Fin 50000) (0 : Fin 1) l) :=
    row_landed7 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb7M.view (Rect.unit (s := S64000) (k7_off15 i) S1.size (k7_off15_inb i)).toLoadRect ((Memref.isWhole_whole _ : gtb7M.IsWhole).unread pf) (Shape.Idx.first (numel1_S1.symm ▸ Nat.one_pos))).toNat, hlt7⟩ : Fin 50000) (0 : Fin 1) l) :=
    row_landed7 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb7M.view (Rect.unit (s := S64000) (k7_off17 i) S1.size (k7_off17_inb i)).toLoadRect ((Memref.isWhole_whole _ : gtb7M.IsWhole).unread pf) (Shape.Idx.first (numel1_S1.symm ▸ Nat.one_pos))).toNat, hlt8⟩ : Fin 50000) (0 : Fin 1) l) :=
    row_landed7 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb7M.view (Rect.unit (s := S64000) (k7_off19 i) S1.size (k7_off19_inb i)).toLoadRect ((Memref.isWhole_whole _ : gtb7M.IsWhole).unread pf) (Shape.Idx.first (numel1_S1.symm ▸ Nat.one_pos))).toNat, hlt9⟩ : Fin 50000) (0 : Fin 1) l) :=
    row_landed7 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb7M.view (Rect.unit (s := S64000) (k7_off21 i) S1.size (k7_off21_inb i)).toLoadRect ((Memref.isWhole_whole _ : gtb7M.IsWhole).unread pf) (Shape.Idx.first (numel1_S1.symm ▸ Nat.one_pos))).toNat, hlt10⟩ : Fin 50000) (0 : Fin 1) l) :=
    row_landed7 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb7M.view (Rect.unit (s := S64000) (k7_off23 i) S1.size (k7_off23_inb i)).toLoadRect ((Memref.isWhole_whole _ : gtb7M.IsWhole).unread pf) (Shape.Idx.first (numel1_S1.symm ▸ Nat.one_pos))).toNat, hlt11⟩ : Fin 50000) (0 : Fin 1) l) :=
    row_landed7 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb7M.view (Rect.unit (s := S64000) (k7_off25 i) S1.size (k7_off25_inb i)).toLoadRect ((Memref.isWhole_whole _ : gtb7M.IsWhole).unread pf) (Shape.Idx.first (numel1_S1.symm ▸ Nat.one_pos))).toNat, hlt12⟩ : Fin 50000) (0 : Fin 1) l) :=
    row_landed7 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb7M.view (Rect.unit (s := S64000) (k7_off27 i) S1.size (k7_off27_inb i)).toLoadRect ((Memref.isWhole_whole _ : gtb7M.IsWhole).unread pf) (Shape.Idx.first (numel1_S1.symm ▸ Nat.one_pos))).toNat, hlt13⟩ : Fin 50000) (0 : Fin 1) l) :=
    row_landed7 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb7M.view (Rect.unit (s := S64000) (k7_off29 i) S1.size (k7_off29_inb i)).toLoadRect ((Memref.isWhole_whole _ : gtb7M.IsWhole).unread pf) (Shape.Idx.first (numel1_S1.symm ▸ Nat.one_pos))).toNat, hlt14⟩ : Fin 50000) (0 : Fin 1) l) :=
    row_landed7 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb7M.view (Rect.unit (s := S64000) (k7_off31 i) S1.size (k7_off31_inb i)).toLoadRect ((Memref.isWhole_whole _ : gtb7M.IsWhole).unread pf) (Shape.Idx.first (numel1_S1.symm ▸ Nat.one_pos))).toNat, hlt15⟩ : Fin 50000) (0 : Fin 1) l) :=
    row_landed7 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load7]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb7M).IsWhole).read_unread _
  isplitl [Hh0 Hh1 Hh2 Hh3 Hh4 Hh5 Hh6 Hh7 Hh8 Hh9 Hh10 Hh11 Hh12 Hh13 Hh14 Hh15]
  · iapply (join16 (ℓ := ghb7M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather7.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 7's own DMA semaphores: one per row of the step. -/
abbrev gsem7 : Fin 16 → SemLoc sig := fun j =>
  (![SemLoc.dma 128, SemLoc.dma 129, SemLoc.dma 130, SemLoc.dma 131, SemLoc.dma 132, SemLoc.dma 133, SemLoc.dma 134, SemLoc.dma 135, SemLoc.dma 136, SemLoc.dma 137, SemLoc.dma 138, SemLoc.dma 139, SemLoc.dma 140, SemLoc.dma 141, SemLoc.dma 142, SemLoc.dma 143] : Fin 16 → SemLoc sig) j
theorem gsemFacts7 : Pipeline.OwnSemFacts spec7 gsem7 := by decide

/-- The buffers the body reads without a window: the node table in HBM and its chunk of the edge-source table. -/
def gH7 : Finset (Ref sig .tc) := {main_v0, main_v15}
theorem gH7_sub : gH7 ⊆ Pipeline.restRefs sig spec7 := by decide

/-- The call's prefetched table at the contents the region finds. -/
def gadm7 (c : Dev nD) : (pcfg7 (F := F)).Adm := ⟨fun k => match k with | ⟨0, _⟩ => V c main_v15, trivial⟩

/-- The proof data of gather call 7 on core `c`: the output array as found; after step `t` the output block holds
    the gathered rows; the invariant carries the scratch, the call's semaphores at zero and the two tables as found. -/
def gdat7 (a : (pcfg7 (F := F)).Adm) (c : Dev nD) : Dat τ (Elt F) Unit ℕ (Pipeline.UD sig nD τ) ℕ (cfg7 a) c where
  A w := V c (Pipeline.arrRef spec7 w)
  after w t := match w with
    | ⟨0, _⟩ => gblock (V c main_v0) (V c main_v15) t.val
  Φ _ := Pipeline.ΦD gsem7 spec7 gH7 V c
  q _ := fullShare
  owed _ := 0

theorem gdat7_A (a : (pcfg7 (F := F)).Adm) (c : Dev nD) (w : Fin (cfg7 a).W) :
    (gdat7 V a c).A w = V c (Pipeline.arrRef spec7 w) := by dsimp only [gdat7]
theorem gdat7_after (a : (pcfg7 (F := F)).Adm) (c : Dev nD) (t : Fin (cfg7 a).N) :
    (gdat7 V a c).after 0 t = gblock (V c main_v0) (V c main_v15) t.val := rfl

/-! ## The body obligation, from the body's run -/

/-- The call's scratch buffer whole at some contents, said of the buffer and said through the whole-buffer memref. -/
theorem gsc7_whole (c : Dev nD) :
    (iprop(∃ f, gsc7M.view.loc (c : Thread nD τ) ↦[gsc7M.view.set]{fullShare} f) : sProp 𝕄)
      = iprop(∃ f : Buf (Elt F) ((c : Thread nD τ).loc cc7_scratch0), ((c : Thread nD τ).loc cc7_scratch0) ↦{fullShare} f) := by
  simp only [gsc7M, Memref.view_whole, View.set_whole]

/-- The region invariant of gather call 7, conjunct by conjunct: the call's scratch buffer whole at some contents beside
    the scoped buffers it does not touch, the generator register at some state, its sixteen semaphores at zero, and
    the two tables whole at the contents the region finds. -/
theorem PhiD7_eq (c : Dev nD) :
    (Pipeline.ΦD gsem7 spec7 gH7 V c : sProp 𝕄)
      = iprop(iprop((∃ f, gsc7M.view.loc (c : Thread nD τ) ↦[gsc7M.view.set]{fullShare} f)
            ∗ Pipeline.scopedRestBut (Ix := Unit) (Name := ℕ) (U := Pipeline.UD sig nD τ) (Lvl := ℕ) (Val := Elt F) spec7 c [cc7_scratch0])
          ∗ (∃ r, prngReg c r)
          ∗ iprop(semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0 ∗ semVal ((c : Thread nD τ), SemLoc.dma 138) 0 ∗ semVal ((c : Thread nD τ), SemLoc.dma 139) 0 ∗ semVal ((c : Thread nD τ), SemLoc.dma 140) 0 ∗ semVal ((c : Thread nD τ), SemLoc.dma 141) 0 ∗ semVal ((c : Thread nD τ), SemLoc.dma 142) 0 ∗ semVal ((c : Thread nD τ), SemLoc.dma 143) 0)
          ∗ iprop((ghb7M.view.loc (c : Thread nD τ) ↦{fullShare} V c main_v0) ∗ owns (c : Thread nD τ) gtb7M fullShare (V c main_v15))) := by
  rw [gsc7_whole, owns_whole, Pipeline.ΦD_eq, scopedRest7_split,
    Pipeline.ownSems0_eq_of_list c gsem7 [0, 1, 2, 3, 4, 5, 6, 7, 8, 9, 10, 11, 12, 13, 14, 15] (by decide) (by decide),
    BI.bigSep_eq_bigSepL_of_eq [main_v0, main_v15] (by decide) (by decide)]
  rfl

/-- The kernel body of gather call 7 as the pipeline calls it at point `t`: the step's coordinates, the two tables whole,
    the output window's current staging buffer, the scratch buffer and the sixteen semaphores. -/
abbrev gbodyAt7 (a : (pcfg7 (F := F)).Adm) (t : Fin (cfg7 a).N) : Prog (TpuEff nD τ sig (Elt F) Λ₀ .tc) PUnit :=
  cc7__gather_kernel ((cfg7 a).grid.coords t) gtb7M (Memref.isWhole_whole _) ghb7M (Memref.isWhole_whole _)
    (spec7_0.stage ((cfg7 a).slots t 0)) (hstage7_0 (((cfg7 a).slots t 0).cast nbuf7_0)) gsc7M (Memref.isWhole_whole _) cc7_scratch1

/-- The grid is one axis of 4000 steps: the step's one coordinate is its number. -/
theorem gcoord7 (a : (pcfg7 (F := F)).Adm) (t : Fin (cfg7 a).N) : (((cfg7 a).grid.coords t) 0).val = t.val := by
  have ht : t.val < 4000 := lt_of_lt_of_eq t.isLt N_7
  show t.val / 1 % 4000 = t.val
  omega

/-- What the body is called with at point `t`: the invariant, the core's `owes`, the output window's current staging
    buffer at whatever it holds, -/
def gbodyPre7 (a : (pcfg7 (F := F)).Adm) (c : Dev nD) (t : Fin (cfg7 a).N) : sProp 𝕄 :=
  iprop((gdat7 V a c).Φ t.castSucc ∗ (gdat7 V a c).owesAt () t.castSucc
    ∗ (∃ d, owns (c : Thread nD τ) (spec7_0.stage ((cfg7 a).slots t 0)) fullShare ((gdat7 V a c).before 0 t d)))

/-- and what it returns: the invariant, `owes`, the staging buffer at the step's gathered rows. -/
def gbodyPost7 (a : (pcfg7 (F := F)).Adm) (c : Dev nD) (t : Fin (cfg7 a).N) : sProp 𝕄 :=
  iprop((gdat7 V a c).Φ t.succ ∗ (gdat7 V a c).owesAt () t.succ
    ∗ owns (c : Thread nD τ) (spec7_0.stage ((cfg7 a).slots t 0)) fullShare ((gdat7 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body7 (a : (pcfg7 (F := F)).Adm) (c : Dev nD)
    (hok : ∀ e : S64000.Idx, (V c main_v15 e).toNat < 50000) (t : Fin (cfg7 a).N) :
    gbodyPre7 V a c t ⊢ wp frame (wpE (defs₀ (F := F)) Variants.none c none) Set.univ (gbodyAt7 a t) (fun _ => gbodyPost7 V a c t) := by
  unfold gbodyPre7 gbodyPost7 gbodyAt7
  rw [show (gdat7 V a c).Φ t.succ = Pipeline.ΦD gsem7 spec7 gH7 V c from rfl,
    show (gdat7 V a c).Φ t.castSucc = Pipeline.ΦD gsem7 spec7 gH7 V c from rfl, gdat7_after, PhiD7_eq]
  unfold Dat.owesAt Pipeline.owesWithin
  rw [show (gdat7 V a c).owed t.castSucc = 0 from rfl, show (gdat7 V a c).owed t.succ = 0 from rfl]
  have hrun := fun W K => gather_run7 (F := F) c ((cfg7 a).grid.coords t) (spec7_0.stage ((cfg7 a).slots t 0))
    (hstage7_0 (((cfg7 a).slots t 0).cast nbuf7_0)) (V c main_v15) (V c main_v0) hok W K
  rw [gcoord7 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 7, when every word of its table names a row of the node table. -/
theorem gather_obligation7 (a : (pcfg7 (F := F)).Adm) (c : Dev nD)
    (hok : ∀ e : S64000.Idx, (V c main_v15 e).toNat < 50000) :
    BodyObligation (gdat7 (F := F) V a c) (defs₀ (F := F)) Variants.none () Set.univ := fun t => by
  rw [bigSep_W7, bigSep_W7]
  exact gsound_body7 V a c hok t

end

end Cert.Kernel.Hand

end
-- ==== Proof.KRowsJoin8.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 8's scratch buffer, whole, and its sixteen rows as the body addresses them. -/
abbrev gsc8M : Memref sig .tc .vmem S16x1x128 .f32 := Memref.whole cc8_scratch0
abbrev gr8_0M : Memref sig .tc .vmem S1x128 .f32 := ((Memref.whole cc8_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr8_1M : Memref sig .tc .vmem S1x128 .f32 := ((Memref.whole cc8_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr8_2M : Memref sig .tc .vmem S1x128 .f32 := ((Memref.whole cc8_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr8_3M : Memref sig .tc .vmem S1x128 .f32 := ((Memref.whole cc8_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr8_4M : Memref sig .tc .vmem S1x128 .f32 := ((Memref.whole cc8_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr8_5M : Memref sig .tc .vmem S1x128 .f32 := ((Memref.whole cc8_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr8_6M : Memref sig .tc .vmem S1x128 .f32 := ((Memref.whole cc8_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr8_7M : Memref sig .tc .vmem S1x128 .f32 := ((Memref.whole cc8_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr8_8M : Memref sig .tc .vmem S1x128 .f32 := ((Memref.whole cc8_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr8_9M : Memref sig .tc .vmem S1x128 .f32 := ((Memref.whole cc8_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr8_10M : Memref sig .tc .vmem S1x128 .f32 := ((Memref.whole cc8_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr8_11M : Memref sig .tc .vmem S1x128 .f32 := ((Memref.whole cc8_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr8_12M : Memref sig .tc .vmem S1x128 .f32 := ((Memref.whole cc8_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr8_13M : Memref sig .tc .vmem S1x128 .f32 := ((Memref.whole cc8_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr8_14M : Memref sig .tc .vmem S1x128 .f32 := ((Memref.whole cc8_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr8_15M : Memref sig .tc .vmem S1x128 .f32 := ((Memref.whole cc8_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr8_0M.view.set = rowSet (0 : Fin 16) := by
  refine (View.set_reshape _ _).trans ?_
  refine (View.set_slice_whole _ _).trans ?_
  rfl
private theorem row_set_1 : gr8_1M.view.set = rowSet (1 : Fin 16) := by
  refine (View.set_reshape _ _).trans ?_
  refine (View.set_slice_whole _ _).trans ?_
  rfl
private theorem row_set_2 : gr8_2M.view.set = rowSet (2 : Fin 16) := by
  refine (View.set_reshape _ _).trans ?_
  refine (View.set_slice_whole _ _).trans ?_
  rfl
private theorem row_set_3 : gr8_3M.view.set = rowSet (3 : Fin 16) := by
  refine (View.set_reshape _ _).trans ?_
  refine (View.set_slice_whole _ _).trans ?_
  rfl
private theorem row_set_4 : gr8_4M.view.set = rowSet (4 : Fin 16) := by
  refine (View.set_reshape _ _).trans ?_
  refine (View.set_slice_whole _ _).trans ?_
  rfl
private theorem row_set_5 : gr8_5M.view.set = rowSet (5 : Fin 16) := by
  refine (View.set_reshape _ _).trans ?_
  refine (View.set_slice_whole _ _).trans ?_
  rfl
private theorem row_set_6 : gr8_6M.view.set = rowSet (6 : Fin 16) := by
  refine (View.set_reshape _ _).trans ?_
  refine (View.set_slice_whole _ _).trans ?_
  rfl
private theorem row_set_7 : gr8_7M.view.set = rowSet (7 : Fin 16) := by
  refine (View.set_reshape _ _).trans ?_
  refine (View.set_slice_whole _ _).trans ?_
  rfl
private theorem row_set_8 : gr8_8M.view.set = rowSet (8 : Fin 16) := by
  refine (View.set_reshape _ _).trans ?_
  refine (View.set_slice_whole _ _).trans ?_
  rfl
private theorem row_set_9 : gr8_9M.view.set = rowSet (9 : Fin 16) := by
  refine (View.set_reshape _ _).trans ?_
  refine (View.set_slice_whole _ _).trans ?_
  rfl
private theorem row_set_10 : gr8_10M.view.set = rowSet (10 : Fin 16) := by
  refine (View.set_reshape _ _).trans ?_
  refine (View.set_slice_whole _ _).trans ?_
  rfl
private theorem row_set_11 : gr8_11M.view.set = rowSet (11 : Fin 16) := by
  refine (View.set_reshape _ _).trans ?_
  refine (View.set_slice_whole _ _).trans ?_
  rfl
private theorem row_set_12 : gr8_12M.view.set = rowSet (12 : Fin 16) := by
  refine (View.set_reshape _ _).trans ?_
  refine (View.set_slice_whole _ _).trans ?_
  rfl
private theorem row_set_13 : gr8_13M.view.set = rowSet (13 : Fin 16) := by
  refine (View.set_reshape _ _).trans ?_
  refine (View.set_slice_whole _ _).trans ?_
  rfl
private theorem row_set_14 : gr8_14M.view.set = rowSet (14 : Fin 16) := by
  refine (View.set_reshape _ _).trans ?_
  refine (View.set_slice_whole _ _).trans ?_
  rfl
private theorem row_set_15 : gr8_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join8 (c : Dev nD) (f0 f1 f2 f3 f4 f5 f6 f7 f8 f9 f10 f11 f12 f13 f14 f15 : Buf (Elt F) (gsc8M.view.loc (c : Thread nD τ))) :
    (iprop((gsc8M.view.loc (c : Thread nD τ) ↦[gr8_0M.view.set]{fullShare} f0)
        ∗ (gsc8M.view.loc (c : Thread nD τ) ↦[gr8_1M.view.set]{fullShare} f1)
        ∗ (gsc8M.view.loc (c : Thread nD τ) ↦[gr8_2M.view.set]{fullShare} f2)
        ∗ (gsc8M.view.loc (c : Thread nD τ) ↦[gr8_3M.view.set]{fullShare} f3)
        ∗ (gsc8M.view.loc (c : Thread nD τ) ↦[gr8_4M.view.set]{fullShare} f4)
        ∗ (gsc8M.view.loc (c : Thread nD τ) ↦[gr8_5M.view.set]{fullShare} f5)
        ∗ (gsc8M.view.loc (c : Thread nD τ) ↦[gr8_6M.view.set]{fullShare} f6)
        ∗ (gsc8M.view.loc (c : Thread nD τ) ↦[gr8_7M.view.set]{fullShare} f7)
        ∗ (gsc8M.view.loc (c : Thread nD τ) ↦[gr8_8M.view.set]{fullShare} f8)
        ∗ (gsc8M.view.loc (c : Thread nD τ) ↦[gr8_9M.view.set]{fullShare} f9)
        ∗ (gsc8M.view.loc (c : Thread nD τ) ↦[gr8_10M.view.set]{fullShare} f10)
        ∗ (gsc8M.view.loc (c : Thread nD τ) ↦[gr8_11M.view.set]{fullShare} f11)
        ∗ (gsc8M.view.loc (c : Thread nD τ) ↦[gr8_12M.view.set]{fullShare} f12)
        ∗ (gsc8M.view.loc (c : Thread nD τ) ↦[gr8_13M.view.set]{fullShare} f13)
        ∗ (gsc8M.view.loc (c : Thread nD τ) ↦[gr8_14M.view.set]{fullShare} f14)
        ∗ (gsc8M.view.loc (c : Thread nD τ) ↦[gr8_15M.view.set]{fullShare} f15)) : sProp 𝕄)
      ⊢ iprop(∃ g : Buf (Elt F) (gsc8M.view.loc (c : Thread nD τ)),
          ⌜(∀ i ∈ gr8_0M.view.set, g i = f0 i)
            ∧ (∀ i ∈ gr8_1M.view.set, g i = f1 i)
            ∧ (∀ i ∈ gr8_2M.view.set, g i = f2 i)
            ∧ (∀ i ∈ gr8_3M.view.set, g i = f3 i)
            ∧ (∀ i ∈ gr8_4M.view.set, g i = f4 i)
            ∧ (∀ i ∈ gr8_5M.view.set, g i = f5 i)
            ∧ (∀ i ∈ gr8_6M.view.set, g i = f6 i)
            ∧ (∀ i ∈ gr8_7M.view.set, g i = f7 i)
            ∧ (∀ i ∈ gr8_8M.view.set, g i = f8 i)
            ∧ (∀ i ∈ gr8_9M.view.set, g i = f9 i)
            ∧ (∀ i ∈ gr8_10M.view.set, g i = f10 i)
            ∧ (∀ i ∈ gr8_11M.view.set, g i = f11 i)
            ∧ (∀ i ∈ gr8_12M.view.set, g i = f12 i)
            ∧ (∀ i ∈ gr8_13M.view.set, g i = f13 i)
            ∧ (∀ i ∈ gr8_14M.view.set, g i = f14 i)
            ∧ (∀ i ∈ gr8_15M.view.set, g i = f15 i)⌝
          ∗ (gsc8M.view.loc (c : Thread nD τ) ↦[gsc8M.view.set]{fullShare} g)) := by
  have hw : gsc8M.view.set = Finset.univ.biUnion rowSet := (View.set_whole _).trans rowSet_cover.symm
  exact join16 (ℓ := gsc8M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split8 (c : Dev nD) (f : Buf (Elt F) (gsc8M.view.loc (c : Thread nD τ))) :
    (gsc8M.view.loc (c : Thread nD τ) ↦[gsc8M.view.set]{fullShare} f : sProp 𝕄)
      ⊢ iprop((gsc8M.view.loc (c : Thread nD τ) ↦[gr8_0M.view.set]{fullShare} f)
        ∗ (gsc8M.view.loc (c : Thread nD τ) ↦[gr8_1M.view.set]{fullShare} f)
        ∗ (gsc8M.view.loc (c : Thread nD τ) ↦[gr8_2M.view.set]{fullShare} f)
        ∗ (gsc8M.view.loc (c : Thread nD τ) ↦[gr8_3M.view.set]{fullShare} f)
        ∗ (gsc8M.view.loc (c : Thread nD τ) ↦[gr8_4M.view.set]{fullShare} f)
        ∗ (gsc8M.view.loc (c : Thread nD τ) ↦[gr8_5M.view.set]{fullShare} f)
        ∗ (gsc8M.view.loc (c : Thread nD τ) ↦[gr8_6M.view.set]{fullShare} f)
        ∗ (gsc8M.view.loc (c : Thread nD τ) ↦[gr8_7M.view.set]{fullShare} f)
        ∗ (gsc8M.view.loc (c : Thread nD τ) ↦[gr8_8M.view.set]{fullShare} f)
        ∗ (gsc8M.view.loc (c : Thread nD τ) ↦[gr8_9M.view.set]{fullShare} f)
        ∗ (gsc8M.view.loc (c : Thread nD τ) ↦[gr8_10M.view.set]{fullShare} f)
        ∗ (gsc8M.view.loc (c : Thread nD τ) ↦[gr8_11M.view.set]{fullShare} f)
        ∗ (gsc8M.view.loc (c : Thread nD τ) ↦[gr8_12M.view.set]{fullShare} f)
        ∗ (gsc8M.view.loc (c : Thread nD τ) ↦[gr8_13M.view.set]{fullShare} f)
        ∗ (gsc8M.view.loc (c : Thread nD τ) ↦[gr8_14M.view.set]{fullShare} f)
        ∗ (gsc8M.view.loc (c : Thread nD τ) ↦[gr8_15M.view.set]{fullShare} f)) := by
  have hw : gsc8M.view.set = Finset.univ.biUnion rowSet := (View.set_whole _).trans rowSet_cover.symm
  exact split16 (ℓ := gsc8M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows8.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin8
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 8's chunk of the edge-source table in scalar memory, whole. -/
abbrev ghb8M : Memref sig .tc .hbm S50000x1x128 .f32 := Memref.whole main_v0
abbrev gtb8M : Memref sig .tc .smem S64000 .i32 := Memref.whole main_v17

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc8M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb8M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed8 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb8M.view.loc (c : Thread nD τ))) (fs g : Buf (Elt F) (gsc8M.view.loc (c : Thread nD τ)))
    (hg : ∀ i ∈ ((gsc8M.slice (Rect.unit (s := S16x1x128) ![j, 0, 0] S1x1x128.size inb) (fun _ => rfl)).squeeze S1x128 squeezes_S1x1x128_S1x128).view.set,
        g i = ((gsc8M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb8M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc8M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb8M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load8 (c : Dev nD) (g : Buf (Elt F) (gsc8M.view.loc (c : Thread nD τ))) (y : S16x1x128.Idx) :
    View.readAt (Elt F) gsc8M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word8 (pf : S64000.Idx → Elt F .i32) (off : Fin 1 → ℕ) (inb : ∀ a, off a + S1.size a ≤ S64000.size a)
    (n : ℕ) (hn : n < 64000) (hoff : off 0 = n) :
    View.readAt (Elt F) gtb8M.view (Rect.unit (s := S64000) off S1.size inb).toLoadRect
        ((Memref.isWhole_whole _ : gtb8M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs8 (i : grid8.Coords) :
    (k8_off1 i) 0 = 16 * (i 0).val + 0
    ∧ (k8_off3 i) 0 = 16 * (i 0).val + 1
    ∧ (k8_off5 i) 0 = 16 * (i 0).val + 2
    ∧ (k8_off7 i) 0 = 16 * (i 0).val + 3
    ∧ (k8_off9 i) 0 = 16 * (i 0).val + 4
    ∧ (k8_off11 i) 0 = 16 * (i 0).val + 5
    ∧ (k8_off13 i) 0 = 16 * (i 0).val + 6
    ∧ (k8_off15 i) 0 = 16 * (i 0).val + 7
    ∧ (k8_off17 i) 0 = 16 * (i 0).val + 8
    ∧ (k8_off19 i) 0 = 16 * (i 0).val + 9
    ∧ (k8_off21 i) 0 = 16 * (i 0).val + 10
    ∧ (k8_off23 i) 0 = 16 * (i 0).val + 11
    ∧ (k8_off25 i) 0 = 16 * (i 0).val + 12
    ∧ (k8_off27 i) 0 = 16 * (i 0).val + 13
    ∧ (k8_off29 i) 0 = 16 * (i 0).val + 14
    ∧ (k8_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun8.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows8
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 8's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run8 (c : Dev nD) (i : grid8.Coords) (arg3 : Memref sig .tc .vmem S16x1x128 .f32) (harg3 : arg3.IsWhole)
    (pf : S64000.Idx → Elt F .i32) (tb : Buf (Elt F) (ghb8M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc8M.view.loc (c : Thread nD τ) ↦[gsc8M.view.set]{fullShare} f)
        ∗ owns (c : Thread nD τ) gtb8M fullShare pf
        ∗ (ghb8M.view.loc (c : Thread nD τ) ↦{fullShare} tb)
        ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0
        ∗ owes (c : Thread nD τ) 0 W
        ∗ (iprop(owns (c : Thread nD τ) arg3 fullShare (gblock tb pf (i 0).val)
            ∗ (∃ f, gsc8M.view.loc (c : Thread nD τ) ↦[gsc8M.view.set]{fullShare} f)
            ∗ owns (c : Thread nD τ) gtb8M fullShare pf
            ∗ (ghb8M.view.loc (c : Thread nD τ) ↦{fullShare} tb)
            ∗ semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0
            ∗ (∃ W', owes (c : Thread nD τ) 0 W')) -∗ K ⟨⟩))
      ⊢ wp frame (wpE (defs₀ (F := F)) Variants.none c none) Set.univ
          (cc8__gather_kernel i gtb8M (Memref.isWhole_whole _) ghb8M (Memref.isWhole_whole _) arg3 harg3 gsc8M (Memref.isWhole_whole _) cc8_scratch1) K := by
  have hi : (i 0).val < 4000 := (i 0).isLt
  have hoffs := table_offs8 i
  have hword0 : (View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))) = pf (ValueIdx.ix1 (⟨16 * (i 0).val + 0, by omega⟩ : Fin 64000)) :=
    table_word8 pf _ _ _ (by omega) hoffs.1
  have hlt0 : (View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))).toNat < 50000 := by rw [hword0]; exact hok _
  have hw1 : k8_chk1 (View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))) := ⟨chk_lt _ hlt0, chk_lt _ hlt0⟩
  have hword1 : (View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))) = pf (ValueIdx.ix1 (⟨16 * (i 0).val + 1, by omega⟩ : Fin 64000)) :=
    table_word8 pf _ _ _ (by omega) hoffs.2.1
  have hlt1 : (View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))).toNat < 50000 := by rw [hword1]; exact hok _
  have hw2 : k8_chk2 (View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))) := ⟨chk_lt _ hlt1, chk_lt _ hlt1⟩
  have hword2 : (View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))) = pf (ValueIdx.ix1 (⟨16 * (i 0).val + 2, by omega⟩ : Fin 64000)) :=
    table_word8 pf _ _ _ (by omega) hoffs.2.2.1
  have hlt2 : (View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))).toNat < 50000 := by rw [hword2]; exact hok _
  have hw3 : k8_chk3 (View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))) := ⟨chk_lt _ hlt2, chk_lt _ hlt2⟩
  have hword3 : (View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))) = pf (ValueIdx.ix1 (⟨16 * (i 0).val + 3, by omega⟩ : Fin 64000)) :=
    table_word8 pf _ _ _ (by omega) hoffs.2.2.2.1
  have hlt3 : (View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))).toNat < 50000 := by rw [hword3]; exact hok _
  have hw4 : k8_chk4 (View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))) := ⟨chk_lt _ hlt3, chk_lt _ hlt3⟩
  have hword4 : (View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))) = pf (ValueIdx.ix1 (⟨16 * (i 0).val + 4, by omega⟩ : Fin 64000)) :=
    table_word8 pf _ _ _ (by omega) hoffs.2.2.2.2.1
  have hlt4 : (View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))).toNat < 50000 := by rw [hword4]; exact hok _
  have hw5 : k8_chk5 (View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))) := ⟨chk_lt _ hlt4, chk_lt _ hlt4⟩
  have hword5 : (View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))) = pf (ValueIdx.ix1 (⟨16 * (i 0).val + 5, by omega⟩ : Fin 64000)) :=
    table_word8 pf _ _ _ (by omega) hoffs.2.2.2.2.2.1
  have hlt5 : (View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))).toNat < 50000 := by rw [hword5]; exact hok _
  have hw6 : k8_chk6 (View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))) := ⟨chk_lt _ hlt5, chk_lt _ hlt5⟩
  have hword6 : (View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))) = pf (ValueIdx.ix1 (⟨16 * (i 0).val + 6, by omega⟩ : Fin 64000)) :=
    table_word8 pf _ _ _ (by omega) hoffs.2.2.2.2.2.2.1
  have hlt6 : (View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))).toNat < 50000 := by rw [hword6]; exact hok _
  have hw7 : k8_chk7 (View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))) := ⟨chk_lt _ hlt6, chk_lt _ hlt6⟩
  have hword7 : (View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))) = pf (ValueIdx.ix1 (⟨16 * (i 0).val + 7, by omega⟩ : Fin 64000)) :=
    table_word8 pf _ _ _ (by omega) hoffs.2.2.2.2.2.2.2.1
  have hlt7 : (View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))).toNat < 50000 := by rw [hword7]; exact hok _
  have hw8 : k8_chk8 (View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))) := ⟨chk_lt _ hlt7, chk_lt _ hlt7⟩
  have hword8 : (View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))) = pf (ValueIdx.ix1 (⟨16 * (i 0).val + 8, by omega⟩ : Fin 64000)) :=
    table_word8 pf _ _ _ (by omega) hoffs.2.2.2.2.2.2.2.2.1
  have hlt8 : (View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))).toNat < 50000 := by rw [hword8]; exact hok _
  have hw9 : k8_chk9 (View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))) := ⟨chk_lt _ hlt8, chk_lt _ hlt8⟩
  have hword9 : (View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))) = pf (ValueIdx.ix1 (⟨16 * (i 0).val + 9, by omega⟩ : Fin 64000)) :=
    table_word8 pf _ _ _ (by omega) hoffs.2.2.2.2.2.2.2.2.2.1
  have hlt9 : (View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))).toNat < 50000 := by rw [hword9]; exact hok _
  have hw10 : k8_chk10 (View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))) := ⟨chk_lt _ hlt9, chk_lt _ hlt9⟩
  have hword10 : (View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))) = pf (ValueIdx.ix1 (⟨16 * (i 0).val + 10, by omega⟩ : Fin 64000)) :=
    table_word8 pf _ _ _ (by omega) hoffs.2.2.2.2.2.2.2.2.2.2.1
  have hlt10 : (View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))).toNat < 50000 := by rw [hword10]; exact hok _
  have hw11 : k8_chk11 (View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))) := ⟨chk_lt _ hlt10, chk_lt _ hlt10⟩
  have hword11 : (View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))) = pf (ValueIdx.ix1 (⟨16 * (i 0).val + 11, by omega⟩ : Fin 64000)) :=
    table_word8 pf _ _ _ (by omega) hoffs.2.2.2.2.2.2.2.2.2.2.2.1
  have hlt11 : (View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))).toNat < 50000 := by rw [hword11]; exact hok _
  have hw12 : k8_chk12 (View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))) := ⟨chk_lt _ hlt11, chk_lt _ hlt11⟩
  have hword12 : (View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))) = pf (ValueIdx.ix1 (⟨16 * (i 0).val + 12, by omega⟩ : Fin 64000)) :=
    table_word8 pf _ _ _ (by omega) hoffs.2.2.2.2.2.2.2.2.2.2.2.2.1
  have hlt12 : (View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))).toNat < 50000 := by rw [hword12]; exact hok _
  have hw13 : k8_chk13 (View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))) := ⟨chk_lt _ hlt12, chk_lt _ hlt12⟩
  have hword13 : (View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))) = pf (ValueIdx.ix1 (⟨16 * (i 0).val + 13, by omega⟩ : Fin 64000)) :=
    table_word8 pf _ _ _ (by omega) hoffs.2.2.2.2.2.2.2.2.2.2.2.2.2.1
  have hlt13 : (View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))).toNat < 50000 := by rw [hword13]; exact hok _
  have hw14 : k8_chk14 (View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))) := ⟨chk_lt _ hlt13, chk_lt _ hlt13⟩
  have hword14 : (View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))) = pf (ValueIdx.ix1 (⟨16 * (i 0).val + 14, by omega⟩ : Fin 64000)) :=
    table_word8 pf _ _ _ (by omega) hoffs.2.2.2.2.2.2.2.2.2.2.2.2.2.2.1
  have hlt14 : (View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))).toNat < 50000 := by rw [hword14]; exact hok _
  have hw15 : k8_chk15 (View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))) := ⟨chk_lt _ hlt14, chk_lt _ hlt14⟩
  have hword15 : (View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))) = pf (ValueIdx.ix1 (⟨16 * (i 0).val + 15, by omega⟩ : Fin 64000)) :=
    table_word8 pf _ _ _ (by omega) hoffs.2.2.2.2.2.2.2.2.2.2.2.2.2.2.2
  have hlt15 : (View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))).toNat < 50000 := by rw [hword15]; exact hok _
  have hw16 : k8_chk16 (View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))) := chk_lt _ hlt15
  rw [cc8__gather_kernel_eq_skeleton]; unfold cc8__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb8M).IsWhole).eq_unread hfp
  ihave HR := (rows_split8 (F := F) c fsc) $$ HSC
  icases HR with ⟨HS0, HS1, HS2, HS3, HS4, HS5, HS6, HS7, HS8, HS9, HS10, HS11, HS12, HS13, HS14, HS15⟩
  ihave HS0 := (Entails.of_eq (show ((gsc8M.view.loc (c : Thread nD τ) ↦[gr8_0M.view.set]{fullShare} fsc : sProp 𝕄)) = (gr8_0M.view.loc (c : Thread nD τ) ↦[gr8_0M.view.set]{fullShare} fsc) from rfl)) $$ HS0
  ihave HS1 := (Entails.of_eq (show ((gsc8M.view.loc (c : Thread nD τ) ↦[gr8_1M.view.set]{fullShare} fsc : sProp 𝕄)) = (gr8_1M.view.loc (c : Thread nD τ) ↦[gr8_1M.view.set]{fullShare} fsc) from rfl)) $$ HS1
  ihave HS2 := (Entails.of_eq (show ((gsc8M.view.loc (c : Thread nD τ) ↦[gr8_2M.view.set]{fullShare} fsc : sProp 𝕄)) = (gr8_2M.view.loc (c : Thread nD τ) ↦[gr8_2M.view.set]{fullShare} fsc) from rfl)) $$ HS2
  ihave HS3 := (Entails.of_eq (show ((gsc8M.view.loc (c : Thread nD τ) ↦[gr8_3M.view.set]{fullShare} fsc : sProp 𝕄)) = (gr8_3M.view.loc (c : Thread nD τ) ↦[gr8_3M.view.set]{fullShare} fsc) from rfl)) $$ HS3
  ihave HS4 := (Entails.of_eq (show ((gsc8M.view.loc (c : Thread nD τ) ↦[gr8_4M.view.set]{fullShare} fsc : sProp 𝕄)) = (gr8_4M.view.loc (c : Thread nD τ) ↦[gr8_4M.view.set]{fullShare} fsc) from rfl)) $$ HS4
  ihave HS5 := (Entails.of_eq (show ((gsc8M.view.loc (c : Thread nD τ) ↦[gr8_5M.view.set]{fullShare} fsc : sProp 𝕄)) = (gr8_5M.view.loc (c : Thread nD τ) ↦[gr8_5M.view.set]{fullShare} fsc) from rfl)) $$ HS5
  ihave HS6 := (Entails.of_eq (show ((gsc8M.view.loc (c : Thread nD τ) ↦[gr8_6M.view.set]{fullShare} fsc : sProp 𝕄)) = (gr8_6M.view.loc (c : Thread nD τ) ↦[gr8_6M.view.set]{fullShare} fsc) from rfl)) $$ HS6
  ihave HS7 := (Entails.of_eq (show ((gsc8M.view.loc (c : Thread nD τ) ↦[gr8_7M.view.set]{fullShare} fsc : sProp 𝕄)) = (gr8_7M.view.loc (c : Thread nD τ) ↦[gr8_7M.view.set]{fullShare} fsc) from rfl)) $$ HS7
  ihave HS8 := (Entails.of_eq (show ((gsc8M.view.loc (c : Thread nD τ) ↦[gr8_8M.view.set]{fullShare} fsc : sProp 𝕄)) = (gr8_8M.view.loc (c : Thread nD τ) ↦[gr8_8M.view.set]{fullShare} fsc) from rfl)) $$ HS8
  ihave HS9 := (Entails.of_eq (show ((gsc8M.view.loc (c : Thread nD τ) ↦[gr8_9M.view.set]{fullShare} fsc : sProp 𝕄)) = (gr8_9M.view.loc (c : Thread nD τ) ↦[gr8_9M.view.set]{fullShare} fsc) from rfl)) $$ HS9
  ihave HS10 := (Entails.of_eq (show ((gsc8M.view.loc (c : Thread nD τ) ↦[gr8_10M.view.set]{fullShare} fsc : sProp 𝕄)) = (gr8_10M.view.loc (c : Thread nD τ) ↦[gr8_10M.view.set]{fullShare} fsc) from rfl)) $$ HS10
  ihave HS11 := (Entails.of_eq (show ((gsc8M.view.loc (c : Thread nD τ) ↦[gr8_11M.view.set]{fullShare} fsc : sProp 𝕄)) = (gr8_11M.view.loc (c : Thread nD τ) ↦[gr8_11M.view.set]{fullShare} fsc) from rfl)) $$ HS11
  ihave HS12 := (Entails.of_eq (show ((gsc8M.view.loc (c : Thread nD τ) ↦[gr8_12M.view.set]{fullShare} fsc : sProp 𝕄)) = (gr8_12M.view.loc (c : Thread nD τ) ↦[gr8_12M.view.set]{fullShare} fsc) from rfl)) $$ HS12
  ihave HS13 := (Entails.of_eq (show ((gsc8M.view.loc (c : Thread nD τ) ↦[gr8_13M.view.set]{fullShare} fsc : sProp 𝕄)) = (gr8_13M.view.loc (c : Thread nD τ) ↦[gr8_13M.view.set]{fullShare} fsc) from rfl)) $$ HS13
  ihave HS14 := (Entails.of_eq (show ((gsc8M.view.loc (c : Thread nD τ) ↦[gr8_14M.view.set]{fullShare} fsc : sProp 𝕄)) = (gr8_14M.view.loc (c : Thread nD τ) ↦[gr8_14M.view.set]{fullShare} fsc) from rfl)) $$ HS14
  ihave HS15 := (Entails.of_eq (show ((gsc8M.view.loc (c : Thread nD τ) ↦[gr8_15M.view.set]{fullShare} fsc : sProp 𝕄)) = (gr8_15M.view.loc (c : Thread nD τ) ↦[gr8_15M.view.set]{fullShare} fsc) from rfl)) $$ HS15
  ihave HB := (split16 (ℓ := ghb8M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join8 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb8M.view (Rect.unit (s := S64000) (k8_off1 i) S1.size (k8_off1_inb i)).toLoadRect ((Memref.isWhole_whole _ : gtb8M.IsWhole).unread pf) (Shape.Idx.first (numel1_S1.symm ▸ Nat.one_pos))).toNat, hlt0⟩ : Fin 50000) (0 : Fin 1) l) :=
    row_landed8 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb8M.view (Rect.unit (s := S64000) (k8_off3 i) S1.size (k8_off3_inb i)).toLoadRect ((Memref.isWhole_whole _ : gtb8M.IsWhole).unread pf) (Shape.Idx.first (numel1_S1.symm ▸ Nat.one_pos))).toNat, hlt1⟩ : Fin 50000) (0 : Fin 1) l) :=
    row_landed8 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb8M.view (Rect.unit (s := S64000) (k8_off5 i) S1.size (k8_off5_inb i)).toLoadRect ((Memref.isWhole_whole _ : gtb8M.IsWhole).unread pf) (Shape.Idx.first (numel1_S1.symm ▸ Nat.one_pos))).toNat, hlt2⟩ : Fin 50000) (0 : Fin 1) l) :=
    row_landed8 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb8M.view (Rect.unit (s := S64000) (k8_off7 i) S1.size (k8_off7_inb i)).toLoadRect ((Memref.isWhole_whole _ : gtb8M.IsWhole).unread pf) (Shape.Idx.first (numel1_S1.symm ▸ Nat.one_pos))).toNat, hlt3⟩ : Fin 50000) (0 : Fin 1) l) :=
    row_landed8 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb8M.view (Rect.unit (s := S64000) (k8_off9 i) S1.size (k8_off9_inb i)).toLoadRect ((Memref.isWhole_whole _ : gtb8M.IsWhole).unread pf) (Shape.Idx.first (numel1_S1.symm ▸ Nat.one_pos))).toNat, hlt4⟩ : Fin 50000) (0 : Fin 1) l) :=
    row_landed8 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb8M.view (Rect.unit (s := S64000) (k8_off11 i) S1.size (k8_off11_inb i)).toLoadRect ((Memref.isWhole_whole _ : gtb8M.IsWhole).unread pf) (Shape.Idx.first (numel1_S1.symm ▸ Nat.one_pos))).toNat, hlt5⟩ : Fin 50000) (0 : Fin 1) l) :=
    row_landed8 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb8M.view (Rect.unit (s := S64000) (k8_off13 i) S1.size (k8_off13_inb i)).toLoadRect ((Memref.isWhole_whole _ : gtb8M.IsWhole).unread pf) (Shape.Idx.first (numel1_S1.symm ▸ Nat.one_pos))).toNat, hlt6⟩ : Fin 50000) (0 : Fin 1) l) :=
    row_landed8 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb8M.view (Rect.unit (s := S64000) (k8_off15 i) S1.size (k8_off15_inb i)).toLoadRect ((Memref.isWhole_whole _ : gtb8M.IsWhole).unread pf) (Shape.Idx.first (numel1_S1.symm ▸ Nat.one_pos))).toNat, hlt7⟩ : Fin 50000) (0 : Fin 1) l) :=
    row_landed8 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb8M.view (Rect.unit (s := S64000) (k8_off17 i) S1.size (k8_off17_inb i)).toLoadRect ((Memref.isWhole_whole _ : gtb8M.IsWhole).unread pf) (Shape.Idx.first (numel1_S1.symm ▸ Nat.one_pos))).toNat, hlt8⟩ : Fin 50000) (0 : Fin 1) l) :=
    row_landed8 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb8M.view (Rect.unit (s := S64000) (k8_off19 i) S1.size (k8_off19_inb i)).toLoadRect ((Memref.isWhole_whole _ : gtb8M.IsWhole).unread pf) (Shape.Idx.first (numel1_S1.symm ▸ Nat.one_pos))).toNat, hlt9⟩ : Fin 50000) (0 : Fin 1) l) :=
    row_landed8 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb8M.view (Rect.unit (s := S64000) (k8_off21 i) S1.size (k8_off21_inb i)).toLoadRect ((Memref.isWhole_whole _ : gtb8M.IsWhole).unread pf) (Shape.Idx.first (numel1_S1.symm ▸ Nat.one_pos))).toNat, hlt10⟩ : Fin 50000) (0 : Fin 1) l) :=
    row_landed8 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb8M.view (Rect.unit (s := S64000) (k8_off23 i) S1.size (k8_off23_inb i)).toLoadRect ((Memref.isWhole_whole _ : gtb8M.IsWhole).unread pf) (Shape.Idx.first (numel1_S1.symm ▸ Nat.one_pos))).toNat, hlt11⟩ : Fin 50000) (0 : Fin 1) l) :=
    row_landed8 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb8M.view (Rect.unit (s := S64000) (k8_off25 i) S1.size (k8_off25_inb i)).toLoadRect ((Memref.isWhole_whole _ : gtb8M.IsWhole).unread pf) (Shape.Idx.first (numel1_S1.symm ▸ Nat.one_pos))).toNat, hlt12⟩ : Fin 50000) (0 : Fin 1) l) :=
    row_landed8 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb8M.view (Rect.unit (s := S64000) (k8_off27 i) S1.size (k8_off27_inb i)).toLoadRect ((Memref.isWhole_whole _ : gtb8M.IsWhole).unread pf) (Shape.Idx.first (numel1_S1.symm ▸ Nat.one_pos))).toNat, hlt13⟩ : Fin 50000) (0 : Fin 1) l) :=
    row_landed8 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb8M.view (Rect.unit (s := S64000) (k8_off29 i) S1.size (k8_off29_inb i)).toLoadRect ((Memref.isWhole_whole _ : gtb8M.IsWhole).unread pf) (Shape.Idx.first (numel1_S1.symm ▸ Nat.one_pos))).toNat, hlt14⟩ : Fin 50000) (0 : Fin 1) l) :=
    row_landed8 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb8M.view (Rect.unit (s := S64000) (k8_off31 i) S1.size (k8_off31_inb i)).toLoadRect ((Memref.isWhole_whole _ : gtb8M.IsWhole).unread pf) (Shape.Idx.first (numel1_S1.symm ▸ Nat.one_pos))).toNat, hlt15⟩ : Fin 50000) (0 : Fin 1) l) :=
    row_landed8 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load8]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb8M).IsWhole).read_unread _
  isplitl [Hh0 Hh1 Hh2 Hh3 Hh4 Hh5 Hh6 Hh7 Hh8 Hh9 Hh10 Hh11 Hh12 Hh13 Hh14 Hh15]
  · iapply (join16 (ℓ := ghb8M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather8.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun8
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 8's own DMA semaphores: one per row of the step. -/
abbrev gsem8 : Fin 16 → SemLoc sig := fun j =>
  (![SemLoc.dma 146, SemLoc.dma 147, SemLoc.dma 148, SemLoc.dma 149, SemLoc.dma 150, SemLoc.dma 151, SemLoc.dma 152, SemLoc.dma 153, SemLoc.dma 154, SemLoc.dma 155, SemLoc.dma 156, SemLoc.dma 157, SemLoc.dma 158, SemLoc.dma 159, SemLoc.dma 160, SemLoc.dma 161] : Fin 16 → SemLoc sig) j
theorem gsemFacts8 : Pipeline.OwnSemFacts spec8 gsem8 := by decide

/-- The buffers the body reads without a window: the node table in HBM and its chunk of the edge-source table. -/
def gH8 : Finset (Ref sig .tc) := {main_v0, main_v17}
theorem gH8_sub : gH8 ⊆ Pipeline.restRefs sig spec8 := by decide

/-- The call's prefetched table at the contents the region finds. -/
def gadm8 (c : Dev nD) : (pcfg8 (F := F)).Adm := ⟨fun k => match k with | ⟨0, _⟩ => V c main_v17, trivial⟩

/-- The proof data of gather call 8 on core `c`: the output array as found; after step `t` the output block holds
    the gathered rows; the invariant carries the scratch, the call's semaphores at zero and the two tables as found. -/
def gdat8 (a : (pcfg8 (F := F)).Adm) (c : Dev nD) : Dat τ (Elt F) Unit ℕ (Pipeline.UD sig nD τ) ℕ (cfg8 a) c where
  A w := V c (Pipeline.arrRef spec8 w)
  after w t := match w with
    | ⟨0, _⟩ => gblock (V c main_v0) (V c main_v17) t.val
  Φ _ := Pipeline.ΦD gsem8 spec8 gH8 V c
  q _ := fullShare
  owed _ := 0

theorem gdat8_A (a : (pcfg8 (F := F)).Adm) (c : Dev nD) (w : Fin (cfg8 a).W) :
    (gdat8 V a c).A w = V c (Pipeline.arrRef spec8 w) := by dsimp only [gdat8]
theorem gdat8_after (a : (pcfg8 (F := F)).Adm) (c : Dev nD) (t : Fin (cfg8 a).N) :
    (gdat8 V a c).after 0 t = gblock (V c main_v0) (V c main_v17) t.val := rfl

/-! ## The body obligation, from the body's run -/

/-- The call's scratch buffer whole at some contents, said of the buffer and said through the whole-buffer memref. -/
theorem gsc8_whole (c : Dev nD) :
    (iprop(∃ f, gsc8M.view.loc (c : Thread nD τ) ↦[gsc8M.view.set]{fullShare} f) : sProp 𝕄)
      = iprop(∃ f : Buf (Elt F) ((c : Thread nD τ).loc cc8_scratch0), ((c : Thread nD τ).loc cc8_scratch0) ↦{fullShare} f) := by
  simp only [gsc8M, Memref.view_whole, View.set_whole]

/-- The region invariant of gather call 8, conjunct by conjunct: the call's scratch buffer whole at some contents beside
    the scoped buffers it does not touch, the generator register at some state, its sixteen semaphores at zero, and
    the two tables whole at the contents the region finds. -/
theorem PhiD8_eq (c : Dev nD) :
    (Pipeline.ΦD gsem8 spec8 gH8 V c : sProp 𝕄)
      = iprop(iprop((∃ f, gsc8M.view.loc (c : Thread nD τ) ↦[gsc8M.view.set]{fullShare} f)
            ∗ Pipeline.scopedRestBut (Ix := Unit) (Name := ℕ) (U := Pipeline.UD sig nD τ) (Lvl := ℕ) (Val := Elt F) spec8 c [cc8_scratch0])
          ∗ (∃ r, prngReg c r)
          ∗ iprop(semVal ((c : Thread nD τ), SemLoc.dma 146) 0 ∗ semVal ((c : Thread nD τ), SemLoc.dma 147) 0 ∗ semVal ((c : Thread nD τ), SemLoc.dma 148) 0 ∗ semVal ((c : Thread nD τ), SemLoc.dma 149) 0 ∗ semVal ((c : Thread nD τ), SemLoc.dma 150) 0 ∗ semVal ((c : Thread nD τ), SemLoc.dma 151) 0 ∗ semVal ((c : Thread nD τ), SemLoc.dma 152) 0 ∗ semVal ((c : Thread nD τ), SemLoc.dma 153) 0 ∗ semVal ((c : Thread nD τ), SemLoc.dma 154) 0 ∗ semVal ((c : Thread nD τ), SemLoc.dma 155) 0 ∗ semVal ((c : Thread nD τ), SemLoc.dma 156) 0 ∗ semVal ((c : Thread nD τ), SemLoc.dma 157) 0 ∗ semVal ((c : Thread nD τ), SemLoc.dma 158) 0 ∗ semVal ((c : Thread nD τ), SemLoc.dma 159) 0 ∗ semVal ((c : Thread nD τ), SemLoc.dma 160) 0 ∗ semVal ((c : Thread nD τ), SemLoc.dma 161) 0)
          ∗ iprop((ghb8M.view.loc (c : Thread nD τ) ↦{fullShare} V c main_v0) ∗ owns (c : Thread nD τ) gtb8M fullShare (V c main_v17))) := by
  rw [gsc8_whole, owns_whole, Pipeline.ΦD_eq, scopedRest8_split,
    Pipeline.ownSems0_eq_of_list c gsem8 [0, 1, 2, 3, 4, 5, 6, 7, 8, 9, 10, 11, 12, 13, 14, 15] (by decide) (by decide),
    BI.bigSep_eq_bigSepL_of_eq [main_v0, main_v17] (by decide) (by decide)]
  rfl

/-- The kernel body of gather call 8 as the pipeline calls it at point `t`: the step's coordinates, the two tables whole,
    the output window's current staging buffer, the scratch buffer and the sixteen semaphores. -/
abbrev gbodyAt8 (a : (pcfg8 (F := F)).Adm) (t : Fin (cfg8 a).N) : Prog (TpuEff nD τ sig (Elt F) Λ₀ .tc) PUnit :=
  cc8__gather_kernel ((cfg8 a).grid.coords t) gtb8M (Memref.isWhole_whole _) ghb8M (Memref.isWhole_whole _)
    (spec8_0.stage ((cfg8 a).slots t 0)) (hstage8_0 (((cfg8 a).slots t 0).cast nbuf8_0)) gsc8M (Memref.isWhole_whole _) cc8_scratch1

/-- The grid is one axis of 4000 steps: the step's one coordinate is its number. -/
theorem gcoord8 (a : (pcfg8 (F := F)).Adm) (t : Fin (cfg8 a).N) : (((cfg8 a).grid.coords t) 0).val = t.val := by
  have ht : t.val < 4000 := lt_of_lt_of_eq t.isLt N_8
  show t.val / 1 % 4000 = t.val
  omega

/-- What the body is called with at point `t`: the invariant, the core's `owes`, the output window's current staging
    buffer at whatever it holds, -/
def gbodyPre8 (a : (pcfg8 (F := F)).Adm) (c : Dev nD) (t : Fin (cfg8 a).N) : sProp 𝕄 :=
  iprop((gdat8 V a c).Φ t.castSucc ∗ (gdat8 V a c).owesAt () t.castSucc
    ∗ (∃ d, owns (c : Thread nD τ) (spec8_0.stage ((cfg8 a).slots t 0)) fullShare ((gdat8 V a c).before 0 t d)))

/-- and what it returns: the invariant, `owes`, the staging buffer at the step's gathered rows. -/
def gbodyPost8 (a : (pcfg8 (F := F)).Adm) (c : Dev nD) (t : Fin (cfg8 a).N) : sProp 𝕄 :=
  iprop((gdat8 V a c).Φ t.succ ∗ (gdat8 V a c).owesAt () t.succ
    ∗ owns (c : Thread nD τ) (spec8_0.stage ((cfg8 a).slots t 0)) fullShare ((gdat8 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body8 (a : (pcfg8 (F := F)).Adm) (c : Dev nD)
    (hok : ∀ e : S64000.Idx, (V c main_v17 e).toNat < 50000) (t : Fin (cfg8 a).N) :
    gbodyPre8 V a c t ⊢ wp frame (wpE (defs₀ (F := F)) Variants.none c none) Set.univ (gbodyAt8 a t) (fun _ => gbodyPost8 V a c t) := by
  unfold gbodyPre8 gbodyPost8 gbodyAt8
  rw [show (gdat8 V a c).Φ t.succ = Pipeline.ΦD gsem8 spec8 gH8 V c from rfl,
    show (gdat8 V a c).Φ t.castSucc = Pipeline.ΦD gsem8 spec8 gH8 V c from rfl, gdat8_after, PhiD8_eq]
  unfold Dat.owesAt Pipeline.owesWithin
  rw [show (gdat8 V a c).owed t.castSucc = 0 from rfl, show (gdat8 V a c).owed t.succ = 0 from rfl]
  have hrun := fun W K => gather_run8 (F := F) c ((cfg8 a).grid.coords t) (spec8_0.stage ((cfg8 a).slots t 0))
    (hstage8_0 (((cfg8 a).slots t 0).cast nbuf8_0)) (V c main_v17) (V c main_v0) hok W K
  rw [gcoord8 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 8, when every word of its table names a row of the node table. -/
theorem gather_obligation8 (a : (pcfg8 (F := F)).Adm) (c : Dev nD)
    (hok : ∀ e : S64000.Idx, (V c main_v17 e).toNat < 50000) :
    BodyObligation (gdat8 (F := F) V a c) (defs₀ (F := F)) Variants.none () Set.univ := fun t => by
  rw [bigSep_W8, bigSep_W8]
  exact gsound_body8 V a c hok t

end

end Cert.Kernel.Hand

end
-- ==== Proof.KRowsJoin9.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Gather call 9's scratch buffer, whole, and its sixteen rows as the body addresses them. -/
abbrev gsc9M : Memref sig .tc .vmem S16x1x128 .f32 := Memref.whole cc9_scratch0
abbrev gr9_0M : Memref sig .tc .vmem S1x128 .f32 := ((Memref.whole cc9_scratch0 : Memref sig .tc .vmem S16x1x128 .f32).slice (Rect.unit (s := S16x1x128) ![0, 0, 0] S1x1x128.size inb_S16x1x128_S1x1x128_0_0_0) (fun _ => rfl)).squeeze S1x128 squeezes_S1x1x128_S1x128
abbrev gr9_1M : Memref sig .tc .vmem S1x128 .f32 := ((Memref.whole cc9_scratch0 : Memref sig .tc .vmem S16x1x128 .f32).slice (Rect.unit (s := S16x1x128) ![1, 0, 0] S1x1x128.size inb_S16x1x128_S1x1x128_1_0_0) (fun _ => rfl)).squeeze S1x128 squeezes_S1x1x128_S1x128
abbrev gr9_2M : Memref sig .tc .vmem S1x128 .f32 := ((Memref.whole cc9_scratch0 : Memref sig .tc .vmem S16x1x128 .f32).slice (Rect.unit (s := S16x1x128) ![2, 0, 0] S1x1x128.size inb_S16x1x128_S1x1x128_2_0_0) (fun _ => rfl)).squeeze S1x128 squeezes_S1x1x128_S1x128
abbrev gr9_3M : Memref sig .tc .vmem S1x128 .f32 := ((Memref.whole cc9_scratch0 : Memref sig .tc .vmem S16x1x128 .f32).slice (Rect.unit (s := S16x1x128) ![3, 0, 0] S1x1x128.size inb_S16x1x128_S1x1x128_3_0_0) (fun _ => rfl)).squeeze S1x128 squeezes_S1x1x128_S1x128
abbrev gr9_4M : Memref sig .tc .vmem S1x128 .f32 := ((Memref.whole cc9_scratch0 : Memref sig .tc .vmem S16x1x128 .f32).slice (Rect.unit (s := S16x1x128) ![4, 0, 0] S1x1x128.size inb_S16x1x128_S1x1x128_4_0_0) (fun _ => rfl)).squeeze S1x128 squeezes_S1x1x128_S1x128
abbrev gr9_5M : Memref sig .tc .vmem S1x128 .f32 := ((Memref.whole cc9_scratch0 : Memref sig .tc .vmem S16x1x128 .f32).slice (Rect.unit (s := S16x1x128) ![5, 0, 0] S1x1x128.size inb_S16x1x128_S1x1x128_5_0_0) (fun _ => rfl)).squeeze S1x128 squeezes_S1x1x128_S1x128
abbrev gr9_6M : Memref sig .tc .vmem S1x128 .f32 := ((Memref.whole cc9_scratch0 : Memref sig .tc .vmem S16x1x128 .f32).slice (Rect.unit (s := S16x1x128) ![6, 0, 0] S1x1x128.size inb_S16x1x128_S1x1x128_6_0_0) (fun _ => rfl)).squeeze S1x128 squeezes_S1x1x128_S1x128
abbrev gr9_7M : Memref sig .tc .vmem S1x128 .f32 := ((Memref.whole cc9_scratch0 : Memref sig .tc .vmem S16x1x128 .f32).slice (Rect.unit (s := S16x1x128) ![7, 0, 0] S1x1x128.size inb_S16x1x128_S1x1x128_7_0_0) (fun _ => rfl)).squeeze S1x128 squeezes_S1x1x128_S1x128
abbrev gr9_8M : Memref sig .tc .vmem S1x128 .f32 := ((Memref.whole cc9_scratch0 : Memref sig .tc .vmem S16x1x128 .f32).slice (Rect.unit (s := S16x1x128) ![8, 0, 0] S1x1x128.size inb_S16x1x128_S1x1x128_8_0_0) (fun _ => rfl)).squeeze S1x128 squeezes_S1x1x128_S1x128
abbrev gr9_9M : Memref sig .tc .vmem S1x128 .f32 := ((Memref.whole cc9_scratch0 : Memref sig .tc .vmem S16x1x128 .f32).slice (Rect.unit (s := S16x1x128) ![9, 0, 0] S1x1x128.size inb_S16x1x128_S1x1x128_9_0_0) (fun _ => rfl)).squeeze S1x128 squeezes_S1x1x128_S1x128
abbrev gr9_10M : Memref sig .tc .vmem S1x128 .f32 := ((Memref.whole cc9_scratch0 : Memref sig .tc .vmem S16x1x128 .f32).slice (Rect.unit (s := S16x1x128) ![10, 0, 0] S1x1x128.size inb_S16x1x128_S1x1x128_10_0_0) (fun _ => rfl)).squeeze S1x128 squeezes_S1x1x128_S1x128
abbrev gr9_11M : Memref sig .tc .vmem S1x128 .f32 := ((Memref.whole cc9_scratch0 : Memref sig .tc .vmem S16x1x128 .f32).slice (Rect.unit (s := S16x1x128) ![11, 0, 0] S1x1x128.size inb_S16x1x128_S1x1x128_11_0_0) (fun _ => rfl)).squeeze S1x128 squeezes_S1x1x128_S1x128
abbrev gr9_12M : Memref sig .tc .vmem S1x128 .f32 := ((Memref.whole cc9_scratch0 : Memref sig .tc .vmem S16x1x128 .f32).slice (Rect.unit (s := S16x1x128) ![12, 0, 0] S1x1x128.size inb_S16x1x128_S1x1x128_12_0_0) (fun _ => rfl)).squeeze S1x128 squeezes_S1x1x128_S1x128
abbrev gr9_13M : Memref sig .tc .vmem S1x128 .f32 := ((Memref.whole cc9_scratch0 : Memref sig .tc .vmem S16x1x128 .f32).slice (Rect.unit (s := S16x1x128) ![13, 0, 0] S1x1x128.size inb_S16x1x128_S1x1x128_13_0_0) (fun _ => rfl)).squeeze S1x128 squeezes_S1x1x128_S1x128
abbrev gr9_14M : Memref sig .tc .vmem S1x128 .f32 := ((Memref.whole cc9_scratch0 : Memref sig .tc .vmem S16x1x128 .f32).slice (Rect.unit (s := S16x1x128) ![14, 0, 0] S1x1x128.size inb_S16x1x128_S1x1x128_14_0_0) (fun _ => rfl)).squeeze S1x128 squeezes_S1x1x128_S1x128
abbrev gr9_15M : Memref sig .tc .vmem S1x128 .f32 := ((Memref.whole cc9_scratch0 : Memref sig .tc .vmem S16x1x128 .f32).slice (Rect.unit (s := S16x1x128) ![15, 0, 0] S1x1x128.size inb_S16x1x128_S1x1x128_15_0_0) (fun _ => rfl)).squeeze S1x128 squeezes_S1x1x128_S1x128

/-! ## The rows as sets of elements -/

/-- Row `t` lies inside the buffer: one leading coordinate from `t`, all of the two trailing axes. -/
private theorem rowInb (t : Fin 16) : ∀ a, (![t.val, 0, 0] : Fin S16x1x128.rank → Nat) a + S1x1x128.size a ≤ S16x1x128.size a := by
  intro a
  have ht := t.isLt
  fin_cases a <;> simp <;> omega

/-- The elements of the buffer whose leading coordinate is `t`. -/
private def rowSet (t : Fin 16) : Finset S16x1x128.Idx :=
  (Rect.unit (s := S16x1x128) ![t.val, 0, 0] S1x1x128.size (rowInb t)).set

/-- Rows with different leading coordinates share no element. -/
private theorem rowSet_disjoint {t t' : Fin 16} (h : t ≠ t') : Disjoint (rowSet t) (rowSet t') := by
  unfold rowSet
  refine Rect.unit_disjoint (0 : Fin S16x1x128.rank) ?_
  have hv : t.val ≠ t'.val := fun e => h (Fin.ext e)
  simp
  omega

/-- Every element lies in the row its leading coordinate names. -/
private theorem rowSet_cover : Finset.univ.biUnion rowSet = (Finset.univ : Finset S16x1x128.Idx) := by
  ext i
  simp only [Finset.mem_biUnion, Finset.mem_univ, true_and, iff_true]
  have h0 : (i 0).val < 16 := (i 0).isLt
  have h1 : (i 1).val < 1 := (i 1).isLt
  have h2 : (i 2).val < 128 := (i 2).isLt
  refine ⟨⟨(i 0).val, h0⟩, ?_⟩
  unfold rowSet
  rw [Rect.mem_set_unit]
  intro a
  fin_cases a <;> simp <;> omega

/-! Each row as the body addresses it — the slice of the whole buffer at leading coordinate `j`, its unit axis dropped — has
    the elements of the rectangle it was cut by: dropping a unit axis keeps the elements, and a slice of the whole
    buffer has its rectangle's. -/

private theorem row_set_0 : gr9_0M.view.set = rowSet (0 : Fin 16) := by
  refine (View.set_reshape _ _).trans ?_
  refine (View.set_slice_whole _ _).trans ?_
  rfl
private theorem row_set_1 : gr9_1M.view.set = rowSet (1 : Fin 16) := by
  refine (View.set_reshape _ _).trans ?_
  refine (View.set_slice_whole _ _).trans ?_
  rfl
private theorem row_set_2 : gr9_2M.view.set = rowSet (2 : Fin 16) := by
  refine (View.set_reshape _ _).trans ?_
  refine (View.set_slice_whole _ _).trans ?_
  rfl
private theorem row_set_3 : gr9_3M.view.set = rowSet (3 : Fin 16) := by
  refine (View.set_reshape _ _).trans ?_
  refine (View.set_slice_whole _ _).trans ?_
  rfl
private theorem row_set_4 : gr9_4M.view.set = rowSet (4 : Fin 16) := by
  refine (View.set_reshape _ _).trans ?_
  refine (View.set_slice_whole _ _).trans ?_
  rfl
private theorem row_set_5 : gr9_5M.view.set = rowSet (5 : Fin 16) := by
  refine (View.set_reshape _ _).trans ?_
  refine (View.set_slice_whole _ _).trans ?_
  rfl
private theorem row_set_6 : gr9_6M.view.set = rowSet (6 : Fin 16) := by
  refine (View.set_reshape _ _).trans ?_
  refine (View.set_slice_whole _ _).trans ?_
  rfl
private theorem row_set_7 : gr9_7M.view.set = rowSet (7 : Fin 16) := by
  refine (View.set_reshape _ _).trans ?_
  refine (View.set_slice_whole _ _).trans ?_
  rfl
private theorem row_set_8 : gr9_8M.view.set = rowSet (8 : Fin 16) := by
  refine (View.set_reshape _ _).trans ?_
  refine (View.set_slice_whole _ _).trans ?_
  rfl
private theorem row_set_9 : gr9_9M.view.set = rowSet (9 : Fin 16) := by
  refine (View.set_reshape _ _).trans ?_
  refine (View.set_slice_whole _ _).trans ?_
  rfl
private theorem row_set_10 : gr9_10M.view.set = rowSet (10 : Fin 16) := by
  refine (View.set_reshape _ _).trans ?_
  refine (View.set_slice_whole _ _).trans ?_
  rfl
private theorem row_set_11 : gr9_11M.view.set = rowSet (11 : Fin 16) := by
  refine (View.set_reshape _ _).trans ?_
  refine (View.set_slice_whole _ _).trans ?_
  rfl
private theorem row_set_12 : gr9_12M.view.set = rowSet (12 : Fin 16) := by
  refine (View.set_reshape _ _).trans ?_
  refine (View.set_slice_whole _ _).trans ?_
  rfl
private theorem row_set_13 : gr9_13M.view.set = rowSet (13 : Fin 16) := by
  refine (View.set_reshape _ _).trans ?_
  refine (View.set_slice_whole _ _).trans ?_
  rfl
private theorem row_set_14 : gr9_14M.view.set = rowSet (14 : Fin 16) := by
  refine (View.set_reshape _ _).trans ?_
  refine (View.set_slice_whole _ _).trans ?_
  rfl
private theorem row_set_15 : gr9_15M.view.set = rowSet (15 : Fin 16) := by
  refine (View.set_reshape _ _).trans ?_
  refine (View.set_slice_whole _ _).trans ?_
  rfl

/-! ## Sixteen pairwise disjoint sets of one buffer: split and join -/

/-- Sixteen pairwise disjoint element sets of one buffer, held at sixteen contents, are their union held at contents that
    agree with each on its set. -/
private theorem join16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f0 f1 f2 f3 f4 f5 f6 f7 f8 f9 f10 f11 f12 f13 f14 f15 : Buf (Elt F) ℓ) :
    (iprop((ℓ ↦[I0]{fullShare} f0)
        ∗ (ℓ ↦[I1]{fullShare} f1)
        ∗ (ℓ ↦[I2]{fullShare} f2)
        ∗ (ℓ ↦[I3]{fullShare} f3)
        ∗ (ℓ ↦[I4]{fullShare} f4)
        ∗ (ℓ ↦[I5]{fullShare} f5)
        ∗ (ℓ ↦[I6]{fullShare} f6)
        ∗ (ℓ ↦[I7]{fullShare} f7)
        ∗ (ℓ ↦[I8]{fullShare} f8)
        ∗ (ℓ ↦[I9]{fullShare} f9)
        ∗ (ℓ ↦[I10]{fullShare} f10)
        ∗ (ℓ ↦[I11]{fullShare} f11)
        ∗ (ℓ ↦[I12]{fullShare} f12)
        ∗ (ℓ ↦[I13]{fullShare} f13)
        ∗ (ℓ ↦[I14]{fullShare} f14)
        ∗ (ℓ ↦[I15]{fullShare} f15)) : sProp 𝕄)
      ⊢ iprop(∃ g : Buf (Elt F) ℓ,
          ⌜(∀ i ∈ I0, g i = f0 i)
            ∧ (∀ i ∈ I1, g i = f1 i)
            ∧ (∀ i ∈ I2, g i = f2 i)
            ∧ (∀ i ∈ I3, g i = f3 i)
            ∧ (∀ i ∈ I4, g i = f4 i)
            ∧ (∀ i ∈ I5, g i = f5 i)
            ∧ (∀ i ∈ I6, g i = f6 i)
            ∧ (∀ i ∈ I7, g i = f7 i)
            ∧ (∀ i ∈ I8, g i = f8 i)
            ∧ (∀ i ∈ I9, g i = f9 i)
            ∧ (∀ i ∈ I10, g i = f10 i)
            ∧ (∀ i ∈ I11, g i = f11 i)
            ∧ (∀ i ∈ I12, g i = f12 i)
            ∧ (∀ i ∈ I13, g i = f13 i)
            ∧ (∀ i ∈ I14, g i = f14 i)
            ∧ (∀ i ∈ I15, g i = f15 i)⌝
          ∗ (ℓ ↦[W]{fullShare} g)) := by
  subst h0 h1 h2 h3 h4 h5 h6 h7 h8 h9 h10 h11 h12 h13 h14 h15 hW
  have key := pointsTo_biUnion_join (ℓ := ℓ) (q := fullShare) (Val := Elt F)
    (nD := nD) (τ := τ) (sig := sig) (Ix := Unit) (Name := ℕ) (U := Pipeline.UD sig nD τ) (Lvl := ℕ) Finset.univ K
    (![f0, f1, f2, f3, f4, f5, f6, f7, f8, f9, f10, f11, f12, f13, f14, f15] : Fin 16 → Buf (Elt F) ℓ) f0
    (fun t _ t' _ h => hd t t' h)
  rw [bigSep_univ_eq_bigSepL [(0 : Fin 16), 1, 2, 3, 4, 5, 6, 7, 8, 9, 10, 11, 12, 13, 14, 15] (by decide) (by decide)] at key
  refine BIBase.Entails.trans key ?_
  iintro ⟨%g, %hg, H⟩
  iexists g
  isplitr
  · ipureintro
    exact ⟨hg 0 (Finset.mem_univ _), hg 1 (Finset.mem_univ _), hg 2 (Finset.mem_univ _), hg 3 (Finset.mem_univ _), hg 4 (Finset.mem_univ _), hg 5 (Finset.mem_univ _), hg 6 (Finset.mem_univ _), hg 7 (Finset.mem_univ _), hg 8 (Finset.mem_univ _), hg 9 (Finset.mem_univ _), hg 10 (Finset.mem_univ _), hg 11 (Finset.mem_univ _), hg 12 (Finset.mem_univ _), hg 13 (Finset.mem_univ _), hg 14 (Finset.mem_univ _), hg 15 (Finset.mem_univ _)⟩
  · iexact H

/-- One buffer held on the union of sixteen pairwise disjoint element sets is the sixteen sets, each held. -/
private theorem split16 {ℓ : Loc nD τ sig} (K : Fin 16 → Finset (Idx ℓ))
    (hd : ∀ t t' : Fin 16, t ≠ t' → Disjoint (K t) (K t'))
    (I0 I1 I2 I3 I4 I5 I6 I7 I8 I9 I10 I11 I12 I13 I14 I15 W : Finset (Idx ℓ))
    (h0 : I0 = K 0) (h1 : I1 = K 1) (h2 : I2 = K 2) (h3 : I3 = K 3) (h4 : I4 = K 4) (h5 : I5 = K 5) (h6 : I6 = K 6) (h7 : I7 = K 7) (h8 : I8 = K 8) (h9 : I9 = K 9) (h10 : I10 = K 10) (h11 : I11 = K 11) (h12 : I12 = K 12) (h13 : I13 = K 13) (h14 : I14 = K 14) (h15 : I15 = K 15)
    (hW : W = Finset.univ.biUnion K) (f : Buf (Elt F) ℓ) :
    (ℓ ↦[W]{fullShare} f : sProp 𝕄)
      ⊢ iprop((ℓ ↦[I0]{fullShare} f)
        ∗ (ℓ ↦[I1]{fullShare} f)
        ∗ (ℓ ↦[I2]{fullShare} f)
        ∗ (ℓ ↦[I3]{fullShare} f)
        ∗ (ℓ ↦[I4]{fullShare} f)
        ∗ (ℓ ↦[I5]{fullShare} f)
        ∗ (ℓ ↦[I6]{fullShare} f)
        ∗ (ℓ ↦[I7]{fullShare} f)
        ∗ (ℓ ↦[I8]{fullShare} f)
        ∗ (ℓ ↦[I9]{fullShare} f)
        ∗ (ℓ ↦[I10]{fullShare} f)
        ∗ (ℓ ↦[I11]{fullShare} f)
        ∗ (ℓ ↦[I12]{fullShare} f)
        ∗ (ℓ ↦[I13]{fullShare} f)
        ∗ (ℓ ↦[I14]{fullShare} f)
        ∗ (ℓ ↦[I15]{fullShare} f)) := by
  subst h0 h1 h2 h3 h4 h5 h6 h7 h8 h9 h10 h11 h12 h13 h14 h15 hW
  rw [pointsTo_biUnion (ℓ := ℓ) Finset.univ K (fun t _ t' _ h => hd t t' h),
    bigSep_univ_eq_bigSepL [(0 : Fin 16), 1, 2, 3, 4, 5, 6, 7, 8, 9, 10, 11, 12, 13, 14, 15] (by decide) (by decide)]
  exact BIBase.Entails.rfl

/-! ## The scratch buffer's sixteen rows, joined and split -/

/-- The sixteen rows of the scratch buffer, each held at its own contents, are the whole buffer held at contents that
    agree with each row's on that row: the rows are disjoint (they differ in the leading coordinate) and every
    element lies in the row its leading coordinate names. -/
theorem rows_join9 (c : Dev nD) (f0 f1 f2 f3 f4 f5 f6 f7 f8 f9 f10 f11 f12 f13 f14 f15 : Buf (Elt F) (gsc9M.view.loc (c : Thread nD τ))) :
    (iprop((gsc9M.view.loc (c : Thread nD τ) ↦[gr9_0M.view.set]{fullShare} f0)
        ∗ (gsc9M.view.loc (c : Thread nD τ) ↦[gr9_1M.view.set]{fullShare} f1)
        ∗ (gsc9M.view.loc (c : Thread nD τ) ↦[gr9_2M.view.set]{fullShare} f2)
        ∗ (gsc9M.view.loc (c : Thread nD τ) ↦[gr9_3M.view.set]{fullShare} f3)
        ∗ (gsc9M.view.loc (c : Thread nD τ) ↦[gr9_4M.view.set]{fullShare} f4)
        ∗ (gsc9M.view.loc (c : Thread nD τ) ↦[gr9_5M.view.set]{fullShare} f5)
        ∗ (gsc9M.view.loc (c : Thread nD τ) ↦[gr9_6M.view.set]{fullShare} f6)
        ∗ (gsc9M.view.loc (c : Thread nD τ) ↦[gr9_7M.view.set]{fullShare} f7)
        ∗ (gsc9M.view.loc (c : Thread nD τ) ↦[gr9_8M.view.set]{fullShare} f8)
        ∗ (gsc9M.view.loc (c : Thread nD τ) ↦[gr9_9M.view.set]{fullShare} f9)
        ∗ (gsc9M.view.loc (c : Thread nD τ) ↦[gr9_10M.view.set]{fullShare} f10)
        ∗ (gsc9M.view.loc (c : Thread nD τ) ↦[gr9_11M.view.set]{fullShare} f11)
        ∗ (gsc9M.view.loc (c : Thread nD τ) ↦[gr9_12M.view.set]{fullShare} f12)
        ∗ (gsc9M.view.loc (c : Thread nD τ) ↦[gr9_13M.view.set]{fullShare} f13)
        ∗ (gsc9M.view.loc (c : Thread nD τ) ↦[gr9_14M.view.set]{fullShare} f14)
        ∗ (gsc9M.view.loc (c : Thread nD τ) ↦[gr9_15M.view.set]{fullShare} f15)) : sProp 𝕄)
      ⊢ iprop(∃ g : Buf (Elt F) (gsc9M.view.loc (c : Thread nD τ)),
          ⌜(∀ i ∈ gr9_0M.view.set, g i = f0 i)
            ∧ (∀ i ∈ gr9_1M.view.set, g i = f1 i)
            ∧ (∀ i ∈ gr9_2M.view.set, g i = f2 i)
            ∧ (∀ i ∈ gr9_3M.view.set, g i = f3 i)
            ∧ (∀ i ∈ gr9_4M.view.set, g i = f4 i)
            ∧ (∀ i ∈ gr9_5M.view.set, g i = f5 i)
            ∧ (∀ i ∈ gr9_6M.view.set, g i = f6 i)
            ∧ (∀ i ∈ gr9_7M.view.set, g i = f7 i)
            ∧ (∀ i ∈ gr9_8M.view.set, g i = f8 i)
            ∧ (∀ i ∈ gr9_9M.view.set, g i = f9 i)
            ∧ (∀ i ∈ gr9_10M.view.set, g i = f10 i)
            ∧ (∀ i ∈ gr9_11M.view.set, g i = f11 i)
            ∧ (∀ i ∈ gr9_12M.view.set, g i = f12 i)
            ∧ (∀ i ∈ gr9_13M.view.set, g i = f13 i)
            ∧ (∀ i ∈ gr9_14M.view.set, g i = f14 i)
            ∧ (∀ i ∈ gr9_15M.view.set, g i = f15 i)⌝
          ∗ (gsc9M.view.loc (c : Thread nD τ) ↦[gsc9M.view.set]{fullShare} g)) := by
  have hw : gsc9M.view.set = Finset.univ.biUnion rowSet := (View.set_whole _).trans rowSet_cover.symm
  exact join16 (ℓ := gsc9M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f0 f1 f2 f3 f4 f5 f6 f7 f8 f9 f10 f11 f12 f13 f14 f15

/-- The whole scratch buffer held at some contents is its sixteen rows, each held at those contents. -/
theorem rows_split9 (c : Dev nD) (f : Buf (Elt F) (gsc9M.view.loc (c : Thread nD τ))) :
    (gsc9M.view.loc (c : Thread nD τ) ↦[gsc9M.view.set]{fullShare} f : sProp 𝕄)
      ⊢ iprop((gsc9M.view.loc (c : Thread nD τ) ↦[gr9_0M.view.set]{fullShare} f)
        ∗ (gsc9M.view.loc (c : Thread nD τ) ↦[gr9_1M.view.set]{fullShare} f)
        ∗ (gsc9M.view.loc (c : Thread nD τ) ↦[gr9_2M.view.set]{fullShare} f)
        ∗ (gsc9M.view.loc (c : Thread nD τ) ↦[gr9_3M.view.set]{fullShare} f)
        ∗ (gsc9M.view.loc (c : Thread nD τ) ↦[gr9_4M.view.set]{fullShare} f)
        ∗ (gsc9M.view.loc (c : Thread nD τ) ↦[gr9_5M.view.set]{fullShare} f)
        ∗ (gsc9M.view.loc (c : Thread nD τ) ↦[gr9_6M.view.set]{fullShare} f)
        ∗ (gsc9M.view.loc (c : Thread nD τ) ↦[gr9_7M.view.set]{fullShare} f)
        ∗ (gsc9M.view.loc (c : Thread nD τ) ↦[gr9_8M.view.set]{fullShare} f)
        ∗ (gsc9M.view.loc (c : Thread nD τ) ↦[gr9_9M.view.set]{fullShare} f)
        ∗ (gsc9M.view.loc (c : Thread nD τ) ↦[gr9_10M.view.set]{fullShare} f)
        ∗ (gsc9M.view.loc (c : Thread nD τ) ↦[gr9_11M.view.set]{fullShare} f)
        ∗ (gsc9M.view.loc (c : Thread nD τ) ↦[gr9_12M.view.set]{fullShare} f)
        ∗ (gsc9M.view.loc (c : Thread nD τ) ↦[gr9_13M.view.set]{fullShare} f)
        ∗ (gsc9M.view.loc (c : Thread nD τ) ↦[gr9_14M.view.set]{fullShare} f)
        ∗ (gsc9M.view.loc (c : Thread nD τ) ↦[gr9_15M.view.set]{fullShare} f)) := by
  have hw : gsc9M.view.set = Finset.univ.biUnion rowSet := (View.set_whole _).trans rowSet_cover.symm
  exact split16 (ℓ := gsc9M.view.loc (c : Thread nD τ)) rowSet (fun _ _ h => rowSet_disjoint h) _ _ _ _ _ _ _ _ _ _ _ _ _ _ _ _ _ row_set_0 row_set_1 row_set_2 row_set_3 row_set_4 row_set_5 row_set_6 row_set_7 row_set_8 row_set_9 row_set_10 row_set_11 row_set_12 row_set_13 row_set_14 row_set_15 hw f

end Cert.Kernel.Hand

end
-- ==== Proof.KGatherRows9.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KRowsJoin9
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The node table in HBM and gather call 9's chunk of the edge-source table in scalar memory, whole. -/
abbrev ghb9M : Memref sig .tc .hbm S50000x1x128 .f32 := Memref.whole main_v0
abbrev gtb9M : Memref sig .tc .smem S64000 .i32 := Memref.whole main_v19

/-- The one-row shape's index (0, l) is, in row-major order, the index (0, 0, l) of the row with its unit axis kept. -/
private theorem squeeze_idx (h : S1x128.numel = S1x1x128.numel) (l : Fin 128) :
    Shape.reshapeEquiv h (ValueIdx.ix2 (0 : Fin 1) l) = (ValueIdx.ix3 (0 : Fin 1) (0 : Fin 1) l : S1x1x128.Idx) := by
  apply Shape.reshapeEquiv_eq_of_rowMajor
  rw [Shape.rowMajor_val_three, Shape.rowMajor_val_two]
  rfl

/-- Lane `l` of the scratch buffer's row `j`, seen through the row's view, is the buffer's element (j, 0, l). -/
private theorem sc_row_emb (c : Dev nD) (j : ℕ) (hj : j < 16)
    (inb : ∀ a, (![j, 0, 0] : Fin 3 → ℕ) a + S1x1x128.size a ≤ S16x1x128.size a) (l : Fin 128) :
    ((gsc9M.slice (Rect.unit (s := S16x1x128) ![j, 0, 0] S1x1x128.size inb) (fun _ => rfl)).squeeze S1x128 squeezes_S1x1x128_S1x128).view.emb
        (ValueIdx.ix2 (0 : Fin 1) l)
      = (ValueIdx.ix3 (⟨j, hj⟩ : Fin 16) (0 : Fin 1) l : S16x1x128.Idx) := by
  show (Rect.unit (s := S16x1x128) ![j, 0, 0] S1x1x128.size inb).emb (Shape.reshapeEquiv squeezes_S1x1x128_S1x128.numel_eq (ValueIdx.ix2 (0 : Fin 1) l)) = _
  rw [squeeze_idx]
  funext a
  apply Fin.ext
  match a with
  | ⟨0, _⟩ => show j + 1 * 0 = j; omega
  | ⟨1, _⟩ => show 0 + 1 * 0 = 0; omega
  | ⟨2, _⟩ => show 0 + 1 * l.val = l.val; omega

/-- Lane `l` of the node table's row `n`, seen through the row's view, is the table's element (n, 0, l). -/
private theorem hb_row_emb (c : Dev nD) (n : ℕ) (hn : n < 50000)
    (inb' : ∀ a, (![n, 0, 0] : Fin 3 → ℕ) a + S1x1x128.size a ≤ S50000x1x128.size a) (l : Fin 128) :
    ((ghb9M.slice (Rect.unit (s := S50000x1x128) ![n, 0, 0] S1x1x128.size inb') (fun _ => rfl)).squeeze S1x128 squeezes_S1x1x128_S1x128).view.emb
        (ValueIdx.ix2 (0 : Fin 1) l)
      = (ValueIdx.ix3 (⟨n, hn⟩ : Fin 50000) (0 : Fin 1) l : S50000x1x128.Idx) := by
  show (Rect.unit (s := S50000x1x128) ![n, 0, 0] S1x1x128.size inb').emb (Shape.reshapeEquiv squeezes_S1x1x128_S1x128.numel_eq (ValueIdx.ix2 (0 : Fin 1) l)) = _
  rw [squeeze_idx]
  funext a
  apply Fin.ext
  match a with
  | ⟨0, _⟩ => show n + 1 * 0 = n; omega
  | ⟨1, _⟩ => show 0 + 1 * 0 = 0; omega
  | ⟨2, _⟩ => show 0 + 1 * l.val = l.val; omega

/-- Row `j` of the scratch buffer after a copy of row `n` of the node table has landed in it holds that row: if the
    buffer's contents `g` agree, on the row's elements, with the row view's contents overwritten whole by the node-table
    row read through its own row view, then lane `l` of scratch row `j` is lane `l` of node-table row `n`. -/
theorem row_landed9 (c : Dev nD) (j : ℕ) (hj : j < 16)
    (inb : ∀ a, (![j, 0, 0] : Fin 3 → ℕ) a + S1x1x128.size a ≤ S16x1x128.size a)
    (n : ℕ) (hn : n < 50000)
    (inb' : ∀ a, (![n, 0, 0] : Fin 3 → ℕ) a + S1x1x128.size a ≤ S50000x1x128.size a)
    (tb : Buf (Elt F) (ghb9M.view.loc (c : Thread nD τ))) (fs g : Buf (Elt F) (gsc9M.view.loc (c : Thread nD τ)))
    (hg : ∀ i ∈ ((gsc9M.slice (Rect.unit (s := S16x1x128) ![j, 0, 0] S1x1x128.size inb) (fun _ => rfl)).squeeze S1x128 squeezes_S1x1x128_S1x128).view.set,
        g i = ((gsc9M.slice (Rect.unit (s := S16x1x128) ![j, 0, 0] S1x1x128.size inb) (fun _ => rfl)).squeeze S1x128 squeezes_S1x1x128_S1x128).view.writes (Elt F) fs
          [⟨Rect.whole S1x128, ReadAs.same.apply (View.read (Elt F)
              ((ghb9M.slice (Rect.unit (s := S50000x1x128) ![n, 0, 0] S1x1x128.size inb') (fun _ => rfl)).squeeze S1x128 squeezes_S1x1x128_S1x128).view tb)⟩] i)
    (l : Fin 128) :
    g (ValueIdx.ix3 (⟨j, hj⟩ : Fin 16) (0 : Fin 1) l) = tb (ValueIdx.ix3 (⟨n, hn⟩ : Fin 50000) (0 : Fin 1) l) := by
  have key := hg _ (View.emb_mem_set _ (ValueIdx.ix2 (0 : Fin 1) l))
  have hw := View.read_writes_cons_emb
    (v := ((gsc9M.slice (Rect.unit (s := S16x1x128) ![j, 0, 0] S1x1x128.size inb) (fun _ => rfl)).squeeze S1x128 squeezes_S1x1x128_S1x128).view)
    (f := fs) (Rect.whole S1x128)
    (ReadAs.same.apply (View.read (Elt F)
      ((ghb9M.slice (Rect.unit (s := S50000x1x128) ![n, 0, 0] S1x1x128.size inb') (fun _ => rfl)).squeeze S1x128 squeezes_S1x1x128_S1x128).view tb))
    [] (ValueIdx.ix2 (0 : Fin 1) l)
  rw [Rect.emb_whole_apply, View.read_apply] at hw
  simp only [cast_eq] at hw
  rw [sc_row_emb c j hj inb l] at key hw
  rw [key, hw]
  rw [ReadAs.apply_same, View.read_apply, hb_row_emb c n hn inb' l]
  simp only [cast_eq]

/-- A whole-buffer load of the scratch reads its contents as they are. -/
theorem scratch_load9 (c : Dev nD) (g : Buf (Elt F) (gsc9M.view.loc (c : Thread nD τ))) (y : S16x1x128.Idx) :
    View.readAt (Elt F) gsc9M.view (Rect.unit (s := S16x1x128) ![0, 0, 0] S16x1x128.size inb_S16x1x128_S16x1x128_0_0_0).toLoadRect g y = g y := by
  rw [View.readAt_eq_ld]
  show g _ = g y
  congr 1
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The word a scalar load reads from the chunk of the edge-source table at a one-element rectangle is the table's
    entry at the rectangle's offset. -/
theorem table_word9 (pf : S64000.Idx → Elt F .i32) (off : Fin 1 → ℕ) (inb : ∀ a, off a + S1.size a ≤ S64000.size a)
    (n : ℕ) (hn : n < 64000) (hoff : off 0 = n) :
    View.readAt (Elt F) gtb9M.view (Rect.unit (s := S64000) off S1.size inb).toLoadRect
        ((Memref.isWhole_whole _ : gtb9M.IsWhole).unread pf) (Shape.Idx.first (numel1_S1.symm ▸ Nat.one_pos))
      = pf (ValueIdx.ix1 (⟨n, hn⟩ : Fin 64000)) := by
  rw [View.readAt_eq_ld, Memref.IsWhole.read_unread]
  show pf _ = pf _
  congr 1
  funext a
  apply Fin.ext
  match a with
  | ⟨0, _⟩ => show off 0 + 1 * 0 = n; omega

/-- Sixteen times a grid step below 4000, plus a lane below 16, does not wrap at 32 bits. -/
private theorem off_word (v j : ℕ) (hv : v < 4000) (hj : j < 16) :
    (Scalar.indexCast (Scalar.addi (Scalar.muli (BitVec.ofNat 32 v) 16#32) (BitVec.ofNat 32 j))).toNat = 16 * v + j := by
  simp only [Scalar.indexCast, Scalar.addi, Scalar.muli, IntOp.addi, IntOp.muli, BitVec.toNat_add, BitVec.toNat_mul, BitVec.toNat_ofNat, Nat.reducePow, Nat.reduceMod]
  omega

/-- The offsets the body computes for its sixteen table reads at grid step `i`: entry `16 i + j`. -/
theorem table_offs9 (i : grid9.Coords) :
    (k9_off1 i) 0 = 16 * (i 0).val + 0
    ∧ (k9_off3 i) 0 = 16 * (i 0).val + 1
    ∧ (k9_off5 i) 0 = 16 * (i 0).val + 2
    ∧ (k9_off7 i) 0 = 16 * (i 0).val + 3
    ∧ (k9_off9 i) 0 = 16 * (i 0).val + 4
    ∧ (k9_off11 i) 0 = 16 * (i 0).val + 5
    ∧ (k9_off13 i) 0 = 16 * (i 0).val + 6
    ∧ (k9_off15 i) 0 = 16 * (i 0).val + 7
    ∧ (k9_off17 i) 0 = 16 * (i 0).val + 8
    ∧ (k9_off19 i) 0 = 16 * (i 0).val + 9
    ∧ (k9_off21 i) 0 = 16 * (i 0).val + 10
    ∧ (k9_off23 i) 0 = 16 * (i 0).val + 11
    ∧ (k9_off25 i) 0 = 16 * (i 0).val + 12
    ∧ (k9_off27 i) 0 = 16 * (i 0).val + 13
    ∧ (k9_off29 i) 0 = 16 * (i 0).val + 14
    ∧ (k9_off31 i) 0 = 16 * (i 0).val + 15 := by
  have hi : (i 0).val < 4000 := (i 0).isLt
  exact ⟨off_word _ 0 hi (by decide), off_word _ 1 hi (by decide), off_word _ 2 hi (by decide), off_word _ 3 hi (by decide),
    off_word _ 4 hi (by decide), off_word _ 5 hi (by decide), off_word _ 6 hi (by decide), off_word _ 7 hi (by decide),
    off_word _ 8 hi (by decide), off_word _ 9 hi (by decide), off_word _ 10 hi (by decide), off_word _ 11 hi (by decide),
    off_word _ 12 hi (by decide), off_word _ 13 hi (by decide), off_word _ 14 hi (by decide), off_word _ 15 hi (by decide)⟩

end Cert.Kernel.Hand

end
-- ==== Proof.KGatherRun9.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.KGatherRows9
import proofs.«401076_j19361712571372_2_alg».proof.Proof.Shares
import proofs.«401076_j19361712571372_2_alg».proof.Proof.GSpec
import proofs.«401076_j19361712571372_2_alg».proof.Proof.KGatherAux
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec Cert.Proof.Shares

set_option maxHeartbeats 8000000 in
/-- Gather call 9's body at grid step `i`, on a whole output staging memref at anything, the call's scratch buffer at
    anything, its chunk of the edge-source table at `pf` (every word naming a row of the node table), the node table
    at `tb`, its sixteen DMA semaphores at zero: it runs to the continuation with the output memref holding the sixteen
    node-table rows the step's words name, everything else as it was (the scratch at something). Each of the sixteen
    copies reads its row of the node table at its own share of it (two words may name one row), lands in its own row
    of the scratch on its own semaphore, and all sixteen are waited for before the scratch is read. -/
theorem gather_run9 (c : Dev nD) (i : grid9.Coords) (arg3 : Memref sig .tc .vmem S16x1x128 .f32) (harg3 : arg3.IsWhole)
    (pf : S64000.Idx → Elt F .i32) (tb : Buf (Elt F) (ghb9M.view.loc (c : Thread nD τ)))
    (hok : ∀ e : S64000.Idx, (pf e).toNat < 50000)
    (W : Waits sig Unit) (K : PUnit → sProp 𝕄) :
    iprop((∃ d, owns (c : Thread nD τ) arg3 fullShare d)
        ∗ (∃ f, gsc9M.view.loc (c : Thread nD τ) ↦[gsc9M.view.set]{fullShare} f)
        ∗ owns (c : Thread nD τ) gtb9M fullShare pf
        ∗ (ghb9M.view.loc (c : Thread nD τ) ↦{fullShare} tb)
        ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0
        ∗ owes (c : Thread nD τ) 0 W
        ∗ (iprop(owns (c : Thread nD τ) arg3 fullShare (gblock tb pf (i 0).val)
            ∗ (∃ f, gsc9M.view.loc (c : Thread nD τ) ↦[gsc9M.view.set]{fullShare} f)
            ∗ owns (c : Thread nD τ) gtb9M fullShare pf
            ∗ (ghb9M.view.loc (c : Thread nD τ) ↦{fullShare} tb)
            ∗ semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0
            ∗ (∃ W', owes (c : Thread nD τ) 0 W')) -∗ K ⟨⟩))
      ⊢ wp frame (wpE (defs₀ (F := F)) Variants.none c none) Set.univ
          (cc9__gather_kernel i gtb9M (Memref.isWhole_whole _) ghb9M (Memref.isWhole_whole _) arg3 harg3 gsc9M (Memref.isWhole_whole _) cc9_scratch1) K := by
  have hi : (i 0).val < 4000 := (i 0).isLt
  have hoffs := table_offs9 i
  have hword0 : (View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))) = pf (ValueIdx.ix1 (⟨16 * (i 0).val + 0, by omega⟩ : Fin 64000)) :=
    table_word9 pf _ _ _ (by omega) hoffs.1
  have hlt0 : (View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))).toNat < 50000 := by rw [hword0]; exact hok _
  have hw1 : k9_chk1 (View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))) := ⟨chk_lt _ hlt0, chk_lt _ hlt0⟩
  have hword1 : (View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))) = pf (ValueIdx.ix1 (⟨16 * (i 0).val + 1, by omega⟩ : Fin 64000)) :=
    table_word9 pf _ _ _ (by omega) hoffs.2.1
  have hlt1 : (View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))).toNat < 50000 := by rw [hword1]; exact hok _
  have hw2 : k9_chk2 (View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))) := ⟨chk_lt _ hlt1, chk_lt _ hlt1⟩
  have hword2 : (View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))) = pf (ValueIdx.ix1 (⟨16 * (i 0).val + 2, by omega⟩ : Fin 64000)) :=
    table_word9 pf _ _ _ (by omega) hoffs.2.2.1
  have hlt2 : (View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))).toNat < 50000 := by rw [hword2]; exact hok _
  have hw3 : k9_chk3 (View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))) := ⟨chk_lt _ hlt2, chk_lt _ hlt2⟩
  have hword3 : (View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))) = pf (ValueIdx.ix1 (⟨16 * (i 0).val + 3, by omega⟩ : Fin 64000)) :=
    table_word9 pf _ _ _ (by omega) hoffs.2.2.2.1
  have hlt3 : (View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))).toNat < 50000 := by rw [hword3]; exact hok _
  have hw4 : k9_chk4 (View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))) := ⟨chk_lt _ hlt3, chk_lt _ hlt3⟩
  have hword4 : (View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))) = pf (ValueIdx.ix1 (⟨16 * (i 0).val + 4, by omega⟩ : Fin 64000)) :=
    table_word9 pf _ _ _ (by omega) hoffs.2.2.2.2.1
  have hlt4 : (View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))).toNat < 50000 := by rw [hword4]; exact hok _
  have hw5 : k9_chk5 (View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))) := ⟨chk_lt _ hlt4, chk_lt _ hlt4⟩
  have hword5 : (View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))) = pf (ValueIdx.ix1 (⟨16 * (i 0).val + 5, by omega⟩ : Fin 64000)) :=
    table_word9 pf _ _ _ (by omega) hoffs.2.2.2.2.2.1
  have hlt5 : (View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))).toNat < 50000 := by rw [hword5]; exact hok _
  have hw6 : k9_chk6 (View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))) := ⟨chk_lt _ hlt5, chk_lt _ hlt5⟩
  have hword6 : (View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))) = pf (ValueIdx.ix1 (⟨16 * (i 0).val + 6, by omega⟩ : Fin 64000)) :=
    table_word9 pf _ _ _ (by omega) hoffs.2.2.2.2.2.2.1
  have hlt6 : (View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))).toNat < 50000 := by rw [hword6]; exact hok _
  have hw7 : k9_chk7 (View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))) := ⟨chk_lt _ hlt6, chk_lt _ hlt6⟩
  have hword7 : (View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))) = pf (ValueIdx.ix1 (⟨16 * (i 0).val + 7, by omega⟩ : Fin 64000)) :=
    table_word9 pf _ _ _ (by omega) hoffs.2.2.2.2.2.2.2.1
  have hlt7 : (View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))).toNat < 50000 := by rw [hword7]; exact hok _
  have hw8 : k9_chk8 (View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))) := ⟨chk_lt _ hlt7, chk_lt _ hlt7⟩
  have hword8 : (View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))) = pf (ValueIdx.ix1 (⟨16 * (i 0).val + 8, by omega⟩ : Fin 64000)) :=
    table_word9 pf _ _ _ (by omega) hoffs.2.2.2.2.2.2.2.2.1
  have hlt8 : (View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))).toNat < 50000 := by rw [hword8]; exact hok _
  have hw9 : k9_chk9 (View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))) := ⟨chk_lt _ hlt8, chk_lt _ hlt8⟩
  have hword9 : (View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))) = pf (ValueIdx.ix1 (⟨16 * (i 0).val + 9, by omega⟩ : Fin 64000)) :=
    table_word9 pf _ _ _ (by omega) hoffs.2.2.2.2.2.2.2.2.2.1
  have hlt9 : (View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))).toNat < 50000 := by rw [hword9]; exact hok _
  have hw10 : k9_chk10 (View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))) := ⟨chk_lt _ hlt9, chk_lt _ hlt9⟩
  have hword10 : (View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))) = pf (ValueIdx.ix1 (⟨16 * (i 0).val + 10, by omega⟩ : Fin 64000)) :=
    table_word9 pf _ _ _ (by omega) hoffs.2.2.2.2.2.2.2.2.2.2.1
  have hlt10 : (View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))).toNat < 50000 := by rw [hword10]; exact hok _
  have hw11 : k9_chk11 (View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))) := ⟨chk_lt _ hlt10, chk_lt _ hlt10⟩
  have hword11 : (View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))) = pf (ValueIdx.ix1 (⟨16 * (i 0).val + 11, by omega⟩ : Fin 64000)) :=
    table_word9 pf _ _ _ (by omega) hoffs.2.2.2.2.2.2.2.2.2.2.2.1
  have hlt11 : (View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))).toNat < 50000 := by rw [hword11]; exact hok _
  have hw12 : k9_chk12 (View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))) := ⟨chk_lt _ hlt11, chk_lt _ hlt11⟩
  have hword12 : (View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))) = pf (ValueIdx.ix1 (⟨16 * (i 0).val + 12, by omega⟩ : Fin 64000)) :=
    table_word9 pf _ _ _ (by omega) hoffs.2.2.2.2.2.2.2.2.2.2.2.2.1
  have hlt12 : (View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))).toNat < 50000 := by rw [hword12]; exact hok _
  have hw13 : k9_chk13 (View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))) := ⟨chk_lt _ hlt12, chk_lt _ hlt12⟩
  have hword13 : (View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))) = pf (ValueIdx.ix1 (⟨16 * (i 0).val + 13, by omega⟩ : Fin 64000)) :=
    table_word9 pf _ _ _ (by omega) hoffs.2.2.2.2.2.2.2.2.2.2.2.2.2.1
  have hlt13 : (View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))).toNat < 50000 := by rw [hword13]; exact hok _
  have hw14 : k9_chk14 (View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))) := ⟨chk_lt _ hlt13, chk_lt _ hlt13⟩
  have hword14 : (View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))) = pf (ValueIdx.ix1 (⟨16 * (i 0).val + 14, by omega⟩ : Fin 64000)) :=
    table_word9 pf _ _ _ (by omega) hoffs.2.2.2.2.2.2.2.2.2.2.2.2.2.2.1
  have hlt14 : (View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))).toNat < 50000 := by rw [hword14]; exact hok _
  have hw15 : k9_chk15 (View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))) := ⟨chk_lt _ hlt14, chk_lt _ hlt14⟩
  have hword15 : (View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))) = pf (ValueIdx.ix1 (⟨16 * (i 0).val + 15, by omega⟩ : Fin 64000)) :=
    table_word9 pf _ _ _ (by omega) hoffs.2.2.2.2.2.2.2.2.2.2.2.2.2.2.2
  have hlt15 : (View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))).toNat < 50000 := by rw [hword15]; exact hok _
  have hw16 : k9_chk16 (View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))) := chk_lt _ hlt15
  rw [cc9__gather_kernel_eq_skeleton]; unfold cc9__gather_kernel_skel
  unfold owns
  iintro ⟨⟨%d1, %f1, -, H1⟩, ⟨%fsc, HSC⟩, ⟨%fp, %hfp, Hpf⟩, Hhb, Hq0, Hq1, Hq2, Hq3, Hq4, Hq5, Hq6, Hq7, Hq8, Hq9, Hq10, Hq11, Hq12, Hq13, Hq14, Hq15, HW, Hk⟩
  obtain rfl := (Memref.isWhole_whole _ : (gtb9M).IsWhole).eq_unread hfp
  ihave HR := (rows_split9 (F := F) c fsc) $$ HSC
  icases HR with ⟨HS0, HS1, HS2, HS3, HS4, HS5, HS6, HS7, HS8, HS9, HS10, HS11, HS12, HS13, HS14, HS15⟩
  ihave HS0 := (Entails.of_eq (show ((gsc9M.view.loc (c : Thread nD τ) ↦[gr9_0M.view.set]{fullShare} fsc : sProp 𝕄)) = (gr9_0M.view.loc (c : Thread nD τ) ↦[gr9_0M.view.set]{fullShare} fsc) from rfl)) $$ HS0
  ihave HS1 := (Entails.of_eq (show ((gsc9M.view.loc (c : Thread nD τ) ↦[gr9_1M.view.set]{fullShare} fsc : sProp 𝕄)) = (gr9_1M.view.loc (c : Thread nD τ) ↦[gr9_1M.view.set]{fullShare} fsc) from rfl)) $$ HS1
  ihave HS2 := (Entails.of_eq (show ((gsc9M.view.loc (c : Thread nD τ) ↦[gr9_2M.view.set]{fullShare} fsc : sProp 𝕄)) = (gr9_2M.view.loc (c : Thread nD τ) ↦[gr9_2M.view.set]{fullShare} fsc) from rfl)) $$ HS2
  ihave HS3 := (Entails.of_eq (show ((gsc9M.view.loc (c : Thread nD τ) ↦[gr9_3M.view.set]{fullShare} fsc : sProp 𝕄)) = (gr9_3M.view.loc (c : Thread nD τ) ↦[gr9_3M.view.set]{fullShare} fsc) from rfl)) $$ HS3
  ihave HS4 := (Entails.of_eq (show ((gsc9M.view.loc (c : Thread nD τ) ↦[gr9_4M.view.set]{fullShare} fsc : sProp 𝕄)) = (gr9_4M.view.loc (c : Thread nD τ) ↦[gr9_4M.view.set]{fullShare} fsc) from rfl)) $$ HS4
  ihave HS5 := (Entails.of_eq (show ((gsc9M.view.loc (c : Thread nD τ) ↦[gr9_5M.view.set]{fullShare} fsc : sProp 𝕄)) = (gr9_5M.view.loc (c : Thread nD τ) ↦[gr9_5M.view.set]{fullShare} fsc) from rfl)) $$ HS5
  ihave HS6 := (Entails.of_eq (show ((gsc9M.view.loc (c : Thread nD τ) ↦[gr9_6M.view.set]{fullShare} fsc : sProp 𝕄)) = (gr9_6M.view.loc (c : Thread nD τ) ↦[gr9_6M.view.set]{fullShare} fsc) from rfl)) $$ HS6
  ihave HS7 := (Entails.of_eq (show ((gsc9M.view.loc (c : Thread nD τ) ↦[gr9_7M.view.set]{fullShare} fsc : sProp 𝕄)) = (gr9_7M.view.loc (c : Thread nD τ) ↦[gr9_7M.view.set]{fullShare} fsc) from rfl)) $$ HS7
  ihave HS8 := (Entails.of_eq (show ((gsc9M.view.loc (c : Thread nD τ) ↦[gr9_8M.view.set]{fullShare} fsc : sProp 𝕄)) = (gr9_8M.view.loc (c : Thread nD τ) ↦[gr9_8M.view.set]{fullShare} fsc) from rfl)) $$ HS8
  ihave HS9 := (Entails.of_eq (show ((gsc9M.view.loc (c : Thread nD τ) ↦[gr9_9M.view.set]{fullShare} fsc : sProp 𝕄)) = (gr9_9M.view.loc (c : Thread nD τ) ↦[gr9_9M.view.set]{fullShare} fsc) from rfl)) $$ HS9
  ihave HS10 := (Entails.of_eq (show ((gsc9M.view.loc (c : Thread nD τ) ↦[gr9_10M.view.set]{fullShare} fsc : sProp 𝕄)) = (gr9_10M.view.loc (c : Thread nD τ) ↦[gr9_10M.view.set]{fullShare} fsc) from rfl)) $$ HS10
  ihave HS11 := (Entails.of_eq (show ((gsc9M.view.loc (c : Thread nD τ) ↦[gr9_11M.view.set]{fullShare} fsc : sProp 𝕄)) = (gr9_11M.view.loc (c : Thread nD τ) ↦[gr9_11M.view.set]{fullShare} fsc) from rfl)) $$ HS11
  ihave HS12 := (Entails.of_eq (show ((gsc9M.view.loc (c : Thread nD τ) ↦[gr9_12M.view.set]{fullShare} fsc : sProp 𝕄)) = (gr9_12M.view.loc (c : Thread nD τ) ↦[gr9_12M.view.set]{fullShare} fsc) from rfl)) $$ HS12
  ihave HS13 := (Entails.of_eq (show ((gsc9M.view.loc (c : Thread nD τ) ↦[gr9_13M.view.set]{fullShare} fsc : sProp 𝕄)) = (gr9_13M.view.loc (c : Thread nD τ) ↦[gr9_13M.view.set]{fullShare} fsc) from rfl)) $$ HS13
  ihave HS14 := (Entails.of_eq (show ((gsc9M.view.loc (c : Thread nD τ) ↦[gr9_14M.view.set]{fullShare} fsc : sProp 𝕄)) = (gr9_14M.view.loc (c : Thread nD τ) ↦[gr9_14M.view.set]{fullShare} fsc) from rfl)) $$ HS14
  ihave HS15 := (Entails.of_eq (show ((gsc9M.view.loc (c : Thread nD τ) ↦[gr9_15M.view.set]{fullShare} fsc : sProp 𝕄)) = (gr9_15M.view.loc (c : Thread nD τ) ↦[gr9_15M.view.set]{fullShare} fsc) from rfl)) $$ HS15
  ihave HB := (split16 (ℓ := ghb9M.view.loc (c : Thread nD τ)) (I := Finset.univ) (f := tb)) $$ Hhb
  icases HB with ⟨Hh0, Hh1, Hh2, Hh3, Hh4, Hh5, Hh6, Hh7, Hh8, Hh9, Hh10, Hh11, Hh12, Hh13, Hh14, Hh15⟩
  sl_exec
  ihave HJ := (rows_join9 (F := F) c _ _ _ _ _ _ _ _ _ _ _ _ _ _ _ _) $$ [HS0 HS1 HS2 HS3 HS4 HS5 HS6 HS7 HS8 HS9 HS10 HS11 HS12 HS13 HS14 HS15]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    iexact HS15
  icases HJ with ⟨%g, %hg, HS⟩
  sl_exec
  sl_step
  have hr0 : ∀ l : Fin 128, g (ValueIdx.ix3 (⟨0, by decide⟩ : Fin 16) (0 : Fin 1) l) = tb (ValueIdx.ix3 (⟨(View.readAt (Elt F) gtb9M.view (Rect.unit (s := S64000) (k9_off1 i) S1.size (k9_off1_inb i)).toLoadRect ((Memref.isWhole_whole _ : gtb9M.IsWhole).unread pf) (Shape.Idx.first (numel1_S1.symm ▸ Nat.one_pos))).toNat, hlt0⟩ : Fin 50000) (0 : Fin 1) l) :=
    row_landed9 c 0 (by decide) _ _ hlt0 _ tb _ g hg.1
  have hr1 : ∀ l : Fin 128, g (ValueIdx.ix3 (⟨1, by decide⟩ : Fin 16) (0 : Fin 1) l) = tb (ValueIdx.ix3 (⟨(View.readAt (Elt F) gtb9M.view (Rect.unit (s := S64000) (k9_off3 i) S1.size (k9_off3_inb i)).toLoadRect ((Memref.isWhole_whole _ : gtb9M.IsWhole).unread pf) (Shape.Idx.first (numel1_S1.symm ▸ Nat.one_pos))).toNat, hlt1⟩ : Fin 50000) (0 : Fin 1) l) :=
    row_landed9 c 1 (by decide) _ _ hlt1 _ tb _ g hg.2.1
  have hr2 : ∀ l : Fin 128, g (ValueIdx.ix3 (⟨2, by decide⟩ : Fin 16) (0 : Fin 1) l) = tb (ValueIdx.ix3 (⟨(View.readAt (Elt F) gtb9M.view (Rect.unit (s := S64000) (k9_off5 i) S1.size (k9_off5_inb i)).toLoadRect ((Memref.isWhole_whole _ : gtb9M.IsWhole).unread pf) (Shape.Idx.first (numel1_S1.symm ▸ Nat.one_pos))).toNat, hlt2⟩ : Fin 50000) (0 : Fin 1) l) :=
    row_landed9 c 2 (by decide) _ _ hlt2 _ tb _ g hg.2.2.1
  have hr3 : ∀ l : Fin 128, g (ValueIdx.ix3 (⟨3, by decide⟩ : Fin 16) (0 : Fin 1) l) = tb (ValueIdx.ix3 (⟨(View.readAt (Elt F) gtb9M.view (Rect.unit (s := S64000) (k9_off7 i) S1.size (k9_off7_inb i)).toLoadRect ((Memref.isWhole_whole _ : gtb9M.IsWhole).unread pf) (Shape.Idx.first (numel1_S1.symm ▸ Nat.one_pos))).toNat, hlt3⟩ : Fin 50000) (0 : Fin 1) l) :=
    row_landed9 c 3 (by decide) _ _ hlt3 _ tb _ g hg.2.2.2.1
  have hr4 : ∀ l : Fin 128, g (ValueIdx.ix3 (⟨4, by decide⟩ : Fin 16) (0 : Fin 1) l) = tb (ValueIdx.ix3 (⟨(View.readAt (Elt F) gtb9M.view (Rect.unit (s := S64000) (k9_off9 i) S1.size (k9_off9_inb i)).toLoadRect ((Memref.isWhole_whole _ : gtb9M.IsWhole).unread pf) (Shape.Idx.first (numel1_S1.symm ▸ Nat.one_pos))).toNat, hlt4⟩ : Fin 50000) (0 : Fin 1) l) :=
    row_landed9 c 4 (by decide) _ _ hlt4 _ tb _ g hg.2.2.2.2.1
  have hr5 : ∀ l : Fin 128, g (ValueIdx.ix3 (⟨5, by decide⟩ : Fin 16) (0 : Fin 1) l) = tb (ValueIdx.ix3 (⟨(View.readAt (Elt F) gtb9M.view (Rect.unit (s := S64000) (k9_off11 i) S1.size (k9_off11_inb i)).toLoadRect ((Memref.isWhole_whole _ : gtb9M.IsWhole).unread pf) (Shape.Idx.first (numel1_S1.symm ▸ Nat.one_pos))).toNat, hlt5⟩ : Fin 50000) (0 : Fin 1) l) :=
    row_landed9 c 5 (by decide) _ _ hlt5 _ tb _ g hg.2.2.2.2.2.1
  have hr6 : ∀ l : Fin 128, g (ValueIdx.ix3 (⟨6, by decide⟩ : Fin 16) (0 : Fin 1) l) = tb (ValueIdx.ix3 (⟨(View.readAt (Elt F) gtb9M.view (Rect.unit (s := S64000) (k9_off13 i) S1.size (k9_off13_inb i)).toLoadRect ((Memref.isWhole_whole _ : gtb9M.IsWhole).unread pf) (Shape.Idx.first (numel1_S1.symm ▸ Nat.one_pos))).toNat, hlt6⟩ : Fin 50000) (0 : Fin 1) l) :=
    row_landed9 c 6 (by decide) _ _ hlt6 _ tb _ g hg.2.2.2.2.2.2.1
  have hr7 : ∀ l : Fin 128, g (ValueIdx.ix3 (⟨7, by decide⟩ : Fin 16) (0 : Fin 1) l) = tb (ValueIdx.ix3 (⟨(View.readAt (Elt F) gtb9M.view (Rect.unit (s := S64000) (k9_off15 i) S1.size (k9_off15_inb i)).toLoadRect ((Memref.isWhole_whole _ : gtb9M.IsWhole).unread pf) (Shape.Idx.first (numel1_S1.symm ▸ Nat.one_pos))).toNat, hlt7⟩ : Fin 50000) (0 : Fin 1) l) :=
    row_landed9 c 7 (by decide) _ _ hlt7 _ tb _ g hg.2.2.2.2.2.2.2.1
  have hr8 : ∀ l : Fin 128, g (ValueIdx.ix3 (⟨8, by decide⟩ : Fin 16) (0 : Fin 1) l) = tb (ValueIdx.ix3 (⟨(View.readAt (Elt F) gtb9M.view (Rect.unit (s := S64000) (k9_off17 i) S1.size (k9_off17_inb i)).toLoadRect ((Memref.isWhole_whole _ : gtb9M.IsWhole).unread pf) (Shape.Idx.first (numel1_S1.symm ▸ Nat.one_pos))).toNat, hlt8⟩ : Fin 50000) (0 : Fin 1) l) :=
    row_landed9 c 8 (by decide) _ _ hlt8 _ tb _ g hg.2.2.2.2.2.2.2.2.1
  have hr9 : ∀ l : Fin 128, g (ValueIdx.ix3 (⟨9, by decide⟩ : Fin 16) (0 : Fin 1) l) = tb (ValueIdx.ix3 (⟨(View.readAt (Elt F) gtb9M.view (Rect.unit (s := S64000) (k9_off19 i) S1.size (k9_off19_inb i)).toLoadRect ((Memref.isWhole_whole _ : gtb9M.IsWhole).unread pf) (Shape.Idx.first (numel1_S1.symm ▸ Nat.one_pos))).toNat, hlt9⟩ : Fin 50000) (0 : Fin 1) l) :=
    row_landed9 c 9 (by decide) _ _ hlt9 _ tb _ g hg.2.2.2.2.2.2.2.2.2.1
  have hr10 : ∀ l : Fin 128, g (ValueIdx.ix3 (⟨10, by decide⟩ : Fin 16) (0 : Fin 1) l) = tb (ValueIdx.ix3 (⟨(View.readAt (Elt F) gtb9M.view (Rect.unit (s := S64000) (k9_off21 i) S1.size (k9_off21_inb i)).toLoadRect ((Memref.isWhole_whole _ : gtb9M.IsWhole).unread pf) (Shape.Idx.first (numel1_S1.symm ▸ Nat.one_pos))).toNat, hlt10⟩ : Fin 50000) (0 : Fin 1) l) :=
    row_landed9 c 10 (by decide) _ _ hlt10 _ tb _ g hg.2.2.2.2.2.2.2.2.2.2.1
  have hr11 : ∀ l : Fin 128, g (ValueIdx.ix3 (⟨11, by decide⟩ : Fin 16) (0 : Fin 1) l) = tb (ValueIdx.ix3 (⟨(View.readAt (Elt F) gtb9M.view (Rect.unit (s := S64000) (k9_off23 i) S1.size (k9_off23_inb i)).toLoadRect ((Memref.isWhole_whole _ : gtb9M.IsWhole).unread pf) (Shape.Idx.first (numel1_S1.symm ▸ Nat.one_pos))).toNat, hlt11⟩ : Fin 50000) (0 : Fin 1) l) :=
    row_landed9 c 11 (by decide) _ _ hlt11 _ tb _ g hg.2.2.2.2.2.2.2.2.2.2.2.1
  have hr12 : ∀ l : Fin 128, g (ValueIdx.ix3 (⟨12, by decide⟩ : Fin 16) (0 : Fin 1) l) = tb (ValueIdx.ix3 (⟨(View.readAt (Elt F) gtb9M.view (Rect.unit (s := S64000) (k9_off25 i) S1.size (k9_off25_inb i)).toLoadRect ((Memref.isWhole_whole _ : gtb9M.IsWhole).unread pf) (Shape.Idx.first (numel1_S1.symm ▸ Nat.one_pos))).toNat, hlt12⟩ : Fin 50000) (0 : Fin 1) l) :=
    row_landed9 c 12 (by decide) _ _ hlt12 _ tb _ g hg.2.2.2.2.2.2.2.2.2.2.2.2.1
  have hr13 : ∀ l : Fin 128, g (ValueIdx.ix3 (⟨13, by decide⟩ : Fin 16) (0 : Fin 1) l) = tb (ValueIdx.ix3 (⟨(View.readAt (Elt F) gtb9M.view (Rect.unit (s := S64000) (k9_off27 i) S1.size (k9_off27_inb i)).toLoadRect ((Memref.isWhole_whole _ : gtb9M.IsWhole).unread pf) (Shape.Idx.first (numel1_S1.symm ▸ Nat.one_pos))).toNat, hlt13⟩ : Fin 50000) (0 : Fin 1) l) :=
    row_landed9 c 13 (by decide) _ _ hlt13 _ tb _ g hg.2.2.2.2.2.2.2.2.2.2.2.2.2.1
  have hr14 : ∀ l : Fin 128, g (ValueIdx.ix3 (⟨14, by decide⟩ : Fin 16) (0 : Fin 1) l) = tb (ValueIdx.ix3 (⟨(View.readAt (Elt F) gtb9M.view (Rect.unit (s := S64000) (k9_off29 i) S1.size (k9_off29_inb i)).toLoadRect ((Memref.isWhole_whole _ : gtb9M.IsWhole).unread pf) (Shape.Idx.first (numel1_S1.symm ▸ Nat.one_pos))).toNat, hlt14⟩ : Fin 50000) (0 : Fin 1) l) :=
    row_landed9 c 14 (by decide) _ _ hlt14 _ tb _ g hg.2.2.2.2.2.2.2.2.2.2.2.2.2.2.1
  have hr15 : ∀ l : Fin 128, g (ValueIdx.ix3 (⟨15, by decide⟩ : Fin 16) (0 : Fin 1) l) = tb (ValueIdx.ix3 (⟨(View.readAt (Elt F) gtb9M.view (Rect.unit (s := S64000) (k9_off31 i) S1.size (k9_off31_inb i)).toLoadRect ((Memref.isWhole_whole _ : gtb9M.IsWhole).unread pf) (Shape.Idx.first (numel1_S1.symm ▸ Nat.one_pos))).toNat, hlt15⟩ : Fin 50000) (0 : Fin 1) l) :=
    row_landed9 c 15 (by decide) _ _ hlt15 _ tb _ g hg.2.2.2.2.2.2.2.2.2.2.2.2.2.2.2
  iapply Hk
  isplitl [H1]
  · iexists _; isplitr
    swap; · iexact H1
    ipureintro
    rw [read_store_whole (by funext a; fin_cases a <;> rfl)]
    funext y
    rw [scratch_load9]
    obtain ⟨y0, y1, y2, rfl⟩ : ∃ (a : Fin 16) (b : Fin 1) (d : Fin 128), y = ValueIdx.ix3 a b d := ⟨y 0, y 1, y 2, ValueIdx.eq_ix3 y⟩
    obtain rfl : y1 = 0 := Subsingleton.elim _ _
    show g (ValueIdx.ix3 y0 (0 : Fin 1) y2) = grow tb (gword pf (i 0).val y0.val) y2
    match y0 with
    | ⟨0, _⟩ => exact (hr0 y2).trans (grow_word tb pf (i 0).val 0 (by omega) _ hword0 hlt0 y2)
    | ⟨1, _⟩ => exact (hr1 y2).trans (grow_word tb pf (i 0).val 1 (by omega) _ hword1 hlt1 y2)
    | ⟨2, _⟩ => exact (hr2 y2).trans (grow_word tb pf (i 0).val 2 (by omega) _ hword2 hlt2 y2)
    | ⟨3, _⟩ => exact (hr3 y2).trans (grow_word tb pf (i 0).val 3 (by omega) _ hword3 hlt3 y2)
    | ⟨4, _⟩ => exact (hr4 y2).trans (grow_word tb pf (i 0).val 4 (by omega) _ hword4 hlt4 y2)
    | ⟨5, _⟩ => exact (hr5 y2).trans (grow_word tb pf (i 0).val 5 (by omega) _ hword5 hlt5 y2)
    | ⟨6, _⟩ => exact (hr6 y2).trans (grow_word tb pf (i 0).val 6 (by omega) _ hword6 hlt6 y2)
    | ⟨7, _⟩ => exact (hr7 y2).trans (grow_word tb pf (i 0).val 7 (by omega) _ hword7 hlt7 y2)
    | ⟨8, _⟩ => exact (hr8 y2).trans (grow_word tb pf (i 0).val 8 (by omega) _ hword8 hlt8 y2)
    | ⟨9, _⟩ => exact (hr9 y2).trans (grow_word tb pf (i 0).val 9 (by omega) _ hword9 hlt9 y2)
    | ⟨10, _⟩ => exact (hr10 y2).trans (grow_word tb pf (i 0).val 10 (by omega) _ hword10 hlt10 y2)
    | ⟨11, _⟩ => exact (hr11 y2).trans (grow_word tb pf (i 0).val 11 (by omega) _ hword11 hlt11 y2)
    | ⟨12, _⟩ => exact (hr12 y2).trans (grow_word tb pf (i 0).val 12 (by omega) _ hword12 hlt12 y2)
    | ⟨13, _⟩ => exact (hr13 y2).trans (grow_word tb pf (i 0).val 13 (by omega) _ hword13 hlt13 y2)
    | ⟨14, _⟩ => exact (hr14 y2).trans (grow_word tb pf (i 0).val 14 (by omega) _ hword14 hlt14 y2)
    | ⟨15, _⟩ => exact (hr15 y2).trans (grow_word tb pf (i 0).val 15 (by omega) _ hword15 hlt15 y2)
    | ⟨n + 16, h⟩ => exact absurd h (by omega)
  isplitl [HS]; · iexists g; iexact HS
  isplitl [Hpf]
  · iexists _; isplitr
    swap; · iexact Hpf
    ipureintro; exact (Memref.isWhole_whole _ : (gtb9M).IsWhole).read_unread _
  isplitl [Hh0 Hh1 Hh2 Hh3 Hh4 Hh5 Hh6 Hh7 Hh8 Hh9 Hh10 Hh11 Hh12 Hh13 Hh14 Hh15]
  · iapply (join16 (ℓ := ghb9M.view.loc (c : Thread nD τ)) (I := Finset.univ) (f := tb))
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    iexact Hh15
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  iexists _; iexact HW

end Cert.Kernel.Hand

end
-- ==== Proof.KGather9.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.GSpec
import proofs.«401076_j19361712571372_2_alg».proof.Proof.KGatherRun9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

section
variable (V : (c : Dev nD) → (b : Ref sig .tc) → Buf (Elt F) ((c : Thread nD τ).loc b))

/-- Gather call 9's own DMA semaphores: one per row of the step. -/
abbrev gsem9 : Fin 16 → SemLoc sig := fun j =>
  (![SemLoc.dma 164, SemLoc.dma 165, SemLoc.dma 166, SemLoc.dma 167, SemLoc.dma 168, SemLoc.dma 169, SemLoc.dma 170, SemLoc.dma 171, SemLoc.dma 172, SemLoc.dma 173, SemLoc.dma 174, SemLoc.dma 175, SemLoc.dma 176, SemLoc.dma 177, SemLoc.dma 178, SemLoc.dma 179] : Fin 16 → SemLoc sig) j
theorem gsemFacts9 : Pipeline.OwnSemFacts spec9 gsem9 := by decide

/-- The buffers the body reads without a window: the node table in HBM and its chunk of the edge-source table. -/
def gH9 : Finset (Ref sig .tc) := {main_v0, main_v19}
theorem gH9_sub : gH9 ⊆ Pipeline.restRefs sig spec9 := by decide

/-- The call's prefetched table at the contents the region finds. -/
def gadm9 (c : Dev nD) : (pcfg9 (F := F)).Adm := ⟨fun k => match k with | ⟨0, _⟩ => V c main_v19, trivial⟩

/-- The proof data of gather call 9 on core `c`: the output array as found; after step `t` the output block holds
    the gathered rows; the invariant carries the scratch, the call's semaphores at zero and the two tables as found. -/
def gdat9 (a : (pcfg9 (F := F)).Adm) (c : Dev nD) : Dat τ (Elt F) Unit ℕ (Pipeline.UD sig nD τ) ℕ (cfg9 a) c where
  A w := V c (Pipeline.arrRef spec9 w)
  after w t := match w with
    | ⟨0, _⟩ => gblock (V c main_v0) (V c main_v19) t.val
  Φ _ := Pipeline.ΦD gsem9 spec9 gH9 V c
  q _ := fullShare
  owed _ := 0

theorem gdat9_A (a : (pcfg9 (F := F)).Adm) (c : Dev nD) (w : Fin (cfg9 a).W) :
    (gdat9 V a c).A w = V c (Pipeline.arrRef spec9 w) := by dsimp only [gdat9]
theorem gdat9_after (a : (pcfg9 (F := F)).Adm) (c : Dev nD) (t : Fin (cfg9 a).N) :
    (gdat9 V a c).after 0 t = gblock (V c main_v0) (V c main_v19) t.val := rfl

/-! ## The body obligation, from the body's run -/

/-- The call's scratch buffer whole at some contents, said of the buffer and said through the whole-buffer memref. -/
theorem gsc9_whole (c : Dev nD) :
    (iprop(∃ f, gsc9M.view.loc (c : Thread nD τ) ↦[gsc9M.view.set]{fullShare} f) : sProp 𝕄)
      = iprop(∃ f : Buf (Elt F) ((c : Thread nD τ).loc cc9_scratch0), ((c : Thread nD τ).loc cc9_scratch0) ↦{fullShare} f) := by
  simp only [gsc9M, Memref.view_whole, View.set_whole]

/-- The region invariant of gather call 9, conjunct by conjunct: the call's scratch buffer whole at some contents beside
    the scoped buffers it does not touch, the generator register at some state, its sixteen semaphores at zero, and
    the two tables whole at the contents the region finds. -/
theorem PhiD9_eq (c : Dev nD) :
    (Pipeline.ΦD gsem9 spec9 gH9 V c : sProp 𝕄)
      = iprop(iprop((∃ f, gsc9M.view.loc (c : Thread nD τ) ↦[gsc9M.view.set]{fullShare} f)
            ∗ Pipeline.scopedRestBut (Ix := Unit) (Name := ℕ) (U := Pipeline.UD sig nD τ) (Lvl := ℕ) (Val := Elt F) spec9 c [cc9_scratch0])
          ∗ (∃ r, prngReg c r)
          ∗ iprop(semVal ((c : Thread nD τ), SemLoc.dma 164) 0 ∗ semVal ((c : Thread nD τ), SemLoc.dma 165) 0 ∗ semVal ((c : Thread nD τ), SemLoc.dma 166) 0 ∗ semVal ((c : Thread nD τ), SemLoc.dma 167) 0 ∗ semVal ((c : Thread nD τ), SemLoc.dma 168) 0 ∗ semVal ((c : Thread nD τ), SemLoc.dma 169) 0 ∗ semVal ((c : Thread nD τ), SemLoc.dma 170) 0 ∗ semVal ((c : Thread nD τ), SemLoc.dma 171) 0 ∗ semVal ((c : Thread nD τ), SemLoc.dma 172) 0 ∗ semVal ((c : Thread nD τ), SemLoc.dma 173) 0 ∗ semVal ((c : Thread nD τ), SemLoc.dma 174) 0 ∗ semVal ((c : Thread nD τ), SemLoc.dma 175) 0 ∗ semVal ((c : Thread nD τ), SemLoc.dma 176) 0 ∗ semVal ((c : Thread nD τ), SemLoc.dma 177) 0 ∗ semVal ((c : Thread nD τ), SemLoc.dma 178) 0 ∗ semVal ((c : Thread nD τ), SemLoc.dma 179) 0)
          ∗ iprop((ghb9M.view.loc (c : Thread nD τ) ↦{fullShare} V c main_v0) ∗ owns (c : Thread nD τ) gtb9M fullShare (V c main_v19))) := by
  rw [gsc9_whole, owns_whole, Pipeline.ΦD_eq, scopedRest9_split,
    Pipeline.ownSems0_eq_of_list c gsem9 [0, 1, 2, 3, 4, 5, 6, 7, 8, 9, 10, 11, 12, 13, 14, 15] (by decide) (by decide),
    BI.bigSep_eq_bigSepL_of_eq [main_v0, main_v19] (by decide) (by decide)]
  rfl

/-- The kernel body of gather call 9 as the pipeline calls it at point `t`: the step's coordinates, the two tables whole,
    the output window's current staging buffer, the scratch buffer and the sixteen semaphores. -/
abbrev gbodyAt9 (a : (pcfg9 (F := F)).Adm) (t : Fin (cfg9 a).N) : Prog (TpuEff nD τ sig (Elt F) Λ₀ .tc) PUnit :=
  cc9__gather_kernel ((cfg9 a).grid.coords t) gtb9M (Memref.isWhole_whole _) ghb9M (Memref.isWhole_whole _)
    (spec9_0.stage ((cfg9 a).slots t 0)) (hstage9_0 (((cfg9 a).slots t 0).cast nbuf9_0)) gsc9M (Memref.isWhole_whole _) cc9_scratch1

/-- The grid is one axis of 4000 steps: the step's one coordinate is its number. -/
theorem gcoord9 (a : (pcfg9 (F := F)).Adm) (t : Fin (cfg9 a).N) : (((cfg9 a).grid.coords t) 0).val = t.val := by
  have ht : t.val < 4000 := lt_of_lt_of_eq t.isLt N_9
  show t.val / 1 % 4000 = t.val
  omega

/-- What the body is called with at point `t`: the invariant, the core's `owes`, the output window's current staging
    buffer at whatever it holds, -/
def gbodyPre9 (a : (pcfg9 (F := F)).Adm) (c : Dev nD) (t : Fin (cfg9 a).N) : sProp 𝕄 :=
  iprop((gdat9 V a c).Φ t.castSucc ∗ (gdat9 V a c).owesAt () t.castSucc
    ∗ (∃ d, owns (c : Thread nD τ) (spec9_0.stage ((cfg9 a).slots t 0)) fullShare ((gdat9 V a c).before 0 t d)))

/-- and what it returns: the invariant, `owes`, the staging buffer at the step's gathered rows. -/
def gbodyPost9 (a : (pcfg9 (F := F)).Adm) (c : Dev nD) (t : Fin (cfg9 a).N) : sProp 𝕄 :=
  iprop((gdat9 V a c).Φ t.succ ∗ (gdat9 V a c).owesAt () t.succ
    ∗ owns (c : Thread nD τ) (spec9_0.stage ((cfg9 a).slots t 0)) fullShare ((gdat9 V a c).after 0 t))

/-- The body at any point. The invariant hands the run the scratch buffer, the two tables and the sixteen semaphores at
    zero and takes them back as they were; the output buffer goes in at anything and comes back at the sixteen rows the
    step's words name; the core's `owes` goes in at whatever the points before recorded and comes back with this
    point's waits, within the next point's bound (everything). -/
theorem gsound_body9 (a : (pcfg9 (F := F)).Adm) (c : Dev nD)
    (hok : ∀ e : S64000.Idx, (V c main_v19 e).toNat < 50000) (t : Fin (cfg9 a).N) :
    gbodyPre9 V a c t ⊢ wp frame (wpE (defs₀ (F := F)) Variants.none c none) Set.univ (gbodyAt9 a t) (fun _ => gbodyPost9 V a c t) := by
  unfold gbodyPre9 gbodyPost9 gbodyAt9
  rw [show (gdat9 V a c).Φ t.succ = Pipeline.ΦD gsem9 spec9 gH9 V c from rfl,
    show (gdat9 V a c).Φ t.castSucc = Pipeline.ΦD gsem9 spec9 gH9 V c from rfl, gdat9_after, PhiD9_eq]
  unfold Dat.owesAt Pipeline.owesWithin
  rw [show (gdat9 V a c).owed t.castSucc = 0 from rfl, show (gdat9 V a c).owed t.succ = 0 from rfl]
  have hrun := fun W K => gather_run9 (F := F) c ((cfg9 a).grid.coords t) (spec9_0.stage ((cfg9 a).slots t 0))
    (hstage9_0 (((cfg9 a).slots t 0).cast nbuf9_0)) (V c main_v19) (V c main_v0) hok W K
  rw [gcoord9 a t] at hrun
  iintro ⟨⟨⟨Hsc, Hrest⟩, Hg, ⟨Sa, Sb, Sc, Sd, Se, Sf, Sg, Sh, Si, Sj, Sk, Sl, Sm, Sn, So, Sp⟩, Hn, Htb⟩, ⟨%W, -, HW⟩, ⟨%d0, Hout⟩⟩
  iapply (hrun W _)
  isplitl [Hout]; · iexists _; iexact Hout
  isplitl [Hsc]; · iexact Hsc
  isplitl [Htb]; · iexact Htb
  isplitl [Hn]; · iexact Hn
  isplitl [Sa]; · iexact Sa
  isplitl [Sb]; · iexact Sb
  isplitl [Sc]; · iexact Sc
  isplitl [Sd]; · iexact Sd
  isplitl [Se]; · iexact Se
  isplitl [Sf]; · iexact Sf
  isplitl [Sg]; · iexact Sg
  isplitl [Sh]; · iexact Sh
  isplitl [Si]; · iexact Si
  isplitl [Sj]; · iexact Sj
  isplitl [Sk]; · iexact Sk
  isplitl [Sl]; · iexact Sl
  isplitl [Sm]; · iexact Sm
  isplitl [Sn]; · iexact Sn
  isplitl [So]; · iexact So
  isplitl [Sp]; · iexact Sp
  isplitl [HW]; · iexact HW
  iintro ⟨Hout, Hsc, Htb, Hn, Sa, Sb, Sc, Sd, Se, Sf, Sg, Sh, Si, Sj, Sk, Sl, Sm, Sn, So, Sp, ⟨%W', HW'⟩⟩
  isplitl [Hsc Hrest Hg Sa Sb Sc Sd Se Sf Sg Sh Si Sj Sk Sl Sm Sn So Sp Hn Htb]
  · isplitl [Hsc Hrest]
    · isplitl [Hsc]; · iexact Hsc
      iexact Hrest
    isplitl [Hg]; · iexact Hg
    isplitl [Sa Sb Sc Sd Se Sf Sg Sh Si Sj Sk Sl Sm Sn So Sp]
    · isplitl [Sa]; · iexact Sa
      isplitl [Sb]; · iexact Sb
      isplitl [Sc]; · iexact Sc
      isplitl [Sd]; · iexact Sd
      isplitl [Se]; · iexact Se
      isplitl [Sf]; · iexact Sf
      isplitl [Sg]; · iexact Sg
      isplitl [Sh]; · iexact Sh
      isplitl [Si]; · iexact Si
      isplitl [Sj]; · iexact Sj
      isplitl [Sk]; · iexact Sk
      isplitl [Sl]; · iexact Sl
      isplitl [Sm]; · iexact Sm
      isplitl [Sn]; · iexact Sn
      isplitl [So]; · iexact So
      iexact Sp
    isplitl [Hn]; · iexact Hn
    iexact Htb
  isplitl [HW']
  · iexists W'; isplitr; · ipureintro; exact fun _ _ => Or.inl trivial
    iexact HW'
  iexact Hout

/-- The body obligation of gather call 9, when every word of its table names a row of the node table. -/
theorem gather_obligation9 (a : (pcfg9 (F := F)).Adm) (c : Dev nD)
    (hok : ∀ e : S64000.Idx, (V c main_v19 e).toNat < 50000) :
    BodyObligation (gdat9 (F := F) V a c) (defs₀ (F := F)) Variants.none () Set.univ := fun t => by
  rw [bigSep_W9, bigSep_W9]
  exact gsound_body9 V a c hok t

end

end Cert.Kernel.Hand

end
-- ==== Proof.KProj.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the projection region is entered
variable (V : (c : Dev nD) → (b : Ref sig .tc) → Buf (Elt F) ((c : Thread nD τ).loc b))

/-- Window `w`'s block at grid point `t` of the projection call, read off its array as the region finds it. -/
def pblk (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- What one grid step stores into the output block: the 2000 × 128 block of aggregated rows times the 128 × 128
    weight (both narrowed to bf16 first, the product accumulated from zero in f32) plus the bias row broadcast down
    the rows. -/
def projOut (x0 : Vec F S2000x128 .f32) (x1 : Vec F S128x128 .f32) (x2 : Vec F S1x128 .f32) : Vec F S2000x128 .f32 :=
  addf (matmul dot_S2000x128_S128x128_S2000x128_1_0_0_1_n_n none
      (truncf .bf16 (shapeCast S2000x128 x0 shapeCasts_S2000x128_S2000x128) bitsLt_bf16_f32)
      (truncf .bf16 x1 bitsLt_bf16_f32) (constant S2000x128 .f32 0x00000000#32))
    (broadcastTo S2000x128 x2 broadcasts_S1x128_S2000x128)

/-- The proof data of the projection pipeline on core `c`: arrays as found; after the body each input buffer at its
    block and the output buffer at `projOut` of the three input blocks; nothing owed, full shares, the plain invariant. -/
def pdat (c : Dev nD) : Dat τ (Elt F) Unit ℕ (Pipeline.UD sig nD τ) ℕ cfg10 c where
  A w := V c (Pipeline.arrRef spec10 w)
  after w t := match w with
    | ⟨0, _⟩ => pblk V c 0 t
    | ⟨1, _⟩ => pblk V c 1 t
    | ⟨2, _⟩ => pblk V c 2 t
    | ⟨3, _⟩ => projOut (pblk V c 0 t) (pblk V c 1 t) (pblk V c 2 t)
  Φ _ := Pipeline.ΦA spec10 c
  q _ := fullShare
  owed _ := 0

theorem pdat_A (c : Dev nD) (w : Fin cfg10.W) : (pdat V c).A w = V c (Pipeline.arrRef spec10 w) := by
  dsimp only [pdat]
theorem pdat_after0 (c : Dev nD) (t : Fin cfg10.N) : (pdat V c).after 0 t = pblk V c 0 t := by dsimp only [pdat]
theorem pdat_after1 (c : Dev nD) (t : Fin cfg10.N) : (pdat V c).after 1 t = pblk V c 1 t := by dsimp only [pdat]
theorem pdat_after2 (c : Dev nD) (t : Fin cfg10.N) : (pdat V c).after 2 t = pblk V c 2 t := by dsimp only [pdat]
theorem pdat_after3 (c : Dev nD) (t : Fin cfg10.N) :
    (pdat V c).after 3 t = projOut (pblk V c 0 t) (pblk V c 1 t) (pblk V c 2 t) := by dsimp only [pdat]

/-! ## Each input window's staging buffer holds its block at every point

An input window the body leaves in place holds, at every grid point, the block a fetch there would put in it, fetched
there or not: where it is not fetched its block index has not moved (windows 1 and 2 after the first point). -/

private theorem proj_before0 (c : Dev nD) (t : Fin cfg10.N) (d) : (pdat V c).before 0 t d = pblk V c 0 t :=
  ((pdat V c).before_in_eq_fetched 0 rfl (fun _ => rfl) (fun _ _ _ => rfl)
      (fun t => by rw [pdat_after0]; unfold Dat.blockOf pblk; rw [pdat_A]; try rfl) t d).trans
    (by unfold Dat.fetched Dat.blockOf pblk; rw [pdat_A]; try rfl)

private theorem proj_before1 (c : Dev nD) (t : Fin cfg10.N) (d) : (pdat V c).before 1 t d = pblk V c 1 t :=
  ((pdat V c).before_in_eq_fetched 1 rfl (fun _ => rfl) (fun _ _ _ => rfl)
      (fun t => by rw [pdat_after1]; unfold Dat.blockOf pblk; rw [pdat_A]; try rfl) t d).trans
    (by unfold Dat.fetched Dat.blockOf pblk; rw [pdat_A]; try rfl)

private theorem proj_before2 (c : Dev nD) (t : Fin cfg10.N) (d) : (pdat V c).before 2 t d = pblk V c 2 t :=
  ((pdat V c).before_in_eq_fetched 2 rfl (fun _ => rfl) (fun _ _ _ => rfl)
      (fun t => by rw [pdat_after2]; unfold Dat.blockOf pblk; rw [pdat_A]; try rfl) t d).trans
    (by unfold Dat.fetched Dat.blockOf pblk; rw [pdat_A]; try rfl)

/-! ## Loads and a store through a whole block

A rectangle at zero offsets, of the shape's own sizes, places each index at itself: a load through it reads the
buffer's contents, and one store through it leaves exactly its payload, whatever the buffer held. -/

private theorem off00 : (![0, 0] : Fin 2 → Nat) = fun _ => 0 := funext fun a => by fin_cases a <;> rfl

private theorem readAt_zero_off {κ : Kind} {sp : Space} {S : Shape} {e : EltTy} {off : Fin S.rank → Nat}
    (h : off = fun _ => 0) (inb : ∀ a, off a + S.size a ≤ S.size a) (v : View sig κ sp S e)
    (f : v.ty.Contents (Elt F)) :
    v.readAt (Elt F) (Rect.unit off S.size inb).toLoadRect f = v.read (Elt F) f := by
  subst h
  funext x
  show v.read (Elt F) f ((Rect.whole S).emb x) = v.read (Elt F) f x
  rw [Rect.emb_whole_apply]

private theorem read_store_zero_off {κ : Kind} {sp : Space} {S : Shape} {e : EltTy} {off : Fin S.rank → Nat}
    (h : off = fun _ => 0) (inb : ∀ a, off a + S.size a ≤ S.size a) (v : View sig κ sp S e)
    (f : v.ty.Contents (Elt F)) (w : S.Idx → Elt F e) :
    v.read (Elt F) (v.writes (Elt F) f [(⟨Rect.unit off S.size inb, w⟩ : View.Piece (Elt F) S e)]) = w := by
  subst h
  funext y
  have hy := View.read_writes_cons_emb (v := v) (f := f) (Rect.whole S) w [] y
  rwa [Rect.emb_whole_apply] at hy

/-! ## The body's triple -/

set_option maxHeartbeats 1000000 in
/-- The kernel body on whole staging memrefs, the three inputs' at read contents `x0`, `x1`, `x2` and the output's at
    anything, runs to the continuation holding the inputs' as they were and the output's at `projOut x0 x1 x2`: each
    load goes through a whole block and reads that block's contents, and the one store goes through the whole output
    block, so what it leaves is its payload, the sum of the product and the broadcast bias. -/
private theorem proj_sound_kernel (c : Dev nD) (E : Set ℕ) (i : grid10.Coords)
    (arg1 : Memref sig .tc .vmem S2000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S2000x128 .f32) (harg4 : arg4.IsWhole)
    (x0 : Vec F S2000x128 .f32) (x1 : Vec F S128x128 .f32) (x2 : Vec F S1x128 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (projOut x0 x1 x2)) -∗ K ⟨⟩))
      ⊢ wp frame (wpE (defs₀ (F := F)) Variants.none c none) E (cc10__proj_kernel i arg1 harg1 arg2 harg2 arg3 harg3 arg4 harg4) K := by
  simp only [cc10__proj_kernel_eq_skeleton]; unfold cc10__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [read_store_zero_off off00, readAt_zero_off off00, readAt_zero_off off00, readAt_zero_off off00]
  unfold k10_pay1 projOut
  rfl

/-! ## The body obligation, at a generic point -/

/-- What the body is called with at point `t`: the invariant, the core's debt, and each window's current staging
    buffer at what it holds before the body, the windows one by one, -/
private def projBodyPre (c : Dev nD) (t : Fin cfg10.N) : sProp 𝕄 :=
  iprop((pdat V c).Φ t.castSucc ∗ (pdat V c).owesAt () t.castSucc
    ∗ (∃ d, owns (c : Thread nD τ) (st10_0 t) fullShare ((pdat V c).before 0 t d))
    ∗ (∃ d, owns (c : Thread nD τ) (st10_1 t) fullShare ((pdat V c).before 1 t d))
    ∗ (∃ d, owns (c : Thread nD τ) (st10_2 t) fullShare ((pdat V c).before 2 t d))
    ∗ (∃ d, owns (c : Thread nD τ) (st10_3 t) fullShare ((pdat V c).before 3 t d)))

/-- and what it returns: the same, each buffer at what the body leaves in it. -/
private def projBodyPost (c : Dev nD) (t : Fin cfg10.N) : sProp 𝕄 :=
  iprop((pdat V c).Φ t.succ ∗ (pdat V c).owesAt () t.succ
    ∗ owns (c : Thread nD τ) (st10_0 t) fullShare ((pdat V c).after 0 t)
    ∗ owns (c : Thread nD τ) (st10_1 t) fullShare ((pdat V c).after 1 t)
    ∗ owns (c : Thread nD τ) (st10_2 t) fullShare ((pdat V c).after 2 t)
    ∗ owns (c : Thread nD τ) (st10_3 t) fullShare ((pdat V c).after 3 t))

/-- The body at any point: the three inputs' staging buffers hold their blocks, so the kernel's triple applies at those
    blocks; the invariant and the core's debt are the same before and after a point and pass through unread. -/
private theorem proj_sound_body (c : Dev nD) (t : Fin cfg10.N) :
    projBodyPre V c t ⊢ wp frame (wpE (defs₀ (F := F)) Variants.none c none) Set.univ (bodyAt10 t) (fun _ => projBodyPost V c t) := by
  unfold projBodyPre projBodyPost bodyAt10
  simp only [proj_before0, proj_before1, proj_before2]
  rw [show (pdat V c).Φ t.succ = (pdat V c).Φ t.castSucc from rfl,
    show (pdat V c).owesAt () t.succ = (pdat V c).owesAt () t.castSucc from rfl,
    pdat_after0, pdat_after1, pdat_after2, pdat_after3]
  iintro ⟨HΦ, Ho, ⟨%d0, H0⟩, ⟨%d1, H1⟩, ⟨%d2, H2⟩, ⟨%d3, H3⟩⟩
  iapply (proj_sound_kernel c Set.univ (grid10.coords t) _ _ _ _ _ _ _ _ (pblk V c 0 t) (pblk V c 1 t) (pblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the projection call, at every grid point. -/
theorem proj_obligation (c : Dev nD) : BodyObligation (pdat (F := F) V c) (defs₀ (F := F)) Variants.none () Set.univ := by
  intro t
  rw [bigSep_W10, bigSep_W10]
  exact proj_sound_body V c t

end

end Cert.Kernel.Hand

end
-- ==== Proof.KRunChain.lean ====
import proofs.«401076_j19361712571372_2_alg».proof.Proof.Gen.Kernel.Launch
import proofs.«401076_j19361712571372_2_alg».proof.Proof.Gen.Kernel.Skeleton
import proofs.«401076_j19361712571372_2_alg».proof.Proof.Gen.Kernel.Points
import proofs.«401076_j19361712571372_2_alg».proof.Proof.Gen.Kernel.Regions
import proofs.«401076_j19361712571372_2_alg».proof.Proof.GSpec
import proofs.«401076_j19361712571372_2_alg».proof.Proof.KGather0
import proofs.«401076_j19361712571372_2_alg».proof.Proof.KGather1
import proofs.«401076_j19361712571372_2_alg».proof.Proof.KGather2
import proofs.«401076_j19361712571372_2_alg».proof.Proof.KGather3
import proofs.«401076_j19361712571372_2_alg».proof.Proof.KGather4
import proofs.«401076_j19361712571372_2_alg».proof.Proof.KGather5
import proofs.«401076_j19361712571372_2_alg».proof.Proof.KGather6
import proofs.«401076_j19361712571372_2_alg».proof.Proof.KGather7
import proofs.«401076_j19361712571372_2_alg».proof.Proof.KGather8
import proofs.«401076_j19361712571372_2_alg».proof.Proof.KGather9
import proofs.«401076_j19361712571372_2_alg».proof.Proof.KProj
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # The buffers' contents between the items of @main

@main is twenty-two items: ten times a host stretch (the first also reshapes the node table; each cuts one chunk of
64000 words out of the edge-source argument into a table in scalar memory) followed by the gather call that reads that
table, then the host stretch that concatenates the ten gathered arrays and scatter-adds them, then the projection call.
`W j c` is what core `c`'s buffers hold after the first `j` items, from the launch memory `m`: a host stretch
rewrites the buffers its operations write, a kernel region leaves its windows' arrays at what its write-backs fold to
and every other buffer as it found it. -/

/-- The mesh has one device. -/
abbrev c0 : Dev nD := 0

/-- The five arguments of @main. -/
abbrev argRefs : List (Ref sig .tc) := [main_arg0, main_arg1, main_arg2, main_arg3, main_arg4]

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
theorem W0_args (c : Dev nD) (r : Ref sig .tc) (hr : r ∈ argRefs) :
    W0 m ρ c (Proc.devRef .tc r) = m ((c : Thread nD τ).loc r) := rfl

/-! ## Items 0 and 1: the host stretch that cuts table 0 out of the edge-source argument, and gather call 0 -/

/-- After the host stretch before gather call 0 (the call's entry). -/
def W1 (c : Dev nD) : Valuation τ sig (Elt F) := StableHlo.after hostOps0 (W0 m ρ c)
theorem W1_of_ne (c : Dev nD) (r : Ref sig .tc) (h : r ∉ (hostOps0_W : List (Ref sig .tc))) :
    W1 m ρ c (Proc.devRef .tc r) = W0 m ρ c (Proc.devRef .tc r) := by
  unfold W1; exact StableHlo.after_of_writes_sub hostOps0 _ hostOps0_writes h
/-- The same read at the TensorCore's references. -/
abbrev V1 : (c : Dev nD) → (b : Ref sig .tc) → Buf (Elt F) ((c : Thread nD τ).loc b) := fun c b => W1 m ρ c b
/-- The stretch writes no argument. -/
theorem W1_args (c : Dev nD) (r : Ref sig .tc) (hr : r ∈ argRefs) :
    W1 m ρ c (Proc.devRef .tc r) = m ((c : Thread nD τ).loc r) :=
  (W1_of_ne m ρ c r ((by decide : ∀ r ∈ argRefs, r ∉ (hostOps0_W : List (Ref sig .tc))) r hr)).trans (W0_args m ρ c r hr)
/-- The table gather call 0 finds is words 0 to 0 + 63999 of the edge-source argument as launched. -/
theorem W1_table (c : Dev nD) : V1 m ρ c main_v1
    = extractStridedSlice S64000 ![0] (m ((c : Thread nD τ).loc main_arg1)) slices_S640000_S64000_0 := by
  show W1 m ρ c (Proc.devRef .tc main_v1) = _
  unfold W1
  after_results
  all_goals rw [W0_args m ρ c main_arg1 (by decide)]
/-- So every word of it names a row of the node table when every word of the argument does. -/
theorem hok0 (hsrc : ∀ (c : Dev nD) (e : S640000.Idx), (m ((c : Thread nD τ).loc main_arg1) e).toNat < 50000)
    (c : Dev nD) (e : S64000.Idx) : (V1 m ρ c main_v1 e).toNat < 50000 := by
  rw [W1_table]; unfold extractStridedSlice; exact hsrc c _
/-- The admissible contents gather call 0's pipeline is pinned at: its table as the call finds it. -/
abbrev ga0 : (pcfg0 (F := F)).Adm := gadm0 (V1 m ρ) c0

/-- After gather call 0: its output array at what the write-backs fold to, every other buffer as the call found it. -/
def W2 (c : Dev nD) : Valuation τ sig (Elt F) :=
  Pipeline.withArrays spec0 c (W1 m ρ c) fun w => (gdat0 (V1 m ρ) (ga0 m ρ) c).arrAt w (cfg0 (ga0 m ρ)).N
theorem W2_arr (c : Dev nD) (w : Fin (cfg0 (ga0 m ρ)).W) :
    W2 m ρ c (Proc.devRef .tc (Pipeline.arrRef spec0 w)) = (gdat0 (V1 m ρ) (ga0 m ρ) c).arrAt w (cfg0 (ga0 m ρ)).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
/-- At the call's exit its array holds what the pipeline leaves and every other buffer what it held at entry. -/
theorem hF0 (c : Dev nD) (w : Fin (cfg0 (ga0 m ρ)).W) :
    (gdat0 (V1 m ρ) (ga0 m ρ) c).arrAt w (cfg0 (ga0 m ρ)).N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The call's one array is no argument. -/
theorem W2_args (c : Dev nD) (r : Ref sig .tc) (hr : r ∈ argRefs) :
    W2 m ρ c (Proc.devRef .tc r) = m ((c : Thread nD τ).loc r) :=
  (W2_of_ne m ρ c r ((by decide : ∀ r ∈ argRefs, ∀ w, Pipeline.arrRef spec0 w ≠ r) r hr)).trans (W1_args m ρ c r hr)

/-! ## Items 2 and 3: the host stretch that cuts table 1 out of the edge-source argument, and gather call 1 -/

/-- After the host stretch before gather call 1 (the call's entry). -/
def W3 (c : Dev nD) : Valuation τ sig (Elt F) := StableHlo.after hostOps1 (W2 m ρ c)
theorem W3_of_ne (c : Dev nD) (r : Ref sig .tc) (h : r ∉ (hostOps1_W : List (Ref sig .tc))) :
    W3 m ρ c (Proc.devRef .tc r) = W2 m ρ c (Proc.devRef .tc r) := by
  unfold W3; exact StableHlo.after_of_writes_sub hostOps1 _ hostOps1_writes h
/-- The same read at the TensorCore's references. -/
abbrev V3 : (c : Dev nD) → (b : Ref sig .tc) → Buf (Elt F) ((c : Thread nD τ).loc b) := fun c b => W3 m ρ c b
/-- The stretch writes no argument. -/
theorem W3_args (c : Dev nD) (r : Ref sig .tc) (hr : r ∈ argRefs) :
    W3 m ρ c (Proc.devRef .tc r) = m ((c : Thread nD τ).loc r) :=
  (W3_of_ne m ρ c r ((by decide : ∀ r ∈ argRefs, r ∉ (hostOps1_W : List (Ref sig .tc))) r hr)).trans (W2_args m ρ c r hr)
/-- The table gather call 1 finds is words 64000 to 64000 + 63999 of the edge-source argument as launched. -/
theorem W3_table (c : Dev nD) : V3 m ρ c main_v3
    = extractStridedSlice S64000 ![64000] (m ((c : Thread nD τ).loc main_arg1)) slices_S640000_S64000_64000 := by
  show W3 m ρ c (Proc.devRef .tc main_v3) = _
  unfold W3
  after_results
  all_goals rw [W2_args m ρ c main_arg1 (by decide)]
/-- So every word of it names a row of the node table when every word of the argument does. -/
theorem hok1 (hsrc : ∀ (c : Dev nD) (e : S640000.Idx), (m ((c : Thread nD τ).loc main_arg1) e).toNat < 50000)
    (c : Dev nD) (e : S64000.Idx) : (V3 m ρ c main_v3 e).toNat < 50000 := by
  rw [W3_table]; unfold extractStridedSlice; exact hsrc c _
/-- The admissible contents gather call 1's pipeline is pinned at: its table as the call finds it. -/
abbrev ga1 : (pcfg1 (F := F)).Adm := gadm1 (V3 m ρ) c0

/-- After gather call 1: its output array at what the write-backs fold to, every other buffer as the call found it. -/
def W4 (c : Dev nD) : Valuation τ sig (Elt F) :=
  Pipeline.withArrays spec1 c (W3 m ρ c) fun w => (gdat1 (V3 m ρ) (ga1 m ρ) c).arrAt w (cfg1 (ga1 m ρ)).N
theorem W4_arr (c : Dev nD) (w : Fin (cfg1 (ga1 m ρ)).W) :
    W4 m ρ c (Proc.devRef .tc (Pipeline.arrRef spec1 w)) = (gdat1 (V3 m ρ) (ga1 m ρ) c).arrAt w (cfg1 (ga1 m ρ)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
/-- At the call's exit its array holds what the pipeline leaves and every other buffer what it held at entry. -/
theorem hF1 (c : Dev nD) (w : Fin (cfg1 (ga1 m ρ)).W) :
    (gdat1 (V3 m ρ) (ga1 m ρ) c).arrAt w (cfg1 (ga1 m ρ)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- The call's one array is no argument. -/
theorem W4_args (c : Dev nD) (r : Ref sig .tc) (hr : r ∈ argRefs) :
    W4 m ρ c (Proc.devRef .tc r) = m ((c : Thread nD τ).loc r) :=
  (W4_of_ne m ρ c r ((by decide : ∀ r ∈ argRefs, ∀ w, Pipeline.arrRef spec1 w ≠ r) r hr)).trans (W3_args m ρ c r hr)

/-! ## Items 4 and 5: the host stretch that cuts table 2 out of the edge-source argument, and gather call 2 -/

/-- After the host stretch before gather call 2 (the call's entry). -/
def W5 (c : Dev nD) : Valuation τ sig (Elt F) := StableHlo.after hostOps2 (W4 m ρ c)
theorem W5_of_ne (c : Dev nD) (r : Ref sig .tc) (h : r ∉ (hostOps2_W : List (Ref sig .tc))) :
    W5 m ρ c (Proc.devRef .tc r) = W4 m ρ c (Proc.devRef .tc r) := by
  unfold W5; exact StableHlo.after_of_writes_sub hostOps2 _ hostOps2_writes h
/-- The same read at the TensorCore's references. -/
abbrev V5 : (c : Dev nD) → (b : Ref sig .tc) → Buf (Elt F) ((c : Thread nD τ).loc b) := fun c b => W5 m ρ c b
/-- The stretch writes no argument. -/
theorem W5_args (c : Dev nD) (r : Ref sig .tc) (hr : r ∈ argRefs) :
    W5 m ρ c (Proc.devRef .tc r) = m ((c : Thread nD τ).loc r) :=
  (W5_of_ne m ρ c r ((by decide : ∀ r ∈ argRefs, r ∉ (hostOps2_W : List (Ref sig .tc))) r hr)).trans (W4_args m ρ c r hr)
/-- The table gather call 2 finds is words 128000 to 128000 + 63999 of the edge-source argument as launched. -/
theorem W5_table (c : Dev nD) : V5 m ρ c main_v5
    = extractStridedSlice S64000 ![128000] (m ((c : Thread nD τ).loc main_arg1)) slices_S640000_S64000_128000 := by
  show W5 m ρ c (Proc.devRef .tc main_v5) = _
  unfold W5
  after_results
  all_goals rw [W4_args m ρ c main_arg1 (by decide)]
/-- So every word of it names a row of the node table when every word of the argument does. -/
theorem hok2 (hsrc : ∀ (c : Dev nD) (e : S640000.Idx), (m ((c : Thread nD τ).loc main_arg1) e).toNat < 50000)
    (c : Dev nD) (e : S64000.Idx) : (V5 m ρ c main_v5 e).toNat < 50000 := by
  rw [W5_table]; unfold extractStridedSlice; exact hsrc c _
/-- The admissible contents gather call 2's pipeline is pinned at: its table as the call finds it. -/
abbrev ga2 : (pcfg2 (F := F)).Adm := gadm2 (V5 m ρ) c0

/-- After gather call 2: its output array at what the write-backs fold to, every other buffer as the call found it. -/
def W6 (c : Dev nD) : Valuation τ sig (Elt F) :=
  Pipeline.withArrays spec2 c (W5 m ρ c) fun w => (gdat2 (V5 m ρ) (ga2 m ρ) c).arrAt w (cfg2 (ga2 m ρ)).N
theorem W6_arr (c : Dev nD) (w : Fin (cfg2 (ga2 m ρ)).W) :
    W6 m ρ c (Proc.devRef .tc (Pipeline.arrRef spec2 w)) = (gdat2 (V5 m ρ) (ga2 m ρ) c).arrAt w (cfg2 (ga2 m ρ)).N := by
  unfold W6; exact Pipeline.withArrays_arr spec2 (launch2 (F := F)).win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
/-- At the call's exit its array holds what the pipeline leaves and every other buffer what it held at entry. -/
theorem hF2 (c : Dev nD) (w : Fin (cfg2 (ga2 m ρ)).W) :
    (gdat2 (V5 m ρ) (ga2 m ρ) c).arrAt w (cfg2 (ga2 m ρ)).N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- The call's one array is no argument. -/
theorem W6_args (c : Dev nD) (r : Ref sig .tc) (hr : r ∈ argRefs) :
    W6 m ρ c (Proc.devRef .tc r) = m ((c : Thread nD τ).loc r) :=
  (W6_of_ne m ρ c r ((by decide : ∀ r ∈ argRefs, ∀ w, Pipeline.arrRef spec2 w ≠ r) r hr)).trans (W5_args m ρ c r hr)

/-! ## Items 6 and 7: the host stretch that cuts table 3 out of the edge-source argument, and gather call 3 -/

/-- After the host stretch before gather call 3 (the call's entry). -/
def W7 (c : Dev nD) : Valuation τ sig (Elt F) := StableHlo.after hostOps3 (W6 m ρ c)
theorem W7_of_ne (c : Dev nD) (r : Ref sig .tc) (h : r ∉ (hostOps3_W : List (Ref sig .tc))) :
    W7 m ρ c (Proc.devRef .tc r) = W6 m ρ c (Proc.devRef .tc r) := by
  unfold W7; exact StableHlo.after_of_writes_sub hostOps3 _ hostOps3_writes h
/-- The same read at the TensorCore's references. -/
abbrev V7 : (c : Dev nD) → (b : Ref sig .tc) → Buf (Elt F) ((c : Thread nD τ).loc b) := fun c b => W7 m ρ c b
/-- The stretch writes no argument. -/
theorem W7_args (c : Dev nD) (r : Ref sig .tc) (hr : r ∈ argRefs) :
    W7 m ρ c (Proc.devRef .tc r) = m ((c : Thread nD τ).loc r) :=
  (W7_of_ne m ρ c r ((by decide : ∀ r ∈ argRefs, r ∉ (hostOps3_W : List (Ref sig .tc))) r hr)).trans (W6_args m ρ c r hr)
/-- The table gather call 3 finds is words 192000 to 192000 + 63999 of the edge-source argument as launched. -/
theorem W7_table (c : Dev nD) : V7 m ρ c main_v7
    = extractStridedSlice S64000 ![192000] (m ((c : Thread nD τ).loc main_arg1)) slices_S640000_S64000_192000 := by
  show W7 m ρ c (Proc.devRef .tc main_v7) = _
  unfold W7
  after_results
  all_goals rw [W6_args m ρ c main_arg1 (by decide)]
/-- So every word of it names a row of the node table when every word of the argument does. -/
theorem hok3 (hsrc : ∀ (c : Dev nD) (e : S640000.Idx), (m ((c : Thread nD τ).loc main_arg1) e).toNat < 50000)
    (c : Dev nD) (e : S64000.Idx) : (V7 m ρ c main_v7 e).toNat < 50000 := by
  rw [W7_table]; unfold extractStridedSlice; exact hsrc c _
/-- The admissible contents gather call 3's pipeline is pinned at: its table as the call finds it. -/
abbrev ga3 : (pcfg3 (F := F)).Adm := gadm3 (V7 m ρ) c0

/-- After gather call 3: its output array at what the write-backs fold to, every other buffer as the call found it. -/
def W8 (c : Dev nD) : Valuation τ sig (Elt F) :=
  Pipeline.withArrays spec3 c (W7 m ρ c) fun w => (gdat3 (V7 m ρ) (ga3 m ρ) c).arrAt w (cfg3 (ga3 m ρ)).N
theorem W8_arr (c : Dev nD) (w : Fin (cfg3 (ga3 m ρ)).W) :
    W8 m ρ c (Proc.devRef .tc (Pipeline.arrRef spec3 w)) = (gdat3 (V7 m ρ) (ga3 m ρ) c).arrAt w (cfg3 (ga3 m ρ)).N := by
  unfold W8; exact Pipeline.withArrays_arr spec3 (launch3 (F := F)).win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
/-- At the call's exit its array holds what the pipeline leaves and every other buffer what it held at entry. -/
theorem hF3 (c : Dev nD) (w : Fin (cfg3 (ga3 m ρ)).W) :
    (gdat3 (V7 m ρ) (ga3 m ρ) c).arrAt w (cfg3 (ga3 m ρ)).N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- The call's one array is no argument. -/
theorem W8_args (c : Dev nD) (r : Ref sig .tc) (hr : r ∈ argRefs) :
    W8 m ρ c (Proc.devRef .tc r) = m ((c : Thread nD τ).loc r) :=
  (W8_of_ne m ρ c r ((by decide : ∀ r ∈ argRefs, ∀ w, Pipeline.arrRef spec3 w ≠ r) r hr)).trans (W7_args m ρ c r hr)

/-! ## Items 8 and 9: the host stretch that cuts table 4 out of the edge-source argument, and gather call 4 -/

/-- After the host stretch before gather call 4 (the call's entry). -/
def W9 (c : Dev nD) : Valuation τ sig (Elt F) := StableHlo.after hostOps4 (W8 m ρ c)
theorem W9_of_ne (c : Dev nD) (r : Ref sig .tc) (h : r ∉ (hostOps4_W : List (Ref sig .tc))) :
    W9 m ρ c (Proc.devRef .tc r) = W8 m ρ c (Proc.devRef .tc r) := by
  unfold W9; exact StableHlo.after_of_writes_sub hostOps4 _ hostOps4_writes h
/-- The same read at the TensorCore's references. -/
abbrev V9 : (c : Dev nD) → (b : Ref sig .tc) → Buf (Elt F) ((c : Thread nD τ).loc b) := fun c b => W9 m ρ c b
/-- The stretch writes no argument. -/
theorem W9_args (c : Dev nD) (r : Ref sig .tc) (hr : r ∈ argRefs) :
    W9 m ρ c (Proc.devRef .tc r) = m ((c : Thread nD τ).loc r) :=
  (W9_of_ne m ρ c r ((by decide : ∀ r ∈ argRefs, r ∉ (hostOps4_W : List (Ref sig .tc))) r hr)).trans (W8_args m ρ c r hr)
/-- The table gather call 4 finds is words 256000 to 256000 + 63999 of the edge-source argument as launched. -/
theorem W9_table (c : Dev nD) : V9 m ρ c main_v9
    = extractStridedSlice S64000 ![256000] (m ((c : Thread nD τ).loc main_arg1)) slices_S640000_S64000_256000 := by
  show W9 m ρ c (Proc.devRef .tc main_v9) = _
  unfold W9
  after_results
  all_goals rw [W8_args m ρ c main_arg1 (by decide)]
/-- So every word of it names a row of the node table when every word of the argument does. -/
theorem hok4 (hsrc : ∀ (c : Dev nD) (e : S640000.Idx), (m ((c : Thread nD τ).loc main_arg1) e).toNat < 50000)
    (c : Dev nD) (e : S64000.Idx) : (V9 m ρ c main_v9 e).toNat < 50000 := by
  rw [W9_table]; unfold extractStridedSlice; exact hsrc c _
/-- The admissible contents gather call 4's pipeline is pinned at: its table as the call finds it. -/
abbrev ga4 : (pcfg4 (F := F)).Adm := gadm4 (V9 m ρ) c0

/-- After gather call 4: its output array at what the write-backs fold to, every other buffer as the call found it. -/
def W10 (c : Dev nD) : Valuation τ sig (Elt F) :=
  Pipeline.withArrays spec4 c (W9 m ρ c) fun w => (gdat4 (V9 m ρ) (ga4 m ρ) c).arrAt w (cfg4 (ga4 m ρ)).N
theorem W10_arr (c : Dev nD) (w : Fin (cfg4 (ga4 m ρ)).W) :
    W10 m ρ c (Proc.devRef .tc (Pipeline.arrRef spec4 w)) = (gdat4 (V9 m ρ) (ga4 m ρ) c).arrAt w (cfg4 (ga4 m ρ)).N := by
  unfold W10; exact Pipeline.withArrays_arr spec4 (launch4 (F := F)).win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references. -/
abbrev V10 : (c : Dev nD) → (b : Ref sig .tc) → Buf (Elt F) ((c : Thread nD τ).loc b) := fun c b => W10 m ρ c b
/-- At the call's exit its array holds what the pipeline leaves and every other buffer what it held at entry. -/
theorem hF4 (c : Dev nD) (w : Fin (cfg4 (ga4 m ρ)).W) :
    (gdat4 (V9 m ρ) (ga4 m ρ) c).arrAt w (cfg4 (ga4 m ρ)).N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- The call's one array is no argument. -/
theorem W10_args (c : Dev nD) (r : Ref sig .tc) (hr : r ∈ argRefs) :
    W10 m ρ c (Proc.devRef .tc r) = m ((c : Thread nD τ).loc r) :=
  (W10_of_ne m ρ c r ((by decide : ∀ r ∈ argRefs, ∀ w, Pipeline.arrRef spec4 w ≠ r) r hr)).trans (W9_args m ρ c r hr)

/-! ## Items 10 and 11: the host stretch that cuts table 5 out of the edge-source argument, and gather call 5 -/

/-- After the host stretch before gather call 5 (the call's entry). -/
def W11 (c : Dev nD) : Valuation τ sig (Elt F) := StableHlo.after hostOps5 (W10 m ρ c)
theorem W11_of_ne (c : Dev nD) (r : Ref sig .tc) (h : r ∉ (hostOps5_W : List (Ref sig .tc))) :
    W11 m ρ c (Proc.devRef .tc r) = W10 m ρ c (Proc.devRef .tc r) := by
  unfold W11; exact StableHlo.after_of_writes_sub hostOps5 _ hostOps5_writes h
/-- The same read at the TensorCore's references. -/
abbrev V11 : (c : Dev nD) → (b : Ref sig .tc) → Buf (Elt F) ((c : Thread nD τ).loc b) := fun c b => W11 m ρ c b
/-- The stretch writes no argument. -/
theorem W11_args (c : Dev nD) (r : Ref sig .tc) (hr : r ∈ argRefs) :
    W11 m ρ c (Proc.devRef .tc r) = m ((c : Thread nD τ).loc r) :=
  (W11_of_ne m ρ c r ((by decide : ∀ r ∈ argRefs, r ∉ (hostOps5_W : List (Ref sig .tc))) r hr)).trans (W10_args m ρ c r hr)
/-- The table gather call 5 finds is words 320000 to 320000 + 63999 of the edge-source argument as launched. -/
theorem W11_table (c : Dev nD) : V11 m ρ c main_v11
    = extractStridedSlice S64000 ![320000] (m ((c : Thread nD τ).loc main_arg1)) slices_S640000_S64000_320000 := by
  show W11 m ρ c (Proc.devRef .tc main_v11) = _
  unfold W11
  after_results
  all_goals rw [W10_args m ρ c main_arg1 (by decide)]
/-- So every word of it names a row of the node table when every word of the argument does. -/
theorem hok5 (hsrc : ∀ (c : Dev nD) (e : S640000.Idx), (m ((c : Thread nD τ).loc main_arg1) e).toNat < 50000)
    (c : Dev nD) (e : S64000.Idx) : (V11 m ρ c main_v11 e).toNat < 50000 := by
  rw [W11_table]; unfold extractStridedSlice; exact hsrc c _
/-- The admissible contents gather call 5's pipeline is pinned at: its table as the call finds it. -/
abbrev ga5 : (pcfg5 (F := F)).Adm := gadm5 (V11 m ρ) c0

/-- After gather call 5: its output array at what the write-backs fold to, every other buffer as the call found it. -/
def W12 (c : Dev nD) : Valuation τ sig (Elt F) :=
  Pipeline.withArrays spec5 c (W11 m ρ c) fun w => (gdat5 (V11 m ρ) (ga5 m ρ) c).arrAt w (cfg5 (ga5 m ρ)).N
theorem W12_arr (c : Dev nD) (w : Fin (cfg5 (ga5 m ρ)).W) :
    W12 m ρ c (Proc.devRef .tc (Pipeline.arrRef spec5 w)) = (gdat5 (V11 m ρ) (ga5 m ρ) c).arrAt w (cfg5 (ga5 m ρ)).N := by
  unfold W12; exact Pipeline.withArrays_arr spec5 (launch5 (F := F)).win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references. -/
abbrev V12 : (c : Dev nD) → (b : Ref sig .tc) → Buf (Elt F) ((c : Thread nD τ).loc b) := fun c b => W12 m ρ c b
/-- At the call's exit its array holds what the pipeline leaves and every other buffer what it held at entry. -/
theorem hF5 (c : Dev nD) (w : Fin (cfg5 (ga5 m ρ)).W) :
    (gdat5 (V11 m ρ) (ga5 m ρ) c).arrAt w (cfg5 (ga5 m ρ)).N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- The call's one array is no argument. -/
theorem W12_args (c : Dev nD) (r : Ref sig .tc) (hr : r ∈ argRefs) :
    W12 m ρ c (Proc.devRef .tc r) = m ((c : Thread nD τ).loc r) :=
  (W12_of_ne m ρ c r ((by decide : ∀ r ∈ argRefs, ∀ w, Pipeline.arrRef spec5 w ≠ r) r hr)).trans (W11_args m ρ c r hr)

/-! ## Items 12 and 13: the host stretch that cuts table 6 out of the edge-source argument, and gather call 6 -/

/-- After the host stretch before gather call 6 (the call's entry). -/
def W13 (c : Dev nD) : Valuation τ sig (Elt F) := StableHlo.after hostOps6 (W12 m ρ c)
theorem W13_of_ne (c : Dev nD) (r : Ref sig .tc) (h : r ∉ (hostOps6_W : List (Ref sig .tc))) :
    W13 m ρ c (Proc.devRef .tc r) = W12 m ρ c (Proc.devRef .tc r) := by
  unfold W13; exact StableHlo.after_of_writes_sub hostOps6 _ hostOps6_writes h
/-- The same read at the TensorCore's references. -/
abbrev V13 : (c : Dev nD) → (b : Ref sig .tc) → Buf (Elt F) ((c : Thread nD τ).loc b) := fun c b => W13 m ρ c b
/-- The stretch writes no argument. -/
theorem W13_args (c : Dev nD) (r : Ref sig .tc) (hr : r ∈ argRefs) :
    W13 m ρ c (Proc.devRef .tc r) = m ((c : Thread nD τ).loc r) :=
  (W13_of_ne m ρ c r ((by decide : ∀ r ∈ argRefs, r ∉ (hostOps6_W : List (Ref sig .tc))) r hr)).trans (W12_args m ρ c r hr)
/-- The table gather call 6 finds is words 384000 to 384000 + 63999 of the edge-source argument as launched. -/
theorem W13_table (c : Dev nD) : V13 m ρ c main_v13
    = extractStridedSlice S64000 ![384000] (m ((c : Thread nD τ).loc main_arg1)) slices_S640000_S64000_384000 := by
  show W13 m ρ c (Proc.devRef .tc main_v13) = _
  unfold W13
  after_results
  all_goals rw [W12_args m ρ c main_arg1 (by decide)]
/-- So every word of it names a row of the node table when every word of the argument does. -/
theorem hok6 (hsrc : ∀ (c : Dev nD) (e : S640000.Idx), (m ((c : Thread nD τ).loc main_arg1) e).toNat < 50000)
    (c : Dev nD) (e : S64000.Idx) : (V13 m ρ c main_v13 e).toNat < 50000 := by
  rw [W13_table]; unfold extractStridedSlice; exact hsrc c _
/-- The admissible contents gather call 6's pipeline is pinned at: its table as the call finds it. -/
abbrev ga6 : (pcfg6 (F := F)).Adm := gadm6 (V13 m ρ) c0

/-- After gather call 6: its output array at what the write-backs fold to, every other buffer as the call found it. -/
def W14 (c : Dev nD) : Valuation τ sig (Elt F) :=
  Pipeline.withArrays spec6 c (W13 m ρ c) fun w => (gdat6 (V13 m ρ) (ga6 m ρ) c).arrAt w (cfg6 (ga6 m ρ)).N
theorem W14_arr (c : Dev nD) (w : Fin (cfg6 (ga6 m ρ)).W) :
    W14 m ρ c (Proc.devRef .tc (Pipeline.arrRef spec6 w)) = (gdat6 (V13 m ρ) (ga6 m ρ) c).arrAt w (cfg6 (ga6 m ρ)).N := by
  unfold W14; exact Pipeline.withArrays_arr spec6 (launch6 (F := F)).win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references. -/
abbrev V14 : (c : Dev nD) → (b : Ref sig .tc) → Buf (Elt F) ((c : Thread nD τ).loc b) := fun c b => W14 m ρ c b
/-- At the call's exit its array holds what the pipeline leaves and every other buffer what it held at entry. -/
theorem hF6 (c : Dev nD) (w : Fin (cfg6 (ga6 m ρ)).W) :
    (gdat6 (V13 m ρ) (ga6 m ρ) c).arrAt w (cfg6 (ga6 m ρ)).N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- The call's one array is no argument. -/
theorem W14_args (c : Dev nD) (r : Ref sig .tc) (hr : r ∈ argRefs) :
    W14 m ρ c (Proc.devRef .tc r) = m ((c : Thread nD τ).loc r) :=
  (W14_of_ne m ρ c r ((by decide : ∀ r ∈ argRefs, ∀ w, Pipeline.arrRef spec6 w ≠ r) r hr)).trans (W13_args m ρ c r hr)

/-! ## Items 14 and 15: the host stretch that cuts table 7 out of the edge-source argument, and gather call 7 -/

/-- After the host stretch before gather call 7 (the call's entry). -/
def W15 (c : Dev nD) : Valuation τ sig (Elt F) := StableHlo.after hostOps7 (W14 m ρ c)
theorem W15_of_ne (c : Dev nD) (r : Ref sig .tc) (h : r ∉ (hostOps7_W : List (Ref sig .tc))) :
    W15 m ρ c (Proc.devRef .tc r) = W14 m ρ c (Proc.devRef .tc r) := by
  unfold W15; exact StableHlo.after_of_writes_sub hostOps7 _ hostOps7_writes h
/-- The same read at the TensorCore's references. -/
abbrev V15 : (c : Dev nD) → (b : Ref sig .tc) → Buf (Elt F) ((c : Thread nD τ).loc b) := fun c b => W15 m ρ c b
/-- The stretch writes no argument. -/
theorem W15_args (c : Dev nD) (r : Ref sig .tc) (hr : r ∈ argRefs) :
    W15 m ρ c (Proc.devRef .tc r) = m ((c : Thread nD τ).loc r) :=
  (W15_of_ne m ρ c r ((by decide : ∀ r ∈ argRefs, r ∉ (hostOps7_W : List (Ref sig .tc))) r hr)).trans (W14_args m ρ c r hr)
/-- The table gather call 7 finds is words 448000 to 448000 + 63999 of the edge-source argument as launched. -/
theorem W15_table (c : Dev nD) : V15 m ρ c main_v15
    = extractStridedSlice S64000 ![448000] (m ((c : Thread nD τ).loc main_arg1)) slices_S640000_S64000_448000 := by
  show W15 m ρ c (Proc.devRef .tc main_v15) = _
  unfold W15
  after_results
  all_goals rw [W14_args m ρ c main_arg1 (by decide)]
/-- So every word of it names a row of the node table when every word of the argument does. -/
theorem hok7 (hsrc : ∀ (c : Dev nD) (e : S640000.Idx), (m ((c : Thread nD τ).loc main_arg1) e).toNat < 50000)
    (c : Dev nD) (e : S64000.Idx) : (V15 m ρ c main_v15 e).toNat < 50000 := by
  rw [W15_table]; unfold extractStridedSlice; exact hsrc c _
/-- The admissible contents gather call 7's pipeline is pinned at: its table as the call finds it. -/
abbrev ga7 : (pcfg7 (F := F)).Adm := gadm7 (V15 m ρ) c0

/-- After gather call 7: its output array at what the write-backs fold to, every other buffer as the call found it. -/
def W16 (c : Dev nD) : Valuation τ sig (Elt F) :=
  Pipeline.withArrays spec7 c (W15 m ρ c) fun w => (gdat7 (V15 m ρ) (ga7 m ρ) c).arrAt w (cfg7 (ga7 m ρ)).N
theorem W16_arr (c : Dev nD) (w : Fin (cfg7 (ga7 m ρ)).W) :
    W16 m ρ c (Proc.devRef .tc (Pipeline.arrRef spec7 w)) = (gdat7 (V15 m ρ) (ga7 m ρ) c).arrAt w (cfg7 (ga7 m ρ)).N := by
  unfold W16; exact Pipeline.withArrays_arr spec7 (launch7 (F := F)).win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references. -/
abbrev V16 : (c : Dev nD) → (b : Ref sig .tc) → Buf (Elt F) ((c : Thread nD τ).loc b) := fun c b => W16 m ρ c b
/-- At the call's exit its array holds what the pipeline leaves and every other buffer what it held at entry. -/
theorem hF7 (c : Dev nD) (w : Fin (cfg7 (ga7 m ρ)).W) :
    (gdat7 (V15 m ρ) (ga7 m ρ) c).arrAt w (cfg7 (ga7 m ρ)).N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- The call's one array is no argument. -/
theorem W16_args (c : Dev nD) (r : Ref sig .tc) (hr : r ∈ argRefs) :
    W16 m ρ c (Proc.devRef .tc r) = m ((c : Thread nD τ).loc r) :=
  (W16_of_ne m ρ c r ((by decide : ∀ r ∈ argRefs, ∀ w, Pipeline.arrRef spec7 w ≠ r) r hr)).trans (W15_args m ρ c r hr)

/-! ## Items 16 and 17: the host stretch that cuts table 8 out of the edge-source argument, and gather call 8 -/

/-- After the host stretch before gather call 8 (the call's entry). -/
def W17 (c : Dev nD) : Valuation τ sig (Elt F) := StableHlo.after hostOps8 (W16 m ρ c)
theorem W17_of_ne (c : Dev nD) (r : Ref sig .tc) (h : r ∉ (hostOps8_W : List (Ref sig .tc))) :
    W17 m ρ c (Proc.devRef .tc r) = W16 m ρ c (Proc.devRef .tc r) := by
  unfold W17; exact StableHlo.after_of_writes_sub hostOps8 _ hostOps8_writes h
/-- The same read at the TensorCore's references. -/
abbrev V17 : (c : Dev nD) → (b : Ref sig .tc) → Buf (Elt F) ((c : Thread nD τ).loc b) := fun c b => W17 m ρ c b
/-- The stretch writes no argument. -/
theorem W17_args (c : Dev nD) (r : Ref sig .tc) (hr : r ∈ argRefs) :
    W17 m ρ c (Proc.devRef .tc r) = m ((c : Thread nD τ).loc r) :=
  (W17_of_ne m ρ c r ((by decide : ∀ r ∈ argRefs, r ∉ (hostOps8_W : List (Ref sig .tc))) r hr)).trans (W16_args m ρ c r hr)
/-- The table gather call 8 finds is words 512000 to 512000 + 63999 of the edge-source argument as launched. -/
theorem W17_table (c : Dev nD) : V17 m ρ c main_v17
    = extractStridedSlice S64000 ![512000] (m ((c : Thread nD τ).loc main_arg1)) slices_S640000_S64000_512000 := by
  show W17 m ρ c (Proc.devRef .tc main_v17) = _
  unfold W17
  after_results
  all_goals rw [W16_args m ρ c main_arg1 (by decide)]
/-- So every word of it names a row of the node table when every word of the argument does. -/
theorem hok8 (hsrc : ∀ (c : Dev nD) (e : S640000.Idx), (m ((c : Thread nD τ).loc main_arg1) e).toNat < 50000)
    (c : Dev nD) (e : S64000.Idx) : (V17 m ρ c main_v17 e).toNat < 50000 := by
  rw [W17_table]; unfold extractStridedSlice; exact hsrc c _
/-- The admissible contents gather call 8's pipeline is pinned at: its table as the call finds it. -/
abbrev ga8 : (pcfg8 (F := F)).Adm := gadm8 (V17 m ρ) c0

/-- After gather call 8: its output array at what the write-backs fold to, every other buffer as the call found it. -/
def W18 (c : Dev nD) : Valuation τ sig (Elt F) :=
  Pipeline.withArrays spec8 c (W17 m ρ c) fun w => (gdat8 (V17 m ρ) (ga8 m ρ) c).arrAt w (cfg8 (ga8 m ρ)).N
theorem W18_arr (c : Dev nD) (w : Fin (cfg8 (ga8 m ρ)).W) :
    W18 m ρ c (Proc.devRef .tc (Pipeline.arrRef spec8 w)) = (gdat8 (V17 m ρ) (ga8 m ρ) c).arrAt w (cfg8 (ga8 m ρ)).N := by
  unfold W18; exact Pipeline.withArrays_arr spec8 (launch8 (F := F)).win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references. -/
abbrev V18 : (c : Dev nD) → (b : Ref sig .tc) → Buf (Elt F) ((c : Thread nD τ).loc b) := fun c b => W18 m ρ c b
/-- At the call's exit its array holds what the pipeline leaves and every other buffer what it held at entry. -/
theorem hF8 (c : Dev nD) (w : Fin (cfg8 (ga8 m ρ)).W) :
    (gdat8 (V17 m ρ) (ga8 m ρ) c).arrAt w (cfg8 (ga8 m ρ)).N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- The call's one array is no argument. -/
theorem W18_args (c : Dev nD) (r : Ref sig .tc) (hr : r ∈ argRefs) :
    W18 m ρ c (Proc.devRef .tc r) = m ((c : Thread nD τ).loc r) :=
  (W18_of_ne m ρ c r ((by decide : ∀ r ∈ argRefs, ∀ w, Pipeline.arrRef spec8 w ≠ r) r hr)).trans (W17_args m ρ c r hr)

/-! ## Items 18 and 19: the host stretch that cuts table 9 out of the edge-source argument, and gather call 9 -/

/-- After the host stretch before gather call 9 (the call's entry). -/
def W19 (c : Dev nD) : Valuation τ sig (Elt F) := StableHlo.after hostOps9 (W18 m ρ c)
theorem W19_of_ne (c : Dev nD) (r : Ref sig .tc) (h : r ∉ (hostOps9_W : List (Ref sig .tc))) :
    W19 m ρ c (Proc.devRef .tc r) = W18 m ρ c (Proc.devRef .tc r) := by
  unfold W19; exact StableHlo.after_of_writes_sub hostOps9 _ hostOps9_writes h
/-- The same read at the TensorCore's references. -/
abbrev V19 : (c : Dev nD) → (b : Ref sig .tc) → Buf (Elt F) ((c : Thread nD τ).loc b) := fun c b => W19 m ρ c b
/-- The stretch writes no argument. -/
theorem W19_args (c : Dev nD) (r : Ref sig .tc) (hr : r ∈ argRefs) :
    W19 m ρ c (Proc.devRef .tc r) = m ((c : Thread nD τ).loc r) :=
  (W19_of_ne m ρ c r ((by decide : ∀ r ∈ argRefs, r ∉ (hostOps9_W : List (Ref sig .tc))) r hr)).trans (W18_args m ρ c r hr)
/-- The table gather call 9 finds is words 576000 to 576000 + 63999 of the edge-source argument as launched. -/
theorem W19_table (c : Dev nD) : V19 m ρ c main_v19
    = extractStridedSlice S64000 ![576000] (m ((c : Thread nD τ).loc main_arg1)) slices_S640000_S64000_576000 := by
  show W19 m ρ c (Proc.devRef .tc main_v19) = _
  unfold W19
  after_results
  all_goals rw [W18_args m ρ c main_arg1 (by decide)]
/-- So every word of it names a row of the node table when every word of the argument does. -/
theorem hok9 (hsrc : ∀ (c : Dev nD) (e : S640000.Idx), (m ((c : Thread nD τ).loc main_arg1) e).toNat < 50000)
    (c : Dev nD) (e : S64000.Idx) : (V19 m ρ c main_v19 e).toNat < 50000 := by
  rw [W19_table]; unfold extractStridedSlice; exact hsrc c _
/-- The admissible contents gather call 9's pipeline is pinned at: its table as the call finds it. -/
abbrev ga9 : (pcfg9 (F := F)).Adm := gadm9 (V19 m ρ) c0

/-- After gather call 9: its output array at what the write-backs fold to, every other buffer as the call found it. -/
def W20 (c : Dev nD) : Valuation τ sig (Elt F) :=
  Pipeline.withArrays spec9 c (W19 m ρ c) fun w => (gdat9 (V19 m ρ) (ga9 m ρ) c).arrAt w (cfg9 (ga9 m ρ)).N
theorem W20_arr (c : Dev nD) (w : Fin (cfg9 (ga9 m ρ)).W) :
    W20 m ρ c (Proc.devRef .tc (Pipeline.arrRef spec9 w)) = (gdat9 (V19 m ρ) (ga9 m ρ) c).arrAt w (cfg9 (ga9 m ρ)).N := by
  unfold W20; exact Pipeline.withArrays_arr spec9 (launch9 (F := F)).win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references. -/
abbrev V20 : (c : Dev nD) → (b : Ref sig .tc) → Buf (Elt F) ((c : Thread nD τ).loc b) := fun c b => W20 m ρ c b
/-- At the call's exit its array holds what the pipeline leaves and every other buffer what it held at entry. -/
theorem hF9 (c : Dev nD) (w : Fin (cfg9 (ga9 m ρ)).W) :
    (gdat9 (V19 m ρ) (ga9 m ρ) c).arrAt w (cfg9 (ga9 m ρ)).N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- The call's one array is no argument. -/
theorem W20_args (c : Dev nD) (r : Ref sig .tc) (hr : r ∈ argRefs) :
    W20 m ρ c (Proc.devRef .tc r) = m ((c : Thread nD τ).loc r) :=
  (W20_of_ne m ρ c r ((by decide : ∀ r ∈ argRefs, ∀ w, Pipeline.arrRef spec9 w ≠ r) r hr)).trans (W19_args m ρ c r hr)

/-! ## Item 20: the host stretch between the last gather call and the projection call

It concatenates the ten gathered arrays, flattens them, and scatter-adds their rows into a zero array by the
edge-destination argument. -/

/-- After that stretch (the projection call's entry). -/
def W21 (c : Dev nD) : Valuation τ sig (Elt F) := StableHlo.after hostOps10 (W20 m ρ c)
theorem W21_of_ne (c : Dev nD) (r : Ref sig .tc) (h : r ∉ (hostOps10_W : List (Ref sig .tc))) :
    W21 m ρ c (Proc.devRef .tc r) = W20 m ρ c (Proc.devRef .tc r) := by
  unfold W21; exact StableHlo.after_of_writes_sub hostOps10 _ hostOps10_writes h
/-- The same read at the TensorCore's references. -/
abbrev V21 : (c : Dev nD) → (b : Ref sig .tc) → Buf (Elt F) ((c : Thread nD τ).loc b) := fun c b => W21 m ρ c b
/-- The stretch writes no argument. -/
theorem W21_args (c : Dev nD) (r : Ref sig .tc) (hr : r ∈ argRefs) :
    W21 m ρ c (Proc.devRef .tc r) = m ((c : Thread nD τ).loc r) :=
  (W21_of_ne m ρ c r ((by decide : ∀ r ∈ argRefs, r ∉ (hostOps10_W : List (Ref sig .tc))) r hr)).trans (W20_args m ρ c r hr)

/-! ## Item 21: the projection call -/

/-- After the projection call: its arrays at what the pipeline leaves (the three inputs as found, the output's
    write-backs folded), every other buffer as the call found it. The last contents. -/
def W22 (c : Dev nD) : Valuation τ sig (Elt F) :=
  Pipeline.withArrays spec10 c (W21 m ρ c) fun w => (pdat (V21 m ρ) c).arrAt w cfg10.N
theorem W22_arr (c : Dev nD) (w : Fin cfg10.W) :
    W22 m ρ c (Proc.devRef .tc (Pipeline.arrRef spec10 w)) = (pdat (V21 m ρ) c).arrAt w cfg10.N := by
  unfold W22; exact Pipeline.withArrays_arr spec10 (launch10 (F := F)).win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
/-- The same read at the TensorCore's references. -/
abbrev V22 : (c : Dev nD) → (b : Ref sig .tc) → Buf (Elt F) ((c : Thread nD τ).loc b) := fun c b => W22 m ρ c b
theorem hF10 (c : Dev nD) (w : Fin cfg10.W) : (pdat (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-! ### The arguments end as launched

No host stretch writes an argument and no gather call has one among its arrays; the projection call reads the weight
and the bias through input windows, whose arrays no write-back touches. -/

theorem W22_main_arg0 (c : Dev nD) : W22 m ρ c (Proc.devRef .tc main_arg0) = m ((c : Thread nD τ).loc main_arg0) :=
  (W22_of_ne m ρ c main_arg0 (by decide)).trans (W21_args m ρ c main_arg0 (by decide))
theorem W22_main_arg1 (c : Dev nD) : W22 m ρ c (Proc.devRef .tc main_arg1) = m ((c : Thread nD τ).loc main_arg1) :=
  (W22_of_ne m ρ c main_arg1 (by decide)).trans (W21_args m ρ c main_arg1 (by decide))
theorem W22_main_arg2 (c : Dev nD) : W22 m ρ c (Proc.devRef .tc main_arg2) = m ((c : Thread nD τ).loc main_arg2) :=
  (W22_of_ne m ρ c main_arg2 (by decide)).trans (W21_args m ρ c main_arg2 (by decide))
theorem W22_main_arg3 (c : Dev nD) : W22 m ρ c (Proc.devRef .tc main_arg3) = m ((c : Thread nD τ).loc main_arg3) :=
  (W22_arr m ρ c 1).trans ((((pdat (V21 m ρ) c).arrAt_in 1 rfl _).trans (pdat_A (V21 m ρ) c 1)).trans (W21_args m ρ c main_arg3 (by decide)))
theorem W22_main_arg4 (c : Dev nD) : W22 m ρ c (Proc.devRef .tc main_arg4) = m ((c : Thread nD τ).loc main_arg4) :=
  (W22_arr m ρ c 2).trans ((((pdat (V21 m ρ) c).arrAt_in 2 rfl _).trans (pdat_A (V21 m ρ) c 2)).trans (W21_args m ρ c main_arg4 (by decide)))

/-! # The proof data family and the thread state -/

/-- The admissible contents every pipeline is pinned at, fixed before the run: gather call `k`'s table as that call
    will find it (chunk `k` of the edge-source argument, `W⟨2k+1⟩_table`); the projection call has no table. -/
def adm : (p : Fin 11) → (pcfgs (F := F) p).Adm
  | ⟨0, _⟩ => ga0 m ρ
  | ⟨1, _⟩ => ga1 m ρ
  | ⟨2, _⟩ => ga2 m ρ
  | ⟨3, _⟩ => ga3 m ρ
  | ⟨4, _⟩ => ga4 m ρ
  | ⟨5, _⟩ => ga5 m ρ
  | ⟨6, _⟩ => ga6 m ρ
  | ⟨7, _⟩ => ga7 m ρ
  | ⟨8, _⟩ => ga8 m ρ
  | ⟨9, _⟩ => ga9 m ρ
  | ⟨10, _⟩ => cfg10.toPCfg_adm
  | ⟨_ + 11, h⟩ => absurd h (Nat.not_lt.2 (Nat.le_add_left _ _))

/-- Every pipeline's proof data, each at its call's entry contents: a literal match, so that the pinned configuration at a
    numeral reduces to the printed one. -/
def pdats : (p : Fin 11) → (c : Dev nD) → Dat τ (Elt F) Unit ℕ (Pipeline.UD sig nD τ) ℕ (Pipeline.pin (pcfgs (F := F)) (adm m ρ) p) c
  | ⟨0, _⟩ => fun c => gdat0 (V1 m ρ) (ga0 m ρ) c
  | ⟨1, _⟩ => fun c => gdat1 (V3 m ρ) (ga1 m ρ) c
  | ⟨2, _⟩ => fun c => gdat2 (V5 m ρ) (ga2 m ρ) c
  | ⟨3, _⟩ => fun c => gdat3 (V7 m ρ) (ga3 m ρ) c
  | ⟨4, _⟩ => fun c => gdat4 (V9 m ρ) (ga4 m ρ) c
  | ⟨5, _⟩ => fun c => gdat5 (V11 m ρ) (ga5 m ρ) c
  | ⟨6, _⟩ => fun c => gdat6 (V13 m ρ) (ga6 m ρ) c
  | ⟨7, _⟩ => fun c => gdat7 (V15 m ρ) (ga7 m ρ) c
  | ⟨8, _⟩ => fun c => gdat8 (V17 m ρ) (ga8 m ρ) c
  | ⟨9, _⟩ => fun c => gdat9 (V19 m ρ) (ga9 m ρ) c
  | ⟨10, _⟩ => fun c => pdat (V21 m ρ) c
  | ⟨_ + 11, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What a core holds beside its unscoped buffers between two items: the generator register at some state and its
    `owes` at nothing. -/
abbrev R (c : Dev nD) : sProp 𝕄 := iprop((∃ r, prngReg c r) ∗ ∃ W, owes (c : Thread nD τ) (0 : CellTallies nD τ sig Unit) W)
/-- The thread state between two items, at contents `W`: every unscoped buffer whole at `W c`, and `R c`. -/
abbrev T (W : Dev nD → Valuation τ sig (Elt F)) (c : Dev nD) : sProp 𝕄 :=
  iprop(StableHlo.held (c : Thread nD τ) (Pipeline.ucRefs τ sig) (W c) ∗ R c)
/-- A host stretch as a segment over the unscoped buffers from the contents `W` (it leaves them at
    `StableHlo.after ops (W c)`), `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `W22`, the generator register at some state. -/
abbrev Tₙ (c : Dev nD) : sProp 𝕄 := iprop(StableHlo.held (c : Thread nD τ) (Pipeline.ucRefs τ sig) (W22 m ρ c) ∗ ∃ r, prngReg c r)

end Cert.Kernel.Hand

end
-- ==== Proof.KRunReg0.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 0 as a segment of @main

Entered from every unscoped buffer whole at `W1`, left at `W2`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 0 reads without a window, one by one. -/
theorem gH0_split (Φ : Ref sig .tc → sProp 𝕄) : bigSep gH0 Φ = iprop(Φ main_v0 ∗ Φ main_v1) := by
  unfold gH0; rw [BI.bigSep_insert (by decide), BI.bigSep_singleton]; rfl

/-- The prefetched table of gather call 0 at the pinned contents is its chunk of the edge-source table as the call finds
    it (there is one core, so the core the contents were read on is this one). -/
theorem prefHeld_eq0 (c : Dev nD) :
    (Pipeline.prefHeld (pcfgs (F := F) (0 : Fin 11)).pre c (fun _ => fullShare) (adm m ρ (0 : Fin 11)).1 : sProp 𝕄)
      = iprop(((c : Thread nD τ).loc main_v1) ↦{fullShare} V1 m ρ c main_v1) := by
  obtain rfl : c = c0 := Subsingleton.elim _ _
  unfold Pipeline.prefHeld
  exact bigSep_W0 _

-- a library lemma stated over the pinned configuration unifies with the printed one only when unification may unfold
-- plain definitions in a metavariable's type
set_option backward.isDefEq.respectTransparency.types false in
/-- Gather call 0 (custom_call 0) over the thread state. -/
def reg0 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (0 : Fin 11) where
  win := (launch0 (F := F)).win.to₀
  block_pos := (launch0 (F := F)).block_pos
  stage_whole := (launch0 (F := F)).stage_whole
  K := Fin 16
  osem := gsem0
  ho := gsemFacts0
  hbody c := (gather_obligation0 (V1 m ρ) (ga0 m ρ) c (hok0 m ρ hsrc c)).loose
  hwaits := Pipeline.hwaits_of_owed_zero _ _ _ _ L lv (0 : Fin 11) fun _ _ => rfl
  pre c := T (W1 m ρ) c
  post c := T (W2 m ρ) c
  X c := iprop((∃ r, prngReg c r)
    ∗ Pipeline.ownSems0 (Ix := Unit) (Name := ℕ) (U := Pipeline.UD sig nD τ) (Lvl := ℕ) (Val := Elt F) (τ := τ) gsem0 c
    ∗ (((c : Thread nD τ).loc main_v0) ↦{fullShare} V1 m ρ c main_v0))
  Y c := iprop((∃ r, prngReg c r) ∗ bigSep gH0 fun b => ((c : Thread nD τ).loc b) ↦{fullShare} V1 m ρ c b)
  Z c := bigSep (Pipeline.restRefs sig spec0 \ gH0) fun b => ((c : Thread nD τ).loc b) ↦{fullShare} V1 m ρ c b
  hentry c := by
    have hsplit := Pipeline.arrays_of_unscopedBufs (p := (0 : Fin 11)) (pcfgs (F := F)) (adm m ρ) (pdats m ρ) (launch0 (F := F)).win (launch0 (F := F)).arr_whole c
      ((pdats m ρ (0 : Fin 11) c).share_full fun _ => rfl) (V1 m ρ c) fun _ => rfl
    rw [Pipeline.unscopedBufs_held] at hsplit
    have hH := Pipeline.unscopedRest_sdiff spec0 gH0 gH0_sub c (V1 m ρ c)
    rw [prefHeld_eq0 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH0_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (0 : Fin 11) c).Φ 0 = Pipeline.ΦD gsem0 spec0 gH0 (V1 m ρ) c from rfl, Pipeline.ΦD_eq, prefHeld_eq0 m ρ c, gH0_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (0 : Fin 11) c).Φ (Fin.last _) = Pipeline.ΦD gsem0 spec0 gH0 (V1 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (0 : Fin 11)) (pcfgs (F := F)) (adm m ρ) (Ix := Unit) (Name := ℕ) (U := Pipeline.UD sig nD τ) (Lvl := ℕ)
      (launch0 (F := F)).win (launch0 (F := F)).arr_whole c (pdats m ρ) ((pdats m ρ (0 : Fin 11) c).share_full fun _ => rfl)
      (V1 m ρ c) (V2 m ρ c) ((pdats m ρ (0 : Fin 11) c).arrAt · (cfg0 (ga0 m ρ)).N) (hF0 m ρ c) (hrest0 m ρ c)
    rw [Pipeline.unscopedBufs_held] at hjoin
    have hH := Pipeline.unscopedRest_sdiff spec0 gH0 gH0_sub c (V1 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg1.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 1 as a segment of @main

Entered from every unscoped buffer whole at `W3`, left at `W4`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 1 reads without a window, one by one. -/
theorem gH1_split (Φ : Ref sig .tc → sProp 𝕄) : bigSep gH1 Φ = iprop(Φ main_v0 ∗ Φ main_v3) := by
  unfold gH1; rw [BI.bigSep_insert (by decide), BI.bigSep_singleton]; rfl

/-- The prefetched table of gather call 1 at the pinned contents is its chunk of the edge-source table as the call finds
    it (there is one core, so the core the contents were read on is this one). -/
theorem prefHeld_eq1 (c : Dev nD) :
    (Pipeline.prefHeld (pcfgs (F := F) (1 : Fin 11)).pre c (fun _ => fullShare) (adm m ρ (1 : Fin 11)).1 : sProp 𝕄)
      = iprop(((c : Thread nD τ).loc main_v3) ↦{fullShare} V3 m ρ c main_v3) := by
  obtain rfl : c = c0 := Subsingleton.elim _ _
  unfold Pipeline.prefHeld
  exact bigSep_W1 _

-- a library lemma stated over the pinned configuration unifies with the printed one only when unification may unfold
-- plain definitions in a metavariable's type
set_option backward.isDefEq.respectTransparency.types false in
/-- Gather call 1 (custom_call 1) over the thread state. -/
def reg1 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (1 : Fin 11) where
  win := (launch1 (F := F)).win.to₀
  block_pos := (launch1 (F := F)).block_pos
  stage_whole := (launch1 (F := F)).stage_whole
  K := Fin 16
  osem := gsem1
  ho := gsemFacts1
  hbody c := (gather_obligation1 (V3 m ρ) (ga1 m ρ) c (hok1 m ρ hsrc c)).loose
  hwaits := Pipeline.hwaits_of_owed_zero _ _ _ _ L lv (1 : Fin 11) fun _ _ => rfl
  pre c := T (W3 m ρ) c
  post c := T (W4 m ρ) c
  X c := iprop((∃ r, prngReg c r)
    ∗ Pipeline.ownSems0 (Ix := Unit) (Name := ℕ) (U := Pipeline.UD sig nD τ) (Lvl := ℕ) (Val := Elt F) (τ := τ) gsem1 c
    ∗ (((c : Thread nD τ).loc main_v0) ↦{fullShare} V3 m ρ c main_v0))
  Y c := iprop((∃ r, prngReg c r) ∗ bigSep gH1 fun b => ((c : Thread nD τ).loc b) ↦{fullShare} V3 m ρ c b)
  Z c := bigSep (Pipeline.restRefs sig spec1 \ gH1) fun b => ((c : Thread nD τ).loc b) ↦{fullShare} V3 m ρ c b
  hentry c := by
    have hsplit := Pipeline.arrays_of_unscopedBufs (p := (1 : Fin 11)) (pcfgs (F := F)) (adm m ρ) (pdats m ρ) (launch1 (F := F)).win (launch1 (F := F)).arr_whole c
      ((pdats m ρ (1 : Fin 11) c).share_full fun _ => rfl) (V3 m ρ c) fun _ => rfl
    rw [Pipeline.unscopedBufs_held] at hsplit
    have hH := Pipeline.unscopedRest_sdiff spec1 gH1 gH1_sub c (V3 m ρ c)
    rw [prefHeld_eq1 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH1_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (1 : Fin 11) c).Φ 0 = Pipeline.ΦD gsem1 spec1 gH1 (V3 m ρ) c from rfl, Pipeline.ΦD_eq, prefHeld_eq1 m ρ c, gH1_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (1 : Fin 11) c).Φ (Fin.last _) = Pipeline.ΦD gsem1 spec1 gH1 (V3 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (1 : Fin 11)) (pcfgs (F := F)) (adm m ρ) (Ix := Unit) (Name := ℕ) (U := Pipeline.UD sig nD τ) (Lvl := ℕ)
      (launch1 (F := F)).win (launch1 (F := F)).arr_whole c (pdats m ρ) ((pdats m ρ (1 : Fin 11) c).share_full fun _ => rfl)
      (V3 m ρ c) (V4 m ρ c) ((pdats m ρ (1 : Fin 11) c).arrAt · (cfg1 (ga1 m ρ)).N) (hF1 m ρ c) (hrest1 m ρ c)
    rw [Pipeline.unscopedBufs_held] at hjoin
    have hH := Pipeline.unscopedRest_sdiff spec1 gH1 gH1_sub c (V3 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg2.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 2 as a segment of @main

Entered from every unscoped buffer whole at `W5`, left at `W6`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 2 reads without a window, one by one. -/
theorem gH2_split (Φ : Ref sig .tc → sProp 𝕄) : bigSep gH2 Φ = iprop(Φ main_v0 ∗ Φ main_v5) := by
  unfold gH2; rw [BI.bigSep_insert (by decide), BI.bigSep_singleton]; rfl

/-- The prefetched table of gather call 2 at the pinned contents is its chunk of the edge-source table as the call finds
    it (there is one core, so the core the contents were read on is this one). -/
theorem prefHeld_eq2 (c : Dev nD) :
    (Pipeline.prefHeld (pcfgs (F := F) (2 : Fin 11)).pre c (fun _ => fullShare) (adm m ρ (2 : Fin 11)).1 : sProp 𝕄)
      = iprop(((c : Thread nD τ).loc main_v5) ↦{fullShare} V5 m ρ c main_v5) := by
  obtain rfl : c = c0 := Subsingleton.elim _ _
  unfold Pipeline.prefHeld
  exact bigSep_W2 _

-- a library lemma stated over the pinned configuration unifies with the printed one only when unification may unfold
-- plain definitions in a metavariable's type
set_option backward.isDefEq.respectTransparency.types false in
/-- Gather call 2 (custom_call 2) over the thread state. -/
def reg2 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (2 : Fin 11) where
  win := (launch2 (F := F)).win.to₀
  block_pos := (launch2 (F := F)).block_pos
  stage_whole := (launch2 (F := F)).stage_whole
  K := Fin 16
  osem := gsem2
  ho := gsemFacts2
  hbody c := (gather_obligation2 (V5 m ρ) (ga2 m ρ) c (hok2 m ρ hsrc c)).loose
  hwaits := Pipeline.hwaits_of_owed_zero _ _ _ _ L lv (2 : Fin 11) fun _ _ => rfl
  pre c := T (W5 m ρ) c
  post c := T (W6 m ρ) c
  X c := iprop((∃ r, prngReg c r)
    ∗ Pipeline.ownSems0 (Ix := Unit) (Name := ℕ) (U := Pipeline.UD sig nD τ) (Lvl := ℕ) (Val := Elt F) (τ := τ) gsem2 c
    ∗ (((c : Thread nD τ).loc main_v0) ↦{fullShare} V5 m ρ c main_v0))
  Y c := iprop((∃ r, prngReg c r) ∗ bigSep gH2 fun b => ((c : Thread nD τ).loc b) ↦{fullShare} V5 m ρ c b)
  Z c := bigSep (Pipeline.restRefs sig spec2 \ gH2) fun b => ((c : Thread nD τ).loc b) ↦{fullShare} V5 m ρ c b
  hentry c := by
    have hsplit := Pipeline.arrays_of_unscopedBufs (p := (2 : Fin 11)) (pcfgs (F := F)) (adm m ρ) (pdats m ρ) (launch2 (F := F)).win (launch2 (F := F)).arr_whole c
      ((pdats m ρ (2 : Fin 11) c).share_full fun _ => rfl) (V5 m ρ c) fun _ => rfl
    rw [Pipeline.unscopedBufs_held] at hsplit
    have hH := Pipeline.unscopedRest_sdiff spec2 gH2 gH2_sub c (V5 m ρ c)
    rw [prefHeld_eq2 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH2_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (2 : Fin 11) c).Φ 0 = Pipeline.ΦD gsem2 spec2 gH2 (V5 m ρ) c from rfl, Pipeline.ΦD_eq, prefHeld_eq2 m ρ c, gH2_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (2 : Fin 11) c).Φ (Fin.last _) = Pipeline.ΦD gsem2 spec2 gH2 (V5 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (2 : Fin 11)) (pcfgs (F := F)) (adm m ρ) (Ix := Unit) (Name := ℕ) (U := Pipeline.UD sig nD τ) (Lvl := ℕ)
      (launch2 (F := F)).win (launch2 (F := F)).arr_whole c (pdats m ρ) ((pdats m ρ (2 : Fin 11) c).share_full fun _ => rfl)
      (V5 m ρ c) (V6 m ρ c) ((pdats m ρ (2 : Fin 11) c).arrAt · (cfg2 (ga2 m ρ)).N) (hF2 m ρ c) (hrest2 m ρ c)
    rw [Pipeline.unscopedBufs_held] at hjoin
    have hH := Pipeline.unscopedRest_sdiff spec2 gH2 gH2_sub c (V5 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg3.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 3 as a segment of @main

Entered from every unscoped buffer whole at `W7`, left at `W8`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 3 reads without a window, one by one. -/
theorem gH3_split (Φ : Ref sig .tc → sProp 𝕄) : bigSep gH3 Φ = iprop(Φ main_v0 ∗ Φ main_v7) := by
  unfold gH3; rw [BI.bigSep_insert (by decide), BI.bigSep_singleton]; rfl

/-- The prefetched table of gather call 3 at the pinned contents is its chunk of the edge-source table as the call finds
    it (there is one core, so the core the contents were read on is this one). -/
theorem prefHeld_eq3 (c : Dev nD) :
    (Pipeline.prefHeld (pcfgs (F := F) (3 : Fin 11)).pre c (fun _ => fullShare) (adm m ρ (3 : Fin 11)).1 : sProp 𝕄)
      = iprop(((c : Thread nD τ).loc main_v7) ↦{fullShare} V7 m ρ c main_v7) := by
  obtain rfl : c = c0 := Subsingleton.elim _ _
  unfold Pipeline.prefHeld
  exact bigSep_W3 _

-- a library lemma stated over the pinned configuration unifies with the printed one only when unification may unfold
-- plain definitions in a metavariable's type
set_option backward.isDefEq.respectTransparency.types false in
/-- Gather call 3 (custom_call 3) over the thread state. -/
def reg3 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (3 : Fin 11) where
  win := (launch3 (F := F)).win.to₀
  block_pos := (launch3 (F := F)).block_pos
  stage_whole := (launch3 (F := F)).stage_whole
  K := Fin 16
  osem := gsem3
  ho := gsemFacts3
  hbody c := (gather_obligation3 (V7 m ρ) (ga3 m ρ) c (hok3 m ρ hsrc c)).loose
  hwaits := Pipeline.hwaits_of_owed_zero _ _ _ _ L lv (3 : Fin 11) fun _ _ => rfl
  pre c := T (W7 m ρ) c
  post c := T (W8 m ρ) c
  X c := iprop((∃ r, prngReg c r)
    ∗ Pipeline.ownSems0 (Ix := Unit) (Name := ℕ) (U := Pipeline.UD sig nD τ) (Lvl := ℕ) (Val := Elt F) (τ := τ) gsem3 c
    ∗ (((c : Thread nD τ).loc main_v0) ↦{fullShare} V7 m ρ c main_v0))
  Y c := iprop((∃ r, prngReg c r) ∗ bigSep gH3 fun b => ((c : Thread nD τ).loc b) ↦{fullShare} V7 m ρ c b)
  Z c := bigSep (Pipeline.restRefs sig spec3 \ gH3) fun b => ((c : Thread nD τ).loc b) ↦{fullShare} V7 m ρ c b
  hentry c := by
    have hsplit := Pipeline.arrays_of_unscopedBufs (p := (3 : Fin 11)) (pcfgs (F := F)) (adm m ρ) (pdats m ρ) (launch3 (F := F)).win (launch3 (F := F)).arr_whole c
      ((pdats m ρ (3 : Fin 11) c).share_full fun _ => rfl) (V7 m ρ c) fun _ => rfl
    rw [Pipeline.unscopedBufs_held] at hsplit
    have hH := Pipeline.unscopedRest_sdiff spec3 gH3 gH3_sub c (V7 m ρ c)
    rw [prefHeld_eq3 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH3_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (3 : Fin 11) c).Φ 0 = Pipeline.ΦD gsem3 spec3 gH3 (V7 m ρ) c from rfl, Pipeline.ΦD_eq, prefHeld_eq3 m ρ c, gH3_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (3 : Fin 11) c).Φ (Fin.last _) = Pipeline.ΦD gsem3 spec3 gH3 (V7 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (3 : Fin 11)) (pcfgs (F := F)) (adm m ρ) (Ix := Unit) (Name := ℕ) (U := Pipeline.UD sig nD τ) (Lvl := ℕ)
      (launch3 (F := F)).win (launch3 (F := F)).arr_whole c (pdats m ρ) ((pdats m ρ (3 : Fin 11) c).share_full fun _ => rfl)
      (V7 m ρ c) (V8 m ρ c) ((pdats m ρ (3 : Fin 11) c).arrAt · (cfg3 (ga3 m ρ)).N) (hF3 m ρ c) (hrest3 m ρ c)
    rw [Pipeline.unscopedBufs_held] at hjoin
    have hH := Pipeline.unscopedRest_sdiff spec3 gH3 gH3_sub c (V7 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg4.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 4 as a segment of @main

Entered from every unscoped buffer whole at `W9`, left at `W10`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 4 reads without a window, one by one. -/
theorem gH4_split (Φ : Ref sig .tc → sProp 𝕄) : bigSep gH4 Φ = iprop(Φ main_v0 ∗ Φ main_v9) := by
  unfold gH4; rw [BI.bigSep_insert (by decide), BI.bigSep_singleton]; rfl

/-- The prefetched table of gather call 4 at the pinned contents is its chunk of the edge-source table as the call finds
    it (there is one core, so the core the contents were read on is this one). -/
theorem prefHeld_eq4 (c : Dev nD) :
    (Pipeline.prefHeld (pcfgs (F := F) (4 : Fin 11)).pre c (fun _ => fullShare) (adm m ρ (4 : Fin 11)).1 : sProp 𝕄)
      = iprop(((c : Thread nD τ).loc main_v9) ↦{fullShare} V9 m ρ c main_v9) := by
  obtain rfl : c = c0 := Subsingleton.elim _ _
  unfold Pipeline.prefHeld
  exact bigSep_W4 _

-- a library lemma stated over the pinned configuration unifies with the printed one only when unification may unfold
-- plain definitions in a metavariable's type
set_option backward.isDefEq.respectTransparency.types false in
/-- Gather call 4 (custom_call 4) over the thread state. -/
def reg4 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (4 : Fin 11) where
  win := (launch4 (F := F)).win.to₀
  block_pos := (launch4 (F := F)).block_pos
  stage_whole := (launch4 (F := F)).stage_whole
  K := Fin 16
  osem := gsem4
  ho := gsemFacts4
  hbody c := (gather_obligation4 (V9 m ρ) (ga4 m ρ) c (hok4 m ρ hsrc c)).loose
  hwaits := Pipeline.hwaits_of_owed_zero _ _ _ _ L lv (4 : Fin 11) fun _ _ => rfl
  pre c := T (W9 m ρ) c
  post c := T (W10 m ρ) c
  X c := iprop((∃ r, prngReg c r)
    ∗ Pipeline.ownSems0 (Ix := Unit) (Name := ℕ) (U := Pipeline.UD sig nD τ) (Lvl := ℕ) (Val := Elt F) (τ := τ) gsem4 c
    ∗ (((c : Thread nD τ).loc main_v0) ↦{fullShare} V9 m ρ c main_v0))
  Y c := iprop((∃ r, prngReg c r) ∗ bigSep gH4 fun b => ((c : Thread nD τ).loc b) ↦{fullShare} V9 m ρ c b)
  Z c := bigSep (Pipeline.restRefs sig spec4 \ gH4) fun b => ((c : Thread nD τ).loc b) ↦{fullShare} V9 m ρ c b
  hentry c := by
    have hsplit := Pipeline.arrays_of_unscopedBufs (p := (4 : Fin 11)) (pcfgs (F := F)) (adm m ρ) (pdats m ρ) (launch4 (F := F)).win (launch4 (F := F)).arr_whole c
      ((pdats m ρ (4 : Fin 11) c).share_full fun _ => rfl) (V9 m ρ c) fun _ => rfl
    rw [Pipeline.unscopedBufs_held] at hsplit
    have hH := Pipeline.unscopedRest_sdiff spec4 gH4 gH4_sub c (V9 m ρ c)
    rw [prefHeld_eq4 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH4_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (4 : Fin 11) c).Φ 0 = Pipeline.ΦD gsem4 spec4 gH4 (V9 m ρ) c from rfl, Pipeline.ΦD_eq, prefHeld_eq4 m ρ c, gH4_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (4 : Fin 11) c).Φ (Fin.last _) = Pipeline.ΦD gsem4 spec4 gH4 (V9 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (4 : Fin 11)) (pcfgs (F := F)) (adm m ρ) (Ix := Unit) (Name := ℕ) (U := Pipeline.UD sig nD τ) (Lvl := ℕ)
      (launch4 (F := F)).win (launch4 (F := F)).arr_whole c (pdats m ρ) ((pdats m ρ (4 : Fin 11) c).share_full fun _ => rfl)
      (V9 m ρ c) (V10 m ρ c) ((pdats m ρ (4 : Fin 11) c).arrAt · (cfg4 (ga4 m ρ)).N) (hF4 m ρ c) (hrest4 m ρ c)
    rw [Pipeline.unscopedBufs_held] at hjoin
    have hH := Pipeline.unscopedRest_sdiff spec4 gH4 gH4_sub c (V9 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg5.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 5 as a segment of @main

Entered from every unscoped buffer whole at `W11`, left at `W12`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 5 reads without a window, one by one. -/
theorem gH5_split (Φ : Ref sig .tc → sProp 𝕄) : bigSep gH5 Φ = iprop(Φ main_v0 ∗ Φ main_v11) := by
  unfold gH5; rw [BI.bigSep_insert (by decide), BI.bigSep_singleton]; rfl

/-- The prefetched table of gather call 5 at the pinned contents is its chunk of the edge-source table as the call finds
    it (there is one core, so the core the contents were read on is this one). -/
theorem prefHeld_eq5 (c : Dev nD) :
    (Pipeline.prefHeld (pcfgs (F := F) (5 : Fin 11)).pre c (fun _ => fullShare) (adm m ρ (5 : Fin 11)).1 : sProp 𝕄)
      = iprop(((c : Thread nD τ).loc main_v11) ↦{fullShare} V11 m ρ c main_v11) := by
  obtain rfl : c = c0 := Subsingleton.elim _ _
  unfold Pipeline.prefHeld
  exact bigSep_W5 _

-- a library lemma stated over the pinned configuration unifies with the printed one only when unification may unfold
-- plain definitions in a metavariable's type
set_option backward.isDefEq.respectTransparency.types false in
/-- Gather call 5 (custom_call 5) over the thread state. -/
def reg5 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (5 : Fin 11) where
  win := (launch5 (F := F)).win.to₀
  block_pos := (launch5 (F := F)).block_pos
  stage_whole := (launch5 (F := F)).stage_whole
  K := Fin 16
  osem := gsem5
  ho := gsemFacts5
  hbody c := (gather_obligation5 (V11 m ρ) (ga5 m ρ) c (hok5 m ρ hsrc c)).loose
  hwaits := Pipeline.hwaits_of_owed_zero _ _ _ _ L lv (5 : Fin 11) fun _ _ => rfl
  pre c := T (W11 m ρ) c
  post c := T (W12 m ρ) c
  X c := iprop((∃ r, prngReg c r)
    ∗ Pipeline.ownSems0 (Ix := Unit) (Name := ℕ) (U := Pipeline.UD sig nD τ) (Lvl := ℕ) (Val := Elt F) (τ := τ) gsem5 c
    ∗ (((c : Thread nD τ).loc main_v0) ↦{fullShare} V11 m ρ c main_v0))
  Y c := iprop((∃ r, prngReg c r) ∗ bigSep gH5 fun b => ((c : Thread nD τ).loc b) ↦{fullShare} V11 m ρ c b)
  Z c := bigSep (Pipeline.restRefs sig spec5 \ gH5) fun b => ((c : Thread nD τ).loc b) ↦{fullShare} V11 m ρ c b
  hentry c := by
    have hsplit := Pipeline.arrays_of_unscopedBufs (p := (5 : Fin 11)) (pcfgs (F := F)) (adm m ρ) (pdats m ρ) (launch5 (F := F)).win (launch5 (F := F)).arr_whole c
      ((pdats m ρ (5 : Fin 11) c).share_full fun _ => rfl) (V11 m ρ c) fun _ => rfl
    rw [Pipeline.unscopedBufs_held] at hsplit
    have hH := Pipeline.unscopedRest_sdiff spec5 gH5 gH5_sub c (V11 m ρ c)
    rw [prefHeld_eq5 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH5_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (5 : Fin 11) c).Φ 0 = Pipeline.ΦD gsem5 spec5 gH5 (V11 m ρ) c from rfl, Pipeline.ΦD_eq, prefHeld_eq5 m ρ c, gH5_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (5 : Fin 11) c).Φ (Fin.last _) = Pipeline.ΦD gsem5 spec5 gH5 (V11 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (5 : Fin 11)) (pcfgs (F := F)) (adm m ρ) (Ix := Unit) (Name := ℕ) (U := Pipeline.UD sig nD τ) (Lvl := ℕ)
      (launch5 (F := F)).win (launch5 (F := F)).arr_whole c (pdats m ρ) ((pdats m ρ (5 : Fin 11) c).share_full fun _ => rfl)
      (V11 m ρ c) (V12 m ρ c) ((pdats m ρ (5 : Fin 11) c).arrAt · (cfg5 (ga5 m ρ)).N) (hF5 m ρ c) (hrest5 m ρ c)
    rw [Pipeline.unscopedBufs_held] at hjoin
    have hH := Pipeline.unscopedRest_sdiff spec5 gH5 gH5_sub c (V11 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg6.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 6 as a segment of @main

Entered from every unscoped buffer whole at `W13`, left at `W14`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 6 reads without a window, one by one. -/
theorem gH6_split (Φ : Ref sig .tc → sProp 𝕄) : bigSep gH6 Φ = iprop(Φ main_v0 ∗ Φ main_v13) := by
  unfold gH6; rw [BI.bigSep_insert (by decide), BI.bigSep_singleton]; rfl

/-- The prefetched table of gather call 6 at the pinned contents is its chunk of the edge-source table as the call finds
    it (there is one core, so the core the contents were read on is this one). -/
theorem prefHeld_eq6 (c : Dev nD) :
    (Pipeline.prefHeld (pcfgs (F := F) (6 : Fin 11)).pre c (fun _ => fullShare) (adm m ρ (6 : Fin 11)).1 : sProp 𝕄)
      = iprop(((c : Thread nD τ).loc main_v13) ↦{fullShare} V13 m ρ c main_v13) := by
  obtain rfl : c = c0 := Subsingleton.elim _ _
  unfold Pipeline.prefHeld
  exact bigSep_W6 _

-- a library lemma stated over the pinned configuration unifies with the printed one only when unification may unfold
-- plain definitions in a metavariable's type
set_option backward.isDefEq.respectTransparency.types false in
/-- Gather call 6 (custom_call 6) over the thread state. -/
def reg6 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (6 : Fin 11) where
  win := (launch6 (F := F)).win.to₀
  block_pos := (launch6 (F := F)).block_pos
  stage_whole := (launch6 (F := F)).stage_whole
  K := Fin 16
  osem := gsem6
  ho := gsemFacts6
  hbody c := (gather_obligation6 (V13 m ρ) (ga6 m ρ) c (hok6 m ρ hsrc c)).loose
  hwaits := Pipeline.hwaits_of_owed_zero _ _ _ _ L lv (6 : Fin 11) fun _ _ => rfl
  pre c := T (W13 m ρ) c
  post c := T (W14 m ρ) c
  X c := iprop((∃ r, prngReg c r)
    ∗ Pipeline.ownSems0 (Ix := Unit) (Name := ℕ) (U := Pipeline.UD sig nD τ) (Lvl := ℕ) (Val := Elt F) (τ := τ) gsem6 c
    ∗ (((c : Thread nD τ).loc main_v0) ↦{fullShare} V13 m ρ c main_v0))
  Y c := iprop((∃ r, prngReg c r) ∗ bigSep gH6 fun b => ((c : Thread nD τ).loc b) ↦{fullShare} V13 m ρ c b)
  Z c := bigSep (Pipeline.restRefs sig spec6 \ gH6) fun b => ((c : Thread nD τ).loc b) ↦{fullShare} V13 m ρ c b
  hentry c := by
    have hsplit := Pipeline.arrays_of_unscopedBufs (p := (6 : Fin 11)) (pcfgs (F := F)) (adm m ρ) (pdats m ρ) (launch6 (F := F)).win (launch6 (F := F)).arr_whole c
      ((pdats m ρ (6 : Fin 11) c).share_full fun _ => rfl) (V13 m ρ c) fun _ => rfl
    rw [Pipeline.unscopedBufs_held] at hsplit
    have hH := Pipeline.unscopedRest_sdiff spec6 gH6 gH6_sub c (V13 m ρ c)
    rw [prefHeld_eq6 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH6_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (6 : Fin 11) c).Φ 0 = Pipeline.ΦD gsem6 spec6 gH6 (V13 m ρ) c from rfl, Pipeline.ΦD_eq, prefHeld_eq6 m ρ c, gH6_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (6 : Fin 11) c).Φ (Fin.last _) = Pipeline.ΦD gsem6 spec6 gH6 (V13 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (6 : Fin 11)) (pcfgs (F := F)) (adm m ρ) (Ix := Unit) (Name := ℕ) (U := Pipeline.UD sig nD τ) (Lvl := ℕ)
      (launch6 (F := F)).win (launch6 (F := F)).arr_whole c (pdats m ρ) ((pdats m ρ (6 : Fin 11) c).share_full fun _ => rfl)
      (V13 m ρ c) (V14 m ρ c) ((pdats m ρ (6 : Fin 11) c).arrAt · (cfg6 (ga6 m ρ)).N) (hF6 m ρ c) (hrest6 m ρ c)
    rw [Pipeline.unscopedBufs_held] at hjoin
    have hH := Pipeline.unscopedRest_sdiff spec6 gH6 gH6_sub c (V13 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg7.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 7 as a segment of @main

Entered from every unscoped buffer whole at `W15`, left at `W16`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 7 reads without a window, one by one. -/
theorem gH7_split (Φ : Ref sig .tc → sProp 𝕄) : bigSep gH7 Φ = iprop(Φ main_v0 ∗ Φ main_v15) := by
  unfold gH7; rw [BI.bigSep_insert (by decide), BI.bigSep_singleton]; rfl

/-- The prefetched table of gather call 7 at the pinned contents is its chunk of the edge-source table as the call finds
    it (there is one core, so the core the contents were read on is this one). -/
theorem prefHeld_eq7 (c : Dev nD) :
    (Pipeline.prefHeld (pcfgs (F := F) (7 : Fin 11)).pre c (fun _ => fullShare) (adm m ρ (7 : Fin 11)).1 : sProp 𝕄)
      = iprop(((c : Thread nD τ).loc main_v15) ↦{fullShare} V15 m ρ c main_v15) := by
  obtain rfl : c = c0 := Subsingleton.elim _ _
  unfold Pipeline.prefHeld
  exact bigSep_W7 _

-- a library lemma stated over the pinned configuration unifies with the printed one only when unification may unfold
-- plain definitions in a metavariable's type
set_option backward.isDefEq.respectTransparency.types false in
/-- Gather call 7 (custom_call 7) over the thread state. -/
def reg7 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (7 : Fin 11) where
  win := (launch7 (F := F)).win.to₀
  block_pos := (launch7 (F := F)).block_pos
  stage_whole := (launch7 (F := F)).stage_whole
  K := Fin 16
  osem := gsem7
  ho := gsemFacts7
  hbody c := (gather_obligation7 (V15 m ρ) (ga7 m ρ) c (hok7 m ρ hsrc c)).loose
  hwaits := Pipeline.hwaits_of_owed_zero _ _ _ _ L lv (7 : Fin 11) fun _ _ => rfl
  pre c := T (W15 m ρ) c
  post c := T (W16 m ρ) c
  X c := iprop((∃ r, prngReg c r)
    ∗ Pipeline.ownSems0 (Ix := Unit) (Name := ℕ) (U := Pipeline.UD sig nD τ) (Lvl := ℕ) (Val := Elt F) (τ := τ) gsem7 c
    ∗ (((c : Thread nD τ).loc main_v0) ↦{fullShare} V15 m ρ c main_v0))
  Y c := iprop((∃ r, prngReg c r) ∗ bigSep gH7 fun b => ((c : Thread nD τ).loc b) ↦{fullShare} V15 m ρ c b)
  Z c := bigSep (Pipeline.restRefs sig spec7 \ gH7) fun b => ((c : Thread nD τ).loc b) ↦{fullShare} V15 m ρ c b
  hentry c := by
    have hsplit := Pipeline.arrays_of_unscopedBufs (p := (7 : Fin 11)) (pcfgs (F := F)) (adm m ρ) (pdats m ρ) (launch7 (F := F)).win (launch7 (F := F)).arr_whole c
      ((pdats m ρ (7 : Fin 11) c).share_full fun _ => rfl) (V15 m ρ c) fun _ => rfl
    rw [Pipeline.unscopedBufs_held] at hsplit
    have hH := Pipeline.unscopedRest_sdiff spec7 gH7 gH7_sub c (V15 m ρ c)
    rw [prefHeld_eq7 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH7_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (7 : Fin 11) c).Φ 0 = Pipeline.ΦD gsem7 spec7 gH7 (V15 m ρ) c from rfl, Pipeline.ΦD_eq, prefHeld_eq7 m ρ c, gH7_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (7 : Fin 11) c).Φ (Fin.last _) = Pipeline.ΦD gsem7 spec7 gH7 (V15 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (7 : Fin 11)) (pcfgs (F := F)) (adm m ρ) (Ix := Unit) (Name := ℕ) (U := Pipeline.UD sig nD τ) (Lvl := ℕ)
      (launch7 (F := F)).win (launch7 (F := F)).arr_whole c (pdats m ρ) ((pdats m ρ (7 : Fin 11) c).share_full fun _ => rfl)
      (V15 m ρ c) (V16 m ρ c) ((pdats m ρ (7 : Fin 11) c).arrAt · (cfg7 (ga7 m ρ)).N) (hF7 m ρ c) (hrest7 m ρ c)
    rw [Pipeline.unscopedBufs_held] at hjoin
    have hH := Pipeline.unscopedRest_sdiff spec7 gH7 gH7_sub c (V15 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg8.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 8 as a segment of @main

Entered from every unscoped buffer whole at `W17`, left at `W18`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 8 reads without a window, one by one. -/
theorem gH8_split (Φ : Ref sig .tc → sProp 𝕄) : bigSep gH8 Φ = iprop(Φ main_v0 ∗ Φ main_v17) := by
  unfold gH8; rw [BI.bigSep_insert (by decide), BI.bigSep_singleton]; rfl

/-- The prefetched table of gather call 8 at the pinned contents is its chunk of the edge-source table as the call finds
    it (there is one core, so the core the contents were read on is this one). -/
theorem prefHeld_eq8 (c : Dev nD) :
    (Pipeline.prefHeld (pcfgs (F := F) (8 : Fin 11)).pre c (fun _ => fullShare) (adm m ρ (8 : Fin 11)).1 : sProp 𝕄)
      = iprop(((c : Thread nD τ).loc main_v17) ↦{fullShare} V17 m ρ c main_v17) := by
  obtain rfl : c = c0 := Subsingleton.elim _ _
  unfold Pipeline.prefHeld
  exact bigSep_W8 _

-- a library lemma stated over the pinned configuration unifies with the printed one only when unification may unfold
-- plain definitions in a metavariable's type
set_option backward.isDefEq.respectTransparency.types false in
/-- Gather call 8 (custom_call 8) over the thread state. -/
def reg8 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (8 : Fin 11) where
  win := (launch8 (F := F)).win.to₀
  block_pos := (launch8 (F := F)).block_pos
  stage_whole := (launch8 (F := F)).stage_whole
  K := Fin 16
  osem := gsem8
  ho := gsemFacts8
  hbody c := (gather_obligation8 (V17 m ρ) (ga8 m ρ) c (hok8 m ρ hsrc c)).loose
  hwaits := Pipeline.hwaits_of_owed_zero _ _ _ _ L lv (8 : Fin 11) fun _ _ => rfl
  pre c := T (W17 m ρ) c
  post c := T (W18 m ρ) c
  X c := iprop((∃ r, prngReg c r)
    ∗ Pipeline.ownSems0 (Ix := Unit) (Name := ℕ) (U := Pipeline.UD sig nD τ) (Lvl := ℕ) (Val := Elt F) (τ := τ) gsem8 c
    ∗ (((c : Thread nD τ).loc main_v0) ↦{fullShare} V17 m ρ c main_v0))
  Y c := iprop((∃ r, prngReg c r) ∗ bigSep gH8 fun b => ((c : Thread nD τ).loc b) ↦{fullShare} V17 m ρ c b)
  Z c := bigSep (Pipeline.restRefs sig spec8 \ gH8) fun b => ((c : Thread nD τ).loc b) ↦{fullShare} V17 m ρ c b
  hentry c := by
    have hsplit := Pipeline.arrays_of_unscopedBufs (p := (8 : Fin 11)) (pcfgs (F := F)) (adm m ρ) (pdats m ρ) (launch8 (F := F)).win (launch8 (F := F)).arr_whole c
      ((pdats m ρ (8 : Fin 11) c).share_full fun _ => rfl) (V17 m ρ c) fun _ => rfl
    rw [Pipeline.unscopedBufs_held] at hsplit
    have hH := Pipeline.unscopedRest_sdiff spec8 gH8 gH8_sub c (V17 m ρ c)
    rw [prefHeld_eq8 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH8_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (8 : Fin 11) c).Φ 0 = Pipeline.ΦD gsem8 spec8 gH8 (V17 m ρ) c from rfl, Pipeline.ΦD_eq, prefHeld_eq8 m ρ c, gH8_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (8 : Fin 11) c).Φ (Fin.last _) = Pipeline.ΦD gsem8 spec8 gH8 (V17 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (8 : Fin 11)) (pcfgs (F := F)) (adm m ρ) (Ix := Unit) (Name := ℕ) (U := Pipeline.UD sig nD τ) (Lvl := ℕ)
      (launch8 (F := F)).win (launch8 (F := F)).arr_whole c (pdats m ρ) ((pdats m ρ (8 : Fin 11) c).share_full fun _ => rfl)
      (V17 m ρ c) (V18 m ρ c) ((pdats m ρ (8 : Fin 11) c).arrAt · (cfg8 (ga8 m ρ)).N) (hF8 m ρ c) (hrest8 m ρ c)
    rw [Pipeline.unscopedBufs_held] at hjoin
    have hH := Pipeline.unscopedRest_sdiff spec8 gH8 gH8_sub c (V17 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg9.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # Gather call 9 as a segment of @main

Entered from every unscoped buffer whole at `W19`, left at `W20`. The call's output array goes into the pipeline and
comes back at what the write-backs fold to. Of the buffers that bypass the windows the kernel reads two: the node
table in HBM, through its own transfers on its sixteen semaphores, and its chunk of the edge-source table in scalar
memory, which is also the pipeline's prefetched table. The region's invariant `ΦD` holds both whole at their entry
contents; at entry the node table goes in beside the generator register and the sixteen semaphores at zero, while the
chunk is handed over as the prefetched table and joins them when the invariant is first made. Both come back at the
exit, unchanged. -/

/-- The two buffers gather call 9 reads without a window, one by one. -/
theorem gH9_split (Φ : Ref sig .tc → sProp 𝕄) : bigSep gH9 Φ = iprop(Φ main_v0 ∗ Φ main_v19) := by
  unfold gH9; rw [BI.bigSep_insert (by decide), BI.bigSep_singleton]; rfl

/-- The prefetched table of gather call 9 at the pinned contents is its chunk of the edge-source table as the call finds
    it (there is one core, so the core the contents were read on is this one). -/
theorem prefHeld_eq9 (c : Dev nD) :
    (Pipeline.prefHeld (pcfgs (F := F) (9 : Fin 11)).pre c (fun _ => fullShare) (adm m ρ (9 : Fin 11)).1 : sProp 𝕄)
      = iprop(((c : Thread nD τ).loc main_v19) ↦{fullShare} V19 m ρ c main_v19) := by
  obtain rfl : c = c0 := Subsingleton.elim _ _
  unfold Pipeline.prefHeld
  exact bigSep_W9 _

-- a library lemma stated over the pinned configuration unifies with the printed one only when unification may unfold
-- plain definitions in a metavariable's type
set_option backward.isDefEq.respectTransparency.types false in
/-- Gather call 9 (custom_call 9) over the thread state. -/
def reg9 (hsrc : ∀ (c : Dev nD) (e : S640000.Idx), (m ((c : Thread nD τ).loc main_arg1) e).toNat < 50000) :
    Pipeline.RegionSeg (pcfgs (F := F)) (adm m ρ) (pdats m ρ) () defs₀ 𝒱₀ L lv (9 : Fin 11) where
  win := (launch9 (F := F)).win.to₀
  block_pos := (launch9 (F := F)).block_pos
  stage_whole := (launch9 (F := F)).stage_whole
  K := Fin 16
  osem := gsem9
  ho := gsemFacts9
  hbody c := (gather_obligation9 (V19 m ρ) (ga9 m ρ) c (hok9 m ρ hsrc c)).loose
  hwaits := Pipeline.hwaits_of_owed_zero _ _ _ _ L lv (9 : Fin 11) fun _ _ => rfl
  pre c := T (W19 m ρ) c
  post c := T (W20 m ρ) c
  X c := iprop((∃ r, prngReg c r)
    ∗ Pipeline.ownSems0 (Ix := Unit) (Name := ℕ) (U := Pipeline.UD sig nD τ) (Lvl := ℕ) (Val := Elt F) (τ := τ) gsem9 c
    ∗ (((c : Thread nD τ).loc main_v0) ↦{fullShare} V19 m ρ c main_v0))
  Y c := iprop((∃ r, prngReg c r) ∗ bigSep gH9 fun b => ((c : Thread nD τ).loc b) ↦{fullShare} V19 m ρ c b)
  Z c := bigSep (Pipeline.restRefs sig spec9 \ gH9) fun b => ((c : Thread nD τ).loc b) ↦{fullShare} V19 m ρ c b
  hentry c := by
    have hsplit := Pipeline.arrays_of_unscopedBufs (p := (9 : Fin 11)) (pcfgs (F := F)) (adm m ρ) (pdats m ρ) (launch9 (F := F)).win (launch9 (F := F)).arr_whole c
      ((pdats m ρ (9 : Fin 11) c).share_full fun _ => rfl) (V19 m ρ c) fun _ => rfl
    rw [Pipeline.unscopedBufs_held] at hsplit
    have hH := Pipeline.unscopedRest_sdiff spec9 gH9 gH9_sub c (V19 m ρ c)
    rw [prefHeld_eq9 m ρ c]
    iintro ⟨⟨Hub, Hp, HO⟩, Hos, -⟩
    ihave H := hsplit $$ Hub
    icases H with ⟨Ha, Hrest⟩
    ihave H' := (Entails.of_eq hH) $$ Hrest
    icases H' with ⟨HH, HR⟩
    ihave H'' := (Entails.of_eq (gH9_split _)) $$ HH
    icases H'' with ⟨Hn, Ht⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp Hos Hn]
    · isplitl [Hp]; · iexact Hp
      isplitl [Hos]; · iexact Hos
      iexact Hn
    iexact HR
  hin c := by
    rw [show (pdats m ρ (9 : Fin 11) c).Φ 0 = Pipeline.ΦD gsem9 spec9 gH9 (V19 m ρ) c from rfl, Pipeline.ΦD_eq, prefHeld_eq9 m ρ c, gH9_split]
    iintro ⟨⟨Hp, Ho, Hn⟩, Ht, Hr⟩
    isplitl [Hr]; · iexact Hr
    isplitl [Hp]; · iexact Hp
    isplitl [Ho]; · iexact Ho
    isplitl [Hn]; · iexact Hn
    iexact Ht
  hout c := by
    rw [show (pdats m ρ (9 : Fin 11) c).Φ (Fin.last _) = Pipeline.ΦD gsem9 spec9 gH9 (V19 m ρ) c from rfl, Pipeline.ΦD_eq]
    iintro ⟨Hr, Hp, Ho, HH⟩
    isplitl [Hp HH]
    · isplitl [Hp]; · iexact Hp
      iexact HH
    isplitl [Ho]; · iexact Ho
    iexact Hr
  hexit c := by
    have hjoin := Pipeline.unscopedBufs_of_arrays (p := (9 : Fin 11)) (pcfgs (F := F)) (adm m ρ) (Ix := Unit) (Name := ℕ) (U := Pipeline.UD sig nD τ) (Lvl := ℕ)
      (launch9 (F := F)).win (launch9 (F := F)).arr_whole c (pdats m ρ) ((pdats m ρ (9 : Fin 11) c).share_full fun _ => rfl)
      (V19 m ρ c) (V20 m ρ c) ((pdats m ρ (9 : Fin 11) c).arrAt · (cfg9 (ga9 m ρ)).N) (hF9 m ρ c) (hrest9 m ρ c)
    rw [Pipeline.unscopedBufs_held] at hjoin
    have hH := Pipeline.unscopedRest_sdiff spec9 gH9 gH9_sub c (V19 m ρ c)
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KRunReg10.lean ====
import proofs.«401076_j19361712571372_2_alg».proof.Proof.KRunChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # The projection call as a segment of @main

Entered from every unscoped buffer whole at `W21`, left at `W22`, the last contents. A plain pipeline: its four
arrays go in and come back, the three inputs as found and the output at what the write-backs fold to; the generator
register goes into the invariant and out; the kernel has no semaphore and no table of its own. -/

/-- The projection call prefetches no table. -/
theorem prefHeld_eq10 (c : Dev nD) :
    (Pipeline.prefHeld (pcfgs (F := F) (10 : Fin 11)).pre c (fun _ => fullShare) (adm m ρ (10 : Fin 11)).1 : sProp 𝕄) = BI.emp := by
  unfold Pipeline.prefHeld; rw [show (Finset.univ : Finset (Fin 0)) = ∅ from rfl, BI.bigSep_empty]

-- a library lemma stated over the pinned configuration unifies with the printed one only when unification may unfold
-- plain definitions in a metavariable's type
set_option backward.isDefEq.respectTransparency.types false in
/-- The projection call (custom_call 10) over the thread state. -/
def reg10 : Pipeline.RegionSeg (pcfgs (F := F)) (adm m ρ) (pdats m ρ) () defs₀ 𝒱₀ L lv (10 : Fin 11) where
  win := (launch10 (F := F)).win.to₀
  block_pos := (launch10 (F := F)).block_pos
  stage_whole := (launch10 (F := F)).stage_whole
  K := PEmpty
  osem k := k.elim
  ho := Pipeline.OwnSemFacts.none _
  hbody c := (proj_obligation (V21 m ρ) c).loose
  hwaits := Pipeline.hwaits_of_owed_zero _ _ _ _ L lv (10 : Fin 11) fun _ _ => rfl
  pre c := T (W21 m ρ) c
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec10 c (V21 m ρ c)
  hentry c := by
    rw [Pipeline.ownSems0_none, prefHeld_eq10 m ρ c]
    have hsplit := Pipeline.arrays_of_unscopedBufs (p := (10 : Fin 11)) (pcfgs (F := F)) (adm m ρ) (pdats m ρ) (launch10 (F := F)).win (launch10 (F := F)).arr_whole c
      ((pdats m ρ (10 : Fin 11) c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ (10 : Fin 11) c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ (10 : Fin 11) c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := (10 : Fin 11)) (pcfgs (F := F)) (adm m ρ) (Ix := Unit) (Name := ℕ) (U := Pipeline.UD sig nD τ) (Lvl := ℕ)
      (launch10 (F := F)).win (launch10 (F := F)).arr_whole c (pdats m ρ) ((pdats m ρ (10 : Fin 11) c).share_full fun _ => rfl)
      (V21 m ρ c) (V22 m ρ c) ((pdats m ρ (10 : Fin 11) c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KRun.lean ====
import proofs.«401076_j19361712571372_2_alg».proof.Proof.KRunChain
import proofs.«401076_j19361712571372_2_alg».proof.Proof.KRunReg0
import proofs.«401076_j19361712571372_2_alg».proof.Proof.KRunReg1
import proofs.«401076_j19361712571372_2_alg».proof.Proof.KRunReg2
import proofs.«401076_j19361712571372_2_alg».proof.Proof.KRunReg3
import proofs.«401076_j19361712571372_2_alg».proof.Proof.KRunReg4
import proofs.«401076_j19361712571372_2_alg».proof.Proof.KRunReg5
import proofs.«401076_j19361712571372_2_alg».proof.Proof.KRunReg6
import proofs.«401076_j19361712571372_2_alg».proof.Proof.KRunReg7
import proofs.«401076_j19361712571372_2_alg».proof.Proof.KRunReg8
import proofs.«401076_j19361712571372_2_alg».proof.Proof.KRunReg9
import proofs.«401076_j19361712571372_2_alg».proof.Proof.KRunReg10
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Proof.GSpec

variable (m : (ℓ : Loc nD τ sig) → Buf (Elt F) ℓ) (ρ : Dev nD → PrngReg)

/-! # @main as segments, and the launch

The twenty-two items in order: a host segment per stretch, from the contents before it; a region per pallas_call. Each
is entered from the thread state the one before it leaves: a host stretch from `W⟨j⟩` leaves the unscoped buffers at
`StableHlo.after` of its operations, which is `W⟨j+1⟩` by definition. -/

/-- @main's segments. -/
abbrev segs (hsrc : ∀ (c : Dev nD) (e : S640000.Idx), (m ((c : Thread nD τ).loc main_arg1) e).toNat < 50000) :
    List (Pipeline.Seg (pcfgs (F := F)) (adm m ρ) (pdats m ρ) () defs₀ 𝒱₀ L lv) :=
  [ .host (hseg hostOps0 hostOps0_sub hostOps0_fresh (W0 m ρ)), .region (reg0 m ρ hsrc),
    .host (hseg hostOps1 hostOps1_sub hostOps1_fresh (W2 m ρ)), .region (reg1 m ρ hsrc),
    .host (hseg hostOps2 hostOps2_sub hostOps2_fresh (W4 m ρ)), .region (reg2 m ρ hsrc),
    .host (hseg hostOps3 hostOps3_sub hostOps3_fresh (W6 m ρ)), .region (reg3 m ρ hsrc),
    .host (hseg hostOps4 hostOps4_sub hostOps4_fresh (W8 m ρ)), .region (reg4 m ρ hsrc),
    .host (hseg hostOps5 hostOps5_sub hostOps5_fresh (W10 m ρ)), .region (reg5 m ρ hsrc),
    .host (hseg hostOps6 hostOps6_sub hostOps6_fresh (W12 m ρ)), .region (reg6 m ρ hsrc),
    .host (hseg hostOps7 hostOps7_sub hostOps7_fresh (W14 m ρ)), .region (reg7 m ρ hsrc),
    .host (hseg hostOps8 hostOps8_sub hostOps8_fresh (W16 m ρ)), .region (reg8 m ρ hsrc),
    .host (hseg hostOps9 hostOps9_sub hostOps9_fresh (W18 m ρ)), .region (reg9 m ρ hsrc),
    .host (hseg hostOps10 hostOps10_sub hostOps10_fresh (W20 m ρ)), .region (reg10 m ρ) ]

/-- @main is the run of the segments: it is the chain of its items, and the segments' fragments are those items. -/
theorem main_run (hsrc : ∀ (c : Dev nD) (e : S640000.Idx), (m ((c : Thread nD τ).loc main_arg1) e).toNat < 50000) (c : Dev nD) :
    main (F := F) c = Pipeline.Seg.run (segs m ρ hsrc) :=
  main_segs (adm m ρ) (pdats m ρ) () 𝒱₀ L lv _ _ _ _ _ _ _ _ _ _ _ _ _ _ _ _ _ _ _ _ _ _ rfl rfl rfl rfl rfl rfl rfl rfl rfl rfl rfl c

/-! ## What the launch deals, and what the end reads

The launch theorem for a program of several regions wants three things besides the segments: the launch element split into the pipeline library's element and the
cores' ghost resources (here none); the first thread state made on each core from what the launch deals it; and the
last thread state read against a final memory. -/

/-- The first thread state on core `c`: the launch deals the core its unscoped buffers whole at the launch memory, which
    is `W0`; the generator register at its launch state; and its `owes` at nothing with no waits recorded. The unscoped
    semaphores and the launch credit are not used by any segment's thread state and are dropped. -/
theorem first_state (c : Dev nD) :
    iprop(iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (iprop(emp) : sProp 𝕄)) ∗ levAts L lv)
      ⊢ (|={Set.univ}=> T (W0 m ρ) c : sProp 𝕄) := by
  rw [Pipeline.unscopedBufs_held c (W0 m ρ c)]
  iintro ⟨⟨Hbufs, -, Howes, -, Hprng, -⟩, -⟩
  imodintro
  isplitl [Hbufs]; · iexact Hbufs
  isplitl [Hprng]
  · iexists (ρ c); iexact Hprng
  iexists ∅; iexact Howes

/-- The last thread state read against a final state: every unscoped buffer is held whole at `W22`, so the state's memory
    has `W22`'s contents at each of them. -/
theorem last_state_read (c : Dev nD) (s' : Phys nD τ sig (Elt F)) :
    iprop(Tₙ m ρ c ∗ SI s')
      ⊢ (|={Set.univ}=> iprop(⌜∀ b ∈ Pipeline.ucRefs τ sig, s'.mem.mem (((c : Thread nD τ)).1, b) = W22 m ρ c b⌝ ∗ SI s') : sProp 𝕄) := by
  iintro ⟨⟨Hbufs, -⟩, HSI⟩
  unfold StableHlo.held
  imodintro
  iapply (pointsTo_read_all (Pipeline.ucRefs τ sig) (fun b => (((c : Thread nD τ)).1, b)) (W22 m ρ c) s')
  isplitl [Hbufs]; · iexact Hbufs
  iexact HSI

-- the launch theorem's implicit arguments are found by unifying its conclusion with this one, which takes unfolding plain
-- definitions in a metavariable's type
set_option backward.isDefEq.respectTransparency.types false in
/-- THE RUN. At the compiled mesh, from any memory with zero counters whose edge-source words all name rows of the node
    table, every weakly fair execution of @main on the TensorCore terminates, nothing faulting, and every final state
    holds the result array at the last contents of the fold, `W22`, and each argument array as launched. The twenty-three
    links of the chain of thread states are identities: each segment is stated from `T` of the contents before it to `T`
    of the contents after it. -/
theorem run_main (hsrc : ∀ (c : Dev nD) (e : S640000.Idx), (m ((c : Thread nD τ).loc main_arg1) e).toNat < 50000) :
    θ_run defs (onTc (τ := τ) (main (F := F))) ⟨m, fun _ => 0, ρ⟩ (fun r => ∀ c : Dev nD,
      r.2.mem ((c.tc : Thread nD τ).loc main_v26) = W22 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) (adm m ρ) (pdats m ρ) () (cellOf_inj (adm m ρ)) embL defs₀ 𝒱₀ L lv m ρ main (segs m ρ hsrc)
    (fun c Q => by rw [main_run m ρ hsrc c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells (Pipeline.pin (pcfgs (F := F)) (adm m ρ)) (cellOf_inj (adm m ρ)))
      (Pipeline.launchToks (Pipeline.pin (pcfgs (F := F)) (adm m ρ)) (cellOf_inj (adm m ρ))), 1))
    (hu₀ := by
      -- the pair splits; its left half is the pipeline library's element, the right half (the counters' unit) is dropped
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := T (W0 m ρ)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := Pipeline.initEach L lv (first_state m ρ))
    (QY := fun c s => ∀ b ∈ Pipeline.ucRefs τ sig, s.mem (((c : Thread nD τ)).1, b) = W22 m ρ c b)
    (hfin := last_state_read m ρ)
    (hQ := fun s h c =>
      ⟨h c _ (mem_uc main_v26 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c)⟩)

end Cert.Kernel.Hand

end
-- ==== Proof.GatherValue0.lean ====
import proofs.«401076_j19361712571372_2_alg».proof.Proof.Gather0
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg0 (F := F)).Adm) : (cfg0 a).N = 4000 := N_0

/-- The output window's block index at point `t` is `(t, 0, 0)`. -/
private theorem outIndex (a : (pcfg0 (F := F)).Adm) (t : Fin (cfg0 a).N) :
    ((cfg0 a).win 0).index t = ![t.val, 0, 0] := by
  have ht : t.val < 4000 := lt_of_lt_of_eq t.isLt (outN a)
  show cc0_transform_1 ((cfg0 a).grid.coords t) = _
  unfold cc0_transform_1
  dsimp only
  have hc : (((cfg0 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg0 (F := F)).Adm) (t : Fin (cfg0 a).N) :
    ((cfg0 a).win 0).index t (0 : Fin 3) = t.val := by rw [outIndex]; rfl
private theorem outIndexMid (a : (pcfg0 (F := F)).Adm) (t : Fin (cfg0 a).N) :
    ((cfg0 a).win 0).index t (1 : Fin 3) = 0 := by rw [outIndex]; rfl
private theorem outIndexLane (a : (pcfg0 (F := F)).Adm) (t : Fin (cfg0 a).N) :
    ((cfg0 a).win 0).index t (2 : Fin 3) = 0 := by rw [outIndex]; rfl

/-- Its block index moves at every step, so every point writes its block back. -/
private theorem outFlush (a : (pcfg0 (F := F)).Adm) (t : Fin (cfg0 a).N) : ((cfg0 a).win 0).flush t = true := by
  unfold Window.flush
  rw [Bool.and_eq_true]
  refine ⟨rfl, ?_⟩
  rw [Bool.or_eq_true, decide_eq_true_eq, decide_eq_true_eq]
  have hN : (cfg0 a).grid.N = 4000 := outN a
  have ht : t.val < 4000 := lt_of_lt_of_eq t.isLt (outN a)
  by_cases hlast : t.val + 1 = (cfg0 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg0 (F := F)).Adm) (c : Dev nD) (t : Fin (cfg0 a).N) :
    (gdat0 (F := F) V a c).flushed 0 t
      = (((cfg0 a).win 0).blk t).view.read (Elt F) (gchunk (V c main_v0) (V c main_v1)) := by
  have ht : t.val < 4000 := lt_of_lt_of_eq t.isLt (outN a)
  show ((cfg0 a).win 0).cut ((cfg0 a).grid.coords t) ((gdat0 V a c).after 0 t) = _
  rw [gdat0_after]
  funext y
  show gblock (V c main_v0) (V c main_v1) t.val (((cfg0 a).win 0).xinj ((cfg0 a).grid.coords t) y)
    = gchunk (V c main_v0) (V c main_v1) ((((cfg0 a).win 0).blk t).view.emb y)
  refine blockRow _ _ t.val ht _ _ ?_ ?_
  · show ((cfg0 a).win 0).index t (0 : Fin 3) * 16 + 1 * (y (0 : Fin 3)).val = _
    rw [outIndexRow]
  · show ((cfg0 a).win 0).index t (2 : Fin 3) * 128 + 1 * (y (2 : Fin 3)).val = _
    rw [outIndexLane]

end

/-- An index of the array is in point `t`'s block iff each coordinate is in the block's range on its axis. -/
private theorem memBlock (a : (pcfg0 (F := F)).Adm) (t : Fin (cfg0 a).N) (i : (⟨3, ![64000, 1, 128]⟩ : Shape).Idx) :
    i ∈ (((cfg0 a).win 0).blk t).view.set ↔
      ∀ ax : Fin 3, ((cfg0 a).win 0).index t ax * ((cfg0 a).win 0).size ax ≤ (i ax).val
        ∧ (i ax).val < ((cfg0 a).win 0).index t ax * ((cfg0 a).win 0).size ax + ((cfg0 a).win 0).size ax := by
  have hset : (((cfg0 a).win 0).blk t).view.set = (((cfg0 a).win 0).rect t).set :=
    View.set_slice_whole (Pipeline.arrRef spec0 0) _
  exact (Finset.ext_iff.mp hset i).trans Rect.mem_set_unit

/-- Row `r` of the array is in the block of step `r / 16`: the 4000 blocks of 16 rows tile the 64000 rows. -/
private theorem rowCover (a : (pcfg0 (F := F)).Adm) (i : (⟨3, ![64000, 1, 128]⟩ : Shape).Idx) :
    ∃ t : Fin (cfg0 a).N, ((cfg0 a).win 0).flush t = true ∧ i ∈ (((cfg0 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg0 a).win 0).index _ (0 : Fin 3) * 16 ≤ (i 0).val ∧ (i 0).val < ((cfg0 a).win 0).index _ (0 : Fin 3) * 16 + 16
    rw [outIndexRow]
    show (i 0).val / 16 * 16 ≤ (i 0).val ∧ (i 0).val < (i 0).val / 16 * 16 + 16
    omega
  | ⟨1, _⟩ =>
    show ((cfg0 a).win 0).index _ (1 : Fin 3) * 1 ≤ (i 1).val ∧ (i 1).val < ((cfg0 a).win 0).index _ (1 : Fin 3) * 1 + 1
    rw [outIndexMid]
    omega
  | ⟨2, _⟩ =>
    show ((cfg0 a).win 0).index _ (2 : Fin 3) * 128 ≤ (i 2).val ∧ (i 2).val < ((cfg0 a).win 0).index _ (2 : Fin 3) * 128 + 128
    rw [outIndexLane]
    omega

/-- After gather call 0 its output array holds, row by row, the node-table rows its table's words name: step `t`
    writes rows `16 t … 16 t + 15`, and the 4000 steps' blocks tile the 64000 rows. -/
theorem gather_arr0 (V : (c : Dev nD) → (b : Ref sig .tc) → Buf (Elt F) ((c : Thread nD τ).loc b))
    (a : (pcfg0 (F := F)).Adm) (c : Dev nD) :
    (gdat0 (F := F) V a c).arrAt 0 (cfg0 a).N = gchunk (V c main_v0) (V c main_v1) := by
  exact (gdat0 (F := F) V a c).arrAt_eq_of_cover 0 (gchunk (V c main_v0) (V c main_v1))
    (fun t _ => flushedBlock V a c t) (rowCover a)

end Cert.KernelIdeal.HandValue

end
-- ==== Proof.GatherValue1.lean ====
import proofs.«401076_j19361712571372_2_alg».proof.Proof.Gather1
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg1 (F := F)).Adm) : (cfg1 a).N = 4000 := N_1

/-- The output window's block index at point `t` is `(t, 0, 0)`. -/
private theorem outIndex (a : (pcfg1 (F := F)).Adm) (t : Fin (cfg1 a).N) :
    ((cfg1 a).win 0).index t = ![t.val, 0, 0] := by
  have ht : t.val < 4000 := lt_of_lt_of_eq t.isLt (outN a)
  show cc1_transform_1 ((cfg1 a).grid.coords t) = _
  unfold cc1_transform_1
  dsimp only
  have hc : (((cfg1 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg1 (F := F)).Adm) (t : Fin (cfg1 a).N) :
    ((cfg1 a).win 0).index t (0 : Fin 3) = t.val := by rw [outIndex]; rfl
private theorem outIndexMid (a : (pcfg1 (F := F)).Adm) (t : Fin (cfg1 a).N) :
    ((cfg1 a).win 0).index t (1 : Fin 3) = 0 := by rw [outIndex]; rfl
private theorem outIndexLane (a : (pcfg1 (F := F)).Adm) (t : Fin (cfg1 a).N) :
    ((cfg1 a).win 0).index t (2 : Fin 3) = 0 := by rw [outIndex]; rfl

/-- Its block index moves at every step, so every point writes its block back. -/
private theorem outFlush (a : (pcfg1 (F := F)).Adm) (t : Fin (cfg1 a).N) : ((cfg1 a).win 0).flush t = true := by
  unfold Window.flush
  rw [Bool.and_eq_true]
  refine ⟨rfl, ?_⟩
  rw [Bool.or_eq_true, decide_eq_true_eq, decide_eq_true_eq]
  have hN : (cfg1 a).grid.N = 4000 := outN a
  have ht : t.val < 4000 := lt_of_lt_of_eq t.isLt (outN a)
  by_cases hlast : t.val + 1 = (cfg1 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg1 (F := F)).Adm) (c : Dev nD) (t : Fin (cfg1 a).N) :
    (gdat1 (F := F) V a c).flushed 0 t
      = (((cfg1 a).win 0).blk t).view.read (Elt F) (gchunk (V c main_v0) (V c main_v3)) := by
  have ht : t.val < 4000 := lt_of_lt_of_eq t.isLt (outN a)
  show ((cfg1 a).win 0).cut ((cfg1 a).grid.coords t) ((gdat1 V a c).after 0 t) = _
  rw [gdat1_after]
  funext y
  show gblock (V c main_v0) (V c main_v3) t.val (((cfg1 a).win 0).xinj ((cfg1 a).grid.coords t) y)
    = gchunk (V c main_v0) (V c main_v3) ((((cfg1 a).win 0).blk t).view.emb y)
  refine blockRow _ _ t.val ht _ _ ?_ ?_
  · show ((cfg1 a).win 0).index t (0 : Fin 3) * 16 + 1 * (y (0 : Fin 3)).val = _
    rw [outIndexRow]
  · show ((cfg1 a).win 0).index t (2 : Fin 3) * 128 + 1 * (y (2 : Fin 3)).val = _
    rw [outIndexLane]

end

/-- An index of the array is in point `t`'s block iff each coordinate is in the block's range on its axis. -/
private theorem memBlock (a : (pcfg1 (F := F)).Adm) (t : Fin (cfg1 a).N) (i : (⟨3, ![64000, 1, 128]⟩ : Shape).Idx) :
    i ∈ (((cfg1 a).win 0).blk t).view.set ↔
      ∀ ax : Fin 3, ((cfg1 a).win 0).index t ax * ((cfg1 a).win 0).size ax ≤ (i ax).val
        ∧ (i ax).val < ((cfg1 a).win 0).index t ax * ((cfg1 a).win 0).size ax + ((cfg1 a).win 0).size ax := by
  have hset : (((cfg1 a).win 0).blk t).view.set = (((cfg1 a).win 0).rect t).set :=
    View.set_slice_whole (Pipeline.arrRef spec1 0) _
  exact (Finset.ext_iff.mp hset i).trans Rect.mem_set_unit

/-- Row `r` of the array is in the block of step `r / 16`: the 4000 blocks of 16 rows tile the 64000 rows. -/
private theorem rowCover (a : (pcfg1 (F := F)).Adm) (i : (⟨3, ![64000, 1, 128]⟩ : Shape).Idx) :
    ∃ t : Fin (cfg1 a).N, ((cfg1 a).win 0).flush t = true ∧ i ∈ (((cfg1 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg1 a).win 0).index _ (0 : Fin 3) * 16 ≤ (i 0).val ∧ (i 0).val < ((cfg1 a).win 0).index _ (0 : Fin 3) * 16 + 16
    rw [outIndexRow]
    show (i 0).val / 16 * 16 ≤ (i 0).val ∧ (i 0).val < (i 0).val / 16 * 16 + 16
    omega
  | ⟨1, _⟩ =>
    show ((cfg1 a).win 0).index _ (1 : Fin 3) * 1 ≤ (i 1).val ∧ (i 1).val < ((cfg1 a).win 0).index _ (1 : Fin 3) * 1 + 1
    rw [outIndexMid]
    omega
  | ⟨2, _⟩ =>
    show ((cfg1 a).win 0).index _ (2 : Fin 3) * 128 ≤ (i 2).val ∧ (i 2).val < ((cfg1 a).win 0).index _ (2 : Fin 3) * 128 + 128
    rw [outIndexLane]
    omega

/-- After gather call 1 its output array holds, row by row, the node-table rows its table's words name: step `t`
    writes rows `16 t … 16 t + 15`, and the 4000 steps' blocks tile the 64000 rows. -/
theorem gather_arr1 (V : (c : Dev nD) → (b : Ref sig .tc) → Buf (Elt F) ((c : Thread nD τ).loc b))
    (a : (pcfg1 (F := F)).Adm) (c : Dev nD) :
    (gdat1 (F := F) V a c).arrAt 0 (cfg1 a).N = gchunk (V c main_v0) (V c main_v3) := by
  exact (gdat1 (F := F) V a c).arrAt_eq_of_cover 0 (gchunk (V c main_v0) (V c main_v3))
    (fun t _ => flushedBlock V a c t) (rowCover a)

end Cert.KernelIdeal.HandValue

end
-- ==== Proof.GatherValue2.lean ====
import proofs.«401076_j19361712571372_2_alg».proof.Proof.Gather2
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg2 (F := F)).Adm) : (cfg2 a).N = 4000 := N_2

/-- The output window's block index at point `t` is `(t, 0, 0)`. -/
private theorem outIndex (a : (pcfg2 (F := F)).Adm) (t : Fin (cfg2 a).N) :
    ((cfg2 a).win 0).index t = ![t.val, 0, 0] := by
  have ht : t.val < 4000 := lt_of_lt_of_eq t.isLt (outN a)
  show cc2_transform_1 ((cfg2 a).grid.coords t) = _
  unfold cc2_transform_1
  dsimp only
  have hc : (((cfg2 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg2 (F := F)).Adm) (t : Fin (cfg2 a).N) :
    ((cfg2 a).win 0).index t (0 : Fin 3) = t.val := by rw [outIndex]; rfl
private theorem outIndexMid (a : (pcfg2 (F := F)).Adm) (t : Fin (cfg2 a).N) :
    ((cfg2 a).win 0).index t (1 : Fin 3) = 0 := by rw [outIndex]; rfl
private theorem outIndexLane (a : (pcfg2 (F := F)).Adm) (t : Fin (cfg2 a).N) :
    ((cfg2 a).win 0).index t (2 : Fin 3) = 0 := by rw [outIndex]; rfl

/-- Its block index moves at every step, so every point writes its block back. -/
private theorem outFlush (a : (pcfg2 (F := F)).Adm) (t : Fin (cfg2 a).N) : ((cfg2 a).win 0).flush t = true := by
  unfold Window.flush
  rw [Bool.and_eq_true]
  refine ⟨rfl, ?_⟩
  rw [Bool.or_eq_true, decide_eq_true_eq, decide_eq_true_eq]
  have hN : (cfg2 a).grid.N = 4000 := outN a
  have ht : t.val < 4000 := lt_of_lt_of_eq t.isLt (outN a)
  by_cases hlast : t.val + 1 = (cfg2 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg2 (F := F)).Adm) (c : Dev nD) (t : Fin (cfg2 a).N) :
    (gdat2 (F := F) V a c).flushed 0 t
      = (((cfg2 a).win 0).blk t).view.read (Elt F) (gchunk (V c main_v0) (V c main_v5)) := by
  have ht : t.val < 4000 := lt_of_lt_of_eq t.isLt (outN a)
  show ((cfg2 a).win 0).cut ((cfg2 a).grid.coords t) ((gdat2 V a c).after 0 t) = _
  rw [gdat2_after]
  funext y
  show gblock (V c main_v0) (V c main_v5) t.val (((cfg2 a).win 0).xinj ((cfg2 a).grid.coords t) y)
    = gchunk (V c main_v0) (V c main_v5) ((((cfg2 a).win 0).blk t).view.emb y)
  refine blockRow _ _ t.val ht _ _ ?_ ?_
  · show ((cfg2 a).win 0).index t (0 : Fin 3) * 16 + 1 * (y (0 : Fin 3)).val = _
    rw [outIndexRow]
  · show ((cfg2 a).win 0).index t (2 : Fin 3) * 128 + 1 * (y (2 : Fin 3)).val = _
    rw [outIndexLane]

end

/-- An index of the array is in point `t`'s block iff each coordinate is in the block's range on its axis. -/
private theorem memBlock (a : (pcfg2 (F := F)).Adm) (t : Fin (cfg2 a).N) (i : (⟨3, ![64000, 1, 128]⟩ : Shape).Idx) :
    i ∈ (((cfg2 a).win 0).blk t).view.set ↔
      ∀ ax : Fin 3, ((cfg2 a).win 0).index t ax * ((cfg2 a).win 0).size ax ≤ (i ax).val
        ∧ (i ax).val < ((cfg2 a).win 0).index t ax * ((cfg2 a).win 0).size ax + ((cfg2 a).win 0).size ax := by
  have hset : (((cfg2 a).win 0).blk t).view.set = (((cfg2 a).win 0).rect t).set :=
    View.set_slice_whole (Pipeline.arrRef spec2 0) _
  exact (Finset.ext_iff.mp hset i).trans Rect.mem_set_unit

/-- Row `r` of the array is in the block of step `r / 16`: the 4000 blocks of 16 rows tile the 64000 rows. -/
private theorem rowCover (a : (pcfg2 (F := F)).Adm) (i : (⟨3, ![64000, 1, 128]⟩ : Shape).Idx) :
    ∃ t : Fin (cfg2 a).N, ((cfg2 a).win 0).flush t = true ∧ i ∈ (((cfg2 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg2 a).win 0).index _ (0 : Fin 3) * 16 ≤ (i 0).val ∧ (i 0).val < ((cfg2 a).win 0).index _ (0 : Fin 3) * 16 + 16
    rw [outIndexRow]
    show (i 0).val / 16 * 16 ≤ (i 0).val ∧ (i 0).val < (i 0).val / 16 * 16 + 16
    omega
  | ⟨1, _⟩ =>
    show ((cfg2 a).win 0).index _ (1 : Fin 3) * 1 ≤ (i 1).val ∧ (i 1).val < ((cfg2 a).win 0).index _ (1 : Fin 3) * 1 + 1
    rw [outIndexMid]
    omega
  | ⟨2, _⟩ =>
    show ((cfg2 a).win 0).index _ (2 : Fin 3) * 128 ≤ (i 2).val ∧ (i 2).val < ((cfg2 a).win 0).index _ (2 : Fin 3) * 128 + 128
    rw [outIndexLane]
    omega

/-- After gather call 2 its output array holds, row by row, the node-table rows its table's words name: step `t`
    writes rows `16 t … 16 t + 15`, and the 4000 steps' blocks tile the 64000 rows. -/
theorem gather_arr2 (V : (c : Dev nD) → (b : Ref sig .tc) → Buf (Elt F) ((c : Thread nD τ).loc b))
    (a : (pcfg2 (F := F)).Adm) (c : Dev nD) :
    (gdat2 (F := F) V a c).arrAt 0 (cfg2 a).N = gchunk (V c main_v0) (V c main_v5) := by
  exact (gdat2 (F := F) V a c).arrAt_eq_of_cover 0 (gchunk (V c main_v0) (V c main_v5))
    (fun t _ => flushedBlock V a c t) (rowCover a)

end Cert.KernelIdeal.HandValue

end
-- ==== Proof.GatherValue3.lean ====
import proofs.«401076_j19361712571372_2_alg».proof.Proof.Gather3
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg3 (F := F)).Adm) : (cfg3 a).N = 4000 := N_3

/-- The output window's block index at point `t` is `(t, 0, 0)`. -/
private theorem outIndex (a : (pcfg3 (F := F)).Adm) (t : Fin (cfg3 a).N) :
    ((cfg3 a).win 0).index t = ![t.val, 0, 0] := by
  have ht : t.val < 4000 := lt_of_lt_of_eq t.isLt (outN a)
  show cc3_transform_1 ((cfg3 a).grid.coords t) = _
  unfold cc3_transform_1
  dsimp only
  have hc : (((cfg3 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg3 (F := F)).Adm) (t : Fin (cfg3 a).N) :
    ((cfg3 a).win 0).index t (0 : Fin 3) = t.val := by rw [outIndex]; rfl
private theorem outIndexMid (a : (pcfg3 (F := F)).Adm) (t : Fin (cfg3 a).N) :
    ((cfg3 a).win 0).index t (1 : Fin 3) = 0 := by rw [outIndex]; rfl
private theorem outIndexLane (a : (pcfg3 (F := F)).Adm) (t : Fin (cfg3 a).N) :
    ((cfg3 a).win 0).index t (2 : Fin 3) = 0 := by rw [outIndex]; rfl

/-- Its block index moves at every step, so every point writes its block back. -/
private theorem outFlush (a : (pcfg3 (F := F)).Adm) (t : Fin (cfg3 a).N) : ((cfg3 a).win 0).flush t = true := by
  unfold Window.flush
  rw [Bool.and_eq_true]
  refine ⟨rfl, ?_⟩
  rw [Bool.or_eq_true, decide_eq_true_eq, decide_eq_true_eq]
  have hN : (cfg3 a).grid.N = 4000 := outN a
  have ht : t.val < 4000 := lt_of_lt_of_eq t.isLt (outN a)
  by_cases hlast : t.val + 1 = (cfg3 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg3 (F := F)).Adm) (c : Dev nD) (t : Fin (cfg3 a).N) :
    (gdat3 (F := F) V a c).flushed 0 t
      = (((cfg3 a).win 0).blk t).view.read (Elt F) (gchunk (V c main_v0) (V c main_v7)) := by
  have ht : t.val < 4000 := lt_of_lt_of_eq t.isLt (outN a)
  show ((cfg3 a).win 0).cut ((cfg3 a).grid.coords t) ((gdat3 V a c).after 0 t) = _
  rw [gdat3_after]
  funext y
  show gblock (V c main_v0) (V c main_v7) t.val (((cfg3 a).win 0).xinj ((cfg3 a).grid.coords t) y)
    = gchunk (V c main_v0) (V c main_v7) ((((cfg3 a).win 0).blk t).view.emb y)
  refine blockRow _ _ t.val ht _ _ ?_ ?_
  · show ((cfg3 a).win 0).index t (0 : Fin 3) * 16 + 1 * (y (0 : Fin 3)).val = _
    rw [outIndexRow]
  · show ((cfg3 a).win 0).index t (2 : Fin 3) * 128 + 1 * (y (2 : Fin 3)).val = _
    rw [outIndexLane]

end

/-- An index of the array is in point `t`'s block iff each coordinate is in the block's range on its axis. -/
private theorem memBlock (a : (pcfg3 (F := F)).Adm) (t : Fin (cfg3 a).N) (i : (⟨3, ![64000, 1, 128]⟩ : Shape).Idx) :
    i ∈ (((cfg3 a).win 0).blk t).view.set ↔
      ∀ ax : Fin 3, ((cfg3 a).win 0).index t ax * ((cfg3 a).win 0).size ax ≤ (i ax).val
        ∧ (i ax).val < ((cfg3 a).win 0).index t ax * ((cfg3 a).win 0).size ax + ((cfg3 a).win 0).size ax := by
  have hset : (((cfg3 a).win 0).blk t).view.set = (((cfg3 a).win 0).rect t).set :=
    View.set_slice_whole (Pipeline.arrRef spec3 0) _
  exact (Finset.ext_iff.mp hset i).trans Rect.mem_set_unit

/-- Row `r` of the array is in the block of step `r / 16`: the 4000 blocks of 16 rows tile the 64000 rows. -/
private theorem rowCover (a : (pcfg3 (F := F)).Adm) (i : (⟨3, ![64000, 1, 128]⟩ : Shape).Idx) :
    ∃ t : Fin (cfg3 a).N, ((cfg3 a).win 0).flush t = true ∧ i ∈ (((cfg3 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg3 a).win 0).index _ (0 : Fin 3) * 16 ≤ (i 0).val ∧ (i 0).val < ((cfg3 a).win 0).index _ (0 : Fin 3) * 16 + 16
    rw [outIndexRow]
    show (i 0).val / 16 * 16 ≤ (i 0).val ∧ (i 0).val < (i 0).val / 16 * 16 + 16
    omega
  | ⟨1, _⟩ =>
    show ((cfg3 a).win 0).index _ (1 : Fin 3) * 1 ≤ (i 1).val ∧ (i 1).val < ((cfg3 a).win 0).index _ (1 : Fin 3) * 1 + 1
    rw [outIndexMid]
    omega
  | ⟨2, _⟩ =>
    show ((cfg3 a).win 0).index _ (2 : Fin 3) * 128 ≤ (i 2).val ∧ (i 2).val < ((cfg3 a).win 0).index _ (2 : Fin 3) * 128 + 128
    rw [outIndexLane]
    omega

/-- After gather call 3 its output array holds, row by row, the node-table rows its table's words name: step `t`
    writes rows `16 t … 16 t + 15`, and the 4000 steps' blocks tile the 64000 rows. -/
theorem gather_arr3 (V : (c : Dev nD) → (b : Ref sig .tc) → Buf (Elt F) ((c : Thread nD τ).loc b))
    (a : (pcfg3 (F := F)).Adm) (c : Dev nD) :
    (gdat3 (F := F) V a c).arrAt 0 (cfg3 a).N = gchunk (V c main_v0) (V c main_v7) := by
  exact (gdat3 (F := F) V a c).arrAt_eq_of_cover 0 (gchunk (V c main_v0) (V c main_v7))
    (fun t _ => flushedBlock V a c t) (rowCover a)

end Cert.KernelIdeal.HandValue

end
-- ==== Proof.GatherValue4.lean ====
import proofs.«401076_j19361712571372_2_alg».proof.Proof.Gather4
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg4 (F := F)).Adm) : (cfg4 a).N = 4000 := N_4

/-- The output window's block index at point `t` is `(t, 0, 0)`. -/
private theorem outIndex (a : (pcfg4 (F := F)).Adm) (t : Fin (cfg4 a).N) :
    ((cfg4 a).win 0).index t = ![t.val, 0, 0] := by
  have ht : t.val < 4000 := lt_of_lt_of_eq t.isLt (outN a)
  show cc4_transform_1 ((cfg4 a).grid.coords t) = _
  unfold cc4_transform_1
  dsimp only
  have hc : (((cfg4 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg4 (F := F)).Adm) (t : Fin (cfg4 a).N) :
    ((cfg4 a).win 0).index t (0 : Fin 3) = t.val := by rw [outIndex]; rfl
private theorem outIndexMid (a : (pcfg4 (F := F)).Adm) (t : Fin (cfg4 a).N) :
    ((cfg4 a).win 0).index t (1 : Fin 3) = 0 := by rw [outIndex]; rfl
private theorem outIndexLane (a : (pcfg4 (F := F)).Adm) (t : Fin (cfg4 a).N) :
    ((cfg4 a).win 0).index t (2 : Fin 3) = 0 := by rw [outIndex]; rfl

/-- Its block index moves at every step, so every point writes its block back. -/
private theorem outFlush (a : (pcfg4 (F := F)).Adm) (t : Fin (cfg4 a).N) : ((cfg4 a).win 0).flush t = true := by
  unfold Window.flush
  rw [Bool.and_eq_true]
  refine ⟨rfl, ?_⟩
  rw [Bool.or_eq_true, decide_eq_true_eq, decide_eq_true_eq]
  have hN : (cfg4 a).grid.N = 4000 := outN a
  have ht : t.val < 4000 := lt_of_lt_of_eq t.isLt (outN a)
  by_cases hlast : t.val + 1 = (cfg4 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg4 (F := F)).Adm) (c : Dev nD) (t : Fin (cfg4 a).N) :
    (gdat4 (F := F) V a c).flushed 0 t
      = (((cfg4 a).win 0).blk t).view.read (Elt F) (gchunk (V c main_v0) (V c main_v9)) := by
  have ht : t.val < 4000 := lt_of_lt_of_eq t.isLt (outN a)
  show ((cfg4 a).win 0).cut ((cfg4 a).grid.coords t) ((gdat4 V a c).after 0 t) = _
  rw [gdat4_after]
  funext y
  show gblock (V c main_v0) (V c main_v9) t.val (((cfg4 a).win 0).xinj ((cfg4 a).grid.coords t) y)
    = gchunk (V c main_v0) (V c main_v9) ((((cfg4 a).win 0).blk t).view.emb y)
  refine blockRow _ _ t.val ht _ _ ?_ ?_
  · show ((cfg4 a).win 0).index t (0 : Fin 3) * 16 + 1 * (y (0 : Fin 3)).val = _
    rw [outIndexRow]
  · show ((cfg4 a).win 0).index t (2 : Fin 3) * 128 + 1 * (y (2 : Fin 3)).val = _
    rw [outIndexLane]

end

/-- An index of the array is in point `t`'s block iff each coordinate is in the block's range on its axis. -/
private theorem memBlock (a : (pcfg4 (F := F)).Adm) (t : Fin (cfg4 a).N) (i : (⟨3, ![64000, 1, 128]⟩ : Shape).Idx) :
    i ∈ (((cfg4 a).win 0).blk t).view.set ↔
      ∀ ax : Fin 3, ((cfg4 a).win 0).index t ax * ((cfg4 a).win 0).size ax ≤ (i ax).val
        ∧ (i ax).val < ((cfg4 a).win 0).index t ax * ((cfg4 a).win 0).size ax + ((cfg4 a).win 0).size ax := by
  have hset : (((cfg4 a).win 0).blk t).view.set = (((cfg4 a).win 0).rect t).set :=
    View.set_slice_whole (Pipeline.arrRef spec4 0) _
  exact (Finset.ext_iff.mp hset i).trans Rect.mem_set_unit

/-- Row `r` of the array is in the block of step `r / 16`: the 4000 blocks of 16 rows tile the 64000 rows. -/
private theorem rowCover (a : (pcfg4 (F := F)).Adm) (i : (⟨3, ![64000, 1, 128]⟩ : Shape).Idx) :
    ∃ t : Fin (cfg4 a).N, ((cfg4 a).win 0).flush t = true ∧ i ∈ (((cfg4 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg4 a).win 0).index _ (0 : Fin 3) * 16 ≤ (i 0).val ∧ (i 0).val < ((cfg4 a).win 0).index _ (0 : Fin 3) * 16 + 16
    rw [outIndexRow]
    show (i 0).val / 16 * 16 ≤ (i 0).val ∧ (i 0).val < (i 0).val / 16 * 16 + 16
    omega
  | ⟨1, _⟩ =>
    show ((cfg4 a).win 0).index _ (1 : Fin 3) * 1 ≤ (i 1).val ∧ (i 1).val < ((cfg4 a).win 0).index _ (1 : Fin 3) * 1 + 1
    rw [outIndexMid]
    omega
  | ⟨2, _⟩ =>
    show ((cfg4 a).win 0).index _ (2 : Fin 3) * 128 ≤ (i 2).val ∧ (i 2).val < ((cfg4 a).win 0).index _ (2 : Fin 3) * 128 + 128
    rw [outIndexLane]
    omega

/-- After gather call 4 its output array holds, row by row, the node-table rows its table's words name: step `t`
    writes rows `16 t … 16 t + 15`, and the 4000 steps' blocks tile the 64000 rows. -/
theorem gather_arr4 (V : (c : Dev nD) → (b : Ref sig .tc) → Buf (Elt F) ((c : Thread nD τ).loc b))
    (a : (pcfg4 (F := F)).Adm) (c : Dev nD) :
    (gdat4 (F := F) V a c).arrAt 0 (cfg4 a).N = gchunk (V c main_v0) (V c main_v9) := by
  exact (gdat4 (F := F) V a c).arrAt_eq_of_cover 0 (gchunk (V c main_v0) (V c main_v9))
    (fun t _ => flushedBlock V a c t) (rowCover a)

end Cert.KernelIdeal.HandValue

end
-- ==== Proof.GatherValue5.lean ====
import proofs.«401076_j19361712571372_2_alg».proof.Proof.Gather5
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg5 (F := F)).Adm) : (cfg5 a).N = 4000 := N_5

/-- The output window's block index at point `t` is `(t, 0, 0)`. -/
private theorem outIndex (a : (pcfg5 (F := F)).Adm) (t : Fin (cfg5 a).N) :
    ((cfg5 a).win 0).index t = ![t.val, 0, 0] := by
  have ht : t.val < 4000 := lt_of_lt_of_eq t.isLt (outN a)
  show cc5_transform_1 ((cfg5 a).grid.coords t) = _
  unfold cc5_transform_1
  dsimp only
  have hc : (((cfg5 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg5 (F := F)).Adm) (t : Fin (cfg5 a).N) :
    ((cfg5 a).win 0).index t (0 : Fin 3) = t.val := by rw [outIndex]; rfl
private theorem outIndexMid (a : (pcfg5 (F := F)).Adm) (t : Fin (cfg5 a).N) :
    ((cfg5 a).win 0).index t (1 : Fin 3) = 0 := by rw [outIndex]; rfl
private theorem outIndexLane (a : (pcfg5 (F := F)).Adm) (t : Fin (cfg5 a).N) :
    ((cfg5 a).win 0).index t (2 : Fin 3) = 0 := by rw [outIndex]; rfl

/-- Its block index moves at every step, so every point writes its block back. -/
private theorem outFlush (a : (pcfg5 (F := F)).Adm) (t : Fin (cfg5 a).N) : ((cfg5 a).win 0).flush t = true := by
  unfold Window.flush
  rw [Bool.and_eq_true]
  refine ⟨rfl, ?_⟩
  rw [Bool.or_eq_true, decide_eq_true_eq, decide_eq_true_eq]
  have hN : (cfg5 a).grid.N = 4000 := outN a
  have ht : t.val < 4000 := lt_of_lt_of_eq t.isLt (outN a)
  by_cases hlast : t.val + 1 = (cfg5 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg5 (F := F)).Adm) (c : Dev nD) (t : Fin (cfg5 a).N) :
    (gdat5 (F := F) V a c).flushed 0 t
      = (((cfg5 a).win 0).blk t).view.read (Elt F) (gchunk (V c main_v0) (V c main_v11)) := by
  have ht : t.val < 4000 := lt_of_lt_of_eq t.isLt (outN a)
  show ((cfg5 a).win 0).cut ((cfg5 a).grid.coords t) ((gdat5 V a c).after 0 t) = _
  rw [gdat5_after]
  funext y
  show gblock (V c main_v0) (V c main_v11) t.val (((cfg5 a).win 0).xinj ((cfg5 a).grid.coords t) y)
    = gchunk (V c main_v0) (V c main_v11) ((((cfg5 a).win 0).blk t).view.emb y)
  refine blockRow _ _ t.val ht _ _ ?_ ?_
  · show ((cfg5 a).win 0).index t (0 : Fin 3) * 16 + 1 * (y (0 : Fin 3)).val = _
    rw [outIndexRow]
  · show ((cfg5 a).win 0).index t (2 : Fin 3) * 128 + 1 * (y (2 : Fin 3)).val = _
    rw [outIndexLane]

end

/-- An index of the array is in point `t`'s block iff each coordinate is in the block's range on its axis. -/
private theorem memBlock (a : (pcfg5 (F := F)).Adm) (t : Fin (cfg5 a).N) (i : (⟨3, ![64000, 1, 128]⟩ : Shape).Idx) :
    i ∈ (((cfg5 a).win 0).blk t).view.set ↔
      ∀ ax : Fin 3, ((cfg5 a).win 0).index t ax * ((cfg5 a).win 0).size ax ≤ (i ax).val
        ∧ (i ax).val < ((cfg5 a).win 0).index t ax * ((cfg5 a).win 0).size ax + ((cfg5 a).win 0).size ax := by
  have hset : (((cfg5 a).win 0).blk t).view.set = (((cfg5 a).win 0).rect t).set :=
    View.set_slice_whole (Pipeline.arrRef spec5 0) _
  exact (Finset.ext_iff.mp hset i).trans Rect.mem_set_unit

/-- Row `r` of the array is in the block of step `r / 16`: the 4000 blocks of 16 rows tile the 64000 rows. -/
private theorem rowCover (a : (pcfg5 (F := F)).Adm) (i : (⟨3, ![64000, 1, 128]⟩ : Shape).Idx) :
    ∃ t : Fin (cfg5 a).N, ((cfg5 a).win 0).flush t = true ∧ i ∈ (((cfg5 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg5 a).win 0).index _ (0 : Fin 3) * 16 ≤ (i 0).val ∧ (i 0).val < ((cfg5 a).win 0).index _ (0 : Fin 3) * 16 + 16
    rw [outIndexRow]
    show (i 0).val / 16 * 16 ≤ (i 0).val ∧ (i 0).val < (i 0).val / 16 * 16 + 16
    omega
  | ⟨1, _⟩ =>
    show ((cfg5 a).win 0).index _ (1 : Fin 3) * 1 ≤ (i 1).val ∧ (i 1).val < ((cfg5 a).win 0).index _ (1 : Fin 3) * 1 + 1
    rw [outIndexMid]
    omega
  | ⟨2, _⟩ =>
    show ((cfg5 a).win 0).index _ (2 : Fin 3) * 128 ≤ (i 2).val ∧ (i 2).val < ((cfg5 a).win 0).index _ (2 : Fin 3) * 128 + 128
    rw [outIndexLane]
    omega

/-- After gather call 5 its output array holds, row by row, the node-table rows its table's words name: step `t`
    writes rows `16 t … 16 t + 15`, and the 4000 steps' blocks tile the 64000 rows. -/
theorem gather_arr5 (V : (c : Dev nD) → (b : Ref sig .tc) → Buf (Elt F) ((c : Thread nD τ).loc b))
    (a : (pcfg5 (F := F)).Adm) (c : Dev nD) :
    (gdat5 (F := F) V a c).arrAt 0 (cfg5 a).N = gchunk (V c main_v0) (V c main_v11) := by
  exact (gdat5 (F := F) V a c).arrAt_eq_of_cover 0 (gchunk (V c main_v0) (V c main_v11))
    (fun t _ => flushedBlock V a c t) (rowCover a)

end Cert.KernelIdeal.HandValue

end
-- ==== Proof.GatherValue6.lean ====
import proofs.«401076_j19361712571372_2_alg».proof.Proof.Gather6
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg6 (F := F)).Adm) : (cfg6 a).N = 4000 := N_6

/-- The output window's block index at point `t` is `(t, 0, 0)`. -/
private theorem outIndex (a : (pcfg6 (F := F)).Adm) (t : Fin (cfg6 a).N) :
    ((cfg6 a).win 0).index t = ![t.val, 0, 0] := by
  have ht : t.val < 4000 := lt_of_lt_of_eq t.isLt (outN a)
  show cc6_transform_1 ((cfg6 a).grid.coords t) = _
  unfold cc6_transform_1
  dsimp only
  have hc : (((cfg6 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg6 (F := F)).Adm) (t : Fin (cfg6 a).N) :
    ((cfg6 a).win 0).index t (0 : Fin 3) = t.val := by rw [outIndex]; rfl
private theorem outIndexMid (a : (pcfg6 (F := F)).Adm) (t : Fin (cfg6 a).N) :
    ((cfg6 a).win 0).index t (1 : Fin 3) = 0 := by rw [outIndex]; rfl
private theorem outIndexLane (a : (pcfg6 (F := F)).Adm) (t : Fin (cfg6 a).N) :
    ((cfg6 a).win 0).index t (2 : Fin 3) = 0 := by rw [outIndex]; rfl

/-- Its block index moves at every step, so every point writes its block back. -/
private theorem outFlush (a : (pcfg6 (F := F)).Adm) (t : Fin (cfg6 a).N) : ((cfg6 a).win 0).flush t = true := by
  unfold Window.flush
  rw [Bool.and_eq_true]
  refine ⟨rfl, ?_⟩
  rw [Bool.or_eq_true, decide_eq_true_eq, decide_eq_true_eq]
  have hN : (cfg6 a).grid.N = 4000 := outN a
  have ht : t.val < 4000 := lt_of_lt_of_eq t.isLt (outN a)
  by_cases hlast : t.val + 1 = (cfg6 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg6 (F := F)).Adm) (c : Dev nD) (t : Fin (cfg6 a).N) :
    (gdat6 (F := F) V a c).flushed 0 t
      = (((cfg6 a).win 0).blk t).view.read (Elt F) (gchunk (V c main_v0) (V c main_v13)) := by
  have ht : t.val < 4000 := lt_of_lt_of_eq t.isLt (outN a)
  show ((cfg6 a).win 0).cut ((cfg6 a).grid.coords t) ((gdat6 V a c).after 0 t) = _
  rw [gdat6_after]
  funext y
  show gblock (V c main_v0) (V c main_v13) t.val (((cfg6 a).win 0).xinj ((cfg6 a).grid.coords t) y)
    = gchunk (V c main_v0) (V c main_v13) ((((cfg6 a).win 0).blk t).view.emb y)
  refine blockRow _ _ t.val ht _ _ ?_ ?_
  · show ((cfg6 a).win 0).index t (0 : Fin 3) * 16 + 1 * (y (0 : Fin 3)).val = _
    rw [outIndexRow]
  · show ((cfg6 a).win 0).index t (2 : Fin 3) * 128 + 1 * (y (2 : Fin 3)).val = _
    rw [outIndexLane]

end

/-- An index of the array is in point `t`'s block iff each coordinate is in the block's range on its axis. -/
private theorem memBlock (a : (pcfg6 (F := F)).Adm) (t : Fin (cfg6 a).N) (i : (⟨3, ![64000, 1, 128]⟩ : Shape).Idx) :
    i ∈ (((cfg6 a).win 0).blk t).view.set ↔
      ∀ ax : Fin 3, ((cfg6 a).win 0).index t ax * ((cfg6 a).win 0).size ax ≤ (i ax).val
        ∧ (i ax).val < ((cfg6 a).win 0).index t ax * ((cfg6 a).win 0).size ax + ((cfg6 a).win 0).size ax := by
  have hset : (((cfg6 a).win 0).blk t).view.set = (((cfg6 a).win 0).rect t).set :=
    View.set_slice_whole (Pipeline.arrRef spec6 0) _
  exact (Finset.ext_iff.mp hset i).trans Rect.mem_set_unit

/-- Row `r` of the array is in the block of step `r / 16`: the 4000 blocks of 16 rows tile the 64000 rows. -/
private theorem rowCover (a : (pcfg6 (F := F)).Adm) (i : (⟨3, ![64000, 1, 128]⟩ : Shape).Idx) :
    ∃ t : Fin (cfg6 a).N, ((cfg6 a).win 0).flush t = true ∧ i ∈ (((cfg6 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg6 a).win 0).index _ (0 : Fin 3) * 16 ≤ (i 0).val ∧ (i 0).val < ((cfg6 a).win 0).index _ (0 : Fin 3) * 16 + 16
    rw [outIndexRow]
    show (i 0).val / 16 * 16 ≤ (i 0).val ∧ (i 0).val < (i 0).val / 16 * 16 + 16
    omega
  | ⟨1, _⟩ =>
    show ((cfg6 a).win 0).index _ (1 : Fin 3) * 1 ≤ (i 1).val ∧ (i 1).val < ((cfg6 a).win 0).index _ (1 : Fin 3) * 1 + 1
    rw [outIndexMid]
    omega
  | ⟨2, _⟩ =>
    show ((cfg6 a).win 0).index _ (2 : Fin 3) * 128 ≤ (i 2).val ∧ (i 2).val < ((cfg6 a).win 0).index _ (2 : Fin 3) * 128 + 128
    rw [outIndexLane]
    omega

/-- After gather call 6 its output array holds, row by row, the node-table rows its table's words name: step `t`
    writes rows `16 t … 16 t + 15`, and the 4000 steps' blocks tile the 64000 rows. -/
theorem gather_arr6 (V : (c : Dev nD) → (b : Ref sig .tc) → Buf (Elt F) ((c : Thread nD τ).loc b))
    (a : (pcfg6 (F := F)).Adm) (c : Dev nD) :
    (gdat6 (F := F) V a c).arrAt 0 (cfg6 a).N = gchunk (V c main_v0) (V c main_v13) := by
  exact (gdat6 (F := F) V a c).arrAt_eq_of_cover 0 (gchunk (V c main_v0) (V c main_v13))
    (fun t _ => flushedBlock V a c t) (rowCover a)

end Cert.KernelIdeal.HandValue

end
-- ==== Proof.GatherValue7.lean ====
import proofs.«401076_j19361712571372_2_alg».proof.Proof.Gather7
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg7 (F := F)).Adm) : (cfg7 a).N = 4000 := N_7

/-- The output window's block index at point `t` is `(t, 0, 0)`. -/
private theorem outIndex (a : (pcfg7 (F := F)).Adm) (t : Fin (cfg7 a).N) :
    ((cfg7 a).win 0).index t = ![t.val, 0, 0] := by
  have ht : t.val < 4000 := lt_of_lt_of_eq t.isLt (outN a)
  show cc7_transform_1 ((cfg7 a).grid.coords t) = _
  unfold cc7_transform_1
  dsimp only
  have hc : (((cfg7 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg7 (F := F)).Adm) (t : Fin (cfg7 a).N) :
    ((cfg7 a).win 0).index t (0 : Fin 3) = t.val := by rw [outIndex]; rfl
private theorem outIndexMid (a : (pcfg7 (F := F)).Adm) (t : Fin (cfg7 a).N) :
    ((cfg7 a).win 0).index t (1 : Fin 3) = 0 := by rw [outIndex]; rfl
private theorem outIndexLane (a : (pcfg7 (F := F)).Adm) (t : Fin (cfg7 a).N) :
    ((cfg7 a).win 0).index t (2 : Fin 3) = 0 := by rw [outIndex]; rfl

/-- Its block index moves at every step, so every point writes its block back. -/
private theorem outFlush (a : (pcfg7 (F := F)).Adm) (t : Fin (cfg7 a).N) : ((cfg7 a).win 0).flush t = true := by
  unfold Window.flush
  rw [Bool.and_eq_true]
  refine ⟨rfl, ?_⟩
  rw [Bool.or_eq_true, decide_eq_true_eq, decide_eq_true_eq]
  have hN : (cfg7 a).grid.N = 4000 := outN a
  have ht : t.val < 4000 := lt_of_lt_of_eq t.isLt (outN a)
  by_cases hlast : t.val + 1 = (cfg7 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg7 (F := F)).Adm) (c : Dev nD) (t : Fin (cfg7 a).N) :
    (gdat7 (F := F) V a c).flushed 0 t
      = (((cfg7 a).win 0).blk t).view.read (Elt F) (gchunk (V c main_v0) (V c main_v15)) := by
  have ht : t.val < 4000 := lt_of_lt_of_eq t.isLt (outN a)
  show ((cfg7 a).win 0).cut ((cfg7 a).grid.coords t) ((gdat7 V a c).after 0 t) = _
  rw [gdat7_after]
  funext y
  show gblock (V c main_v0) (V c main_v15) t.val (((cfg7 a).win 0).xinj ((cfg7 a).grid.coords t) y)
    = gchunk (V c main_v0) (V c main_v15) ((((cfg7 a).win 0).blk t).view.emb y)
  refine blockRow _ _ t.val ht _ _ ?_ ?_
  · show ((cfg7 a).win 0).index t (0 : Fin 3) * 16 + 1 * (y (0 : Fin 3)).val = _
    rw [outIndexRow]
  · show ((cfg7 a).win 0).index t (2 : Fin 3) * 128 + 1 * (y (2 : Fin 3)).val = _
    rw [outIndexLane]

end

/-- An index of the array is in point `t`'s block iff each coordinate is in the block's range on its axis. -/
private theorem memBlock (a : (pcfg7 (F := F)).Adm) (t : Fin (cfg7 a).N) (i : (⟨3, ![64000, 1, 128]⟩ : Shape).Idx) :
    i ∈ (((cfg7 a).win 0).blk t).view.set ↔
      ∀ ax : Fin 3, ((cfg7 a).win 0).index t ax * ((cfg7 a).win 0).size ax ≤ (i ax).val
        ∧ (i ax).val < ((cfg7 a).win 0).index t ax * ((cfg7 a).win 0).size ax + ((cfg7 a).win 0).size ax := by
  have hset : (((cfg7 a).win 0).blk t).view.set = (((cfg7 a).win 0).rect t).set :=
    View.set_slice_whole (Pipeline.arrRef spec7 0) _
  exact (Finset.ext_iff.mp hset i).trans Rect.mem_set_unit

/-- Row `r` of the array is in the block of step `r / 16`: the 4000 blocks of 16 rows tile the 64000 rows. -/
private theorem rowCover (a : (pcfg7 (F := F)).Adm) (i : (⟨3, ![64000, 1, 128]⟩ : Shape).Idx) :
    ∃ t : Fin (cfg7 a).N, ((cfg7 a).win 0).flush t = true ∧ i ∈ (((cfg7 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg7 a).win 0).index _ (0 : Fin 3) * 16 ≤ (i 0).val ∧ (i 0).val < ((cfg7 a).win 0).index _ (0 : Fin 3) * 16 + 16
    rw [outIndexRow]
    show (i 0).val / 16 * 16 ≤ (i 0).val ∧ (i 0).val < (i 0).val / 16 * 16 + 16
    omega
  | ⟨1, _⟩ =>
    show ((cfg7 a).win 0).index _ (1 : Fin 3) * 1 ≤ (i 1).val ∧ (i 1).val < ((cfg7 a).win 0).index _ (1 : Fin 3) * 1 + 1
    rw [outIndexMid]
    omega
  | ⟨2, _⟩ =>
    show ((cfg7 a).win 0).index _ (2 : Fin 3) * 128 ≤ (i 2).val ∧ (i 2).val < ((cfg7 a).win 0).index _ (2 : Fin 3) * 128 + 128
    rw [outIndexLane]
    omega

/-- After gather call 7 its output array holds, row by row, the node-table rows its table's words name: step `t`
    writes rows `16 t … 16 t + 15`, and the 4000 steps' blocks tile the 64000 rows. -/
theorem gather_arr7 (V : (c : Dev nD) → (b : Ref sig .tc) → Buf (Elt F) ((c : Thread nD τ).loc b))
    (a : (pcfg7 (F := F)).Adm) (c : Dev nD) :
    (gdat7 (F := F) V a c).arrAt 0 (cfg7 a).N = gchunk (V c main_v0) (V c main_v15) := by
  exact (gdat7 (F := F) V a c).arrAt_eq_of_cover 0 (gchunk (V c main_v0) (V c main_v15))
    (fun t _ => flushedBlock V a c t) (rowCover a)

end Cert.KernelIdeal.HandValue

end
-- ==== Proof.GatherValue8.lean ====
import proofs.«401076_j19361712571372_2_alg».proof.Proof.Gather8
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg8 (F := F)).Adm) : (cfg8 a).N = 4000 := N_8

/-- The output window's block index at point `t` is `(t, 0, 0)`. -/
private theorem outIndex (a : (pcfg8 (F := F)).Adm) (t : Fin (cfg8 a).N) :
    ((cfg8 a).win 0).index t = ![t.val, 0, 0] := by
  have ht : t.val < 4000 := lt_of_lt_of_eq t.isLt (outN a)
  show cc8_transform_1 ((cfg8 a).grid.coords t) = _
  unfold cc8_transform_1
  dsimp only
  have hc : (((cfg8 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg8 (F := F)).Adm) (t : Fin (cfg8 a).N) :
    ((cfg8 a).win 0).index t (0 : Fin 3) = t.val := by rw [outIndex]; rfl
private theorem outIndexMid (a : (pcfg8 (F := F)).Adm) (t : Fin (cfg8 a).N) :
    ((cfg8 a).win 0).index t (1 : Fin 3) = 0 := by rw [outIndex]; rfl
private theorem outIndexLane (a : (pcfg8 (F := F)).Adm) (t : Fin (cfg8 a).N) :
    ((cfg8 a).win 0).index t (2 : Fin 3) = 0 := by rw [outIndex]; rfl

/-- Its block index moves at every step, so every point writes its block back. -/
private theorem outFlush (a : (pcfg8 (F := F)).Adm) (t : Fin (cfg8 a).N) : ((cfg8 a).win 0).flush t = true := by
  unfold Window.flush
  rw [Bool.and_eq_true]
  refine ⟨rfl, ?_⟩
  rw [Bool.or_eq_true, decide_eq_true_eq, decide_eq_true_eq]
  have hN : (cfg8 a).grid.N = 4000 := outN a
  have ht : t.val < 4000 := lt_of_lt_of_eq t.isLt (outN a)
  by_cases hlast : t.val + 1 = (cfg8 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg8 (F := F)).Adm) (c : Dev nD) (t : Fin (cfg8 a).N) :
    (gdat8 (F := F) V a c).flushed 0 t
      = (((cfg8 a).win 0).blk t).view.read (Elt F) (gchunk (V c main_v0) (V c main_v17)) := by
  have ht : t.val < 4000 := lt_of_lt_of_eq t.isLt (outN a)
  show ((cfg8 a).win 0).cut ((cfg8 a).grid.coords t) ((gdat8 V a c).after 0 t) = _
  rw [gdat8_after]
  funext y
  show gblock (V c main_v0) (V c main_v17) t.val (((cfg8 a).win 0).xinj ((cfg8 a).grid.coords t) y)
    = gchunk (V c main_v0) (V c main_v17) ((((cfg8 a).win 0).blk t).view.emb y)
  refine blockRow _ _ t.val ht _ _ ?_ ?_
  · show ((cfg8 a).win 0).index t (0 : Fin 3) * 16 + 1 * (y (0 : Fin 3)).val = _
    rw [outIndexRow]
  · show ((cfg8 a).win 0).index t (2 : Fin 3) * 128 + 1 * (y (2 : Fin 3)).val = _
    rw [outIndexLane]

end

/-- An index of the array is in point `t`'s block iff each coordinate is in the block's range on its axis. -/
private theorem memBlock (a : (pcfg8 (F := F)).Adm) (t : Fin (cfg8 a).N) (i : (⟨3, ![64000, 1, 128]⟩ : Shape).Idx) :
    i ∈ (((cfg8 a).win 0).blk t).view.set ↔
      ∀ ax : Fin 3, ((cfg8 a).win 0).index t ax * ((cfg8 a).win 0).size ax ≤ (i ax).val
        ∧ (i ax).val < ((cfg8 a).win 0).index t ax * ((cfg8 a).win 0).size ax + ((cfg8 a).win 0).size ax := by
  have hset : (((cfg8 a).win 0).blk t).view.set = (((cfg8 a).win 0).rect t).set :=
    View.set_slice_whole (Pipeline.arrRef spec8 0) _
  exact (Finset.ext_iff.mp hset i).trans Rect.mem_set_unit

/-- Row `r` of the array is in the block of step `r / 16`: the 4000 blocks of 16 rows tile the 64000 rows. -/
private theorem rowCover (a : (pcfg8 (F := F)).Adm) (i : (⟨3, ![64000, 1, 128]⟩ : Shape).Idx) :
    ∃ t : Fin (cfg8 a).N, ((cfg8 a).win 0).flush t = true ∧ i ∈ (((cfg8 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg8 a).win 0).index _ (0 : Fin 3) * 16 ≤ (i 0).val ∧ (i 0).val < ((cfg8 a).win 0).index _ (0 : Fin 3) * 16 + 16
    rw [outIndexRow]
    show (i 0).val / 16 * 16 ≤ (i 0).val ∧ (i 0).val < (i 0).val / 16 * 16 + 16
    omega
  | ⟨1, _⟩ =>
    show ((cfg8 a).win 0).index _ (1 : Fin 3) * 1 ≤ (i 1).val ∧ (i 1).val < ((cfg8 a).win 0).index _ (1 : Fin 3) * 1 + 1
    rw [outIndexMid]
    omega
  | ⟨2, _⟩ =>
    show ((cfg8 a).win 0).index _ (2 : Fin 3) * 128 ≤ (i 2).val ∧ (i 2).val < ((cfg8 a).win 0).index _ (2 : Fin 3) * 128 + 128
    rw [outIndexLane]
    omega

/-- After gather call 8 its output array holds, row by row, the node-table rows its table's words name: step `t`
    writes rows `16 t … 16 t + 15`, and the 4000 steps' blocks tile the 64000 rows. -/
theorem gather_arr8 (V : (c : Dev nD) → (b : Ref sig .tc) → Buf (Elt F) ((c : Thread nD τ).loc b))
    (a : (pcfg8 (F := F)).Adm) (c : Dev nD) :
    (gdat8 (F := F) V a c).arrAt 0 (cfg8 a).N = gchunk (V c main_v0) (V c main_v17) := by
  exact (gdat8 (F := F) V a c).arrAt_eq_of_cover 0 (gchunk (V c main_v0) (V c main_v17))
    (fun t _ => flushedBlock V a c t) (rowCover a)

end Cert.KernelIdeal.HandValue

end
-- ==== Proof.GatherValue9.lean ====
import proofs.«401076_j19361712571372_2_alg».proof.Proof.Gather9
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand Cert.Proof.GSpec
open Idealize.ShloMosaic Idealize.ShloMosaic.TcCoe
open Idealize.ShloMosaic.Pipeline (Dat Cfg Window)

variable {F : FTy → Type} [FloatOps F]

/-! ## The output window's schedule, whatever the table holds -/

/-- The call runs on 4000 grid points. -/
private theorem outN (a : (pcfg9 (F := F)).Adm) : (cfg9 a).N = 4000 := N_9

/-- The output window's block index at point `t` is `(t, 0, 0)`. -/
private theorem outIndex (a : (pcfg9 (F := F)).Adm) (t : Fin (cfg9 a).N) :
    ((cfg9 a).win 0).index t = ![t.val, 0, 0] := by
  have ht : t.val < 4000 := lt_of_lt_of_eq t.isLt (outN a)
  show cc9_transform_1 ((cfg9 a).grid.coords t) = _
  unfold cc9_transform_1
  dsimp only
  have hc : (((cfg9 a).grid.coords t) 0).val = t.val := by
    show t.val / 1 % 4000 = t.val
    omega
  rw [BitVec.toNat_ofNat, hc]
  have hm : t.val % 2 ^ 32 = t.val := Nat.mod_eq_of_lt (by omega)
  rw [hm]
  rfl

/-- Axis by axis: the row axis counts the steps, the other two stay at zero. -/
private theorem outIndexRow (a : (pcfg9 (F := F)).Adm) (t : Fin (cfg9 a).N) :
    ((cfg9 a).win 0).index t (0 : Fin 3) = t.val := by rw [outIndex]; rfl
private theorem outIndexMid (a : (pcfg9 (F := F)).Adm) (t : Fin (cfg9 a).N) :
    ((cfg9 a).win 0).index t (1 : Fin 3) = 0 := by rw [outIndex]; rfl
private theorem outIndexLane (a : (pcfg9 (F := F)).Adm) (t : Fin (cfg9 a).N) :
    ((cfg9 a).win 0).index t (2 : Fin 3) = 0 := by rw [outIndex]; rfl

/-- Its block index moves at every step, so every point writes its block back. -/
private theorem outFlush (a : (pcfg9 (F := F)).Adm) (t : Fin (cfg9 a).N) : ((cfg9 a).win 0).flush t = true := by
  unfold Window.flush
  rw [Bool.and_eq_true]
  refine ⟨rfl, ?_⟩
  rw [Bool.or_eq_true, decide_eq_true_eq, decide_eq_true_eq]
  have hN : (cfg9 a).grid.N = 4000 := outN a
  have ht : t.val < 4000 := lt_of_lt_of_eq t.isLt (outN a)
  by_cases hlast : t.val + 1 = (cfg9 a).grid.N
  · exact Or.inl hlast
  · refine Or.inr ⟨by omega, fun he => ?_⟩
    have hrow := congrFun he (0 : Fin 3)
    rw [outIndexRow, outIndexRow] at hrow
    exact absurd hrow (Nat.succ_ne_self _)

/-! ## One block of the result is the rows the table's words name -/

/-- Row `j` of step `n`'s block is row `16 n + j` of the whole gathered array: below 64000 the reduction of the
    table index changes nothing. -/
private theorem blockRow {α : Type} (tb : (⟨3, ![50000, 1, 128]⟩ : Shape).Idx → α)
    (pf : (⟨1, ![64000]⟩ : Shape).Idx → BitVec 32) (n : ℕ) (hn : n < 4000)
    (y : (⟨3, ![16, 1, 128]⟩ : Shape).Idx) (i : (⟨3, ![64000, 1, 128]⟩ : Shape).Idx)
    (hrow : (i 0).val = n * 16 + 1 * (y 0).val) (hlane : (i 2).val = 0 * 128 + 1 * (y 2).val) :
    gblock tb pf n y = gchunk tb pf i := by
  have hy : (y 0).val < 16 := (y 0).isLt
  unfold gblock gchunk gword
  have hw : (⟨(16 * n + (y 0).val) % 64000, Nat.mod_lt _ (by decide)⟩ : Fin 64000) = i 0 := by
    apply Fin.ext
    show (16 * n + (y 0).val) % 64000 = (i 0).val
    rw [hrow, Nat.mod_eq_of_lt (by omega)]
    omega
  have hl : y 2 = i 2 := by
    apply Fin.ext
    rw [hlane]
    omega
  rw [hw, hl]

section
variable (V : (c : Dev nD) → (b : Ref sig .tc) → Buf (Elt F) ((c : Thread nD τ).loc b))

/-- What point `t` writes back is block `t` of the whole gathered array. -/
private theorem flushedBlock (a : (pcfg9 (F := F)).Adm) (c : Dev nD) (t : Fin (cfg9 a).N) :
    (gdat9 (F := F) V a c).flushed 0 t
      = (((cfg9 a).win 0).blk t).view.read (Elt F) (gchunk (V c main_v0) (V c main_v19)) := by
  have ht : t.val < 4000 := lt_of_lt_of_eq t.isLt (outN a)
  show ((cfg9 a).win 0).cut ((cfg9 a).grid.coords t) ((gdat9 V a c).after 0 t) = _
  rw [gdat9_after]
  funext y
  show gblock (V c main_v0) (V c main_v19) t.val (((cfg9 a).win 0).xinj ((cfg9 a).grid.coords t) y)
    = gchunk (V c main_v0) (V c main_v19) ((((cfg9 a).win 0).blk t).view.emb y)
  refine blockRow _ _ t.val ht _ _ ?_ ?_
  · show ((cfg9 a).win 0).index t (0 : Fin 3) * 16 + 1 * (y (0 : Fin 3)).val = _
    rw [outIndexRow]
  · show ((cfg9 a).win 0).index t (2 : Fin 3) * 128 + 1 * (y (2 : Fin 3)).val = _
    rw [outIndexLane]

end

/-- An index of the array is in point `t`'s block iff each coordinate is in the block's range on its axis. -/
private theorem memBlock (a : (pcfg9 (F := F)).Adm) (t : Fin (cfg9 a).N) (i : (⟨3, ![64000, 1, 128]⟩ : Shape).Idx) :
    i ∈ (((cfg9 a).win 0).blk t).view.set ↔
      ∀ ax : Fin 3, ((cfg9 a).win 0).index t ax * ((cfg9 a).win 0).size ax ≤ (i ax).val
        ∧ (i ax).val < ((cfg9 a).win 0).index t ax * ((cfg9 a).win 0).size ax + ((cfg9 a).win 0).size ax := by
  have hset : (((cfg9 a).win 0).blk t).view.set = (((cfg9 a).win 0).rect t).set :=
    View.set_slice_whole (Pipeline.arrRef spec9 0) _
  exact (Finset.ext_iff.mp hset i).trans Rect.mem_set_unit

/-- Row `r` of the array is in the block of step `r / 16`: the 4000 blocks of 16 rows tile the 64000 rows. -/
private theorem rowCover (a : (pcfg9 (F := F)).Adm) (i : (⟨3, ![64000, 1, 128]⟩ : Shape).Idx) :
    ∃ t : Fin (cfg9 a).N, ((cfg9 a).win 0).flush t = true ∧ i ∈ (((cfg9 a).win 0).blk t).view.set := by
  have hrow : (i 0).val < 64000 := (i 0).isLt
  have hmid : (i 1).val < 1 := (i 1).isLt
  have hlane : (i 2).val < 128 := (i 2).isLt
  refine ⟨⟨(i 0).val / 16, by rw [outN]; omega⟩, outFlush a _, ?_⟩
  rw [memBlock]
  intro ax
  match ax with
  | ⟨0, _⟩ =>
    show ((cfg9 a).win 0).index _ (0 : Fin 3) * 16 ≤ (i 0).val ∧ (i 0).val < ((cfg9 a).win 0).index _ (0 : Fin 3) * 16 + 16
    rw [outIndexRow]
    show (i 0).val / 16 * 16 ≤ (i 0).val ∧ (i 0).val < (i 0).val / 16 * 16 + 16
    omega
  | ⟨1, _⟩ =>
    show ((cfg9 a).win 0).index _ (1 : Fin 3) * 1 ≤ (i 1).val ∧ (i 1).val < ((cfg9 a).win 0).index _ (1 : Fin 3) * 1 + 1
    rw [outIndexMid]
    omega
  | ⟨2, _⟩ =>
    show ((cfg9 a).win 0).index _ (2 : Fin 3) * 128 ≤ (i 2).val ∧ (i 2).val < ((cfg9 a).win 0).index _ (2 : Fin 3) * 128 + 128
    rw [outIndexLane]
    omega

/-- After gather call 9 its output array holds, row by row, the node-table rows its table's words name: step `t`
    writes rows `16 t … 16 t + 15`, and the 4000 steps' blocks tile the 64000 rows. -/
theorem gather_arr9 (V : (c : Dev nD) → (b : Ref sig .tc) → Buf (Elt F) ((c : Thread nD τ).loc b))
    (a : (pcfg9 (F := F)).Adm) (c : Dev nD) :
    (gdat9 (F := F) V a c).arrAt 0 (cfg9 a).N = gchunk (V c main_v0) (V c main_v19) := by
  exact (gdat9 (F := F) V a c).arrAt_eq_of_cover 0 (gchunk (V c main_v0) (V c main_v19))
    (fun t _ => flushedBlock V a c t) (rowCover a)

end Cert.KernelIdeal.HandValue

end
-- ==== Proof.KernelValue.lean ====
import proofs.«401076_j19361712571372_2_alg».proof.Proof.RunChain
import proofs.«401076_j19361712571372_2_alg».proof.Proof.GatherValue0
import proofs.«401076_j19361712571372_2_alg».proof.Proof.GatherValue1
import proofs.«401076_j19361712571372_2_alg».proof.Proof.GatherValue2
import proofs.«401076_j19361712571372_2_alg».proof.Proof.GatherValue3
import proofs.«401076_j19361712571372_2_alg».proof.Proof.GatherValue4
import proofs.«401076_j19361712571372_2_alg».proof.Proof.GatherValue5
import proofs.«401076_j19361712571372_2_alg».proof.Proof.GatherValue6
import proofs.«401076_j19361712571372_2_alg».proof.Proof.GatherValue7
import proofs.«401076_j19361712571372_2_alg».proof.Proof.GatherValue8
import proofs.«401076_j19361712571372_2_alg».proof.Proof.GatherValue9
import proofs.«401076_j19361712571372_2_alg».proof.Proof.MsgValue
import proofs.«401076_j19361712571372_2_alg».proof.Proof.ProjValue
import Idealize.ShloMosaic.Lib.StableHlo.Run

set_option maxRecDepth 16384

noncomputable section

namespace Cert.KernelIdeal.HandValue

open Cert.KernelIdeal Cert.KernelIdeal.Gen Cert.KernelIdeal.Hand Cert.Proof.GSpec Cert.Proof.PSpec
open Idealize.ShloMosaic Idealize.ShloMosaic.TcCoe

variable {F : FTy → Type} [FloatOps F]

/-- Reads a buffer's contents back through the items of @main that do not write it: a kernel call none of whose
    arrays it is, a host stretch none of whose results it is. Stops at the item that writes it. -/
macro "walk_back" : tactic => `(tactic| repeat (first
  | (rw [W22_of_ne]; rotate_left; decide)
  | (rw [W21_of_ne]; rotate_left; decide)
  | (rw [W20_of_ne]; rotate_left; decide)
  | (rw [W19_of_ne]; rotate_left; decide)
  | (rw [W18_of_ne]; rotate_left; decide)
  | (rw [W17_of_ne]; rotate_left; decide)
  | (rw [W16_of_ne]; rotate_left; decide)
  | (rw [W15_of_ne]; rotate_left; decide)
  | (rw [W14_of_ne]; rotate_left; decide)
  | (rw [W13_of_ne]; rotate_left; decide)
  | (rw [W12_of_ne]; rotate_left; decide)
  | (rw [W11_of_ne]; rotate_left; decide)
  | (rw [W10_of_ne]; rotate_left; decide)
  | (rw [W9_of_ne]; rotate_left; decide)
  | (rw [W8_of_ne]; rotate_left; decide)
  | (rw [W7_of_ne]; rotate_left; decide)
  | (rw [W6_of_ne]; rotate_left; decide)
  | (rw [W5_of_ne]; rotate_left; decide)
  | (rw [W4_of_ne]; rotate_left; decide)
  | (rw [W3_of_ne]; rotate_left; decide)
  | (rw [W2_of_ne]; rotate_left; decide)
  | (rw [W1_of_ne]; rotate_left; decide)))

/-- The node table after the first host stretch: the features with a unit middle axis. -/
theorem W1_main_v0 (m : (ℓ : Loc nD τ sig) → Buf (Elt F) ℓ) (ρ : Dev nD → PrngReg) (c : Dev nD) :
    W1 m ρ c (Proc.devRef .tc main_v0)
      = shapeCast S50000x1x128 (m ((c.tc : Thread nD τ).loc main_arg0)) Facts₀.shapeCasts_S50000x128_S50000x1x128 := by
  unfold W1
  after_results
  all_goals rw [W0_args m ρ c main_arg0 (by decide)]
  rfl

/-! ## The ten gathered arrays at the last gather call's exit

Call `k` leaves in its output array the node-table rows its chunk of the edge sources names (`gather_arr⟨k⟩`); the
node table it reads is the one the first host stretch wrote, which no later item writes; its chunk is words
`64000 k …` of the edge-source argument (`W⟨2k+1⟩_table`); and no later item before the projection call writes
its output array. -/

theorem W20_main_v2 (m : (ℓ : Loc nD τ sig) → Buf (Elt F) ℓ) (ρ : Dev nD → PrngReg) (c : Dev nD) :
    W20 m ρ c (Proc.devRef .tc main_v2)
      = gchunk (shapeCast S50000x1x128 (m ((c.tc : Thread nD τ).loc main_arg0)) Facts₀.shapeCasts_S50000x128_S50000x1x128)
          (extractStridedSlice S64000 ![0] (m ((c.tc : Thread nD τ).loc main_arg1)) Facts₀.slices_S640000_S64000_0) := by
  walk_back
  refine (W2_arr m ρ c 0).trans ((gather_arr0 (V1 m ρ) (ga0 m ρ) c).trans (congrArg₂ gchunk ?_ (W1_table m ρ c)))
  show W1 m ρ c (Proc.devRef .tc main_v0) = _
  exact W1_main_v0 m ρ c

theorem W20_main_v4 (m : (ℓ : Loc nD τ sig) → Buf (Elt F) ℓ) (ρ : Dev nD → PrngReg) (c : Dev nD) :
    W20 m ρ c (Proc.devRef .tc main_v4)
      = gchunk (shapeCast S50000x1x128 (m ((c.tc : Thread nD τ).loc main_arg0)) Facts₀.shapeCasts_S50000x128_S50000x1x128)
          (extractStridedSlice S64000 ![64000] (m ((c.tc : Thread nD τ).loc main_arg1)) Facts₀.slices_S640000_S64000_64000) := by
  walk_back
  refine (W4_arr m ρ c 0).trans ((gather_arr1 (V3 m ρ) (ga1 m ρ) c).trans (congrArg₂ gchunk ?_ (W3_table m ρ c)))
  show W3 m ρ c (Proc.devRef .tc main_v0) = _
  walk_back
  exact W1_main_v0 m ρ c

theorem W20_main_v6 (m : (ℓ : Loc nD τ sig) → Buf (Elt F) ℓ) (ρ : Dev nD → PrngReg) (c : Dev nD) :
    W20 m ρ c (Proc.devRef .tc main_v6)
      = gchunk (shapeCast S50000x1x128 (m ((c.tc : Thread nD τ).loc main_arg0)) Facts₀.shapeCasts_S50000x128_S50000x1x128)
          (extractStridedSlice S64000 ![128000] (m ((c.tc : Thread nD τ).loc main_arg1)) Facts₀.slices_S640000_S64000_128000) := by
  walk_back
  refine (W6_arr m ρ c 0).trans ((gather_arr2 (V5 m ρ) (ga2 m ρ) c).trans (congrArg₂ gchunk ?_ (W5_table m ρ c)))
  show W5 m ρ c (Proc.devRef .tc main_v0) = _
  walk_back
  exact W1_main_v0 m ρ c

theorem W20_main_v8 (m : (ℓ : Loc nD τ sig) → Buf (Elt F) ℓ) (ρ : Dev nD → PrngReg) (c : Dev nD) :
    W20 m ρ c (Proc.devRef .tc main_v8)
      = gchunk (shapeCast S50000x1x128 (m ((c.tc : Thread nD τ).loc main_arg0)) Facts₀.shapeCasts_S50000x128_S50000x1x128)
          (extractStridedSlice S64000 ![192000] (m ((c.tc : Thread nD τ).loc main_arg1)) Facts₀.slices_S640000_S64000_192000) := by
  walk_back
  refine (W8_arr m ρ c 0).trans ((gather_arr3 (V7 m ρ) (ga3 m ρ) c).trans (congrArg₂ gchunk ?_ (W7_table m ρ c)))
  show W7 m ρ c (Proc.devRef .tc main_v0) = _
  walk_back
  exact W1_main_v0 m ρ c

theorem W20_main_v10 (m : (ℓ : Loc nD τ sig) → Buf (Elt F) ℓ) (ρ : Dev nD → PrngReg) (c : Dev nD) :
    W20 m ρ c (Proc.devRef .tc main_v10)
      = gchunk (shapeCast S50000x1x128 (m ((c.tc : Thread nD τ).loc main_arg0)) Facts₀.shapeCasts_S50000x128_S50000x1x128)
          (extractStridedSlice S64000 ![256000] (m ((c.tc : Thread nD τ).loc main_arg1)) Facts₀.slices_S640000_S64000_256000) := by
  walk_back
  refine (W10_arr m ρ c 0).trans ((gather_arr4 (V9 m ρ) (ga4 m ρ) c).trans (congrArg₂ gchunk ?_ (W9_table m ρ c)))
  show W9 m ρ c (Proc.devRef .tc main_v0) = _
  walk_back
  exact W1_main_v0 m ρ c

theorem W20_main_v12 (m : (ℓ : Loc nD τ sig) → Buf (Elt F) ℓ) (ρ : Dev nD → PrngReg) (c : Dev nD) :
    W20 m ρ c (Proc.devRef .tc main_v12)
      = gchunk (shapeCast S50000x1x128 (m ((c.tc : Thread nD τ).loc main_arg0)) Facts₀.shapeCasts_S50000x128_S50000x1x128)
          (extractStridedSlice S64000 ![320000] (m ((c.tc : Thread nD τ).loc main_arg1)) Facts₀.slices_S640000_S64000_320000) := by
  walk_back
  refine (W12_arr m ρ c 0).trans ((gather_arr5 (V11 m ρ) (ga5 m ρ) c).trans (congrArg₂ gchunk ?_ (W11_table m ρ c)))
  show W11 m ρ c (Proc.devRef .tc main_v0) = _
  walk_back
  exact W1_main_v0 m ρ c

theorem W20_main_v14 (m : (ℓ : Loc nD τ sig) → Buf (Elt F) ℓ) (ρ : Dev nD → PrngReg) (c : Dev nD) :
    W20 m ρ c (Proc.devRef .tc main_v14)
      = gchunk (shapeCast S50000x1x128 (m ((c.tc : Thread nD τ).loc main_arg0)) Facts₀.shapeCasts_S50000x128_S50000x1x128)
          (extractStridedSlice S64000 ![384000] (m ((c.tc : Thread nD τ).loc main_arg1)) Facts₀.slices_S640000_S64000_384000) := by
  walk_back
  refine (W14_arr m ρ c 0).trans ((gather_arr6 (V13 m ρ) (ga6 m ρ) c).trans (congrArg₂ gchunk ?_ (W13_table m ρ c)))
  show W13 m ρ c (Proc.devRef .tc main_v0) = _
  walk_back
  exact W1_main_v0 m ρ c

theorem W20_main_v16 (m : (ℓ : Loc nD τ sig) → Buf (Elt F) ℓ) (ρ : Dev nD → PrngReg) (c : Dev nD) :
    W20 m ρ c (Proc.devRef .tc main_v16)
      = gchunk (shapeCast S50000x1x128 (m ((c.tc : Thread nD τ).loc main_arg0)) Facts₀.shapeCasts_S50000x128_S50000x1x128)
          (extractStridedSlice S64000 ![448000] (m ((c.tc : Thread nD τ).loc main_arg1)) Facts₀.slices_S640000_S64000_448000) := by
  walk_back
  refine (W16_arr m ρ c 0).trans ((gather_arr7 (V15 m ρ) (ga7 m ρ) c).trans (congrArg₂ gchunk ?_ (W15_table m ρ c)))
  show W15 m ρ c (Proc.devRef .tc main_v0) = _
  walk_back
  exact W1_main_v0 m ρ c

theorem W20_main_v18 (m : (ℓ : Loc nD τ sig) → Buf (Elt F) ℓ) (ρ : Dev nD → PrngReg) (c : Dev nD) :
    W20 m ρ c (Proc.devRef .tc main_v18)
      = gchunk (shapeCast S50000x1x128 (m ((c.tc : Thread nD τ).loc main_arg0)) Facts₀.shapeCasts_S50000x128_S50000x1x128)
          (extractStridedSlice S64000 ![512000] (m ((c.tc : Thread nD τ).loc main_arg1)) Facts₀.slices_S640000_S64000_512000) := by
  walk_back
  refine (W18_arr m ρ c 0).trans ((gather_arr8 (V17 m ρ) (ga8 m ρ) c).trans (congrArg₂ gchunk ?_ (W17_table m ρ c)))
  show W17 m ρ c (Proc.devRef .tc main_v0) = _
  walk_back
  exact W1_main_v0 m ρ c

theorem W20_main_v20 (m : (ℓ : Loc nD τ sig) → Buf (Elt F) ℓ) (ρ : Dev nD → PrngReg) (c : Dev nD) :
    W20 m ρ c (Proc.devRef .tc main_v20)
      = gchunk (shapeCast S50000x1x128 (m ((c.tc : Thread nD τ).loc main_arg0)) Facts₀.shapeCasts_S50000x128_S50000x1x128)
          (extractStridedSlice S64000 ![576000] (m ((c.tc : Thread nD τ).loc main_arg1)) Facts₀.slices_S640000_S64000_576000) := by
  refine (W20_arr m ρ c 0).trans ((gather_arr9 (V19 m ρ) (ga9 m ρ) c).trans (congrArg₂ gchunk ?_ (W19_table m ρ c)))
  show W19 m ρ c (Proc.devRef .tc main_v0) = _
  walk_back
  exact W1_main_v0 m ρ c

/-! ## The last host stretch -/

/-- What the last host stretch leaves in the scatter-add's result buffer, from any contents: the scatter-add, into a
    zero array by the broadcast destinations, of the reshaped concatenation of the ten gathered arrays. -/
theorem after10_main_v25 (V : Valuation τ sig (Elt F)) :
    StableHlo.after hostOps10 V (Proc.devRef .tc main_v25)
      = Host.scatterAdd (F := F) scatter_S50000x128_S640000x1_S640000x128_1_0_0_1
          (broadcastInDim S50000x128 ![] Facts₀.bcast_S_S50000x128 (constant (F := F) S_ .f32 0x00000000#32))
          (broadcastInDim S640000x1 ![0] Facts₀.bcast_S640000_S640000x1_0 (V (Proc.devRef .tc main_arg2)))
          (shapeCast S640000x128
            (concatenate S640000x1x128 0
              [⟨S64000x1x128, V (Proc.devRef .tc main_v2)⟩, ⟨S64000x1x128, V (Proc.devRef .tc main_v4)⟩,
               ⟨S64000x1x128, V (Proc.devRef .tc main_v6)⟩, ⟨S64000x1x128, V (Proc.devRef .tc main_v8)⟩,
               ⟨S64000x1x128, V (Proc.devRef .tc main_v10)⟩, ⟨S64000x1x128, V (Proc.devRef .tc main_v12)⟩,
               ⟨S64000x1x128, V (Proc.devRef .tc main_v14)⟩, ⟨S64000x1x128, V (Proc.devRef .tc main_v16)⟩,
               ⟨S64000x1x128, V (Proc.devRef .tc main_v18)⟩, ⟨S64000x1x128, V (Proc.devRef .tc main_v20)⟩]
              Facts₀.concatenates_S64000x1x128_S64000x1x128_S64000x1x128_S64000x1x128_S64000x1x128_S64000x1x128_S64000x1x128_S64000x1x128_S64000x1x128_S64000x1x128_S640000x1x128_d0)
            Facts₀.shapeCasts_S640000x1x128_S640000x128) := by
  after_results
  rfl

/-- The projection call's first input array at its entry: the scatter-sum by destination of the edge messages. -/
theorem W21_main_v25 (m : (ℓ : Loc nD τ sig) → Buf (Elt F) ℓ) (ρ : Dev nD → PrngReg) (c : Dev nD) :
    W21 m ρ c (Proc.devRef .tc main_v25)
      = Host.scatterAdd (F := F) scatter_S50000x128_S640000x1_S640000x128_1_0_0_1
          (broadcastInDim S50000x128 ![] Facts₀.bcast_S_S50000x128 (constant (F := F) S_ .f32 0x00000000#32))
          (broadcastInDim S640000x1 ![0] Facts₀.bcast_S640000_S640000x1_0 (m ((c.tc : Thread nD τ).loc main_arg2)))
          (msgSpec (m ((c.tc : Thread nD τ).loc main_arg0)) (m ((c.tc : Thread nD τ).loc main_arg1))) := by
  unfold W21
  rw [after10_main_v25, W20_args m ρ c main_arg2 (by decide), W20_main_v2, W20_main_v4, W20_main_v6, W20_main_v8, W20_main_v10,
    W20_main_v12, W20_main_v14, W20_main_v16, W20_main_v18, W20_main_v20, kernel_msgs]

/-- What the kernel program leaves in its result array, over the extended reals, as one function of the argument arrays:
    the dense projection (weight, bias) of the scatter-sum by destination of the edge messages `feat (src e, ·)`. Read
    back through the chain of buffer contents: the projection call's output from its three input arrays; its first
    input the host's scatter-add of the reshaped concatenation of the ten gather calls' outputs; each of those the rows
    its slice of the edge sources names in the reshaped feature table; the arguments as launched. -/
theorem kernel_result (m : (ℓ : Loc nD τ sig) → Buf (Elt Ideal) ℓ) (ρ : Dev nD → PrngReg) (c : Dev nD) :
    W22 (F := Ideal) m ρ c (Proc.devRef .tc main_v26)
      = projSpec
          (Host.scatterAdd (F := Ideal) scatter_S50000x128_S640000x1_S640000x128_1_0_0_1
            (broadcastInDim S50000x128 ![] Facts₀.bcast_S_S50000x128 (constant (F := Ideal) S_ .f32 0x00000000#32))
            (broadcastInDim S640000x1 ![0] Facts₀.bcast_S640000_S640000x1_0 (m ((c.tc : Thread nD τ).loc main_arg2)))
            (msgSpec (m ((c.tc : Thread nD τ).loc main_arg0)) (m ((c.tc : Thread nD τ).loc main_arg1))))
          (m ((c.tc : Thread nD τ).loc main_arg3)) (m ((c.tc : Thread nD τ).loc main_arg4)) := by
  refine (W22_arr m ρ c 3).trans ?_
  rw [proj_arr (V21 m ρ) c]
  exact congr (congr (congrArg projSpec (W21_main_v25 m ρ c)) (W21_args m ρ c main_arg3 (by decide)))
    (W21_args m ρ c main_arg4 (by decide))

end Cert.KernelIdeal.HandValue

end
-- ==== Proof.lean ====
/- The certificate of `Cert.Claim`: the three frames, the (empty) idealization ledger, and the algebraic claim.

   The kernel program gathers, edge by edge, the node-table row the edge's source word names (ten calls of 64000
   edges, sixteen one-row copies a grid step); the host sums the gathered rows by destination; the last call multiplies
   the sums by the weight matrix, its inputs narrowed to bf16 and the products accumulated in f32 from zero, and adds
   the bias. Under the precondition every source word lies below 50000, so each copy stays inside the table and the
   program runs, its arguments unchanged: the frames. Over the extended reals narrowing is the identity and the
   accumulation the exact sum, so the result array ends at the dense projection of the scatter-sum of the edge
   messages; the reference's gather (nothing to wrap, nothing to clamp), scatter-add, `dot_general` and broadcast
   bias are that same function of the same arguments: the algebraic claim. The ideal pass rewrote no operation, so
   the ledger is empty. -/
import proofs.«401076_j19361712571372_2_alg».proof.Defs
import proofs.«401076_j19361712571372_2_alg».proof.Proof.Gen.Kernel
import proofs.«401076_j19361712571372_2_alg».proof.Proof.Gen.KernelIdeal
import proofs.«401076_j19361712571372_2_alg».proof.Proof.Gen.ReferenceIdeal
import proofs.«401076_j19361712571372_2_alg».proof.Proof.Gen.Pre_finite_inputs
import proofs.«401076_j19361712571372_2_alg».proof.Proof.Bridge
import proofs.«401076_j19361712571372_2_alg».proof.Proof.Run
import proofs.«401076_j19361712571372_2_alg».proof.Proof.KRun
import proofs.«401076_j19361712571372_2_alg».proof.Proof.KernelValue

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Bridge.frame_Kernel_of (fun m ρ h => Cert.Kernel.Hand.run_main (F := Bits) m ρ h),
  Bridge.frame_KernelIdeal_of (fun m ρ h => Cert.KernelIdeal.Hand.run_main (F := Ideal) m ρ h),
  Bridge.frame_ReferenceIdeal,
  trivial,
  Bridge.algebraic_of (fun m ρ h => Cert.KernelIdeal.Hand.run_main (F := Ideal) m ρ h) Cert.KernelIdeal.HandValue.kernel_result⟩

end Cert.Proof

end
